-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![8192, 1024]⟩ ⟨2, ![8192, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x8192x2048 : Shape := ⟨3, ![1, 8192, 2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel

variable [Facts]

def fn {F : FTy → Type} [FloatOps F] (main_arg0 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  main_v3
-- ==== Pre_finite_inputs_ReferenceIdeal.lean ====
abbrev S2x8192x2048 : Shape := ⟨3, ![2, 8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  main_v3
-- ==== Kernel.lean ====
abbrev S1x8192x2048 : Shape := ⟨3, ![1, 8192, 2048]⟩
abbrev S8192x1024 : Shape := ⟨2, ![8192, 1024]⟩
abbrev S2x512x1024 : Shape := ⟨3, ![2, 512, 1024]⟩
abbrev S4x512x1024 : Shape := ⟨3, ![4, 512, 1024]⟩
abbrev S16 : Shape := ⟨1, ![16]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .local _ .vmem, ⟨0, _⟩ => ⟨S2x512x1024, .f32⟩
  | .local _ .vmem, ⟨1, _⟩ => ⟨S4x512x1024, .bf16⟩
  | .local _ .vmem, ⟨2, _⟩ => ⟨S2x512x1024, .f32⟩
  | .local _ .vmem, ⟨3, _⟩ => ⟨S2x512x1024, .bf16⟩
  | .local _ .vmem, ⟨4, _⟩ => ⟨S2x512x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_7 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32 : BitVec 32 := 1024#32
  let v10 : BitVec 32 := Scalar.muli v9 c1024_i32
  ![0, 0, v10.toNat]
def k0_off2 (d0 : Dev nD) : Fin 3 → Nat :=
  let c0_i32_9 : BitVec 32 := 0#32
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_8 : BitVec 32 := 1024#32
  let v17 : BitVec 32 := Scalar.muli v2 c1024_i32_8
  ![0, 0, v17.toNat]
def k0_dev1 (d0 : Dev nD) : Nat :=
  let c0_i32_17 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_16 : BitVec 32 := 16#32
  let v25 : BitVec 32 := Scalar.muli v9 c16_i32_16
  let v26 : BitVec 32 := Scalar.addi c0_i32_17 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v27 : BitVec 32 := Scalar.muli v5 c4_i32_18
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c0_i32_22 : BitVec 32 := 0#32
  let c512_i32 : BitVec 32 := 512#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_21 : BitVec 32 := 1024#32
  let v31 : BitVec 32 := Scalar.muli v9 c1024_i32_21
  ![0, 512, v31.toNat]
def k0_dev2 (d0 : Dev nD) : Nat :=
  let c0_i32_43 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_42 : BitVec 32 := 16#32
  let v51 : BitVec 32 := Scalar.muli v9 c16_i32_42
  let v52 : BitVec 32 := Scalar.addi c0_i32_43 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v53 : BitVec 32 := Scalar.muli v5 c4_i32_44
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v55 : BitVec 32 := Scalar.muli v8 c1_i32_45
  let v56 : BitVec 32 := Scalar.addi v54 v55
  v56.toNat
def k0_off4 (d0 : Dev nD) : Fin 3 → Nat :=
  let c0_i32_51 : BitVec 32 := 0#32
  let c1024_i32_56 : BitVec 32 := 1024#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_50 : BitVec 32 := 1024#32
  let v64 : BitVec 32 := Scalar.muli v9 c1024_i32_50
  ![0, 1024, v64.toNat]
def k0_dev3 (d0 : Dev nD) : Nat :=
  let c0_i32_73 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_72 : BitVec 32 := 16#32
  let v84 : BitVec 32 := Scalar.muli v9 c16_i32_72
  let v85 : BitVec 32 := Scalar.addi c0_i32_73 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v86 : BitVec 32 := Scalar.muli v5 c4_i32_74
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v88 : BitVec 32 := Scalar.muli v8 c1_i32_75
  let v89 : BitVec 32 := Scalar.addi v87 v88
  v89.toNat
def k0_off5 (d0 : Dev nD) : Fin 3 → Nat :=
  let c0_i32_81 : BitVec 32 := 0#32
  let c1536_i32 : BitVec 32 := 1536#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_80 : BitVec 32 := 1024#32
  let v97 : BitVec 32 := Scalar.muli v9 c1024_i32_80
  ![0, 1536, v97.toNat]
def k0_dev4 (d0 : Dev nD) : Nat :=
  let c0_i32_102 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_101 : BitVec 32 := 16#32
  let v117 : BitVec 32 := Scalar.muli v9 c16_i32_101
  let v118 : BitVec 32 := Scalar.addi c0_i32_102 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v119 : BitVec 32 := Scalar.muli v5 c4_i32_103
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v121 : BitVec 32 := Scalar.muli v8 c1_i32_104
  let v122 : BitVec 32 := Scalar.addi v120 v121
  v122.toNat
def k0_off6 (d0 : Dev nD) : Fin 3 → Nat :=
  let c0_i32_110 : BitVec 32 := 0#32
  let c2048_i32 : BitVec 32 := 2048#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_109 : BitVec 32 := 1024#32
  let v130 : BitVec 32 := Scalar.muli v9 c1024_i32_109
  ![0, 2048, v130.toNat]
def k0_dev5 (d0 : Dev nD) : Nat :=
  let c0_i32_130 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_129 : BitVec 32 := 16#32
  let v150 : BitVec 32 := Scalar.muli v9 c16_i32_129
  let v151 : BitVec 32 := Scalar.addi c0_i32_130 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v152 : BitVec 32 := Scalar.muli v5 c4_i32_131
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v154 : BitVec 32 := Scalar.muli v8 c1_i32_132
  let v155 : BitVec 32 := Scalar.addi v153 v154
  v155.toNat
def k0_off7 (d0 : Dev nD) : Fin 3 → Nat :=
  let c0_i32_138 : BitVec 32 := 0#32
  let c2560_i32 : BitVec 32 := 2560#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_137 : BitVec 32 := 1024#32
  let v163 : BitVec 32 := Scalar.muli v9 c1024_i32_137
  ![0, 2560, v163.toNat]
def k0_dev6 (d0 : Dev nD) : Nat :=
  let c0_i32_168 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_167 : BitVec 32 := 16#32
  let v188 : BitVec 32 := Scalar.muli v9 c16_i32_167
  let v189 : BitVec 32 := Scalar.addi c0_i32_168 v188
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v190 : BitVec 32 := Scalar.muli v5 c4_i32_169
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v192 : BitVec 32 := Scalar.muli v8 c1_i32_170
  let v193 : BitVec 32 := Scalar.addi v191 v192
  v193.toNat
def k0_off8 (d0 : Dev nD) : Fin 3 → Nat :=
  let c0_i32_176 : BitVec 32 := 0#32
  let c3072_i32 : BitVec 32 := 3072#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_175 : BitVec 32 := 1024#32
  let v201 : BitVec 32 := Scalar.muli v9 c1024_i32_175
  ![0, 3072, v201.toNat]
def k0_dev7 (d0 : Dev nD) : Nat :=
  let c0_i32_205 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_204 : BitVec 32 := 16#32
  let v226 : BitVec 32 := Scalar.muli v9 c16_i32_204
  let v227 : BitVec 32 := Scalar.addi c0_i32_205 v226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_206 : BitVec 32 := 4#32
  let v228 : BitVec 32 := Scalar.muli v5 c4_i32_206
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v230 : BitVec 32 := Scalar.muli v8 c1_i32_207
  let v231 : BitVec 32 := Scalar.addi v229 v230
  v231.toNat
def k0_off9 (d0 : Dev nD) : Fin 3 → Nat :=
  let c0_i32_213 : BitVec 32 := 0#32
  let c3584_i32 : BitVec 32 := 3584#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_212 : BitVec 32 := 1024#32
  let v239 : BitVec 32 := Scalar.muli v9 c1024_i32_212
  ![0, 3584, v239.toNat]
def k0_dev8 (d0 : Dev nD) : Nat :=
  let c0_i32_242 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_241 : BitVec 32 := 16#32
  let v264 : BitVec 32 := Scalar.muli v9 c16_i32_241
  let v265 : BitVec 32 := Scalar.addi c0_i32_242 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v266 : BitVec 32 := Scalar.muli v5 c4_i32_243
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v268 : BitVec 32 := Scalar.muli v8 c1_i32_244
  let v269 : BitVec 32 := Scalar.addi v267 v268
  v269.toNat
def k0_off10 (d0 : Dev nD) : Fin 3 → Nat :=
  let c0_i32_250 : BitVec 32 := 0#32
  let c4096_i32 : BitVec 32 := 4096#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_249 : BitVec 32 := 1024#32
  let v277 : BitVec 32 := Scalar.muli v9 c1024_i32_249
  ![0, 4096, v277.toNat]
def k0_dev9 (d0 : Dev nD) : Nat :=
  let c0_i32_279 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_278 : BitVec 32 := 16#32
  let v302 : BitVec 32 := Scalar.muli v9 c16_i32_278
  let v303 : BitVec 32 := Scalar.addi c0_i32_279 v302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v304 : BitVec 32 := Scalar.muli v5 c4_i32_280
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v306 : BitVec 32 := Scalar.muli v8 c1_i32_281
  let v307 : BitVec 32 := Scalar.addi v305 v306
  v307.toNat
def k0_off11 (d0 : Dev nD) : Fin 3 → Nat :=
  let c0_i32_287 : BitVec 32 := 0#32
  let c4608_i32 : BitVec 32 := 4608#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_286 : BitVec 32 := 1024#32
  let v315 : BitVec 32 := Scalar.muli v9 c1024_i32_286
  ![0, 4608, v315.toNat]
def k0_dev10 (d0 : Dev nD) : Nat :=
  let c0_i32_316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_315 : BitVec 32 := 16#32
  let v340 : BitVec 32 := Scalar.muli v9 c16_i32_315
  let v341 : BitVec 32 := Scalar.addi c0_i32_316 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v342 : BitVec 32 := Scalar.muli v5 c4_i32_317
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v344 : BitVec 32 := Scalar.muli v8 c1_i32_318
  let v345 : BitVec 32 := Scalar.addi v343 v344
  v345.toNat
def k0_off12 (d0 : Dev nD) : Fin 3 → Nat :=
  let c0_i32_324 : BitVec 32 := 0#32
  let c5120_i32 : BitVec 32 := 5120#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_323 : BitVec 32 := 1024#32
  let v353 : BitVec 32 := Scalar.muli v9 c1024_i32_323
  ![0, 5120, v353.toNat]
def k0_dev11 (d0 : Dev nD) : Nat :=
  let c0_i32_353 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_352 : BitVec 32 := 16#32
  let v378 : BitVec 32 := Scalar.muli v9 c16_i32_352
  let v379 : BitVec 32 := Scalar.addi c0_i32_353 v378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_354 : BitVec 32 := 4#32
  let v380 : BitVec 32 := Scalar.muli v5 c4_i32_354
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v382 : BitVec 32 := Scalar.muli v8 c1_i32_355
  let v383 : BitVec 32 := Scalar.addi v381 v382
  v383.toNat
def k0_off13 (d0 : Dev nD) : Fin 3 → Nat :=
  let c0_i32_361 : BitVec 32 := 0#32
  let c5632_i32 : BitVec 32 := 5632#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_360 : BitVec 32 := 1024#32
  let v391 : BitVec 32 := Scalar.muli v9 c1024_i32_360
  ![0, 5632, v391.toNat]
def k0_dev12 (d0 : Dev nD) : Nat :=
  let c0_i32_390 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_389 : BitVec 32 := 16#32
  let v416 : BitVec 32 := Scalar.muli v9 c16_i32_389
  let v417 : BitVec 32 := Scalar.addi c0_i32_390 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_391 : BitVec 32 := 4#32
  let v418 : BitVec 32 := Scalar.muli v5 c4_i32_391
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v420 : BitVec 32 := Scalar.muli v8 c1_i32_392
  let v421 : BitVec 32 := Scalar.addi v419 v420
  v421.toNat
def k0_off14 (d0 : Dev nD) : Fin 3 → Nat :=
  let c0_i32_398 : BitVec 32 := 0#32
  let c6144_i32 : BitVec 32 := 6144#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_397 : BitVec 32 := 1024#32
  let v429 : BitVec 32 := Scalar.muli v9 c1024_i32_397
  ![0, 6144, v429.toNat]
def k0_dev13 (d0 : Dev nD) : Nat :=
  let c0_i32_427 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_426 : BitVec 32 := 16#32
  let v454 : BitVec 32 := Scalar.muli v9 c16_i32_426
  let v455 : BitVec 32 := Scalar.addi c0_i32_427 v454
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_428 : BitVec 32 := 4#32
  let v456 : BitVec 32 := Scalar.muli v5 c4_i32_428
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v458 : BitVec 32 := Scalar.muli v8 c1_i32_429
  let v459 : BitVec 32 := Scalar.addi v457 v458
  v459.toNat
def k0_off15 (d0 : Dev nD) : Fin 3 → Nat :=
  let c0_i32_435 : BitVec 32 := 0#32
  let c6656_i32 : BitVec 32 := 6656#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_434 : BitVec 32 := 1024#32
  let v467 : BitVec 32 := Scalar.muli v9 c1024_i32_434
  ![0, 6656, v467.toNat]
def k0_dev14 (d0 : Dev nD) : Nat :=
  let c0_i32_464 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_463 : BitVec 32 := 16#32
  let v492 : BitVec 32 := Scalar.muli v9 c16_i32_463
  let v493 : BitVec 32 := Scalar.addi c0_i32_464 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_465 : BitVec 32 := 4#32
  let v494 : BitVec 32 := Scalar.muli v5 c4_i32_465
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_466 : BitVec 32 := 1#32
  let v496 : BitVec 32 := Scalar.muli v8 c1_i32_466
  let v497 : BitVec 32 := Scalar.addi v495 v496
  v497.toNat
def k0_off16 (d0 : Dev nD) : Fin 3 → Nat :=
  let c0_i32_472 : BitVec 32 := 0#32
  let c7168_i32 : BitVec 32 := 7168#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_471 : BitVec 32 := 1024#32
  let v505 : BitVec 32 := Scalar.muli v9 c1024_i32_471
  ![0, 7168, v505.toNat]
def k0_dev15 (d0 : Dev nD) : Nat :=
  let c0_i32_501 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_500 : BitVec 32 := 16#32
  let v530 : BitVec 32 := Scalar.muli v9 c16_i32_500
  let v531 : BitVec 32 := Scalar.addi c0_i32_501 v530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_502 : BitVec 32 := 4#32
  let v532 : BitVec 32 := Scalar.muli v5 c4_i32_502
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v534 : BitVec 32 := Scalar.muli v8 c1_i32_503
  let v535 : BitVec 32 := Scalar.addi v533 v534
  v535.toNat
def k0_off17 (d0 : Dev nD) : Fin 3 → Nat :=
  let c0_i32_509 : BitVec 32 := 0#32
  let c7680_i32 : BitVec 32 := 7680#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32_508 : BitVec 32 := 1024#32
  let v543 : BitVec 32 := Scalar.muli v9 c1024_i32_508
  ![0, 7680, v543.toNat]
def k0_dev16 (d0 : Dev nD) : Nat :=
  let c0_i32_538 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_537 : BitVec 32 := 16#32
  let v568 : BitVec 32 := Scalar.muli v9 c16_i32_537
  let v569 : BitVec 32 := Scalar.addi c0_i32_538 v568
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_539 : BitVec 32 := 4#32
  let v570 : BitVec 32 := Scalar.muli v5 c4_i32_539
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v572 : BitVec 32 := Scalar.muli v8 c1_i32_540
  let v573 : BitVec 32 := Scalar.addi v571 v572
  v573.toNat
def k0_dev17 (d0 : Dev nD) : Nat :=
  let c0_i32_569 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_568 : BitVec 32 := 16#32
  let v599 : BitVec 32 := Scalar.muli v9 c16_i32_568
  let v600 : BitVec 32 := Scalar.addi c0_i32_569 v599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_570 : BitVec 32 := 4#32
  let v601 : BitVec 32 := Scalar.muli v5 c4_i32_570
  let v602 : BitVec 32 := Scalar.addi v600 v601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_571 : BitVec 32 := 1#32
  let v603 : BitVec 32 := Scalar.muli v8 c1_i32_571
  let v604 : BitVec 32 := Scalar.addi v602 v603
  v604.toNat
def k0_off18 (d0 : Dev nD) : Fin 3 → Nat :=
  let c0_i32_577 : BitVec 32 := 0#32
  let c512_i32_582 : BitVec 32 := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_576 : BitVec 32 := 1024#32
  let v612 : BitVec 32 := Scalar.muli v2 c1024_i32_576
  ![0, 512, v612.toNat]
def k0_off19 (d0 : Dev nD) : Fin 3 → Nat :=
  let c0_i32_629 : BitVec 32 := 0#32
  let c1024_i32_634 : BitVec 32 := 1024#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_628 : BitVec 32 := 1024#32
  let v662 : BitVec 32 := Scalar.muli v2 c1024_i32_628
  ![0, 1024, v662.toNat]
def k0_off20 (d0 : Dev nD) : Fin 3 → Nat :=
  let c0_i32_681 : BitVec 32 := 0#32
  let c1536_i32_686 : BitVec 32 := 1536#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_680 : BitVec 32 := 1024#32
  let v712 : BitVec 32 := Scalar.muli v2 c1024_i32_680
  ![0, 1536, v712.toNat]
def k0_off21 (d0 : Dev nD) : Fin 3 → Nat :=
  let c0_i32_739 : BitVec 32 := 0#32
  let c2048_i32_744 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_738 : BitVec 32 := 1024#32
  let v767 : BitVec 32 := Scalar.muli v2 c1024_i32_738
  ![0, 2048, v767.toNat]
def k0_off22 (d0 : Dev nD) : Fin 3 → Nat :=
  let c0_i32_797 : BitVec 32 := 0#32
  let c2560_i32_802 : BitVec 32 := 2560#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_796 : BitVec 32 := 1024#32
  let v822 : BitVec 32 := Scalar.muli v2 c1024_i32_796
  ![0, 2560, v822.toNat]
def k0_off23 (d0 : Dev nD) : Fin 3 → Nat :=
  let c0_i32_855 : BitVec 32 := 0#32
  let c3072_i32_860 : BitVec 32 := 3072#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_854 : BitVec 32 := 1024#32
  let v877 : BitVec 32 := Scalar.muli v2 c1024_i32_854
  ![0, 3072, v877.toNat]
def k0_off24 (d0 : Dev nD) : Fin 3 → Nat :=
  let c0_i32_913 : BitVec 32 := 0#32
  let c3584_i32_918 : BitVec 32 := 3584#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_912 : BitVec 32 := 1024#32
  let v932 : BitVec 32 := Scalar.muli v2 c1024_i32_912
  ![0, 3584, v932.toNat]
def k0_off25 (d0 : Dev nD) : Fin 3 → Nat :=
  let c0_i32_971 : BitVec 32 := 0#32
  let c4096_i32_976 : BitVec 32 := 4096#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_970 : BitVec 32 := 1024#32
  let v987 : BitVec 32 := Scalar.muli v2 c1024_i32_970
  ![0, 4096, v987.toNat]
def k0_off26 (d0 : Dev nD) : Fin 3 → Nat :=
  let c0_i32_1029 : BitVec 32 := 0#32
  let c4608_i32_1034 : BitVec 32 := 4608#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1028 : BitVec 32 := 1024#32
  let v1042 : BitVec 32 := Scalar.muli v2 c1024_i32_1028
  ![0, 4608, v1042.toNat]
def k0_off27 (d0 : Dev nD) : Fin 3 → Nat :=
  let c0_i32_1087 : BitVec 32 := 0#32
  let c5120_i32_1092 : BitVec 32 := 5120#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1086 : BitVec 32 := 1024#32
  let v1097 : BitVec 32 := Scalar.muli v2 c1024_i32_1086
  ![0, 5120, v1097.toNat]
def k0_off28 (d0 : Dev nD) : Fin 3 → Nat :=
  let c0_i32_1145 : BitVec 32 := 0#32
  let c5632_i32_1150 : BitVec 32 := 5632#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1144 : BitVec 32 := 1024#32
  let v1152 : BitVec 32 := Scalar.muli v2 c1024_i32_1144
  ![0, 5632, v1152.toNat]
def k0_off29 (d0 : Dev nD) : Fin 3 → Nat :=
  let c0_i32_1203 : BitVec 32 := 0#32
  let c6144_i32_1208 : BitVec 32 := 6144#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1202 : BitVec 32 := 1024#32
  let v1207 : BitVec 32 := Scalar.muli v2 c1024_i32_1202
  ![0, 6144, v1207.toNat]
def k0_off30 (d0 : Dev nD) : Fin 3 → Nat :=
  let c0_i32_1261 : BitVec 32 := 0#32
  let c6656_i32_1266 : BitVec 32 := 6656#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1260 : BitVec 32 := 1024#32
  let v1262 : BitVec 32 := Scalar.muli v2 c1024_i32_1260
  ![0, 6656, v1262.toNat]
def k0_off31 (d0 : Dev nD) : Fin 3 → Nat :=
  let c0_i32_1319 : BitVec 32 := 0#32
  let c7168_i32_1324 : BitVec 32 := 7168#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1318 : BitVec 32 := 1024#32
  let v1317 : BitVec 32 := Scalar.muli v2 c1024_i32_1318
  ![0, 7168, v1317.toNat]
def k0_off32 (d0 : Dev nD) : Fin 3 → Nat :=
  let c0_i32_1377 : BitVec 32 := 0#32
  let c7680_i32_1382 : BitVec 32 := 7680#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_1376 : BitVec 32 := 1024#32
  let v1372 : BitVec 32 := Scalar.muli v2 c1024_i32_1376
  ![0, 7680, v1372.toNat]

class Facts₀ : Prop where
  inb_S2_S1_0 : ∀ a, (![0] : Fin 1 → Nat) a + S1.size a ≤ S2.size a
  squeezes_S1_S_ : S1.Squeezes S_
  inb_S2x512x1024_S1x512x1024_0_0_0 : ∀ a, (![0, 0, 0] : Fin 3 → Nat) a + S1x512x1024.size a ≤ S2x512x1024.size a
  squeezes_S1x512x1024_S512x1024 : S1x512x1024.Squeezes S512x1024
  hamt_1 : (1#32 : BitVec 32).msb = false
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  h_S1x512x1024 : 0 < S1x512x1024.numel
  shapeCasts_S1x512x1024_S512x1024 : S1x512x1024.ShapeCasts S512x1024
  bitsLt_bf16_f32 : FTy.bits .bf16 < FTy.bits .f32
  inb_S4x512x1024_S1x512x1024_0_0_0 : ∀ a, (![0, 0, 0] : Fin 3 → Nat) a + S1x512x1024.size a ≤ S4x512x1024.size a
  shapeCasts_S512x1024_S1x512x1024 : S512x1024.ShapeCasts S1x512x1024
  packedbf16_S4x512x1024_S1x512x1024_0_0_0 : (Rect.unit (s := S4x512x1024) ![0, 0, 0] S1x512x1024.size inb_S4x512x1024_S1x512x1024_0_0_0).PackedRows (EltTy.packing .bf16)
  inb_S16_S1_0 : ∀ a, (![0] : Fin 1 → Nat) a + S1.size a ≤ S16.size a
  inb_S8192x1024_S512x1024_0_0 : ∀ a, (![0, 0] : Fin 2 → Nat) a + S512x1024.size a ≤ S8192x1024.size a
  wordsbf16_S4x512x1024_S1x512x1024_0_0_0 : (Rect.unit (s := S4x512x1024) ![0, 0, 0] S1x512x1024.size inb_S4x512x1024_S1x512x1024_0_0_0).WholeWords (EltTy.packing .bf16)
  wordsbf16_S8192x1024_S512x1024_0_0 : (Rect.unit (s := S8192x1024) ![0, 0] S512x1024.size inb_S8192x1024_S512x1024_0_0).WholeWords (EltTy.packing .bf16)
  inb_S4x512x1024_S1x512x1024_1_0_0 : ∀ a, (![1, 0, 0] : Fin 3 → Nat) a + S1x512x1024.size a ≤ S4x512x1024.size a
  packedbf16_S4x512x1024_S1x512x1024_1_0_0 : (Rect.unit (s := S4x512x1024) ![1, 0, 0] S1x512x1024.size inb_S4x512x1024_S1x512x1024_1_0_0).PackedRows (EltTy.packing .bf16)
  inb_S16_S1_1 : ∀ a, (![1] : Fin 1 → Nat) a + S1.size a ≤ S16.size a
  inb_S8192x1024_S512x1024_512_0 : ∀ a, (![512, 0] : Fin 2 → Nat) a + S512x1024.size a ≤ S8192x1024.size a
  wordsbf16_S4x512x1024_S1x512x1024_1_0_0 : (Rect.unit (s := S4x512x1024) ![1, 0, 0] S1x512x1024.size inb_S4x512x1024_S1x512x1024_1_0_0).WholeWords (EltTy.packing .bf16)
  wordsbf16_S8192x1024_S512x1024_512_0 : (Rect.unit (s := S8192x1024) ![512, 0] S512x1024.size inb_S8192x1024_S512x1024_512_0).WholeWords (EltTy.packing .bf16)
  inb_S4x512x1024_S1x512x1024_2_0_0 : ∀ a, (![2, 0, 0] : Fin 3 → Nat) a + S1x512x1024.size a ≤ S4x512x1024.size a
  packedbf16_S4x512x1024_S1x512x1024_2_0_0 : (Rect.unit (s := S4x512x1024) ![2, 0, 0] S1x512x1024.size inb_S4x512x1024_S1x512x1024_2_0_0).PackedRows (EltTy.packing .bf16)
  inb_S16_S1_2 : ∀ a, (![2] : Fin 1 → Nat) a + S1.size a ≤ S16.size a
  inb_S8192x1024_S512x1024_1024_0 : ∀ a, (![1024, 0] : Fin 2 → Nat) a + S512x1024.size a ≤ S8192x1024.size a
  wordsbf16_S4x512x1024_S1x512x1024_2_0_0 : (Rect.unit (s := S4x512x1024) ![2, 0, 0] S1x512x1024.size inb_S4x512x1024_S1x512x1024_2_0_0).WholeWords (EltTy.packing .bf16)
  wordsbf16_S8192x1024_S512x1024_1024_0 : (Rect.unit (s := S8192x1024) ![1024, 0] S512x1024.size inb_S8192x1024_S512x1024_1024_0).WholeWords (EltTy.packing .bf16)
  inb_S4x512x1024_S1x512x1024_3_0_0 : ∀ a, (![3, 0, 0] : Fin 3 → Nat) a + S1x512x1024.size a ≤ S4x512x1024.size a
  packedbf16_S4x512x1024_S1x512x1024_3_0_0 : (Rect.unit (s := S4x512x1024) ![3, 0, 0] S1x512x1024.size inb_S4x512x1024_S1x512x1024_3_0_0).PackedRows (EltTy.packing .bf16)
  inb_S16_S1_3 : ∀ a, (![3] : Fin 1 → Nat) a + S1.size a ≤ S16.size a
  inb_S8192x1024_S512x1024_1536_0 : ∀ a, (![1536, 0] : Fin 2 → Nat) a + S512x1024.size a ≤ S8192x1024.size a
  wordsbf16_S4x512x1024_S1x512x1024_3_0_0 : (Rect.unit (s := S4x512x1024) ![3, 0, 0] S1x512x1024.size inb_S4x512x1024_S1x512x1024_3_0_0).WholeWords (EltTy.packing .bf16)
  wordsbf16_S8192x1024_S512x1024_1536_0 : (Rect.unit (s := S8192x1024) ![1536, 0] S512x1024.size inb_S8192x1024_S512x1024_1536_0).WholeWords (EltTy.packing .bf16)
  inb_S16_S1_4 : ∀ a, (![4] : Fin 1 → Nat) a + S1.size a ≤ S16.size a
  inb_S8192x1024_S512x1024_2048_0 : ∀ a, (![2048, 0] : Fin 2 → Nat) a + S512x1024.size a ≤ S8192x1024.size a
  wordsbf16_S8192x1024_S512x1024_2048_0 : (Rect.unit (s := S8192x1024) ![2048, 0] S512x1024.size inb_S8192x1024_S512x1024_2048_0).WholeWords (EltTy.packing .bf16)
  inb_S16_S1_5 : ∀ a, (![5] : Fin 1 → Nat) a + S1.size a ≤ S16.size a
  inb_S8192x1024_S512x1024_2560_0 : ∀ a, (![2560, 0] : Fin 2 → Nat) a + S512x1024.size a ≤ S8192x1024.size a
  wordsbf16_S8192x1024_S512x1024_2560_0 : (Rect.unit (s := S8192x1024) ![2560, 0] S512x1024.size inb_S8192x1024_S512x1024_2560_0).WholeWords (EltTy.packing .bf16)
  inb_S16_S1_6 : ∀ a, (![6] : Fin 1 → Nat) a + S1.size a ≤ S16.size a
  inb_S8192x1024_S512x1024_3072_0 : ∀ a, (![3072, 0] : Fin 2 → Nat) a + S512x1024.size a ≤ S8192x1024.size a
  wordsbf16_S8192x1024_S512x1024_3072_0 : (Rect.unit (s := S8192x1024) ![3072, 0] S512x1024.size inb_S8192x1024_S512x1024_3072_0).WholeWords (EltTy.packing .bf16)
  inb_S16_S1_7 : ∀ a, (![7] : Fin 1 → Nat) a + S1.size a ≤ S16.size a
  inb_S8192x1024_S512x1024_3584_0 : ∀ a, (![3584, 0] : Fin 2 → Nat) a + S512x1024.size a ≤ S8192x1024.size a
  wordsbf16_S8192x1024_S512x1024_3584_0 : (Rect.unit (s := S8192x1024) ![3584, 0] S512x1024.size inb_S8192x1024_S512x1024_3584_0).WholeWords (EltTy.packing .bf16)
  inb_S16_S1_8 : ∀ a, (![8] : Fin 1 → Nat) a + S1.size a ≤ S16.size a
  inb_S8192x1024_S512x1024_4096_0 : ∀ a, (![4096, 0] : Fin 2 → Nat) a + S512x1024.size a ≤ S8192x1024.size a
  wordsbf16_S8192x1024_S512x1024_4096_0 : (Rect.unit (s := S8192x1024) ![4096, 0] S512x1024.size inb_S8192x1024_S512x1024_4096_0).WholeWords (EltTy.packing .bf16)
  inb_S16_S1_9 : ∀ a, (![9] : Fin 1 → Nat) a + S1.size a ≤ S16.size a
  inb_S8192x1024_S512x1024_4608_0 : ∀ a, (![4608, 0] : Fin 2 → Nat) a + S512x1024.size a ≤ S8192x1024.size a
  wordsbf16_S8192x1024_S512x1024_4608_0 : (Rect.unit (s := S8192x1024) ![4608, 0] S512x1024.size inb_S8192x1024_S512x1024_4608_0).WholeWords (EltTy.packing .bf16)
  inb_S16_S1_10 : ∀ a, (![10] : Fin 1 → Nat) a + S1.size a ≤ S16.size a
  inb_S8192x1024_S512x1024_5120_0 : ∀ a, (![5120, 0] : Fin 2 → Nat) a + S512x1024.size a ≤ S8192x1024.size a
  wordsbf16_S8192x1024_S512x1024_5120_0 : (Rect.unit (s := S8192x1024) ![5120, 0] S512x1024.size inb_S8192x1024_S512x1024_5120_0).WholeWords (EltTy.packing .bf16)
  inb_S16_S1_11 : ∀ a, (![11] : Fin 1 → Nat) a + S1.size a ≤ S16.size a
  inb_S8192x1024_S512x1024_5632_0 : ∀ a, (![5632, 0] : Fin 2 → Nat) a + S512x1024.size a ≤ S8192x1024.size a
  wordsbf16_S8192x1024_S512x1024_5632_0 : (Rect.unit (s := S8192x1024) ![5632, 0] S512x1024.size inb_S8192x1024_S512x1024_5632_0).WholeWords (EltTy.packing .bf16)
  inb_S16_S1_12 : ∀ a, (![12] : Fin 1 → Nat) a + S1.size a ≤ S16.size a
  inb_S8192x1024_S512x1024_6144_0 : ∀ a, (![6144, 0] : Fin 2 → Nat) a + S512x1024.size a ≤ S8192x1024.size a
  wordsbf16_S8192x1024_S512x1024_6144_0 : (Rect.unit (s := S8192x1024) ![6144, 0] S512x1024.size inb_S8192x1024_S512x1024_6144_0).WholeWords (EltTy.packing .bf16)
  inb_S16_S1_13 : ∀ a, (![13] : Fin 1 → Nat) a + S1.size a ≤ S16.size a
  inb_S8192x1024_S512x1024_6656_0 : ∀ a, (![6656, 0] : Fin 2 → Nat) a + S512x1024.size a ≤ S8192x1024.size a
  wordsbf16_S8192x1024_S512x1024_6656_0 : (Rect.unit (s := S8192x1024) ![6656, 0] S512x1024.size inb_S8192x1024_S512x1024_6656_0).WholeWords (EltTy.packing .bf16)
  inb_S16_S1_14 : ∀ a, (![14] : Fin 1 → Nat) a + S1.size a ≤ S16.size a
  inb_S8192x1024_S512x1024_7168_0 : ∀ a, (![7168, 0] : Fin 2 → Nat) a + S512x1024.size a ≤ S8192x1024.size a
  wordsbf16_S8192x1024_S512x1024_7168_0 : (Rect.unit (s := S8192x1024) ![7168, 0] S512x1024.size inb_S8192x1024_S512x1024_7168_0).WholeWords (EltTy.packing .bf16)
  inb_S16_S1_15 : ∀ a, (![15] : Fin 1 → Nat) a + S1.size a ≤ S16.size a
  inb_S8192x1024_S512x1024_7680_0 : ∀ a, (![7680, 0] : Fin 2 → Nat) a + S512x1024.size a ≤ S8192x1024.size a
  wordsbf16_S8192x1024_S512x1024_7680_0 : (Rect.unit (s := S8192x1024) ![7680, 0] S512x1024.size inb_S8192x1024_S512x1024_7680_0).WholeWords (EltTy.packing .bf16)
  wordsbf16_S2x512x1024_S1x512x1024_0_0_0 : (Rect.unit (s := S2x512x1024) ![0, 0, 0] S1x512x1024.size inb_S2x512x1024_S1x512x1024_0_0_0).WholeWords (EltTy.packing .bf16)
  packedbf16_S2x512x1024_S1x512x1024_0_0_0 : (Rect.unit (s := S2x512x1024) ![0, 0, 0] S1x512x1024.size inb_S2x512x1024_S1x512x1024_0_0_0).PackedRows (EltTy.packing .bf16)
  wordsbf16_S2x512x1024_S1x512x1024_1_0_0 : (Rect.unit (s := S2x512x1024) ![1, 0, 0] S1x512x1024.size inb_S2x512x1024_S1x512x1024_1_0_0).WholeWords (EltTy.packing .bf16)
  packedbf16_S2x512x1024_S1x512x1024_1_0_0 : (Rect.unit (s := S2x512x1024) ![1, 0, 0] S1x512x1024.size inb_S2x512x1024_S1x512x1024_1_0_0).PackedRows (EltTy.packing .bf16)
  hcc0_scratch5 : 0 + S16.numel ≤ 40
  hcc0_scratch6 : 16 + S16.numel ≤ 40
  hcc0_scratch7 : 32 + S2.numel ≤ 40
  hcc0_scratch8 : 34 + S2.numel ≤ 40
  hcc0_scratch9 : 36 + S2.numel ≤ 40
  hcc0_scratch10 : 38 + S2.numel ≤ 40
  k0_off1_inb : ∀ d0 : Dev nD, ∀ a, (k0_off1 d0) a + S1x512x1024.size a ≤ S1x8192x2048.size a
  k0_off2_inb : ∀ d0 : Dev nD, ∀ a, (k0_off2 d0) a + S1x512x1024.size a ≤ S1x8192x2048.size a
  k0_dev1_lt : ∀ d0 : Dev nD, (k0_dev1 d0) < nD
  k0_off3_inb : ∀ d0 : Dev nD, ∀ a, (k0_off3 d0) a + S1x512x1024.size a ≤ S1x8192x2048.size a
  k0_dev2_lt : ∀ d0 : Dev nD, (k0_dev2 d0) < nD
  k0_off4_inb : ∀ d0 : Dev nD, ∀ a, (k0_off4 d0) a + S1x512x1024.size a ≤ S1x8192x2048.size a
  k0_dev3_lt : ∀ d0 : Dev nD, (k0_dev3 d0) < nD
  k0_off5_inb : ∀ d0 : Dev nD, ∀ a, (k0_off5 d0) a + S1x512x1024.size a ≤ S1x8192x2048.size a
  k0_dev4_lt : ∀ d0 : Dev nD, (k0_dev4 d0) < nD
  k0_off6_inb : ∀ d0 : Dev nD, ∀ a, (k0_off6 d0) a + S1x512x1024.size a ≤ S1x8192x2048.size a
  k0_dev5_lt : ∀ d0 : Dev nD, (k0_dev5 d0) < nD
  k0_off7_inb : ∀ d0 : Dev nD, ∀ a, (k0_off7 d0) a + S1x512x1024.size a ≤ S1x8192x2048.size a
  k0_dev6_lt : ∀ d0 : Dev nD, (k0_dev6 d0) < nD
  k0_off8_inb : ∀ d0 : Dev nD, ∀ a, (k0_off8 d0) a + S1x512x1024.size a ≤ S1x8192x2048.size a
  k0_dev7_lt : ∀ d0 : Dev nD, (k0_dev7 d0) < nD
  k0_off9_inb : ∀ d0 : Dev nD, ∀ a, (k0_off9 d0) a + S1x512x1024.size a ≤ S1x8192x2048.size a
  k0_dev8_lt : ∀ d0 : Dev nD, (k0_dev8 d0) < nD
  k0_off10_inb : ∀ d0 : Dev nD, ∀ a, (k0_off10 d0) a + S1x512x1024.size a ≤ S1x8192x2048.size a
  k0_dev9_lt : ∀ d0 : Dev nD, (k0_dev9 d0) < nD
  k0_off11_inb : ∀ d0 : Dev nD, ∀ a, (k0_off11 d0) a + S1x512x1024.size a ≤ S1x8192x2048.size a
  k0_dev10_lt : ∀ d0 : Dev nD, (k0_dev10 d0) < nD
  k0_off12_inb : ∀ d0 : Dev nD, ∀ a, (k0_off12 d0) a + S1x512x1024.size a ≤ S1x8192x2048.size a
  k0_dev11_lt : ∀ d0 : Dev nD, (k0_dev11 d0) < nD
  k0_off13_inb : ∀ d0 : Dev nD, ∀ a, (k0_off13 d0) a + S1x512x1024.size a ≤ S1x8192x2048.size a
  k0_dev12_lt : ∀ d0 : Dev nD, (k0_dev12 d0) < nD
  k0_off14_inb : ∀ d0 : Dev nD, ∀ a, (k0_off14 d0) a + S1x512x1024.size a ≤ S1x8192x2048.size a
  k0_dev13_lt : ∀ d0 : Dev nD, (k0_dev13 d0) < nD
  k0_off15_inb : ∀ d0 : Dev nD, ∀ a, (k0_off15 d0) a + S1x512x1024.size a ≤ S1x8192x2048.size a
  k0_dev14_lt : ∀ d0 : Dev nD, (k0_dev14 d0) < nD
  k0_off16_inb : ∀ d0 : Dev nD, ∀ a, (k0_off16 d0) a + S1x512x1024.size a ≤ S1x8192x2048.size a
  k0_dev15_lt : ∀ d0 : Dev nD, (k0_dev15 d0) < nD
  k0_off17_inb : ∀ d0 : Dev nD, ∀ a, (k0_off17 d0) a + S1x512x1024.size a ≤ S1x8192x2048.size a
  k0_dev16_lt : ∀ d0 : Dev nD, (k0_dev16 d0) < nD
  k0_dev17_lt : ∀ d0 : Dev nD, (k0_dev17 d0) < nD
  k0_off18_inb : ∀ d0 : Dev nD, ∀ a, (k0_off18 d0) a + S1x512x1024.size a ≤ S1x8192x2048.size a
  k0_off19_inb : ∀ d0 : Dev nD, ∀ a, (k0_off19 d0) a + S1x512x1024.size a ≤ S1x8192x2048.size a
  k0_off20_inb : ∀ d0 : Dev nD, ∀ a, (k0_off20 d0) a + S1x512x1024.size a ≤ S1x8192x2048.size a
  k0_off21_inb : ∀ d0 : Dev nD, ∀ a, (k0_off21 d0) a + S1x512x1024.size a ≤ S1x8192x2048.size a
  k0_off22_inb : ∀ d0 : Dev nD, ∀ a, (k0_off22 d0) a + S1x512x1024.size a ≤ S1x8192x2048.size a
  k0_off23_inb : ∀ d0 : Dev nD, ∀ a, (k0_off23 d0) a + S1x512x1024.size a ≤ S1x8192x2048.size a
  k0_off24_inb : ∀ d0 : Dev nD, ∀ a, (k0_off24 d0) a + S1x512x1024.size a ≤ S1x8192x2048.size a
  k0_off25_inb : ∀ d0 : Dev nD, ∀ a, (k0_off25 d0) a + S1x512x1024.size a ≤ S1x8192x2048.size a
  k0_off26_inb : ∀ d0 : Dev nD, ∀ a, (k0_off26 d0) a + S1x512x1024.size a ≤ S1x8192x2048.size a
  k0_off27_inb : ∀ d0 : Dev nD, ∀ a, (k0_off27 d0) a + S1x512x1024.size a ≤ S1x8192x2048.size a
  k0_off28_inb : ∀ d0 : Dev nD, ∀ a, (k0_off28 d0) a + S1x512x1024.size a ≤ S1x8192x2048.size a
  k0_off29_inb : ∀ d0 : Dev nD, ∀ a, (k0_off29 d0) a + S1x512x1024.size a ≤ S1x8192x2048.size a
  k0_off30_inb : ∀ d0 : Dev nD, ∀ a, (k0_off30 d0) a + S1x512x1024.size a ≤ S1x8192x2048.size a
  k0_off31_inb : ∀ d0 : Dev nD, ∀ a, (k0_off31 d0) a + S1x512x1024.size a ≤ S1x8192x2048.size a
  k0_off32_inb : ∀ d0 : Dev nD, ∀ a, (k0_off32 d0) a + S1x512x1024.size a ≤ S1x8192x2048.size a

variable [Facts₀]

abbrev cc0_scratch5 : DmaSems sig S16 := SemArray.consecutive 0 S16 hcc0_scratch5
abbrev cc0_scratch6 : DmaSems sig S16 := SemArray.consecutive 16 S16 hcc0_scratch6
abbrev cc0_scratch7 : DmaSems sig S2 := SemArray.consecutive 32 S2 hcc0_scratch7
abbrev cc0_scratch8 : DmaSems sig S2 := SemArray.consecutive 34 S2 hcc0_scratch8
abbrev cc0_scratch9 : DmaSems sig S2 := SemArray.consecutive 36 S2 hcc0_scratch9
abbrev cc0_scratch10 : DmaSems sig S2 := SemArray.consecutive 38 S2 hcc0_scratch10

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | .hbm, ⟨3, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x8192x2048_S8192x2048_d0 : S2x8192x2048.ReducesTo [0] S8192x2048
  h_S_ : 0 < S_.numel
  bitsLt_bf16_f32 : FTy.bits .bf16 < FTy.bits .f32

variable [Facts₀]

class Facts : Prop extends Facts₀ where

variable [Facts]
-- ==== Proof.KernelIdealProto.lean ====
import proofs.«901042_g7700000000001043_dist_rs_v7x_xyz2x4x4_x_m8192_n1024_bf16_1_alg».proof.Proof.Gen.KernelIdeal
import proofs.«901042_g7700000000001043_dist_rs_v7x_xyz2x4x4_x_m8192_n1024_bf16_1_alg».proof.Proof.Gen.KernelIdeal.Skeleton
import proofs.«901042_g7700000000001043_dist_rs_v7x_xyz2x4x4_x_m8192_n1024_bf16_1_alg».proof.Proof.Gen.KernelIdeal.Launch
import proofs.«901042_g7700000000001043_dist_rs_v7x_xyz2x4x4_x_m8192_n1024_bf16_1_alg».proof.Proof.Gen.KernelIdeal.Points
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two copies of the rounds algebra: the pipeline library's and the exchange's -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's copy: the left half of the right factor (the other half counts the local copies in flight). -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by unfold ER; infer_instance

omit [FloatOps F] in
/-- The launch element splits into the pipeline library's half and the exchange's. -/
theorem ownU_split (a : UR sig nD τ) (b : UB) :
    (ownU ((a, (b, 1)) : UU) : sProp (MT nD τ sig Unit (Elt F) ℕ UU ℕ)) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

variable (m : (ℓ : Loc nD τ sig) → Buf (Elt F) ℓ) (ρ : Dev nD → PrngReg)

/-! ## The partner device: the one with the other coordinate on the first mesh axis -/

def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem dev_closed (c : Dev nD) : (4 * ((c.val / 4) % 4) + (c.val % 4) + 16) - 16 * (c.val / 16) = (peer c).val := by revert c; decide

def pairing : Dev nD ≃ Dev nD := ⟨peer, peer, peer_peer, peer_peer⟩

/-! ## Memrefs: a slot of the outgoing staging buffer, a band of rows of the landing array -/

theorem slot_inb (j : Fin 4) : ∀ a, (![j.val, 0, 0] : Fin 3 → Nat) a + S1x512x1024.size a ≤ S4x512x1024.size a := by revert j; decide
theorem rows_inb (k : Fin 16) : ∀ a, (![512 * k.val, 0] : Fin 2 → Nat) a + S512x1024.size a ≤ S8192x1024.size a := by revert k; decide

abbrev slotM (j : Fin 4) : Memref sig .tc .vmem S512x1024 .bf16 :=
  ((Memref.whole cc0_scratch1).slice (Rect.unit (s := S4x512x1024) ![j.val, 0, 0] S1x512x1024.size (slot_inb j)) (fun _ => rfl)).squeeze S512x1024 squeezes_S1x512x1024_S512x1024
abbrev rowsM (k : Fin 16) : Memref sig .tc .hbm S512x1024 .bf16 :=
  (Memref.whole main_v1_1).slice (Rect.unit (s := S8192x1024) ![512 * k.val, 0] S512x1024.size (rows_inb k)) (fun _ => rfl)

/-! ## Cells: the runtime's barrier semaphore, sixteen departure and sixteen arrival semaphores a device -/

abbrev barS : Sem sig := (SemArray.scalar (sig.barrier 0 rfl) : Sems sig S_).sem
abbrev sendS (k : Fin 16) : DmaSem sig := ⟨k.val, (by have := k.isLt; show k.val < 40; omega)⟩
abbrev recvS (k : Fin 16) : DmaSem sig := ⟨16 + k.val, (by have := k.isLt; show 16 + k.val < 40; omega)⟩

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- The credit of one chunk's transfer. -/
abbrev N : ℕ := (rowsM 0).view.dmaCredit
theorem N_pos : 0 < N := View.dmaCredit_pos _ (by decide)

/-! ## Contents -/

/-- Rounding a single-precision number to the narrow format, and widening it back. -/
def tr (x : F .f32) : F .bf16 := FloatOps.truncf .bf16 bitsLt_bf16_f32 x
def ex (x : F .bf16) : F .f32 := FloatOps.extf .f32 bitsLt_bf16_f32 x

/-- The first column of the half of the columns device `c` reduces. -/
def col (c : Dev nD) : ℕ := 1024 * (c.val / 16)
theorem col_le (c : Dev nD) : col c ≤ 1024 := by revert c; decide

/-- Device `c`'s slice of the input: one slab of all rows and columns. -/
def xarr (c : Dev nD) : S1x8192x2048.Idx → F .f32 := m ((c : Thread nD τ).loc main_arg0)

/-- Entry (r, j) of what device `c` receives: its partner's entry (r, col c + j), rounded. -/
def recvFull (c : Dev nD) : Buf (Elt F) ((c : Thread nD τ).loc main_v1_1) := fun (i : S8192x1024.Idx) =>
  tr (xarr m (peer c) (ValueIdx.ix3 (⟨0, by decide⟩ : Fin 1) (⟨(i 0).val, (i 0).isLt⟩ : Fin 8192)
    (⟨col c + (i 1).val, by have := col_le c; have : (i 1).val < 1024 := (i 1).isLt; omega⟩ : Fin 2048)))

/-- Entry (r, j) of device `c`'s result: its own entry (r, col c + j) plus what it received there, rounded. -/
def outFull (c : Dev nD) : Buf (Elt F) ((c : Thread nD τ).loc main_v1_0) := fun (i : S8192x1024.Idx) =>
  tr (FloatOps.addf (xarr m c (ValueIdx.ix3 (⟨0, by decide⟩ : Fin 1) (⟨(i 0).val, (i 0).isLt⟩ : Fin 8192)
    (⟨col c + (i 1).val, by have := col_le c; have : (i 1).val < 1024 := (i 1).isLt; omega⟩ : Fin 2048))) (ex (recvFull m c i)))

/-! ## The schedule: one round; each cell one duty -/

/-- The partner's signal hands a device the partner's whole landing array, as launched. -/
def barPay (c : Dev nD) : sProp 𝕄 := (((peer c : Dev nD) : Thread nD τ).loc main_v1_1) ↦{fullShare} m (((peer c : Dev nD) : Thread nD τ).loc main_v1_1)
/-- A departure hands the sender its staging slot back. -/
def sendPay (c : Dev nD) (k : Fin 16) : sProp 𝕄 :=
  iprop(∃ f, (slotM ⟨k.val % 4, Nat.mod_lt _ (by decide)⟩).view.loc (c : Thread nD τ) ↦[(slotM ⟨k.val % 4, Nat.mod_lt _ (by decide)⟩).view.set]{fullShare} f)
/-- An arrival hands the receiver band `k` of its landing array, holding the partner's chunk. -/
def recvPay (c : Dev nD) (k : Fin 16) : sProp 𝕄 :=
  (rowsM k).view.loc (c : Thread nD τ) ↦[(rowsM k).view.set]{fullShare} recvFull m c

def protoSem : SemLoc sig → Bool
  | .reg s => decide (s = barS)
  | .dma i => decide (i.val < 32)

def pay (g : GSem nD τ sig) : sProp 𝕄 :=
  match g.2 with
  | .reg _ => barPay m g.1.1
  | .dma i => if h : i.val < 16 then sendPay g.1.1 ⟨i.val, h⟩ else if h2 : i.val < 32 then recvPay m g.1.1 ⟨i.val - 16, by omega⟩ else iprop(emp)

def sched : Rounds.Schedule (GSem nD τ sig) Unit 𝕄 where
  duties g r := if r = 0 ∧ g.1.2 = .tc ∧ protoSem g.2 = true then {()} else ∅
  unitless _ := False
  amount g _ _ := if g.2 = .reg barS then 1 else N
  payload g _ _ := pay m g
  amount_pos g _ _ _ := by
    by_cases h : g.2 = .reg barS
    · rw [if_pos h]; exact Nat.one_pos
    · rw [if_neg h]; exact N_pos

instance pay_storable (g : GSem nD τ sig) : BI.Storable (upEmb : UEmb _ 𝕄) (pay (F := F) m g) := by
  unfold pay barPay sendPay recvPay
  (repeat' split) <;> infer_instance

instance sched_payload_storable (g : GSem nD τ sig) (r : ℕ) (d : Unit) :
    BI.Storable (upEmb : UEmb _ 𝕄) ((sched (F := F) m).payload g r d) := pay_storable m g

section Tables
variable (c : Dev nD) (k : Fin 16)

theorem duties_bar : (sched (F := F) m).duties (barCell c) 0 = {()} := by dsimp only [sched]; exact if_pos ⟨rfl, rfl, by simp [protoSem]⟩
theorem duties_send : (sched (F := F) m).duties (sendCell c k) 0 = {()} := by
  dsimp only [sched]; exact if_pos ⟨rfl, rfl, by have := k.isLt; simp [protoSem]; omega⟩
theorem duties_recv : (sched (F := F) m).duties (recvCell c k) 0 = {()} := by
  dsimp only [sched]; exact if_pos ⟨rfl, rfl, by have := k.isLt; simp [protoSem]; omega⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c k) 0 d = N := by dsimp only [sched]; exact if_neg (fun h => by cases h)
theorem amount_recv (d : Unit) : (sched (F := F) m).amount (recvCell c k) 0 d = N := by dsimp only [sched]; exact if_neg (fun h => by cases h)

theorem expect_bar : (sched (F := F) m).expect (barCell c) 0 = 1 := by
  unfold Schedule.expect Schedule.amountOf; rw [duties_bar, Finset.sum_singleton, amount_bar]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (d : Unit) : (sched (F := F) m).payload (barCell c) 0 d = barPay m c := rfl
theorem payload_bar_peer (d : Unit) : (sched (F := F) m).payload (barCell (peer c)) 0 d
    = ((((c : Dev nD) : Thread nD τ).loc main_v1_1) ↦{fullShare} m (((c : Dev nD) : Thread nD τ).loc main_v1_1) : sProp 𝕄) := by
  show barPay m (peer c) = _
  unfold barPay; rw [peer_peer]
theorem payload_send (d : Unit) : (sched (F := F) m).payload (sendCell c k) 0 d = sendPay c k := by
  show pay m (sendCell c k) = _
  unfold pay; dsimp only; rw [dif_pos k.isLt]
theorem payload_recv (d : Unit) : (sched (F := F) m).payload (recvCell c k) 0 d = recvPay m c k := by
  show pay m (recvCell c k) = _
  unfold pay; dsimp only
  rw [dif_neg (by show ¬ (16 + k.val < 16); omega), dif_pos (by show 16 + k.val < 32; have := k.isLt; omega)]
  congr 1
  exact Fin.ext (by show 16 + k.val - 16 = k.val; omega)

end Tables

/-! ## What a device owes at launch; the levels -/

def L (g : GSem nD τ sig) : Finset Unit := if g.1.2 = .tc then {()} else ∅
/-- The barrier cells at 1, the arrival cells at 2, every other cell at 0. -/
def lv (g : GSem nD τ sig) (_ : Unit) : ℕ :=
  match g.2 with
  | .reg _ => 1
  | .dma i => if 16 ≤ i.val ∧ i.val < 32 then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device `c` owes at launch: the credit of each of its partner's sixteen arrival cells, and one unit of the partner's barrier cell. -/
def O₀ (c : Dev nD) : CellTallies nD τ sig Unit := ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N) + tallyAt (barCell (peer c)) () 1)

end Cert.KernelIdeal.RS

end
-- ==== Proof.KernelIdealState.lean ====
import proofs.«901042_g7700000000001043_dist_rs_v7x_xyz2x4x4_x_m8192_n1024_bf16_1_alg».proof.Proof.KernelIdealProto

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

abbrev 𝒱₀ : Variants := Variants.none

/-! ## What a device's body starts from and ends with -/

/-- The invariants of the cells device `c`'s body opens, at the names `K`: its own thirty-three, its partner's barrier cell and its partner's sixteen arrival cells. -/
def invs (K : Dev nD × Fin 33 → ℕ) (c : Dev nD) : sProp 𝕄 :=
  iprop(cellInv ER (sched m) (K (c, 0)) (barCell c)
    ∗ cellInv ER (sched m) (K (c, 1)) (sendCell c 0)
    ∗ cellInv ER (sched m) (K (c, 2)) (sendCell c 1)
    ∗ cellInv ER (sched m) (K (c, 3)) (sendCell c 2)
    ∗ cellInv ER (sched m) (K (c, 4)) (sendCell c 3)
    ∗ cellInv ER (sched m) (K (c, 5)) (sendCell c 4)
    ∗ cellInv ER (sched m) (K (c, 6)) (sendCell c 5)
    ∗ cellInv ER (sched m) (K (c, 7)) (sendCell c 6)
    ∗ cellInv ER (sched m) (K (c, 8)) (sendCell c 7)
    ∗ cellInv ER (sched m) (K (c, 9)) (sendCell c 8)
    ∗ cellInv ER (sched m) (K (c, 10)) (sendCell c 9)
    ∗ cellInv ER (sched m) (K (c, 11)) (sendCell c 10)
    ∗ cellInv ER (sched m) (K (c, 12)) (sendCell c 11)
    ∗ cellInv ER (sched m) (K (c, 13)) (sendCell c 12)
    ∗ cellInv ER (sched m) (K (c, 14)) (sendCell c 13)
    ∗ cellInv ER (sched m) (K (c, 15)) (sendCell c 14)
    ∗ cellInv ER (sched m) (K (c, 16)) (sendCell c 15)
    ∗ cellInv ER (sched m) (K (c, 17)) (recvCell c 0)
    ∗ cellInv ER (sched m) (K (c, 18)) (recvCell c 1)
    ∗ cellInv ER (sched m) (K (c, 19)) (recvCell c 2)
    ∗ cellInv ER (sched m) (K (c, 20)) (recvCell c 3)
    ∗ cellInv ER (sched m) (K (c, 21)) (recvCell c 4)
    ∗ cellInv ER (sched m) (K (c, 22)) (recvCell c 5)
    ∗ cellInv ER (sched m) (K (c, 23)) (recvCell c 6)
    ∗ cellInv ER (sched m) (K (c, 24)) (recvCell c 7)
    ∗ cellInv ER (sched m) (K (c, 25)) (recvCell c 8)
    ∗ cellInv ER (sched m) (K (c, 26)) (recvCell c 9)
    ∗ cellInv ER (sched m) (K (c, 27)) (recvCell c 10)
    ∗ cellInv ER (sched m) (K (c, 28)) (recvCell c 11)
    ∗ cellInv ER (sched m) (K (c, 29)) (recvCell c 12)
    ∗ cellInv ER (sched m) (K (c, 30)) (recvCell c 13)
    ∗ cellInv ER (sched m) (K (c, 31)) (recvCell c 14)
    ∗ cellInv ER (sched m) (K (c, 32)) (recvCell c 15)
    ∗ cellInv ER (sched m) (K (peer c, 0)) (barCell (peer c))
    ∗ cellInv ER (sched m) (K (peer c, 17)) (recvCell (peer c) 0)
    ∗ cellInv ER (sched m) (K (peer c, 18)) (recvCell (peer c) 1)
    ∗ cellInv ER (sched m) (K (peer c, 19)) (recvCell (peer c) 2)
    ∗ cellInv ER (sched m) (K (peer c, 20)) (recvCell (peer c) 3)
    ∗ cellInv ER (sched m) (K (peer c, 21)) (recvCell (peer c) 4)
    ∗ cellInv ER (sched m) (K (peer c, 22)) (recvCell (peer c) 5)
    ∗ cellInv ER (sched m) (K (peer c, 23)) (recvCell (peer c) 6)
    ∗ cellInv ER (sched m) (K (peer c, 24)) (recvCell (peer c) 7)
    ∗ cellInv ER (sched m) (K (peer c, 25)) (recvCell (peer c) 8)
    ∗ cellInv ER (sched m) (K (peer c, 26)) (recvCell (peer c) 9)
    ∗ cellInv ER (sched m) (K (peer c, 27)) (recvCell (peer c) 10)
    ∗ cellInv ER (sched m) (K (peer c, 28)) (recvCell (peer c) 11)
    ∗ cellInv ER (sched m) (K (peer c, 29)) (recvCell (peer c) 12)
    ∗ cellInv ER (sched m) (K (peer c, 30)) (recvCell (peer c) 13)
    ∗ cellInv ER (sched m) (K (peer c, 31)) (recvCell (peer c) 14)
    ∗ cellInv ER (sched m) (K (peer c, 32)) (recvCell (peer c) 15))
instance invs_persistent (K : Dev nD × Fin 33 → ℕ) (c : Dev nD) : BI.Persistent (invs (F := F) m K c) := by unfold invs; infer_instance

/-- Round 0 of every cell the body touches is reached, and the level facts. -/
def marks (c : Dev nD) : sProp 𝕄 :=
  iprop(reached ER (barCell c) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell c 9) 0
    ∗ reached ER (recvCell c 10) 0
    ∗ reached ER (recvCell c 11) 0
    ∗ reached ER (recvCell c 12) 0
    ∗ reached ER (recvCell c 13) 0
    ∗ reached ER (recvCell c 14) 0
    ∗ reached ER (recvCell c 15) 0
    ∗ reached ER (barCell (peer c)) 0
    ∗ reached ER (recvCell (peer c) 0) 0
    ∗ reached ER (recvCell (peer c) 1) 0
    ∗ reached ER (recvCell (peer c) 2) 0
    ∗ reached ER (recvCell (peer c) 3) 0
    ∗ reached ER (recvCell (peer c) 4) 0
    ∗ reached ER (recvCell (peer c) 5) 0
    ∗ reached ER (recvCell (peer c) 6) 0
    ∗ reached ER (recvCell (peer c) 7) 0
    ∗ reached ER (recvCell (peer c) 8) 0
    ∗ reached ER (recvCell (peer c) 9) 0
    ∗ reached ER (recvCell (peer c) 10) 0
    ∗ reached ER (recvCell (peer c) 11) 0
    ∗ reached ER (recvCell (peer c) 12) 0
    ∗ reached ER (recvCell (peer c) 13) 0
    ∗ reached ER (recvCell (peer c) 14) 0
    ∗ reached ER (recvCell (peer c) 15) 0)
instance marks_persistent (c : Dev nD) : BI.Persistent (marks (F := F) c) := by unfold marks; infer_instance

/-- Device `c`'s positions: round 0 of each of its own cells, nothing consumed. -/
def positions (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0)

/-- The tokens of the duties device `c` pays: its partner's barrier duty, its partner's sixteen arrival duties, its own sixteen departure duties. -/
def payToks (c : Dev nD) : sProp 𝕄 :=
  iprop(dutyTok ER (barCell (peer c)) 0 ()
    ∗ dutyTok ER (recvCell (peer c) 0) 0 ()
    ∗ dutyTok ER (recvCell (peer c) 1) 0 ()
    ∗ dutyTok ER (recvCell (peer c) 2) 0 ()
    ∗ dutyTok ER (recvCell (peer c) 3) 0 ()
    ∗ dutyTok ER (recvCell (peer c) 4) 0 ()
    ∗ dutyTok ER (recvCell (peer c) 5) 0 ()
    ∗ dutyTok ER (recvCell (peer c) 6) 0 ()
    ∗ dutyTok ER (recvCell (peer c) 7) 0 ()
    ∗ dutyTok ER (recvCell (peer c) 8) 0 ()
    ∗ dutyTok ER (recvCell (peer c) 9) 0 ()
    ∗ dutyTok ER (recvCell (peer c) 10) 0 ()
    ∗ dutyTok ER (recvCell (peer c) 11) 0 ()
    ∗ dutyTok ER (recvCell (peer c) 12) 0 ()
    ∗ dutyTok ER (recvCell (peer c) 13) 0 ()
    ∗ dutyTok ER (recvCell (peer c) 14) 0 ()
    ∗ dutyTok ER (recvCell (peer c) 15) 0 ()
    ∗ dutyTok ER (sendCell c 0) 0 ()
    ∗ dutyTok ER (sendCell c 1) 0 ()
    ∗ dutyTok ER (sendCell c 2) 0 ()
    ∗ dutyTok ER (sendCell c 3) 0 ()
    ∗ dutyTok ER (sendCell c 4) 0 ()
    ∗ dutyTok ER (sendCell c 5) 0 ()
    ∗ dutyTok ER (sendCell c 6) 0 ()
    ∗ dutyTok ER (sendCell c 7) 0 ()
    ∗ dutyTok ER (sendCell c 8) 0 ()
    ∗ dutyTok ER (sendCell c 9) 0 ()
    ∗ dutyTok ER (sendCell c 10) 0 ()
    ∗ dutyTok ER (sendCell c 11) 0 ()
    ∗ dutyTok ER (sendCell c 12) 0 ()
    ∗ dutyTok ER (sendCell c 13) 0 ()
    ∗ dutyTok ER (sendCell c 14) 0 ()
    ∗ dutyTok ER (sendCell c 15) 0 ())

def ghost (K : Dev nD × Fin 33 → ℕ) (c : Dev nD) : sProp 𝕄 :=
  iprop(invs m K c ∗ marks c ∗ positions c ∗ payToks c)

/-- The credit dealt at launch: one unit of its barrier cell, a chunk's credit of each arrival cell. -/
def creds (c : Dev nD) : sProp 𝕄 :=
  iprop(cred (tallyAt (barCell c) () 1)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N))

/-- The three arrays of the call, as launched. -/
def held (c : Dev nD) : sProp 𝕄 :=
  iprop((((c : Thread nD τ).loc main_arg0) ↦{fullShare} m ((c : Thread nD τ).loc main_arg0))
    ∗ (((c : Thread nD τ).loc main_v1_0) ↦{fullShare} m ((c : Thread nD τ).loc main_v1_0))
    ∗ (((c : Thread nD τ).loc main_v1_1) ↦{fullShare} m ((c : Thread nD τ).loc main_v1_1)))

/-- The eight semaphores of the local copies, at zero. -/
def localSems (c : Dev nD) : sProp 𝕄 :=
  iprop(semVal (((c : Thread nD τ), SemLoc.dma (⟨32, by decide⟩ : DmaSem sig)) : GSem nD τ sig) 0
    ∗ semVal (((c : Thread nD τ), SemLoc.dma (⟨33, by decide⟩ : DmaSem sig)) : GSem nD τ sig) 0
    ∗ semVal (((c : Thread nD τ), SemLoc.dma (⟨34, by decide⟩ : DmaSem sig)) : GSem nD τ sig) 0
    ∗ semVal (((c : Thread nD τ), SemLoc.dma (⟨35, by decide⟩ : DmaSem sig)) : GSem nD τ sig) 0
    ∗ semVal (((c : Thread nD τ), SemLoc.dma (⟨36, by decide⟩ : DmaSem sig)) : GSem nD τ sig) 0
    ∗ semVal (((c : Thread nD τ), SemLoc.dma (⟨37, by decide⟩ : DmaSem sig)) : GSem nD τ sig) 0
    ∗ semVal (((c : Thread nD τ), SemLoc.dma (⟨38, by decide⟩ : DmaSem sig)) : GSem nD τ sig) 0
    ∗ semVal (((c : Thread nD τ), SemLoc.dma (⟨39, by decide⟩ : DmaSem sig)) : GSem nD τ sig) 0)

/-- All forty scoped DMA semaphores at zero, in index order. -/
def allSems (c : Dev nD) : sProp 𝕄 :=
  iprop(semVal (((c : Thread nD τ), SemLoc.dma (⟨0, by decide⟩ : DmaSem sig)) : GSem nD τ sig) 0
    ∗ semVal (((c : Thread nD τ), SemLoc.dma (⟨1, by decide⟩ : DmaSem sig)) : GSem nD τ sig) 0
    ∗ semVal (((c : Thread nD τ), SemLoc.dma (⟨2, by decide⟩ : DmaSem sig)) : GSem nD τ sig) 0
    ∗ semVal (((c : Thread nD τ), SemLoc.dma (⟨3, by decide⟩ : DmaSem sig)) : GSem nD τ sig) 0
    ∗ semVal (((c : Thread nD τ), SemLoc.dma (⟨4, by decide⟩ : DmaSem sig)) : GSem nD τ sig) 0
    ∗ semVal (((c : Thread nD τ), SemLoc.dma (⟨5, by decide⟩ : DmaSem sig)) : GSem nD τ sig) 0
    ∗ semVal (((c : Thread nD τ), SemLoc.dma (⟨6, by decide⟩ : DmaSem sig)) : GSem nD τ sig) 0
    ∗ semVal (((c : Thread nD τ), SemLoc.dma (⟨7, by decide⟩ : DmaSem sig)) : GSem nD τ sig) 0
    ∗ semVal (((c : Thread nD τ), SemLoc.dma (⟨8, by decide⟩ : DmaSem sig)) : GSem nD τ sig) 0
    ∗ semVal (((c : Thread nD τ), SemLoc.dma (⟨9, by decide⟩ : DmaSem sig)) : GSem nD τ sig) 0
    ∗ semVal (((c : Thread nD τ), SemLoc.dma (⟨10, by decide⟩ : DmaSem sig)) : GSem nD τ sig) 0
    ∗ semVal (((c : Thread nD τ), SemLoc.dma (⟨11, by decide⟩ : DmaSem sig)) : GSem nD τ sig) 0
    ∗ semVal (((c : Thread nD τ), SemLoc.dma (⟨12, by decide⟩ : DmaSem sig)) : GSem nD τ sig) 0
    ∗ semVal (((c : Thread nD τ), SemLoc.dma (⟨13, by decide⟩ : DmaSem sig)) : GSem nD τ sig) 0
    ∗ semVal (((c : Thread nD τ), SemLoc.dma (⟨14, by decide⟩ : DmaSem sig)) : GSem nD τ sig) 0
    ∗ semVal (((c : Thread nD τ), SemLoc.dma (⟨15, by decide⟩ : DmaSem sig)) : GSem nD τ sig) 0
    ∗ semVal (((c : Thread nD τ), SemLoc.dma (⟨16, by decide⟩ : DmaSem sig)) : GSem nD τ sig) 0
    ∗ semVal (((c : Thread nD τ), SemLoc.dma (⟨17, by decide⟩ : DmaSem sig)) : GSem nD τ sig) 0
    ∗ semVal (((c : Thread nD τ), SemLoc.dma (⟨18, by decide⟩ : DmaSem sig)) : GSem nD τ sig) 0
    ∗ semVal (((c : Thread nD τ), SemLoc.dma (⟨19, by decide⟩ : DmaSem sig)) : GSem nD τ sig) 0
    ∗ semVal (((c : Thread nD τ), SemLoc.dma (⟨20, by decide⟩ : DmaSem sig)) : GSem nD τ sig) 0
    ∗ semVal (((c : Thread nD τ), SemLoc.dma (⟨21, by decide⟩ : DmaSem sig)) : GSem nD τ sig) 0
    ∗ semVal (((c : Thread nD τ), SemLoc.dma (⟨22, by decide⟩ : DmaSem sig)) : GSem nD τ sig) 0
    ∗ semVal (((c : Thread nD τ), SemLoc.dma (⟨23, by decide⟩ : DmaSem sig)) : GSem nD τ sig) 0
    ∗ semVal (((c : Thread nD τ), SemLoc.dma (⟨24, by decide⟩ : DmaSem sig)) : GSem nD τ sig) 0
    ∗ semVal (((c : Thread nD τ), SemLoc.dma (⟨25, by decide⟩ : DmaSem sig)) : GSem nD τ sig) 0
    ∗ semVal (((c : Thread nD τ), SemLoc.dma (⟨26, by decide⟩ : DmaSem sig)) : GSem nD τ sig) 0
    ∗ semVal (((c : Thread nD τ), SemLoc.dma (⟨27, by decide⟩ : DmaSem sig)) : GSem nD τ sig) 0
    ∗ semVal (((c : Thread nD τ), SemLoc.dma (⟨28, by decide⟩ : DmaSem sig)) : GSem nD τ sig) 0
    ∗ semVal (((c : Thread nD τ), SemLoc.dma (⟨29, by decide⟩ : DmaSem sig)) : GSem nD τ sig) 0
    ∗ semVal (((c : Thread nD τ), SemLoc.dma (⟨30, by decide⟩ : DmaSem sig)) : GSem nD τ sig) 0
    ∗ semVal (((c : Thread nD τ), SemLoc.dma (⟨31, by decide⟩ : DmaSem sig)) : GSem nD τ sig) 0
    ∗ semVal (((c : Thread nD τ), SemLoc.dma (⟨32, by decide⟩ : DmaSem sig)) : GSem nD τ sig) 0
    ∗ semVal (((c : Thread nD τ), SemLoc.dma (⟨33, by decide⟩ : DmaSem sig)) : GSem nD τ sig) 0
    ∗ semVal (((c : Thread nD τ), SemLoc.dma (⟨34, by decide⟩ : DmaSem sig)) : GSem nD τ sig) 0
    ∗ semVal (((c : Thread nD τ), SemLoc.dma (⟨35, by decide⟩ : DmaSem sig)) : GSem nD τ sig) 0
    ∗ semVal (((c : Thread nD τ), SemLoc.dma (⟨36, by decide⟩ : DmaSem sig)) : GSem nD τ sig) 0
    ∗ semVal (((c : Thread nD τ), SemLoc.dma (⟨37, by decide⟩ : DmaSem sig)) : GSem nD τ sig) 0
    ∗ semVal (((c : Thread nD τ), SemLoc.dma (⟨38, by decide⟩ : DmaSem sig)) : GSem nD τ sig) 0
    ∗ semVal (((c : Thread nD τ), SemLoc.dma (⟨39, by decide⟩ : DmaSem sig)) : GSem nD τ sig) 0)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 :=
  iprop((∃ K, ghost m K c) ∗ creds c ∗ levAts L lv ∗ held m c ∗ localSems c ∗ scratch c)

/-- After the body: the input as launched, the result at its closed form, every scoped semaphore back at zero, the scratch buffers whole. -/
def Φ₁ (c : Dev nD) : sProp 𝕄 :=
  iprop((((c : Thread nD τ).loc main_arg0) ↦{fullShare} m ((c : Thread nD τ).loc main_arg0))
    ∗ (((c : Thread nD τ).loc main_v1_0) ↦{fullShare} outFull m c)
    ∗ allSems c ∗ scratch c)

/-- The pipeline's proof data: no window; the invariant before and after the one point; the device owes `O₀ c` before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.RS

end
-- ==== Proof.KernelIdealLaunchDefs.lean ====
import proofs.«901042_g7700000000001043_dist_rs_v7x_xyz2x4x4_x_m8192_n1024_bf16_1_alg».proof.Proof.KernelIdealState

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The kernel's own semaphores and the protocol's cells, indexed -/

/-- The forty scoped DMA semaphores of the call. -/
abbrev osem : Fin 40 → SemLoc sig := fun i => .dma i

/-- A device's thirty-three protocol cells: 0 the barrier semaphore, 1 + k departure semaphore k, 17 + k arrival semaphore k. -/
abbrev csem (j : Fin 33) : SemLoc sig :=
  if h : j.val = 0 then .reg barS else .dma ⟨j.val - 1, by have := j.isLt; show j.val - 1 < 40; omega⟩
abbrev kcell (cj : Dev nD × Fin 33) : GSem nD τ sig := ((cj.1 : Thread nD τ), csem cj.2)

/-- The index of a protocol cell read back off its semaphore. -/
def cidx : SemLoc sig → ℕ
  | .reg _ => 0
  | .dma i => i.val + 1

theorem cidx_csem (j : Fin 33) : cidx (csem j) = j.val := by
  unfold csem
  split
  · rename_i h; exact h.symm
  · rename_i h; show j.val - 1 + 1 = j.val; omega

theorem csem_injective : Function.Injective csem := fun j j' h =>
  Fin.ext (by rw [← cidx_csem j, ← cidx_csem j', h])

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Every protocol cell of the mesh. -/
def protoCells : Finset (GSem nD τ sig) := Finset.univ.map ⟨kcell, kcell_injective⟩

/-- One duty a cell, in round 0. -/
abbrev tokOf (cj : Dev nD × Fin 33) : GSem nD τ sig × ℕ × Unit := (kcell cj, 0, ())
theorem tokOf_injective : Function.Injective (tokOf : Dev nD × Fin 33 → GSem nD τ sig × ℕ × Unit) :=
  fun a b h => kcell_injective (congrArg Prod.fst h)
def protoToks : Finset (GSem nD τ sig × ℕ × Unit) := Finset.univ.map ⟨tokOf, tokOf_injective⟩

/-- The launch element: the pipeline library's copy (no cell, no token: no staged window) beside the exchange's. -/
def u₀ : UU :=
  (initOf (Pipeline.cells cfgs cellOf_inj) (Pipeline.launchToks cfgs cellOf_inj), (initOf protoCells protoToks, 1))

/-- The duty tokens of device `c`'s own cells, as minted. -/
def toks (c : Dev nD) : sProp 𝕄 := bigSep Finset.univ fun j : Fin 33 => dutyTok ER (kcell (c, j)) 0 ()

/-- What the launch element deals device `c`. -/
def G (c : Dev nD) : sProp 𝕄 :=
  iprop((bigSep Finset.univ fun j : Fin 33 => roundState ER (sched m) (kcell (c, j)) 0)
    ∗ (bigSep Finset.univ fun j : Fin 33 => iprop(atPos ER (kcell (c, j)) 0 ∅ 0 ∗ reached ER (kcell (c, j)) 0)) ∗ toks c)

/-- What the global step makes of it: the cells' ghost state, and the eight semaphores that are no cell. -/
def G' (c : Dev nD) : sProp 𝕄 := iprop((∃ K, ghost m K c) ∗ localSems c)

/-- What a device holds once its launch credit and the arrays are added. -/
def X (c : Dev nD) : sProp 𝕄 := iprop((∃ K, ghost m K c) ∗ creds c ∗ levAts L lv ∗ held m c ∗ localSems c)

/-- What a device keeps of its exit invariant for the final state: the input as launched, the result at its closed form. -/
def Y (c : Dev nD) : sProp 𝕄 :=
  iprop((((c : Thread nD τ).loc main_arg0) ↦{fullShare} m ((c : Thread nD τ).loc main_arg0))
    ∗ (((c : Thread nD τ).loc main_v1_0) ↦{fullShare} outFull m c))

/-! ## A product over sixteen, thirty-three or forty indices, written out -/

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
omit [FloatOps F] in
theorem bigSep_fin40 (Φ : Fin 40 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) Φ

/-! ## The semaphores at zero a device starts with -/

omit [FloatOps F] in
/-- The kernel's own semaphores are the forty scoped DMA semaphores; -/
theorem ownSems0_eq (c : Dev nD) : (Pipeline.ownSems0 (Ix := Unit) (Name := ℕ) (U := UU) (Lvl := ℕ) (Val := Elt F) (τ := τ) osem c : sProp 𝕄) = allSems c := by
  unfold Pipeline.ownSems0; rw [bigSep_fin40]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The cells at a device's indices are the named ones. -/
theorem kcell_bar (c : Dev nD) : kcell (c, 0) = barCell c := rfl
theorem kcell_send (c : Dev nD) (k : Fin 16) : kcell (c, ⟨1 + k.val, by have := k.isLt; omega⟩) = sendCell c k := by
  have := k.isLt
  unfold kcell csem
  rw [dif_neg (by show ¬ (1 + k.val = 0); omega)]
  refine congrArg (fun i : DmaSem sig => (((c : Dev nD) : Thread nD τ), SemLoc.dma i)) (Fin.ext ?_)
  show 1 + k.val - 1 = k.val; omega
theorem kcell_recv (c : Dev nD) (k : Fin 16) : kcell (c, ⟨17 + k.val, by have := k.isLt; omega⟩) = recvCell c k := by
  have := k.isLt
  unfold kcell csem
  rw [dif_neg (by show ¬ (17 + k.val = 0); omega)]
  refine congrArg (fun i : DmaSem sig => (((c : Dev nD) : Thread nD τ), SemLoc.dma i)) (Fin.ext ?_)
  show 17 + k.val - 1 = 16 + k.val; omega

end Cert.KernelIdeal.RS

end
-- ==== Proof.KernelIdealAlloc.lean ====
import proofs.«901042_g7700000000001043_dist_rs_v7x_xyz2x4x4_x_m8192_n1024_bf16_1_alg».proof.Proof.KernelIdealLaunchDefs

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Funding: the launch element becomes every device's cells at round 0, their positions and tokens -/

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 33 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, funded: the pipeline library's half untouched, the exchange's half dealt to the devices. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_proto m) $$ HX with HG
  imodintro
  isplitl [HP] <;> iassumption

/-! ## One device: its thirty-three cells' invariants allocated -/

omit [FloatOps F] in
/-- A device's semaphores at zero: those of its thirty-three cells, and the eight of the local copies. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 33 => semVal (kcell (c, j)) 0) ∗ localSems c : sProp 𝕄) := by
  rw [ownSems0_eq, unscopedSems0_eq, bigSep_fin33]
  unfold allSems localSems
  iintro ⟨⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, HB⟩
  isplitl [HB S0 S1 S2 S3 S4 S5 S6 S7 S8 S9 S10 S11 S12 S13 S14 S15 S16 S17 S18 S19 S20 S21 S22 S23 S24 S25 S26 S27 S28 S29 S30 S31]
  ·
    isplitl [HB]; · iexact HB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact S31
  ·
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 33 => semVal (kcell (c, j)) 0) ∗ bigSep Finset.univ fun j : Fin 33 => roundState ER (sched m) (kcell (c, j)) 0)
      ⊢ (|={Set.univ}=> bigSep Finset.univ fun j : Fin 33 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## All devices: the invariants' names chosen, the persistent facts shared, the tokens dealt across the pairing -/

def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

/-- The invariants a device's body opens are among those of the whole mesh. -/
theorem invs_intro (K : Dev nD × Fin 33 → ℕ) (c : Dev nD) :
    (bigSep Finset.univ fun ck : Dev nD × Fin 33 => (cellInv ER (sched m) (K ck) (kcell ck) : sProp 𝕄)) ⊢ invs m K c := by
  unfold invs
  iintro #HI
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (c, 7)); iexact HI
  isplitr; · iapply (inv_at m K (c, 8)); iexact HI
  isplitr; · iapply (inv_at m K (c, 9)); iexact HI
  isplitr; · iapply (inv_at m K (c, 10)); iexact HI
  isplitr; · iapply (inv_at m K (c, 11)); iexact HI
  isplitr; · iapply (inv_at m K (c, 12)); iexact HI
  isplitr; · iapply (inv_at m K (c, 13)); iexact HI
  isplitr; · iapply (inv_at m K (c, 14)); iexact HI
  isplitr; · iapply (inv_at m K (c, 15)); iexact HI
  isplitr; · iapply (inv_at m K (c, 16)); iexact HI
  isplitr; · iapply (inv_at m K (c, 17)); iexact HI
  isplitr; · iapply (inv_at m K (c, 18)); iexact HI
  isplitr; · iapply (inv_at m K (c, 19)); iexact HI
  isplitr; · iapply (inv_at m K (c, 20)); iexact HI
  isplitr; · iapply (inv_at m K (c, 21)); iexact HI
  isplitr; · iapply (inv_at m K (c, 22)); iexact HI
  isplitr; · iapply (inv_at m K (c, 23)); iexact HI
  isplitr; · iapply (inv_at m K (c, 24)); iexact HI
  isplitr; · iapply (inv_at m K (c, 25)); iexact HI
  isplitr; · iapply (inv_at m K (c, 26)); iexact HI
  isplitr; · iapply (inv_at m K (c, 27)); iexact HI
  isplitr; · iapply (inv_at m K (c, 28)); iexact HI
  isplitr; · iapply (inv_at m K (c, 29)); iexact HI
  isplitr; · iapply (inv_at m K (c, 30)); iexact HI
  isplitr; · iapply (inv_at m K (c, 31)); iexact HI
  isplitr; · iapply (inv_at m K (c, 32)); iexact HI
  isplitr; · iapply (inv_at m K (peer c, 0)); iexact HI
  isplitr; · iapply (inv_at m K (peer c, 17)); iexact HI
  isplitr; · iapply (inv_at m K (peer c, 18)); iexact HI
  isplitr; · iapply (inv_at m K (peer c, 19)); iexact HI
  isplitr; · iapply (inv_at m K (peer c, 20)); iexact HI
  isplitr; · iapply (inv_at m K (peer c, 21)); iexact HI
  isplitr; · iapply (inv_at m K (peer c, 22)); iexact HI
  isplitr; · iapply (inv_at m K (peer c, 23)); iexact HI
  isplitr; · iapply (inv_at m K (peer c, 24)); iexact HI
  isplitr; · iapply (inv_at m K (peer c, 25)); iexact HI
  isplitr; · iapply (inv_at m K (peer c, 26)); iexact HI
  isplitr; · iapply (inv_at m K (peer c, 27)); iexact HI
  isplitr; · iapply (inv_at m K (peer c, 28)); iexact HI
  isplitr; · iapply (inv_at m K (peer c, 29)); iexact HI
  isplitr; · iapply (inv_at m K (peer c, 30)); iexact HI
  isplitr; · iapply (inv_at m K (peer c, 31)); iexact HI
  iapply (inv_at m K (peer c, 32)); iexact HI

omit [FloatOps F] in
theorem marks_intro (c : Dev nD) :
    (bigSep Finset.univ fun ck : Dev nD × Fin 33 => (reached ER (kcell ck) 0 : sProp 𝕄)) ⊢ marks c := by
  unfold marks
  iintro #HR
  isplitr; · iapply (reached_at (F := F) (c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (c, 11)); iexact HR
  isplitr; · iapply (reached_at (F := F) (c, 12)); iexact HR
  isplitr; · iapply (reached_at (F := F) (c, 13)); iexact HR
  isplitr; · iapply (reached_at (F := F) (c, 14)); iexact HR
  isplitr; · iapply (reached_at (F := F) (c, 15)); iexact HR
  isplitr; · iapply (reached_at (F := F) (c, 16)); iexact HR
  isplitr; · iapply (reached_at (F := F) (c, 17)); iexact HR
  isplitr; · iapply (reached_at (F := F) (c, 18)); iexact HR
  isplitr; · iapply (reached_at (F := F) (c, 19)); iexact HR
  isplitr; · iapply (reached_at (F := F) (c, 20)); iexact HR
  isplitr; · iapply (reached_at (F := F) (c, 21)); iexact HR
  isplitr; · iapply (reached_at (F := F) (c, 22)); iexact HR
  isplitr; · iapply (reached_at (F := F) (c, 23)); iexact HR
  isplitr; · iapply (reached_at (F := F) (c, 24)); iexact HR
  isplitr; · iapply (reached_at (F := F) (c, 25)); iexact HR
  isplitr; · iapply (reached_at (F := F) (c, 26)); iexact HR
  isplitr; · iapply (reached_at (F := F) (c, 27)); iexact HR
  isplitr; · iapply (reached_at (F := F) (c, 28)); iexact HR
  isplitr; · iapply (reached_at (F := F) (c, 29)); iexact HR
  isplitr; · iapply (reached_at (F := F) (c, 30)); iexact HR
  isplitr; · iapply (reached_at (F := F) (c, 31)); iexact HR
  isplitr; · iapply (reached_at (F := F) (c, 32)); iexact HR
  isplitr; · iapply (reached_at (F := F) (peer c, 0)); iexact HR
  isplitr; · iapply (reached_at (F := F) (peer c, 17)); iexact HR
  isplitr; · iapply (reached_at (F := F) (peer c, 18)); iexact HR
  isplitr; · iapply (reached_at (F := F) (peer c, 19)); iexact HR
  isplitr; · iapply (reached_at (F := F) (peer c, 20)); iexact HR
  isplitr; · iapply (reached_at (F := F) (peer c, 21)); iexact HR
  isplitr; · iapply (reached_at (F := F) (peer c, 22)); iexact HR
  isplitr; · iapply (reached_at (F := F) (peer c, 23)); iexact HR
  isplitr; · iapply (reached_at (F := F) (peer c, 24)); iexact HR
  isplitr; · iapply (reached_at (F := F) (peer c, 25)); iexact HR
  isplitr; · iapply (reached_at (F := F) (peer c, 26)); iexact HR
  isplitr; · iapply (reached_at (F := F) (peer c, 27)); iexact HR
  isplitr; · iapply (reached_at (F := F) (peer c, 28)); iexact HR
  isplitr; · iapply (reached_at (F := F) (peer c, 29)); iexact HR
  isplitr; · iapply (reached_at (F := F) (peer c, 30)); iexact HR
  isplitr; · iapply (reached_at (F := F) (peer c, 31)); iexact HR
  iapply (reached_at (F := F) (peer c, 32)); iexact HR

omit [FloatOps F] in
theorem positions_eq (c : Dev nD) : (bigSep Finset.univ fun j : Fin 33 => (atPos ER (kcell (c, j)) 0 ∅ 0 : sProp 𝕄)) = positions c := by
  rw [bigSep_fin33]; rfl

/-- What stays with device `c`: its positions, the tokens of the duties it pays, its local semaphores. -/
def linear (c : Dev nD) : sProp 𝕄 :=
  iprop((bigSep Finset.univ fun j : Fin 33 => atPos ER (kcell (c, j)) 0 ∅ 0) ∗ payToks c ∗ localSems c)

theorem ghost_intro (K : Dev nD × Fin 33 → ℕ) (c : Dev nD) : iprop(records m K ∗ linear c) ⊢ G' m c := by
  unfold records linear G' ghost
  iintro ⟨⟨#HI, #HR⟩, Hpos, Htok, Hloc⟩
  isplitr [Hloc]
  · iexists K
    isplitr; · iapply (invs_intro m K c); iexact HI
    isplitr; · iapply (marks_intro (F := F) c); iexact HR
    isplitl [Hpos]
    · iapply (Entails.of_eq (positions_eq (F := F) c)); iexact Hpos
    iexact Htok
  · iexact Hloc

omit [FloatOps F] in
/-- A device's minted tokens by kind: its barrier duty's, its departures', its arrivals'. -/
theorem toks_split (c : Dev nD) : (toks c : sProp 𝕄)
    ⊢ iprop(dutyTok ER (barCell c) 0 () ∗ (bigSep Finset.univ fun k : Fin 16 => dutyTok ER (sendCell c k) 0 ())
        ∗ (bigSep Finset.univ fun k : Fin 16 => dutyTok ER (recvCell c k) 0 ())) := by
  unfold toks
  rw [bigSep_fin33, bigSep_fin16, bigSep_fin16]
  iintro ⟨T0, T1, T2, T3, T4, T5, T6, T7, T8, T9, T10, T11, T12, T13, T14, T15, T16, T17, T18, T19, T20, T21, T22, T23, T24, T25, T26, T27, T28, T29, T30, T31, T32⟩
  isplitl [T0]; · iexact T0
  isplitl [T1 T2 T3 T4 T5 T6 T7 T8 T9 T10 T11 T12 T13 T14 T15 T16]
  ·
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    iexact T16
  ·
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    isplitl [T29]; · iexact T29
    isplitl [T30]; · iexact T30
    isplitl [T31]; · iexact T31
    iexact T32

omit [FloatOps F] in
theorem payToks_join (c : Dev nD) :
    iprop(dutyTok ER (barCell (peer c)) 0 () ∗ (bigSep Finset.univ fun k : Fin 16 => dutyTok ER (recvCell (peer c) k) 0 ())
        ∗ (bigSep Finset.univ fun k : Fin 16 => dutyTok ER (sendCell c k) 0 ())) ⊢ (payToks c : sProp 𝕄) := by
  unfold payToks
  rw [bigSep_fin16, bigSep_fin16]
  iintro ⟨HB, ⟨R0, R1, R2, R3, R4, R5, R6, R7, R8, R9, R10, R11, R12, R13, R14, R15⟩, S0, S1, S2, S3, S4, S5, S6, S7, S8, S9, S10, S11, S12, S13, S14, S15⟩
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

omit [FloatOps F] in
/-- Reindexing along the pairing: every device's barrier token and arrival tokens, read at its partner. -/
theorem toks_deal :
    iprop((bigSep Finset.univ fun c : Dev nD => dutyTok ER (barCell c) 0 ())
        ∗ (bigSep Finset.univ fun c : Dev nD => bigSep Finset.univ fun k : Fin 16 => dutyTok ER (sendCell c k) 0 ())
        ∗ (bigSep Finset.univ fun c : Dev nD => bigSep Finset.univ fun k : Fin 16 => dutyTok ER (recvCell c k) 0 ()))
      ⊢ (iprop((bigSep Finset.univ fun c : Dev nD => dutyTok ER (barCell (peer c)) 0 ())
        ∗ (bigSep Finset.univ fun c : Dev nD => bigSep Finset.univ fun k : Fin 16 => dutyTok ER (recvCell (peer c) k) 0 ())
        ∗ (bigSep Finset.univ fun c : Dev nD => bigSep Finset.univ fun k : Fin 16 => dutyTok ER (sendCell c k) 0 ())) : sProp 𝕄) := by
  rw [bigSep_univ_equiv pairing (fun c : Dev nD => (dutyTok ER (barCell c) 0 () : sProp 𝕄)),
    bigSep_univ_equiv pairing (fun c : Dev nD => (bigSep Finset.univ fun k : Fin 16 => dutyTok ER (recvCell c k) 0 () : sProp 𝕄))]
  iintro ⟨H1, H2, H3⟩
  isplitl [H1]; · iexact H1
  isplitl [H3]; · iexact H3
  iexact H2

omit [FloatOps F] in
/-- The tokens dealt across the pairing: a device's barrier token and its arrival tokens go to its partner, its departure tokens stay. -/
theorem toks_around : (bigSep Finset.univ fun c : Dev nD => (toks c : sProp 𝕄)) ⊢ bigSep Finset.univ fun c : Dev nD => payToks c := by
  have h1 := bigSep_mono fun (c : Dev nD) (_ : c ∈ Finset.univ) => toks_split (F := F) c
  have h2 := bigSep_mono fun (c : Dev nD) (_ : c ∈ Finset.univ) => payToks_join (F := F) c
  rw [bigSep_sep', bigSep_sep'] at h1 h2
  exact (h1.trans (toks_deal (F := F))).trans h2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_join :
    iprop((bigSep Finset.univ fun c : Dev nD => bigSep Finset.univ fun j : Fin 33 => (atPos ER (kcell (c, j)) 0 ∅ 0 : sProp 𝕄))
        ∗ (bigSep Finset.univ fun c : Dev nD => payToks c) ∗ (bigSep Finset.univ fun c : Dev nD => localSems c))
      ⊢ (bigSep Finset.univ fun c : Dev nD => linear c : sProp 𝕄) := by
  rw [← bigSep_sep', ← bigSep_sep']
  exact bigSep_mono fun c _ => show _ ⊢ linear c from Entails.of_eq (by unfold linear; rfl)

theorem regroup :
    (bigSep Finset.univ fun c : Dev nD => iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c ∗ localSems c) : sProp 𝕄)
      ⊢ bigSep Finset.univ (G' m) := by
  rw [bigSep_sep', bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_join (F := F))
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.RS.fund_u₀' depends on axioms: [propext, Classical.choice, Quot.sound] -/
#guard_msgs in #print axioms fund_u₀

/-- info: 'Cert.KernelIdeal.RS.glob' depends on axioms: [propext, Classical.choice, Quot.sound] -/
#guard_msgs in #print axioms glob

end Cert.KernelIdeal.RS

end
-- ==== Proof.KernelIdealLaunch.lean ====
import proofs.«901042_g7700000000001043_dist_rs_v7x_xyz2x4x4_x_m8192_n1024_bf16_1_alg».proof.Proof.KernelIdealAlloc

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch -/

theorem ownSemFacts : Pipeline.OwnSemFacts cfg0.spec osem := by decide

/-! ### The launch credit -/

omit [FloatOps F] in
/-- Each device owes its partner's barrier cell one unit and each of its partner's arrival cells a chunk's credit; the partner map is an
    involution, so each device is dealt exactly that credit on its own barrier and arrival cells. -/
theorem creds_of_launch (c : Dev nD) : (Pipeline.launchCred O₀ c : sProp 𝕄) ⊢ creds c := by
  have hb : (Pipeline.launchCred (fun d : Dev nD => (tallyAt (barCell (peer d)) () 1 : CellTallies nD τ sig Unit)) c : sProp 𝕄) ⊢ cred (tallyAt (barCell c) () 1) :=
    Pipeline.launchCred_tallyAt (SemLoc.reg barS) peer peer peer_peer peer_peer () 1 c
  have hr (k : Fin 16) : (Pipeline.launchCred (fun d : Dev nD => (tallyAt (recvCell (peer d) k) () N : CellTallies nD τ sig Unit)) c : sProp 𝕄) ⊢ cred (tallyAt (recvCell c k) () N) :=
    Pipeline.launchCred_tallyAt (SemLoc.dma (recvS k)) peer peer peer_peer peer_peer () N c
  delta O₀
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  unfold creds
  iintro ⟨⟨⟨⟨⟨⟨⟨⟨⟨⟨⟨⟨⟨⟨⟨⟨H15, H14⟩, H13⟩, H12⟩, H11⟩, H10⟩, H9⟩, H8⟩, H7⟩, H6⟩, H5⟩, H4⟩, H3⟩, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  isplitl [H7]; · iapply (hr 7); iexact H7
  isplitl [H8]; · iapply (hr 8); iexact H8
  isplitl [H9]; · iapply (hr 9); iexact H9
  isplitl [H10]; · iapply (hr 10); iexact H10
  isplitl [H11]; · iapply (hr 11); iexact H11
  isplitl [H12]; · iapply (hr 12); iexact H12
  isplitl [H13]; · iapply (hr 13); iexact H13
  isplitl [H14]; · iapply (hr 14); iexact H14
  iapply (hr 15); iexact H15

/-! ### The launch theorem's side conditions -/

/-- The three arrays arrive as the unscoped buffers that are no window's array; with the launch credit, the level facts and the cells' ghost state they are what a device holds. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Hh, Hlev, Hcr, -, HG⟩
  ihave Hc := (creds_of_launch (F := F) c) $$ Hcr
  imodintro
  unfold X G'
  icases HG with ⟨Hg, Hloc⟩
  isplitl
  · isplitl [Hg]; · iexact Hg
    isplitl [Hc]; · iexact Hc
    isplitl [Hlev]; · iexact Hlev
    isplitl [Hh]; · unfold held; iexact Hh
    iexact Hloc
  · iempintro

/-- Adding the scratch buffers gives the invariant before the body. -/
theorem phi0_intro (c : Dev nD) :
    iprop(X m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ X
  iintro ⟨⟨Hg, Hc, Hlev, Hh, Hloc⟩, -, Hs⟩
  isplitl [Hg]; · iexact Hg
  isplitl [Hc]; · iexact Hc
  isplitl [Hlev]; · iexact Hlev
  isplitl [Hh]; · iexact Hh
  isplitl [Hloc]; · iexact Hloc
  unfold scratch; iexact Hs

/-- The invariant after the body gives back every scoped semaphore at zero and the scratch buffers, and keeps the input and the result. -/
theorem phi1_exit (c : Dev nD) :
    (dats (F := F) m 0 c).Φ (Fin.last cfg0.N) ⊢ iprop(Y m c ∗ Pipeline.ownSems0 osem c ∗ Pipeline.scopedRest cfg0.spec c) := by
  rw [show (dats (F := F) m 0 c).Φ (Fin.last cfg0.N) = Φ₁ m c from rfl, scopedRest0_eq, ownSems0_eq]
  unfold Φ₁ Y
  iintro ⟨Ha, Ho, Hs, Hsc⟩
  isplitl [Ha Ho]
  · isplitl [Ha] <;> iassumption
  isplitl [Hs]; · iexact Hs
  unfold scratch; iexact Hsc

/-- No staged window: the pipeline waits on no cell. -/
theorem waits (c : Dev nD) : (levAts L lv : sProp 𝕄) ⊢ Pipeline.cellsWaits cfgs (dats (F := F) m) () 0 c :=
  Pipeline.cellsWaits_intro cfgs (dats (F := F) m) () 0 c fun w => w.elim0

/-- The two arrays a device keeps, read against the final memory. -/
theorem final_read (c : Dev nD) (s' : Phys nD τ sig (Elt F)) :
    iprop(Y m c ∗ emp ∗ SI s') ⊢ |={Set.univ}=> iprop(⌜s'.mem.mem ((c : Thread nD τ).loc main_v1_0) = outFull m c ∧ s'.mem.mem ((c : Thread nD τ).loc main_arg0) = m ((c : Thread nD τ).loc main_arg0)⌝ ∗ SI s') := by
  unfold Y
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ### The run -/

set_option maxRecDepth 8000 in
/-- At the compiled mesh of thirty-two devices, for any float values, from any memory with zero counters: every weakly fair execution of @main
    terminates, and in every final state each device's result array holds its own slab plus its partner's on its half of the columns, rounded,
    and its input is unchanged. The body's obligation is taken as a hypothesis. -/
theorem run_main
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c : Thread nD τ).loc main_v1_0) = outFull m c ∧ r.2.mem ((c : Thread nD τ).loc main_arg0) = m ((c : Thread nD τ).loc main_arg0)) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1_0) = outFull m c ∧ s.mem ((c : Thread nD τ).loc main_arg0) = m ((c : Thread nD τ).loc main_arg0))
    (hY := final_read m)
    (hQ := fun _ h c => (h c).2.2)

end Cert.KernelIdeal.RS

end
-- ==== Proof.KernelProto.lean ====
import proofs.«901042_g7700000000001043_dist_rs_v7x_xyz2x4x4_x_m8192_n1024_bf16_1_alg».proof.Proof.Gen.Kernel
import proofs.«901042_g7700000000001043_dist_rs_v7x_xyz2x4x4_x_m8192_n1024_bf16_1_alg».proof.Proof.Gen.Kernel.Skeleton
import proofs.«901042_g7700000000001043_dist_rs_v7x_xyz2x4x4_x_m8192_n1024_bf16_1_alg».proof.Proof.Gen.Kernel.Launch
import proofs.«901042_g7700000000001043_dist_rs_v7x_xyz2x4x4_x_m8192_n1024_bf16_1_alg».proof.Proof.Gen.Kernel.Points
import Idealize.ShloMosaic.Lib.Pipeline.Launch
import Idealize.ShloMosaic.Lib.Pipeline.Kit
import Idealize.ShloMosaic.Lib.ValueIdx
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two copies of the rounds algebra: the pipeline library's and the exchange's -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's copy: the left half of the right factor (the other half counts the local copies in flight). -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by unfold ER; infer_instance

omit [FloatOps F] in
/-- The launch element splits into the pipeline library's half and the exchange's. -/
theorem ownU_split (a : UR sig nD τ) (b : UB) :
    (ownU ((a, (b, 1)) : UU) : sProp (MT nD τ sig Unit (Elt F) ℕ UU ℕ)) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

variable (m : (ℓ : Loc nD τ sig) → Buf (Elt F) ℓ) (ρ : Dev nD → PrngReg)

/-! ## The partner device: the one with the other coordinate on the first mesh axis -/

def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
theorem dev_closed (c : Dev nD) : (4 * ((c.val / 4) % 4) + (c.val % 4) + 16) - 16 * (c.val / 16) = (peer c).val := by revert c; decide

def pairing : Dev nD ≃ Dev nD := ⟨peer, peer, peer_peer, peer_peer⟩

/-! ## Memrefs: a slot of the outgoing staging buffer, a band of rows of the landing array -/

theorem slot_inb (j : Fin 4) : ∀ a, (![j.val, 0, 0] : Fin 3 → Nat) a + S1x512x1024.size a ≤ S4x512x1024.size a := by revert j; decide
theorem rows_inb (k : Fin 16) : ∀ a, (![512 * k.val, 0] : Fin 2 → Nat) a + S512x1024.size a ≤ S8192x1024.size a := by revert k; decide

abbrev slotM (j : Fin 4) : Memref sig .tc .vmem S512x1024 .bf16 :=
  ((Memref.whole cc0_scratch1).slice (Rect.unit (s := S4x512x1024) ![j.val, 0, 0] S1x512x1024.size (slot_inb j)) (fun _ => rfl)).squeeze S512x1024 squeezes_S1x512x1024_S512x1024
abbrev rowsM (k : Fin 16) : Memref sig .tc .hbm S512x1024 .bf16 :=
  (Memref.whole main_v1_1).slice (Rect.unit (s := S8192x1024) ![512 * k.val, 0] S512x1024.size (rows_inb k)) (fun _ => rfl)

/-! ## Cells: the runtime's barrier semaphore, sixteen departure and sixteen arrival semaphores a device -/

abbrev barS : Sem sig := (SemArray.scalar (sig.barrier 0 rfl) : Sems sig S_).sem
abbrev sendS (k : Fin 16) : DmaSem sig := ⟨k.val, (by have := k.isLt; show k.val < 40; omega)⟩
abbrev recvS (k : Fin 16) : DmaSem sig := ⟨16 + k.val, (by have := k.isLt; show 16 + k.val < 40; omega)⟩

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- The credit of one chunk's transfer. -/
abbrev N : ℕ := (rowsM 0).view.dmaCredit
theorem N_pos : 0 < N := View.dmaCredit_pos _ (by decide)

/-! ## Contents -/

/-- Rounding a single-precision number to the narrow format, and widening it back. -/
def tr (x : F .f32) : F .bf16 := FloatOps.truncf .bf16 bitsLt_bf16_f32 x
def ex (x : F .bf16) : F .f32 := FloatOps.extf .f32 bitsLt_bf16_f32 x

/-- The first column of the half of the columns device `c` reduces. -/
def col (c : Dev nD) : ℕ := 1024 * (c.val / 16)
theorem col_le (c : Dev nD) : col c ≤ 1024 := by revert c; decide

/-- Device `c`'s slice of the input: one slab of all rows and columns. -/
def xarr (c : Dev nD) : S1x8192x2048.Idx → F .f32 := m ((c : Thread nD τ).loc main_arg0)

/-- Entry (r, j) of what device `c` receives: its partner's entry (r, col c + j), rounded. -/
def recvFull (c : Dev nD) : Buf (Elt F) ((c : Thread nD τ).loc main_v1_1) := fun (i : S8192x1024.Idx) =>
  tr (xarr m (peer c) (ValueIdx.ix3 (⟨0, by decide⟩ : Fin 1) (⟨(i 0).val, (i 0).isLt⟩ : Fin 8192)
    (⟨col c + (i 1).val, by have := col_le c; have : (i 1).val < 1024 := (i 1).isLt; omega⟩ : Fin 2048)))

/-- Entry (r, j) of device `c`'s result: its own entry (r, col c + j) plus what it received there, rounded. -/
def outFull (c : Dev nD) : Buf (Elt F) ((c : Thread nD τ).loc main_v1_0) := fun (i : S8192x1024.Idx) =>
  tr (FloatOps.addf (xarr m c (ValueIdx.ix3 (⟨0, by decide⟩ : Fin 1) (⟨(i 0).val, (i 0).isLt⟩ : Fin 8192)
    (⟨col c + (i 1).val, by have := col_le c; have : (i 1).val < 1024 := (i 1).isLt; omega⟩ : Fin 2048))) (ex (recvFull m c i)))

/-! ## The schedule: one round; each cell one duty -/

/-- The partner's signal hands a device the partner's whole landing array, as launched. -/
def barPay (c : Dev nD) : sProp 𝕄 := (((peer c : Dev nD) : Thread nD τ).loc main_v1_1) ↦{fullShare} m (((peer c : Dev nD) : Thread nD τ).loc main_v1_1)
/-- A departure hands the sender its staging slot back. -/
def sendPay (c : Dev nD) (k : Fin 16) : sProp 𝕄 :=
  iprop(∃ f, (slotM ⟨k.val % 4, Nat.mod_lt _ (by decide)⟩).view.loc (c : Thread nD τ) ↦[(slotM ⟨k.val % 4, Nat.mod_lt _ (by decide)⟩).view.set]{fullShare} f)
/-- An arrival hands the receiver band `k` of its landing array, holding the partner's chunk. -/
def recvPay (c : Dev nD) (k : Fin 16) : sProp 𝕄 :=
  (rowsM k).view.loc (c : Thread nD τ) ↦[(rowsM k).view.set]{fullShare} recvFull m c

def protoSem : SemLoc sig → Bool
  | .reg s => decide (s = barS)
  | .dma i => decide (i.val < 32)

def pay (g : GSem nD τ sig) : sProp 𝕄 :=
  match g.2 with
  | .reg _ => barPay m g.1.1
  | .dma i => if h : i.val < 16 then sendPay g.1.1 ⟨i.val, h⟩ else if h2 : i.val < 32 then recvPay m g.1.1 ⟨i.val - 16, by omega⟩ else iprop(emp)

def sched : Rounds.Schedule (GSem nD τ sig) Unit 𝕄 where
  duties g r := if r = 0 ∧ g.1.2 = .tc ∧ protoSem g.2 = true then {()} else ∅
  unitless _ := False
  amount g _ _ := if g.2 = .reg barS then 1 else N
  payload g _ _ := pay m g
  amount_pos g _ _ _ := by
    by_cases h : g.2 = .reg barS
    · rw [if_pos h]; exact Nat.one_pos
    · rw [if_neg h]; exact N_pos

instance pay_storable (g : GSem nD τ sig) : BI.Storable (upEmb : UEmb _ 𝕄) (pay (F := F) m g) := by
  unfold pay barPay sendPay recvPay
  (repeat' split) <;> infer_instance

instance sched_payload_storable (g : GSem nD τ sig) (r : ℕ) (d : Unit) :
    BI.Storable (upEmb : UEmb _ 𝕄) ((sched (F := F) m).payload g r d) := pay_storable m g

section Tables
variable (c : Dev nD) (k : Fin 16)

theorem duties_bar : (sched (F := F) m).duties (barCell c) 0 = {()} := by dsimp only [sched]; exact if_pos ⟨rfl, rfl, by simp [protoSem]⟩
theorem duties_send : (sched (F := F) m).duties (sendCell c k) 0 = {()} := by
  dsimp only [sched]; exact if_pos ⟨rfl, rfl, by have := k.isLt; simp [protoSem]; omega⟩
theorem duties_recv : (sched (F := F) m).duties (recvCell c k) 0 = {()} := by
  dsimp only [sched]; exact if_pos ⟨rfl, rfl, by have := k.isLt; simp [protoSem]; omega⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c k) 0 d = N := by dsimp only [sched]; exact if_neg (fun h => by cases h)
theorem amount_recv (d : Unit) : (sched (F := F) m).amount (recvCell c k) 0 d = N := by dsimp only [sched]; exact if_neg (fun h => by cases h)

theorem expect_bar : (sched (F := F) m).expect (barCell c) 0 = 1 := by
  unfold Schedule.expect Schedule.amountOf; rw [duties_bar, Finset.sum_singleton, amount_bar]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (d : Unit) : (sched (F := F) m).payload (barCell c) 0 d = barPay m c := rfl
theorem payload_bar_peer (d : Unit) : (sched (F := F) m).payload (barCell (peer c)) 0 d
    = ((((c : Dev nD) : Thread nD τ).loc main_v1_1) ↦{fullShare} m (((c : Dev nD) : Thread nD τ).loc main_v1_1) : sProp 𝕄) := by
  show barPay m (peer c) = _
  unfold barPay; rw [peer_peer]
theorem payload_send (d : Unit) : (sched (F := F) m).payload (sendCell c k) 0 d = sendPay c k := by
  show pay m (sendCell c k) = _
  unfold pay; dsimp only; rw [dif_pos k.isLt]
theorem payload_recv (d : Unit) : (sched (F := F) m).payload (recvCell c k) 0 d = recvPay m c k := by
  show pay m (recvCell c k) = _
  unfold pay; dsimp only
  rw [dif_neg (by show ¬ (16 + k.val < 16); omega), dif_pos (by show 16 + k.val < 32; have := k.isLt; omega)]
  congr 1
  exact Fin.ext (by show 16 + k.val - 16 = k.val; omega)

end Tables

/-! ## What a device owes at launch; the levels -/

def L (g : GSem nD τ sig) : Finset Unit := if g.1.2 = .tc then {()} else ∅
/-- The barrier cells at 1, the arrival cells at 2, every other cell at 0. -/
def lv (g : GSem nD τ sig) (_ : Unit) : ℕ :=
  match g.2 with
  | .reg _ => 1
  | .dma i => if 16 ≤ i.val ∧ i.val < 32 then 2 else 0

theorem L_of_ne (g : GSem nD τ sig) (h : g.1.2 ≠ .tc) : L g = ∅ := if_neg h
theorem L_tc (c : Dev nD) (sm : SemLoc sig) : L ((c : Thread nD τ), sm) = {()} := if_pos rfl

/-- What device `c` owes at launch: the credit of each of its partner's sixteen arrival cells, and one unit of the partner's barrier cell. -/
def O₀ (c : Dev nD) : CellTallies nD τ sig Unit := ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N) + tallyAt (barCell (peer c)) () 1)

end Cert.Kernel.RS

end
-- ==== Proof.KernelState.lean ====
import proofs.«901042_g7700000000001043_dist_rs_v7x_xyz2x4x4_x_m8192_n1024_bf16_1_alg».proof.Proof.KernelProto

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

abbrev 𝒱₀ : Variants := Variants.none

/-! ## What a device's body starts from and ends with -/

/-- The invariants of the cells device `c`'s body opens, at the names `K`: its own thirty-three, its partner's barrier cell and its partner's sixteen arrival cells. -/
def invs (K : Dev nD × Fin 33 → ℕ) (c : Dev nD) : sProp 𝕄 :=
  iprop(cellInv ER (sched m) (K (c, 0)) (barCell c)
    ∗ cellInv ER (sched m) (K (c, 1)) (sendCell c 0)
    ∗ cellInv ER (sched m) (K (c, 2)) (sendCell c 1)
    ∗ cellInv ER (sched m) (K (c, 3)) (sendCell c 2)
    ∗ cellInv ER (sched m) (K (c, 4)) (sendCell c 3)
    ∗ cellInv ER (sched m) (K (c, 5)) (sendCell c 4)
    ∗ cellInv ER (sched m) (K (c, 6)) (sendCell c 5)
    ∗ cellInv ER (sched m) (K (c, 7)) (sendCell c 6)
    ∗ cellInv ER (sched m) (K (c, 8)) (sendCell c 7)
    ∗ cellInv ER (sched m) (K (c, 9)) (sendCell c 8)
    ∗ cellInv ER (sched m) (K (c, 10)) (sendCell c 9)
    ∗ cellInv ER (sched m) (K (c, 11)) (sendCell c 10)
    ∗ cellInv ER (sched m) (K (c, 12)) (sendCell c 11)
    ∗ cellInv ER (sched m) (K (c, 13)) (sendCell c 12)
    ∗ cellInv ER (sched m) (K (c, 14)) (sendCell c 13)
    ∗ cellInv ER (sched m) (K (c, 15)) (sendCell c 14)
    ∗ cellInv ER (sched m) (K (c, 16)) (sendCell c 15)
    ∗ cellInv ER (sched m) (K (c, 17)) (recvCell c 0)
    ∗ cellInv ER (sched m) (K (c, 18)) (recvCell c 1)
    ∗ cellInv ER (sched m) (K (c, 19)) (recvCell c 2)
    ∗ cellInv ER (sched m) (K (c, 20)) (recvCell c 3)
    ∗ cellInv ER (sched m) (K (c, 21)) (recvCell c 4)
    ∗ cellInv ER (sched m) (K (c, 22)) (recvCell c 5)
    ∗ cellInv ER (sched m) (K (c, 23)) (recvCell c 6)
    ∗ cellInv ER (sched m) (K (c, 24)) (recvCell c 7)
    ∗ cellInv ER (sched m) (K (c, 25)) (recvCell c 8)
    ∗ cellInv ER (sched m) (K (c, 26)) (recvCell c 9)
    ∗ cellInv ER (sched m) (K (c, 27)) (recvCell c 10)
    ∗ cellInv ER (sched m) (K (c, 28)) (recvCell c 11)
    ∗ cellInv ER (sched m) (K (c, 29)) (recvCell c 12)
    ∗ cellInv ER (sched m) (K (c, 30)) (recvCell c 13)
    ∗ cellInv ER (sched m) (K (c, 31)) (recvCell c 14)
    ∗ cellInv ER (sched m) (K (c, 32)) (recvCell c 15)
    ∗ cellInv ER (sched m) (K (peer c, 0)) (barCell (peer c))
    ∗ cellInv ER (sched m) (K (peer c, 17)) (recvCell (peer c) 0)
    ∗ cellInv ER (sched m) (K (peer c, 18)) (recvCell (peer c) 1)
    ∗ cellInv ER (sched m) (K (peer c, 19)) (recvCell (peer c) 2)
    ∗ cellInv ER (sched m) (K (peer c, 20)) (recvCell (peer c) 3)
    ∗ cellInv ER (sched m) (K (peer c, 21)) (recvCell (peer c) 4)
    ∗ cellInv ER (sched m) (K (peer c, 22)) (recvCell (peer c) 5)
    ∗ cellInv ER (sched m) (K (peer c, 23)) (recvCell (peer c) 6)
    ∗ cellInv ER (sched m) (K (peer c, 24)) (recvCell (peer c) 7)
    ∗ cellInv ER (sched m) (K (peer c, 25)) (recvCell (peer c) 8)
    ∗ cellInv ER (sched m) (K (peer c, 26)) (recvCell (peer c) 9)
    ∗ cellInv ER (sched m) (K (peer c, 27)) (recvCell (peer c) 10)
    ∗ cellInv ER (sched m) (K (peer c, 28)) (recvCell (peer c) 11)
    ∗ cellInv ER (sched m) (K (peer c, 29)) (recvCell (peer c) 12)
    ∗ cellInv ER (sched m) (K (peer c, 30)) (recvCell (peer c) 13)
    ∗ cellInv ER (sched m) (K (peer c, 31)) (recvCell (peer c) 14)
    ∗ cellInv ER (sched m) (K (peer c, 32)) (recvCell (peer c) 15))
instance invs_persistent (K : Dev nD × Fin 33 → ℕ) (c : Dev nD) : BI.Persistent (invs (F := F) m K c) := by unfold invs; infer_instance

/-- Round 0 of every cell the body touches is reached, and the level facts. -/
def marks (c : Dev nD) : sProp 𝕄 :=
  iprop(reached ER (barCell c) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell c 9) 0
    ∗ reached ER (recvCell c 10) 0
    ∗ reached ER (recvCell c 11) 0
    ∗ reached ER (recvCell c 12) 0
    ∗ reached ER (recvCell c 13) 0
    ∗ reached ER (recvCell c 14) 0
    ∗ reached ER (recvCell c 15) 0
    ∗ reached ER (barCell (peer c)) 0
    ∗ reached ER (recvCell (peer c) 0) 0
    ∗ reached ER (recvCell (peer c) 1) 0
    ∗ reached ER (recvCell (peer c) 2) 0
    ∗ reached ER (recvCell (peer c) 3) 0
    ∗ reached ER (recvCell (peer c) 4) 0
    ∗ reached ER (recvCell (peer c) 5) 0
    ∗ reached ER (recvCell (peer c) 6) 0
    ∗ reached ER (recvCell (peer c) 7) 0
    ∗ reached ER (recvCell (peer c) 8) 0
    ∗ reached ER (recvCell (peer c) 9) 0
    ∗ reached ER (recvCell (peer c) 10) 0
    ∗ reached ER (recvCell (peer c) 11) 0
    ∗ reached ER (recvCell (peer c) 12) 0
    ∗ reached ER (recvCell (peer c) 13) 0
    ∗ reached ER (recvCell (peer c) 14) 0
    ∗ reached ER (recvCell (peer c) 15) 0)
instance marks_persistent (c : Dev nD) : BI.Persistent (marks (F := F) c) := by unfold marks; infer_instance

/-- Device `c`'s positions: round 0 of each of its own cells, nothing consumed. -/
def positions (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0)

/-- The tokens of the duties device `c` pays: its partner's barrier duty, its partner's sixteen arrival duties, its own sixteen departure duties. -/
def payToks (c : Dev nD) : sProp 𝕄 :=
  iprop(dutyTok ER (barCell (peer c)) 0 ()
    ∗ dutyTok ER (recvCell (peer c) 0) 0 ()
    ∗ dutyTok ER (recvCell (peer c) 1) 0 ()
    ∗ dutyTok ER (recvCell (peer c) 2) 0 ()
    ∗ dutyTok ER (recvCell (peer c) 3) 0 ()
    ∗ dutyTok ER (recvCell (peer c) 4) 0 ()
    ∗ dutyTok ER (recvCell (peer c) 5) 0 ()
    ∗ dutyTok ER (recvCell (peer c) 6) 0 ()
    ∗ dutyTok ER (recvCell (peer c) 7) 0 ()
    ∗ dutyTok ER (recvCell (peer c) 8) 0 ()
    ∗ dutyTok ER (recvCell (peer c) 9) 0 ()
    ∗ dutyTok ER (recvCell (peer c) 10) 0 ()
    ∗ dutyTok ER (recvCell (peer c) 11) 0 ()
    ∗ dutyTok ER (recvCell (peer c) 12) 0 ()
    ∗ dutyTok ER (recvCell (peer c) 13) 0 ()
    ∗ dutyTok ER (recvCell (peer c) 14) 0 ()
    ∗ dutyTok ER (recvCell (peer c) 15) 0 ()
    ∗ dutyTok ER (sendCell c 0) 0 ()
    ∗ dutyTok ER (sendCell c 1) 0 ()
    ∗ dutyTok ER (sendCell c 2) 0 ()
    ∗ dutyTok ER (sendCell c 3) 0 ()
    ∗ dutyTok ER (sendCell c 4) 0 ()
    ∗ dutyTok ER (sendCell c 5) 0 ()
    ∗ dutyTok ER (sendCell c 6) 0 ()
    ∗ dutyTok ER (sendCell c 7) 0 ()
    ∗ dutyTok ER (sendCell c 8) 0 ()
    ∗ dutyTok ER (sendCell c 9) 0 ()
    ∗ dutyTok ER (sendCell c 10) 0 ()
    ∗ dutyTok ER (sendCell c 11) 0 ()
    ∗ dutyTok ER (sendCell c 12) 0 ()
    ∗ dutyTok ER (sendCell c 13) 0 ()
    ∗ dutyTok ER (sendCell c 14) 0 ()
    ∗ dutyTok ER (sendCell c 15) 0 ())

def ghost (K : Dev nD × Fin 33 → ℕ) (c : Dev nD) : sProp 𝕄 :=
  iprop(invs m K c ∗ marks c ∗ positions c ∗ payToks c)

/-- The credit dealt at launch: one unit of its barrier cell, a chunk's credit of each arrival cell. -/
def creds (c : Dev nD) : sProp 𝕄 :=
  iprop(cred (tallyAt (barCell c) () 1)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N))

/-- The three arrays of the call, as launched. -/
def held (c : Dev nD) : sProp 𝕄 :=
  iprop((((c : Thread nD τ).loc main_arg0) ↦{fullShare} m ((c : Thread nD τ).loc main_arg0))
    ∗ (((c : Thread nD τ).loc main_v1_0) ↦{fullShare} m ((c : Thread nD τ).loc main_v1_0))
    ∗ (((c : Thread nD τ).loc main_v1_1) ↦{fullShare} m ((c : Thread nD τ).loc main_v1_1)))

/-- The eight semaphores of the local copies, at zero. -/
def localSems (c : Dev nD) : sProp 𝕄 :=
  iprop(semVal (((c : Thread nD τ), SemLoc.dma (⟨32, by decide⟩ : DmaSem sig)) : GSem nD τ sig) 0
    ∗ semVal (((c : Thread nD τ), SemLoc.dma (⟨33, by decide⟩ : DmaSem sig)) : GSem nD τ sig) 0
    ∗ semVal (((c : Thread nD τ), SemLoc.dma (⟨34, by decide⟩ : DmaSem sig)) : GSem nD τ sig) 0
    ∗ semVal (((c : Thread nD τ), SemLoc.dma (⟨35, by decide⟩ : DmaSem sig)) : GSem nD τ sig) 0
    ∗ semVal (((c : Thread nD τ), SemLoc.dma (⟨36, by decide⟩ : DmaSem sig)) : GSem nD τ sig) 0
    ∗ semVal (((c : Thread nD τ), SemLoc.dma (⟨37, by decide⟩ : DmaSem sig)) : GSem nD τ sig) 0
    ∗ semVal (((c : Thread nD τ), SemLoc.dma (⟨38, by decide⟩ : DmaSem sig)) : GSem nD τ sig) 0
    ∗ semVal (((c : Thread nD τ), SemLoc.dma (⟨39, by decide⟩ : DmaSem sig)) : GSem nD τ sig) 0)

/-- All forty scoped DMA semaphores at zero, in index order. -/
def allSems (c : Dev nD) : sProp 𝕄 :=
  iprop(semVal (((c : Thread nD τ), SemLoc.dma (⟨0, by decide⟩ : DmaSem sig)) : GSem nD τ sig) 0
    ∗ semVal (((c : Thread nD τ), SemLoc.dma (⟨1, by decide⟩ : DmaSem sig)) : GSem nD τ sig) 0
    ∗ semVal (((c : Thread nD τ), SemLoc.dma (⟨2, by decide⟩ : DmaSem sig)) : GSem nD τ sig) 0
    ∗ semVal (((c : Thread nD τ), SemLoc.dma (⟨3, by decide⟩ : DmaSem sig)) : GSem nD τ sig) 0
    ∗ semVal (((c : Thread nD τ), SemLoc.dma (⟨4, by decide⟩ : DmaSem sig)) : GSem nD τ sig) 0
    ∗ semVal (((c : Thread nD τ), SemLoc.dma (⟨5, by decide⟩ : DmaSem sig)) : GSem nD τ sig) 0
    ∗ semVal (((c : Thread nD τ), SemLoc.dma (⟨6, by decide⟩ : DmaSem sig)) : GSem nD τ sig) 0
    ∗ semVal (((c : Thread nD τ), SemLoc.dma (⟨7, by decide⟩ : DmaSem sig)) : GSem nD τ sig) 0
    ∗ semVal (((c : Thread nD τ), SemLoc.dma (⟨8, by decide⟩ : DmaSem sig)) : GSem nD τ sig) 0
    ∗ semVal (((c : Thread nD τ), SemLoc.dma (⟨9, by decide⟩ : DmaSem sig)) : GSem nD τ sig) 0
    ∗ semVal (((c : Thread nD τ), SemLoc.dma (⟨10, by decide⟩ : DmaSem sig)) : GSem nD τ sig) 0
    ∗ semVal (((c : Thread nD τ), SemLoc.dma (⟨11, by decide⟩ : DmaSem sig)) : GSem nD τ sig) 0
    ∗ semVal (((c : Thread nD τ), SemLoc.dma (⟨12, by decide⟩ : DmaSem sig)) : GSem nD τ sig) 0
    ∗ semVal (((c : Thread nD τ), SemLoc.dma (⟨13, by decide⟩ : DmaSem sig)) : GSem nD τ sig) 0
    ∗ semVal (((c : Thread nD τ), SemLoc.dma (⟨14, by decide⟩ : DmaSem sig)) : GSem nD τ sig) 0
    ∗ semVal (((c : Thread nD τ), SemLoc.dma (⟨15, by decide⟩ : DmaSem sig)) : GSem nD τ sig) 0
    ∗ semVal (((c : Thread nD τ), SemLoc.dma (⟨16, by decide⟩ : DmaSem sig)) : GSem nD τ sig) 0
    ∗ semVal (((c : Thread nD τ), SemLoc.dma (⟨17, by decide⟩ : DmaSem sig)) : GSem nD τ sig) 0
    ∗ semVal (((c : Thread nD τ), SemLoc.dma (⟨18, by decide⟩ : DmaSem sig)) : GSem nD τ sig) 0
    ∗ semVal (((c : Thread nD τ), SemLoc.dma (⟨19, by decide⟩ : DmaSem sig)) : GSem nD τ sig) 0
    ∗ semVal (((c : Thread nD τ), SemLoc.dma (⟨20, by decide⟩ : DmaSem sig)) : GSem nD τ sig) 0
    ∗ semVal (((c : Thread nD τ), SemLoc.dma (⟨21, by decide⟩ : DmaSem sig)) : GSem nD τ sig) 0
    ∗ semVal (((c : Thread nD τ), SemLoc.dma (⟨22, by decide⟩ : DmaSem sig)) : GSem nD τ sig) 0
    ∗ semVal (((c : Thread nD τ), SemLoc.dma (⟨23, by decide⟩ : DmaSem sig)) : GSem nD τ sig) 0
    ∗ semVal (((c : Thread nD τ), SemLoc.dma (⟨24, by decide⟩ : DmaSem sig)) : GSem nD τ sig) 0
    ∗ semVal (((c : Thread nD τ), SemLoc.dma (⟨25, by decide⟩ : DmaSem sig)) : GSem nD τ sig) 0
    ∗ semVal (((c : Thread nD τ), SemLoc.dma (⟨26, by decide⟩ : DmaSem sig)) : GSem nD τ sig) 0
    ∗ semVal (((c : Thread nD τ), SemLoc.dma (⟨27, by decide⟩ : DmaSem sig)) : GSem nD τ sig) 0
    ∗ semVal (((c : Thread nD τ), SemLoc.dma (⟨28, by decide⟩ : DmaSem sig)) : GSem nD τ sig) 0
    ∗ semVal (((c : Thread nD τ), SemLoc.dma (⟨29, by decide⟩ : DmaSem sig)) : GSem nD τ sig) 0
    ∗ semVal (((c : Thread nD τ), SemLoc.dma (⟨30, by decide⟩ : DmaSem sig)) : GSem nD τ sig) 0
    ∗ semVal (((c : Thread nD τ), SemLoc.dma (⟨31, by decide⟩ : DmaSem sig)) : GSem nD τ sig) 0
    ∗ semVal (((c : Thread nD τ), SemLoc.dma (⟨32, by decide⟩ : DmaSem sig)) : GSem nD τ sig) 0
    ∗ semVal (((c : Thread nD τ), SemLoc.dma (⟨33, by decide⟩ : DmaSem sig)) : GSem nD τ sig) 0
    ∗ semVal (((c : Thread nD τ), SemLoc.dma (⟨34, by decide⟩ : DmaSem sig)) : GSem nD τ sig) 0
    ∗ semVal (((c : Thread nD τ), SemLoc.dma (⟨35, by decide⟩ : DmaSem sig)) : GSem nD τ sig) 0
    ∗ semVal (((c : Thread nD τ), SemLoc.dma (⟨36, by decide⟩ : DmaSem sig)) : GSem nD τ sig) 0
    ∗ semVal (((c : Thread nD τ), SemLoc.dma (⟨37, by decide⟩ : DmaSem sig)) : GSem nD τ sig) 0
    ∗ semVal (((c : Thread nD τ), SemLoc.dma (⟨38, by decide⟩ : DmaSem sig)) : GSem nD τ sig) 0
    ∗ semVal (((c : Thread nD τ), SemLoc.dma (⟨39, by decide⟩ : DmaSem sig)) : GSem nD τ sig) 0)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 :=
  iprop((∃ K, ghost m K c) ∗ creds c ∗ levAts L lv ∗ held m c ∗ localSems c ∗ scratch c)

/-- After the body: the input as launched, the result at its closed form, every scoped semaphore back at zero, the scratch buffers whole. -/
def Φ₁ (c : Dev nD) : sProp 𝕄 :=
  iprop((((c : Thread nD τ).loc main_arg0) ↦{fullShare} m ((c : Thread nD τ).loc main_arg0))
    ∗ (((c : Thread nD τ).loc main_v1_0) ↦{fullShare} outFull m c)
    ∗ allSems c ∗ scratch c)

/-- The pipeline's proof data: no window; the invariant before and after the one point; the device owes `O₀ c` before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.RS

end
-- ==== Proof.KernelLaunchDefs.lean ====
import proofs.«901042_g7700000000001043_dist_rs_v7x_xyz2x4x4_x_m8192_n1024_bf16_1_alg».proof.Proof.KernelState

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The kernel's own semaphores and the protocol's cells, indexed -/

/-- The forty scoped DMA semaphores of the call. -/
abbrev osem : Fin 40 → SemLoc sig := fun i => .dma i

/-- A device's thirty-three protocol cells: 0 the barrier semaphore, 1 + k departure semaphore k, 17 + k arrival semaphore k. -/
abbrev csem (j : Fin 33) : SemLoc sig :=
  if h : j.val = 0 then .reg barS else .dma ⟨j.val - 1, by have := j.isLt; show j.val - 1 < 40; omega⟩
abbrev kcell (cj : Dev nD × Fin 33) : GSem nD τ sig := ((cj.1 : Thread nD τ), csem cj.2)

/-- The index of a protocol cell read back off its semaphore. -/
def cidx : SemLoc sig → ℕ
  | .reg _ => 0
  | .dma i => i.val + 1

theorem cidx_csem (j : Fin 33) : cidx (csem j) = j.val := by
  unfold csem
  split
  · rename_i h; exact h.symm
  · rename_i h; show j.val - 1 + 1 = j.val; omega

theorem csem_injective : Function.Injective csem := fun j j' h =>
  Fin.ext (by rw [← cidx_csem j, ← cidx_csem j', h])

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Every protocol cell of the mesh. -/
def protoCells : Finset (GSem nD τ sig) := Finset.univ.map ⟨kcell, kcell_injective⟩

/-- One duty a cell, in round 0. -/
abbrev tokOf (cj : Dev nD × Fin 33) : GSem nD τ sig × ℕ × Unit := (kcell cj, 0, ())
theorem tokOf_injective : Function.Injective (tokOf : Dev nD × Fin 33 → GSem nD τ sig × ℕ × Unit) :=
  fun a b h => kcell_injective (congrArg Prod.fst h)
def protoToks : Finset (GSem nD τ sig × ℕ × Unit) := Finset.univ.map ⟨tokOf, tokOf_injective⟩

/-- The launch element: the pipeline library's copy (no cell, no token: no staged window) beside the exchange's. -/
def u₀ : UU :=
  (initOf (Pipeline.cells cfgs cellOf_inj) (Pipeline.launchToks cfgs cellOf_inj), (initOf protoCells protoToks, 1))

/-- The duty tokens of device `c`'s own cells, as minted. -/
def toks (c : Dev nD) : sProp 𝕄 := bigSep Finset.univ fun j : Fin 33 => dutyTok ER (kcell (c, j)) 0 ()

/-- What the launch element deals device `c`. -/
def G (c : Dev nD) : sProp 𝕄 :=
  iprop((bigSep Finset.univ fun j : Fin 33 => roundState ER (sched m) (kcell (c, j)) 0)
    ∗ (bigSep Finset.univ fun j : Fin 33 => iprop(atPos ER (kcell (c, j)) 0 ∅ 0 ∗ reached ER (kcell (c, j)) 0)) ∗ toks c)

/-- What the global step makes of it: the cells' ghost state, and the eight semaphores that are no cell. -/
def G' (c : Dev nD) : sProp 𝕄 := iprop((∃ K, ghost m K c) ∗ localSems c)

/-- What a device holds once its launch credit and the arrays are added. -/
def X (c : Dev nD) : sProp 𝕄 := iprop((∃ K, ghost m K c) ∗ creds c ∗ levAts L lv ∗ held m c ∗ localSems c)

/-- What a device keeps of its exit invariant for the final state: the input as launched, the result at its closed form. -/
def Y (c : Dev nD) : sProp 𝕄 :=
  iprop((((c : Thread nD τ).loc main_arg0) ↦{fullShare} m ((c : Thread nD τ).loc main_arg0))
    ∗ (((c : Thread nD τ).loc main_v1_0) ↦{fullShare} outFull m c))

/-! ## A product over sixteen, thirty-three or forty indices, written out -/

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ
omit [FloatOps F] in
theorem bigSep_fin40 (Φ : Fin 40 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) Φ

/-! ## The semaphores at zero a device starts with -/

omit [FloatOps F] in
/-- The kernel's own semaphores are the forty scoped DMA semaphores; -/
theorem ownSems0_eq (c : Dev nD) : (Pipeline.ownSems0 (Ix := Unit) (Name := ℕ) (U := UU) (Lvl := ℕ) (Val := Elt F) (τ := τ) osem c : sProp 𝕄) = allSems c := by
  unfold Pipeline.ownSems0; rw [bigSep_fin40]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The cells at a device's indices are the named ones. -/
theorem kcell_bar (c : Dev nD) : kcell (c, 0) = barCell c := rfl
theorem kcell_send (c : Dev nD) (k : Fin 16) : kcell (c, ⟨1 + k.val, by have := k.isLt; omega⟩) = sendCell c k := by
  have := k.isLt
  unfold kcell csem
  rw [dif_neg (by show ¬ (1 + k.val = 0); omega)]
  refine congrArg (fun i : DmaSem sig => (((c : Dev nD) : Thread nD τ), SemLoc.dma i)) (Fin.ext ?_)
  show 1 + k.val - 1 = k.val; omega
theorem kcell_recv (c : Dev nD) (k : Fin 16) : kcell (c, ⟨17 + k.val, by have := k.isLt; omega⟩) = recvCell c k := by
  have := k.isLt
  unfold kcell csem
  rw [dif_neg (by show ¬ (17 + k.val = 0); omega)]
  refine congrArg (fun i : DmaSem sig => (((c : Dev nD) : Thread nD τ), SemLoc.dma i)) (Fin.ext ?_)
  show 17 + k.val - 1 = 16 + k.val; omega

end Cert.Kernel.RS

end
-- ==== Proof.KernelAlloc.lean ====
import proofs.«901042_g7700000000001043_dist_rs_v7x_xyz2x4x4_x_m8192_n1024_bf16_1_alg».proof.Proof.KernelLaunchDefs

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Funding: the launch element becomes every device's cells at round 0, their positions and tokens -/

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun j : Fin 33 => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element, funded: the pipeline library's half untouched, the exchange's half dealt to the devices. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (fund_proto m) $$ HX with HG
  imodintro
  isplitl [HP] <;> iassumption

/-! ## One device: its thirty-three cells' invariants allocated -/

omit [FloatOps F] in
/-- A device's semaphores at zero: those of its thirty-three cells, and the eight of the local copies. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : Fin 33 => semVal (kcell (c, j)) 0) ∗ localSems c : sProp 𝕄) := by
  rw [ownSems0_eq, unscopedSems0_eq, bigSep_fin33]
  unfold allSems localSems
  iintro ⟨⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, HB⟩
  isplitl [HB S0 S1 S2 S3 S4 S5 S6 S7 S8 S9 S10 S11 S12 S13 S14 S15 S16 S17 S18 S19 S20 S21 S22 S23 S24 S25 S26 S27 S28 S29 S30 S31]
  ·
    isplitl [HB]; · iexact HB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact S31
  ·
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : Fin 33 => semVal (kcell (c, j)) 0) ∗ bigSep Finset.univ fun j : Fin 33 => roundState ER (sched m) (kcell (c, j)) 0)
      ⊢ (|={Set.univ}=> bigSep Finset.univ fun j : Fin 33 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## All devices: the invariants' names chosen, the persistent facts shared, the tokens dealt across the pairing -/

def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

instance records_persistent (K : Dev nD × Fin 33 → ℕ) : BI.Persistent (records m K) := by unfold records; infer_instance

theorem inv_at (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_at (ck : Dev nD × Fin 33) :
    (bigSep Finset.univ fun ck : Dev nD × Fin 33 => (reached ER (kcell ck) 0 : sProp 𝕄)) ⊢ reached ER (kcell ck) 0 :=
  bigSep_elim (Finset.mem_univ ck)

/-- The invariants a device's body opens are among those of the whole mesh. -/
theorem invs_intro (K : Dev nD × Fin 33 → ℕ) (c : Dev nD) :
    (bigSep Finset.univ fun ck : Dev nD × Fin 33 => (cellInv ER (sched m) (K ck) (kcell ck) : sProp 𝕄)) ⊢ invs m K c := by
  unfold invs
  iintro #HI
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (c, 7)); iexact HI
  isplitr; · iapply (inv_at m K (c, 8)); iexact HI
  isplitr; · iapply (inv_at m K (c, 9)); iexact HI
  isplitr; · iapply (inv_at m K (c, 10)); iexact HI
  isplitr; · iapply (inv_at m K (c, 11)); iexact HI
  isplitr; · iapply (inv_at m K (c, 12)); iexact HI
  isplitr; · iapply (inv_at m K (c, 13)); iexact HI
  isplitr; · iapply (inv_at m K (c, 14)); iexact HI
  isplitr; · iapply (inv_at m K (c, 15)); iexact HI
  isplitr; · iapply (inv_at m K (c, 16)); iexact HI
  isplitr; · iapply (inv_at m K (c, 17)); iexact HI
  isplitr; · iapply (inv_at m K (c, 18)); iexact HI
  isplitr; · iapply (inv_at m K (c, 19)); iexact HI
  isplitr; · iapply (inv_at m K (c, 20)); iexact HI
  isplitr; · iapply (inv_at m K (c, 21)); iexact HI
  isplitr; · iapply (inv_at m K (c, 22)); iexact HI
  isplitr; · iapply (inv_at m K (c, 23)); iexact HI
  isplitr; · iapply (inv_at m K (c, 24)); iexact HI
  isplitr; · iapply (inv_at m K (c, 25)); iexact HI
  isplitr; · iapply (inv_at m K (c, 26)); iexact HI
  isplitr; · iapply (inv_at m K (c, 27)); iexact HI
  isplitr; · iapply (inv_at m K (c, 28)); iexact HI
  isplitr; · iapply (inv_at m K (c, 29)); iexact HI
  isplitr; · iapply (inv_at m K (c, 30)); iexact HI
  isplitr; · iapply (inv_at m K (c, 31)); iexact HI
  isplitr; · iapply (inv_at m K (c, 32)); iexact HI
  isplitr; · iapply (inv_at m K (peer c, 0)); iexact HI
  isplitr; · iapply (inv_at m K (peer c, 17)); iexact HI
  isplitr; · iapply (inv_at m K (peer c, 18)); iexact HI
  isplitr; · iapply (inv_at m K (peer c, 19)); iexact HI
  isplitr; · iapply (inv_at m K (peer c, 20)); iexact HI
  isplitr; · iapply (inv_at m K (peer c, 21)); iexact HI
  isplitr; · iapply (inv_at m K (peer c, 22)); iexact HI
  isplitr; · iapply (inv_at m K (peer c, 23)); iexact HI
  isplitr; · iapply (inv_at m K (peer c, 24)); iexact HI
  isplitr; · iapply (inv_at m K (peer c, 25)); iexact HI
  isplitr; · iapply (inv_at m K (peer c, 26)); iexact HI
  isplitr; · iapply (inv_at m K (peer c, 27)); iexact HI
  isplitr; · iapply (inv_at m K (peer c, 28)); iexact HI
  isplitr; · iapply (inv_at m K (peer c, 29)); iexact HI
  isplitr; · iapply (inv_at m K (peer c, 30)); iexact HI
  isplitr; · iapply (inv_at m K (peer c, 31)); iexact HI
  iapply (inv_at m K (peer c, 32)); iexact HI

omit [FloatOps F] in
theorem marks_intro (c : Dev nD) :
    (bigSep Finset.univ fun ck : Dev nD × Fin 33 => (reached ER (kcell ck) 0 : sProp 𝕄)) ⊢ marks c := by
  unfold marks
  iintro #HR
  isplitr; · iapply (reached_at (F := F) (c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (c, 11)); iexact HR
  isplitr; · iapply (reached_at (F := F) (c, 12)); iexact HR
  isplitr; · iapply (reached_at (F := F) (c, 13)); iexact HR
  isplitr; · iapply (reached_at (F := F) (c, 14)); iexact HR
  isplitr; · iapply (reached_at (F := F) (c, 15)); iexact HR
  isplitr; · iapply (reached_at (F := F) (c, 16)); iexact HR
  isplitr; · iapply (reached_at (F := F) (c, 17)); iexact HR
  isplitr; · iapply (reached_at (F := F) (c, 18)); iexact HR
  isplitr; · iapply (reached_at (F := F) (c, 19)); iexact HR
  isplitr; · iapply (reached_at (F := F) (c, 20)); iexact HR
  isplitr; · iapply (reached_at (F := F) (c, 21)); iexact HR
  isplitr; · iapply (reached_at (F := F) (c, 22)); iexact HR
  isplitr; · iapply (reached_at (F := F) (c, 23)); iexact HR
  isplitr; · iapply (reached_at (F := F) (c, 24)); iexact HR
  isplitr; · iapply (reached_at (F := F) (c, 25)); iexact HR
  isplitr; · iapply (reached_at (F := F) (c, 26)); iexact HR
  isplitr; · iapply (reached_at (F := F) (c, 27)); iexact HR
  isplitr; · iapply (reached_at (F := F) (c, 28)); iexact HR
  isplitr; · iapply (reached_at (F := F) (c, 29)); iexact HR
  isplitr; · iapply (reached_at (F := F) (c, 30)); iexact HR
  isplitr; · iapply (reached_at (F := F) (c, 31)); iexact HR
  isplitr; · iapply (reached_at (F := F) (c, 32)); iexact HR
  isplitr; · iapply (reached_at (F := F) (peer c, 0)); iexact HR
  isplitr; · iapply (reached_at (F := F) (peer c, 17)); iexact HR
  isplitr; · iapply (reached_at (F := F) (peer c, 18)); iexact HR
  isplitr; · iapply (reached_at (F := F) (peer c, 19)); iexact HR
  isplitr; · iapply (reached_at (F := F) (peer c, 20)); iexact HR
  isplitr; · iapply (reached_at (F := F) (peer c, 21)); iexact HR
  isplitr; · iapply (reached_at (F := F) (peer c, 22)); iexact HR
  isplitr; · iapply (reached_at (F := F) (peer c, 23)); iexact HR
  isplitr; · iapply (reached_at (F := F) (peer c, 24)); iexact HR
  isplitr; · iapply (reached_at (F := F) (peer c, 25)); iexact HR
  isplitr; · iapply (reached_at (F := F) (peer c, 26)); iexact HR
  isplitr; · iapply (reached_at (F := F) (peer c, 27)); iexact HR
  isplitr; · iapply (reached_at (F := F) (peer c, 28)); iexact HR
  isplitr; · iapply (reached_at (F := F) (peer c, 29)); iexact HR
  isplitr; · iapply (reached_at (F := F) (peer c, 30)); iexact HR
  isplitr; · iapply (reached_at (F := F) (peer c, 31)); iexact HR
  iapply (reached_at (F := F) (peer c, 32)); iexact HR

omit [FloatOps F] in
theorem positions_eq (c : Dev nD) : (bigSep Finset.univ fun j : Fin 33 => (atPos ER (kcell (c, j)) 0 ∅ 0 : sProp 𝕄)) = positions c := by
  rw [bigSep_fin33]; rfl

/-- What stays with device `c`: its positions, the tokens of the duties it pays, its local semaphores. -/
def linear (c : Dev nD) : sProp 𝕄 :=
  iprop((bigSep Finset.univ fun j : Fin 33 => atPos ER (kcell (c, j)) 0 ∅ 0) ∗ payToks c ∗ localSems c)

theorem ghost_intro (K : Dev nD × Fin 33 → ℕ) (c : Dev nD) : iprop(records m K ∗ linear c) ⊢ G' m c := by
  unfold records linear G' ghost
  iintro ⟨⟨#HI, #HR⟩, Hpos, Htok, Hloc⟩
  isplitr [Hloc]
  · iexists K
    isplitr; · iapply (invs_intro m K c); iexact HI
    isplitr; · iapply (marks_intro (F := F) c); iexact HR
    isplitl [Hpos]
    · iapply (Entails.of_eq (positions_eq (F := F) c)); iexact Hpos
    iexact Htok
  · iexact Hloc

omit [FloatOps F] in
/-- A device's minted tokens by kind: its barrier duty's, its departures', its arrivals'. -/
theorem toks_split (c : Dev nD) : (toks c : sProp 𝕄)
    ⊢ iprop(dutyTok ER (barCell c) 0 () ∗ (bigSep Finset.univ fun k : Fin 16 => dutyTok ER (sendCell c k) 0 ())
        ∗ (bigSep Finset.univ fun k : Fin 16 => dutyTok ER (recvCell c k) 0 ())) := by
  unfold toks
  rw [bigSep_fin33, bigSep_fin16, bigSep_fin16]
  iintro ⟨T0, T1, T2, T3, T4, T5, T6, T7, T8, T9, T10, T11, T12, T13, T14, T15, T16, T17, T18, T19, T20, T21, T22, T23, T24, T25, T26, T27, T28, T29, T30, T31, T32⟩
  isplitl [T0]; · iexact T0
  isplitl [T1 T2 T3 T4 T5 T6 T7 T8 T9 T10 T11 T12 T13 T14 T15 T16]
  ·
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    iexact T16
  ·
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    isplitl [T29]; · iexact T29
    isplitl [T30]; · iexact T30
    isplitl [T31]; · iexact T31
    iexact T32

omit [FloatOps F] in
theorem payToks_join (c : Dev nD) :
    iprop(dutyTok ER (barCell (peer c)) 0 () ∗ (bigSep Finset.univ fun k : Fin 16 => dutyTok ER (recvCell (peer c) k) 0 ())
        ∗ (bigSep Finset.univ fun k : Fin 16 => dutyTok ER (sendCell c k) 0 ())) ⊢ (payToks c : sProp 𝕄) := by
  unfold payToks
  rw [bigSep_fin16, bigSep_fin16]
  iintro ⟨HB, ⟨R0, R1, R2, R3, R4, R5, R6, R7, R8, R9, R10, R11, R12, R13, R14, R15⟩, S0, S1, S2, S3, S4, S5, S6, S7, S8, S9, S10, S11, S12, S13, S14, S15⟩
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

omit [FloatOps F] in
/-- Reindexing along the pairing: every device's barrier token and arrival tokens, read at its partner. -/
theorem toks_deal :
    iprop((bigSep Finset.univ fun c : Dev nD => dutyTok ER (barCell c) 0 ())
        ∗ (bigSep Finset.univ fun c : Dev nD => bigSep Finset.univ fun k : Fin 16 => dutyTok ER (sendCell c k) 0 ())
        ∗ (bigSep Finset.univ fun c : Dev nD => bigSep Finset.univ fun k : Fin 16 => dutyTok ER (recvCell c k) 0 ()))
      ⊢ (iprop((bigSep Finset.univ fun c : Dev nD => dutyTok ER (barCell (peer c)) 0 ())
        ∗ (bigSep Finset.univ fun c : Dev nD => bigSep Finset.univ fun k : Fin 16 => dutyTok ER (recvCell (peer c) k) 0 ())
        ∗ (bigSep Finset.univ fun c : Dev nD => bigSep Finset.univ fun k : Fin 16 => dutyTok ER (sendCell c k) 0 ())) : sProp 𝕄) := by
  rw [bigSep_univ_equiv pairing (fun c : Dev nD => (dutyTok ER (barCell c) 0 () : sProp 𝕄)),
    bigSep_univ_equiv pairing (fun c : Dev nD => (bigSep Finset.univ fun k : Fin 16 => dutyTok ER (recvCell c k) 0 () : sProp 𝕄))]
  iintro ⟨H1, H2, H3⟩
  isplitl [H1]; · iexact H1
  isplitl [H3]; · iexact H3
  iexact H2

omit [FloatOps F] in
/-- The tokens dealt across the pairing: a device's barrier token and its arrival tokens go to its partner, its departure tokens stay. -/
theorem toks_around : (bigSep Finset.univ fun c : Dev nD => (toks c : sProp 𝕄)) ⊢ bigSep Finset.univ fun c : Dev nD => payToks c := by
  have h1 := bigSep_mono fun (c : Dev nD) (_ : c ∈ Finset.univ) => toks_split (F := F) c
  have h2 := bigSep_mono fun (c : Dev nD) (_ : c ∈ Finset.univ) => payToks_join (F := F) c
  rw [bigSep_sep', bigSep_sep'] at h1 h2
  exact (h1.trans (toks_deal (F := F))).trans h2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_join :
    iprop((bigSep Finset.univ fun c : Dev nD => bigSep Finset.univ fun j : Fin 33 => (atPos ER (kcell (c, j)) 0 ∅ 0 : sProp 𝕄))
        ∗ (bigSep Finset.univ fun c : Dev nD => payToks c) ∗ (bigSep Finset.univ fun c : Dev nD => localSems c))
      ⊢ (bigSep Finset.univ fun c : Dev nD => linear c : sProp 𝕄) := by
  rw [← bigSep_sep', ← bigSep_sep']
  exact bigSep_mono fun c _ => show _ ⊢ linear c from Entails.of_eq (by unfold linear; rfl)

theorem regroup :
    (bigSep Finset.univ fun c : Dev nD => iprop((bigSep Finset.univ fun j : Fin 33 => iprop(∃ κ : ℕ, cellInv ER (sched m) κ (kcell (c, j))))
          ∗ (bigSep Finset.univ fun j : Fin 33 => iprop(atPos ER (kcell (c, j)) 0 ∅ 0 ∗ reached ER (kcell (c, j)) 0)) ∗ toks c ∗ localSems c) : sProp 𝕄)
      ⊢ bigSep Finset.univ (G' m) := by
  rw [bigSep_sep', bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun ck : Dev nD × Fin 33 => (reached ER (kcell ck) 0 : sProp 𝕄))]
  iintro ⟨HI, ⟨Hat, #HR⟩, Htok, Hloc⟩
  ihave HK := (BI.bigSep_exists_pi Finset.univ (fun (ck : Dev nD × Fin 33) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_join (F := F))
    isplitl [Hat]; · iexact Hat
    isplitl [Htk] <;> iassumption

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.RS.fund_u₀' depends on axioms: [propext, Classical.choice, Quot.sound] -/
#guard_msgs in #print axioms fund_u₀

/-- info: 'Cert.Kernel.RS.glob' depends on axioms: [propext, Classical.choice, Quot.sound] -/
#guard_msgs in #print axioms glob

end Cert.Kernel.RS

end
-- ==== Proof.KernelLaunch.lean ====
import proofs.«901042_g7700000000001043_dist_rs_v7x_xyz2x4x4_x_m8192_n1024_bf16_1_alg».proof.Proof.KernelAlloc

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch -/

theorem ownSemFacts : Pipeline.OwnSemFacts cfg0.spec osem := by decide

/-! ### The launch credit -/

omit [FloatOps F] in
/-- Each device owes its partner's barrier cell one unit and each of its partner's arrival cells a chunk's credit; the partner map is an
    involution, so each device is dealt exactly that credit on its own barrier and arrival cells. -/
theorem creds_of_launch (c : Dev nD) : (Pipeline.launchCred O₀ c : sProp 𝕄) ⊢ creds c := by
  have hb : (Pipeline.launchCred (fun d : Dev nD => (tallyAt (barCell (peer d)) () 1 : CellTallies nD τ sig Unit)) c : sProp 𝕄) ⊢ cred (tallyAt (barCell c) () 1) :=
    Pipeline.launchCred_tallyAt (SemLoc.reg barS) peer peer peer_peer peer_peer () 1 c
  have hr (k : Fin 16) : (Pipeline.launchCred (fun d : Dev nD => (tallyAt (recvCell (peer d) k) () N : CellTallies nD τ sig Unit)) c : sProp 𝕄) ⊢ cred (tallyAt (recvCell c k) () N) :=
    Pipeline.launchCred_tallyAt (SemLoc.dma (recvS k)) peer peer peer_peer peer_peer () N c
  delta O₀
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  unfold creds
  iintro ⟨⟨⟨⟨⟨⟨⟨⟨⟨⟨⟨⟨⟨⟨⟨⟨H15, H14⟩, H13⟩, H12⟩, H11⟩, H10⟩, H9⟩, H8⟩, H7⟩, H6⟩, H5⟩, H4⟩, H3⟩, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  isplitl [H7]; · iapply (hr 7); iexact H7
  isplitl [H8]; · iapply (hr 8); iexact H8
  isplitl [H9]; · iapply (hr 9); iexact H9
  isplitl [H10]; · iapply (hr 10); iexact H10
  isplitl [H11]; · iapply (hr 11); iexact H11
  isplitl [H12]; · iapply (hr 12); iexact H12
  isplitl [H13]; · iapply (hr 13); iexact H13
  isplitl [H14]; · iapply (hr 14); iexact H14
  iapply (hr 15); iexact H15

/-! ### The launch theorem's side conditions -/

/-- The three arrays arrive as the unscoped buffers that are no window's array; with the launch credit, the level facts and the cells' ghost state they are what a device holds. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Hh, Hlev, Hcr, -, HG⟩
  ihave Hc := (creds_of_launch (F := F) c) $$ Hcr
  imodintro
  unfold X G'
  icases HG with ⟨Hg, Hloc⟩
  isplitl
  · isplitl [Hg]; · iexact Hg
    isplitl [Hc]; · iexact Hc
    isplitl [Hlev]; · iexact Hlev
    isplitl [Hh]; · unfold held; iexact Hh
    iexact Hloc
  · iempintro

/-- Adding the scratch buffers gives the invariant before the body. -/
theorem phi0_intro (c : Dev nD) :
    iprop(X m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ X
  iintro ⟨⟨Hg, Hc, Hlev, Hh, Hloc⟩, -, Hs⟩
  isplitl [Hg]; · iexact Hg
  isplitl [Hc]; · iexact Hc
  isplitl [Hlev]; · iexact Hlev
  isplitl [Hh]; · iexact Hh
  isplitl [Hloc]; · iexact Hloc
  unfold scratch; iexact Hs

/-- The invariant after the body gives back every scoped semaphore at zero and the scratch buffers, and keeps the input and the result. -/
theorem phi1_exit (c : Dev nD) :
    (dats (F := F) m 0 c).Φ (Fin.last cfg0.N) ⊢ iprop(Y m c ∗ Pipeline.ownSems0 osem c ∗ Pipeline.scopedRest cfg0.spec c) := by
  rw [show (dats (F := F) m 0 c).Φ (Fin.last cfg0.N) = Φ₁ m c from rfl, scopedRest0_eq, ownSems0_eq]
  unfold Φ₁ Y
  iintro ⟨Ha, Ho, Hs, Hsc⟩
  isplitl [Ha Ho]
  · isplitl [Ha] <;> iassumption
  isplitl [Hs]; · iexact Hs
  unfold scratch; iexact Hsc

/-- No staged window: the pipeline waits on no cell. -/
theorem waits (c : Dev nD) : (levAts L lv : sProp 𝕄) ⊢ Pipeline.cellsWaits cfgs (dats (F := F) m) () 0 c :=
  Pipeline.cellsWaits_intro cfgs (dats (F := F) m) () 0 c fun w => w.elim0

/-- The two arrays a device keeps, read against the final memory. -/
theorem final_read (c : Dev nD) (s' : Phys nD τ sig (Elt F)) :
    iprop(Y m c ∗ emp ∗ SI s') ⊢ |={Set.univ}=> iprop(⌜s'.mem.mem ((c : Thread nD τ).loc main_v1_0) = outFull m c ∧ s'.mem.mem ((c : Thread nD τ).loc main_arg0) = m ((c : Thread nD τ).loc main_arg0)⌝ ∗ SI s') := by
  unfold Y
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ### The run -/

set_option maxRecDepth 8000 in
/-- At the compiled mesh of thirty-two devices, for any float values, from any memory with zero counters: every weakly fair execution of @main
    terminates, and in every final state each device's result array holds its own slab plus its partner's on its half of the columns, rounded,
    and its input is unchanged. The body's obligation is taken as a hypothesis. -/
theorem run_main
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c : Thread nD τ).loc main_v1_0) = outFull m c ∧ r.2.mem ((c : Thread nD τ).loc main_arg0) = m ((c : Thread nD τ).loc main_arg0)) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1_0) = outFull m c ∧ s.mem ((c : Thread nD τ).loc main_arg0) = m ((c : Thread nD τ).loc main_arg0))
    (hY := final_read m)
    (hQ := fun _ h c => (h c).2.2)

end Cert.Kernel.RS

end
-- ==== Proof.KernelIdealValue.lean ====
import proofs.«901042_g7700000000001043_dist_rs_v7x_xyz2x4x4_x_m8192_n1024_bf16_1_alg».proof.Proof.KernelIdealProto
import proofs.«901042_g7700000000001043_dist_rs_v7x_xyz2x4x4_x_m8192_n1024_bf16_1_alg».proof.Proof.Gen.ReferenceIdeal.Run
import proofs.«901042_g7700000000001043_dist_rs_v7x_xyz2x4x4_x_m8192_n1024_bf16_1_alg».proof.Proof.Gen.ReferenceIdeal.Read
import Idealize.ShloMosaic.Lib.Layout
import Idealize.ShloMosaic.Lib.ValueIdx
import Idealize.ShloMosaic.PureOps.Ideal.Laws

noncomputable section

namespace Cert.KernelIdeal.RSValue

open Idealize.ShloMosaic Idealize.ShloMosaic.TcCoe Idealize.SL.Sem
open Idealize.ShloMosaic.ValueIdx
open Cert.KernelIdeal.RS

/-! ## The reference: the sum of the two slabs -/

/-- The reference's whole input array, as launched. -/
abbrev refIn (m' : (ℓ : Loc Cert.ReferenceIdeal.nD Cert.ReferenceIdeal.τ Cert.ReferenceIdeal.sig) → Buf (Elt Ideal) ℓ) :
    (⟨3, ![2, 8192, 2048]⟩ : Shape).Idx → EReal :=
  m' (((0 : Dev Cert.ReferenceIdeal.nD).tc : Thread Cert.ReferenceIdeal.nD Cert.ReferenceIdeal.τ).loc Cert.ReferenceIdeal.main_arg0)

/-- The reference's result: the input summed over its leading axis from zero, then narrowed. -/
def refOut (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v1) :=
  truncf (F := Ideal) .bf16 (Host.reduceAdd (F := Ideal) (m' (((0 : Dev Cert.ReferenceIdeal.nD).tc : Thread Cert.ReferenceIdeal.nD Cert.ReferenceIdeal.τ).loc Cert.ReferenceIdeal.main_arg0))
    (constant Cert.ReferenceIdeal.S_ .f32 0x00000000#32) Cert.ReferenceIdeal.Gen.reducesTo_S2x8192x2048_S8192x2048_d0 Cert.ReferenceIdeal.Gen.h_S_)
    Cert.ReferenceIdeal.Gen.bitsLt_bf16_f32

/-- The index the leading-axis sum reads at, by coordinates. -/
theorem sumIdx_eq (k : Cert.ReferenceIdeal.S8192x2048.Idx) (a : Fin 2) :
    Cert.ReferenceIdeal.Read.idx_main_v0 k a
      = ix3 a (⟨(k 0).val, (k 0).isLt⟩ : Fin 8192) (⟨(k 1).val, (k 1).isLt⟩ : Fin 2048) :=
  funext fun b => match b with
    | ⟨0, _⟩ => rfl
    | ⟨1, _⟩ => rfl
    | ⟨2, _⟩ => rfl

/-- Entry (r, q) of the reference's result is slab 0's entry plus slab 1's. -/
theorem refOut_apply (m' : (ℓ : Loc Cert.ReferenceIdeal.nD Cert.ReferenceIdeal.τ Cert.ReferenceIdeal.sig) → Buf (Elt Ideal) ℓ)
    (k : Cert.ReferenceIdeal.S8192x2048.Idx) :
    refOut m' k
      = (show EReal from refIn m' (ix3 (0 : Fin 2) (⟨(k 0).val, (k 0).isLt⟩ : Fin 8192) (⟨(k 1).val, (k 1).isLt⟩ : Fin 2048)))
        + (show EReal from refIn m' (ix3 (1 : Fin 2) (⟨(k 0).val, (k 0).isLt⟩ : Fin 8192) (⟨(k 1).val, (k 1).isLt⟩ : Fin 2048))) := by
  show Cert.ReferenceIdeal.Read.val_main_v1 (F := Ideal) (refIn m') k = _
  rw [Cert.ReferenceIdeal.Read.val_main_v1_apply, Ideal.truncf_def, Cert.ReferenceIdeal.Read.val_main_v0_apply,
    Cert.ReferenceIdeal.Read.val_main_cst_apply, Ideal.ofBits_def, Ideal.ofBits_zero_f32, zero_add, Fin.sum_univ_two,
    sumIdx_eq, sumIdx_eq]

/-! ## The devices' slabs inside the whole array -/

/-- A device's block coordinate along the first mesh axis is its id divided by sixteen. -/
theorem lin_axis0 (d : Dev Cert.KernelIdeal.nD) : Layout.meshLin [2, 4, 4] d.val [0] = d.val / 16 := by revert d; decide
/-- The partner sits at the other coordinate. -/
theorem peer_div (c : Dev Cert.KernelIdeal.nD) : (peer c).val / 16 = 1 - c.val / 16 := by revert c; decide
theorem div_lt (d : Dev Cert.KernelIdeal.nD) : d.val / 16 < 2 := by have : d.val < 32 := d.isLt; omega

/-- Reading the whole array at equal coordinates. -/
theorem whole_congr (X : (⟨3, ![2, 8192, 2048]⟩ : Shape).Idx → EReal) {a a' : Fin 2} {r r' : Fin 8192} {q q' : Fin 2048}
    (ha : a.val = a'.val) (hr : r.val = r'.val) (hq : q.val = q'.val) : X (ix3 a r q) = X (ix3 a' r' q') := by
  obtain rfl := Fin.ext ha; obtain rfl := Fin.ext hr; obtain rfl := Fin.ext hq; rfl

/-- Entry (0, r, q) of device `d`'s slab is entry (d / 16, r, q) of the whole array. -/
theorem xarr_whole (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0)))
    (d : Dev Cert.KernelIdeal.nD) (z : Fin 1) (r : Fin 8192) (q : Fin 2048) :
    xarr (F := Ideal) m d (ix3 z r q) = refIn m' (ix3 (⟨d.val / 16, div_lt d⟩ : Fin 2) r q) := by
  unfold xarr
  rw [hagree d, Layout.blockN_apply]
  refine congrArg _ (funext fun b => Fin.ext ?_)
  match b with
  | ⟨0, _⟩ =>
    show Layout.meshLin [2, 4, 4] d.val [0] * 1 + z.val = d.val / 16
    rw [lin_axis0]; have := z.isLt; omega
  | ⟨1, _⟩ =>
    show 0 * 8192 + r.val = r.val
    omega
  | ⟨2, _⟩ =>
    show 0 * 2048 + q.val = q.val
    omega

/-! ## The value: each device's result is its block of the reference's -/

/-- Device `c`'s result — its own slab plus its partner's on its half of the columns — is block `c / 16` of the reference's sum
    along the columns: at coordinate 0 the two summands stand in the reference's order, at coordinate 1 swapped, and addition on the
    extended reals commutes. -/
theorem out_eq_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.RS.outFull (F := Ideal) m c = Layout.blockN ⟨2, ![8192, 1024]⟩ ⟨2, ![8192, 2048]⟩ (Layout.meshBlock [2, 4, 4] ![[], [0]] c) (refOut m') := by
  funext i
  rw [Layout.blockN_apply, refOut_apply]
  simp only [outFull, recvFull, tr, ex, Ideal.truncf_def, Ideal.extf_def, Ideal.addf_def]
  rw [xarr_whole m m' hagree c, xarr_whole m m' hagree (peer c)]
  have hc := div_lt c
  have hp := peer_div c
  have hrow : ∀ h, (⟨(i 0).val, h⟩ : Fin 8192).val = (i 0).val := fun _ => rfl
  rcases (show c.val / 16 = 0 ∨ c.val / 16 = 1 by omega) with h0 | h1
  · refine congrArg₂ (· + ·) (whole_congr _ ?_ ?_ ?_) (whole_congr _ ?_ ?_ ?_)
    · show c.val / 16 = 0
      exact h0
    · show (i 0).val = 0 * 8192 + (i 0).val
      omega
    · show col c + (i 1).val = Layout.meshLin [2, 4, 4] c.val [0] * 1024 + (i 1).val
      rw [lin_axis0]; unfold col; omega
    · show (peer c).val / 16 = 1
      omega
    · show (i 0).val = 0 * 8192 + (i 0).val
      omega
    · show col c + (i 1).val = Layout.meshLin [2, 4, 4] c.val [0] * 1024 + (i 1).val
      rw [lin_axis0]; unfold col; omega
  · rw [add_comm (G := EReal)]
    refine congrArg₂ (· + ·) (whole_congr _ ?_ ?_ ?_) (whole_congr _ ?_ ?_ ?_)
    · show (peer c).val / 16 = 0
      omega
    · show (i 0).val = 0 * 8192 + (i 0).val
      omega
    · show col c + (i 1).val = Layout.meshLin [2, 4, 4] c.val [0] * 1024 + (i 1).val
      rw [lin_axis0]; unfold col; omega
    · show c.val / 16 = 1
      exact h1
    · show (i 0).val = 0 * 8192 + (i 0).val
      omega
    · show col c + (i 1).val = Layout.meshLin [2, 4, 4] c.val [0] * 1024 + (i 1).val
      rw [lin_axis0]; unfold col; omega

/-! ## The reference's run, with its result named -/

/-- Every weakly fair execution of the reference ends with its result the sum of the slabs and its argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refOut m'
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0) (Cert.ReferenceIdeal.Value.run (F := Ideal) m' g')

/-- The reference runs and leaves its argument as launched, on its one device. -/
theorem ref_frame (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run (Cert.ReferenceIdeal.defs (F := Ideal)) _ _).mono
    (fun _ h c => by obtain rfl : c = 0 := Subsingleton.elim _ _; exact h.2) (ref_run m' g')

/-- info: 'Cert.KernelIdeal.RSValue.out_eq_block' depends on axioms: [propext, Classical.choice, Quot.sound] -/
#guard_msgs in #print axioms out_eq_block

/-- info: 'Cert.KernelIdeal.RSValue.ref_run' depends on axioms: [propext, Classical.choice, Quot.sound] -/
#guard_msgs in #print axioms ref_run

/-- info: 'Cert.KernelIdeal.RSValue.ref_frame' depends on axioms: [propext, Classical.choice, Quot.sound] -/
#guard_msgs in #print axioms ref_frame

end Cert.KernelIdeal.RSValue

end
-- ==== Proof.Claims.lean ====
/- The five claims from the two launches and the value: each kernel's run, with its result named, is the launch theorem applied to the
   body obligation of every device; the frames are that run with the value dropped; the reference's frame and run are read off its
   generated run; the algebraic claim joins each device's result to its block of the reference's. The body obligation of every device,
   at each of the two instances, is a hypothesis of this module's theorems. -/
import proofs.«901042_g7700000000001043_dist_rs_v7x_xyz2x4x4_x_m8192_n1024_bf16_1_alg».proof.Defs
import proofs.«901042_g7700000000001043_dist_rs_v7x_xyz2x4x4_x_m8192_n1024_bf16_1_alg».proof.Proof.Gen.Kernel
import proofs.«901042_g7700000000001043_dist_rs_v7x_xyz2x4x4_x_m8192_n1024_bf16_1_alg».proof.Proof.Gen.Kernel.Skeleton
import proofs.«901042_g7700000000001043_dist_rs_v7x_xyz2x4x4_x_m8192_n1024_bf16_1_alg».proof.Proof.Gen.Kernel.Launch
import proofs.«901042_g7700000000001043_dist_rs_v7x_xyz2x4x4_x_m8192_n1024_bf16_1_alg».proof.Proof.Gen.Kernel.Points
import proofs.«901042_g7700000000001043_dist_rs_v7x_xyz2x4x4_x_m8192_n1024_bf16_1_alg».proof.Proof.Gen.Kernel.Frame
import proofs.«901042_g7700000000001043_dist_rs_v7x_xyz2x4x4_x_m8192_n1024_bf16_1_alg».proof.Proof.Gen.KernelIdeal
import proofs.«901042_g7700000000001043_dist_rs_v7x_xyz2x4x4_x_m8192_n1024_bf16_1_alg».proof.Proof.Gen.KernelIdeal.Skeleton
import proofs.«901042_g7700000000001043_dist_rs_v7x_xyz2x4x4_x_m8192_n1024_bf16_1_alg».proof.Proof.Gen.KernelIdeal.Launch
import proofs.«901042_g7700000000001043_dist_rs_v7x_xyz2x4x4_x_m8192_n1024_bf16_1_alg».proof.Proof.Gen.KernelIdeal.Points
import proofs.«901042_g7700000000001043_dist_rs_v7x_xyz2x4x4_x_m8192_n1024_bf16_1_alg».proof.Proof.Gen.KernelIdeal.Frame
import proofs.«901042_g7700000000001043_dist_rs_v7x_xyz2x4x4_x_m8192_n1024_bf16_1_alg».proof.Proof.Gen.ReferenceIdeal
import proofs.«901042_g7700000000001043_dist_rs_v7x_xyz2x4x4_x_m8192_n1024_bf16_1_alg».proof.Proof.Gen.Pre_finite_inputs_Kernel
import proofs.«901042_g7700000000001043_dist_rs_v7x_xyz2x4x4_x_m8192_n1024_bf16_1_alg».proof.Proof.Gen.Pre_finite_inputs_ReferenceIdeal
import proofs.«901042_g7700000000001043_dist_rs_v7x_xyz2x4x4_x_m8192_n1024_bf16_1_alg».proof.Proof.KernelIdealLaunch
import proofs.«901042_g7700000000001043_dist_rs_v7x_xyz2x4x4_x_m8192_n1024_bf16_1_alg».proof.Proof.KernelLaunch
import proofs.«901042_g7700000000001043_dist_rs_v7x_xyz2x4x4_x_m8192_n1024_bf16_1_alg».proof.Proof.KernelIdealValue
import Idealize.ShloMosaic.Adequacy
import Idealize.ShloMosaic.Init

noncomputable section

namespace Cert.Proof

open Idealize.ShloMosaic Idealize.SL.Sem
open Idealize.ShloMosaic.Pipeline (BodyObligation)

/-- The idealized kernel's run at the extended reals: every device ends with its closed-form result and its input as launched. -/
theorem run_KernelIdeal
    (hbI : ∀ (m : (ℓ : Loc Cert.KernelIdeal.nD Cert.KernelIdeal.τ Cert.KernelIdeal.sig) → Buf (Elt Ideal) ℓ) (c : Dev Cert.KernelIdeal.nD),
      BodyObligation (Cert.KernelIdeal.RS.dats (F := Ideal) m 0 c) (Cert.KernelIdeal.defs₀ (F := Ideal)) Cert.KernelIdeal.RS.𝒱₀ () Set.univ)
    (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0) = Cert.KernelIdeal.RS.outFull (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.RS.run_main (F := Ideal) m g (hbI m)

/-- The kernel's run at the machine's words: the same statement, its closed form read at the word-level operations. -/
theorem run_Kernel
    (hbK : ∀ (m : (ℓ : Loc Cert.Kernel.nD Cert.Kernel.τ Cert.Kernel.sig) → Buf (Elt Bits) ℓ) (c : Dev Cert.Kernel.nD),
      BodyObligation (Cert.Kernel.RS.dats (F := Bits) m 0 c) (Cert.Kernel.defs₀ (F := Bits)) Cert.Kernel.RS.𝒱₀ () Set.univ)
    (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_v1_0) = Cert.Kernel.RS.outFull (F := Bits) m c
      ∧ r.2.mem ((c.tc : Thread Cert.Kernel.nD Cert.Kernel.τ).loc Cert.Kernel.main_arg0) = m ((c.tc : Thread Cert.Kernel.nD Cert.Kernel.τ).loc Cert.Kernel.main_arg0)) :=
  Cert.Kernel.RS.run_main (F := Bits) m g (hbK m)

/-- The certificate's claim, given the body obligation of every device at both instances. -/
theorem claim_of_bodies
    (hbI : ∀ (m : (ℓ : Loc Cert.KernelIdeal.nD Cert.KernelIdeal.τ Cert.KernelIdeal.sig) → Buf (Elt Ideal) ℓ) (c : Dev Cert.KernelIdeal.nD),
      BodyObligation (Cert.KernelIdeal.RS.dats (F := Ideal) m 0 c) (Cert.KernelIdeal.defs₀ (F := Ideal)) Cert.KernelIdeal.RS.𝒱₀ () Set.univ)
    (hbK : ∀ (m : (ℓ : Loc Cert.Kernel.nD Cert.Kernel.τ Cert.Kernel.sig) → Buf (Elt Bits) ℓ) (c : Dev Cert.Kernel.nD),
      BodyObligation (Cert.Kernel.RS.dats (F := Bits) m 0 c) (Cert.Kernel.defs₀ (F := Bits)) Cert.Kernel.RS.𝒱₀ () Set.univ) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    -- the kernel's frame: its run with the value dropped
    fun m g _ => (θ_run (Cert.Kernel.defs (F := Bits)) _ _).mono (fun _ h c => (h c).2) (run_Kernel hbK m g),
    -- the idealized kernel's frame, likewise
    fun m g _ => (θ_run (Cert.KernelIdeal.defs (F := Ideal)) _ _).mono (fun _ h c => (h c).2) (run_KernelIdeal hbI m g),
    -- the reference's frame
    fun m' g' _ => Cert.KernelIdeal.RSValue.ref_frame m' g',
    -- the ideal pass rewrote nothing
    trivial,
    -- the value: each device's closed form is its block of the reference's sum
    fun m g m' g' _ hagree => ⟨Cert.KernelIdeal.RSValue.refOut m',
      (θ_run (Cert.KernelIdeal.defs (F := Ideal)) _ _).mono
        (fun _ h c => ⟨(h c).1.trans (Cert.KernelIdeal.RSValue.out_eq_block m m' hagree c), (h c).2⟩) (run_KernelIdeal hbI m g),
      Cert.KernelIdeal.RSValue.ref_run m' g'⟩⟩

/-- info: 'Cert.Proof.claim_of_bodies' depends on axioms: [propext, Classical.choice, Quot.sound] -/
#guard_msgs in #print axioms claim_of_bodies

end Cert.Proof

end
-- ==== Proof.KernelIdealLevels.lean ====
import proofs.«901042_g7700000000001043_dist_rs_v7x_xyz2x4x4_x_m8192_n1024_bf16_1_alg».proof.Proof.KernelIdealState

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Waiting while owing: what a device owes sits on its partner's arrival cells, above every other cell -/

/-- A tally that is positive only on arrival cells of the partner of `c`. -/
def P (c : Dev nD) (O : CellTallies nD τ sig Unit) : Prop :=
  ∀ (g : GSem nD τ sig) (u : Unit), 0 < O g u → ∃ k : Fin 16, g = recvCell (peer c) k

theorem pos_tally (c : Dev nD) (k : Fin 16) : P c (tallyAt (recvCell (peer c) k) () N) :=
  fun g u h => ⟨k, (Pipeline.tallyAt_pos h).1⟩

theorem pos_add {c : Dev nD} {O₁ O₂ : CellTallies nD τ sig Unit} (h₁ : P c O₁) (h₂ : P c O₂) : P c (O₁ + O₂) :=
  fun g u h => (Pipeline.add_pos_cases h).elim (h₁ g u) (h₂ g u)

theorem pos_zero (c : Dev nD) : P c 0 := fun g u h => by
  rw [Pi.zero_apply, Finsupp.zero_apply] at h; exact absurd h (Nat.lt_irrefl 0)

/-- The barrier cells sit at level 1, -/
theorem lv_reg (c : Dev nD) (s : Sem sig) : lv ((c : Thread nD τ), SemLoc.reg s) () < 2 := by
  show (1 : ℕ) < 2; decide
/-- every DMA cell that is no arrival cell at level 0, -/
theorem lv_dma_lt (c : Dev nD) (i : DmaSem sig) (h : ¬ (16 ≤ i.val ∧ i.val < 32)) : lv ((c : Thread nD τ), SemLoc.dma i) () < 2 := by
  show (if 16 ≤ i.val ∧ i.val < 32 then 2 else 0) < 2
  rw [if_neg h]; decide
/-- and the arrival cells at level 2. -/
theorem lv_recv (c : Dev nD) (k : Fin 16) (u : Unit) : lv (recvCell c k) u = 2 := by
  have := k.isLt
  show (if 16 ≤ 16 + k.val ∧ 16 + k.val < 32 then 2 else 0) = 2
  rw [if_pos ⟨by omega, by omega⟩]

/-- A device that owes only on its partner's arrival cells may wait on any of its own cells below level 2. -/
theorem mayWait_low (c : Dev nD) (sm : SemLoc sig) (hsm : lv ((c : Thread nD τ), sm) () < 2) (O : CellTallies nD τ sig Unit) (hO : P c O) :
    (levAts L lv : sProp 𝕄) ⊢ MayWait (c : Thread nD τ) sm () O :=
  Pipeline.mayWait_of_levAts (by rw [L_tc]; exact Finset.mem_singleton_self ()) fun g i hg => by
    obtain ⟨k, rfl⟩ := hO g i hg
    refine ⟨by rw [L_tc]; exact Finset.mem_singleton_self _, ?_⟩
    rw [lv_recv]; exact hsm

end Cert.KernelIdeal.RS

end
-- ==== Proof.KernelIdealFacts.lean ====
import proofs.«901042_g7700000000001043_dist_rs_v7x_xyz2x4x4_x_m8192_n1024_bf16_1_alg».proof.Proof.KernelIdealLevels

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Windows of the input slab -/

/-- Two chunk windows of the input slab, each seen as a 512 × 1024 array, whose row ranges or column ranges do not meet hold no common element. -/
theorem xwin_disjoint_sq (o1 o2 : Fin 3 → Nat) (h1 : ∀ a, o1 a + S1x512x1024.size a ≤ S1x8192x2048.size a)
    (h2 : ∀ a, o2 a + S1x512x1024.size a ≤ S1x8192x2048.size a)
    (hsep : o1 1 + 512 ≤ o2 1 ∨ o2 1 + 512 ≤ o1 1 ∨ o1 2 + 1024 ≤ o2 2 ∨ o2 2 + 1024 ≤ o1 2) :
    Disjoint ((((Memref.whole main_arg0 : Memref sig .tc .hbm S1x8192x2048 .f32).slice (Rect.unit (s := S1x8192x2048) o1 S1x512x1024.size h1) (fun _ => rfl)).squeeze S512x1024 squeezes_S1x512x1024_S512x1024).view.set)
      ((((Memref.whole main_arg0 : Memref sig .tc .hbm S1x8192x2048 .f32).slice (Rect.unit (s := S1x8192x2048) o2 S1x512x1024.size h2) (fun _ => rfl)).squeeze S512x1024 squeezes_S1x512x1024_S512x1024).view.set) := by
  have e (o : Fin 3 → Nat) (h : ∀ a, o a + S1x512x1024.size a ≤ S1x8192x2048.size a) : ((((Memref.whole main_arg0 : Memref sig .tc .hbm S1x8192x2048 .f32).slice (Rect.unit (s := S1x8192x2048) o S1x512x1024.size h) (fun _ => rfl)).squeeze S512x1024 squeezes_S1x512x1024_S512x1024).view.set)
      = (Rect.unit (s := S1x8192x2048) o S1x512x1024.size h).set :=
    (View.set_reshape (v := (View.whole main_arg0).slice (Rect.unit (s := S1x8192x2048) o S1x512x1024.size h)) _).trans (View.set_slice_whole main_arg0 _)
  rw [e o1 h1, e o2 h2]
  rcases hsep with h | h | h | h
  · exact Rect.disjoint_of_separated _ _ 1 (Or.inl (Or.inr (by show o1 1 + 1 * (512 - 1) < o2 1; omega)))
  · exact Rect.disjoint_of_separated _ _ 1 (Or.inr (Or.inr (by show o2 1 + 1 * (512 - 1) < o1 1; omega)))
  · exact Rect.disjoint_of_separated _ _ 2 (Or.inl (Or.inr (by show o1 2 + 1 * (1024 - 1) < o2 2; omega)))
  · exact Rect.disjoint_of_separated _ _ 2 (Or.inr (Or.inr (by show o2 2 + 1 * (1024 - 1) < o1 2; omega)))

/-! ## The partner, as the kernel computes it; the landing array -/

theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))
theorem dev11_eq (c : Dev nD) : (⟨k0_dev11 c, k0_dev11_lt c⟩ : Dev nD) = peer c := Fin.ext ((k0_dev11_eq c).trans (dev_closed c))
theorem dev12_eq (c : Dev nD) : (⟨k0_dev12 c, k0_dev12_lt c⟩ : Dev nD) = peer c := Fin.ext ((k0_dev12_eq c).trans (dev_closed c))
theorem dev13_eq (c : Dev nD) : (⟨k0_dev13 c, k0_dev13_lt c⟩ : Dev nD) = peer c := Fin.ext ((k0_dev13_eq c).trans (dev_closed c))
theorem dev14_eq (c : Dev nD) : (⟨k0_dev14 c, k0_dev14_lt c⟩ : Dev nD) = peer c := Fin.ext ((k0_dev14_eq c).trans (dev_closed c))
theorem dev15_eq (c : Dev nD) : (⟨k0_dev15 c, k0_dev15_lt c⟩ : Dev nD) = peer c := Fin.ext ((k0_dev15_eq c).trans (dev_closed c))
theorem dev16_eq (c : Dev nD) : (⟨k0_dev16 c, k0_dev16_lt c⟩ : Dev nD) = peer c := Fin.ext ((k0_dev16_eq c).trans (dev_closed c))
theorem dev17_eq (c : Dev nD) : (⟨k0_dev17 c, k0_dev17_lt c⟩ : Dev nD) = peer c := Fin.ext ((k0_dev17_eq c).trans (dev_closed c))

omit [FloatOps F] in
/-- A whole buffer's points-to, spelt through its whole memref's view. -/
theorem whole_pts (d : Dev nD) (b : Ref sig .tc) (f : Buf (Elt F) ((d : Thread nD τ).loc b)) :
    ((Memref.whole b).view.loc (d : Thread nD τ) ↦[(Memref.whole b).view.set]{fullShare} f : sProp 𝕄) = (((d : Thread nD τ).loc b) ↦{fullShare} f) := by
  show ((View.whole b).loc (d : Thread nD τ) ↦[(View.whole b).set]{fullShare} f : sProp 𝕄) = _
  rw [View.set_whole]

/-- The landing array of device `d`, whole, as launched. -/
abbrev landing (d : Dev nD) : sProp 𝕄 :=
  (Memref.whole main_v1_1 : Memref sig .tc .hbm S8192x1024 .bf16).view.loc ((d : Dev nD) : Thread nD τ) ↦[(Memref.whole main_v1_1 : Memref sig .tc .hbm S8192x1024 .bf16).view.set]{fullShare} m (((d : Dev nD) : Thread nD τ).loc main_v1_1)

theorem payload_bar_view (c : Dev nD) (d : Unit) : (sched (F := F) m).payload (barCell c) 0 d
    = ((Memref.whole main_v1_1 : Memref sig .tc .hbm S8192x1024 .bf16).view.loc ((peer c : Dev nD) : Thread nD τ) ↦[(Memref.whole main_v1_1 : Memref sig .tc .hbm S8192x1024 .bf16).view.set]{fullShare} m (((peer c : Dev nD) : Thread nD τ).loc main_v1_1) : sProp 𝕄) := by
  rw [whole_pts]; rfl
omit [FloatOps F] in
theorem landing_respell (c : Dev nD) : landing (F := F) m c = landing m (peer (peer c)) := by rw [peer_peer]

/-! ## The chunk windows in flight together are pairwise disjoint, in both orders -/

theorem dMP0 (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set) :=
  xwin_disjoint_sq (k0_off2 c) (k0_off1 c) (k0_off2_inb c) (k0_off1_inb c) (by rw [k0_off2_eq, k0_off1_eq]; simp only [Matrix.cons_val_one, Matrix.cons_val_zero, Matrix.cons_val_two, Matrix.head_cons, Matrix.tail_cons]; omega)
theorem dMP0s (c : Dev nD) : Disjoint ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) := (dMP0 c).symm
theorem dPP0 (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set) :=
  xwin_disjoint_sq (k0_off3 c) (k0_off1 c) (k0_off3_inb c) (k0_off1_inb c) (by rw [k0_off3_eq, k0_off1_eq]; simp only [Matrix.cons_val_one, Matrix.cons_val_zero, Matrix.cons_val_two, Matrix.head_cons, Matrix.tail_cons]; omega)
theorem dPP0s (c : Dev nD) : Disjoint ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) := (dPP0 c).symm
theorem dPM0 (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off3 c) (k0_off2 c) (k0_off3_inb c) (k0_off2_inb c) (by rw [k0_off3_eq, k0_off2_eq]; simp only [Matrix.cons_val_one, Matrix.cons_val_zero, Matrix.cons_val_two, Matrix.head_cons, Matrix.tail_cons]; omega)
theorem dPM0s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) := (dPM0 c).symm
theorem dPP1 (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) :=
  xwin_disjoint_sq (k0_off4 c) (k0_off3 c) (k0_off4_inb c) (k0_off3_inb c) (by rw [k0_off4_eq, k0_off3_eq]; simp only [Matrix.cons_val_one, Matrix.cons_val_zero, Matrix.cons_val_two, Matrix.head_cons, Matrix.tail_cons]; omega)
theorem dPP1s (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) := (dPP1 c).symm
theorem dPM1 (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off4 c) (k0_off2 c) (k0_off4_inb c) (k0_off2_inb c) (by rw [k0_off4_eq, k0_off2_eq]; simp only [Matrix.cons_val_one, Matrix.cons_val_zero, Matrix.cons_val_two, Matrix.head_cons, Matrix.tail_cons]; omega)
theorem dPM1s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) := (dPM1 c).symm
theorem dPP2 (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) :=
  xwin_disjoint_sq (k0_off5 c) (k0_off4 c) (k0_off5_inb c) (k0_off4_inb c) (by rw [k0_off5_eq, k0_off4_eq]; simp only [Matrix.cons_val_one, Matrix.cons_val_zero, Matrix.cons_val_two, Matrix.head_cons, Matrix.tail_cons]; omega)
theorem dPP2s (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) := (dPP2 c).symm
theorem dPM2 (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off5 c) (k0_off2 c) (k0_off5_inb c) (k0_off2_inb c) (by rw [k0_off5_eq, k0_off2_eq]; simp only [Matrix.cons_val_one, Matrix.cons_val_zero, Matrix.cons_val_two, Matrix.head_cons, Matrix.tail_cons]; omega)
theorem dPM2s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) := (dPM2 c).symm
theorem dPP3 (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) :=
  xwin_disjoint_sq (k0_off6 c) (k0_off5 c) (k0_off6_inb c) (k0_off5_inb c) (by rw [k0_off6_eq, k0_off5_eq]; simp only [Matrix.cons_val_one, Matrix.cons_val_zero, Matrix.cons_val_two, Matrix.head_cons, Matrix.tail_cons]; omega)
theorem dPP3s (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) := (dPP3 c).symm
theorem dPM3 (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off6 c) (k0_off2 c) (k0_off6_inb c) (k0_off2_inb c) (by rw [k0_off6_eq, k0_off2_eq]; simp only [Matrix.cons_val_one, Matrix.cons_val_zero, Matrix.cons_val_two, Matrix.head_cons, Matrix.tail_cons]; omega)
theorem dPM3s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) := (dPM3 c).symm
theorem dPP4 (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) :=
  xwin_disjoint_sq (k0_off7 c) (k0_off6 c) (k0_off7_inb c) (k0_off6_inb c) (by rw [k0_off7_eq, k0_off6_eq]; simp only [Matrix.cons_val_one, Matrix.cons_val_zero, Matrix.cons_val_two, Matrix.head_cons, Matrix.tail_cons]; omega)
theorem dPP4s (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) := (dPP4 c).symm
theorem dPM4 (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off7 c) (k0_off2 c) (k0_off7_inb c) (k0_off2_inb c) (by rw [k0_off7_eq, k0_off2_eq]; simp only [Matrix.cons_val_one, Matrix.cons_val_zero, Matrix.cons_val_two, Matrix.head_cons, Matrix.tail_cons]; omega)
theorem dPM4s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) := (dPM4 c).symm
theorem dPP5 (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) :=
  xwin_disjoint_sq (k0_off8 c) (k0_off7 c) (k0_off8_inb c) (k0_off7_inb c) (by rw [k0_off8_eq, k0_off7_eq]; simp only [Matrix.cons_val_one, Matrix.cons_val_zero, Matrix.cons_val_two, Matrix.head_cons, Matrix.tail_cons]; omega)
theorem dPP5s (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) := (dPP5 c).symm
theorem dPM5 (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off8 c) (k0_off2 c) (k0_off8_inb c) (k0_off2_inb c) (by rw [k0_off8_eq, k0_off2_eq]; simp only [Matrix.cons_val_one, Matrix.cons_val_zero, Matrix.cons_val_two, Matrix.head_cons, Matrix.tail_cons]; omega)
theorem dPM5s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) := (dPM5 c).symm
theorem dPP6 (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) :=
  xwin_disjoint_sq (k0_off9 c) (k0_off8 c) (k0_off9_inb c) (k0_off8_inb c) (by rw [k0_off9_eq, k0_off8_eq]; simp only [Matrix.cons_val_one, Matrix.cons_val_zero, Matrix.cons_val_two, Matrix.head_cons, Matrix.tail_cons]; omega)
theorem dPP6s (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) := (dPP6 c).symm
theorem dPM6 (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off9 c) (k0_off2 c) (k0_off9_inb c) (k0_off2_inb c) (by rw [k0_off9_eq, k0_off2_eq]; simp only [Matrix.cons_val_one, Matrix.cons_val_zero, Matrix.cons_val_two, Matrix.head_cons, Matrix.tail_cons]; omega)
theorem dPM6s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) := (dPM6 c).symm
theorem dPP7 (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) :=
  xwin_disjoint_sq (k0_off10 c) (k0_off9 c) (k0_off10_inb c) (k0_off9_inb c) (by rw [k0_off10_eq, k0_off9_eq]; simp only [Matrix.cons_val_one, Matrix.cons_val_zero, Matrix.cons_val_two, Matrix.head_cons, Matrix.tail_cons]; omega)
theorem dPP7s (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) := (dPP7 c).symm
theorem dPM7 (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off10 c) (k0_off2 c) (k0_off10_inb c) (k0_off2_inb c) (by rw [k0_off10_eq, k0_off2_eq]; simp only [Matrix.cons_val_one, Matrix.cons_val_zero, Matrix.cons_val_two, Matrix.head_cons, Matrix.tail_cons]; omega)
theorem dPM7s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) := (dPM7 c).symm
theorem dPP8 (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) :=
  xwin_disjoint_sq (k0_off11 c) (k0_off10 c) (k0_off11_inb c) (k0_off10_inb c) (by rw [k0_off11_eq, k0_off10_eq]; simp only [Matrix.cons_val_one, Matrix.cons_val_zero, Matrix.cons_val_two, Matrix.head_cons, Matrix.tail_cons]; omega)
theorem dPP8s (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) := (dPP8 c).symm
theorem dPM8 (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off11 c) (k0_off2 c) (k0_off11_inb c) (k0_off2_inb c) (by rw [k0_off11_eq, k0_off2_eq]; simp only [Matrix.cons_val_one, Matrix.cons_val_zero, Matrix.cons_val_two, Matrix.head_cons, Matrix.tail_cons]; omega)
theorem dPM8s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) := (dPM8 c).symm
theorem dPP9 (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) :=
  xwin_disjoint_sq (k0_off12 c) (k0_off11 c) (k0_off12_inb c) (k0_off11_inb c) (by rw [k0_off12_eq, k0_off11_eq]; simp only [Matrix.cons_val_one, Matrix.cons_val_zero, Matrix.cons_val_two, Matrix.head_cons, Matrix.tail_cons]; omega)
theorem dPP9s (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) := (dPP9 c).symm
theorem dPM9 (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off12 c) (k0_off2 c) (k0_off12_inb c) (k0_off2_inb c) (by rw [k0_off12_eq, k0_off2_eq]; simp only [Matrix.cons_val_one, Matrix.cons_val_zero, Matrix.cons_val_two, Matrix.head_cons, Matrix.tail_cons]; omega)
theorem dPM9s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) := (dPM9 c).symm
theorem dPP10 (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) :=
  xwin_disjoint_sq (k0_off13 c) (k0_off12 c) (k0_off13_inb c) (k0_off12_inb c) (by rw [k0_off13_eq, k0_off12_eq]; simp only [Matrix.cons_val_one, Matrix.cons_val_zero, Matrix.cons_val_two, Matrix.head_cons, Matrix.tail_cons]; omega)
theorem dPP10s (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) := (dPP10 c).symm
theorem dPM10 (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off13 c) (k0_off2 c) (k0_off13_inb c) (k0_off2_inb c) (by rw [k0_off13_eq, k0_off2_eq]; simp only [Matrix.cons_val_one, Matrix.cons_val_zero, Matrix.cons_val_two, Matrix.head_cons, Matrix.tail_cons]; omega)
theorem dPM10s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) := (dPM10 c).symm
theorem dPP11 (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) :=
  xwin_disjoint_sq (k0_off14 c) (k0_off13 c) (k0_off14_inb c) (k0_off13_inb c) (by rw [k0_off14_eq, k0_off13_eq]; simp only [Matrix.cons_val_one, Matrix.cons_val_zero, Matrix.cons_val_two, Matrix.head_cons, Matrix.tail_cons]; omega)
theorem dPP11s (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) := (dPP11 c).symm
theorem dPM11 (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off14 c) (k0_off2 c) (k0_off14_inb c) (k0_off2_inb c) (by rw [k0_off14_eq, k0_off2_eq]; simp only [Matrix.cons_val_one, Matrix.cons_val_zero, Matrix.cons_val_two, Matrix.head_cons, Matrix.tail_cons]; omega)
theorem dPM11s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) := (dPM11 c).symm
theorem dPP12 (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) :=
  xwin_disjoint_sq (k0_off15 c) (k0_off14 c) (k0_off15_inb c) (k0_off14_inb c) (by rw [k0_off15_eq, k0_off14_eq]; simp only [Matrix.cons_val_one, Matrix.cons_val_zero, Matrix.cons_val_two, Matrix.head_cons, Matrix.tail_cons]; omega)
theorem dPP12s (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) := (dPP12 c).symm
theorem dPM12 (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off15 c) (k0_off2 c) (k0_off15_inb c) (k0_off2_inb c) (by rw [k0_off15_eq, k0_off2_eq]; simp only [Matrix.cons_val_one, Matrix.cons_val_zero, Matrix.cons_val_two, Matrix.head_cons, Matrix.tail_cons]; omega)
theorem dPM12s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) := (dPM12 c).symm
theorem dPP13 (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) :=
  xwin_disjoint_sq (k0_off16 c) (k0_off15 c) (k0_off16_inb c) (k0_off15_inb c) (by rw [k0_off16_eq, k0_off15_eq]; simp only [Matrix.cons_val_one, Matrix.cons_val_zero, Matrix.cons_val_two, Matrix.head_cons, Matrix.tail_cons]; omega)
theorem dPP13s (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) := (dPP13 c).symm
theorem dPM13 (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off16 c) (k0_off2 c) (k0_off16_inb c) (k0_off2_inb c) (by rw [k0_off16_eq, k0_off2_eq]; simp only [Matrix.cons_val_one, Matrix.cons_val_zero, Matrix.cons_val_two, Matrix.head_cons, Matrix.tail_cons]; omega)
theorem dPM13s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) := (dPM13 c).symm
theorem dPP14 (c : Dev nD) : Disjoint ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) :=
  xwin_disjoint_sq (k0_off17 c) (k0_off16 c) (k0_off17_inb c) (k0_off16_inb c) (by rw [k0_off17_eq, k0_off16_eq]; simp only [Matrix.cons_val_one, Matrix.cons_val_zero, Matrix.cons_val_two, Matrix.head_cons, Matrix.tail_cons]; omega)
theorem dPP14s (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set) := (dPP14 c).symm
theorem dPM14 (c : Dev nD) : Disjoint ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off17 c) (k0_off2 c) (k0_off17_inb c) (k0_off2_inb c) (by rw [k0_off17_eq, k0_off2_eq]; simp only [Matrix.cons_val_one, Matrix.cons_val_zero, Matrix.cons_val_two, Matrix.head_cons, Matrix.tail_cons]; omega)
theorem dPM14s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set) := (dPM14 c).symm
theorem dMM0 (c : Dev nD) : Disjoint ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off18 c) (k0_off2 c) (k0_off18_inb c) (k0_off2_inb c) (by rw [k0_off18_eq, k0_off2_eq]; simp only [Matrix.cons_val_one, Matrix.cons_val_zero, Matrix.cons_val_two, Matrix.head_cons, Matrix.tail_cons]; omega)
theorem dMM0s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set) := (dMM0 c).symm
theorem dMM1 (c : Dev nD) : Disjoint ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set)
    ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set) :=
  xwin_disjoint_sq (k0_off19 c) (k0_off18 c) (k0_off19_inb c) (k0_off18_inb c) (by rw [k0_off19_eq, k0_off18_eq]; simp only [Matrix.cons_val_one, Matrix.cons_val_zero, Matrix.cons_val_two, Matrix.head_cons, Matrix.tail_cons]; omega)
theorem dMM1s (c : Dev nD) : Disjoint ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set)
    ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set) := (dMM1 c).symm
theorem dMM2 (c : Dev nD) : Disjoint ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set)
    ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set) :=
  xwin_disjoint_sq (k0_off20 c) (k0_off19 c) (k0_off20_inb c) (k0_off19_inb c) (by rw [k0_off20_eq, k0_off19_eq]; simp only [Matrix.cons_val_one, Matrix.cons_val_zero, Matrix.cons_val_two, Matrix.head_cons, Matrix.tail_cons]; omega)
theorem dMM2s (c : Dev nD) : Disjoint ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set)
    ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set) := (dMM2 c).symm
theorem dMM3 (c : Dev nD) : Disjoint ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set)
    ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set) :=
  xwin_disjoint_sq (k0_off21 c) (k0_off20 c) (k0_off21_inb c) (k0_off20_inb c) (by rw [k0_off21_eq, k0_off20_eq]; simp only [Matrix.cons_val_one, Matrix.cons_val_zero, Matrix.cons_val_two, Matrix.head_cons, Matrix.tail_cons]; omega)
theorem dMM3s (c : Dev nD) : Disjoint ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set)
    ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set) := (dMM3 c).symm
theorem dMM4 (c : Dev nD) : Disjoint ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set)
    ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set) :=
  xwin_disjoint_sq (k0_off22 c) (k0_off21 c) (k0_off22_inb c) (k0_off21_inb c) (by rw [k0_off22_eq, k0_off21_eq]; simp only [Matrix.cons_val_one, Matrix.cons_val_zero, Matrix.cons_val_two, Matrix.head_cons, Matrix.tail_cons]; omega)
theorem dMM4s (c : Dev nD) : Disjoint ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set)
    ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set) := (dMM4 c).symm
theorem dMM5 (c : Dev nD) : Disjoint ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set)
    ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set) :=
  xwin_disjoint_sq (k0_off23 c) (k0_off22 c) (k0_off23_inb c) (k0_off22_inb c) (by rw [k0_off23_eq, k0_off22_eq]; simp only [Matrix.cons_val_one, Matrix.cons_val_zero, Matrix.cons_val_two, Matrix.head_cons, Matrix.tail_cons]; omega)
theorem dMM5s (c : Dev nD) : Disjoint ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set)
    ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set) := (dMM5 c).symm
theorem dMM6 (c : Dev nD) : Disjoint ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set)
    ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set) :=
  xwin_disjoint_sq (k0_off24 c) (k0_off23 c) (k0_off24_inb c) (k0_off23_inb c) (by rw [k0_off24_eq, k0_off23_eq]; simp only [Matrix.cons_val_one, Matrix.cons_val_zero, Matrix.cons_val_two, Matrix.head_cons, Matrix.tail_cons]; omega)
theorem dMM6s (c : Dev nD) : Disjoint ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set)
    ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set) := (dMM6 c).symm
theorem dMM7 (c : Dev nD) : Disjoint ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set)
    ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set) :=
  xwin_disjoint_sq (k0_off25 c) (k0_off24 c) (k0_off25_inb c) (k0_off24_inb c) (by rw [k0_off25_eq, k0_off24_eq]; simp only [Matrix.cons_val_one, Matrix.cons_val_zero, Matrix.cons_val_two, Matrix.head_cons, Matrix.tail_cons]; omega)
theorem dMM7s (c : Dev nD) : Disjoint ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set)
    ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set) := (dMM7 c).symm
theorem dMM8 (c : Dev nD) : Disjoint ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set)
    ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set) :=
  xwin_disjoint_sq (k0_off26 c) (k0_off25 c) (k0_off26_inb c) (k0_off25_inb c) (by rw [k0_off26_eq, k0_off25_eq]; simp only [Matrix.cons_val_one, Matrix.cons_val_zero, Matrix.cons_val_two, Matrix.head_cons, Matrix.tail_cons]; omega)
theorem dMM8s (c : Dev nD) : Disjoint ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set)
    ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set) := (dMM8 c).symm
theorem dMM9 (c : Dev nD) : Disjoint ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set)
    ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set) :=
  xwin_disjoint_sq (k0_off27 c) (k0_off26 c) (k0_off27_inb c) (k0_off26_inb c) (by rw [k0_off27_eq, k0_off26_eq]; simp only [Matrix.cons_val_one, Matrix.cons_val_zero, Matrix.cons_val_two, Matrix.head_cons, Matrix.tail_cons]; omega)
theorem dMM9s (c : Dev nD) : Disjoint ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set)
    ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set) := (dMM9 c).symm
theorem dMM10 (c : Dev nD) : Disjoint ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set)
    ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set) :=
  xwin_disjoint_sq (k0_off28 c) (k0_off27 c) (k0_off28_inb c) (k0_off27_inb c) (by rw [k0_off28_eq, k0_off27_eq]; simp only [Matrix.cons_val_one, Matrix.cons_val_zero, Matrix.cons_val_two, Matrix.head_cons, Matrix.tail_cons]; omega)
theorem dMM10s (c : Dev nD) : Disjoint ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set)
    ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set) := (dMM10 c).symm
theorem dMM11 (c : Dev nD) : Disjoint ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set)
    ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set) :=
  xwin_disjoint_sq (k0_off29 c) (k0_off28 c) (k0_off29_inb c) (k0_off28_inb c) (by rw [k0_off29_eq, k0_off28_eq]; simp only [Matrix.cons_val_one, Matrix.cons_val_zero, Matrix.cons_val_two, Matrix.head_cons, Matrix.tail_cons]; omega)
theorem dMM11s (c : Dev nD) : Disjoint ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set)
    ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set) := (dMM11 c).symm
theorem dMM12 (c : Dev nD) : Disjoint ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set)
    ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set) :=
  xwin_disjoint_sq (k0_off30 c) (k0_off29 c) (k0_off30_inb c) (k0_off29_inb c) (by rw [k0_off30_eq, k0_off29_eq]; simp only [Matrix.cons_val_one, Matrix.cons_val_zero, Matrix.cons_val_two, Matrix.head_cons, Matrix.tail_cons]; omega)
theorem dMM12s (c : Dev nD) : Disjoint ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set)
    ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set) := (dMM12 c).symm
theorem dMM13 (c : Dev nD) : Disjoint ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set)
    ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set) :=
  xwin_disjoint_sq (k0_off31 c) (k0_off30 c) (k0_off31_inb c) (k0_off30_inb c) (by rw [k0_off31_eq, k0_off30_eq]; simp only [Matrix.cons_val_one, Matrix.cons_val_zero, Matrix.cons_val_two, Matrix.head_cons, Matrix.tail_cons]; omega)
theorem dMM13s (c : Dev nD) : Disjoint ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set)
    ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set) := (dMM13 c).symm
theorem dMM14 (c : Dev nD) : Disjoint ((((Memref.whole main_arg0 : Memref sig .tc .hbm S1x8192x2048 .f32).slice (Rect.unit (s := S1x8192x2048) (k0_off32 c) S1x512x1024.size (k0_off32_inb c)) (fun _ => rfl)).squeeze S512x1024 squeezes_S1x512x1024_S512x1024).view.set)
    ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set) :=
  xwin_disjoint_sq (k0_off32 c) (k0_off31 c) (k0_off32_inb c) (k0_off31_inb c) (by rw [k0_off32_eq, k0_off31_eq]; simp only [Matrix.cons_val_one, Matrix.cons_val_zero, Matrix.cons_val_two, Matrix.head_cons, Matrix.tail_cons]; omega)
theorem dMM14s (c : Dev nD) : Disjoint ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set)
    ((((Memref.whole main_arg0 : Memref sig .tc .hbm S1x8192x2048 .f32).slice (Rect.unit (s := S1x8192x2048) (k0_off32 c) S1x512x1024.size (k0_off32_inb c)) (fun _ => rfl)).squeeze S512x1024 squeezes_S1x512x1024_S512x1024).view.set) := (dMM14 c).symm

/-! ## A device may wait on its barrier, local-copy and departure cells whatever it still owes its partner's arrival cells -/

theorem mwB (c : Dev nD) : (levAts L lv : sProp 𝕄) ⊢ MayWait (c : Thread nD τ) (.reg barS) () ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N)) :=
  mayWait_low c _ (lv_reg c barS) _ (pos_add (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1)) (pos_tally c 0))
theorem mwP0 (c : Dev nD) : (levAts L lv : sProp 𝕄) ⊢ MayWait (c : Thread nD τ) (.dma (⟨32, by decide⟩ : DmaSem sig)) () ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N)) :=
  mayWait_low c _ (lv_dma_lt c _ (by decide)) _ (pos_add (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1)) (pos_tally c 0))
theorem mwP1 (c : Dev nD) : (levAts L lv : sProp 𝕄) ⊢ MayWait (c : Thread nD τ) (.dma (⟨33, by decide⟩ : DmaSem sig)) () (((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N)) :=
  mayWait_low c _ (lv_dma_lt c _ (by decide)) _ (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1))
theorem mwP2 (c : Dev nD) : (levAts L lv : sProp 𝕄) ⊢ MayWait (c : Thread nD τ) (.dma (⟨32, by decide⟩ : DmaSem sig)) () ((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N)) :=
  mayWait_low c _ (lv_dma_lt c _ (by decide)) _ (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2))
theorem mwP3 (c : Dev nD) : (levAts L lv : sProp 𝕄) ⊢ MayWait (c : Thread nD τ) (.dma (⟨33, by decide⟩ : DmaSem sig)) () (((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N)) :=
  mayWait_low c _ (lv_dma_lt c _ (by decide)) _ (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3))
theorem mwP4 (c : Dev nD) : (levAts L lv : sProp 𝕄) ⊢ MayWait (c : Thread nD τ) (.dma (⟨32, by decide⟩ : DmaSem sig)) () ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) :=
  mayWait_low c _ (lv_dma_lt c _ (by decide)) _ (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4))
theorem mwS4 (c : Dev nD) : (levAts L lv : sProp 𝕄) ⊢ MayWait (c : Thread nD τ) (.dma (sendS 0)) () ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) :=
  mayWait_low c _ (lv_dma_lt c _ (by decide)) _ (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4))
theorem mwP5 (c : Dev nD) : (levAts L lv : sProp 𝕄) ⊢ MayWait (c : Thread nD τ) (.dma (⟨33, by decide⟩ : DmaSem sig)) () (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) :=
  mayWait_low c _ (lv_dma_lt c _ (by decide)) _ (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5))
theorem mwS5 (c : Dev nD) : (levAts L lv : sProp 𝕄) ⊢ MayWait (c : Thread nD τ) (.dma (sendS 1)) () (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) :=
  mayWait_low c _ (lv_dma_lt c _ (by decide)) _ (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5))
theorem mwP6 (c : Dev nD) : (levAts L lv : sProp 𝕄) ⊢ MayWait (c : Thread nD τ) (.dma (⟨32, by decide⟩ : DmaSem sig)) () ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) :=
  mayWait_low c _ (lv_dma_lt c _ (by decide)) _ (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6))
theorem mwS6 (c : Dev nD) : (levAts L lv : sProp 𝕄) ⊢ MayWait (c : Thread nD τ) (.dma (sendS 2)) () ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) :=
  mayWait_low c _ (lv_dma_lt c _ (by decide)) _ (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6))
theorem mwP7 (c : Dev nD) : (levAts L lv : sProp 𝕄) ⊢ MayWait (c : Thread nD τ) (.dma (⟨33, by decide⟩ : DmaSem sig)) () (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) :=
  mayWait_low c _ (lv_dma_lt c _ (by decide)) _ (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7))
theorem mwS7 (c : Dev nD) : (levAts L lv : sProp 𝕄) ⊢ MayWait (c : Thread nD τ) (.dma (sendS 3)) () (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) :=
  mayWait_low c _ (lv_dma_lt c _ (by decide)) _ (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7))
theorem mwP8 (c : Dev nD) : (levAts L lv : sProp 𝕄) ⊢ MayWait (c : Thread nD τ) (.dma (⟨32, by decide⟩ : DmaSem sig)) () ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) :=
  mayWait_low c _ (lv_dma_lt c _ (by decide)) _ (pos_add (pos_add (pos_add (pos_add (pos_add (pos_add (pos_add (pos_tally c 15) (pos_tally c 14)) (pos_tally c 13)) (pos_tally c 12)) (pos_tally c 11)) (pos_tally c 10)) (pos_tally c 9)) (pos_tally c 8))
theorem mwS8 (c : Dev nD) : (levAts L lv : sProp 𝕄) ⊢ MayWait (c : Thread nD τ) (.dma (sendS 4)) () ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) :=
  mayWait_low c _ (lv_dma_lt c _ (by decide)) _ (pos_add (pos_add (pos_add (pos_add (pos_add (pos_add (pos_add (pos_tally c 15) (pos_tally c 14)) (pos_tally c 13)) (pos_tally c 12)) (pos_tally c 11)) (pos_tally c 10)) (pos_tally c 9)) (pos_tally c 8))
theorem mwP9 (c : Dev nD) : (levAts L lv : sProp 𝕄) ⊢ MayWait (c : Thread nD τ) (.dma (⟨33, by decide⟩ : DmaSem sig)) () (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) :=
  mayWait_low c _ (lv_dma_lt c _ (by decide)) _ (pos_add (pos_add (pos_add (pos_add (pos_add (pos_add (pos_tally c 15) (pos_tally c 14)) (pos_tally c 13)) (pos_tally c 12)) (pos_tally c 11)) (pos_tally c 10)) (pos_tally c 9))
theorem mwS9 (c : Dev nD) : (levAts L lv : sProp 𝕄) ⊢ MayWait (c : Thread nD τ) (.dma (sendS 5)) () (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) :=
  mayWait_low c _ (lv_dma_lt c _ (by decide)) _ (pos_add (pos_add (pos_add (pos_add (pos_add (pos_add (pos_tally c 15) (pos_tally c 14)) (pos_tally c 13)) (pos_tally c 12)) (pos_tally c 11)) (pos_tally c 10)) (pos_tally c 9))
theorem mwP10 (c : Dev nD) : (levAts L lv : sProp 𝕄) ⊢ MayWait (c : Thread nD τ) (.dma (⟨32, by decide⟩ : DmaSem sig)) () ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) :=
  mayWait_low c _ (lv_dma_lt c _ (by decide)) _ (pos_add (pos_add (pos_add (pos_add (pos_add (pos_tally c 15) (pos_tally c 14)) (pos_tally c 13)) (pos_tally c 12)) (pos_tally c 11)) (pos_tally c 10))
theorem mwS10 (c : Dev nD) : (levAts L lv : sProp 𝕄) ⊢ MayWait (c : Thread nD τ) (.dma (sendS 6)) () ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) :=
  mayWait_low c _ (lv_dma_lt c _ (by decide)) _ (pos_add (pos_add (pos_add (pos_add (pos_add (pos_tally c 15) (pos_tally c 14)) (pos_tally c 13)) (pos_tally c 12)) (pos_tally c 11)) (pos_tally c 10))
theorem mwP11 (c : Dev nD) : (levAts L lv : sProp 𝕄) ⊢ MayWait (c : Thread nD τ) (.dma (⟨33, by decide⟩ : DmaSem sig)) () (((((tallyAt (recvCell (peer c) 15) () N + tallyAt (recvCell (peer c) 14) () N) + tallyAt (recvCell (peer c) 13) () N) + tallyAt (recvCell (peer c) 12) () N) + tallyAt (recvCell (peer c) 11) () N)) :=
  mayWait_low c _ (lv_dma_lt c _ (by decide)) _ (pos_add (pos_add (pos_add (pos_add (pos_tally c 15) (pos_tally c 14)) (pos_tally c 13)) (pos_tally c 12)) (pos_tally c 11))
theorem mwS11 (c : Dev nD) : (levAts L lv : sProp 𝕄) ⊢ MayWait (c : Thread nD τ) (.dma (sendS 7)) () (((((tallyAt (recvCell (peer c) 15) () N + tallyAt (recvCell (peer c) 14) () N) + tallyAt (recvCell (peer c) 13) () N) + tallyAt (recvCell (peer c) 12) () N) + tallyAt (recvCell (peer c) 11) () N)) :=
  mayWait_low c _ (lv_dma_lt c _ (by decide)) _ (pos_add (pos_add (pos_add (pos_add (pos_tally c 15) (pos_tally c 14)) (pos_tally c 13)) (pos_tally c 12)) (pos_tally c 11))
theorem mwP12 (c : Dev nD) : (levAts L lv : sProp 𝕄) ⊢ MayWait (c : Thread nD τ) (.dma (⟨32, by decide⟩ : DmaSem sig)) () ((((tallyAt (recvCell (peer c) 15) () N + tallyAt (recvCell (peer c) 14) () N) + tallyAt (recvCell (peer c) 13) () N) + tallyAt (recvCell (peer c) 12) () N)) :=
  mayWait_low c _ (lv_dma_lt c _ (by decide)) _ (pos_add (pos_add (pos_add (pos_tally c 15) (pos_tally c 14)) (pos_tally c 13)) (pos_tally c 12))
theorem mwS12 (c : Dev nD) : (levAts L lv : sProp 𝕄) ⊢ MayWait (c : Thread nD τ) (.dma (sendS 8)) () ((((tallyAt (recvCell (peer c) 15) () N + tallyAt (recvCell (peer c) 14) () N) + tallyAt (recvCell (peer c) 13) () N) + tallyAt (recvCell (peer c) 12) () N)) :=
  mayWait_low c _ (lv_dma_lt c _ (by decide)) _ (pos_add (pos_add (pos_add (pos_tally c 15) (pos_tally c 14)) (pos_tally c 13)) (pos_tally c 12))
theorem mwP13 (c : Dev nD) : (levAts L lv : sProp 𝕄) ⊢ MayWait (c : Thread nD τ) (.dma (⟨33, by decide⟩ : DmaSem sig)) () (((tallyAt (recvCell (peer c) 15) () N + tallyAt (recvCell (peer c) 14) () N) + tallyAt (recvCell (peer c) 13) () N)) :=
  mayWait_low c _ (lv_dma_lt c _ (by decide)) _ (pos_add (pos_add (pos_tally c 15) (pos_tally c 14)) (pos_tally c 13))
theorem mwS13 (c : Dev nD) : (levAts L lv : sProp 𝕄) ⊢ MayWait (c : Thread nD τ) (.dma (sendS 9)) () (((tallyAt (recvCell (peer c) 15) () N + tallyAt (recvCell (peer c) 14) () N) + tallyAt (recvCell (peer c) 13) () N)) :=
  mayWait_low c _ (lv_dma_lt c _ (by decide)) _ (pos_add (pos_add (pos_tally c 15) (pos_tally c 14)) (pos_tally c 13))
theorem mwP14 (c : Dev nD) : (levAts L lv : sProp 𝕄) ⊢ MayWait (c : Thread nD τ) (.dma (⟨32, by decide⟩ : DmaSem sig)) () ((tallyAt (recvCell (peer c) 15) () N + tallyAt (recvCell (peer c) 14) () N)) :=
  mayWait_low c _ (lv_dma_lt c _ (by decide)) _ (pos_add (pos_tally c 15) (pos_tally c 14))
theorem mwS14 (c : Dev nD) : (levAts L lv : sProp 𝕄) ⊢ MayWait (c : Thread nD τ) (.dma (sendS 10)) () ((tallyAt (recvCell (peer c) 15) () N + tallyAt (recvCell (peer c) 14) () N)) :=
  mayWait_low c _ (lv_dma_lt c _ (by decide)) _ (pos_add (pos_tally c 15) (pos_tally c 14))
theorem mwP15 (c : Dev nD) : (levAts L lv : sProp 𝕄) ⊢ MayWait (c : Thread nD τ) (.dma (⟨33, by decide⟩ : DmaSem sig)) () (tallyAt (recvCell (peer c) 15) () N) :=
  mayWait_low c _ (lv_dma_lt c _ (by decide)) _ (pos_tally c 15)
theorem mwS15 (c : Dev nD) : (levAts L lv : sProp 𝕄) ⊢ MayWait (c : Thread nD τ) (.dma (sendS 11)) () (tallyAt (recvCell (peer c) 15) () N) :=
  mayWait_low c _ (lv_dma_lt c _ (by decide)) _ (pos_tally c 15)

end Cert.KernelIdeal.RS

end
-- ==== Proof.KernelIdealSteps.lean ====
import proofs.«901042_g7700000000001043_dist_rs_v7x_xyz2x4x4_x_m8192_n1024_bf16_1_alg».proof.Proof.KernelIdealState
import Idealize.ShloMosaic.Lib.Pipeline.Value

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## What a chunk's transfer carries, and what it lands as -/

theorem chunk_row_lt (k : Fin 16) (y : S512x1024.Idx) : 512 * k.val + (y 0).val < 8192 := by
  have : (y 0).val < 512 := (y 0).isLt
  have := k.isLt
  omega
theorem chunk_col_lt (c : Dev nD) (y : S512x1024.Idx) : col c + (y 1).val < 2048 := by
  have : (y 1).val < 1024 := (y 1).isLt
  have := col_le c
  omega

/-- Chunk `k` of what device `c` sends its partner: rows `512 k …` of its slab on the partner's half of the columns, rounded. -/
def sentChunk (c : Dev nD) (k : Fin 16) : S512x1024.Idx → F .bf16 := fun y =>
  tr (xarr m c (ValueIdx.ix3 (⟨0, by decide⟩ : Fin 1) (⟨512 * k.val + (y 0).val, chunk_row_lt k y⟩ : Fin 8192)
    (⟨col (peer c) + (y 1).val, chunk_col_lt (peer c) y⟩ : Fin 2048)))

/-- Equal coordinates, equal index. -/
theorem ix3_congr {n0 n1 n2 : ℕ} {a a' : Fin n0} {b b' : Fin n1} {d d' : Fin n2}
    (ha : a.val = a'.val) (hb : b.val = b'.val) (hd : d.val = d'.val) : ValueIdx.ix3 a b d = ValueIdx.ix3 a' b' d' := by
  obtain rfl := Fin.ext ha; obtain rfl := Fin.ext hb; obtain rfl := Fin.ext hd; rfl

/-- Chunk `k` of `c`'s slab, written over band `k` of the partner's landing array, is there what the partner is to receive. -/
theorem landing_value (c : Dev nD) (k : Fin 16) (fd : Buf (Elt F) ((rowsM k).view.loc ((peer c : Dev nD) : Thread nD τ))) :
    ∀ i ∈ (rowsM k).view.set, ((rowsM k).view.write (Elt F) fd (sentChunk m c k) Finset.univ) i = recvFull m (peer c) i := by
  intro i hi
  obtain ⟨y, rfl⟩ := View.exists_emb_of_mem_set _ hi
  rw [View.write_emb_of_mem _ _ (Finset.mem_univ y)]
  show sentChunk m c k y = recvFull m (peer c) ((rowsM k).view.emb y)
  unfold sentChunk recvFull
  rw [peer_peer]
  refine congrArg tr (congrArg (xarr m c) (ix3_congr rfl ?_ ?_))
  · show 512 * k.val + (y 0).val = 512 * k.val + 1 * (y 0).val
    omega
  · show col (peer c) + (y 1).val = col (peer c) + (0 + 1 * (y 1).val)
    omega

/-! ## One chunk's transfer to the partner -/

/-- The transfer of chunk `k` from staging slot `k % 4` into band `k` of the partner's landing array: it pays the sender's departure duty
    (the slot comes back) and the partner's arrival duty (the band, holding what the partner is to receive there). -/
theorem wp_send_chunk (κ₁ κ₂ : ℕ) (c n : Dev nD) (hn : n = peer c) (k : Fin 16) (j : Fin 4) (hj : j.val = k.val % 4)
    {hsc : ((rowsM k : Memref sig (Dev.tc n : Thread nD τ).2.kind .hbm S512x1024 .bf16)).view.ref.isScScratch = false}
    {hsrc : (slotM j).view.WordExact} {hdst : (rowsM k).view.WordExact}
    {hsem : DmaTarget.Typed .vmem (.dma (recvS k)) (.remote (Dev.tc n : Thread nD τ) (rowsM k) (.dma (sendS k)) hsc)}
    {α : Type} {Q : α → sProp 𝕄} {kont : PUnit → Prog (TpuEff nD τ sig (Elt F) Λ₀ .tc) α}
    (fs : Buf (Elt F) ((slotM j).view.loc (c : Thread nD τ))) (hfs : (slotM j).view.read (Elt F) fs = sentChunk m c k)
    (fd : Buf (Elt F) ((rowsM k).view.loc ((peer c : Dev nD) : Thread nD τ)))
    (O : CellTallies nD τ sig Unit) (W' : Waits sig Unit) :
    iprop(cellInv ER (sched m) κ₁ (sendCell c k) ∗ cellInv ER (sched m) κ₂ (recvCell (peer c) k)
        ∗ ((slotM j).view.loc (c : Thread nD τ) ↦[(slotM j).view.set]{fullShare} fs)
        ∗ ((rowsM k).view.loc ((peer c : Dev nD) : Thread nD τ) ↦[(rowsM k).view.set]{fullShare} fd)
        ∗ owes (c : Thread nD τ) (O + tallyAt (recvCell (peer c) k) () N) W'
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W') -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM j) (.remote (Dev.tc n : Thread nD τ) (rowsM k) (.dma (sendS k)) hsc) (.dma (recvS k)) hsrc hdst hsem) kont) Q) := by
  subst hn
  obtain rfl : j = ⟨k.val % 4, Nat.mod_lt _ (by decide)⟩ := Fin.ext hj
  exact Rounds.wp_send_pointsTo 𝒱₀ ER (sched m) (c : Thread nD τ) none (κ₁ := κ₁) (κ₂ := κ₂)
    (r₁ := 0) (r₂ := 0) (d₁ := ()) (d₂ := ()) (fs := fs) (fd := fd)
    (by rw [duties_send]; exact Finset.mem_singleton_self _) (by rw [duties_recv]; exact Finset.mem_singleton_self _)
    () () N rfl (amount_send m c k ()) (amount_recv m (peer c) k ()) O rfl (W := W')
    (by rw [payload_send]; unfold sendPay; iintro H; iexists fs; iexact H)
    (by rw [payload_recv]; unfold recvPay; rw [hfs]; exact Entails.of_eq (pointsTo_congr (landing_value m c k fd)))

/-! ## The landing array in sixteen bands -/

/-- The elements of band `k` of the landing array. -/
abbrev band (k : Fin 16) : Finset S8192x1024.Idx := (rowsM k).view.set

theorem band_eq (k : Fin 16) :
    band k = (Rect.unit (s := S8192x1024) ![512 * k.val, 0] S512x1024.size (rows_inb k)).set :=
  View.set_slice_whole main_v1_1 _

/-- Two different bands share no row. -/
theorem rows_disjoint (i j : Fin 16) (h : i ≠ j) : Disjoint (band i) (band j) := by
  rw [band_eq, band_eq]
  refine Rect.unit_disjoint (0 : Fin 2) ?_
  show 512 * i.val + 512 ≤ 512 * j.val ∨ 512 * j.val + 512 ≤ 512 * i.val
  have : i.val ≠ j.val := fun e => h (Fin.ext e)
  omega

theorem row_div_lt (i : S8192x1024.Idx) : (i 0).val / 512 < 16 := by
  have : (i 0).val < 8192 := (i 0).isLt
  omega

/-- Every element of the landing array lies in the band of its row. -/
theorem rows_cover (i : S8192x1024.Idx) : i ∈ band ⟨(i 0).val / 512, row_div_lt i⟩ := by
  rw [band_eq, Rect.mem_set_unit]
  intro a
  match a with
  | ⟨0, _⟩ =>
    show 512 * ((i 0).val / 512) ≤ (i 0).val ∧ (i 0).val < 512 * ((i 0).val / 512) + 512
    omega
  | ⟨1, _⟩ =>
    show 0 ≤ (i 1).val ∧ (i 1).val < 0 + 1024
    have : (i 1).val < 1024 := (i 1).isLt
    omega

/-- The sixteen bands are the whole array. -/
theorem rows_union : (Finset.univ : Finset (Fin 16)).biUnion band = Finset.univ := by
  ext i
  simp only [Finset.mem_biUnion, Finset.mem_univ, true_and, iff_true]
  exact ⟨_, rows_cover i⟩

/-- The whole landing array, held band by band. -/
theorem rows_split (d : Dev nD) (f : Buf (Elt F) ((d : Thread nD τ).loc main_v1_1)) :
    (((d : Thread nD τ).loc main_v1_1) ↦{fullShare} f : sProp 𝕄)
      ⊢ iprop(((rowsM 0).view.loc (d : Thread nD τ) ↦[(rowsM 0).view.set]{fullShare} f)
        ∗ ((rowsM 1).view.loc (d : Thread nD τ) ↦[(rowsM 1).view.set]{fullShare} f)
        ∗ ((rowsM 2).view.loc (d : Thread nD τ) ↦[(rowsM 2).view.set]{fullShare} f)
        ∗ ((rowsM 3).view.loc (d : Thread nD τ) ↦[(rowsM 3).view.set]{fullShare} f)
        ∗ ((rowsM 4).view.loc (d : Thread nD τ) ↦[(rowsM 4).view.set]{fullShare} f)
        ∗ ((rowsM 5).view.loc (d : Thread nD τ) ↦[(rowsM 5).view.set]{fullShare} f)
        ∗ ((rowsM 6).view.loc (d : Thread nD τ) ↦[(rowsM 6).view.set]{fullShare} f)
        ∗ ((rowsM 7).view.loc (d : Thread nD τ) ↦[(rowsM 7).view.set]{fullShare} f)
        ∗ ((rowsM 8).view.loc (d : Thread nD τ) ↦[(rowsM 8).view.set]{fullShare} f)
        ∗ ((rowsM 9).view.loc (d : Thread nD τ) ↦[(rowsM 9).view.set]{fullShare} f)
        ∗ ((rowsM 10).view.loc (d : Thread nD τ) ↦[(rowsM 10).view.set]{fullShare} f)
        ∗ ((rowsM 11).view.loc (d : Thread nD τ) ↦[(rowsM 11).view.set]{fullShare} f)
        ∗ ((rowsM 12).view.loc (d : Thread nD τ) ↦[(rowsM 12).view.set]{fullShare} f)
        ∗ ((rowsM 13).view.loc (d : Thread nD τ) ↦[(rowsM 13).view.set]{fullShare} f)
        ∗ ((rowsM 14).view.loc (d : Thread nD τ) ↦[(rowsM 14).view.set]{fullShare} f)
        ∗ ((rowsM 15).view.loc (d : Thread nD τ) ↦[(rowsM 15).view.set]{fullShare} f)) := by
  have h2 := pointsTo_biUnion (U := UU) (Lvl := ℕ) (Name := ℕ) (Ix := Unit) (ℓ := (d : Thread nD τ).loc main_v1_1) (q := fullShare) (f := f)
    (Finset.univ : Finset (Fin 16)) band (fun t _ t' _ h => rows_disjoint t t' h)
  rw [rows_union] at h2
  have h3 := bigSep_univ_eq_bigSepL [(0 : Fin 16), 1, 2, 3, 4, 5, 6, 7, 8, 9, 10, 11, 12, 13, 14, 15] (by decide) (by decide)
    (fun t : Fin 16 => (((d : Thread nD τ).loc main_v1_1) ↦[band t]{fullShare} f : sProp 𝕄))
  exact Entails.of_eq (h2.trans h3)

/-! ## The staging buffer in four slots -/

/-- The outgoing staging buffer, whole. -/
abbrev stageW : Memref sig .tc .vmem S4x512x1024 .bf16 := Memref.whole cc0_scratch1

theorem slot_loc (j : Fin 4) (c : Dev nD) : (slotM j).view.loc (c : Thread nD τ) = stageW.view.loc (c : Thread nD τ) := rfl

theorem slot_set (j : Fin 4) :
    ((slotM j).view.set : Finset stageW.view.ty.Idx) = (Rect.unit (s := S4x512x1024) ![j.val, 0, 0] S1x512x1024.size (slot_inb j)).set := by
  show (((View.whole cc0_scratch1).slice _).reshape _ _).set = _
  rw [View.set_reshape, View.set_slice_whole]

theorem slot_sub (j : Fin 4) : (slotM j).view.set ⊆ stageW.view.set := by
  rw [show stageW.view.set = Finset.univ from View.set_whole _]
  exact Finset.subset_univ _

theorem slot_disjoint (i j : Fin 4) (h : i ≠ j) : Disjoint (slotM i).view.set (slotM j).view.set := by
  rw [slot_set, slot_set]
  refine Rect.unit_disjoint (0 : Fin 3) ?_
  show i.val + 1 ≤ j.val ∨ j.val + 1 ≤ i.val
  have : i.val ≠ j.val := fun e => h (Fin.ext e)
  omega

/-- A slot goes back beside other elements of the staging buffer. -/
theorem slot_rejoin (c : Dev nD) (j : Fin 4) (S : Finset (Idx (stageW.view.loc (c : Thread nD τ))))
    (hS : Disjoint (slotM j).view.set S) (f g : Buf (Elt F) (stageW.view.loc (c : Thread nD τ))) :
    iprop(((slotM j).view.loc (c : Thread nD τ) ↦[(slotM j).view.set]{fullShare} f) ∗ (stageW.view.loc (c : Thread nD τ) ↦[S]{fullShare} g))
      ⊢ (stageW.view.loc (c : Thread nD τ) ↦[(slotM j).view.set ∪ S]{fullShare} (S.piecewise g f) : sProp 𝕄) :=
  pointsTo_join hS

/-- A slot and everything else of the staging buffer make it whole again. -/
theorem slot_rejoin_whole (c : Dev nD) (j : Fin 4) (f g : Buf (Elt F) (stageW.view.loc (c : Thread nD τ))) :
    iprop(((slotM j).view.loc (c : Thread nD τ) ↦[(slotM j).view.set]{fullShare} f)
        ∗ (stageW.view.loc (c : Thread nD τ) ↦[stageW.view.set \ (slotM j).view.set]{fullShare} g))
      ⊢ (stageW.view.loc (c : Thread nD τ) ↦[stageW.view.set]{fullShare} ((slotM j).view.set.piecewise f g) : sProp 𝕄) :=
  pointsTo_join_subset (slot_sub j)

/-- info: 'Cert.KernelIdeal.RS.landing_value' depends on axioms: [propext, Classical.choice, Quot.sound] -/
#guard_msgs in #print axioms landing_value

/-- info: 'Cert.KernelIdeal.RS.wp_send_chunk' depends on axioms: [propext, Classical.choice, Quot.sound] -/
#guard_msgs in #print axioms wp_send_chunk

/-- info: 'Cert.KernelIdeal.RS.rows_split' depends on axioms: [propext, Classical.choice, Quot.sound] -/
#guard_msgs in #print axioms rows_split

/-- info: 'Cert.KernelIdeal.RS.slot_rejoin_whole' depends on axioms: [propext, Classical.choice, Quot.sound] -/
#guard_msgs in #print axioms slot_rejoin_whole

end Cert.KernelIdeal.RS

end
-- ==== Proof.KernelIdealChunk.lean ====
import proofs.«901042_g7700000000001043_dist_rs_v7x_xyz2x4x4_x_m8192_n1024_bf16_1_alg».proof.Proof.KernelIdealSteps
import Idealize.ShloMosaic.Lib.ValueLayout
import Idealize.ShloMosaic.Lib.Writes

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Views of a 1 × 512 × 1024 block seen as 512 × 1024 -/

section Generic
variable {sg : RefSig} {κ : Kind} {sp : Space} {e : EltTy} {Val : EltTy → Type}

/-- Reading a reshaped view is reading the view at the matching index. -/
theorem read_reshape_apply {s s' : Shape} (v : View sg κ sp s e) (h : s'.numel = s.numel) (f : v.ty.Contents Val) (y : s'.Idx) :
    (v.reshape s' h).read Val f y = v.read Val f (Shape.reshapeEquiv h y) := rfl

/-- What was written through the block seen as 512 × 1024 is read back through the block itself, at (u, a, b), as the payload at (a, b). -/
theorem read_write_squeezed (u : View sg κ sp S1x512x1024 e) (h : S512x1024.numel = S1x512x1024.numel) (g : u.ty.Contents Val)
    (d : S512x1024.Idx → Val e) (u0 : Fin 1) (a : Fin 512) (b : Fin 1024) :
    u.read Val ((u.reshape S512x1024 h).write Val g d Finset.univ) (ix3 u0 a b) = d (ix2 a b) := by
  rw [View.write_reshape_univ, View.read_write_univ]
  show d ((Shape.reshapeEquiv h).symm (ix3 u0 a b)) = d (ix2 a b)
  refine congrArg d ?_
  rw [Equiv.symm_apply_eq, reshapeEquiv_ix2_1ab]
  exact ix3_congr (by have := u0.isLt; show u0.val = 0; omega) rfl rfl

/-- A write through another, disjoint block of the same buffer is not seen. -/
theorem read_write_other {s s' : Shape} (v : View sg κ sp s e) (r r' : Rect s) (h : s'.numel = r'.shape.numel) (g : v.ty.Contents Val)
    (d : s'.Idx → Val e) (hd : Disjoint r.set r'.set) :
    (v.slice r).read Val (((v.slice r').reshape s' h).write Val g d Finset.univ) = (v.slice r).read Val g := by
  rw [View.write_reshape_univ]
  refine View.read_slice_write_slice_of_disjoint r r' g _ Finset.univ ?_
  rw [View.setOn_univ, View.set_slice, View.set_slice]
  exact (Finset.disjoint_map _).mpr hd

end Generic

/-! ## A chunk's window of the input slab -/

/-- The 512 × 1024 window of device `c`'s slab at offsets `o`, as a transfer out of it reads it. -/
def xwin (c : Dev nD) (o : Fin 3 → ℕ) (ho : ∀ a, o a + S1x512x1024.size a ≤ S1x8192x2048.size a) : S512x1024.Idx → F .f32 :=
  View.read (Elt F)
    (((Memref.whole main_arg0 : Memref sig .tc .hbm S1x8192x2048 .f32).slice (Rect.unit (s := S1x8192x2048) o S1x512x1024.size ho) (fun _ => rfl)).squeeze S512x1024 squeezes_S1x512x1024_S512x1024).view
    (m ((c : Thread nD τ).loc main_arg0))

theorem win_row_lt (o : Fin 3 → ℕ) (ho : ∀ a, o a + S1x512x1024.size a ≤ S1x8192x2048.size a) (a : Fin 512) : o 1 + a.val < 8192 := by
  have : o 1 + 512 ≤ 8192 := ho 1
  omega
theorem win_col_lt (o : Fin 3 → ℕ) (ho : ∀ a, o a + S1x512x1024.size a ≤ S1x8192x2048.size a) (b : Fin 1024) : o 2 + b.val < 2048 := by
  have : o 2 + 1024 ≤ 2048 := ho 2
  omega

/-- Entry (a, b) of the window is entry (0, o₁ + a, o₂ + b) of the slab. -/
theorem xwin_apply (c : Dev nD) (o : Fin 3 → ℕ) (ho : ∀ a, o a + S1x512x1024.size a ≤ S1x8192x2048.size a) (a : Fin 512) (b : Fin 1024) :
    xwin m c o ho (ix2 a b)
      = xarr m c (ix3 (⟨0, by decide⟩ : Fin 1) (⟨o 1 + a.val, win_row_lt o ho a⟩ : Fin 8192) (⟨o 2 + b.val, win_col_lt o ho b⟩ : Fin 2048)) := by
  unfold xwin xarr
  refine (read_reshape_apply ((Memref.whole main_arg0 : Memref sig .tc .hbm S1x8192x2048 .f32).view.slice (Rect.unit (s := S1x8192x2048) o S1x512x1024.size ho))
    squeezes_S1x512x1024_S512x1024.numel_eq (m ((c : Thread nD τ).loc main_arg0)) (ix2 a b)).trans ?_
  rw [reshapeEquiv_ix2_1ab]
  show m ((c : Thread nD τ).loc main_arg0) ((Rect.unit (s := S1x8192x2048) o S1x512x1024.size ho).emb (ix3 (⟨0, Nat.one_pos⟩ : Fin 1) a b)) = _
  refine congrArg (m ((c : Thread nD τ).loc main_arg0)) (funext fun d => Fin.ext ?_)
  match d with
  | ⟨0, _⟩ =>
    show o 0 + 1 * 0 = 0
    have : o 0 + 1 ≤ 1 := ho 0
    omega
  | ⟨1, _⟩ =>
    show o 1 + 1 * a.val = o 1 + a.val
    omega
  | ⟨2, _⟩ =>
    show o 2 + 1 * b.val = o 2 + b.val
    omega

/-- The window at rows `512 k …` on the partner's half of the columns, rounded, is chunk `k` of what is sent. -/
theorem sent_of_window (c : Dev nD) (k : Fin 16) (o : Fin 3 → ℕ) (ho : ∀ a, o a + S1x512x1024.size a ≤ S1x8192x2048.size a)
    (ho1 : o 1 = 512 * k.val) (ho2 : o 2 = col (peer c)) (a : Fin 512) (b : Fin 1024) :
    tr (xwin m c o ho (ix2 a b)) = sentChunk m c k (ix2 a b) := by
  rw [xwin_apply]
  unfold sentChunk
  refine congrArg tr (congrArg (xarr m c) (ix3_congr rfl ?_ ?_))
  · show o 1 + a.val = 512 * k.val + a.val
    rw [ho1]
  · show o 2 + b.val = col (peer c) + b.val
    rw [ho2]

/-- The partner's half of the columns starts where the device's own does not. -/
theorem col_peer (c : Dev nD) : col (peer c) = 1024 - 1024 * (c.val / 16) := by revert c; decide

/-! ## The conversion: a block narrowed element by element -/

/-- The stored block — the loaded block seen as 512 × 1024, narrowed, seen as 1 × 512 × 1024 again — at (u, a, b) is the loaded block's entry (0, a, b), narrowed. -/
theorem cvt_apply (v : Vec F S1x512x1024 .f32) (h1 : S1x512x1024.ShapeCasts S512x1024) (hb : FTy.bits .bf16 < FTy.bits .f32)
    (h2 : S512x1024.ShapeCasts S1x512x1024) (u : Fin 1) (a : Fin 512) (b : Fin 1024) :
    shapeCast S1x512x1024 (truncf .bf16 (shapeCast S512x1024 v h1) hb) h2 (ix3 u a b) = tr (v (ix3 (⟨0, by decide⟩ : Fin 1) a b)) := by
  rw [shapeCast_ab_1ab_apply]
  show FloatOps.truncf .bf16 hb (shapeCast S512x1024 v h1 (ix2 a b)) = _
  rw [shapeCast_1ab_ab_apply]
  rfl

/-! ## The two conversion slots and the four staging slots -/

theorem cvt_inb (i : Fin 2) : ∀ a, (![i.val, 0, 0] : Fin 3 → Nat) a + S1x512x1024.size a ≤ S2x512x1024.size a := by revert i; decide

/-- Slot `i` of the conversion buffer, as a rectangle of it. -/
abbrev cvtR (i : Fin 2) : Rect S2x512x1024 := Rect.unit (s := S2x512x1024) ![i.val, 0, 0] S1x512x1024.size (cvt_inb i)

theorem cvt_disjoint (i j : Fin 2) (h : i ≠ j) : Disjoint (cvtR i).set (cvtR j).set := by
  refine Rect.unit_disjoint (0 : Fin 3) ?_
  show i.val + 1 ≤ j.val ∨ j.val + 1 ≤ i.val
  have : i.val ≠ j.val := fun e => h (Fin.ext e)
  omega

/-- A load of conversion slot `i` just after a transfer into it landed: the transfer's values. -/
theorem cvt_load_same (i : Fin 2) (h : S512x1024.numel = S1x512x1024.numel) (g : Buf (Elt F) (((0 : Dev nD) : Thread nD τ).loc cc0_scratch0))
    (d : S512x1024.Idx → F .f32) (u0 : Fin 1) (a : Fin 512) (b : Fin 1024) :
    View.readAt (Elt F) (Memref.whole cc0_scratch0).view (cvtR i).toLoadRect
        (View.write (Elt F) (((Memref.whole cc0_scratch0).view.slice (cvtR i)).reshape S512x1024 h) g d Finset.univ) (ix3 u0 a b)
      = d (ix2 a b) :=
  read_write_squeezed ((Memref.whole cc0_scratch0).view.slice (cvtR i)) h g d u0 a b

/-- A transfer landed in the other slot is not seen. -/
theorem cvt_load_other (i j : Fin 2) (hij : i ≠ j) (h : S512x1024.numel = S1x512x1024.numel) (g : Buf (Elt F) (((0 : Dev nD) : Thread nD τ).loc cc0_scratch0))
    (d : S512x1024.Idx → F .f32) :
    View.readAt (Elt F) (Memref.whole cc0_scratch0).view (cvtR i).toLoadRect
        (View.write (Elt F) (((Memref.whole cc0_scratch0).view.slice (cvtR j)).reshape S512x1024 h) g d Finset.univ)
      = View.readAt (Elt F) (Memref.whole cc0_scratch0).view (cvtR i).toLoadRect g :=
  read_write_other (Memref.whole cc0_scratch0).view (cvtR i) (cvtR j) h g d (cvt_disjoint i j hij)

/-- THE VALUE OF A SEND: staging slot `j`, last stored with the narrowed load `p` of a conversion slot `v` that held the window at rows
    `512 k …` on the partner's columns, reads chunk `k` of what is sent. -/
theorem slot_holds_chunk (c : Dev nD) (k : Fin 16) (j : Fin 4) (f1 : Buf (Elt F) ((c : Thread nD τ).loc cc0_scratch1))
    (L : List (View.Piece (Elt F) S4x512x1024 .bf16)) (inb : ∀ a, (![j.val, 0, 0] : Fin 3 → Nat) a + S1x512x1024.size a ≤ S4x512x1024.size a)
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (slotM j).view.read (Elt F) (stageW.view.writes (Elt F) f1 (⟨Rect.unit (s := S4x512x1024) ![j.val, 0, 0] S1x512x1024.size inb, p⟩ :: L))
      = sentChunk m c k := by
  funext y
  obtain ⟨a, b, rfl⟩ : ∃ (a : Fin 512) (b : Fin 1024), y = ix2 a b := ⟨y 0, y 1, eq_ix2 y⟩
  refine (read_reshape_apply (stageW.view.slice (Rect.unit (s := S4x512x1024) ![j.val, 0, 0] S1x512x1024.size inb))
    squeezes_S1x512x1024_S512x1024.numel_eq _ (ix2 a b)).trans ?_
  rw [reshapeEquiv_ix2_1ab, View.writes_cons]
  show (stageW.view.slice (Rect.unit (s := S4x512x1024) ![j.val, 0, 0] S1x512x1024.size inb)).read (Elt F)
      ((stageW.view.slice (Rect.unit (s := S4x512x1024) ![j.val, 0, 0] S1x512x1024.size inb)).write (Elt F) (stageW.view.writes (Elt F) f1 L) p Finset.univ)
      (ix3 (⟨0, Nat.one_pos⟩ : Fin 1) a b) = _
  rw [View.read_write_univ, hp, hv]
  exact sent_of_window m c k o ho ho1 ho2 a b

/-! ## The staging buffer held slot by slot -/

/-- The elements of staging slot `j`. -/
abbrev slotSet (j : Fin 4) : Finset S4x512x1024.Idx := (slotM j).view.set

theorem slotSet_eq (j : Fin 4) : slotSet j = (Rect.unit (s := S4x512x1024) ![j.val, 0, 0] S1x512x1024.size (slot_inb j)).set := slot_set j

theorem slotSet_disjoint (i j : Fin 4) (h : i ≠ j) : Disjoint (slotSet i) (slotSet j) := slot_disjoint i j h

/-- Every element of the staging buffer lies in the slot its leading coordinate names. -/
theorem slots_cover (i : S4x512x1024.Idx) : i ∈ slotSet ⟨(i 0).val, (i 0).isLt⟩ := by
  rw [slotSet_eq, Rect.mem_set_unit]
  intro a
  match a with
  | ⟨0, _⟩ =>
    show (i 0).val ≤ (i 0).val ∧ (i 0).val < (i 0).val + 1
    omega
  | ⟨1, _⟩ =>
    show 0 ≤ (i 1).val ∧ (i 1).val < 0 + 512
    have : (i 1).val < 512 := (i 1).isLt
    omega
  | ⟨2, _⟩ =>
    show 0 ≤ (i 2).val ∧ (i 2).val < 0 + 1024
    have : (i 2).val < 1024 := (i 2).isLt
    omega

/-- The four slots are the whole staging buffer. -/
theorem slots_union : (Finset.univ : Finset (Fin 4)).biUnion slotSet = Finset.univ := by
  ext i
  simp only [Finset.mem_biUnion, Finset.mem_univ, true_and, iff_true]
  exact ⟨_, slots_cover i⟩

/-- The whole staging buffer, held slot by slot, each slot spelt as the program spells it. -/
theorem slots_split (c : Dev nD) (f : Buf (Elt F) ((c : Thread nD τ).loc cc0_scratch1)) :
    ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      ⊢ iprop(((((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) := by
  have h1 : ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      = (((c : Thread nD τ).loc cc0_scratch1) ↦{fullShare} f) := by
    show ((View.whole cc0_scratch1).loc (c : Thread nD τ) ↦[(View.whole cc0_scratch1).set]{fullShare} f : sProp 𝕄) = _
    rw [View.set_whole]
  have h2 := pointsTo_biUnion (U := UU) (Lvl := ℕ) (Name := ℕ) (Ix := Unit) (ℓ := (c : Thread nD τ).loc cc0_scratch1) (q := fullShare) (f := f)
    (Finset.univ : Finset (Fin 4)) slotSet (fun t _ t' _ h => slotSet_disjoint t t' h)
  rw [slots_union] at h2
  have h3 := bigSep_univ_eq_bigSepL [(0 : Fin 4), 1, 2, 3] (by decide) (by decide)
    (fun t : Fin 4 => (((c : Thread nD τ).loc cc0_scratch1) ↦[slotSet t]{fullShare} f : sProp 𝕄))
  exact Entails.of_eq (h1.trans (h2.trans h3))

/-- info: 'Cert.KernelIdeal.RS.slot_holds_chunk' depends on axioms: [propext, Classical.choice, Quot.sound] -/
#guard_msgs in #print axioms slot_holds_chunk

/-- info: 'Cert.KernelIdeal.RS.slots_split' depends on axioms: [propext, Classical.choice, Quot.sound] -/
#guard_msgs in #print axioms slots_split

end Cert.KernelIdeal.RS

end
-- ==== Proof.KernelIdealSlots.lean ====
import proofs.«901042_g7700000000001043_dist_rs_v7x_xyz2x4x4_x_m8192_n1024_bf16_1_alg».proof.Proof.KernelIdealChunk

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The staging buffer held as four slots, each on the whole buffer's location -/

/-- The whole staging buffer, as the body's context spells it, slot by slot. -/
theorem slots_split_h (c : Dev nD) (f : Buf (Elt F) ((c : Thread nD τ).loc cc0_scratch1)) :
    ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      ⊢ iprop(((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) :=
  slots_split c f

/-- The four slots, at whatever contents, are the whole staging buffer at some contents. -/
theorem slots_join_h (c : Dev nD) (g0 g1 g2 g3 : Buf (Elt F) ((c : Thread nD τ).loc cc0_scratch1)) :
    iprop(((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} g0)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} g1)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} g2)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} g3))
      ⊢ (iprop(∃ f : Buf (Elt F) ((c : Thread nD τ).loc cc0_scratch1), ((c : Thread nD τ).loc cc0_scratch1) ↦{fullShare} f) : sProp 𝕄) := by
  have hj := pointsTo_biUnion_join (U := UU) (Lvl := ℕ) (Name := ℕ) (Ix := Unit) (ℓ := (c : Thread nD τ).loc cc0_scratch1) (q := fullShare)
    (Finset.univ : Finset (Fin 4)) slotSet (fun t : Fin 4 => (![g0, g1, g2, g3] : Fin 4 → Buf (Elt F) ((c : Thread nD τ).loc cc0_scratch1)) t) g0
    (fun t _ t' _ h => slotSet_disjoint t t' h)
  have h3 := bigSep_univ_eq_bigSepL [(0 : Fin 4), 1, 2, 3] (by decide) (by decide)
    (fun t : Fin 4 => (((c : Thread nD τ).loc cc0_scratch1) ↦[slotSet t]{fullShare} (![g0, g1, g2, g3] : Fin 4 → Buf (Elt F) ((c : Thread nD τ).loc cc0_scratch1)) t : sProp 𝕄))
  refine (Entails.of_eq h3.symm).trans (hj.trans ?_)
  rw [slots_union]
  iintro ⟨%f, -, H⟩
  iexists f
  iexact H

/-! ## Loads and stores through the whole buffer, on one slot -/

/-- What a load of slot `j` through the whole buffer reads lies in the slot. -/
theorem slot_load_sub (j : Fin 4) :
    (Memref.whole cc0_scratch1 : Memref sig .tc .vmem S4x512x1024 .bf16).view.setOn (Rect.unit (s := S4x512x1024) ![j.val, 0, 0] S1x512x1024.size (slot_inb j)).toLoadRect.set ⊆ (slotM j).view.set := by
  rw [slot_set]
  show Finset.map (Function.Embedding.refl _) _ ⊆ _
  rw [Finset.map_refl]

/-- What a store into slot 0 through the whole buffer writes is the slot. -/
theorem slot_store_sub_0 : ((Memref.whole cc0_scratch1 : Memref sig .tc .vmem S4x512x1024 .bf16).access (Rect.unit (s := S4x512x1024) ![0, 0, 0] S1x512x1024.size inb_S4x512x1024_S1x512x1024_0_0_0)).setOn Finset.univ ⊆ (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set := by
  rw [View.setOn_univ]
  show ((View.whole cc0_scratch1).slice (Rect.unit (s := S4x512x1024) ![0, 0, 0] S1x512x1024.size inb_S4x512x1024_S1x512x1024_0_0_0)).set ⊆ (((View.whole cc0_scratch1).slice (Rect.unit (s := S4x512x1024) ![0, 0, 0] S1x512x1024.size inb_S4x512x1024_S1x512x1024_0_0_0)).reshape S512x1024 squeezes_S1x512x1024_S512x1024.numel_eq).set
  rw [View.set_reshape]

/-- What a store into slot 1 through the whole buffer writes is the slot. -/
theorem slot_store_sub_1 : ((Memref.whole cc0_scratch1 : Memref sig .tc .vmem S4x512x1024 .bf16).access (Rect.unit (s := S4x512x1024) ![1, 0, 0] S1x512x1024.size inb_S4x512x1024_S1x512x1024_1_0_0)).setOn Finset.univ ⊆ (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set := by
  rw [View.setOn_univ]
  show ((View.whole cc0_scratch1).slice (Rect.unit (s := S4x512x1024) ![1, 0, 0] S1x512x1024.size inb_S4x512x1024_S1x512x1024_1_0_0)).set ⊆ (((View.whole cc0_scratch1).slice (Rect.unit (s := S4x512x1024) ![1, 0, 0] S1x512x1024.size inb_S4x512x1024_S1x512x1024_1_0_0)).reshape S512x1024 squeezes_S1x512x1024_S512x1024.numel_eq).set
  rw [View.set_reshape]

/-- What a store into slot 2 through the whole buffer writes is the slot. -/
theorem slot_store_sub_2 : ((Memref.whole cc0_scratch1 : Memref sig .tc .vmem S4x512x1024 .bf16).access (Rect.unit (s := S4x512x1024) ![2, 0, 0] S1x512x1024.size inb_S4x512x1024_S1x512x1024_2_0_0)).setOn Finset.univ ⊆ (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set := by
  rw [View.setOn_univ]
  show ((View.whole cc0_scratch1).slice (Rect.unit (s := S4x512x1024) ![2, 0, 0] S1x512x1024.size inb_S4x512x1024_S1x512x1024_2_0_0)).set ⊆ (((View.whole cc0_scratch1).slice (Rect.unit (s := S4x512x1024) ![2, 0, 0] S1x512x1024.size inb_S4x512x1024_S1x512x1024_2_0_0)).reshape S512x1024 squeezes_S1x512x1024_S512x1024.numel_eq).set
  rw [View.set_reshape]

/-- What a store into slot 3 through the whole buffer writes is the slot. -/
theorem slot_store_sub_3 : ((Memref.whole cc0_scratch1 : Memref sig .tc .vmem S4x512x1024 .bf16).access (Rect.unit (s := S4x512x1024) ![3, 0, 0] S1x512x1024.size inb_S4x512x1024_S1x512x1024_3_0_0)).setOn Finset.univ ⊆ (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set := by
  rw [View.setOn_univ]
  show ((View.whole cc0_scratch1).slice (Rect.unit (s := S4x512x1024) ![3, 0, 0] S1x512x1024.size inb_S4x512x1024_S1x512x1024_3_0_0)).set ⊆ (((View.whole cc0_scratch1).slice (Rect.unit (s := S4x512x1024) ![3, 0, 0] S1x512x1024.size inb_S4x512x1024_S1x512x1024_3_0_0)).reshape S512x1024 squeezes_S1x512x1024_S512x1024.numel_eq).set
  rw [View.set_reshape]

/-- A load of slot 0 through the whole buffer, holding the slot alone. -/
theorem slot_load_0 (c : Dev nD) (f : Buf (Elt F) ((c : Thread nD τ).loc cc0_scratch1))
    {hl : (Memref.whole cc0_scratch1 : Memref sig .tc .vmem S4x512x1024 .bf16).view.LoadsAt (Rect.unit (s := S4x512x1024) ![0, 0, 0] S1x512x1024.size inb_S4x512x1024_S1x512x1024_0_0_0).toLoadRect}
    {α : Type} {Q' : α → sProp 𝕄} {kont : ((Rect.unit (s := S4x512x1024) ![0, 0, 0] S1x512x1024.size inb_S4x512x1024_S1x512x1024_0_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![0, 0, 0] S1x512x1024.size inb_S4x512x1024_S1x512x1024_0_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![0, 0, 0] S1x512x1024.size inb_S4x512x1024_S1x512x1024_0_0_0).toLoadRect hl) kont) Q') :=
  wp_load 𝒱₀ (c : Thread nD τ) none Set.univ (m := (Memref.whole cc0_scratch1 : Memref sig .tc .vmem S4x512x1024 .bf16)) (slot_load_sub 0)

/-- A store into slot 0 through the whole buffer, holding the slot alone. -/
theorem slot_store_0 (c : Dev nD) (f : Buf (Elt F) ((c : Thread nD τ).loc cc0_scratch1)) (w : (Rect.unit (s := S4x512x1024) ![0, 0, 0] S1x512x1024.size inb_S4x512x1024_S1x512x1024_0_0_0).shape.Idx → Elt F .bf16)
    {hx : ((Memref.whole cc0_scratch1 : Memref sig .tc .vmem S4x512x1024 .bf16).access (Rect.unit (s := S4x512x1024) ![0, 0, 0] S1x512x1024.size inb_S4x512x1024_S1x512x1024_0_0_0)).Stores Finset.univ} {hm : (Finset.univ : Finset (Rect.unit (s := S4x512x1024) ![0, 0, 0] S1x512x1024.size inb_S4x512x1024_S1x512x1024_0_0_0).shape.Idx) = Finset.univ ∨ ∀ a, (Rect.unit (s := S4x512x1024) ![0, 0, 0] S1x512x1024.size inb_S4x512x1024_S1x512x1024_0_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} (((Memref.whole cc0_scratch1 : Memref sig .tc .vmem S4x512x1024 .bf16).access (Rect.unit (s := S4x512x1024) ![0, 0, 0] S1x512x1024.size inb_S4x512x1024_S1x512x1024_0_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![0, 0, 0] S1x512x1024.size inb_S4x512x1024_S1x512x1024_0_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![0, 0, 0] S1x512x1024.size inb_S4x512x1024_S1x512x1024_0_0_0)) (w := w) (Mk := Finset.univ) slot_store_sub_0

/-- A load of slot 1 through the whole buffer, holding the slot alone. -/
theorem slot_load_1 (c : Dev nD) (f : Buf (Elt F) ((c : Thread nD τ).loc cc0_scratch1))
    {hl : (Memref.whole cc0_scratch1 : Memref sig .tc .vmem S4x512x1024 .bf16).view.LoadsAt (Rect.unit (s := S4x512x1024) ![1, 0, 0] S1x512x1024.size inb_S4x512x1024_S1x512x1024_1_0_0).toLoadRect}
    {α : Type} {Q' : α → sProp 𝕄} {kont : ((Rect.unit (s := S4x512x1024) ![1, 0, 0] S1x512x1024.size inb_S4x512x1024_S1x512x1024_1_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![1, 0, 0] S1x512x1024.size inb_S4x512x1024_S1x512x1024_1_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![1, 0, 0] S1x512x1024.size inb_S4x512x1024_S1x512x1024_1_0_0).toLoadRect hl) kont) Q') :=
  wp_load 𝒱₀ (c : Thread nD τ) none Set.univ (m := (Memref.whole cc0_scratch1 : Memref sig .tc .vmem S4x512x1024 .bf16)) (slot_load_sub 1)

/-- A store into slot 1 through the whole buffer, holding the slot alone. -/
theorem slot_store_1 (c : Dev nD) (f : Buf (Elt F) ((c : Thread nD τ).loc cc0_scratch1)) (w : (Rect.unit (s := S4x512x1024) ![1, 0, 0] S1x512x1024.size inb_S4x512x1024_S1x512x1024_1_0_0).shape.Idx → Elt F .bf16)
    {hx : ((Memref.whole cc0_scratch1 : Memref sig .tc .vmem S4x512x1024 .bf16).access (Rect.unit (s := S4x512x1024) ![1, 0, 0] S1x512x1024.size inb_S4x512x1024_S1x512x1024_1_0_0)).Stores Finset.univ} {hm : (Finset.univ : Finset (Rect.unit (s := S4x512x1024) ![1, 0, 0] S1x512x1024.size inb_S4x512x1024_S1x512x1024_1_0_0).shape.Idx) = Finset.univ ∨ ∀ a, (Rect.unit (s := S4x512x1024) ![1, 0, 0] S1x512x1024.size inb_S4x512x1024_S1x512x1024_1_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} (((Memref.whole cc0_scratch1 : Memref sig .tc .vmem S4x512x1024 .bf16).access (Rect.unit (s := S4x512x1024) ![1, 0, 0] S1x512x1024.size inb_S4x512x1024_S1x512x1024_1_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![1, 0, 0] S1x512x1024.size inb_S4x512x1024_S1x512x1024_1_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![1, 0, 0] S1x512x1024.size inb_S4x512x1024_S1x512x1024_1_0_0)) (w := w) (Mk := Finset.univ) slot_store_sub_1

/-- A load of slot 2 through the whole buffer, holding the slot alone. -/
theorem slot_load_2 (c : Dev nD) (f : Buf (Elt F) ((c : Thread nD τ).loc cc0_scratch1))
    {hl : (Memref.whole cc0_scratch1 : Memref sig .tc .vmem S4x512x1024 .bf16).view.LoadsAt (Rect.unit (s := S4x512x1024) ![2, 0, 0] S1x512x1024.size inb_S4x512x1024_S1x512x1024_2_0_0).toLoadRect}
    {α : Type} {Q' : α → sProp 𝕄} {kont : ((Rect.unit (s := S4x512x1024) ![2, 0, 0] S1x512x1024.size inb_S4x512x1024_S1x512x1024_2_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![2, 0, 0] S1x512x1024.size inb_S4x512x1024_S1x512x1024_2_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![2, 0, 0] S1x512x1024.size inb_S4x512x1024_S1x512x1024_2_0_0).toLoadRect hl) kont) Q') :=
  wp_load 𝒱₀ (c : Thread nD τ) none Set.univ (m := (Memref.whole cc0_scratch1 : Memref sig .tc .vmem S4x512x1024 .bf16)) (slot_load_sub 2)

/-- A store into slot 2 through the whole buffer, holding the slot alone. -/
theorem slot_store_2 (c : Dev nD) (f : Buf (Elt F) ((c : Thread nD τ).loc cc0_scratch1)) (w : (Rect.unit (s := S4x512x1024) ![2, 0, 0] S1x512x1024.size inb_S4x512x1024_S1x512x1024_2_0_0).shape.Idx → Elt F .bf16)
    {hx : ((Memref.whole cc0_scratch1 : Memref sig .tc .vmem S4x512x1024 .bf16).access (Rect.unit (s := S4x512x1024) ![2, 0, 0] S1x512x1024.size inb_S4x512x1024_S1x512x1024_2_0_0)).Stores Finset.univ} {hm : (Finset.univ : Finset (Rect.unit (s := S4x512x1024) ![2, 0, 0] S1x512x1024.size inb_S4x512x1024_S1x512x1024_2_0_0).shape.Idx) = Finset.univ ∨ ∀ a, (Rect.unit (s := S4x512x1024) ![2, 0, 0] S1x512x1024.size inb_S4x512x1024_S1x512x1024_2_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} (((Memref.whole cc0_scratch1 : Memref sig .tc .vmem S4x512x1024 .bf16).access (Rect.unit (s := S4x512x1024) ![2, 0, 0] S1x512x1024.size inb_S4x512x1024_S1x512x1024_2_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![2, 0, 0] S1x512x1024.size inb_S4x512x1024_S1x512x1024_2_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![2, 0, 0] S1x512x1024.size inb_S4x512x1024_S1x512x1024_2_0_0)) (w := w) (Mk := Finset.univ) slot_store_sub_2

/-- A load of slot 3 through the whole buffer, holding the slot alone. -/
theorem slot_load_3 (c : Dev nD) (f : Buf (Elt F) ((c : Thread nD τ).loc cc0_scratch1))
    {hl : (Memref.whole cc0_scratch1 : Memref sig .tc .vmem S4x512x1024 .bf16).view.LoadsAt (Rect.unit (s := S4x512x1024) ![3, 0, 0] S1x512x1024.size inb_S4x512x1024_S1x512x1024_3_0_0).toLoadRect}
    {α : Type} {Q' : α → sProp 𝕄} {kont : ((Rect.unit (s := S4x512x1024) ![3, 0, 0] S1x512x1024.size inb_S4x512x1024_S1x512x1024_3_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![3, 0, 0] S1x512x1024.size inb_S4x512x1024_S1x512x1024_3_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![3, 0, 0] S1x512x1024.size inb_S4x512x1024_S1x512x1024_3_0_0).toLoadRect hl) kont) Q') :=
  wp_load 𝒱₀ (c : Thread nD τ) none Set.univ (m := (Memref.whole cc0_scratch1 : Memref sig .tc .vmem S4x512x1024 .bf16)) (slot_load_sub 3)

/-- A store into slot 3 through the whole buffer, holding the slot alone. -/
theorem slot_store_3 (c : Dev nD) (f : Buf (Elt F) ((c : Thread nD τ).loc cc0_scratch1)) (w : (Rect.unit (s := S4x512x1024) ![3, 0, 0] S1x512x1024.size inb_S4x512x1024_S1x512x1024_3_0_0).shape.Idx → Elt F .bf16)
    {hx : ((Memref.whole cc0_scratch1 : Memref sig .tc .vmem S4x512x1024 .bf16).access (Rect.unit (s := S4x512x1024) ![3, 0, 0] S1x512x1024.size inb_S4x512x1024_S1x512x1024_3_0_0)).Stores Finset.univ} {hm : (Finset.univ : Finset (Rect.unit (s := S4x512x1024) ![3, 0, 0] S1x512x1024.size inb_S4x512x1024_S1x512x1024_3_0_0).shape.Idx) = Finset.univ ∨ ∀ a, (Rect.unit (s := S4x512x1024) ![3, 0, 0] S1x512x1024.size inb_S4x512x1024_S1x512x1024_3_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} (((Memref.whole cc0_scratch1 : Memref sig .tc .vmem S4x512x1024 .bf16).access (Rect.unit (s := S4x512x1024) ![3, 0, 0] S1x512x1024.size inb_S4x512x1024_S1x512x1024_3_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![3, 0, 0] S1x512x1024.size inb_S4x512x1024_S1x512x1024_3_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![3, 0, 0] S1x512x1024.size inb_S4x512x1024_S1x512x1024_3_0_0)) (w := w) (Mk := Finset.univ) slot_store_sub_3

/-! ## What a stored slot holds -/

/-- `slot_holds_chunk` for a slot whose contents are one store through its rectangle of the whole buffer, over whatever it held. -/
theorem slot_holds_chunk_write (c : Dev nD) (k : Fin 16) (j : Fin 4) (g : Buf (Elt F) ((c : Thread nD τ).loc cc0_scratch1))
    (inb : ∀ a, (![j.val, 0, 0] : Fin 3 → Nat) a + S1x512x1024.size a ≤ S4x512x1024.size a)
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (slotM j).view.read (Elt F)
        ((stageW.view.slice (Rect.unit (s := S4x512x1024) ![j.val, 0, 0] S1x512x1024.size inb)).write (Elt F) g p Finset.univ)
      = sentChunk m c k :=
  slot_holds_chunk m c k j g [] inb p v o ho hp hv ho1 ho2

/-- Slot 0, just stored with the narrowed load of a conversion slot that held the window at rows `512 k …` on the partner's columns, reads chunk `k` of what is sent. -/
theorem slot_written_chunk_0 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) (((Memref.whole cc0_scratch1 : Memref sig .tc .vmem S4x512x1024 .bf16).access (Rect.unit (s := S4x512x1024) ![0, 0, 0] S1x512x1024.size inb_S4x512x1024_S1x512x1024_0_0_0)).write (Elt F) f p Finset.univ) = sentChunk m c k :=
  slot_holds_chunk_write m c k 0 f _ p v o ho hp hv ho1 ho2

/-- Slot 1, just stored with the narrowed load of a conversion slot that held the window at rows `512 k …` on the partner's columns, reads chunk `k` of what is sent. -/
theorem slot_written_chunk_1 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) (((Memref.whole cc0_scratch1 : Memref sig .tc .vmem S4x512x1024 .bf16).access (Rect.unit (s := S4x512x1024) ![1, 0, 0] S1x512x1024.size inb_S4x512x1024_S1x512x1024_1_0_0)).write (Elt F) f p Finset.univ) = sentChunk m c k :=
  slot_holds_chunk_write m c k 1 f _ p v o ho hp hv ho1 ho2

/-- Slot 2, just stored with the narrowed load of a conversion slot that held the window at rows `512 k …` on the partner's columns, reads chunk `k` of what is sent. -/
theorem slot_written_chunk_2 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) (((Memref.whole cc0_scratch1 : Memref sig .tc .vmem S4x512x1024 .bf16).access (Rect.unit (s := S4x512x1024) ![2, 0, 0] S1x512x1024.size inb_S4x512x1024_S1x512x1024_2_0_0)).write (Elt F) f p Finset.univ) = sentChunk m c k :=
  slot_holds_chunk_write m c k 2 f _ p v o ho hp hv ho1 ho2

/-- Slot 3, just stored with the narrowed load of a conversion slot that held the window at rows `512 k …` on the partner's columns, reads chunk `k` of what is sent. -/
theorem slot_written_chunk_3 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) (((Memref.whole cc0_scratch1 : Memref sig .tc .vmem S4x512x1024 .bf16).access (Rect.unit (s := S4x512x1024) ![3, 0, 0] S1x512x1024.size inb_S4x512x1024_S1x512x1024_3_0_0)).write (Elt F) f p Finset.univ) = sentChunk m c k :=
  slot_holds_chunk_write m c k 3 f _ p v o ho hp hv ho1 ho2

/-! ## The sixteen transfers, spelt as the program spells them, each out of a slot held on the whole buffer's location -/

theorem k0_dev2_peer (c : Dev nD) : (⟨k0_dev2 c, k0_dev2_lt c⟩ : Dev nD) = peer c := Fin.ext ((k0_dev2_eq c).trans (dev_closed c))
theorem k0_dev3_peer (c : Dev nD) : (⟨k0_dev3 c, k0_dev3_lt c⟩ : Dev nD) = peer c := Fin.ext ((k0_dev3_eq c).trans (dev_closed c))
theorem k0_dev4_peer (c : Dev nD) : (⟨k0_dev4 c, k0_dev4_lt c⟩ : Dev nD) = peer c := Fin.ext ((k0_dev4_eq c).trans (dev_closed c))
theorem k0_dev5_peer (c : Dev nD) : (⟨k0_dev5 c, k0_dev5_lt c⟩ : Dev nD) = peer c := Fin.ext ((k0_dev5_eq c).trans (dev_closed c))
theorem k0_dev6_peer (c : Dev nD) : (⟨k0_dev6 c, k0_dev6_lt c⟩ : Dev nD) = peer c := Fin.ext ((k0_dev6_eq c).trans (dev_closed c))
theorem k0_dev7_peer (c : Dev nD) : (⟨k0_dev7 c, k0_dev7_lt c⟩ : Dev nD) = peer c := Fin.ext ((k0_dev7_eq c).trans (dev_closed c))
theorem k0_dev8_peer (c : Dev nD) : (⟨k0_dev8 c, k0_dev8_lt c⟩ : Dev nD) = peer c := Fin.ext ((k0_dev8_eq c).trans (dev_closed c))
theorem k0_dev9_peer (c : Dev nD) : (⟨k0_dev9 c, k0_dev9_lt c⟩ : Dev nD) = peer c := Fin.ext ((k0_dev9_eq c).trans (dev_closed c))
theorem k0_dev10_peer (c : Dev nD) : (⟨k0_dev10 c, k0_dev10_lt c⟩ : Dev nD) = peer c := Fin.ext ((k0_dev10_eq c).trans (dev_closed c))
theorem k0_dev11_peer (c : Dev nD) : (⟨k0_dev11 c, k0_dev11_lt c⟩ : Dev nD) = peer c := Fin.ext ((k0_dev11_eq c).trans (dev_closed c))
theorem k0_dev12_peer (c : Dev nD) : (⟨k0_dev12 c, k0_dev12_lt c⟩ : Dev nD) = peer c := Fin.ext ((k0_dev12_eq c).trans (dev_closed c))
theorem k0_dev13_peer (c : Dev nD) : (⟨k0_dev13 c, k0_dev13_lt c⟩ : Dev nD) = peer c := Fin.ext ((k0_dev13_eq c).trans (dev_closed c))
theorem k0_dev14_peer (c : Dev nD) : (⟨k0_dev14 c, k0_dev14_lt c⟩ : Dev nD) = peer c := Fin.ext ((k0_dev14_eq c).trans (dev_closed c))
theorem k0_dev15_peer (c : Dev nD) : (⟨k0_dev15 c, k0_dev15_lt c⟩ : Dev nD) = peer c := Fin.ext ((k0_dev15_eq c).trans (dev_closed c))
theorem k0_dev16_peer (c : Dev nD) : (⟨k0_dev16 c, k0_dev16_lt c⟩ : Dev nD) = peer c := Fin.ext ((k0_dev16_eq c).trans (dev_closed c))
theorem k0_dev17_peer (c : Dev nD) : (⟨k0_dev17 c, k0_dev17_lt c⟩ : Dev nD) = peer c := Fin.ext ((k0_dev17_eq c).trans (dev_closed c))

/-- Chunk 0's transfer out of slot 0, the slot held on the whole buffer's location, spelt as the program spells it. -/
theorem send_h_0 (κ₁ κ₂ : ℕ) (c : Dev nD)
    {hsc : (((Memref.whole main_v1_1 : Memref sig .tc .hbm S8192x1024 .bf16).slice (Rect.unit (s := S8192x1024) ![0, 0] S512x1024.size inb_S8192x1024_S512x1024_0_0) (fun _ => rfl)) : Memref sig (Dev.tc (⟨k0_dev2 c, k0_dev2_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![0, 0] S512x1024.size inb_S8192x1024_S512x1024_0_0) (fun _ => rfl)).view.WordExact}
    {hsem : DmaTarget.Typed .vmem (.dma ((cc0_scratch6.slice (Rect.unit (s := S16) ![0] S1.size inb_S16_S1_0)).squeeze S_ squeezes_S1_S_).sem) (.remote (Dev.tc (⟨k0_dev2 c, k0_dev2_lt c⟩ : Dev nD) : Thread nD τ) ((Memref.whole main_v1_1 : Memref sig .tc .hbm S8192x1024 .bf16).slice (Rect.unit (s := S8192x1024) ![0, 0] S512x1024.size inb_S8192x1024_S512x1024_0_0) (fun _ => rfl)) (.dma ((cc0_scratch5.slice (Rect.unit (s := S16) ![0] S1.size inb_S16_S1_0)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 0)
    (fd : Buf (Elt F) ((rowsM 0).view.loc ((peer c : Dev nD) : Thread nD τ)))
    (O : CellTallies nD τ sig Unit) (W' : Waits sig Unit) :
    iprop(cellInv ER (sched m) κ₁ (sendCell c 0) ∗ cellInv ER (sched m) κ₂ (recvCell (peer c) 0)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 0).view.loc ((peer c : Dev nD) : Thread nD τ) ↦[(rowsM 0).view.set]{fullShare} fd)
        ∗ owes (c : Thread nD τ) (O + tallyAt (recvCell (peer c) 0) () N) W'
        ∗ dutyTok ER (sendCell c 0) 0 () ∗ reached ER (sendCell c 0) 0
        ∗ dutyTok ER (recvCell (peer c) 0) 0 () ∗ reached ER (recvCell (peer c) 0) 0)
      ⊢ iprop(((cred (tallyAt (sendCell c 0) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev2 c, k0_dev2_lt c⟩ : Dev nD) : Thread nD τ) ((Memref.whole main_v1_1 : Memref sig .tc .hbm S8192x1024 .bf16).slice (Rect.unit (s := S8192x1024) ![0, 0] S512x1024.size inb_S8192x1024_S512x1024_0_0) (fun _ => rfl)) (.dma ((cc0_scratch5.slice (Rect.unit (s := S16) ![0] S1.size inb_S16_S1_0)).squeeze S_ squeezes_S1_S_).sem) hsc) (.dma ((cc0_scratch6.slice (Rect.unit (s := S16) ![0] S1.size inb_S16_S1_0)).squeeze S_ squeezes_S1_S_).sem) hsrc hdst hsem) kont) Q') :=
  wp_send_chunk m κ₁ κ₂ c _ (k0_dev2_peer c) 0 0 rfl fs hfs fd O W'

/-- Chunk 1's transfer out of slot 1, the slot held on the whole buffer's location, spelt as the program spells it. -/
theorem send_h_1 (κ₁ κ₂ : ℕ) (c : Dev nD)
    {hsc : (((Memref.whole main_v1_1 : Memref sig .tc .hbm S8192x1024 .bf16).slice (Rect.unit (s := S8192x1024) ![512, 0] S512x1024.size inb_S8192x1024_S512x1024_512_0) (fun _ => rfl)) : Memref sig (Dev.tc (⟨k0_dev3 c, k0_dev3_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![512, 0] S512x1024.size inb_S8192x1024_S512x1024_512_0) (fun _ => rfl)).view.WordExact}
    {hsem : DmaTarget.Typed .vmem (.dma ((cc0_scratch6.slice (Rect.unit (s := S16) ![1] S1.size inb_S16_S1_1)).squeeze S_ squeezes_S1_S_).sem) (.remote (Dev.tc (⟨k0_dev3 c, k0_dev3_lt c⟩ : Dev nD) : Thread nD τ) ((Memref.whole main_v1_1 : Memref sig .tc .hbm S8192x1024 .bf16).slice (Rect.unit (s := S8192x1024) ![512, 0] S512x1024.size inb_S8192x1024_S512x1024_512_0) (fun _ => rfl)) (.dma ((cc0_scratch5.slice (Rect.unit (s := S16) ![1] S1.size inb_S16_S1_1)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 1)
    (fd : Buf (Elt F) ((rowsM 1).view.loc ((peer c : Dev nD) : Thread nD τ)))
    (O : CellTallies nD τ sig Unit) (W' : Waits sig Unit) :
    iprop(cellInv ER (sched m) κ₁ (sendCell c 1) ∗ cellInv ER (sched m) κ₂ (recvCell (peer c) 1)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 1).view.loc ((peer c : Dev nD) : Thread nD τ) ↦[(rowsM 1).view.set]{fullShare} fd)
        ∗ owes (c : Thread nD τ) (O + tallyAt (recvCell (peer c) 1) () N) W'
        ∗ dutyTok ER (sendCell c 1) 0 () ∗ reached ER (sendCell c 1) 0
        ∗ dutyTok ER (recvCell (peer c) 1) 0 () ∗ reached ER (recvCell (peer c) 1) 0)
      ⊢ iprop(((cred (tallyAt (sendCell c 1) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev3 c, k0_dev3_lt c⟩ : Dev nD) : Thread nD τ) ((Memref.whole main_v1_1 : Memref sig .tc .hbm S8192x1024 .bf16).slice (Rect.unit (s := S8192x1024) ![512, 0] S512x1024.size inb_S8192x1024_S512x1024_512_0) (fun _ => rfl)) (.dma ((cc0_scratch5.slice (Rect.unit (s := S16) ![1] S1.size inb_S16_S1_1)).squeeze S_ squeezes_S1_S_).sem) hsc) (.dma ((cc0_scratch6.slice (Rect.unit (s := S16) ![1] S1.size inb_S16_S1_1)).squeeze S_ squeezes_S1_S_).sem) hsrc hdst hsem) kont) Q') :=
  wp_send_chunk m κ₁ κ₂ c _ (k0_dev3_peer c) 1 1 rfl fs hfs fd O W'

/-- Chunk 2's transfer out of slot 2, the slot held on the whole buffer's location, spelt as the program spells it. -/
theorem send_h_2 (κ₁ κ₂ : ℕ) (c : Dev nD)
    {hsc : (((Memref.whole main_v1_1 : Memref sig .tc .hbm S8192x1024 .bf16).slice (Rect.unit (s := S8192x1024) ![1024, 0] S512x1024.size inb_S8192x1024_S512x1024_1024_0) (fun _ => rfl)) : Memref sig (Dev.tc (⟨k0_dev4 c, k0_dev4_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![1024, 0] S512x1024.size inb_S8192x1024_S512x1024_1024_0) (fun _ => rfl)).view.WordExact}
    {hsem : DmaTarget.Typed .vmem (.dma ((cc0_scratch6.slice (Rect.unit (s := S16) ![2] S1.size inb_S16_S1_2)).squeeze S_ squeezes_S1_S_).sem) (.remote (Dev.tc (⟨k0_dev4 c, k0_dev4_lt c⟩ : Dev nD) : Thread nD τ) ((Memref.whole main_v1_1 : Memref sig .tc .hbm S8192x1024 .bf16).slice (Rect.unit (s := S8192x1024) ![1024, 0] S512x1024.size inb_S8192x1024_S512x1024_1024_0) (fun _ => rfl)) (.dma ((cc0_scratch5.slice (Rect.unit (s := S16) ![2] S1.size inb_S16_S1_2)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 2)
    (fd : Buf (Elt F) ((rowsM 2).view.loc ((peer c : Dev nD) : Thread nD τ)))
    (O : CellTallies nD τ sig Unit) (W' : Waits sig Unit) :
    iprop(cellInv ER (sched m) κ₁ (sendCell c 2) ∗ cellInv ER (sched m) κ₂ (recvCell (peer c) 2)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 2).view.loc ((peer c : Dev nD) : Thread nD τ) ↦[(rowsM 2).view.set]{fullShare} fd)
        ∗ owes (c : Thread nD τ) (O + tallyAt (recvCell (peer c) 2) () N) W'
        ∗ dutyTok ER (sendCell c 2) 0 () ∗ reached ER (sendCell c 2) 0
        ∗ dutyTok ER (recvCell (peer c) 2) 0 () ∗ reached ER (recvCell (peer c) 2) 0)
      ⊢ iprop(((cred (tallyAt (sendCell c 2) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev4 c, k0_dev4_lt c⟩ : Dev nD) : Thread nD τ) ((Memref.whole main_v1_1 : Memref sig .tc .hbm S8192x1024 .bf16).slice (Rect.unit (s := S8192x1024) ![1024, 0] S512x1024.size inb_S8192x1024_S512x1024_1024_0) (fun _ => rfl)) (.dma ((cc0_scratch5.slice (Rect.unit (s := S16) ![2] S1.size inb_S16_S1_2)).squeeze S_ squeezes_S1_S_).sem) hsc) (.dma ((cc0_scratch6.slice (Rect.unit (s := S16) ![2] S1.size inb_S16_S1_2)).squeeze S_ squeezes_S1_S_).sem) hsrc hdst hsem) kont) Q') :=
  wp_send_chunk m κ₁ κ₂ c _ (k0_dev4_peer c) 2 2 rfl fs hfs fd O W'

/-- Chunk 3's transfer out of slot 3, the slot held on the whole buffer's location, spelt as the program spells it. -/
theorem send_h_3 (κ₁ κ₂ : ℕ) (c : Dev nD)
    {hsc : (((Memref.whole main_v1_1 : Memref sig .tc .hbm S8192x1024 .bf16).slice (Rect.unit (s := S8192x1024) ![1536, 0] S512x1024.size inb_S8192x1024_S512x1024_1536_0) (fun _ => rfl)) : Memref sig (Dev.tc (⟨k0_dev5 c, k0_dev5_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![1536, 0] S512x1024.size inb_S8192x1024_S512x1024_1536_0) (fun _ => rfl)).view.WordExact}
    {hsem : DmaTarget.Typed .vmem (.dma ((cc0_scratch6.slice (Rect.unit (s := S16) ![3] S1.size inb_S16_S1_3)).squeeze S_ squeezes_S1_S_).sem) (.remote (Dev.tc (⟨k0_dev5 c, k0_dev5_lt c⟩ : Dev nD) : Thread nD τ) ((Memref.whole main_v1_1 : Memref sig .tc .hbm S8192x1024 .bf16).slice (Rect.unit (s := S8192x1024) ![1536, 0] S512x1024.size inb_S8192x1024_S512x1024_1536_0) (fun _ => rfl)) (.dma ((cc0_scratch5.slice (Rect.unit (s := S16) ![3] S1.size inb_S16_S1_3)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 3)
    (fd : Buf (Elt F) ((rowsM 3).view.loc ((peer c : Dev nD) : Thread nD τ)))
    (O : CellTallies nD τ sig Unit) (W' : Waits sig Unit) :
    iprop(cellInv ER (sched m) κ₁ (sendCell c 3) ∗ cellInv ER (sched m) κ₂ (recvCell (peer c) 3)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 3).view.loc ((peer c : Dev nD) : Thread nD τ) ↦[(rowsM 3).view.set]{fullShare} fd)
        ∗ owes (c : Thread nD τ) (O + tallyAt (recvCell (peer c) 3) () N) W'
        ∗ dutyTok ER (sendCell c 3) 0 () ∗ reached ER (sendCell c 3) 0
        ∗ dutyTok ER (recvCell (peer c) 3) 0 () ∗ reached ER (recvCell (peer c) 3) 0)
      ⊢ iprop(((cred (tallyAt (sendCell c 3) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev5 c, k0_dev5_lt c⟩ : Dev nD) : Thread nD τ) ((Memref.whole main_v1_1 : Memref sig .tc .hbm S8192x1024 .bf16).slice (Rect.unit (s := S8192x1024) ![1536, 0] S512x1024.size inb_S8192x1024_S512x1024_1536_0) (fun _ => rfl)) (.dma ((cc0_scratch5.slice (Rect.unit (s := S16) ![3] S1.size inb_S16_S1_3)).squeeze S_ squeezes_S1_S_).sem) hsc) (.dma ((cc0_scratch6.slice (Rect.unit (s := S16) ![3] S1.size inb_S16_S1_3)).squeeze S_ squeezes_S1_S_).sem) hsrc hdst hsem) kont) Q') :=
  wp_send_chunk m κ₁ κ₂ c _ (k0_dev5_peer c) 3 3 rfl fs hfs fd O W'

/-- Chunk 4's transfer out of slot 0, the slot held on the whole buffer's location, spelt as the program spells it. -/
theorem send_h_4 (κ₁ κ₂ : ℕ) (c : Dev nD)
    {hsc : (((Memref.whole main_v1_1 : Memref sig .tc .hbm S8192x1024 .bf16).slice (Rect.unit (s := S8192x1024) ![2048, 0] S512x1024.size inb_S8192x1024_S512x1024_2048_0) (fun _ => rfl)) : Memref sig (Dev.tc (⟨k0_dev6 c, k0_dev6_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![2048, 0] S512x1024.size inb_S8192x1024_S512x1024_2048_0) (fun _ => rfl)).view.WordExact}
    {hsem : DmaTarget.Typed .vmem (.dma ((cc0_scratch6.slice (Rect.unit (s := S16) ![4] S1.size inb_S16_S1_4)).squeeze S_ squeezes_S1_S_).sem) (.remote (Dev.tc (⟨k0_dev6 c, k0_dev6_lt c⟩ : Dev nD) : Thread nD τ) ((Memref.whole main_v1_1 : Memref sig .tc .hbm S8192x1024 .bf16).slice (Rect.unit (s := S8192x1024) ![2048, 0] S512x1024.size inb_S8192x1024_S512x1024_2048_0) (fun _ => rfl)) (.dma ((cc0_scratch5.slice (Rect.unit (s := S16) ![4] S1.size inb_S16_S1_4)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 4)
    (fd : Buf (Elt F) ((rowsM 4).view.loc ((peer c : Dev nD) : Thread nD τ)))
    (O : CellTallies nD τ sig Unit) (W' : Waits sig Unit) :
    iprop(cellInv ER (sched m) κ₁ (sendCell c 4) ∗ cellInv ER (sched m) κ₂ (recvCell (peer c) 4)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 4).view.loc ((peer c : Dev nD) : Thread nD τ) ↦[(rowsM 4).view.set]{fullShare} fd)
        ∗ owes (c : Thread nD τ) (O + tallyAt (recvCell (peer c) 4) () N) W'
        ∗ dutyTok ER (sendCell c 4) 0 () ∗ reached ER (sendCell c 4) 0
        ∗ dutyTok ER (recvCell (peer c) 4) 0 () ∗ reached ER (recvCell (peer c) 4) 0)
      ⊢ iprop(((cred (tallyAt (sendCell c 4) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev6 c, k0_dev6_lt c⟩ : Dev nD) : Thread nD τ) ((Memref.whole main_v1_1 : Memref sig .tc .hbm S8192x1024 .bf16).slice (Rect.unit (s := S8192x1024) ![2048, 0] S512x1024.size inb_S8192x1024_S512x1024_2048_0) (fun _ => rfl)) (.dma ((cc0_scratch5.slice (Rect.unit (s := S16) ![4] S1.size inb_S16_S1_4)).squeeze S_ squeezes_S1_S_).sem) hsc) (.dma ((cc0_scratch6.slice (Rect.unit (s := S16) ![4] S1.size inb_S16_S1_4)).squeeze S_ squeezes_S1_S_).sem) hsrc hdst hsem) kont) Q') :=
  wp_send_chunk m κ₁ κ₂ c _ (k0_dev6_peer c) 4 0 rfl fs hfs fd O W'

/-- Chunk 5's transfer out of slot 1, the slot held on the whole buffer's location, spelt as the program spells it. -/
theorem send_h_5 (κ₁ κ₂ : ℕ) (c : Dev nD)
    {hsc : (((Memref.whole main_v1_1 : Memref sig .tc .hbm S8192x1024 .bf16).slice (Rect.unit (s := S8192x1024) ![2560, 0] S512x1024.size inb_S8192x1024_S512x1024_2560_0) (fun _ => rfl)) : Memref sig (Dev.tc (⟨k0_dev7 c, k0_dev7_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![2560, 0] S512x1024.size inb_S8192x1024_S512x1024_2560_0) (fun _ => rfl)).view.WordExact}
    {hsem : DmaTarget.Typed .vmem (.dma ((cc0_scratch6.slice (Rect.unit (s := S16) ![5] S1.size inb_S16_S1_5)).squeeze S_ squeezes_S1_S_).sem) (.remote (Dev.tc (⟨k0_dev7 c, k0_dev7_lt c⟩ : Dev nD) : Thread nD τ) ((Memref.whole main_v1_1 : Memref sig .tc .hbm S8192x1024 .bf16).slice (Rect.unit (s := S8192x1024) ![2560, 0] S512x1024.size inb_S8192x1024_S512x1024_2560_0) (fun _ => rfl)) (.dma ((cc0_scratch5.slice (Rect.unit (s := S16) ![5] S1.size inb_S16_S1_5)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 5)
    (fd : Buf (Elt F) ((rowsM 5).view.loc ((peer c : Dev nD) : Thread nD τ)))
    (O : CellTallies nD τ sig Unit) (W' : Waits sig Unit) :
    iprop(cellInv ER (sched m) κ₁ (sendCell c 5) ∗ cellInv ER (sched m) κ₂ (recvCell (peer c) 5)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 5).view.loc ((peer c : Dev nD) : Thread nD τ) ↦[(rowsM 5).view.set]{fullShare} fd)
        ∗ owes (c : Thread nD τ) (O + tallyAt (recvCell (peer c) 5) () N) W'
        ∗ dutyTok ER (sendCell c 5) 0 () ∗ reached ER (sendCell c 5) 0
        ∗ dutyTok ER (recvCell (peer c) 5) 0 () ∗ reached ER (recvCell (peer c) 5) 0)
      ⊢ iprop(((cred (tallyAt (sendCell c 5) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev7 c, k0_dev7_lt c⟩ : Dev nD) : Thread nD τ) ((Memref.whole main_v1_1 : Memref sig .tc .hbm S8192x1024 .bf16).slice (Rect.unit (s := S8192x1024) ![2560, 0] S512x1024.size inb_S8192x1024_S512x1024_2560_0) (fun _ => rfl)) (.dma ((cc0_scratch5.slice (Rect.unit (s := S16) ![5] S1.size inb_S16_S1_5)).squeeze S_ squeezes_S1_S_).sem) hsc) (.dma ((cc0_scratch6.slice (Rect.unit (s := S16) ![5] S1.size inb_S16_S1_5)).squeeze S_ squeezes_S1_S_).sem) hsrc hdst hsem) kont) Q') :=
  wp_send_chunk m κ₁ κ₂ c _ (k0_dev7_peer c) 5 1 rfl fs hfs fd O W'

/-- Chunk 6's transfer out of slot 2, the slot held on the whole buffer's location, spelt as the program spells it. -/
theorem send_h_6 (κ₁ κ₂ : ℕ) (c : Dev nD)
    {hsc : (((Memref.whole main_v1_1 : Memref sig .tc .hbm S8192x1024 .bf16).slice (Rect.unit (s := S8192x1024) ![3072, 0] S512x1024.size inb_S8192x1024_S512x1024_3072_0) (fun _ => rfl)) : Memref sig (Dev.tc (⟨k0_dev8 c, k0_dev8_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![3072, 0] S512x1024.size inb_S8192x1024_S512x1024_3072_0) (fun _ => rfl)).view.WordExact}
    {hsem : DmaTarget.Typed .vmem (.dma ((cc0_scratch6.slice (Rect.unit (s := S16) ![6] S1.size inb_S16_S1_6)).squeeze S_ squeezes_S1_S_).sem) (.remote (Dev.tc (⟨k0_dev8 c, k0_dev8_lt c⟩ : Dev nD) : Thread nD τ) ((Memref.whole main_v1_1 : Memref sig .tc .hbm S8192x1024 .bf16).slice (Rect.unit (s := S8192x1024) ![3072, 0] S512x1024.size inb_S8192x1024_S512x1024_3072_0) (fun _ => rfl)) (.dma ((cc0_scratch5.slice (Rect.unit (s := S16) ![6] S1.size inb_S16_S1_6)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 6)
    (fd : Buf (Elt F) ((rowsM 6).view.loc ((peer c : Dev nD) : Thread nD τ)))
    (O : CellTallies nD τ sig Unit) (W' : Waits sig Unit) :
    iprop(cellInv ER (sched m) κ₁ (sendCell c 6) ∗ cellInv ER (sched m) κ₂ (recvCell (peer c) 6)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 6).view.loc ((peer c : Dev nD) : Thread nD τ) ↦[(rowsM 6).view.set]{fullShare} fd)
        ∗ owes (c : Thread nD τ) (O + tallyAt (recvCell (peer c) 6) () N) W'
        ∗ dutyTok ER (sendCell c 6) 0 () ∗ reached ER (sendCell c 6) 0
        ∗ dutyTok ER (recvCell (peer c) 6) 0 () ∗ reached ER (recvCell (peer c) 6) 0)
      ⊢ iprop(((cred (tallyAt (sendCell c 6) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev8 c, k0_dev8_lt c⟩ : Dev nD) : Thread nD τ) ((Memref.whole main_v1_1 : Memref sig .tc .hbm S8192x1024 .bf16).slice (Rect.unit (s := S8192x1024) ![3072, 0] S512x1024.size inb_S8192x1024_S512x1024_3072_0) (fun _ => rfl)) (.dma ((cc0_scratch5.slice (Rect.unit (s := S16) ![6] S1.size inb_S16_S1_6)).squeeze S_ squeezes_S1_S_).sem) hsc) (.dma ((cc0_scratch6.slice (Rect.unit (s := S16) ![6] S1.size inb_S16_S1_6)).squeeze S_ squeezes_S1_S_).sem) hsrc hdst hsem) kont) Q') :=
  wp_send_chunk m κ₁ κ₂ c _ (k0_dev8_peer c) 6 2 rfl fs hfs fd O W'

/-- Chunk 7's transfer out of slot 3, the slot held on the whole buffer's location, spelt as the program spells it. -/
theorem send_h_7 (κ₁ κ₂ : ℕ) (c : Dev nD)
    {hsc : (((Memref.whole main_v1_1 : Memref sig .tc .hbm S8192x1024 .bf16).slice (Rect.unit (s := S8192x1024) ![3584, 0] S512x1024.size inb_S8192x1024_S512x1024_3584_0) (fun _ => rfl)) : Memref sig (Dev.tc (⟨k0_dev9 c, k0_dev9_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![3584, 0] S512x1024.size inb_S8192x1024_S512x1024_3584_0) (fun _ => rfl)).view.WordExact}
    {hsem : DmaTarget.Typed .vmem (.dma ((cc0_scratch6.slice (Rect.unit (s := S16) ![7] S1.size inb_S16_S1_7)).squeeze S_ squeezes_S1_S_).sem) (.remote (Dev.tc (⟨k0_dev9 c, k0_dev9_lt c⟩ : Dev nD) : Thread nD τ) ((Memref.whole main_v1_1 : Memref sig .tc .hbm S8192x1024 .bf16).slice (Rect.unit (s := S8192x1024) ![3584, 0] S512x1024.size inb_S8192x1024_S512x1024_3584_0) (fun _ => rfl)) (.dma ((cc0_scratch5.slice (Rect.unit (s := S16) ![7] S1.size inb_S16_S1_7)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 7)
    (fd : Buf (Elt F) ((rowsM 7).view.loc ((peer c : Dev nD) : Thread nD τ)))
    (O : CellTallies nD τ sig Unit) (W' : Waits sig Unit) :
    iprop(cellInv ER (sched m) κ₁ (sendCell c 7) ∗ cellInv ER (sched m) κ₂ (recvCell (peer c) 7)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 7).view.loc ((peer c : Dev nD) : Thread nD τ) ↦[(rowsM 7).view.set]{fullShare} fd)
        ∗ owes (c : Thread nD τ) (O + tallyAt (recvCell (peer c) 7) () N) W'
        ∗ dutyTok ER (sendCell c 7) 0 () ∗ reached ER (sendCell c 7) 0
        ∗ dutyTok ER (recvCell (peer c) 7) 0 () ∗ reached ER (recvCell (peer c) 7) 0)
      ⊢ iprop(((cred (tallyAt (sendCell c 7) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev9 c, k0_dev9_lt c⟩ : Dev nD) : Thread nD τ) ((Memref.whole main_v1_1 : Memref sig .tc .hbm S8192x1024 .bf16).slice (Rect.unit (s := S8192x1024) ![3584, 0] S512x1024.size inb_S8192x1024_S512x1024_3584_0) (fun _ => rfl)) (.dma ((cc0_scratch5.slice (Rect.unit (s := S16) ![7] S1.size inb_S16_S1_7)).squeeze S_ squeezes_S1_S_).sem) hsc) (.dma ((cc0_scratch6.slice (Rect.unit (s := S16) ![7] S1.size inb_S16_S1_7)).squeeze S_ squeezes_S1_S_).sem) hsrc hdst hsem) kont) Q') :=
  wp_send_chunk m κ₁ κ₂ c _ (k0_dev9_peer c) 7 3 rfl fs hfs fd O W'

/-- Chunk 8's transfer out of slot 0, the slot held on the whole buffer's location, spelt as the program spells it. -/
theorem send_h_8 (κ₁ κ₂ : ℕ) (c : Dev nD)
    {hsc : (((Memref.whole main_v1_1 : Memref sig .tc .hbm S8192x1024 .bf16).slice (Rect.unit (s := S8192x1024) ![4096, 0] S512x1024.size inb_S8192x1024_S512x1024_4096_0) (fun _ => rfl)) : Memref sig (Dev.tc (⟨k0_dev10 c, k0_dev10_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![4096, 0] S512x1024.size inb_S8192x1024_S512x1024_4096_0) (fun _ => rfl)).view.WordExact}
    {hsem : DmaTarget.Typed .vmem (.dma ((cc0_scratch6.slice (Rect.unit (s := S16) ![8] S1.size inb_S16_S1_8)).squeeze S_ squeezes_S1_S_).sem) (.remote (Dev.tc (⟨k0_dev10 c, k0_dev10_lt c⟩ : Dev nD) : Thread nD τ) ((Memref.whole main_v1_1 : Memref sig .tc .hbm S8192x1024 .bf16).slice (Rect.unit (s := S8192x1024) ![4096, 0] S512x1024.size inb_S8192x1024_S512x1024_4096_0) (fun _ => rfl)) (.dma ((cc0_scratch5.slice (Rect.unit (s := S16) ![8] S1.size inb_S16_S1_8)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 8)
    (fd : Buf (Elt F) ((rowsM 8).view.loc ((peer c : Dev nD) : Thread nD τ)))
    (O : CellTallies nD τ sig Unit) (W' : Waits sig Unit) :
    iprop(cellInv ER (sched m) κ₁ (sendCell c 8) ∗ cellInv ER (sched m) κ₂ (recvCell (peer c) 8)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 8).view.loc ((peer c : Dev nD) : Thread nD τ) ↦[(rowsM 8).view.set]{fullShare} fd)
        ∗ owes (c : Thread nD τ) (O + tallyAt (recvCell (peer c) 8) () N) W'
        ∗ dutyTok ER (sendCell c 8) 0 () ∗ reached ER (sendCell c 8) 0
        ∗ dutyTok ER (recvCell (peer c) 8) 0 () ∗ reached ER (recvCell (peer c) 8) 0)
      ⊢ iprop(((cred (tallyAt (sendCell c 8) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev10 c, k0_dev10_lt c⟩ : Dev nD) : Thread nD τ) ((Memref.whole main_v1_1 : Memref sig .tc .hbm S8192x1024 .bf16).slice (Rect.unit (s := S8192x1024) ![4096, 0] S512x1024.size inb_S8192x1024_S512x1024_4096_0) (fun _ => rfl)) (.dma ((cc0_scratch5.slice (Rect.unit (s := S16) ![8] S1.size inb_S16_S1_8)).squeeze S_ squeezes_S1_S_).sem) hsc) (.dma ((cc0_scratch6.slice (Rect.unit (s := S16) ![8] S1.size inb_S16_S1_8)).squeeze S_ squeezes_S1_S_).sem) hsrc hdst hsem) kont) Q') :=
  wp_send_chunk m κ₁ κ₂ c _ (k0_dev10_peer c) 8 0 rfl fs hfs fd O W'

/-- Chunk 9's transfer out of slot 1, the slot held on the whole buffer's location, spelt as the program spells it. -/
theorem send_h_9 (κ₁ κ₂ : ℕ) (c : Dev nD)
    {hsc : (((Memref.whole main_v1_1 : Memref sig .tc .hbm S8192x1024 .bf16).slice (Rect.unit (s := S8192x1024) ![4608, 0] S512x1024.size inb_S8192x1024_S512x1024_4608_0) (fun _ => rfl)) : Memref sig (Dev.tc (⟨k0_dev11 c, k0_dev11_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![4608, 0] S512x1024.size inb_S8192x1024_S512x1024_4608_0) (fun _ => rfl)).view.WordExact}
    {hsem : DmaTarget.Typed .vmem (.dma ((cc0_scratch6.slice (Rect.unit (s := S16) ![9] S1.size inb_S16_S1_9)).squeeze S_ squeezes_S1_S_).sem) (.remote (Dev.tc (⟨k0_dev11 c, k0_dev11_lt c⟩ : Dev nD) : Thread nD τ) ((Memref.whole main_v1_1 : Memref sig .tc .hbm S8192x1024 .bf16).slice (Rect.unit (s := S8192x1024) ![4608, 0] S512x1024.size inb_S8192x1024_S512x1024_4608_0) (fun _ => rfl)) (.dma ((cc0_scratch5.slice (Rect.unit (s := S16) ![9] S1.size inb_S16_S1_9)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 9)
    (fd : Buf (Elt F) ((rowsM 9).view.loc ((peer c : Dev nD) : Thread nD τ)))
    (O : CellTallies nD τ sig Unit) (W' : Waits sig Unit) :
    iprop(cellInv ER (sched m) κ₁ (sendCell c 9) ∗ cellInv ER (sched m) κ₂ (recvCell (peer c) 9)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 9).view.loc ((peer c : Dev nD) : Thread nD τ) ↦[(rowsM 9).view.set]{fullShare} fd)
        ∗ owes (c : Thread nD τ) (O + tallyAt (recvCell (peer c) 9) () N) W'
        ∗ dutyTok ER (sendCell c 9) 0 () ∗ reached ER (sendCell c 9) 0
        ∗ dutyTok ER (recvCell (peer c) 9) 0 () ∗ reached ER (recvCell (peer c) 9) 0)
      ⊢ iprop(((cred (tallyAt (sendCell c 9) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev11 c, k0_dev11_lt c⟩ : Dev nD) : Thread nD τ) ((Memref.whole main_v1_1 : Memref sig .tc .hbm S8192x1024 .bf16).slice (Rect.unit (s := S8192x1024) ![4608, 0] S512x1024.size inb_S8192x1024_S512x1024_4608_0) (fun _ => rfl)) (.dma ((cc0_scratch5.slice (Rect.unit (s := S16) ![9] S1.size inb_S16_S1_9)).squeeze S_ squeezes_S1_S_).sem) hsc) (.dma ((cc0_scratch6.slice (Rect.unit (s := S16) ![9] S1.size inb_S16_S1_9)).squeeze S_ squeezes_S1_S_).sem) hsrc hdst hsem) kont) Q') :=
  wp_send_chunk m κ₁ κ₂ c _ (k0_dev11_peer c) 9 1 rfl fs hfs fd O W'

/-- Chunk 10's transfer out of slot 2, the slot held on the whole buffer's location, spelt as the program spells it. -/
theorem send_h_10 (κ₁ κ₂ : ℕ) (c : Dev nD)
    {hsc : (((Memref.whole main_v1_1 : Memref sig .tc .hbm S8192x1024 .bf16).slice (Rect.unit (s := S8192x1024) ![5120, 0] S512x1024.size inb_S8192x1024_S512x1024_5120_0) (fun _ => rfl)) : Memref sig (Dev.tc (⟨k0_dev12 c, k0_dev12_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![5120, 0] S512x1024.size inb_S8192x1024_S512x1024_5120_0) (fun _ => rfl)).view.WordExact}
    {hsem : DmaTarget.Typed .vmem (.dma ((cc0_scratch6.slice (Rect.unit (s := S16) ![10] S1.size inb_S16_S1_10)).squeeze S_ squeezes_S1_S_).sem) (.remote (Dev.tc (⟨k0_dev12 c, k0_dev12_lt c⟩ : Dev nD) : Thread nD τ) ((Memref.whole main_v1_1 : Memref sig .tc .hbm S8192x1024 .bf16).slice (Rect.unit (s := S8192x1024) ![5120, 0] S512x1024.size inb_S8192x1024_S512x1024_5120_0) (fun _ => rfl)) (.dma ((cc0_scratch5.slice (Rect.unit (s := S16) ![10] S1.size inb_S16_S1_10)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 10)
    (fd : Buf (Elt F) ((rowsM 10).view.loc ((peer c : Dev nD) : Thread nD τ)))
    (O : CellTallies nD τ sig Unit) (W' : Waits sig Unit) :
    iprop(cellInv ER (sched m) κ₁ (sendCell c 10) ∗ cellInv ER (sched m) κ₂ (recvCell (peer c) 10)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 10).view.loc ((peer c : Dev nD) : Thread nD τ) ↦[(rowsM 10).view.set]{fullShare} fd)
        ∗ owes (c : Thread nD τ) (O + tallyAt (recvCell (peer c) 10) () N) W'
        ∗ dutyTok ER (sendCell c 10) 0 () ∗ reached ER (sendCell c 10) 0
        ∗ dutyTok ER (recvCell (peer c) 10) 0 () ∗ reached ER (recvCell (peer c) 10) 0)
      ⊢ iprop(((cred (tallyAt (sendCell c 10) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev12 c, k0_dev12_lt c⟩ : Dev nD) : Thread nD τ) ((Memref.whole main_v1_1 : Memref sig .tc .hbm S8192x1024 .bf16).slice (Rect.unit (s := S8192x1024) ![5120, 0] S512x1024.size inb_S8192x1024_S512x1024_5120_0) (fun _ => rfl)) (.dma ((cc0_scratch5.slice (Rect.unit (s := S16) ![10] S1.size inb_S16_S1_10)).squeeze S_ squeezes_S1_S_).sem) hsc) (.dma ((cc0_scratch6.slice (Rect.unit (s := S16) ![10] S1.size inb_S16_S1_10)).squeeze S_ squeezes_S1_S_).sem) hsrc hdst hsem) kont) Q') :=
  wp_send_chunk m κ₁ κ₂ c _ (k0_dev12_peer c) 10 2 rfl fs hfs fd O W'

/-- Chunk 11's transfer out of slot 3, the slot held on the whole buffer's location, spelt as the program spells it. -/
theorem send_h_11 (κ₁ κ₂ : ℕ) (c : Dev nD)
    {hsc : (((Memref.whole main_v1_1 : Memref sig .tc .hbm S8192x1024 .bf16).slice (Rect.unit (s := S8192x1024) ![5632, 0] S512x1024.size inb_S8192x1024_S512x1024_5632_0) (fun _ => rfl)) : Memref sig (Dev.tc (⟨k0_dev13 c, k0_dev13_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![5632, 0] S512x1024.size inb_S8192x1024_S512x1024_5632_0) (fun _ => rfl)).view.WordExact}
    {hsem : DmaTarget.Typed .vmem (.dma ((cc0_scratch6.slice (Rect.unit (s := S16) ![11] S1.size inb_S16_S1_11)).squeeze S_ squeezes_S1_S_).sem) (.remote (Dev.tc (⟨k0_dev13 c, k0_dev13_lt c⟩ : Dev nD) : Thread nD τ) ((Memref.whole main_v1_1 : Memref sig .tc .hbm S8192x1024 .bf16).slice (Rect.unit (s := S8192x1024) ![5632, 0] S512x1024.size inb_S8192x1024_S512x1024_5632_0) (fun _ => rfl)) (.dma ((cc0_scratch5.slice (Rect.unit (s := S16) ![11] S1.size inb_S16_S1_11)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 11)
    (fd : Buf (Elt F) ((rowsM 11).view.loc ((peer c : Dev nD) : Thread nD τ)))
    (O : CellTallies nD τ sig Unit) (W' : Waits sig Unit) :
    iprop(cellInv ER (sched m) κ₁ (sendCell c 11) ∗ cellInv ER (sched m) κ₂ (recvCell (peer c) 11)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 11).view.loc ((peer c : Dev nD) : Thread nD τ) ↦[(rowsM 11).view.set]{fullShare} fd)
        ∗ owes (c : Thread nD τ) (O + tallyAt (recvCell (peer c) 11) () N) W'
        ∗ dutyTok ER (sendCell c 11) 0 () ∗ reached ER (sendCell c 11) 0
        ∗ dutyTok ER (recvCell (peer c) 11) 0 () ∗ reached ER (recvCell (peer c) 11) 0)
      ⊢ iprop(((cred (tallyAt (sendCell c 11) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev13 c, k0_dev13_lt c⟩ : Dev nD) : Thread nD τ) ((Memref.whole main_v1_1 : Memref sig .tc .hbm S8192x1024 .bf16).slice (Rect.unit (s := S8192x1024) ![5632, 0] S512x1024.size inb_S8192x1024_S512x1024_5632_0) (fun _ => rfl)) (.dma ((cc0_scratch5.slice (Rect.unit (s := S16) ![11] S1.size inb_S16_S1_11)).squeeze S_ squeezes_S1_S_).sem) hsc) (.dma ((cc0_scratch6.slice (Rect.unit (s := S16) ![11] S1.size inb_S16_S1_11)).squeeze S_ squeezes_S1_S_).sem) hsrc hdst hsem) kont) Q') :=
  wp_send_chunk m κ₁ κ₂ c _ (k0_dev13_peer c) 11 3 rfl fs hfs fd O W'

/-- Chunk 12's transfer out of slot 0, the slot held on the whole buffer's location, spelt as the program spells it. -/
theorem send_h_12 (κ₁ κ₂ : ℕ) (c : Dev nD)
    {hsc : (((Memref.whole main_v1_1 : Memref sig .tc .hbm S8192x1024 .bf16).slice (Rect.unit (s := S8192x1024) ![6144, 0] S512x1024.size inb_S8192x1024_S512x1024_6144_0) (fun _ => rfl)) : Memref sig (Dev.tc (⟨k0_dev14 c, k0_dev14_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![6144, 0] S512x1024.size inb_S8192x1024_S512x1024_6144_0) (fun _ => rfl)).view.WordExact}
    {hsem : DmaTarget.Typed .vmem (.dma ((cc0_scratch6.slice (Rect.unit (s := S16) ![12] S1.size inb_S16_S1_12)).squeeze S_ squeezes_S1_S_).sem) (.remote (Dev.tc (⟨k0_dev14 c, k0_dev14_lt c⟩ : Dev nD) : Thread nD τ) ((Memref.whole main_v1_1 : Memref sig .tc .hbm S8192x1024 .bf16).slice (Rect.unit (s := S8192x1024) ![6144, 0] S512x1024.size inb_S8192x1024_S512x1024_6144_0) (fun _ => rfl)) (.dma ((cc0_scratch5.slice (Rect.unit (s := S16) ![12] S1.size inb_S16_S1_12)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 12)
    (fd : Buf (Elt F) ((rowsM 12).view.loc ((peer c : Dev nD) : Thread nD τ)))
    (O : CellTallies nD τ sig Unit) (W' : Waits sig Unit) :
    iprop(cellInv ER (sched m) κ₁ (sendCell c 12) ∗ cellInv ER (sched m) κ₂ (recvCell (peer c) 12)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 12).view.loc ((peer c : Dev nD) : Thread nD τ) ↦[(rowsM 12).view.set]{fullShare} fd)
        ∗ owes (c : Thread nD τ) (O + tallyAt (recvCell (peer c) 12) () N) W'
        ∗ dutyTok ER (sendCell c 12) 0 () ∗ reached ER (sendCell c 12) 0
        ∗ dutyTok ER (recvCell (peer c) 12) 0 () ∗ reached ER (recvCell (peer c) 12) 0)
      ⊢ iprop(((cred (tallyAt (sendCell c 12) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev14 c, k0_dev14_lt c⟩ : Dev nD) : Thread nD τ) ((Memref.whole main_v1_1 : Memref sig .tc .hbm S8192x1024 .bf16).slice (Rect.unit (s := S8192x1024) ![6144, 0] S512x1024.size inb_S8192x1024_S512x1024_6144_0) (fun _ => rfl)) (.dma ((cc0_scratch5.slice (Rect.unit (s := S16) ![12] S1.size inb_S16_S1_12)).squeeze S_ squeezes_S1_S_).sem) hsc) (.dma ((cc0_scratch6.slice (Rect.unit (s := S16) ![12] S1.size inb_S16_S1_12)).squeeze S_ squeezes_S1_S_).sem) hsrc hdst hsem) kont) Q') :=
  wp_send_chunk m κ₁ κ₂ c _ (k0_dev14_peer c) 12 0 rfl fs hfs fd O W'

/-- Chunk 13's transfer out of slot 1, the slot held on the whole buffer's location, spelt as the program spells it. -/
theorem send_h_13 (κ₁ κ₂ : ℕ) (c : Dev nD)
    {hsc : (((Memref.whole main_v1_1 : Memref sig .tc .hbm S8192x1024 .bf16).slice (Rect.unit (s := S8192x1024) ![6656, 0] S512x1024.size inb_S8192x1024_S512x1024_6656_0) (fun _ => rfl)) : Memref sig (Dev.tc (⟨k0_dev15 c, k0_dev15_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![6656, 0] S512x1024.size inb_S8192x1024_S512x1024_6656_0) (fun _ => rfl)).view.WordExact}
    {hsem : DmaTarget.Typed .vmem (.dma ((cc0_scratch6.slice (Rect.unit (s := S16) ![13] S1.size inb_S16_S1_13)).squeeze S_ squeezes_S1_S_).sem) (.remote (Dev.tc (⟨k0_dev15 c, k0_dev15_lt c⟩ : Dev nD) : Thread nD τ) ((Memref.whole main_v1_1 : Memref sig .tc .hbm S8192x1024 .bf16).slice (Rect.unit (s := S8192x1024) ![6656, 0] S512x1024.size inb_S8192x1024_S512x1024_6656_0) (fun _ => rfl)) (.dma ((cc0_scratch5.slice (Rect.unit (s := S16) ![13] S1.size inb_S16_S1_13)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 13)
    (fd : Buf (Elt F) ((rowsM 13).view.loc ((peer c : Dev nD) : Thread nD τ)))
    (O : CellTallies nD τ sig Unit) (W' : Waits sig Unit) :
    iprop(cellInv ER (sched m) κ₁ (sendCell c 13) ∗ cellInv ER (sched m) κ₂ (recvCell (peer c) 13)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 13).view.loc ((peer c : Dev nD) : Thread nD τ) ↦[(rowsM 13).view.set]{fullShare} fd)
        ∗ owes (c : Thread nD τ) (O + tallyAt (recvCell (peer c) 13) () N) W'
        ∗ dutyTok ER (sendCell c 13) 0 () ∗ reached ER (sendCell c 13) 0
        ∗ dutyTok ER (recvCell (peer c) 13) 0 () ∗ reached ER (recvCell (peer c) 13) 0)
      ⊢ iprop(((cred (tallyAt (sendCell c 13) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev15 c, k0_dev15_lt c⟩ : Dev nD) : Thread nD τ) ((Memref.whole main_v1_1 : Memref sig .tc .hbm S8192x1024 .bf16).slice (Rect.unit (s := S8192x1024) ![6656, 0] S512x1024.size inb_S8192x1024_S512x1024_6656_0) (fun _ => rfl)) (.dma ((cc0_scratch5.slice (Rect.unit (s := S16) ![13] S1.size inb_S16_S1_13)).squeeze S_ squeezes_S1_S_).sem) hsc) (.dma ((cc0_scratch6.slice (Rect.unit (s := S16) ![13] S1.size inb_S16_S1_13)).squeeze S_ squeezes_S1_S_).sem) hsrc hdst hsem) kont) Q') :=
  wp_send_chunk m κ₁ κ₂ c _ (k0_dev15_peer c) 13 1 rfl fs hfs fd O W'

/-- Chunk 14's transfer out of slot 2, the slot held on the whole buffer's location, spelt as the program spells it. -/
theorem send_h_14 (κ₁ κ₂ : ℕ) (c : Dev nD)
    {hsc : (((Memref.whole main_v1_1 : Memref sig .tc .hbm S8192x1024 .bf16).slice (Rect.unit (s := S8192x1024) ![7168, 0] S512x1024.size inb_S8192x1024_S512x1024_7168_0) (fun _ => rfl)) : Memref sig (Dev.tc (⟨k0_dev16 c, k0_dev16_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![7168, 0] S512x1024.size inb_S8192x1024_S512x1024_7168_0) (fun _ => rfl)).view.WordExact}
    {hsem : DmaTarget.Typed .vmem (.dma ((cc0_scratch6.slice (Rect.unit (s := S16) ![14] S1.size inb_S16_S1_14)).squeeze S_ squeezes_S1_S_).sem) (.remote (Dev.tc (⟨k0_dev16 c, k0_dev16_lt c⟩ : Dev nD) : Thread nD τ) ((Memref.whole main_v1_1 : Memref sig .tc .hbm S8192x1024 .bf16).slice (Rect.unit (s := S8192x1024) ![7168, 0] S512x1024.size inb_S8192x1024_S512x1024_7168_0) (fun _ => rfl)) (.dma ((cc0_scratch5.slice (Rect.unit (s := S16) ![14] S1.size inb_S16_S1_14)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 14)
    (fd : Buf (Elt F) ((rowsM 14).view.loc ((peer c : Dev nD) : Thread nD τ)))
    (O : CellTallies nD τ sig Unit) (W' : Waits sig Unit) :
    iprop(cellInv ER (sched m) κ₁ (sendCell c 14) ∗ cellInv ER (sched m) κ₂ (recvCell (peer c) 14)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 14).view.loc ((peer c : Dev nD) : Thread nD τ) ↦[(rowsM 14).view.set]{fullShare} fd)
        ∗ owes (c : Thread nD τ) (O + tallyAt (recvCell (peer c) 14) () N) W'
        ∗ dutyTok ER (sendCell c 14) 0 () ∗ reached ER (sendCell c 14) 0
        ∗ dutyTok ER (recvCell (peer c) 14) 0 () ∗ reached ER (recvCell (peer c) 14) 0)
      ⊢ iprop(((cred (tallyAt (sendCell c 14) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev16 c, k0_dev16_lt c⟩ : Dev nD) : Thread nD τ) ((Memref.whole main_v1_1 : Memref sig .tc .hbm S8192x1024 .bf16).slice (Rect.unit (s := S8192x1024) ![7168, 0] S512x1024.size inb_S8192x1024_S512x1024_7168_0) (fun _ => rfl)) (.dma ((cc0_scratch5.slice (Rect.unit (s := S16) ![14] S1.size inb_S16_S1_14)).squeeze S_ squeezes_S1_S_).sem) hsc) (.dma ((cc0_scratch6.slice (Rect.unit (s := S16) ![14] S1.size inb_S16_S1_14)).squeeze S_ squeezes_S1_S_).sem) hsrc hdst hsem) kont) Q') :=
  wp_send_chunk m κ₁ κ₂ c _ (k0_dev16_peer c) 14 2 rfl fs hfs fd O W'

/-- Chunk 15's transfer out of slot 3, the slot held on the whole buffer's location, spelt as the program spells it. -/
theorem send_h_15 (κ₁ κ₂ : ℕ) (c : Dev nD)
    {hsc : (((Memref.whole main_v1_1 : Memref sig .tc .hbm S8192x1024 .bf16).slice (Rect.unit (s := S8192x1024) ![7680, 0] S512x1024.size inb_S8192x1024_S512x1024_7680_0) (fun _ => rfl)) : Memref sig (Dev.tc (⟨k0_dev17 c, k0_dev17_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![7680, 0] S512x1024.size inb_S8192x1024_S512x1024_7680_0) (fun _ => rfl)).view.WordExact}
    {hsem : DmaTarget.Typed .vmem (.dma ((cc0_scratch6.slice (Rect.unit (s := S16) ![15] S1.size inb_S16_S1_15)).squeeze S_ squeezes_S1_S_).sem) (.remote (Dev.tc (⟨k0_dev17 c, k0_dev17_lt c⟩ : Dev nD) : Thread nD τ) ((Memref.whole main_v1_1 : Memref sig .tc .hbm S8192x1024 .bf16).slice (Rect.unit (s := S8192x1024) ![7680, 0] S512x1024.size inb_S8192x1024_S512x1024_7680_0) (fun _ => rfl)) (.dma ((cc0_scratch5.slice (Rect.unit (s := S16) ![15] S1.size inb_S16_S1_15)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 15)
    (fd : Buf (Elt F) ((rowsM 15).view.loc ((peer c : Dev nD) : Thread nD τ)))
    (O : CellTallies nD τ sig Unit) (W' : Waits sig Unit) :
    iprop(cellInv ER (sched m) κ₁ (sendCell c 15) ∗ cellInv ER (sched m) κ₂ (recvCell (peer c) 15)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 15).view.loc ((peer c : Dev nD) : Thread nD τ) ↦[(rowsM 15).view.set]{fullShare} fd)
        ∗ owes (c : Thread nD τ) (O + tallyAt (recvCell (peer c) 15) () N) W'
        ∗ dutyTok ER (sendCell c 15) 0 () ∗ reached ER (sendCell c 15) 0
        ∗ dutyTok ER (recvCell (peer c) 15) 0 () ∗ reached ER (recvCell (peer c) 15) 0)
      ⊢ iprop(((cred (tallyAt (sendCell c 15) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev17 c, k0_dev17_lt c⟩ : Dev nD) : Thread nD τ) ((Memref.whole main_v1_1 : Memref sig .tc .hbm S8192x1024 .bf16).slice (Rect.unit (s := S8192x1024) ![7680, 0] S512x1024.size inb_S8192x1024_S512x1024_7680_0) (fun _ => rfl)) (.dma ((cc0_scratch5.slice (Rect.unit (s := S16) ![15] S1.size inb_S16_S1_15)).squeeze S_ squeezes_S1_S_).sem) hsc) (.dma ((cc0_scratch6.slice (Rect.unit (s := S16) ![15] S1.size inb_S16_S1_15)).squeeze S_ squeezes_S1_S_).sem) hsrc hdst hsem) kont) Q') :=
  wp_send_chunk m κ₁ κ₂ c _ (k0_dev17_peer c) 15 3 rfl fs hfs fd O W'

/-! ## The departure cells' payloads, spelt with the slots so held -/

theorem payload_send_h_0 (c : Dev nD) (d : Unit) :
    (sched (F := F) m).payload (sendCell c 0) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 0 d

theorem payload_send_h_1 (c : Dev nD) (d : Unit) :
    (sched (F := F) m).payload (sendCell c 1) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 1 d

theorem payload_send_h_2 (c : Dev nD) (d : Unit) :
    (sched (F := F) m).payload (sendCell c 2) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 2 d

theorem payload_send_h_3 (c : Dev nD) (d : Unit) :
    (sched (F := F) m).payload (sendCell c 3) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 3 d

theorem payload_send_h_4 (c : Dev nD) (d : Unit) :
    (sched (F := F) m).payload (sendCell c 4) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 4 d

theorem payload_send_h_5 (c : Dev nD) (d : Unit) :
    (sched (F := F) m).payload (sendCell c 5) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 5 d

theorem payload_send_h_6 (c : Dev nD) (d : Unit) :
    (sched (F := F) m).payload (sendCell c 6) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 6 d

theorem payload_send_h_7 (c : Dev nD) (d : Unit) :
    (sched (F := F) m).payload (sendCell c 7) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 7 d

theorem payload_send_h_8 (c : Dev nD) (d : Unit) :
    (sched (F := F) m).payload (sendCell c 8) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 8 d

theorem payload_send_h_9 (c : Dev nD) (d : Unit) :
    (sched (F := F) m).payload (sendCell c 9) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 9 d

theorem payload_send_h_10 (c : Dev nD) (d : Unit) :
    (sched (F := F) m).payload (sendCell c 10) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 10 d

theorem payload_send_h_11 (c : Dev nD) (d : Unit) :
    (sched (F := F) m).payload (sendCell c 11) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 11 d

theorem payload_send_h_12 (c : Dev nD) (d : Unit) :
    (sched (F := F) m).payload (sendCell c 12) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 12 d

theorem payload_send_h_13 (c : Dev nD) (d : Unit) :
    (sched (F := F) m).payload (sendCell c 13) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 13 d

theorem payload_send_h_14 (c : Dev nD) (d : Unit) :
    (sched (F := F) m).payload (sendCell c 14) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 14 d

theorem payload_send_h_15 (c : Dev nD) (d : Unit) :
    (sched (F := F) m).payload (sendCell c 15) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 15 d

/-- info: 'Cert.KernelIdeal.RS.slots_split_h' depends on axioms: [propext, Classical.choice, Quot.sound] -/
#guard_msgs in #print axioms slots_split_h

/-- info: 'Cert.KernelIdeal.RS.slots_join_h' depends on axioms: [propext, Classical.choice, Quot.sound] -/
#guard_msgs in #print axioms slots_join_h

/-- info: 'Cert.KernelIdeal.RS.slot_store_3' depends on axioms: [propext, Classical.choice, Quot.sound] -/
#guard_msgs in #print axioms slot_store_3

/-- info: 'Cert.KernelIdeal.RS.send_h_15' depends on axioms: [propext, Classical.choice, Quot.sound] -/
#guard_msgs in #print axioms send_h_15

/-- info: 'Cert.KernelIdeal.RS.slot_written_chunk_3' depends on axioms: [propext, Classical.choice, Quot.sound] -/
#guard_msgs in #print axioms slot_written_chunk_3

end Cert.KernelIdeal.RS

end
-- ==== Proof.KernelIdealSplit.lean ====
import proofs.«901042_g7700000000001043_dist_rs_v7x_xyz2x4x4_x_m8192_n1024_bf16_1_alg».proof.Proof.KernelIdealSlots

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A double buffer's two slots cover it -/

/-- Every element of a two-slot buffer lies in the slot its leading coordinate names. -/
theorem pair_cover (x : S2x512x1024.Idx) : x ∈ (cvtR ⟨(x 0).val, (x 0).isLt⟩).set := by
  rw [Rect.mem_set_unit]
  intro a
  match a with
  | ⟨0, _⟩ =>
    show (x 0).val ≤ (x 0).val ∧ (x 0).val < (x 0).val + 1
    omega
  | ⟨1, _⟩ =>
    show 0 ≤ (x 1).val ∧ (x 1).val < 0 + 512
    have : (x 1).val < 512 := (x 1).isLt
    omega
  | ⟨2, _⟩ =>
    show 0 ≤ (x 2).val ∧ (x 2).val < 0 + 1024
    have : (x 2).val < 1024 := (x 2).isLt
    omega

/-! ## `cc0_scratch0` held slot by slot -/

/-- The elements of slot `i` of `cc0_scratch0`. -/
abbrev pairSet_scratch0 (i : Fin 2) : Finset S2x512x1024.Idx := (((Memref.whole cc0_scratch0 : Memref sig .tc .vmem S2x512x1024 .f32).slice (Rect.unit (s := S2x512x1024) ![i.val, 0, 0] S1x512x1024.size (cvt_inb i)) (fun _ => rfl)).squeeze S512x1024 squeezes_S1x512x1024_S512x1024).view.set

theorem pairSet_scratch0_eq (i : Fin 2) : pairSet_scratch0 i = (cvtR i).set := by
  show (((View.whole cc0_scratch0).slice (cvtR i)).reshape S512x1024 squeezes_S1x512x1024_S512x1024.numel_eq).set = _
  rw [View.set_reshape, View.set_slice_whole]

theorem pairSet_scratch0_disjoint (i j : Fin 2) (h : i ≠ j) : Disjoint (pairSet_scratch0 i) (pairSet_scratch0 j) := by
  rw [pairSet_scratch0_eq, pairSet_scratch0_eq]
  exact cvt_disjoint i j h

theorem pair_union_scratch0 : (Finset.univ : Finset (Fin 2)).biUnion pairSet_scratch0 = Finset.univ := by
  ext x
  simp only [Finset.mem_biUnion, Finset.mem_univ, true_and, iff_true]
  exact ⟨⟨(x 0).val, (x 0).isLt⟩, by rw [pairSet_scratch0_eq]; exact pair_cover x⟩

/-- `cc0_scratch0`, whole, as its two slots. -/
theorem pair_split_scratch0 (c : Dev nD) (f : Buf (Elt F) ((c : Thread nD τ).loc cc0_scratch0)) :
    ((Memref.whole cc0_scratch0 : Memref sig .tc .vmem S2x512x1024 .f32).view.loc (c : Thread nD τ) ↦[(Memref.whole cc0_scratch0 : Memref sig .tc .vmem S2x512x1024 .f32).view.set]{fullShare} f : sProp 𝕄)
      ⊢ iprop(((((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch0 : Memref sig .tc .vmem S2x512x1024 .f32).view.loc (c : Thread nD τ) ↦[(Memref.whole cc0_scratch0 : Memref sig .tc .vmem S2x512x1024 .f32).view.set]{fullShare} f : sProp 𝕄)
      = (((c : Thread nD τ).loc cc0_scratch0) ↦{fullShare} f) := by
    show ((View.whole cc0_scratch0).loc (c : Thread nD τ) ↦[(View.whole cc0_scratch0).set]{fullShare} f : sProp 𝕄) = _
    rw [View.set_whole]
  have h2 := pointsTo_biUnion (U := UU) (Lvl := ℕ) (Name := ℕ) (Ix := Unit) (ℓ := (c : Thread nD τ).loc cc0_scratch0) (q := fullShare) (f := f)
    (Finset.univ : Finset (Fin 2)) pairSet_scratch0 (fun t _ t' _ h => pairSet_scratch0_disjoint t t' h)
  rw [pair_union_scratch0] at h2
  have h3 := bigSep_univ_eq_bigSepL [(0 : Fin 2), 1] (by decide) (by decide)
    (fun t : Fin 2 => (((c : Thread nD τ).loc cc0_scratch0) ↦[pairSet_scratch0 t]{fullShare} f : sProp 𝕄))
  exact Entails.of_eq (h1.trans (h2.trans h3))

/-- The two slots of `cc0_scratch0`, at whatever contents, are the buffer at some contents. -/
theorem pair_join_scratch0 (c : Dev nD) (g0 g1 : Buf (Elt F) ((c : Thread nD τ).loc cc0_scratch0)) :
    iprop(((((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch0), ((c : Thread nD τ).loc cc0_scratch0) ↦{fullShare} f) : sProp 𝕄) := by
  have hj := pointsTo_biUnion_join (U := UU) (Lvl := ℕ) (Name := ℕ) (Ix := Unit) (ℓ := (c : Thread nD τ).loc cc0_scratch0) (q := fullShare)
    (Finset.univ : Finset (Fin 2)) pairSet_scratch0 (fun t : Fin 2 => (![g0, g1] : Fin 2 → Buf (Elt F) ((c : Thread nD τ).loc cc0_scratch0)) t) g0
    (fun t _ t' _ h => pairSet_scratch0_disjoint t t' h)
  have h3 := bigSep_univ_eq_bigSepL [(0 : Fin 2), 1] (by decide) (by decide)
    (fun t : Fin 2 => (((c : Thread nD τ).loc cc0_scratch0) ↦[pairSet_scratch0 t]{fullShare} (![g0, g1] : Fin 2 → Buf (Elt F) ((c : Thread nD τ).loc cc0_scratch0)) t : sProp 𝕄))
  refine (Entails.of_eq h3.symm).trans (hj.trans ?_)
  rw [pair_union_scratch0]
  iintro ⟨%f, -, H⟩
  iexists f
  iexact H

/-! ## `cc0_scratch2` held slot by slot -/

/-- The elements of slot `i` of `cc0_scratch2`. -/
abbrev pairSet_scratch2 (i : Fin 2) : Finset S2x512x1024.Idx := (((Memref.whole cc0_scratch2 : Memref sig .tc .vmem S2x512x1024 .f32).slice (Rect.unit (s := S2x512x1024) ![i.val, 0, 0] S1x512x1024.size (cvt_inb i)) (fun _ => rfl)).squeeze S512x1024 squeezes_S1x512x1024_S512x1024).view.set

theorem pairSet_scratch2_eq (i : Fin 2) : pairSet_scratch2 i = (cvtR i).set := by
  show (((View.whole cc0_scratch2).slice (cvtR i)).reshape S512x1024 squeezes_S1x512x1024_S512x1024.numel_eq).set = _
  rw [View.set_reshape, View.set_slice_whole]

theorem pairSet_scratch2_disjoint (i j : Fin 2) (h : i ≠ j) : Disjoint (pairSet_scratch2 i) (pairSet_scratch2 j) := by
  rw [pairSet_scratch2_eq, pairSet_scratch2_eq]
  exact cvt_disjoint i j h

theorem pair_union_scratch2 : (Finset.univ : Finset (Fin 2)).biUnion pairSet_scratch2 = Finset.univ := by
  ext x
  simp only [Finset.mem_biUnion, Finset.mem_univ, true_and, iff_true]
  exact ⟨⟨(x 0).val, (x 0).isLt⟩, by rw [pairSet_scratch2_eq]; exact pair_cover x⟩

/-- `cc0_scratch2`, whole, as its two slots. -/
theorem pair_split_scratch2 (c : Dev nD) (f : Buf (Elt F) ((c : Thread nD τ).loc cc0_scratch2)) :
    ((Memref.whole cc0_scratch2 : Memref sig .tc .vmem S2x512x1024 .f32).view.loc (c : Thread nD τ) ↦[(Memref.whole cc0_scratch2 : Memref sig .tc .vmem S2x512x1024 .f32).view.set]{fullShare} f : sProp 𝕄)
      ⊢ iprop(((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch2 : Memref sig .tc .vmem S2x512x1024 .f32).view.loc (c : Thread nD τ) ↦[(Memref.whole cc0_scratch2 : Memref sig .tc .vmem S2x512x1024 .f32).view.set]{fullShare} f : sProp 𝕄)
      = (((c : Thread nD τ).loc cc0_scratch2) ↦{fullShare} f) := by
    show ((View.whole cc0_scratch2).loc (c : Thread nD τ) ↦[(View.whole cc0_scratch2).set]{fullShare} f : sProp 𝕄) = _
    rw [View.set_whole]
  have h2 := pointsTo_biUnion (U := UU) (Lvl := ℕ) (Name := ℕ) (Ix := Unit) (ℓ := (c : Thread nD τ).loc cc0_scratch2) (q := fullShare) (f := f)
    (Finset.univ : Finset (Fin 2)) pairSet_scratch2 (fun t _ t' _ h => pairSet_scratch2_disjoint t t' h)
  rw [pair_union_scratch2] at h2
  have h3 := bigSep_univ_eq_bigSepL [(0 : Fin 2), 1] (by decide) (by decide)
    (fun t : Fin 2 => (((c : Thread nD τ).loc cc0_scratch2) ↦[pairSet_scratch2 t]{fullShare} f : sProp 𝕄))
  exact Entails.of_eq (h1.trans (h2.trans h3))

/-- The two slots of `cc0_scratch2`, at whatever contents, are the buffer at some contents. -/
theorem pair_join_scratch2 (c : Dev nD) (g0 g1 : Buf (Elt F) ((c : Thread nD τ).loc cc0_scratch2)) :
    iprop(((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch2), ((c : Thread nD τ).loc cc0_scratch2) ↦{fullShare} f) : sProp 𝕄) := by
  have hj := pointsTo_biUnion_join (U := UU) (Lvl := ℕ) (Name := ℕ) (Ix := Unit) (ℓ := (c : Thread nD τ).loc cc0_scratch2) (q := fullShare)
    (Finset.univ : Finset (Fin 2)) pairSet_scratch2 (fun t : Fin 2 => (![g0, g1] : Fin 2 → Buf (Elt F) ((c : Thread nD τ).loc cc0_scratch2)) t) g0
    (fun t _ t' _ h => pairSet_scratch2_disjoint t t' h)
  have h3 := bigSep_univ_eq_bigSepL [(0 : Fin 2), 1] (by decide) (by decide)
    (fun t : Fin 2 => (((c : Thread nD τ).loc cc0_scratch2) ↦[pairSet_scratch2 t]{fullShare} (![g0, g1] : Fin 2 → Buf (Elt F) ((c : Thread nD τ).loc cc0_scratch2)) t : sProp 𝕄))
  refine (Entails.of_eq h3.symm).trans (hj.trans ?_)
  rw [pair_union_scratch2]
  iintro ⟨%f, -, H⟩
  iexists f
  iexact H

/-! ## `cc0_scratch3` held slot by slot -/

/-- The elements of slot `i` of `cc0_scratch3`. -/
abbrev pairSet_scratch3 (i : Fin 2) : Finset S2x512x1024.Idx := (((Memref.whole cc0_scratch3 : Memref sig .tc .vmem S2x512x1024 .bf16).slice (Rect.unit (s := S2x512x1024) ![i.val, 0, 0] S1x512x1024.size (cvt_inb i)) (fun _ => rfl)).squeeze S512x1024 squeezes_S1x512x1024_S512x1024).view.set

theorem pairSet_scratch3_eq (i : Fin 2) : pairSet_scratch3 i = (cvtR i).set := by
  show (((View.whole cc0_scratch3).slice (cvtR i)).reshape S512x1024 squeezes_S1x512x1024_S512x1024.numel_eq).set = _
  rw [View.set_reshape, View.set_slice_whole]

theorem pairSet_scratch3_disjoint (i j : Fin 2) (h : i ≠ j) : Disjoint (pairSet_scratch3 i) (pairSet_scratch3 j) := by
  rw [pairSet_scratch3_eq, pairSet_scratch3_eq]
  exact cvt_disjoint i j h

theorem pair_union_scratch3 : (Finset.univ : Finset (Fin 2)).biUnion pairSet_scratch3 = Finset.univ := by
  ext x
  simp only [Finset.mem_biUnion, Finset.mem_univ, true_and, iff_true]
  exact ⟨⟨(x 0).val, (x 0).isLt⟩, by rw [pairSet_scratch3_eq]; exact pair_cover x⟩

/-- `cc0_scratch3`, whole, as its two slots. -/
theorem pair_split_scratch3 (c : Dev nD) (f : Buf (Elt F) ((c : Thread nD τ).loc cc0_scratch3)) :
    ((Memref.whole cc0_scratch3 : Memref sig .tc .vmem S2x512x1024 .bf16).view.loc (c : Thread nD τ) ↦[(Memref.whole cc0_scratch3 : Memref sig .tc .vmem S2x512x1024 .bf16).view.set]{fullShare} f : sProp 𝕄)
      ⊢ iprop(((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch3 : Memref sig .tc .vmem S2x512x1024 .bf16).view.loc (c : Thread nD τ) ↦[(Memref.whole cc0_scratch3 : Memref sig .tc .vmem S2x512x1024 .bf16).view.set]{fullShare} f : sProp 𝕄)
      = (((c : Thread nD τ).loc cc0_scratch3) ↦{fullShare} f) := by
    show ((View.whole cc0_scratch3).loc (c : Thread nD τ) ↦[(View.whole cc0_scratch3).set]{fullShare} f : sProp 𝕄) = _
    rw [View.set_whole]
  have h2 := pointsTo_biUnion (U := UU) (Lvl := ℕ) (Name := ℕ) (Ix := Unit) (ℓ := (c : Thread nD τ).loc cc0_scratch3) (q := fullShare) (f := f)
    (Finset.univ : Finset (Fin 2)) pairSet_scratch3 (fun t _ t' _ h => pairSet_scratch3_disjoint t t' h)
  rw [pair_union_scratch3] at h2
  have h3 := bigSep_univ_eq_bigSepL [(0 : Fin 2), 1] (by decide) (by decide)
    (fun t : Fin 2 => (((c : Thread nD τ).loc cc0_scratch3) ↦[pairSet_scratch3 t]{fullShare} f : sProp 𝕄))
  exact Entails.of_eq (h1.trans (h2.trans h3))

/-- The two slots of `cc0_scratch3`, at whatever contents, are the buffer at some contents. -/
theorem pair_join_scratch3 (c : Dev nD) (g0 g1 : Buf (Elt F) ((c : Thread nD τ).loc cc0_scratch3)) :
    iprop(((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch3), ((c : Thread nD τ).loc cc0_scratch3) ↦{fullShare} f) : sProp 𝕄) := by
  have hj := pointsTo_biUnion_join (U := UU) (Lvl := ℕ) (Name := ℕ) (Ix := Unit) (ℓ := (c : Thread nD τ).loc cc0_scratch3) (q := fullShare)
    (Finset.univ : Finset (Fin 2)) pairSet_scratch3 (fun t : Fin 2 => (![g0, g1] : Fin 2 → Buf (Elt F) ((c : Thread nD τ).loc cc0_scratch3)) t) g0
    (fun t _ t' _ h => pairSet_scratch3_disjoint t t' h)
  have h3 := bigSep_univ_eq_bigSepL [(0 : Fin 2), 1] (by decide) (by decide)
    (fun t : Fin 2 => (((c : Thread nD τ).loc cc0_scratch3) ↦[pairSet_scratch3 t]{fullShare} (![g0, g1] : Fin 2 → Buf (Elt F) ((c : Thread nD τ).loc cc0_scratch3)) t : sProp 𝕄))
  refine (Entails.of_eq h3.symm).trans (hj.trans ?_)
  rw [pair_union_scratch3]
  iintro ⟨%f, -, H⟩
  iexists f
  iexact H

/-! ## `cc0_scratch4` held slot by slot -/

/-- The elements of slot `i` of `cc0_scratch4`. -/
abbrev pairSet_scratch4 (i : Fin 2) : Finset S2x512x1024.Idx := (((Memref.whole cc0_scratch4 : Memref sig .tc .vmem S2x512x1024 .bf16).slice (Rect.unit (s := S2x512x1024) ![i.val, 0, 0] S1x512x1024.size (cvt_inb i)) (fun _ => rfl)).squeeze S512x1024 squeezes_S1x512x1024_S512x1024).view.set

theorem pairSet_scratch4_eq (i : Fin 2) : pairSet_scratch4 i = (cvtR i).set := by
  show (((View.whole cc0_scratch4).slice (cvtR i)).reshape S512x1024 squeezes_S1x512x1024_S512x1024.numel_eq).set = _
  rw [View.set_reshape, View.set_slice_whole]

theorem pairSet_scratch4_disjoint (i j : Fin 2) (h : i ≠ j) : Disjoint (pairSet_scratch4 i) (pairSet_scratch4 j) := by
  rw [pairSet_scratch4_eq, pairSet_scratch4_eq]
  exact cvt_disjoint i j h

theorem pair_union_scratch4 : (Finset.univ : Finset (Fin 2)).biUnion pairSet_scratch4 = Finset.univ := by
  ext x
  simp only [Finset.mem_biUnion, Finset.mem_univ, true_and, iff_true]
  exact ⟨⟨(x 0).val, (x 0).isLt⟩, by rw [pairSet_scratch4_eq]; exact pair_cover x⟩

/-- `cc0_scratch4`, whole, as its two slots. -/
theorem pair_split_scratch4 (c : Dev nD) (f : Buf (Elt F) ((c : Thread nD τ).loc cc0_scratch4)) :
    ((Memref.whole cc0_scratch4 : Memref sig .tc .vmem S2x512x1024 .bf16).view.loc (c : Thread nD τ) ↦[(Memref.whole cc0_scratch4 : Memref sig .tc .vmem S2x512x1024 .bf16).view.set]{fullShare} f : sProp 𝕄)
      ⊢ iprop(((((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch4 : Memref sig .tc .vmem S2x512x1024 .bf16).view.loc (c : Thread nD τ) ↦[(Memref.whole cc0_scratch4 : Memref sig .tc .vmem S2x512x1024 .bf16).view.set]{fullShare} f : sProp 𝕄)
      = (((c : Thread nD τ).loc cc0_scratch4) ↦{fullShare} f) := by
    show ((View.whole cc0_scratch4).loc (c : Thread nD τ) ↦[(View.whole cc0_scratch4).set]{fullShare} f : sProp 𝕄) = _
    rw [View.set_whole]
  have h2 := pointsTo_biUnion (U := UU) (Lvl := ℕ) (Name := ℕ) (Ix := Unit) (ℓ := (c : Thread nD τ).loc cc0_scratch4) (q := fullShare) (f := f)
    (Finset.univ : Finset (Fin 2)) pairSet_scratch4 (fun t _ t' _ h => pairSet_scratch4_disjoint t t' h)
  rw [pair_union_scratch4] at h2
  have h3 := bigSep_univ_eq_bigSepL [(0 : Fin 2), 1] (by decide) (by decide)
    (fun t : Fin 2 => (((c : Thread nD τ).loc cc0_scratch4) ↦[pairSet_scratch4 t]{fullShare} f : sProp 𝕄))
  exact Entails.of_eq (h1.trans (h2.trans h3))

/-- The two slots of `cc0_scratch4`, at whatever contents, are the buffer at some contents. -/
theorem pair_join_scratch4 (c : Dev nD) (g0 g1 : Buf (Elt F) ((c : Thread nD τ).loc cc0_scratch4)) :
    iprop(((((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch4), ((c : Thread nD τ).loc cc0_scratch4) ↦{fullShare} f) : sProp 𝕄) := by
  have hj := pointsTo_biUnion_join (U := UU) (Lvl := ℕ) (Name := ℕ) (Ix := Unit) (ℓ := (c : Thread nD τ).loc cc0_scratch4) (q := fullShare)
    (Finset.univ : Finset (Fin 2)) pairSet_scratch4 (fun t : Fin 2 => (![g0, g1] : Fin 2 → Buf (Elt F) ((c : Thread nD τ).loc cc0_scratch4)) t) g0
    (fun t _ t' _ h => pairSet_scratch4_disjoint t t' h)
  have h3 := bigSep_univ_eq_bigSepL [(0 : Fin 2), 1] (by decide) (by decide)
    (fun t : Fin 2 => (((c : Thread nD τ).loc cc0_scratch4) ↦[pairSet_scratch4 t]{fullShare} (![g0, g1] : Fin 2 → Buf (Elt F) ((c : Thread nD τ).loc cc0_scratch4)) t : sProp 𝕄))
  refine (Entails.of_eq h3.symm).trans (hj.trans ?_)
  rw [pair_union_scratch4]
  iintro ⟨%f, -, H⟩
  iexists f
  iexact H

/-! ## The result array in sixteen bands -/

/-- The elements of band `k` of the result array. -/
abbrev outSet (k : Fin 16) : Finset S8192x1024.Idx := ((Memref.whole main_v1_0 : Memref sig .tc .hbm S8192x1024 .bf16).slice (Rect.unit (s := S8192x1024) ![512 * k.val, 0] S512x1024.size (rows_inb k)) (fun _ => rfl)).view.set

theorem outSet_eq_band (k : Fin 16) : outSet k = band k :=
  (View.set_slice_whole main_v1_0 _).trans (band_eq k).symm

theorem outSet_disjoint (i j : Fin 16) (h : i ≠ j) : Disjoint (outSet i) (outSet j) := by
  rw [outSet_eq_band, outSet_eq_band]
  exact rows_disjoint i j h

theorem outSet_union : (Finset.univ : Finset (Fin 16)).biUnion outSet = Finset.univ := by
  ext x
  simp only [Finset.mem_biUnion, Finset.mem_univ, true_and, iff_true]
  exact ⟨⟨(x 0).val / 512, row_div_lt x⟩, by rw [outSet_eq_band]; exact rows_cover x⟩

/-- The whole result array, held band by band, each band spelt as the program spells it. -/
theorem bands_split_out (c : Dev nD) (f : Buf (Elt F) ((c : Thread nD τ).loc main_v1_0)) :
    ((Memref.whole main_v1_0 : Memref sig .tc .hbm S8192x1024 .bf16).view.loc (c : Thread nD τ) ↦[(Memref.whole main_v1_0 : Memref sig .tc .hbm S8192x1024 .bf16).view.set]{fullShare} f : sProp 𝕄)
      ⊢ iprop((((Memref.whole main_v1_0 : Memref sig .tc .hbm S8192x1024 .bf16).slice (Rect.unit (s := S8192x1024) ![0, 0] S512x1024.size inb_S8192x1024_S512x1024_0_0) (fun _ => rfl)).view.loc (c : Thread nD τ) ↦[((Memref.whole main_v1_0 : Memref sig .tc .hbm S8192x1024 .bf16).slice (Rect.unit (s := S8192x1024) ![0, 0] S512x1024.size inb_S8192x1024_S512x1024_0_0) (fun _ => rfl)).view.set]{fullShare} f)
        ∗ (((Memref.whole main_v1_0 : Memref sig .tc .hbm S8192x1024 .bf16).slice (Rect.unit (s := S8192x1024) ![512, 0] S512x1024.size inb_S8192x1024_S512x1024_512_0) (fun _ => rfl)).view.loc (c : Thread nD τ) ↦[((Memref.whole main_v1_0 : Memref sig .tc .hbm S8192x1024 .bf16).slice (Rect.unit (s := S8192x1024) ![512, 0] S512x1024.size inb_S8192x1024_S512x1024_512_0) (fun _ => rfl)).view.set]{fullShare} f)
        ∗ (((Memref.whole main_v1_0 : Memref sig .tc .hbm S8192x1024 .bf16).slice (Rect.unit (s := S8192x1024) ![1024, 0] S512x1024.size inb_S8192x1024_S512x1024_1024_0) (fun _ => rfl)).view.loc (c : Thread nD τ) ↦[((Memref.whole main_v1_0 : Memref sig .tc .hbm S8192x1024 .bf16).slice (Rect.unit (s := S8192x1024) ![1024, 0] S512x1024.size inb_S8192x1024_S512x1024_1024_0) (fun _ => rfl)).view.set]{fullShare} f)
        ∗ (((Memref.whole main_v1_0 : Memref sig .tc .hbm S8192x1024 .bf16).slice (Rect.unit (s := S8192x1024) ![1536, 0] S512x1024.size inb_S8192x1024_S512x1024_1536_0) (fun _ => rfl)).view.loc (c : Thread nD τ) ↦[((Memref.whole main_v1_0 : Memref sig .tc .hbm S8192x1024 .bf16).slice (Rect.unit (s := S8192x1024) ![1536, 0] S512x1024.size inb_S8192x1024_S512x1024_1536_0) (fun _ => rfl)).view.set]{fullShare} f)
        ∗ (((Memref.whole main_v1_0 : Memref sig .tc .hbm S8192x1024 .bf16).slice (Rect.unit (s := S8192x1024) ![2048, 0] S512x1024.size inb_S8192x1024_S512x1024_2048_0) (fun _ => rfl)).view.loc (c : Thread nD τ) ↦[((Memref.whole main_v1_0 : Memref sig .tc .hbm S8192x1024 .bf16).slice (Rect.unit (s := S8192x1024) ![2048, 0] S512x1024.size inb_S8192x1024_S512x1024_2048_0) (fun _ => rfl)).view.set]{fullShare} f)
        ∗ (((Memref.whole main_v1_0 : Memref sig .tc .hbm S8192x1024 .bf16).slice (Rect.unit (s := S8192x1024) ![2560, 0] S512x1024.size inb_S8192x1024_S512x1024_2560_0) (fun _ => rfl)).view.loc (c : Thread nD τ) ↦[((Memref.whole main_v1_0 : Memref sig .tc .hbm S8192x1024 .bf16).slice (Rect.unit (s := S8192x1024) ![2560, 0] S512x1024.size inb_S8192x1024_S512x1024_2560_0) (fun _ => rfl)).view.set]{fullShare} f)
        ∗ (((Memref.whole main_v1_0 : Memref sig .tc .hbm S8192x1024 .bf16).slice (Rect.unit (s := S8192x1024) ![3072, 0] S512x1024.size inb_S8192x1024_S512x1024_3072_0) (fun _ => rfl)).view.loc (c : Thread nD τ) ↦[((Memref.whole main_v1_0 : Memref sig .tc .hbm S8192x1024 .bf16).slice (Rect.unit (s := S8192x1024) ![3072, 0] S512x1024.size inb_S8192x1024_S512x1024_3072_0) (fun _ => rfl)).view.set]{fullShare} f)
        ∗ (((Memref.whole main_v1_0 : Memref sig .tc .hbm S8192x1024 .bf16).slice (Rect.unit (s := S8192x1024) ![3584, 0] S512x1024.size inb_S8192x1024_S512x1024_3584_0) (fun _ => rfl)).view.loc (c : Thread nD τ) ↦[((Memref.whole main_v1_0 : Memref sig .tc .hbm S8192x1024 .bf16).slice (Rect.unit (s := S8192x1024) ![3584, 0] S512x1024.size inb_S8192x1024_S512x1024_3584_0) (fun _ => rfl)).view.set]{fullShare} f)
        ∗ (((Memref.whole main_v1_0 : Memref sig .tc .hbm S8192x1024 .bf16).slice (Rect.unit (s := S8192x1024) ![4096, 0] S512x1024.size inb_S8192x1024_S512x1024_4096_0) (fun _ => rfl)).view.loc (c : Thread nD τ) ↦[((Memref.whole main_v1_0 : Memref sig .tc .hbm S8192x1024 .bf16).slice (Rect.unit (s := S8192x1024) ![4096, 0] S512x1024.size inb_S8192x1024_S512x1024_4096_0) (fun _ => rfl)).view.set]{fullShare} f)
        ∗ (((Memref.whole main_v1_0 : Memref sig .tc .hbm S8192x1024 .bf16).slice (Rect.unit (s := S8192x1024) ![4608, 0] S512x1024.size inb_S8192x1024_S512x1024_4608_0) (fun _ => rfl)).view.loc (c : Thread nD τ) ↦[((Memref.whole main_v1_0 : Memref sig .tc .hbm S8192x1024 .bf16).slice (Rect.unit (s := S8192x1024) ![4608, 0] S512x1024.size inb_S8192x1024_S512x1024_4608_0) (fun _ => rfl)).view.set]{fullShare} f)
        ∗ (((Memref.whole main_v1_0 : Memref sig .tc .hbm S8192x1024 .bf16).slice (Rect.unit (s := S8192x1024) ![5120, 0] S512x1024.size inb_S8192x1024_S512x1024_5120_0) (fun _ => rfl)).view.loc (c : Thread nD τ) ↦[((Memref.whole main_v1_0 : Memref sig .tc .hbm S8192x1024 .bf16).slice (Rect.unit (s := S8192x1024) ![5120, 0] S512x1024.size inb_S8192x1024_S512x1024_5120_0) (fun _ => rfl)).view.set]{fullShare} f)
        ∗ (((Memref.whole main_v1_0 : Memref sig .tc .hbm S8192x1024 .bf16).slice (Rect.unit (s := S8192x1024) ![5632, 0] S512x1024.size inb_S8192x1024_S512x1024_5632_0) (fun _ => rfl)).view.loc (c : Thread nD τ) ↦[((Memref.whole main_v1_0 : Memref sig .tc .hbm S8192x1024 .bf16).slice (Rect.unit (s := S8192x1024) ![5632, 0] S512x1024.size inb_S8192x1024_S512x1024_5632_0) (fun _ => rfl)).view.set]{fullShare} f)
        ∗ (((Memref.whole main_v1_0 : Memref sig .tc .hbm S8192x1024 .bf16).slice (Rect.unit (s := S8192x1024) ![6144, 0] S512x1024.size inb_S8192x1024_S512x1024_6144_0) (fun _ => rfl)).view.loc (c : Thread nD τ) ↦[((Memref.whole main_v1_0 : Memref sig .tc .hbm S8192x1024 .bf16).slice (Rect.unit (s := S8192x1024) ![6144, 0] S512x1024.size inb_S8192x1024_S512x1024_6144_0) (fun _ => rfl)).view.set]{fullShare} f)
        ∗ (((Memref.whole main_v1_0 : Memref sig .tc .hbm S8192x1024 .bf16).slice (Rect.unit (s := S8192x1024) ![6656, 0] S512x1024.size inb_S8192x1024_S512x1024_6656_0) (fun _ => rfl)).view.loc (c : Thread nD τ) ↦[((Memref.whole main_v1_0 : Memref sig .tc .hbm S8192x1024 .bf16).slice (Rect.unit (s := S8192x1024) ![6656, 0] S512x1024.size inb_S8192x1024_S512x1024_6656_0) (fun _ => rfl)).view.set]{fullShare} f)
        ∗ (((Memref.whole main_v1_0 : Memref sig .tc .hbm S8192x1024 .bf16).slice (Rect.unit (s := S8192x1024) ![7168, 0] S512x1024.size inb_S8192x1024_S512x1024_7168_0) (fun _ => rfl)).view.loc (c : Thread nD τ) ↦[((Memref.whole main_v1_0 : Memref sig .tc .hbm S8192x1024 .bf16).slice (Rect.unit (s := S8192x1024) ![7168, 0] S512x1024.size inb_S8192x1024_S512x1024_7168_0) (fun _ => rfl)).view.set]{fullShare} f)
        ∗ (((Memref.whole main_v1_0 : Memref sig .tc .hbm S8192x1024 .bf16).slice (Rect.unit (s := S8192x1024) ![7680, 0] S512x1024.size inb_S8192x1024_S512x1024_7680_0) (fun _ => rfl)).view.loc (c : Thread nD τ) ↦[((Memref.whole main_v1_0 : Memref sig .tc .hbm S8192x1024 .bf16).slice (Rect.unit (s := S8192x1024) ![7680, 0] S512x1024.size inb_S8192x1024_S512x1024_7680_0) (fun _ => rfl)).view.set]{fullShare} f)) := by
  have h1 : ((Memref.whole main_v1_0 : Memref sig .tc .hbm S8192x1024 .bf16).view.loc (c : Thread nD τ) ↦[(Memref.whole main_v1_0 : Memref sig .tc .hbm S8192x1024 .bf16).view.set]{fullShare} f : sProp 𝕄)
      = (((c : Thread nD τ).loc main_v1_0) ↦{fullShare} f) := by
    show ((View.whole main_v1_0).loc (c : Thread nD τ) ↦[(View.whole main_v1_0).set]{fullShare} f : sProp 𝕄) = _
    rw [View.set_whole]
  have h2 := pointsTo_biUnion (U := UU) (Lvl := ℕ) (Name := ℕ) (Ix := Unit) (ℓ := (c : Thread nD τ).loc main_v1_0) (q := fullShare) (f := f)
    (Finset.univ : Finset (Fin 16)) outSet (fun t _ t' _ h => outSet_disjoint t t' h)
  rw [outSet_union] at h2
  have h3 := bigSep_univ_eq_bigSepL [(0 : Fin 16), 1, 2, 3, 4, 5, 6, 7, 8, 9, 10, 11, 12, 13, 14, 15] (by decide) (by decide)
    (fun t : Fin 16 => (((c : Thread nD τ).loc main_v1_0) ↦[outSet t]{fullShare} f : sProp 𝕄))
  exact Entails.of_eq (h1.trans (h2.trans h3))

/-- The sixteen bands, each holding the result's closed form on its rows, are the whole result array at that form. -/
theorem bands_join_out (c : Dev nD) (g0 g1 g2 g3 g4 g5 g6 g7 g8 g9 g10 g11 g12 g13 g14 g15 : Buf (Elt F) ((c : Thread nD τ).loc main_v1_0))
    (h0 : ∀ i ∈ ((Memref.whole main_v1_0 : Memref sig .tc .hbm S8192x1024 .bf16).slice (Rect.unit (s := S8192x1024) ![0, 0] S512x1024.size inb_S8192x1024_S512x1024_0_0) (fun _ => rfl)).view.set, g0 i = outFull m c i)
    (h1 : ∀ i ∈ ((Memref.whole main_v1_0 : Memref sig .tc .hbm S8192x1024 .bf16).slice (Rect.unit (s := S8192x1024) ![512, 0] S512x1024.size inb_S8192x1024_S512x1024_512_0) (fun _ => rfl)).view.set, g1 i = outFull m c i)
    (h2 : ∀ i ∈ ((Memref.whole main_v1_0 : Memref sig .tc .hbm S8192x1024 .bf16).slice (Rect.unit (s := S8192x1024) ![1024, 0] S512x1024.size inb_S8192x1024_S512x1024_1024_0) (fun _ => rfl)).view.set, g2 i = outFull m c i)
    (h3 : ∀ i ∈ ((Memref.whole main_v1_0 : Memref sig .tc .hbm S8192x1024 .bf16).slice (Rect.unit (s := S8192x1024) ![1536, 0] S512x1024.size inb_S8192x1024_S512x1024_1536_0) (fun _ => rfl)).view.set, g3 i = outFull m c i)
    (h4 : ∀ i ∈ ((Memref.whole main_v1_0 : Memref sig .tc .hbm S8192x1024 .bf16).slice (Rect.unit (s := S8192x1024) ![2048, 0] S512x1024.size inb_S8192x1024_S512x1024_2048_0) (fun _ => rfl)).view.set, g4 i = outFull m c i)
    (h5 : ∀ i ∈ ((Memref.whole main_v1_0 : Memref sig .tc .hbm S8192x1024 .bf16).slice (Rect.unit (s := S8192x1024) ![2560, 0] S512x1024.size inb_S8192x1024_S512x1024_2560_0) (fun _ => rfl)).view.set, g5 i = outFull m c i)
    (h6 : ∀ i ∈ ((Memref.whole main_v1_0 : Memref sig .tc .hbm S8192x1024 .bf16).slice (Rect.unit (s := S8192x1024) ![3072, 0] S512x1024.size inb_S8192x1024_S512x1024_3072_0) (fun _ => rfl)).view.set, g6 i = outFull m c i)
    (h7 : ∀ i ∈ ((Memref.whole main_v1_0 : Memref sig .tc .hbm S8192x1024 .bf16).slice (Rect.unit (s := S8192x1024) ![3584, 0] S512x1024.size inb_S8192x1024_S512x1024_3584_0) (fun _ => rfl)).view.set, g7 i = outFull m c i)
    (h8 : ∀ i ∈ ((Memref.whole main_v1_0 : Memref sig .tc .hbm S8192x1024 .bf16).slice (Rect.unit (s := S8192x1024) ![4096, 0] S512x1024.size inb_S8192x1024_S512x1024_4096_0) (fun _ => rfl)).view.set, g8 i = outFull m c i)
    (h9 : ∀ i ∈ ((Memref.whole main_v1_0 : Memref sig .tc .hbm S8192x1024 .bf16).slice (Rect.unit (s := S8192x1024) ![4608, 0] S512x1024.size inb_S8192x1024_S512x1024_4608_0) (fun _ => rfl)).view.set, g9 i = outFull m c i)
    (h10 : ∀ i ∈ ((Memref.whole main_v1_0 : Memref sig .tc .hbm S8192x1024 .bf16).slice (Rect.unit (s := S8192x1024) ![5120, 0] S512x1024.size inb_S8192x1024_S512x1024_5120_0) (fun _ => rfl)).view.set, g10 i = outFull m c i)
    (h11 : ∀ i ∈ ((Memref.whole main_v1_0 : Memref sig .tc .hbm S8192x1024 .bf16).slice (Rect.unit (s := S8192x1024) ![5632, 0] S512x1024.size inb_S8192x1024_S512x1024_5632_0) (fun _ => rfl)).view.set, g11 i = outFull m c i)
    (h12 : ∀ i ∈ ((Memref.whole main_v1_0 : Memref sig .tc .hbm S8192x1024 .bf16).slice (Rect.unit (s := S8192x1024) ![6144, 0] S512x1024.size inb_S8192x1024_S512x1024_6144_0) (fun _ => rfl)).view.set, g12 i = outFull m c i)
    (h13 : ∀ i ∈ ((Memref.whole main_v1_0 : Memref sig .tc .hbm S8192x1024 .bf16).slice (Rect.unit (s := S8192x1024) ![6656, 0] S512x1024.size inb_S8192x1024_S512x1024_6656_0) (fun _ => rfl)).view.set, g13 i = outFull m c i)
    (h14 : ∀ i ∈ ((Memref.whole main_v1_0 : Memref sig .tc .hbm S8192x1024 .bf16).slice (Rect.unit (s := S8192x1024) ![7168, 0] S512x1024.size inb_S8192x1024_S512x1024_7168_0) (fun _ => rfl)).view.set, g14 i = outFull m c i)
    (h15 : ∀ i ∈ ((Memref.whole main_v1_0 : Memref sig .tc .hbm S8192x1024 .bf16).slice (Rect.unit (s := S8192x1024) ![7680, 0] S512x1024.size inb_S8192x1024_S512x1024_7680_0) (fun _ => rfl)).view.set, g15 i = outFull m c i) :
    iprop((((Memref.whole main_v1_0 : Memref sig .tc .hbm S8192x1024 .bf16).slice (Rect.unit (s := S8192x1024) ![0, 0] S512x1024.size inb_S8192x1024_S512x1024_0_0) (fun _ => rfl)).view.loc (c : Thread nD τ) ↦[((Memref.whole main_v1_0 : Memref sig .tc .hbm S8192x1024 .bf16).slice (Rect.unit (s := S8192x1024) ![0, 0] S512x1024.size inb_S8192x1024_S512x1024_0_0) (fun _ => rfl)).view.set]{fullShare} g0)
        ∗ (((Memref.whole main_v1_0 : Memref sig .tc .hbm S8192x1024 .bf16).slice (Rect.unit (s := S8192x1024) ![512, 0] S512x1024.size inb_S8192x1024_S512x1024_512_0) (fun _ => rfl)).view.loc (c : Thread nD τ) ↦[((Memref.whole main_v1_0 : Memref sig .tc .hbm S8192x1024 .bf16).slice (Rect.unit (s := S8192x1024) ![512, 0] S512x1024.size inb_S8192x1024_S512x1024_512_0) (fun _ => rfl)).view.set]{fullShare} g1)
        ∗ (((Memref.whole main_v1_0 : Memref sig .tc .hbm S8192x1024 .bf16).slice (Rect.unit (s := S8192x1024) ![1024, 0] S512x1024.size inb_S8192x1024_S512x1024_1024_0) (fun _ => rfl)).view.loc (c : Thread nD τ) ↦[((Memref.whole main_v1_0 : Memref sig .tc .hbm S8192x1024 .bf16).slice (Rect.unit (s := S8192x1024) ![1024, 0] S512x1024.size inb_S8192x1024_S512x1024_1024_0) (fun _ => rfl)).view.set]{fullShare} g2)
        ∗ (((Memref.whole main_v1_0 : Memref sig .tc .hbm S8192x1024 .bf16).slice (Rect.unit (s := S8192x1024) ![1536, 0] S512x1024.size inb_S8192x1024_S512x1024_1536_0) (fun _ => rfl)).view.loc (c : Thread nD τ) ↦[((Memref.whole main_v1_0 : Memref sig .tc .hbm S8192x1024 .bf16).slice (Rect.unit (s := S8192x1024) ![1536, 0] S512x1024.size inb_S8192x1024_S512x1024_1536_0) (fun _ => rfl)).view.set]{fullShare} g3)
        ∗ (((Memref.whole main_v1_0 : Memref sig .tc .hbm S8192x1024 .bf16).slice (Rect.unit (s := S8192x1024) ![2048, 0] S512x1024.size inb_S8192x1024_S512x1024_2048_0) (fun _ => rfl)).view.loc (c : Thread nD τ) ↦[((Memref.whole main_v1_0 : Memref sig .tc .hbm S8192x1024 .bf16).slice (Rect.unit (s := S8192x1024) ![2048, 0] S512x1024.size inb_S8192x1024_S512x1024_2048_0) (fun _ => rfl)).view.set]{fullShare} g4)
        ∗ (((Memref.whole main_v1_0 : Memref sig .tc .hbm S8192x1024 .bf16).slice (Rect.unit (s := S8192x1024) ![2560, 0] S512x1024.size inb_S8192x1024_S512x1024_2560_0) (fun _ => rfl)).view.loc (c : Thread nD τ) ↦[((Memref.whole main_v1_0 : Memref sig .tc .hbm S8192x1024 .bf16).slice (Rect.unit (s := S8192x1024) ![2560, 0] S512x1024.size inb_S8192x1024_S512x1024_2560_0) (fun _ => rfl)).view.set]{fullShare} g5)
        ∗ (((Memref.whole main_v1_0 : Memref sig .tc .hbm S8192x1024 .bf16).slice (Rect.unit (s := S8192x1024) ![3072, 0] S512x1024.size inb_S8192x1024_S512x1024_3072_0) (fun _ => rfl)).view.loc (c : Thread nD τ) ↦[((Memref.whole main_v1_0 : Memref sig .tc .hbm S8192x1024 .bf16).slice (Rect.unit (s := S8192x1024) ![3072, 0] S512x1024.size inb_S8192x1024_S512x1024_3072_0) (fun _ => rfl)).view.set]{fullShare} g6)
        ∗ (((Memref.whole main_v1_0 : Memref sig .tc .hbm S8192x1024 .bf16).slice (Rect.unit (s := S8192x1024) ![3584, 0] S512x1024.size inb_S8192x1024_S512x1024_3584_0) (fun _ => rfl)).view.loc (c : Thread nD τ) ↦[((Memref.whole main_v1_0 : Memref sig .tc .hbm S8192x1024 .bf16).slice (Rect.unit (s := S8192x1024) ![3584, 0] S512x1024.size inb_S8192x1024_S512x1024_3584_0) (fun _ => rfl)).view.set]{fullShare} g7)
        ∗ (((Memref.whole main_v1_0 : Memref sig .tc .hbm S8192x1024 .bf16).slice (Rect.unit (s := S8192x1024) ![4096, 0] S512x1024.size inb_S8192x1024_S512x1024_4096_0) (fun _ => rfl)).view.loc (c : Thread nD τ) ↦[((Memref.whole main_v1_0 : Memref sig .tc .hbm S8192x1024 .bf16).slice (Rect.unit (s := S8192x1024) ![4096, 0] S512x1024.size inb_S8192x1024_S512x1024_4096_0) (fun _ => rfl)).view.set]{fullShare} g8)
        ∗ (((Memref.whole main_v1_0 : Memref sig .tc .hbm S8192x1024 .bf16).slice (Rect.unit (s := S8192x1024) ![4608, 0] S512x1024.size inb_S8192x1024_S512x1024_4608_0) (fun _ => rfl)).view.loc (c : Thread nD τ) ↦[((Memref.whole main_v1_0 : Memref sig .tc .hbm S8192x1024 .bf16).slice (Rect.unit (s := S8192x1024) ![4608, 0] S512x1024.size inb_S8192x1024_S512x1024_4608_0) (fun _ => rfl)).view.set]{fullShare} g9)
        ∗ (((Memref.whole main_v1_0 : Memref sig .tc .hbm S8192x1024 .bf16).slice (Rect.unit (s := S8192x1024) ![5120, 0] S512x1024.size inb_S8192x1024_S512x1024_5120_0) (fun _ => rfl)).view.loc (c : Thread nD τ) ↦[((Memref.whole main_v1_0 : Memref sig .tc .hbm S8192x1024 .bf16).slice (Rect.unit (s := S8192x1024) ![5120, 0] S512x1024.size inb_S8192x1024_S512x1024_5120_0) (fun _ => rfl)).view.set]{fullShare} g10)
        ∗ (((Memref.whole main_v1_0 : Memref sig .tc .hbm S8192x1024 .bf16).slice (Rect.unit (s := S8192x1024) ![5632, 0] S512x1024.size inb_S8192x1024_S512x1024_5632_0) (fun _ => rfl)).view.loc (c : Thread nD τ) ↦[((Memref.whole main_v1_0 : Memref sig .tc .hbm S8192x1024 .bf16).slice (Rect.unit (s := S8192x1024) ![5632, 0] S512x1024.size inb_S8192x1024_S512x1024_5632_0) (fun _ => rfl)).view.set]{fullShare} g11)
        ∗ (((Memref.whole main_v1_0 : Memref sig .tc .hbm S8192x1024 .bf16).slice (Rect.unit (s := S8192x1024) ![6144, 0] S512x1024.size inb_S8192x1024_S512x1024_6144_0) (fun _ => rfl)).view.loc (c : Thread nD τ) ↦[((Memref.whole main_v1_0 : Memref sig .tc .hbm S8192x1024 .bf16).slice (Rect.unit (s := S8192x1024) ![6144, 0] S512x1024.size inb_S8192x1024_S512x1024_6144_0) (fun _ => rfl)).view.set]{fullShare} g12)
        ∗ (((Memref.whole main_v1_0 : Memref sig .tc .hbm S8192x1024 .bf16).slice (Rect.unit (s := S8192x1024) ![6656, 0] S512x1024.size inb_S8192x1024_S512x1024_6656_0) (fun _ => rfl)).view.loc (c : Thread nD τ) ↦[((Memref.whole main_v1_0 : Memref sig .tc .hbm S8192x1024 .bf16).slice (Rect.unit (s := S8192x1024) ![6656, 0] S512x1024.size inb_S8192x1024_S512x1024_6656_0) (fun _ => rfl)).view.set]{fullShare} g13)
        ∗ (((Memref.whole main_v1_0 : Memref sig .tc .hbm S8192x1024 .bf16).slice (Rect.unit (s := S8192x1024) ![7168, 0] S512x1024.size inb_S8192x1024_S512x1024_7168_0) (fun _ => rfl)).view.loc (c : Thread nD τ) ↦[((Memref.whole main_v1_0 : Memref sig .tc .hbm S8192x1024 .bf16).slice (Rect.unit (s := S8192x1024) ![7168, 0] S512x1024.size inb_S8192x1024_S512x1024_7168_0) (fun _ => rfl)).view.set]{fullShare} g14)
        ∗ (((Memref.whole main_v1_0 : Memref sig .tc .hbm S8192x1024 .bf16).slice (Rect.unit (s := S8192x1024) ![7680, 0] S512x1024.size inb_S8192x1024_S512x1024_7680_0) (fun _ => rfl)).view.loc (c : Thread nD τ) ↦[((Memref.whole main_v1_0 : Memref sig .tc .hbm S8192x1024 .bf16).slice (Rect.unit (s := S8192x1024) ![7680, 0] S512x1024.size inb_S8192x1024_S512x1024_7680_0) (fun _ => rfl)).view.set]{fullShare} g15))
      ⊢ ((((c : Thread nD τ).loc main_v1_0) ↦{fullShare} outFull m c) : sProp 𝕄) := by
  rw [pointsTo_congr (ℓ := ((Memref.whole main_v1_0 : Memref sig .tc .hbm S8192x1024 .bf16).slice (Rect.unit (s := S8192x1024) ![0, 0] S512x1024.size inb_S8192x1024_S512x1024_0_0) (fun _ => rfl)).view.loc (c : Thread nD τ)) (q := fullShare) h0,
    pointsTo_congr (ℓ := ((Memref.whole main_v1_0 : Memref sig .tc .hbm S8192x1024 .bf16).slice (Rect.unit (s := S8192x1024) ![512, 0] S512x1024.size inb_S8192x1024_S512x1024_512_0) (fun _ => rfl)).view.loc (c : Thread nD τ)) (q := fullShare) h1,
    pointsTo_congr (ℓ := ((Memref.whole main_v1_0 : Memref sig .tc .hbm S8192x1024 .bf16).slice (Rect.unit (s := S8192x1024) ![1024, 0] S512x1024.size inb_S8192x1024_S512x1024_1024_0) (fun _ => rfl)).view.loc (c : Thread nD τ)) (q := fullShare) h2,
    pointsTo_congr (ℓ := ((Memref.whole main_v1_0 : Memref sig .tc .hbm S8192x1024 .bf16).slice (Rect.unit (s := S8192x1024) ![1536, 0] S512x1024.size inb_S8192x1024_S512x1024_1536_0) (fun _ => rfl)).view.loc (c : Thread nD τ)) (q := fullShare) h3,
    pointsTo_congr (ℓ := ((Memref.whole main_v1_0 : Memref sig .tc .hbm S8192x1024 .bf16).slice (Rect.unit (s := S8192x1024) ![2048, 0] S512x1024.size inb_S8192x1024_S512x1024_2048_0) (fun _ => rfl)).view.loc (c : Thread nD τ)) (q := fullShare) h4,
    pointsTo_congr (ℓ := ((Memref.whole main_v1_0 : Memref sig .tc .hbm S8192x1024 .bf16).slice (Rect.unit (s := S8192x1024) ![2560, 0] S512x1024.size inb_S8192x1024_S512x1024_2560_0) (fun _ => rfl)).view.loc (c : Thread nD τ)) (q := fullShare) h5,
    pointsTo_congr (ℓ := ((Memref.whole main_v1_0 : Memref sig .tc .hbm S8192x1024 .bf16).slice (Rect.unit (s := S8192x1024) ![3072, 0] S512x1024.size inb_S8192x1024_S512x1024_3072_0) (fun _ => rfl)).view.loc (c : Thread nD τ)) (q := fullShare) h6,
    pointsTo_congr (ℓ := ((Memref.whole main_v1_0 : Memref sig .tc .hbm S8192x1024 .bf16).slice (Rect.unit (s := S8192x1024) ![3584, 0] S512x1024.size inb_S8192x1024_S512x1024_3584_0) (fun _ => rfl)).view.loc (c : Thread nD τ)) (q := fullShare) h7,
    pointsTo_congr (ℓ := ((Memref.whole main_v1_0 : Memref sig .tc .hbm S8192x1024 .bf16).slice (Rect.unit (s := S8192x1024) ![4096, 0] S512x1024.size inb_S8192x1024_S512x1024_4096_0) (fun _ => rfl)).view.loc (c : Thread nD τ)) (q := fullShare) h8,
    pointsTo_congr (ℓ := ((Memref.whole main_v1_0 : Memref sig .tc .hbm S8192x1024 .bf16).slice (Rect.unit (s := S8192x1024) ![4608, 0] S512x1024.size inb_S8192x1024_S512x1024_4608_0) (fun _ => rfl)).view.loc (c : Thread nD τ)) (q := fullShare) h9,
    pointsTo_congr (ℓ := ((Memref.whole main_v1_0 : Memref sig .tc .hbm S8192x1024 .bf16).slice (Rect.unit (s := S8192x1024) ![5120, 0] S512x1024.size inb_S8192x1024_S512x1024_5120_0) (fun _ => rfl)).view.loc (c : Thread nD τ)) (q := fullShare) h10,
    pointsTo_congr (ℓ := ((Memref.whole main_v1_0 : Memref sig .tc .hbm S8192x1024 .bf16).slice (Rect.unit (s := S8192x1024) ![5632, 0] S512x1024.size inb_S8192x1024_S512x1024_5632_0) (fun _ => rfl)).view.loc (c : Thread nD τ)) (q := fullShare) h11,
    pointsTo_congr (ℓ := ((Memref.whole main_v1_0 : Memref sig .tc .hbm S8192x1024 .bf16).slice (Rect.unit (s := S8192x1024) ![6144, 0] S512x1024.size inb_S8192x1024_S512x1024_6144_0) (fun _ => rfl)).view.loc (c : Thread nD τ)) (q := fullShare) h12,
    pointsTo_congr (ℓ := ((Memref.whole main_v1_0 : Memref sig .tc .hbm S8192x1024 .bf16).slice (Rect.unit (s := S8192x1024) ![6656, 0] S512x1024.size inb_S8192x1024_S512x1024_6656_0) (fun _ => rfl)).view.loc (c : Thread nD τ)) (q := fullShare) h13,
    pointsTo_congr (ℓ := ((Memref.whole main_v1_0 : Memref sig .tc .hbm S8192x1024 .bf16).slice (Rect.unit (s := S8192x1024) ![7168, 0] S512x1024.size inb_S8192x1024_S512x1024_7168_0) (fun _ => rfl)).view.loc (c : Thread nD τ)) (q := fullShare) h14,
    pointsTo_congr (ℓ := ((Memref.whole main_v1_0 : Memref sig .tc .hbm S8192x1024 .bf16).slice (Rect.unit (s := S8192x1024) ![7680, 0] S512x1024.size inb_S8192x1024_S512x1024_7680_0) (fun _ => rfl)).view.loc (c : Thread nD τ)) (q := fullShare) h15]
  have h2 := pointsTo_biUnion (U := UU) (Lvl := ℕ) (Name := ℕ) (Ix := Unit) (ℓ := (c : Thread nD τ).loc main_v1_0) (q := fullShare) (f := outFull m c)
    (Finset.univ : Finset (Fin 16)) outSet (fun t _ t' _ h => outSet_disjoint t t' h)
  rw [outSet_union] at h2
  have h3 := bigSep_univ_eq_bigSepL [(0 : Fin 16), 1, 2, 3, 4, 5, 6, 7, 8, 9, 10, 11, 12, 13, 14, 15] (by decide) (by decide)
    (fun t : Fin 16 => (((c : Thread nD τ).loc main_v1_0) ↦[outSet t]{fullShare} outFull m c : sProp 𝕄))
  exact Entails.of_eq (h2.trans h3).symm

/-- info: 'Cert.KernelIdeal.RS.pair_split_scratch0' depends on axioms: [propext, Classical.choice, Quot.sound] -/
#guard_msgs in #print axioms pair_split_scratch0

/-- info: 'Cert.KernelIdeal.RS.pair_join_scratch4' depends on axioms: [propext, Classical.choice, Quot.sound] -/
#guard_msgs in #print axioms pair_join_scratch4

/-- info: 'Cert.KernelIdeal.RS.bands_split_out' depends on axioms: [propext, Classical.choice, Quot.sound] -/
#guard_msgs in #print axioms bands_split_out

/-- info: 'Cert.KernelIdeal.RS.bands_join_out' depends on axioms: [propext, Classical.choice, Quot.sound] -/
#guard_msgs in #print axioms bands_join_out

end Cert.KernelIdeal.RS

end
-- ==== Proof.KernelIdealListed.lean ====
import proofs.«901042_g7700000000001043_dist_rs_v7x_xyz2x4x4_x_m8192_n1024_bf16_1_alg».proof.Proof.KernelIdealChunk
import Idealize.ShloMosaic.Lib.Exec.Geometry

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A conversion slot held on its own, filled by a listed whole-slot write -/

section Generic
variable {sg : RefSig} {κ : Kind} {sp : Space} {e : EltTy} {Val : EltTy → Type}

/-- A block whose 512 × 1024 view was last filled whole, read through the block itself at (u, a, b): the filling's entry (a, b), whatever was written before. -/
theorem read_listed_squeezed (u : View sg κ sp S1x512x1024 e) (h : S512x1024.numel = S1x512x1024.numel) (g : u.ty.Contents Val)
    (L : List (View.Piece Val S512x1024 e)) (d : S512x1024.Idx → Val e) (u0 : Fin 1) (a : Fin 512) (b : Fin 1024) :
    u.read Val ((u.reshape S512x1024 h).writes Val g (⟨Rect.whole S512x1024, d⟩ :: L)) (ix3 u0 a b) = d (ix2 a b) := by
  rw [← View.write_univ_eq_writes_whole]
  exact read_write_squeezed u h _ d u0 a b

end Generic

/-- A load of conversion slot `i` through the whole buffer, the slot last filled whole by a transfer: the transfer's values. -/
theorem cvt_load_listed (i : Fin 2) (h : S512x1024.numel = S1x512x1024.numel) (g : Buf (Elt F) (((0 : Dev nD) : Thread nD τ).loc cc0_scratch0))
    (L : List (View.Piece (Elt F) S512x1024 .f32)) (d : S512x1024.Idx → F .f32) (u0 : Fin 1) (a : Fin 512) (b : Fin 1024) :
    View.readAt (Elt F) (Memref.whole cc0_scratch0).view (cvtR i).toLoadRect
        ((((Memref.whole cc0_scratch0).view.slice (cvtR i)).reshape S512x1024 h).writes (Elt F) g (⟨Rect.whole S512x1024, d⟩ :: L)) (ix3 u0 a b)
      = d (ix2 a b) :=
  read_listed_squeezed ((Memref.whole cc0_scratch0).view.slice (cvtR i)) h g L d u0 a b

/-- info: 'Cert.KernelIdeal.RS.cvt_load_listed' depends on axioms: [propext, Classical.choice, Quot.sound] -/
#guard_msgs in #print axioms cvt_load_listed

end Cert.KernelIdeal.RS

end
-- ==== Proof.KernelIdealOut.lean ====
import proofs.«901042_g7700000000001043_dist_rs_v7x_xyz2x4x4_x_m8192_n1024_bf16_1_alg».proof.Proof.KernelIdealChunk

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The result array in sixteen bands of 512 rows -/

/-- Band `k` of the result array: rows `512 k …`, all columns. -/
abbrev outM (k : Fin 16) : Memref sig .tc .hbm S512x1024 .bf16 :=
  (Memref.whole main_v1_0).slice (Rect.unit (s := S8192x1024) ![512 * k.val, 0] S512x1024.size (rows_inb k)) (fun _ => rfl)

theorem outBand_eq (k : Fin 16) :
    (outM k).view.set = (Rect.unit (s := S8192x1024) ![512 * k.val, 0] S512x1024.size (rows_inb k)).set :=
  View.set_slice_whole main_v1_0 _

/-- Two different bands share no row. -/
theorem out_disjoint (i j : Fin 16) (h : i ≠ j) : Disjoint (outM i).view.set (outM j).view.set := by
  rw [outBand_eq, outBand_eq]
  refine Rect.unit_disjoint (0 : Fin 2) ?_
  show 512 * i.val + 512 ≤ 512 * j.val ∨ 512 * j.val + 512 ≤ 512 * i.val
  have : i.val ≠ j.val := fun e => h (Fin.ext e)
  omega

/-- Every element of the result array is an element of the band of its row. -/
theorem out_cover (i : S8192x1024.Idx) : ∃ (k : Fin 16) (y : S512x1024.Idx), (outM k).view.emb y = i := by
  have h0 : (i 0).val < 8192 := (i 0).isLt
  have h1 : (i 1).val < 1024 := (i 1).isLt
  refine ⟨⟨(i 0).val / 512, by omega⟩, ix2 (⟨(i 0).val - 512 * ((i 0).val / 512), by omega⟩ : Fin 512) (⟨(i 1).val, h1⟩ : Fin 1024), ?_⟩
  funext d
  refine Fin.ext ?_
  match d with
  | ⟨0, _⟩ =>
    show 512 * ((i 0).val / 512) + 1 * ((i 0).val - 512 * ((i 0).val / 512)) = (i 0).val
    omega
  | ⟨1, _⟩ =>
    show 0 + 1 * (i 1).val = (i 1).val
    omega

/-! ## What the result array is to hold, band by band -/

/-- Band `k` of device `c`'s result: rows `512 k …` of its own slab plus what it received there, on its half of the columns, rounded. -/
def outChunk (c : Dev nD) (k : Fin 16) : S512x1024.Idx → F .bf16 := fun y =>
  outFull m c (ix2 (⟨512 * k.val + (y 0).val, chunk_row_lt k y⟩ : Fin 8192) (⟨(y 1).val, (y 1).isLt⟩ : Fin 1024))

/-- Entry `y` of band `k`, spelt out. -/
theorem outChunk_apply (c : Dev nD) (k : Fin 16) (y : S512x1024.Idx) :
    outChunk m c k y
      = tr (FloatOps.addf (xarr m c (ix3 (⟨0, by decide⟩ : Fin 1) (⟨512 * k.val + (y 0).val, chunk_row_lt k y⟩ : Fin 8192) (⟨col c + (y 1).val, chunk_col_lt c y⟩ : Fin 2048)))
          (ex (recvFull m c (ix2 (⟨512 * k.val + (y 0).val, chunk_row_lt k y⟩ : Fin 8192) (⟨(y 1).val, (y 1).isLt⟩ : Fin 1024))))) := rfl

/-- The same at row `a` and column `b` of the band. -/
theorem outChunk_ix2 (c : Dev nD) (k : Fin 16) (a : Fin 512) (b : Fin 1024) :
    outChunk m c k (ix2 a b)
      = tr (FloatOps.addf (xarr m c (ix3 (⟨0, by decide⟩ : Fin 1) (⟨512 * k.val + a.val, chunk_row_lt k (ix2 a b)⟩ : Fin 8192) (⟨col c + b.val, chunk_col_lt c (ix2 a b)⟩ : Fin 2048)))
          (ex (recvFull m c (ix2 (⟨512 * k.val + a.val, chunk_row_lt k (ix2 a b)⟩ : Fin 8192) (⟨b.val, b.isLt⟩ : Fin 1024))))) := rfl

/-- Band `k`'s contents are the result's at the band's elements. -/
theorem outChunk_emb (c : Dev nD) (k : Fin 16) (y : S512x1024.Idx) : outChunk m c k y = outFull m c ((outM k).view.emb y) := by
  unfold outChunk
  refine congrArg (outFull m c) (funext fun d => Fin.ext ?_)
  match d with
  | ⟨0, _⟩ =>
    show 512 * k.val + (y 0).val = 512 * k.val + 1 * (y 0).val
    omega
  | ⟨1, _⟩ =>
    show (y 1).val = 0 + 1 * (y 1).val
    omega

/-! ## Sixteen writes, one a band -/

/-- The array after the bands listed in `l` were written over `f`, the head of the list last, band `k` with `P k`. -/
def bandWrites (c : Dev nD) (f : Buf (Elt F) ((c : Thread nD τ).loc main_v1_0)) (P : Fin 16 → S512x1024.Idx → F .bf16) :
    List (Fin 16) → Buf (Elt F) ((c : Thread nD τ).loc main_v1_0)
  | [] => f
  | k :: l => (outM k).view.write (Elt F) (bandWrites c f P l) (P k) Finset.univ

/-- At an element of a band that was written once, the array holds that band's payload: the later writes go to other bands. -/
theorem bandWrites_at (c : Dev nD) (f : Buf (Elt F) ((c : Thread nD τ).loc main_v1_0)) (P : Fin 16 → S512x1024.Idx → F .bf16) :
    ∀ l : List (Fin 16), l.Nodup → ∀ k ∈ l, ∀ y : S512x1024.Idx, bandWrites c f P l ((outM k).view.emb y) = P k y := by
  intro l
  induction l with
  | nil => intro _ k hk; exact absurd hk (List.not_mem_nil)
  | cons j l ih =>
    intro hnd k hk y
    rw [List.nodup_cons] at hnd
    show (outM j).view.write (Elt F) (bandWrites c f P l) (P j) Finset.univ ((outM k).view.emb y) = P k y
    rcases List.mem_cons.mp hk with hkj | hk'
    · subst hkj
      rw [View.write_emb_of_mem _ _ (Finset.mem_univ y)]
      rfl
    · have hne : k ≠ j := fun e => hnd.1 (e ▸ hk')
      rw [View.write_of_not_mem _ _ _ (by
        rw [View.setOn_univ]
        exact fun hmem => Finset.disjoint_left.mp (out_disjoint k j hne) (View.emb_mem_set _ y) hmem)]
      exact ih hnd.2 k hk' y

/-- THE RESULT ARRAY: the launch contents written over band by band, band `k` with the result's band `k`, is the result. -/
theorem out_nested (c : Dev nD) (f : Buf (Elt F) ((c : Thread nD τ).loc main_v1_0))
    (p0 p1 p2 p3 p4 p5 p6 p7 p8 p9 p10 p11 p12 p13 p14 p15 : S512x1024.Idx → F .bf16)
    (h0 : p0 = outChunk m c 0) (h1 : p1 = outChunk m c 1) (h2 : p2 = outChunk m c 2) (h3 : p3 = outChunk m c 3) (h4 : p4 = outChunk m c 4) (h5 : p5 = outChunk m c 5) (h6 : p6 = outChunk m c 6) (h7 : p7 = outChunk m c 7) (h8 : p8 = outChunk m c 8) (h9 : p9 = outChunk m c 9) (h10 : p10 = outChunk m c 10) (h11 : p11 = outChunk m c 11) (h12 : p12 = outChunk m c 12) (h13 : p13 = outChunk m c 13) (h14 : p14 = outChunk m c 14) (h15 : p15 = outChunk m c 15) :
    ((((Memref.whole main_v1_0 : Memref sig .tc .hbm S8192x1024 .bf16).slice (Rect.unit (s := S8192x1024) ![7680, 0] S512x1024.size inb_S8192x1024_S512x1024_7680_0) (fun _ => rfl)).view.write (Elt F) (((Memref.whole main_v1_0 : Memref sig .tc .hbm S8192x1024 .bf16).slice (Rect.unit (s := S8192x1024) ![7168, 0] S512x1024.size inb_S8192x1024_S512x1024_7168_0) (fun _ => rfl)).view.write (Elt F) (((Memref.whole main_v1_0 : Memref sig .tc .hbm S8192x1024 .bf16).slice (Rect.unit (s := S8192x1024) ![6656, 0] S512x1024.size inb_S8192x1024_S512x1024_6656_0) (fun _ => rfl)).view.write (Elt F) (((Memref.whole main_v1_0 : Memref sig .tc .hbm S8192x1024 .bf16).slice (Rect.unit (s := S8192x1024) ![6144, 0] S512x1024.size inb_S8192x1024_S512x1024_6144_0) (fun _ => rfl)).view.write (Elt F) (((Memref.whole main_v1_0 : Memref sig .tc .hbm S8192x1024 .bf16).slice (Rect.unit (s := S8192x1024) ![5632, 0] S512x1024.size inb_S8192x1024_S512x1024_5632_0) (fun _ => rfl)).view.write (Elt F) (((Memref.whole main_v1_0 : Memref sig .tc .hbm S8192x1024 .bf16).slice (Rect.unit (s := S8192x1024) ![5120, 0] S512x1024.size inb_S8192x1024_S512x1024_5120_0) (fun _ => rfl)).view.write (Elt F) (((Memref.whole main_v1_0 : Memref sig .tc .hbm S8192x1024 .bf16).slice (Rect.unit (s := S8192x1024) ![4608, 0] S512x1024.size inb_S8192x1024_S512x1024_4608_0) (fun _ => rfl)).view.write (Elt F) (((Memref.whole main_v1_0 : Memref sig .tc .hbm S8192x1024 .bf16).slice (Rect.unit (s := S8192x1024) ![4096, 0] S512x1024.size inb_S8192x1024_S512x1024_4096_0) (fun _ => rfl)).view.write (Elt F) (((Memref.whole main_v1_0 : Memref sig .tc .hbm S8192x1024 .bf16).slice (Rect.unit (s := S8192x1024) ![3584, 0] S512x1024.size inb_S8192x1024_S512x1024_3584_0) (fun _ => rfl)).view.write (Elt F) (((Memref.whole main_v1_0 : Memref sig .tc .hbm S8192x1024 .bf16).slice (Rect.unit (s := S8192x1024) ![3072, 0] S512x1024.size inb_S8192x1024_S512x1024_3072_0) (fun _ => rfl)).view.write (Elt F) (((Memref.whole main_v1_0 : Memref sig .tc .hbm S8192x1024 .bf16).slice (Rect.unit (s := S8192x1024) ![2560, 0] S512x1024.size inb_S8192x1024_S512x1024_2560_0) (fun _ => rfl)).view.write (Elt F) (((Memref.whole main_v1_0 : Memref sig .tc .hbm S8192x1024 .bf16).slice (Rect.unit (s := S8192x1024) ![2048, 0] S512x1024.size inb_S8192x1024_S512x1024_2048_0) (fun _ => rfl)).view.write (Elt F) (((Memref.whole main_v1_0 : Memref sig .tc .hbm S8192x1024 .bf16).slice (Rect.unit (s := S8192x1024) ![1536, 0] S512x1024.size inb_S8192x1024_S512x1024_1536_0) (fun _ => rfl)).view.write (Elt F) (((Memref.whole main_v1_0 : Memref sig .tc .hbm S8192x1024 .bf16).slice (Rect.unit (s := S8192x1024) ![1024, 0] S512x1024.size inb_S8192x1024_S512x1024_1024_0) (fun _ => rfl)).view.write (Elt F) (((Memref.whole main_v1_0 : Memref sig .tc .hbm S8192x1024 .bf16).slice (Rect.unit (s := S8192x1024) ![512, 0] S512x1024.size inb_S8192x1024_S512x1024_512_0) (fun _ => rfl)).view.write (Elt F) (((Memref.whole main_v1_0 : Memref sig .tc .hbm S8192x1024 .bf16).slice (Rect.unit (s := S8192x1024) ![0, 0] S512x1024.size inb_S8192x1024_S512x1024_0_0) (fun _ => rfl)).view.write (Elt F) f p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) : Buf (Elt F) ((c : Thread nD τ).loc main_v1_0)) = outFull m c := by
  subst h0 h1 h2 h3 h4 h5 h6 h7 h8 h9 h10 h11 h12 h13 h14 h15
  show bandWrites c f (outChunk m c) [15, 14, 13, 12, 11, 10, 9, 8, 7, 6, 5, 4, 3, 2, 1, 0] = outFull m c
  funext i
  obtain ⟨k, y, rfl⟩ := out_cover i
  rw [bandWrites_at c f (outChunk m c) [15, 14, 13, 12, 11, 10, 9, 8, 7, 6, 5, 4, 3, 2, 1, 0] (by decide) k ((by decide : ∀ k : Fin 16, k ∈ ([15, 14, 13, 12, 11, 10, 9, 8, 7, 6, 5, 4, 3, 2, 1, 0] : List (Fin 16))) k) y]
  exact outChunk_emb m c k y

end Cert.KernelIdeal.RS

end
-- ==== Proof.KernelIdealOutChunk.lean ====
import proofs.«901042_g7700000000001043_dist_rs_v7x_xyz2x4x4_x_m8192_n1024_bf16_1_alg».proof.Proof.KernelIdealOut

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The value a band's write-back carries: the own rows plus the received rows, rounded -/

/-- The stored block — the own block and the received block each seen as 512 × 1024, the received one widened, added, narrowed, seen as
    1 × 512 × 1024 again — holds band `k` of the result, when the own block holds rows `512 k …` of the slab on the device's own half of the
    columns and the received block band `k` of what the device received. -/
theorem out_payload (c : Dev nD) (k : Fin 16) (vmy : Vec F S1x512x1024 .f32) (vrb : Vec F S1x512x1024 .bf16)
    (hmy : ∀ (a : Fin 512) (b : Fin 1024), vmy (ix3 (⟨0, by decide⟩ : Fin 1) a b)
      = xarr m c (ix3 (⟨0, by decide⟩ : Fin 1) (⟨512 * k.val + a.val, chunk_row_lt k (ix2 a b)⟩ : Fin 8192) (⟨col c + b.val, chunk_col_lt c (ix2 a b)⟩ : Fin 2048)))
    (hrb : ∀ (a : Fin 512) (b : Fin 1024), vrb (ix3 (⟨0, by decide⟩ : Fin 1) a b)
      = recvFull m c (ix2 (⟨512 * k.val + a.val, chunk_row_lt k (ix2 a b)⟩ : Fin 8192) (⟨b.val, b.isLt⟩ : Fin 1024)))
    (h1 : S1x512x1024.ShapeCasts S512x1024) (hb : FTy.bits .bf16 < FTy.bits .f32) (h2 : S512x1024.ShapeCasts S1x512x1024)
    (u : Fin 1) (a : Fin 512) (b : Fin 1024) :
    shapeCast S1x512x1024 (truncf .bf16 (addf (shapeCast S512x1024 vmy h1) (extf .f32 (shapeCast S512x1024 vrb h1) hb)) hb) h2 (ix3 u a b) = outChunk m c k (ix2 a b) := by
  rw [shapeCast_ab_1ab_apply]
  show FloatOps.truncf .bf16 hb (FloatOps.addf (shapeCast S512x1024 vmy h1 (ix2 a b)) (FloatOps.extf .f32 hb (shapeCast S512x1024 vrb h1 (ix2 a b)))) = _
  rw [shapeCast_1ab_ab_apply, shapeCast_1ab_ab_apply, outChunk_ix2]
  rw [show vmy (ix3 (0 : Fin 1) a b) = _ from hmy a b, show vrb (ix3 (0 : Fin 1) a b) = _ from hrb a b]
  rfl

/-- The program's payload of a band's write-back is that block: in one piece, -/
theorem pay19_eq (vmy : Vec F S1x512x1024 .f32) (vrb : Vec F S1x512x1024 .bf16) :
    k0_pay19 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
/-- and with the own block's reshaping done a step earlier. -/
theorem pay21_eq (vmy : Vec F S1x512x1024 .f32) (vrb : Vec F S1x512x1024 .bf16) :
    k0_pay21 (k0_pay20 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl

/-! ## A buffer of two 512 × 1024 slots -/

section Generic
variable {sg : RefSig} {κ : Kind} {sp : Space} {e : EltTy} {Val : EltTy → Type}

/-- Loading slot `i` just after a transfer into it landed: the transfer's values. -/
theorem slot_load_same (v : View sg κ sp S2x512x1024 e) (i : Fin 2) (h : S512x1024.numel = S1x512x1024.numel) (g : v.ty.Contents Val)
    (d : S512x1024.Idx → Val e) (u0 : Fin 1) (a : Fin 512) (b : Fin 1024) :
    View.readAt Val v (cvtR i).toLoadRect (View.write Val ((v.slice (cvtR i)).reshape S512x1024 h) g d Finset.univ) (ix3 u0 a b) = d (ix2 a b) :=
  read_write_squeezed (v.slice (cvtR i)) h g d u0 a b

/-- A transfer landed in the other slot is not seen by a load. -/
theorem slot_load_other (v : View sg κ sp S2x512x1024 e) (i j : Fin 2) (hij : i ≠ j) (h : S512x1024.numel = S1x512x1024.numel) (g : v.ty.Contents Val)
    (d : S512x1024.Idx → Val e) :
    View.readAt Val v (cvtR i).toLoadRect (View.write Val ((v.slice (cvtR j)).reshape S512x1024 h) g d Finset.univ)
      = View.readAt Val v (cvtR i).toLoadRect g :=
  read_write_other v (cvtR i) (cvtR j) h g d (cvt_disjoint i j hij)

/-- A store into the other slot is not seen by a load. -/
theorem slot_load_store_other (v : View sg κ sp S2x512x1024 e) (i j : Fin 2) (hij : i ≠ j) (g : v.ty.Contents Val) (p : S1x512x1024.Idx → Val e) :
    View.readAt Val v (cvtR i).toLoadRect (View.write Val (v.slice (cvtR j)) g p Finset.univ) = View.readAt Val v (cvtR i).toLoadRect g := by
  refine View.read_slice_write_slice_of_disjoint (cvtR i) (cvtR j) g p Finset.univ ?_
  rw [View.setOn_univ, View.set_slice, View.set_slice]
  exact (Finset.disjoint_map _).mpr (cvt_disjoint i j hij)

/-- Slot `i` seen as 512 × 1024, read just after a store into it: the stored block at (0, a, b). -/
theorem slot_read_store_same (v : View sg κ sp S2x512x1024 e) (i : Fin 2) (h : S512x1024.numel = S1x512x1024.numel) (g : v.ty.Contents Val)
    (p : S1x512x1024.Idx → Val e) (a : Fin 512) (b : Fin 1024) :
    ((v.slice (cvtR i)).reshape S512x1024 h).read Val (View.write Val (v.slice (cvtR i)) g p Finset.univ) (ix2 a b) = p (ix3 (⟨0, Nat.one_pos⟩ : Fin 1) a b) := by
  rw [read_reshape_apply, reshapeEquiv_ix2_1ab, View.read_write_univ]

/-- A store into the other slot is not seen through slot `i` seen as 512 × 1024. -/
theorem slot_read_store_other (v : View sg κ sp S2x512x1024 e) (i j : Fin 2) (hij : i ≠ j) (h : S512x1024.numel = S1x512x1024.numel) (g : v.ty.Contents Val)
    (p : S1x512x1024.Idx → Val e) :
    ((v.slice (cvtR i)).reshape S512x1024 h).read Val (View.write Val (v.slice (cvtR j)) g p Finset.univ)
      = ((v.slice (cvtR i)).reshape S512x1024 h).read Val g := by
  funext y
  rw [read_reshape_apply, read_reshape_apply]
  refine congrFun (View.read_slice_write_slice_of_disjoint (cvtR i) (cvtR j) g p Finset.univ ?_) _
  rw [View.setOn_univ, View.set_slice, View.set_slice]
  exact (Finset.disjoint_map _).mpr (cvt_disjoint i j hij)

/-- A transfer landed in the other slot is not seen through slot `i` seen as 512 × 1024. -/
theorem slot_read_write_other (v : View sg κ sp S2x512x1024 e) (i j : Fin 2) (hij : i ≠ j) (h h' : S512x1024.numel = S1x512x1024.numel) (g : v.ty.Contents Val)
    (d : S512x1024.Idx → Val e) :
    ((v.slice (cvtR i)).reshape S512x1024 h).read Val (View.write Val ((v.slice (cvtR j)).reshape S512x1024 h') g d Finset.univ)
      = ((v.slice (cvtR i)).reshape S512x1024 h).read Val g := by
  funext y
  rw [read_reshape_apply, read_reshape_apply]
  exact congrFun (read_write_other v (cvtR i) (cvtR j) h' g d (cvt_disjoint i j hij)) _

end Generic

/-! ## The write-back's source: a slot of the result's staging buffer, just stored -/

/-- THE VALUE OF A WRITE-BACK: slot `i` of the staging buffer, seen as 512 × 1024 just after the block `p` was stored into it, reads band `k` of
    the result when `p` holds it. -/
theorem slot_holds_out (c : Dev nD) (k : Fin 16) (i : Fin 2) (g : Buf (Elt F) ((c : Thread nD τ).loc cc0_scratch4))
    (p : S1x512x1024.Idx → F .bf16) (hp : ∀ (u : Fin 1) (a : Fin 512) (b : Fin 1024), p (ix3 u a b) = outChunk m c k (ix2 a b)) :
    (((Memref.whole cc0_scratch4 : Memref sig .tc .vmem S2x512x1024 .bf16).view.slice (cvtR i)).reshape S512x1024 squeezes_S1x512x1024_S512x1024.numel_eq).read (Elt F)
        (View.write (Elt F) ((Memref.whole cc0_scratch4 : Memref sig .tc .vmem S2x512x1024 .bf16).view.slice (cvtR i)) g p Finset.univ)
      = outChunk m c k := by
  funext y
  obtain ⟨a, b, rfl⟩ : ∃ (a : Fin 512) (b : Fin 1024), y = ix2 a b := ⟨y 0, y 1, eq_ix2 y⟩
  rw [slot_read_store_same, hp]

/-! ## One band, one slot at a time -/

/-- The program's payload of band `k`'s write-back, for each of the sixteen bands, is the block of `out_payload`. -/
theorem bandpay0_eq (vmy : Vec F S1x512x1024 .f32) (vrb : Vec F S1x512x1024 .bf16) :
    k0_pay19 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay1_eq (vmy : Vec F S1x512x1024 .f32) (vrb : Vec F S1x512x1024 .bf16) :
    k0_pay21 (k0_pay20 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay2_eq (vmy : Vec F S1x512x1024 .f32) (vrb : Vec F S1x512x1024 .bf16) :
    k0_pay23 (k0_pay22 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay3_eq (vmy : Vec F S1x512x1024 .f32) (vrb : Vec F S1x512x1024 .bf16) :
    k0_pay25 (k0_pay24 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay4_eq (vmy : Vec F S1x512x1024 .f32) (vrb : Vec F S1x512x1024 .bf16) :
    k0_pay27 (k0_pay26 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay5_eq (vmy : Vec F S1x512x1024 .f32) (vrb : Vec F S1x512x1024 .bf16) :
    k0_pay29 (k0_pay28 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay6_eq (vmy : Vec F S1x512x1024 .f32) (vrb : Vec F S1x512x1024 .bf16) :
    k0_pay30 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay7_eq (vmy : Vec F S1x512x1024 .f32) (vrb : Vec F S1x512x1024 .bf16) :
    k0_pay31 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay8_eq (vmy : Vec F S1x512x1024 .f32) (vrb : Vec F S1x512x1024 .bf16) :
    k0_pay32 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay9_eq (vmy : Vec F S1x512x1024 .f32) (vrb : Vec F S1x512x1024 .bf16) :
    k0_pay33 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay10_eq (vmy : Vec F S1x512x1024 .f32) (vrb : Vec F S1x512x1024 .bf16) :
    k0_pay34 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay11_eq (vmy : Vec F S1x512x1024 .f32) (vrb : Vec F S1x512x1024 .bf16) :
    k0_pay35 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay12_eq (vmy : Vec F S1x512x1024 .f32) (vrb : Vec F S1x512x1024 .bf16) :
    k0_pay36 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay13_eq (vmy : Vec F S1x512x1024 .f32) (vrb : Vec F S1x512x1024 .bf16) :
    k0_pay37 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay14_eq (vmy : Vec F S1x512x1024 .f32) (vrb : Vec F S1x512x1024 .bf16) :
    k0_pay38 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay15_eq (vmy : Vec F S1x512x1024 .f32) (vrb : Vec F S1x512x1024 .bf16) :
    k0_pay41 (k0_pay39 vmy) (k0_pay40 vrb) = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl

section Generic
variable {sg : RefSig} {κ : Kind} {sp : Space} {e : EltTy} {Val : EltTy → Type}

/-- Slot `i` of a two-slot buffer, seen as 512 × 1024. -/
abbrev slotSq (v : View sg κ sp S2x512x1024 e) (i : Fin 2) : View sg κ sp S512x1024 e :=
  (v.slice (cvtR i)).reshape S512x1024 squeezes_S1x512x1024_S512x1024.numel_eq

/-- A slot read just after a transfer filled it: the transfer's values. -/
theorem slot_read_write_same (v : View sg κ sp S2x512x1024 e) (i : Fin 2) (g : v.ty.Contents Val) (d : S512x1024.Idx → Val e) :
    (slotSq v i).read Val (View.write Val (slotSq v i) g d Finset.univ) = d :=
  View.read_write_univ (v := slotSq v i) g d

end Generic

/-- The own block: slot `i` of the first staging buffer, loaded just after the window at rows `512 k …` on the device's own half of the
    columns was copied into it, holds those entries of the slab. -/
theorem my_block (c : Dev nD) (k : Fin 16) (i : Fin 2) (g : Buf (Elt F) ((c : Thread nD τ).loc cc0_scratch2))
    (o : Fin 3 → ℕ) (ho : ∀ a, o a + S1x512x1024.size a ≤ S1x8192x2048.size a) (ho1 : o 1 = 512 * k.val) (ho2 : o 2 = col c)
    (u : Fin 1) (a : Fin 512) (b : Fin 1024) :
    View.readAt (Elt F) (Memref.whole cc0_scratch2 : Memref sig .tc .vmem S2x512x1024 .f32).view (cvtR i).toLoadRect
        (View.write (Elt F) (slotSq (Memref.whole cc0_scratch2 : Memref sig .tc .vmem S2x512x1024 .f32).view i) g (xwin m c o ho) Finset.univ) (ix3 u a b)
      = xarr m c (ix3 (⟨0, by decide⟩ : Fin 1) (⟨512 * k.val + a.val, chunk_row_lt k (ix2 a b)⟩ : Fin 8192) (⟨col c + b.val, chunk_col_lt c (ix2 a b)⟩ : Fin 2048)) := by
  refine (slot_load_same (Memref.whole cc0_scratch2 : Memref sig .tc .vmem S2x512x1024 .f32).view i _ g (xwin m c o ho) u a b).trans ?_
  rw [xwin_apply]
  refine congrArg (xarr m c) (ix3_congr rfl ?_ ?_)
  · show o 1 + a.val = 512 * k.val + a.val
    rw [ho1]
  · show o 2 + b.val = col c + b.val
    rw [ho2]

/-- The received block: slot `i` of the second staging buffer, loaded just after band `k` of the landing array — holding what the device
    received — was copied into it, holds those entries. -/
theorem rb_block (c : Dev nD) (k : Fin 16) (i : Fin 2) (g : Buf (Elt F) ((c : Thread nD τ).loc cc0_scratch3))
    (u : Fin 1) (a : Fin 512) (b : Fin 1024) :
    View.readAt (Elt F) (Memref.whole cc0_scratch3 : Memref sig .tc .vmem S2x512x1024 .bf16).view (cvtR i).toLoadRect
        (View.write (Elt F) (slotSq (Memref.whole cc0_scratch3 : Memref sig .tc .vmem S2x512x1024 .bf16).view i) g ((rowsM k).view.read (Elt F) (recvFull m c)) Finset.univ) (ix3 u a b)
      = recvFull m c (ix2 (⟨512 * k.val + a.val, chunk_row_lt k (ix2 a b)⟩ : Fin 8192) (⟨b.val, b.isLt⟩ : Fin 1024)) := by
  refine (slot_load_same (Memref.whole cc0_scratch3 : Memref sig .tc .vmem S2x512x1024 .bf16).view i _ g ((rowsM k).view.read (Elt F) (recvFull m c)) u a b).trans ?_
  show recvFull m c ((rowsM k).view.emb (ix2 a b)) = _
  refine congrArg (recvFull m c) (funext fun d => Fin.ext ?_)
  match d with
  | ⟨0, _⟩ =>
    show 512 * k.val + 1 * a.val = 512 * k.val + a.val
    omega
  | ⟨1, _⟩ =>
    show 0 + 1 * b.val = b.val
    omega

/-- THE VALUE OF A WRITE-BACK, from its two blocks: slot `i` of the result's staging buffer, just stored with the payload made of an own
    block and a received block for band `k`, reads band `k` of the result. -/
theorem writeback_value (c : Dev nD) (k : Fin 16) (i : Fin 2) (g : Buf (Elt F) ((c : Thread nD τ).loc cc0_scratch4))
    (vmy : Vec F S1x512x1024 .f32) (vrb : Vec F S1x512x1024 .bf16)
    (hmy : ∀ (a : Fin 512) (b : Fin 1024), vmy (ix3 (⟨0, by decide⟩ : Fin 1) a b)
      = xarr m c (ix3 (⟨0, by decide⟩ : Fin 1) (⟨512 * k.val + a.val, chunk_row_lt k (ix2 a b)⟩ : Fin 8192) (⟨col c + b.val, chunk_col_lt c (ix2 a b)⟩ : Fin 2048)))
    (hrb : ∀ (a : Fin 512) (b : Fin 1024), vrb (ix3 (⟨0, by decide⟩ : Fin 1) a b)
      = recvFull m c (ix2 (⟨512 * k.val + a.val, chunk_row_lt k (ix2 a b)⟩ : Fin 8192) (⟨b.val, b.isLt⟩ : Fin 1024)))
    (pay : S1x512x1024.Idx → F .bf16)
    (hpay : pay = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024) :
    (slotSq (Memref.whole cc0_scratch4 : Memref sig .tc .vmem S2x512x1024 .bf16).view i).read (Elt F) (View.write (Elt F) ((Memref.whole cc0_scratch4 : Memref sig .tc .vmem S2x512x1024 .bf16).view.slice (cvtR i)) g pay Finset.univ) = outChunk m c k := by
  subst hpay
  exact slot_holds_out m c k i g _ fun u a b => out_payload m c k vmy vrb hmy hrb _ _ _ u a b

/-! ## A band of the result array written whole -/

/-- Band `k` written whole with the result's band `k` holds the result on the band. -/
theorem band_written (c : Dev nD) (k : Fin 16) (f : Buf (Elt F) ((c : Thread nD τ).loc main_v1_0)) (p : S512x1024.Idx → F .bf16)
    (hp : p = outChunk m c k) :
    ∀ i ∈ (outM k).view.set, ((outM k).view.write (Elt F) f p Finset.univ) i = outFull m c i := by
  subst hp
  intro i hi
  obtain ⟨y, rfl⟩ := View.exists_emb_of_mem_set _ hi
  rw [View.write_emb_of_mem _ _ (Finset.mem_univ y)]
  exact outChunk_emb m c k y

/-- The same, each band at its numerals. -/
theorem band_written_0 (c : Dev nD) (f : Buf (Elt F) ((c : Thread nD τ).loc main_v1_0)) (p : S512x1024.Idx → F .bf16) (hp : p = outChunk m c 0) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.write (Elt F) f p Finset.univ) i = outFull m c i :=
  band_written m c 0 f p hp
theorem band_written_1 (c : Dev nD) (f : Buf (Elt F) ((c : Thread nD τ).loc main_v1_0)) (p : S512x1024.Idx → F .bf16) (hp : p = outChunk m c 1) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.write (Elt F) f p Finset.univ) i = outFull m c i :=
  band_written m c 1 f p hp
theorem band_written_2 (c : Dev nD) (f : Buf (Elt F) ((c : Thread nD τ).loc main_v1_0)) (p : S512x1024.Idx → F .bf16) (hp : p = outChunk m c 2) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.write (Elt F) f p Finset.univ) i = outFull m c i :=
  band_written m c 2 f p hp
theorem band_written_3 (c : Dev nD) (f : Buf (Elt F) ((c : Thread nD τ).loc main_v1_0)) (p : S512x1024.Idx → F .bf16) (hp : p = outChunk m c 3) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.write (Elt F) f p Finset.univ) i = outFull m c i :=
  band_written m c 3 f p hp
theorem band_written_4 (c : Dev nD) (f : Buf (Elt F) ((c : Thread nD τ).loc main_v1_0)) (p : S512x1024.Idx → F .bf16) (hp : p = outChunk m c 4) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.write (Elt F) f p Finset.univ) i = outFull m c i :=
  band_written m c 4 f p hp
theorem band_written_5 (c : Dev nD) (f : Buf (Elt F) ((c : Thread nD τ).loc main_v1_0)) (p : S512x1024.Idx → F .bf16) (hp : p = outChunk m c 5) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.write (Elt F) f p Finset.univ) i = outFull m c i :=
  band_written m c 5 f p hp
theorem band_written_6 (c : Dev nD) (f : Buf (Elt F) ((c : Thread nD τ).loc main_v1_0)) (p : S512x1024.Idx → F .bf16) (hp : p = outChunk m c 6) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.write (Elt F) f p Finset.univ) i = outFull m c i :=
  band_written m c 6 f p hp
theorem band_written_7 (c : Dev nD) (f : Buf (Elt F) ((c : Thread nD τ).loc main_v1_0)) (p : S512x1024.Idx → F .bf16) (hp : p = outChunk m c 7) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.write (Elt F) f p Finset.univ) i = outFull m c i :=
  band_written m c 7 f p hp
theorem band_written_8 (c : Dev nD) (f : Buf (Elt F) ((c : Thread nD τ).loc main_v1_0)) (p : S512x1024.Idx → F .bf16) (hp : p = outChunk m c 8) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.write (Elt F) f p Finset.univ) i = outFull m c i :=
  band_written m c 8 f p hp
theorem band_written_9 (c : Dev nD) (f : Buf (Elt F) ((c : Thread nD τ).loc main_v1_0)) (p : S512x1024.Idx → F .bf16) (hp : p = outChunk m c 9) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.write (Elt F) f p Finset.univ) i = outFull m c i :=
  band_written m c 9 f p hp
theorem band_written_10 (c : Dev nD) (f : Buf (Elt F) ((c : Thread nD τ).loc main_v1_0)) (p : S512x1024.Idx → F .bf16) (hp : p = outChunk m c 10) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.write (Elt F) f p Finset.univ) i = outFull m c i :=
  band_written m c 10 f p hp
theorem band_written_11 (c : Dev nD) (f : Buf (Elt F) ((c : Thread nD τ).loc main_v1_0)) (p : S512x1024.Idx → F .bf16) (hp : p = outChunk m c 11) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.write (Elt F) f p Finset.univ) i = outFull m c i :=
  band_written m c 11 f p hp
theorem band_written_12 (c : Dev nD) (f : Buf (Elt F) ((c : Thread nD τ).loc main_v1_0)) (p : S512x1024.Idx → F .bf16) (hp : p = outChunk m c 12) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.write (Elt F) f p Finset.univ) i = outFull m c i :=
  band_written m c 12 f p hp
theorem band_written_13 (c : Dev nD) (f : Buf (Elt F) ((c : Thread nD τ).loc main_v1_0)) (p : S512x1024.Idx → F .bf16) (hp : p = outChunk m c 13) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.write (Elt F) f p Finset.univ) i = outFull m c i :=
  band_written m c 13 f p hp
theorem band_written_14 (c : Dev nD) (f : Buf (Elt F) ((c : Thread nD τ).loc main_v1_0)) (p : S512x1024.Idx → F .bf16) (hp : p = outChunk m c 14) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.write (Elt F) f p Finset.univ) i = outFull m c i :=
  band_written m c 14 f p hp
theorem band_written_15 (c : Dev nD) (f : Buf (Elt F) ((c : Thread nD τ).loc main_v1_0)) (p : S512x1024.Idx → F .bf16) (hp : p = outChunk m c 15) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.write (Elt F) f p Finset.univ) i = outFull m c i :=
  band_written m c 15 f p hp

end Cert.KernelIdeal.RS

end
-- ==== Proof.KernelIdealBandFacts.lean ====
import proofs.«901042_g7700000000001043_dist_rs_v7x_xyz2x4x4_x_m8192_n1024_bf16_1_alg».proof.Proof.KernelIdealListed
import proofs.«901042_g7700000000001043_dist_rs_v7x_xyz2x4x4_x_m8192_n1024_bf16_1_alg».proof.Proof.KernelIdealOutChunk

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A band's payload, entry by entry -/

/-- Entry (u, a, b) of the stored block: the own block's entry (0, a, b) plus the received block's there, widened, the sum rounded. -/
theorem pay_apply (vmy : Vec F S1x512x1024 .f32) (vrb : Vec F S1x512x1024 .bf16)
    (h1 : S1x512x1024.ShapeCasts S512x1024) (hb : FTy.bits .bf16 < FTy.bits .f32) (h2 : S512x1024.ShapeCasts S1x512x1024)
    (u : Fin 1) (a : Fin 512) (b : Fin 1024) :
    shapeCast S1x512x1024 (truncf .bf16 (addf (shapeCast S512x1024 vmy h1) (extf .f32 (shapeCast S512x1024 vrb h1) hb)) hb) h2 (ix3 u a b)
      = tr (FloatOps.addf (vmy (ix3 (⟨0, by decide⟩ : Fin 1) a b)) (ex (vrb (ix3 (⟨0, by decide⟩ : Fin 1) a b)))) := by
  rw [shapeCast_ab_1ab_apply]
  show FloatOps.truncf .bf16 hb (FloatOps.addf (shapeCast S512x1024 vmy h1 (ix2 a b)) (FloatOps.extf .f32 hb (shapeCast S512x1024 vrb h1 (ix2 a b)))) = _
  rw [shapeCast_1ab_ab_apply, shapeCast_1ab_ab_apply]
  rfl

theorem bandpay0_apply (vmy : Vec F S1x512x1024 .f32) (vrb : Vec F S1x512x1024 .bf16) (u : Fin 1) (a : Fin 512) (b : Fin 1024) :
    (k0_pay19 vmy vrb) (ix3 u a b) = tr (FloatOps.addf (vmy (ix3 (⟨0, by decide⟩ : Fin 1) a b)) (ex (vrb (ix3 (⟨0, by decide⟩ : Fin 1) a b)))) :=
  (congrFun (bandpay0_eq vmy vrb) _).trans (pay_apply vmy vrb _ _ _ u a b)
theorem bandpay1_apply (vmy : Vec F S1x512x1024 .f32) (vrb : Vec F S1x512x1024 .bf16) (u : Fin 1) (a : Fin 512) (b : Fin 1024) :
    (k0_pay21 (k0_pay20 vmy) vrb) (ix3 u a b) = tr (FloatOps.addf (vmy (ix3 (⟨0, by decide⟩ : Fin 1) a b)) (ex (vrb (ix3 (⟨0, by decide⟩ : Fin 1) a b)))) :=
  (congrFun (bandpay1_eq vmy vrb) _).trans (pay_apply vmy vrb _ _ _ u a b)
theorem bandpay2_apply (vmy : Vec F S1x512x1024 .f32) (vrb : Vec F S1x512x1024 .bf16) (u : Fin 1) (a : Fin 512) (b : Fin 1024) :
    (k0_pay23 (k0_pay22 vmy) vrb) (ix3 u a b) = tr (FloatOps.addf (vmy (ix3 (⟨0, by decide⟩ : Fin 1) a b)) (ex (vrb (ix3 (⟨0, by decide⟩ : Fin 1) a b)))) :=
  (congrFun (bandpay2_eq vmy vrb) _).trans (pay_apply vmy vrb _ _ _ u a b)
theorem bandpay3_apply (vmy : Vec F S1x512x1024 .f32) (vrb : Vec F S1x512x1024 .bf16) (u : Fin 1) (a : Fin 512) (b : Fin 1024) :
    (k0_pay25 (k0_pay24 vmy) vrb) (ix3 u a b) = tr (FloatOps.addf (vmy (ix3 (⟨0, by decide⟩ : Fin 1) a b)) (ex (vrb (ix3 (⟨0, by decide⟩ : Fin 1) a b)))) :=
  (congrFun (bandpay3_eq vmy vrb) _).trans (pay_apply vmy vrb _ _ _ u a b)
theorem bandpay4_apply (vmy : Vec F S1x512x1024 .f32) (vrb : Vec F S1x512x1024 .bf16) (u : Fin 1) (a : Fin 512) (b : Fin 1024) :
    (k0_pay27 (k0_pay26 vmy) vrb) (ix3 u a b) = tr (FloatOps.addf (vmy (ix3 (⟨0, by decide⟩ : Fin 1) a b)) (ex (vrb (ix3 (⟨0, by decide⟩ : Fin 1) a b)))) :=
  (congrFun (bandpay4_eq vmy vrb) _).trans (pay_apply vmy vrb _ _ _ u a b)
theorem bandpay5_apply (vmy : Vec F S1x512x1024 .f32) (vrb : Vec F S1x512x1024 .bf16) (u : Fin 1) (a : Fin 512) (b : Fin 1024) :
    (k0_pay29 (k0_pay28 vmy) vrb) (ix3 u a b) = tr (FloatOps.addf (vmy (ix3 (⟨0, by decide⟩ : Fin 1) a b)) (ex (vrb (ix3 (⟨0, by decide⟩ : Fin 1) a b)))) :=
  (congrFun (bandpay5_eq vmy vrb) _).trans (pay_apply vmy vrb _ _ _ u a b)
theorem bandpay6_apply (vmy : Vec F S1x512x1024 .f32) (vrb : Vec F S1x512x1024 .bf16) (u : Fin 1) (a : Fin 512) (b : Fin 1024) :
    (k0_pay30 vmy vrb) (ix3 u a b) = tr (FloatOps.addf (vmy (ix3 (⟨0, by decide⟩ : Fin 1) a b)) (ex (vrb (ix3 (⟨0, by decide⟩ : Fin 1) a b)))) :=
  (congrFun (bandpay6_eq vmy vrb) _).trans (pay_apply vmy vrb _ _ _ u a b)
theorem bandpay7_apply (vmy : Vec F S1x512x1024 .f32) (vrb : Vec F S1x512x1024 .bf16) (u : Fin 1) (a : Fin 512) (b : Fin 1024) :
    (k0_pay31 vmy vrb) (ix3 u a b) = tr (FloatOps.addf (vmy (ix3 (⟨0, by decide⟩ : Fin 1) a b)) (ex (vrb (ix3 (⟨0, by decide⟩ : Fin 1) a b)))) :=
  (congrFun (bandpay7_eq vmy vrb) _).trans (pay_apply vmy vrb _ _ _ u a b)
theorem bandpay8_apply (vmy : Vec F S1x512x1024 .f32) (vrb : Vec F S1x512x1024 .bf16) (u : Fin 1) (a : Fin 512) (b : Fin 1024) :
    (k0_pay32 vmy vrb) (ix3 u a b) = tr (FloatOps.addf (vmy (ix3 (⟨0, by decide⟩ : Fin 1) a b)) (ex (vrb (ix3 (⟨0, by decide⟩ : Fin 1) a b)))) :=
  (congrFun (bandpay8_eq vmy vrb) _).trans (pay_apply vmy vrb _ _ _ u a b)
theorem bandpay9_apply (vmy : Vec F S1x512x1024 .f32) (vrb : Vec F S1x512x1024 .bf16) (u : Fin 1) (a : Fin 512) (b : Fin 1024) :
    (k0_pay33 vmy vrb) (ix3 u a b) = tr (FloatOps.addf (vmy (ix3 (⟨0, by decide⟩ : Fin 1) a b)) (ex (vrb (ix3 (⟨0, by decide⟩ : Fin 1) a b)))) :=
  (congrFun (bandpay9_eq vmy vrb) _).trans (pay_apply vmy vrb _ _ _ u a b)
theorem bandpay10_apply (vmy : Vec F S1x512x1024 .f32) (vrb : Vec F S1x512x1024 .bf16) (u : Fin 1) (a : Fin 512) (b : Fin 1024) :
    (k0_pay34 vmy vrb) (ix3 u a b) = tr (FloatOps.addf (vmy (ix3 (⟨0, by decide⟩ : Fin 1) a b)) (ex (vrb (ix3 (⟨0, by decide⟩ : Fin 1) a b)))) :=
  (congrFun (bandpay10_eq vmy vrb) _).trans (pay_apply vmy vrb _ _ _ u a b)
theorem bandpay11_apply (vmy : Vec F S1x512x1024 .f32) (vrb : Vec F S1x512x1024 .bf16) (u : Fin 1) (a : Fin 512) (b : Fin 1024) :
    (k0_pay35 vmy vrb) (ix3 u a b) = tr (FloatOps.addf (vmy (ix3 (⟨0, by decide⟩ : Fin 1) a b)) (ex (vrb (ix3 (⟨0, by decide⟩ : Fin 1) a b)))) :=
  (congrFun (bandpay11_eq vmy vrb) _).trans (pay_apply vmy vrb _ _ _ u a b)
theorem bandpay12_apply (vmy : Vec F S1x512x1024 .f32) (vrb : Vec F S1x512x1024 .bf16) (u : Fin 1) (a : Fin 512) (b : Fin 1024) :
    (k0_pay36 vmy vrb) (ix3 u a b) = tr (FloatOps.addf (vmy (ix3 (⟨0, by decide⟩ : Fin 1) a b)) (ex (vrb (ix3 (⟨0, by decide⟩ : Fin 1) a b)))) :=
  (congrFun (bandpay12_eq vmy vrb) _).trans (pay_apply vmy vrb _ _ _ u a b)
theorem bandpay13_apply (vmy : Vec F S1x512x1024 .f32) (vrb : Vec F S1x512x1024 .bf16) (u : Fin 1) (a : Fin 512) (b : Fin 1024) :
    (k0_pay37 vmy vrb) (ix3 u a b) = tr (FloatOps.addf (vmy (ix3 (⟨0, by decide⟩ : Fin 1) a b)) (ex (vrb (ix3 (⟨0, by decide⟩ : Fin 1) a b)))) :=
  (congrFun (bandpay13_eq vmy vrb) _).trans (pay_apply vmy vrb _ _ _ u a b)
theorem bandpay14_apply (vmy : Vec F S1x512x1024 .f32) (vrb : Vec F S1x512x1024 .bf16) (u : Fin 1) (a : Fin 512) (b : Fin 1024) :
    (k0_pay38 vmy vrb) (ix3 u a b) = tr (FloatOps.addf (vmy (ix3 (⟨0, by decide⟩ : Fin 1) a b)) (ex (vrb (ix3 (⟨0, by decide⟩ : Fin 1) a b)))) :=
  (congrFun (bandpay14_eq vmy vrb) _).trans (pay_apply vmy vrb _ _ _ u a b)
theorem bandpay15_apply (vmy : Vec F S1x512x1024 .f32) (vrb : Vec F S1x512x1024 .bf16) (u : Fin 1) (a : Fin 512) (b : Fin 1024) :
    (k0_pay41 (k0_pay39 vmy) (k0_pay40 vrb)) (ix3 u a b) = tr (FloatOps.addf (vmy (ix3 (⟨0, by decide⟩ : Fin 1) a b)) (ex (vrb (ix3 (⟨0, by decide⟩ : Fin 1) a b)))) :=
  (congrFun (bandpay15_eq vmy vrb) _).trans (pay_apply vmy vrb _ _ _ u a b)

/-! ## Loading a slot that was last filled whole -/

section Generic
variable {sg : RefSig} {κ : Kind} {sp : Space} {e : EltTy} {Val : EltTy → Type}

/-- A load of slot `i` through the whole buffer, the slot last filled whole by a transfer: the transfer's values, whatever was written before. -/
theorem load_listed (v : View sg κ sp S2x512x1024 e) (i : Fin 2) (h : S512x1024.numel = S1x512x1024.numel) (g : v.ty.Contents Val)
    (L : List (View.Piece Val S512x1024 e)) (d : S512x1024.Idx → Val e) (u0 : Fin 1) (a : Fin 512) (b : Fin 1024) :
    View.readAt Val v (cvtR i).toLoadRect (((v.slice (cvtR i)).reshape S512x1024 h).writes Val g (⟨Rect.whole S512x1024, d⟩ :: L)) (ix3 u0 a b)
      = d (ix2 a b) :=
  read_listed_squeezed (v.slice (cvtR i)) h g L d u0 a b

end Generic

/-- Band `k` of the landing array, holding what the device received, read as a 512 × 1024 block: entry (a, b) is the received entry (512 k + a, b). -/
theorem rb_read (c : Dev nD) (k : Fin 16) (a : Fin 512) (b : Fin 1024) :
    (rowsM k).view.read (Elt F) (recvFull m c) (ix2 a b)
      = recvFull m c (ix2 (⟨512 * k.val + a.val, chunk_row_lt k (ix2 a b)⟩ : Fin 8192) (⟨b.val, b.isLt⟩ : Fin 1024)) := by
  show recvFull m c ((rowsM k).view.emb (ix2 a b)) = _
  refine congrArg (recvFull m c) (funext fun d => Fin.ext ?_)
  match d with
  | ⟨0, _⟩ =>
    show 512 * k.val + 1 * a.val = 512 * k.val + a.val
    omega
  | ⟨1, _⟩ =>
    show 0 + 1 * b.val = b.val
    omega

/-! ## The write-back's source slot, just stored -/

/-- Slot 0 of the result's staging buffer, seen as 512 × 1024 just after a block was stored into it, reads band `k` of the result when the block is
    the rounded sum of an own block holding the window at rows `512 k …` on the device's own columns and a received block holding band `k` of what was received. -/
theorem out_chunk_of_0 (c : Dev nD) (k : Fin 16) (g : Buf (Elt F) ((c : Thread nD τ).loc cc0_scratch4))
    (p : S1x512x1024.Idx → F .bf16) (vmy : S1x512x1024.Idx → F .f32) (vrb : S1x512x1024.Idx → F .bf16)
    (o : Fin 3 → ℕ) (ho : ∀ a, o a + S1x512x1024.size a ≤ S1x8192x2048.size a)
    (hp : ∀ (u : Fin 1) (a : Fin 512) (b : Fin 1024), p (ix3 u a b) = tr (FloatOps.addf (vmy (ix3 (⟨0, by decide⟩ : Fin 1) a b)) (ex (vrb (ix3 (⟨0, by decide⟩ : Fin 1) a b)))))
    (hmy : ∀ (a : Fin 512) (b : Fin 1024), vmy (ix3 (⟨0, by decide⟩ : Fin 1) a b) = xwin m c o ho (ix2 a b))
    (hrb : ∀ (a : Fin 512) (b : Fin 1024), vrb (ix3 (⟨0, by decide⟩ : Fin 1) a b) = recvFull m c (ix2 (⟨512 * k.val + a.val, chunk_row_lt k (ix2 a b)⟩ : Fin 8192) (⟨b.val, b.isLt⟩ : Fin 1024)))
    (ho1 : o 1 = 512 * k.val) (ho2 : o 2 = col c) :
    (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.read (Elt F)
        (View.write (Elt F) ((Memref.whole cc0_scratch4 : Memref sig .tc .vmem S2x512x1024 .bf16).access (Rect.unit (s := S2x512x1024) ![0, 0, 0] S1x512x1024.size inb_S2x512x1024_S1x512x1024_0_0_0)) g p Finset.univ)
      = outChunk m c k := by
  refine slot_holds_out m c k 0 g p fun u a b => ?_
  rw [hp, hmy, hrb, xwin_apply, outChunk_ix2]
  refine congrArg tr (congrArg (fun x => FloatOps.addf x _) (congrArg (xarr m c) (ix3_congr rfl ?_ ?_)))
  · show o 1 + a.val = 512 * k.val + a.val
    rw [ho1]
  · show o 2 + b.val = col c + b.val
    rw [ho2]

/-- Slot 1 of the result's staging buffer, seen as 512 × 1024 just after a block was stored into it, reads band `k` of the result when the block is
    the rounded sum of an own block holding the window at rows `512 k …` on the device's own columns and a received block holding band `k` of what was received. -/
theorem out_chunk_of_1 (c : Dev nD) (k : Fin 16) (g : Buf (Elt F) ((c : Thread nD τ).loc cc0_scratch4))
    (p : S1x512x1024.Idx → F .bf16) (vmy : S1x512x1024.Idx → F .f32) (vrb : S1x512x1024.Idx → F .bf16)
    (o : Fin 3 → ℕ) (ho : ∀ a, o a + S1x512x1024.size a ≤ S1x8192x2048.size a)
    (hp : ∀ (u : Fin 1) (a : Fin 512) (b : Fin 1024), p (ix3 u a b) = tr (FloatOps.addf (vmy (ix3 (⟨0, by decide⟩ : Fin 1) a b)) (ex (vrb (ix3 (⟨0, by decide⟩ : Fin 1) a b)))))
    (hmy : ∀ (a : Fin 512) (b : Fin 1024), vmy (ix3 (⟨0, by decide⟩ : Fin 1) a b) = xwin m c o ho (ix2 a b))
    (hrb : ∀ (a : Fin 512) (b : Fin 1024), vrb (ix3 (⟨0, by decide⟩ : Fin 1) a b) = recvFull m c (ix2 (⟨512 * k.val + a.val, chunk_row_lt k (ix2 a b)⟩ : Fin 8192) (⟨b.val, b.isLt⟩ : Fin 1024)))
    (ho1 : o 1 = 512 * k.val) (ho2 : o 2 = col c) :
    (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.read (Elt F)
        (View.write (Elt F) ((Memref.whole cc0_scratch4 : Memref sig .tc .vmem S2x512x1024 .bf16).access (Rect.unit (s := S2x512x1024) ![1, 0, 0] S1x512x1024.size inb_S2x512x1024_S1x512x1024_1_0_0)) g p Finset.univ)
      = outChunk m c k := by
  refine slot_holds_out m c k 1 g p fun u a b => ?_
  rw [hp, hmy, hrb, xwin_apply, outChunk_ix2]
  refine congrArg tr (congrArg (fun x => FloatOps.addf x _) (congrArg (xarr m c) (ix3_congr rfl ?_ ?_)))
  · show o 1 + a.val = 512 * k.val + a.val
    rw [ho1]
  · show o 2 + b.val = col c + b.val
    rw [ho2]

/-! ## A band of the result array, last written whole -/

theorem band_final_0 (c : Dev nD) (V : Buf (Elt F) ((c : Thread nD τ).loc main_v1_0)) (D : S512x1024.Idx → F .bf16) (hD : D = outChunk m c 0) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, D⟩]) i = outFull m c i := by
  intro i hi
  have e : ((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, D⟩]
      = ((Memref.whole main_v1_0 : Memref sig .tc .hbm S8192x1024 .bf16).slice (Rect.unit (s := S8192x1024) ![0, 0] S512x1024.size inb_S8192x1024_S512x1024_0_0) (fun _ => rfl)).view.write (Elt F) V D Finset.univ :=
    (View.write_univ_eq_writes_whole ((Memref.whole main_v1_0 : Memref sig .tc .hbm S8192x1024 .bf16).slice (Rect.unit (s := S8192x1024) ![0, 0] S512x1024.size inb_S8192x1024_S512x1024_0_0) (fun _ => rfl)).view V [] D).symm
  rw [e]
  exact band_written_0 m c V D hD i hi
theorem band_final_1 (c : Dev nD) (V : Buf (Elt F) ((c : Thread nD τ).loc main_v1_0)) (D : S512x1024.Idx → F .bf16) (hD : D = outChunk m c 1) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, D⟩]) i = outFull m c i := by
  intro i hi
  have e : ((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, D⟩]
      = ((Memref.whole main_v1_0 : Memref sig .tc .hbm S8192x1024 .bf16).slice (Rect.unit (s := S8192x1024) ![512, 0] S512x1024.size inb_S8192x1024_S512x1024_512_0) (fun _ => rfl)).view.write (Elt F) V D Finset.univ :=
    (View.write_univ_eq_writes_whole ((Memref.whole main_v1_0 : Memref sig .tc .hbm S8192x1024 .bf16).slice (Rect.unit (s := S8192x1024) ![512, 0] S512x1024.size inb_S8192x1024_S512x1024_512_0) (fun _ => rfl)).view V [] D).symm
  rw [e]
  exact band_written_1 m c V D hD i hi
theorem band_final_2 (c : Dev nD) (V : Buf (Elt F) ((c : Thread nD τ).loc main_v1_0)) (D : S512x1024.Idx → F .bf16) (hD : D = outChunk m c 2) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, D⟩]) i = outFull m c i := by
  intro i hi
  have e : ((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, D⟩]
      = ((Memref.whole main_v1_0 : Memref sig .tc .hbm S8192x1024 .bf16).slice (Rect.unit (s := S8192x1024) ![1024, 0] S512x1024.size inb_S8192x1024_S512x1024_1024_0) (fun _ => rfl)).view.write (Elt F) V D Finset.univ :=
    (View.write_univ_eq_writes_whole ((Memref.whole main_v1_0 : Memref sig .tc .hbm S8192x1024 .bf16).slice (Rect.unit (s := S8192x1024) ![1024, 0] S512x1024.size inb_S8192x1024_S512x1024_1024_0) (fun _ => rfl)).view V [] D).symm
  rw [e]
  exact band_written_2 m c V D hD i hi
theorem band_final_3 (c : Dev nD) (V : Buf (Elt F) ((c : Thread nD τ).loc main_v1_0)) (D : S512x1024.Idx → F .bf16) (hD : D = outChunk m c 3) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, D⟩]) i = outFull m c i := by
  intro i hi
  have e : ((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, D⟩]
      = ((Memref.whole main_v1_0 : Memref sig .tc .hbm S8192x1024 .bf16).slice (Rect.unit (s := S8192x1024) ![1536, 0] S512x1024.size inb_S8192x1024_S512x1024_1536_0) (fun _ => rfl)).view.write (Elt F) V D Finset.univ :=
    (View.write_univ_eq_writes_whole ((Memref.whole main_v1_0 : Memref sig .tc .hbm S8192x1024 .bf16).slice (Rect.unit (s := S8192x1024) ![1536, 0] S512x1024.size inb_S8192x1024_S512x1024_1536_0) (fun _ => rfl)).view V [] D).symm
  rw [e]
  exact band_written_3 m c V D hD i hi
theorem band_final_4 (c : Dev nD) (V : Buf (Elt F) ((c : Thread nD τ).loc main_v1_0)) (D : S512x1024.Idx → F .bf16) (hD : D = outChunk m c 4) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, D⟩]) i = outFull m c i := by
  intro i hi
  have e : ((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, D⟩]
      = ((Memref.whole main_v1_0 : Memref sig .tc .hbm S8192x1024 .bf16).slice (Rect.unit (s := S8192x1024) ![2048, 0] S512x1024.size inb_S8192x1024_S512x1024_2048_0) (fun _ => rfl)).view.write (Elt F) V D Finset.univ :=
    (View.write_univ_eq_writes_whole ((Memref.whole main_v1_0 : Memref sig .tc .hbm S8192x1024 .bf16).slice (Rect.unit (s := S8192x1024) ![2048, 0] S512x1024.size inb_S8192x1024_S512x1024_2048_0) (fun _ => rfl)).view V [] D).symm
  rw [e]
  exact band_written_4 m c V D hD i hi
theorem band_final_5 (c : Dev nD) (V : Buf (Elt F) ((c : Thread nD τ).loc main_v1_0)) (D : S512x1024.Idx → F .bf16) (hD : D = outChunk m c 5) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, D⟩]) i = outFull m c i := by
  intro i hi
  have e : ((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, D⟩]
      = ((Memref.whole main_v1_0 : Memref sig .tc .hbm S8192x1024 .bf16).slice (Rect.unit (s := S8192x1024) ![2560, 0] S512x1024.size inb_S8192x1024_S512x1024_2560_0) (fun _ => rfl)).view.write (Elt F) V D Finset.univ :=
    (View.write_univ_eq_writes_whole ((Memref.whole main_v1_0 : Memref sig .tc .hbm S8192x1024 .bf16).slice (Rect.unit (s := S8192x1024) ![2560, 0] S512x1024.size inb_S8192x1024_S512x1024_2560_0) (fun _ => rfl)).view V [] D).symm
  rw [e]
  exact band_written_5 m c V D hD i hi
theorem band_final_6 (c : Dev nD) (V : Buf (Elt F) ((c : Thread nD τ).loc main_v1_0)) (D : S512x1024.Idx → F .bf16) (hD : D = outChunk m c 6) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, D⟩]) i = outFull m c i := by
  intro i hi
  have e : ((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, D⟩]
      = ((Memref.whole main_v1_0 : Memref sig .tc .hbm S8192x1024 .bf16).slice (Rect.unit (s := S8192x1024) ![3072, 0] S512x1024.size inb_S8192x1024_S512x1024_3072_0) (fun _ => rfl)).view.write (Elt F) V D Finset.univ :=
    (View.write_univ_eq_writes_whole ((Memref.whole main_v1_0 : Memref sig .tc .hbm S8192x1024 .bf16).slice (Rect.unit (s := S8192x1024) ![3072, 0] S512x1024.size inb_S8192x1024_S512x1024_3072_0) (fun _ => rfl)).view V [] D).symm
  rw [e]
  exact band_written_6 m c V D hD i hi
theorem band_final_7 (c : Dev nD) (V : Buf (Elt F) ((c : Thread nD τ).loc main_v1_0)) (D : S512x1024.Idx → F .bf16) (hD : D = outChunk m c 7) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, D⟩]) i = outFull m c i := by
  intro i hi
  have e : ((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, D⟩]
      = ((Memref.whole main_v1_0 : Memref sig .tc .hbm S8192x1024 .bf16).slice (Rect.unit (s := S8192x1024) ![3584, 0] S512x1024.size inb_S8192x1024_S512x1024_3584_0) (fun _ => rfl)).view.write (Elt F) V D Finset.univ :=
    (View.write_univ_eq_writes_whole ((Memref.whole main_v1_0 : Memref sig .tc .hbm S8192x1024 .bf16).slice (Rect.unit (s := S8192x1024) ![3584, 0] S512x1024.size inb_S8192x1024_S512x1024_3584_0) (fun _ => rfl)).view V [] D).symm
  rw [e]
  exact band_written_7 m c V D hD i hi
theorem band_final_8 (c : Dev nD) (V : Buf (Elt F) ((c : Thread nD τ).loc main_v1_0)) (D : S512x1024.Idx → F .bf16) (hD : D = outChunk m c 8) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, D⟩]) i = outFull m c i := by
  intro i hi
  have e : ((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, D⟩]
      = ((Memref.whole main_v1_0 : Memref sig .tc .hbm S8192x1024 .bf16).slice (Rect.unit (s := S8192x1024) ![4096, 0] S512x1024.size inb_S8192x1024_S512x1024_4096_0) (fun _ => rfl)).view.write (Elt F) V D Finset.univ :=
    (View.write_univ_eq_writes_whole ((Memref.whole main_v1_0 : Memref sig .tc .hbm S8192x1024 .bf16).slice (Rect.unit (s := S8192x1024) ![4096, 0] S512x1024.size inb_S8192x1024_S512x1024_4096_0) (fun _ => rfl)).view V [] D).symm
  rw [e]
  exact band_written_8 m c V D hD i hi
theorem band_final_9 (c : Dev nD) (V : Buf (Elt F) ((c : Thread nD τ).loc main_v1_0)) (D : S512x1024.Idx → F .bf16) (hD : D = outChunk m c 9) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, D⟩]) i = outFull m c i := by
  intro i hi
  have e : ((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, D⟩]
      = ((Memref.whole main_v1_0 : Memref sig .tc .hbm S8192x1024 .bf16).slice (Rect.unit (s := S8192x1024) ![4608, 0] S512x1024.size inb_S8192x1024_S512x1024_4608_0) (fun _ => rfl)).view.write (Elt F) V D Finset.univ :=
    (View.write_univ_eq_writes_whole ((Memref.whole main_v1_0 : Memref sig .tc .hbm S8192x1024 .bf16).slice (Rect.unit (s := S8192x1024) ![4608, 0] S512x1024.size inb_S8192x1024_S512x1024_4608_0) (fun _ => rfl)).view V [] D).symm
  rw [e]
  exact band_written_9 m c V D hD i hi
theorem band_final_10 (c : Dev nD) (V : Buf (Elt F) ((c : Thread nD τ).loc main_v1_0)) (D : S512x1024.Idx → F .bf16) (hD : D = outChunk m c 10) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, D⟩]) i = outFull m c i := by
  intro i hi
  have e : ((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, D⟩]
      = ((Memref.whole main_v1_0 : Memref sig .tc .hbm S8192x1024 .bf16).slice (Rect.unit (s := S8192x1024) ![5120, 0] S512x1024.size inb_S8192x1024_S512x1024_5120_0) (fun _ => rfl)).view.write (Elt F) V D Finset.univ :=
    (View.write_univ_eq_writes_whole ((Memref.whole main_v1_0 : Memref sig .tc .hbm S8192x1024 .bf16).slice (Rect.unit (s := S8192x1024) ![5120, 0] S512x1024.size inb_S8192x1024_S512x1024_5120_0) (fun _ => rfl)).view V [] D).symm
  rw [e]
  exact band_written_10 m c V D hD i hi
theorem band_final_11 (c : Dev nD) (V : Buf (Elt F) ((c : Thread nD τ).loc main_v1_0)) (D : S512x1024.Idx → F .bf16) (hD : D = outChunk m c 11) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, D⟩]) i = outFull m c i := by
  intro i hi
  have e : ((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, D⟩]
      = ((Memref.whole main_v1_0 : Memref sig .tc .hbm S8192x1024 .bf16).slice (Rect.unit (s := S8192x1024) ![5632, 0] S512x1024.size inb_S8192x1024_S512x1024_5632_0) (fun _ => rfl)).view.write (Elt F) V D Finset.univ :=
    (View.write_univ_eq_writes_whole ((Memref.whole main_v1_0 : Memref sig .tc .hbm S8192x1024 .bf16).slice (Rect.unit (s := S8192x1024) ![5632, 0] S512x1024.size inb_S8192x1024_S512x1024_5632_0) (fun _ => rfl)).view V [] D).symm
  rw [e]
  exact band_written_11 m c V D hD i hi
theorem band_final_12 (c : Dev nD) (V : Buf (Elt F) ((c : Thread nD τ).loc main_v1_0)) (D : S512x1024.Idx → F .bf16) (hD : D = outChunk m c 12) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, D⟩]) i = outFull m c i := by
  intro i hi
  have e : ((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, D⟩]
      = ((Memref.whole main_v1_0 : Memref sig .tc .hbm S8192x1024 .bf16).slice (Rect.unit (s := S8192x1024) ![6144, 0] S512x1024.size inb_S8192x1024_S512x1024_6144_0) (fun _ => rfl)).view.write (Elt F) V D Finset.univ :=
    (View.write_univ_eq_writes_whole ((Memref.whole main_v1_0 : Memref sig .tc .hbm S8192x1024 .bf16).slice (Rect.unit (s := S8192x1024) ![6144, 0] S512x1024.size inb_S8192x1024_S512x1024_6144_0) (fun _ => rfl)).view V [] D).symm
  rw [e]
  exact band_written_12 m c V D hD i hi
theorem band_final_13 (c : Dev nD) (V : Buf (Elt F) ((c : Thread nD τ).loc main_v1_0)) (D : S512x1024.Idx → F .bf16) (hD : D = outChunk m c 13) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, D⟩]) i = outFull m c i := by
  intro i hi
  have e : ((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, D⟩]
      = ((Memref.whole main_v1_0 : Memref sig .tc .hbm S8192x1024 .bf16).slice (Rect.unit (s := S8192x1024) ![6656, 0] S512x1024.size inb_S8192x1024_S512x1024_6656_0) (fun _ => rfl)).view.write (Elt F) V D Finset.univ :=
    (View.write_univ_eq_writes_whole ((Memref.whole main_v1_0 : Memref sig .tc .hbm S8192x1024 .bf16).slice (Rect.unit (s := S8192x1024) ![6656, 0] S512x1024.size inb_S8192x1024_S512x1024_6656_0) (fun _ => rfl)).view V [] D).symm
  rw [e]
  exact band_written_13 m c V D hD i hi
theorem band_final_14 (c : Dev nD) (V : Buf (Elt F) ((c : Thread nD τ).loc main_v1_0)) (D : S512x1024.Idx → F .bf16) (hD : D = outChunk m c 14) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, D⟩]) i = outFull m c i := by
  intro i hi
  have e : ((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, D⟩]
      = ((Memref.whole main_v1_0 : Memref sig .tc .hbm S8192x1024 .bf16).slice (Rect.unit (s := S8192x1024) ![7168, 0] S512x1024.size inb_S8192x1024_S512x1024_7168_0) (fun _ => rfl)).view.write (Elt F) V D Finset.univ :=
    (View.write_univ_eq_writes_whole ((Memref.whole main_v1_0 : Memref sig .tc .hbm S8192x1024 .bf16).slice (Rect.unit (s := S8192x1024) ![7168, 0] S512x1024.size inb_S8192x1024_S512x1024_7168_0) (fun _ => rfl)).view V [] D).symm
  rw [e]
  exact band_written_14 m c V D hD i hi
theorem band_final_15 (c : Dev nD) (V : Buf (Elt F) ((c : Thread nD τ).loc main_v1_0)) (D : S512x1024.Idx → F .bf16) (hD : D = outChunk m c 15) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, D⟩]) i = outFull m c i := by
  intro i hi
  have e : ((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, D⟩]
      = ((Memref.whole main_v1_0 : Memref sig .tc .hbm S8192x1024 .bf16).slice (Rect.unit (s := S8192x1024) ![7680, 0] S512x1024.size inb_S8192x1024_S512x1024_7680_0) (fun _ => rfl)).view.write (Elt F) V D Finset.univ :=
    (View.write_univ_eq_writes_whole ((Memref.whole main_v1_0 : Memref sig .tc .hbm S8192x1024 .bf16).slice (Rect.unit (s := S8192x1024) ![7680, 0] S512x1024.size inb_S8192x1024_S512x1024_7680_0) (fun _ => rfl)).view V [] D).symm
  rw [e]
  exact band_written_15 m c V D hD i hi

end Cert.KernelIdeal.RS

end
-- ==== Proof.KernelIdealBandGoals.lean ====
import proofs.«901042_g7700000000001043_dist_rs_v7x_xyz2x4x4_x_m8192_n1024_bf16_1_alg».proof.Proof.KernelIdealBandFacts

noncomputable section

namespace Cert.KernelIdeal.RS

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Each band of the result array as the body leaves it: last written whole with the value read off its staging slot -/

theorem band_goal_0 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (0 : Fin 16).val) (ho2 : o 2 = col c) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) Finset.univ)))⟩]) i = outFull m c i :=
  band_final_0 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) Finset.univ)))
    (out_chunk_of_0 m c 0 g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3))) o ho
      (fun u a b => bandpay0_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c))) (⟨0, by decide⟩ : Fin 1) a b).trans (rb_read m c 0 a b))
      ho1 ho2)

theorem band_goal_1 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (1 : Fin 16).val) (ho2 : o 2 = col c) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) Finset.univ)))⟩]) i = outFull m c i :=
  band_final_1 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) Finset.univ)))
    (out_chunk_of_1 m c 1 g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3))) o ho
      (fun u a b => bandpay1_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c))) (⟨0, by decide⟩ : Fin 1) a b).trans (rb_read m c 1 a b))
      ho1 ho2)

theorem band_goal_2 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (2 : Fin 16).val) (ho2 : o 2 = col c) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) Finset.univ)))⟩]) i = outFull m c i :=
  band_final_2 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) Finset.univ)))
    (out_chunk_of_0 m c 2 g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3))) o ho
      (fun u a b => bandpay2_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c))) (⟨0, by decide⟩ : Fin 1) a b).trans (rb_read m c 2 a b))
      ho1 ho2)

theorem band_goal_3 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (3 : Fin 16).val) (ho2 : o 2 = col c) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) Finset.univ)))⟩]) i = outFull m c i :=
  band_final_3 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) Finset.univ)))
    (out_chunk_of_1 m c 3 g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3))) o ho
      (fun u a b => bandpay3_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c))) (⟨0, by decide⟩ : Fin 1) a b).trans (rb_read m c 3 a b))
      ho1 ho2)

theorem band_goal_4 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (4 : Fin 16).val) (ho2 : o 2 = col c) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) Finset.univ)))⟩]) i = outFull m c i :=
  band_final_4 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) Finset.univ)))
    (out_chunk_of_0 m c 4 g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3))) o ho
      (fun u a b => bandpay4_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c))) (⟨0, by decide⟩ : Fin 1) a b).trans (rb_read m c 4 a b))
      ho1 ho2)

theorem band_goal_5 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (5 : Fin 16).val) (ho2 : o 2 = col c) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) Finset.univ)))⟩]) i = outFull m c i :=
  band_final_5 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) Finset.univ)))
    (out_chunk_of_1 m c 5 g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3))) o ho
      (fun u a b => bandpay5_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c))) (⟨0, by decide⟩ : Fin 1) a b).trans (rb_read m c 5 a b))
      ho1 ho2)

theorem band_goal_6 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (6 : Fin 16).val) (ho2 : o 2 = col c) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) Finset.univ)))⟩]) i = outFull m c i :=
  band_final_6 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) Finset.univ)))
    (out_chunk_of_0 m c 6 g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3))) o ho
      (fun u a b => bandpay6_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c))) (⟨0, by decide⟩ : Fin 1) a b).trans (rb_read m c 6 a b))
      ho1 ho2)

theorem band_goal_7 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (7 : Fin 16).val) (ho2 : o 2 = col c) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) Finset.univ)))⟩]) i = outFull m c i :=
  band_final_7 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) Finset.univ)))
    (out_chunk_of_1 m c 7 g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3))) o ho
      (fun u a b => bandpay7_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c))) (⟨0, by decide⟩ : Fin 1) a b).trans (rb_read m c 7 a b))
      ho1 ho2)

theorem band_goal_8 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (8 : Fin 16).val) (ho2 : o 2 = col c) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) Finset.univ)))⟩]) i = outFull m c i :=
  band_final_8 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) Finset.univ)))
    (out_chunk_of_0 m c 8 g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3))) o ho
      (fun u a b => bandpay8_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c))) (⟨0, by decide⟩ : Fin 1) a b).trans (rb_read m c 8 a b))
      ho1 ho2)

theorem band_goal_9 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (9 : Fin 16).val) (ho2 : o 2 = col c) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) Finset.univ)))⟩]) i = outFull m c i :=
  band_final_9 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) Finset.univ)))
    (out_chunk_of_1 m c 9 g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3))) o ho
      (fun u a b => bandpay9_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c))) (⟨0, by decide⟩ : Fin 1) a b).trans (rb_read m c 9 a b))
      ho1 ho2)

theorem band_goal_10 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (10 : Fin 16).val) (ho2 : o 2 = col c) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) Finset.univ)))⟩]) i = outFull m c i :=
  band_final_10 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) Finset.univ)))
    (out_chunk_of_0 m c 10 g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3))) o ho
      (fun u a b => bandpay10_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c))) (⟨0, by decide⟩ : Fin 1) a b).trans (rb_read m c 10 a b))
      ho1 ho2)

theorem band_goal_11 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (11 : Fin 16).val) (ho2 : o 2 = col c) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) Finset.univ)))⟩]) i = outFull m c i :=
  band_final_11 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) Finset.univ)))
    (out_chunk_of_1 m c 11 g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3))) o ho
      (fun u a b => bandpay11_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c))) (⟨0, by decide⟩ : Fin 1) a b).trans (rb_read m c 11 a b))
      ho1 ho2)

theorem band_goal_12 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (12 : Fin 16).val) (ho2 : o 2 = col c) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) Finset.univ)))⟩]) i = outFull m c i :=
  band_final_12 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) Finset.univ)))
    (out_chunk_of_0 m c 12 g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3))) o ho
      (fun u a b => bandpay12_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c))) (⟨0, by decide⟩ : Fin 1) a b).trans (rb_read m c 12 a b))
      ho1 ho2)

theorem band_goal_13 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (13 : Fin 16).val) (ho2 : o 2 = col c) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) Finset.univ)))⟩]) i = outFull m c i :=
  band_final_13 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) Finset.univ)))
    (out_chunk_of_1 m c 13 g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3))) o ho
      (fun u a b => bandpay13_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c))) (⟨0, by decide⟩ : Fin 1) a b).trans (rb_read m c 13 a b))
      ho1 ho2)

theorem band_goal_14 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (14 : Fin 16).val) (ho2 : o 2 = col c) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) Finset.univ)))⟩]) i = outFull m c i :=
  band_final_14 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) Finset.univ)))
    (out_chunk_of_0 m c 14 g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3))) o ho
      (fun u a b => bandpay14_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c))) (⟨0, by decide⟩ : Fin 1) a b).trans (rb_read m c 14 a b))
      ho1 ho2)

theorem band_goal_15 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (15 : Fin 16).val) (ho2 : o 2 = col c) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) Finset.univ)))⟩]) i = outFull m c i :=
  band_final_15 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) Finset.univ)))
    (out_chunk_of_1 m c 15 g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))) o ho
      (fun u a b => bandpay15_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c))) (⟨0, by decide⟩ : Fin 1) a b).trans (rb_read m c 15 a b))
      ho1 ho2)

end Cert.KernelIdeal.RS

end
-- ==== Proof.KernelIdealClose.lean ====
import proofs.«901042_g7700000000001043_dist_rs_v7x_xyz2x4x4_x_m8192_n1024_bf16_1_alg».proof.Proof.KernelIdealState

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Closing a device's own transfer cells -/

/-- A cell of the schedule whose owner stands at a round from which no round has a duty, nothing taken of it, closes: its counter reads zero. -/
theorem close_cell (κ : ℕ) (g : GSem nD τ sig) (R : ℕ) (hR : 1 ≤ R) :
    iprop(cellInv ER (sched m) κ g ∗ atPos ER g R ∅ 0) ⊢ (iprop(|={Set.univ}=> semVal g 0) : sProp 𝕄) :=
  Rounds.cell_close ER (sched m) (Set.mem_univ κ) (fun h => h) (R := R) (fun r hr => duties_later m g r (le_trans hR hr))

/-- A departure cell after its one round. -/
theorem close_send (κ : ℕ) (c : Dev nD) (k : Fin 16) (R : ℕ := 1) (hR : 1 ≤ R := by omega) :
    iprop(cellInv ER (sched m) κ (sendCell c k) ∗ atPos ER (sendCell c k) R ∅ 0) ⊢ (iprop(|={Set.univ}=> semVal (sendCell c k) 0) : sProp 𝕄) :=
  close_cell m κ (sendCell c k) R hR

/-- An arrival cell after its one round. -/
theorem close_recv (κ : ℕ) (c : Dev nD) (k : Fin 16) (R : ℕ := 1) (hR : 1 ≤ R := by omega) :
    iprop(cellInv ER (sched m) κ (recvCell c k) ∗ atPos ER (recvCell c k) R ∅ 0) ⊢ (iprop(|={Set.univ}=> semVal (recvCell c k) 0) : sProp 𝕄) :=
  close_cell m κ (recvCell c k) R hR

/-- Two closings side by side: the first of each chain, then the rest. -/
theorem close_step {P A Ps As Z Zs : sProp 𝕄} (h1 : iprop(P ∗ A) ⊢ iprop(|={Set.univ}=> Z)) (h2 : iprop(Ps ∗ As) ⊢ iprop(|={Set.univ}=> Zs)) :
    iprop((P ∗ Ps) ∗ (A ∗ As)) ⊢ iprop(|={Set.univ}=> (Z ∗ Zs)) := by
  iintro ⟨⟨HP, HPs⟩, ⟨HA, HAs⟩⟩
  imod h1 $$ [HP HA] with HZ
  · isplitl [HP] <;> iassumption
  imod h2 $$ [HPs HAs] with HZs
  · isplitl [HPs] <;> iassumption
  imodintro
  isplitl [HZ] <;> iassumption

/-- The thirty-two semaphores of the exchange at zero, in index order: sixteen departures, then sixteen arrivals. -/
def ownSems (c : Dev nD) : sProp 𝕄 :=
  iprop(semVal (((c : Thread nD τ), SemLoc.dma (⟨0, by decide⟩ : DmaSem sig)) : GSem nD τ sig) 0
    ∗ semVal (((c : Thread nD τ), SemLoc.dma (⟨1, by decide⟩ : DmaSem sig)) : GSem nD τ sig) 0
    ∗ semVal (((c : Thread nD τ), SemLoc.dma (⟨2, by decide⟩ : DmaSem sig)) : GSem nD τ sig) 0
    ∗ semVal (((c : Thread nD τ), SemLoc.dma (⟨3, by decide⟩ : DmaSem sig)) : GSem nD τ sig) 0
    ∗ semVal (((c : Thread nD τ), SemLoc.dma (⟨4, by decide⟩ : DmaSem sig)) : GSem nD τ sig) 0
    ∗ semVal (((c : Thread nD τ), SemLoc.dma (⟨5, by decide⟩ : DmaSem sig)) : GSem nD τ sig) 0
    ∗ semVal (((c : Thread nD τ), SemLoc.dma (⟨6, by decide⟩ : DmaSem sig)) : GSem nD τ sig) 0
    ∗ semVal (((c : Thread nD τ), SemLoc.dma (⟨7, by decide⟩ : DmaSem sig)) : GSem nD τ sig) 0
    ∗ semVal (((c : Thread nD τ), SemLoc.dma (⟨8, by decide⟩ : DmaSem sig)) : GSem nD τ sig) 0
    ∗ semVal (((c : Thread nD τ), SemLoc.dma (⟨9, by decide⟩ : DmaSem sig)) : GSem nD τ sig) 0
    ∗ semVal (((c : Thread nD τ), SemLoc.dma (⟨10, by decide⟩ : DmaSem sig)) : GSem nD τ sig) 0
    ∗ semVal (((c : Thread nD τ), SemLoc.dma (⟨11, by decide⟩ : DmaSem sig)) : GSem nD τ sig) 0
    ∗ semVal (((c : Thread nD τ), SemLoc.dma (⟨12, by decide⟩ : DmaSem sig)) : GSem nD τ sig) 0
    ∗ semVal (((c : Thread nD τ), SemLoc.dma (⟨13, by decide⟩ : DmaSem sig)) : GSem nD τ sig) 0
    ∗ semVal (((c : Thread nD τ), SemLoc.dma (⟨14, by decide⟩ : DmaSem sig)) : GSem nD τ sig) 0
    ∗ semVal (((c : Thread nD τ), SemLoc.dma (⟨15, by decide⟩ : DmaSem sig)) : GSem nD τ sig) 0
    ∗ semVal (((c : Thread nD τ), SemLoc.dma (⟨16, by decide⟩ : DmaSem sig)) : GSem nD τ sig) 0
    ∗ semVal (((c : Thread nD τ), SemLoc.dma (⟨17, by decide⟩ : DmaSem sig)) : GSem nD τ sig) 0
    ∗ semVal (((c : Thread nD τ), SemLoc.dma (⟨18, by decide⟩ : DmaSem sig)) : GSem nD τ sig) 0
    ∗ semVal (((c : Thread nD τ), SemLoc.dma (⟨19, by decide⟩ : DmaSem sig)) : GSem nD τ sig) 0
    ∗ semVal (((c : Thread nD τ), SemLoc.dma (⟨20, by decide⟩ : DmaSem sig)) : GSem nD τ sig) 0
    ∗ semVal (((c : Thread nD τ), SemLoc.dma (⟨21, by decide⟩ : DmaSem sig)) : GSem nD τ sig) 0
    ∗ semVal (((c : Thread nD τ), SemLoc.dma (⟨22, by decide⟩ : DmaSem sig)) : GSem nD τ sig) 0
    ∗ semVal (((c : Thread nD τ), SemLoc.dma (⟨23, by decide⟩ : DmaSem sig)) : GSem nD τ sig) 0
    ∗ semVal (((c : Thread nD τ), SemLoc.dma (⟨24, by decide⟩ : DmaSem sig)) : GSem nD τ sig) 0
    ∗ semVal (((c : Thread nD τ), SemLoc.dma (⟨25, by decide⟩ : DmaSem sig)) : GSem nD τ sig) 0
    ∗ semVal (((c : Thread nD τ), SemLoc.dma (⟨26, by decide⟩ : DmaSem sig)) : GSem nD τ sig) 0
    ∗ semVal (((c : Thread nD τ), SemLoc.dma (⟨27, by decide⟩ : DmaSem sig)) : GSem nD τ sig) 0
    ∗ semVal (((c : Thread nD τ), SemLoc.dma (⟨28, by decide⟩ : DmaSem sig)) : GSem nD τ sig) 0
    ∗ semVal (((c : Thread nD τ), SemLoc.dma (⟨29, by decide⟩ : DmaSem sig)) : GSem nD τ sig) 0
    ∗ semVal (((c : Thread nD τ), SemLoc.dma (⟨30, by decide⟩ : DmaSem sig)) : GSem nD τ sig) 0
    ∗ semVal (((c : Thread nD τ), SemLoc.dma (⟨31, by decide⟩ : DmaSem sig)) : GSem nD τ sig) 0)

/-- All thirty-two of a device's own transfer cells close, each invariant with its position. -/
theorem close_own (K : Dev nD × Fin 33 → ℕ) (c : Dev nD) (R : ℕ) (hR : 1 ≤ R) :
    iprop((cellInv ER (sched m) (K (c, 1)) (sendCell c 0)
        ∗ cellInv ER (sched m) (K (c, 2)) (sendCell c 1)
        ∗ cellInv ER (sched m) (K (c, 3)) (sendCell c 2)
        ∗ cellInv ER (sched m) (K (c, 4)) (sendCell c 3)
        ∗ cellInv ER (sched m) (K (c, 5)) (sendCell c 4)
        ∗ cellInv ER (sched m) (K (c, 6)) (sendCell c 5)
        ∗ cellInv ER (sched m) (K (c, 7)) (sendCell c 6)
        ∗ cellInv ER (sched m) (K (c, 8)) (sendCell c 7)
        ∗ cellInv ER (sched m) (K (c, 9)) (sendCell c 8)
        ∗ cellInv ER (sched m) (K (c, 10)) (sendCell c 9)
        ∗ cellInv ER (sched m) (K (c, 11)) (sendCell c 10)
        ∗ cellInv ER (sched m) (K (c, 12)) (sendCell c 11)
        ∗ cellInv ER (sched m) (K (c, 13)) (sendCell c 12)
        ∗ cellInv ER (sched m) (K (c, 14)) (sendCell c 13)
        ∗ cellInv ER (sched m) (K (c, 15)) (sendCell c 14)
        ∗ cellInv ER (sched m) (K (c, 16)) (sendCell c 15)
        ∗ cellInv ER (sched m) (K (c, 17)) (recvCell c 0)
        ∗ cellInv ER (sched m) (K (c, 18)) (recvCell c 1)
        ∗ cellInv ER (sched m) (K (c, 19)) (recvCell c 2)
        ∗ cellInv ER (sched m) (K (c, 20)) (recvCell c 3)
        ∗ cellInv ER (sched m) (K (c, 21)) (recvCell c 4)
        ∗ cellInv ER (sched m) (K (c, 22)) (recvCell c 5)
        ∗ cellInv ER (sched m) (K (c, 23)) (recvCell c 6)
        ∗ cellInv ER (sched m) (K (c, 24)) (recvCell c 7)
        ∗ cellInv ER (sched m) (K (c, 25)) (recvCell c 8)
        ∗ cellInv ER (sched m) (K (c, 26)) (recvCell c 9)
        ∗ cellInv ER (sched m) (K (c, 27)) (recvCell c 10)
        ∗ cellInv ER (sched m) (K (c, 28)) (recvCell c 11)
        ∗ cellInv ER (sched m) (K (c, 29)) (recvCell c 12)
        ∗ cellInv ER (sched m) (K (c, 30)) (recvCell c 13)
        ∗ cellInv ER (sched m) (K (c, 31)) (recvCell c 14)
        ∗ cellInv ER (sched m) (K (c, 32)) (recvCell c 15))
      ∗ (atPos ER (sendCell c 0) R ∅ 0
        ∗ atPos ER (sendCell c 1) R ∅ 0
        ∗ atPos ER (sendCell c 2) R ∅ 0
        ∗ atPos ER (sendCell c 3) R ∅ 0
        ∗ atPos ER (sendCell c 4) R ∅ 0
        ∗ atPos ER (sendCell c 5) R ∅ 0
        ∗ atPos ER (sendCell c 6) R ∅ 0
        ∗ atPos ER (sendCell c 7) R ∅ 0
        ∗ atPos ER (sendCell c 8) R ∅ 0
        ∗ atPos ER (sendCell c 9) R ∅ 0
        ∗ atPos ER (sendCell c 10) R ∅ 0
        ∗ atPos ER (sendCell c 11) R ∅ 0
        ∗ atPos ER (sendCell c 12) R ∅ 0
        ∗ atPos ER (sendCell c 13) R ∅ 0
        ∗ atPos ER (sendCell c 14) R ∅ 0
        ∗ atPos ER (sendCell c 15) R ∅ 0
        ∗ atPos ER (recvCell c 0) R ∅ 0
        ∗ atPos ER (recvCell c 1) R ∅ 0
        ∗ atPos ER (recvCell c 2) R ∅ 0
        ∗ atPos ER (recvCell c 3) R ∅ 0
        ∗ atPos ER (recvCell c 4) R ∅ 0
        ∗ atPos ER (recvCell c 5) R ∅ 0
        ∗ atPos ER (recvCell c 6) R ∅ 0
        ∗ atPos ER (recvCell c 7) R ∅ 0
        ∗ atPos ER (recvCell c 8) R ∅ 0
        ∗ atPos ER (recvCell c 9) R ∅ 0
        ∗ atPos ER (recvCell c 10) R ∅ 0
        ∗ atPos ER (recvCell c 11) R ∅ 0
        ∗ atPos ER (recvCell c 12) R ∅ 0
        ∗ atPos ER (recvCell c 13) R ∅ 0
        ∗ atPos ER (recvCell c 14) R ∅ 0
        ∗ atPos ER (recvCell c 15) R ∅ 0))
      ⊢ (iprop(|={Set.univ}=> ownSems c) : sProp 𝕄) := by
  unfold ownSems
  exact (close_step (close_send m _ c 0 R hR)
    (close_step (close_send m _ c 1 R hR)
    (close_step (close_send m _ c 2 R hR)
    (close_step (close_send m _ c 3 R hR)
    (close_step (close_send m _ c 4 R hR)
    (close_step (close_send m _ c 5 R hR)
    (close_step (close_send m _ c 6 R hR)
    (close_step (close_send m _ c 7 R hR)
    (close_step (close_send m _ c 8 R hR)
    (close_step (close_send m _ c 9 R hR)
    (close_step (close_send m _ c 10 R hR)
    (close_step (close_send m _ c 11 R hR)
    (close_step (close_send m _ c 12 R hR)
    (close_step (close_send m _ c 13 R hR)
    (close_step (close_send m _ c 14 R hR)
    (close_step (close_send m _ c 15 R hR)
    (close_step (close_recv m _ c 0 R hR)
    (close_step (close_recv m _ c 1 R hR)
    (close_step (close_recv m _ c 2 R hR)
    (close_step (close_recv m _ c 3 R hR)
    (close_step (close_recv m _ c 4 R hR)
    (close_step (close_recv m _ c 5 R hR)
    (close_step (close_recv m _ c 6 R hR)
    (close_step (close_recv m _ c 7 R hR)
    (close_step (close_recv m _ c 8 R hR)
    (close_step (close_recv m _ c 9 R hR)
    (close_step (close_recv m _ c 10 R hR)
    (close_step (close_recv m _ c 11 R hR)
    (close_step (close_recv m _ c 12 R hR)
    (close_step (close_recv m _ c 13 R hR)
    (close_step (close_recv m _ c 14 R hR)
    (close_recv m _ c 15 R hR))))))))))))))))))))))))))))))))

/-- Moving the head of a chain across a bracket. -/
theorem chain_step {a X Lc Y : sProp 𝕄} (h : iprop(X ∗ Lc) ⊢ Y) : iprop((a ∗ X) ∗ Lc) ⊢ iprop(a ∗ Y) := by
  iintro ⟨⟨Ha, HX⟩, HL⟩
  isplitl [Ha]; · iexact Ha
  iapply h
  isplitl [HX] <;> iassumption

/-- The exchange's thirty-two semaphores and the local copies' eight are all forty. -/
theorem allSems_of (c : Dev nD) : iprop(ownSems c ∗ localSems c) ⊢ (allSems c : sProp 𝕄) := by
  unfold ownSems localSems allSems
  exact (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step Entails.rfl)))))))))))))))))))))))))))))))

/-- info: 'Cert.KernelIdeal.RS.close_own' depends on axioms: [propext, Classical.choice, Quot.sound] -/
#guard_msgs in #print axioms close_own

/-- info: 'Cert.KernelIdeal.RS.allSems_of' depends on axioms: [propext, Classical.choice, Quot.sound] -/
#guard_msgs in #print axioms allSems_of

end Cert.KernelIdeal.RS

end
-- ==== Proof.KernelIdealBodyCtx.lean ====
import proofs.«901042_g7700000000001043_dist_rs_v7x_xyz2x4x4_x_m8192_n1024_bf16_1_alg».proof.Proof.KernelIdealState

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- What the body's run starts from, every piece spelt out: the cells' invariants and reached rounds, the positions, the duty tokens
    to pay, the launch credit, the debt, the three arrays and the five scratch buffers (each through its whole memref's view),
    and the eight local-copy semaphores at zero. -/
def bodyCtx (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) : sProp 𝕄 :=
    iprop(cellInv ER (sched m) (K (c, 0)) (barCell c)
      ∗ cellInv ER (sched m) (K (c, 1)) (sendCell c 0)
      ∗ cellInv ER (sched m) (K (c, 2)) (sendCell c 1)
      ∗ cellInv ER (sched m) (K (c, 3)) (sendCell c 2)
      ∗ cellInv ER (sched m) (K (c, 4)) (sendCell c 3)
      ∗ cellInv ER (sched m) (K (c, 5)) (sendCell c 4)
      ∗ cellInv ER (sched m) (K (c, 6)) (sendCell c 5)
      ∗ cellInv ER (sched m) (K (c, 7)) (sendCell c 6)
      ∗ cellInv ER (sched m) (K (c, 8)) (sendCell c 7)
      ∗ cellInv ER (sched m) (K (c, 9)) (sendCell c 8)
      ∗ cellInv ER (sched m) (K (c, 10)) (sendCell c 9)
      ∗ cellInv ER (sched m) (K (c, 11)) (sendCell c 10)
      ∗ cellInv ER (sched m) (K (c, 12)) (sendCell c 11)
      ∗ cellInv ER (sched m) (K (c, 13)) (sendCell c 12)
      ∗ cellInv ER (sched m) (K (c, 14)) (sendCell c 13)
      ∗ cellInv ER (sched m) (K (c, 15)) (sendCell c 14)
      ∗ cellInv ER (sched m) (K (c, 16)) (sendCell c 15)
      ∗ cellInv ER (sched m) (K (c, 17)) (recvCell c 0)
      ∗ cellInv ER (sched m) (K (c, 18)) (recvCell c 1)
      ∗ cellInv ER (sched m) (K (c, 19)) (recvCell c 2)
      ∗ cellInv ER (sched m) (K (c, 20)) (recvCell c 3)
      ∗ cellInv ER (sched m) (K (c, 21)) (recvCell c 4)
      ∗ cellInv ER (sched m) (K (c, 22)) (recvCell c 5)
      ∗ cellInv ER (sched m) (K (c, 23)) (recvCell c 6)
      ∗ cellInv ER (sched m) (K (c, 24)) (recvCell c 7)
      ∗ cellInv ER (sched m) (K (c, 25)) (recvCell c 8)
      ∗ cellInv ER (sched m) (K (c, 26)) (recvCell c 9)
      ∗ cellInv ER (sched m) (K (c, 27)) (recvCell c 10)
      ∗ cellInv ER (sched m) (K (c, 28)) (recvCell c 11)
      ∗ cellInv ER (sched m) (K (c, 29)) (recvCell c 12)
      ∗ cellInv ER (sched m) (K (c, 30)) (recvCell c 13)
      ∗ cellInv ER (sched m) (K (c, 31)) (recvCell c 14)
      ∗ cellInv ER (sched m) (K (c, 32)) (recvCell c 15)
      ∗ cellInv ER (sched m) (K (peer c, 0)) (barCell (peer c))
      ∗ cellInv ER (sched m) (K (peer c, 17)) (recvCell (peer c) 0)
      ∗ cellInv ER (sched m) (K (peer c, 18)) (recvCell (peer c) 1)
      ∗ cellInv ER (sched m) (K (peer c, 19)) (recvCell (peer c) 2)
      ∗ cellInv ER (sched m) (K (peer c, 20)) (recvCell (peer c) 3)
      ∗ cellInv ER (sched m) (K (peer c, 21)) (recvCell (peer c) 4)
      ∗ cellInv ER (sched m) (K (peer c, 22)) (recvCell (peer c) 5)
      ∗ cellInv ER (sched m) (K (peer c, 23)) (recvCell (peer c) 6)
      ∗ cellInv ER (sched m) (K (peer c, 24)) (recvCell (peer c) 7)
      ∗ cellInv ER (sched m) (K (peer c, 25)) (recvCell (peer c) 8)
      ∗ cellInv ER (sched m) (K (peer c, 26)) (recvCell (peer c) 9)
      ∗ cellInv ER (sched m) (K (peer c, 27)) (recvCell (peer c) 10)
      ∗ cellInv ER (sched m) (K (peer c, 28)) (recvCell (peer c) 11)
      ∗ cellInv ER (sched m) (K (peer c, 29)) (recvCell (peer c) 12)
      ∗ cellInv ER (sched m) (K (peer c, 30)) (recvCell (peer c) 13)
      ∗ cellInv ER (sched m) (K (peer c, 31)) (recvCell (peer c) 14)
      ∗ cellInv ER (sched m) (K (peer c, 32)) (recvCell (peer c) 15)
      ∗ reached ER (barCell c) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ reached ER (sendCell c 7) 0
      ∗ reached ER (sendCell c 8) 0
      ∗ reached ER (sendCell c 9) 0
      ∗ reached ER (sendCell c 10) 0
      ∗ reached ER (sendCell c 11) 0
      ∗ reached ER (sendCell c 12) 0
      ∗ reached ER (sendCell c 13) 0
      ∗ reached ER (sendCell c 14) 0
      ∗ reached ER (sendCell c 15) 0
      ∗ reached ER (recvCell c 0) 0
      ∗ reached ER (recvCell c 1) 0
      ∗ reached ER (recvCell c 2) 0
      ∗ reached ER (recvCell c 3) 0
      ∗ reached ER (recvCell c 4) 0
      ∗ reached ER (recvCell c 5) 0
      ∗ reached ER (recvCell c 6) 0
      ∗ reached ER (recvCell c 7) 0
      ∗ reached ER (recvCell c 8) 0
      ∗ reached ER (recvCell c 9) 0
      ∗ reached ER (recvCell c 10) 0
      ∗ reached ER (recvCell c 11) 0
      ∗ reached ER (recvCell c 12) 0
      ∗ reached ER (recvCell c 13) 0
      ∗ reached ER (recvCell c 14) 0
      ∗ reached ER (recvCell c 15) 0
      ∗ reached ER (barCell (peer c)) 0
      ∗ reached ER (recvCell (peer c) 0) 0
      ∗ reached ER (recvCell (peer c) 1) 0
      ∗ reached ER (recvCell (peer c) 2) 0
      ∗ reached ER (recvCell (peer c) 3) 0
      ∗ reached ER (recvCell (peer c) 4) 0
      ∗ reached ER (recvCell (peer c) 5) 0
      ∗ reached ER (recvCell (peer c) 6) 0
      ∗ reached ER (recvCell (peer c) 7) 0
      ∗ reached ER (recvCell (peer c) 8) 0
      ∗ reached ER (recvCell (peer c) 9) 0
      ∗ reached ER (recvCell (peer c) 10) 0
      ∗ reached ER (recvCell (peer c) 11) 0
      ∗ reached ER (recvCell (peer c) 12) 0
      ∗ reached ER (recvCell (peer c) 13) 0
      ∗ reached ER (recvCell (peer c) 14) 0
      ∗ reached ER (recvCell (peer c) 15) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (sendCell c 7) 0 ∅ 0
      ∗ atPos ER (sendCell c 8) 0 ∅ 0
      ∗ atPos ER (sendCell c 9) 0 ∅ 0
      ∗ atPos ER (sendCell c 10) 0 ∅ 0
      ∗ atPos ER (sendCell c 11) 0 ∅ 0
      ∗ atPos ER (sendCell c 12) 0 ∅ 0
      ∗ atPos ER (sendCell c 13) 0 ∅ 0
      ∗ atPos ER (sendCell c 14) 0 ∅ 0
      ∗ atPos ER (sendCell c 15) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ atPos ER (recvCell c 7) 0 ∅ 0
      ∗ atPos ER (recvCell c 8) 0 ∅ 0
      ∗ atPos ER (recvCell c 9) 0 ∅ 0
      ∗ atPos ER (recvCell c 10) 0 ∅ 0
      ∗ atPos ER (recvCell c 11) 0 ∅ 0
      ∗ atPos ER (recvCell c 12) 0 ∅ 0
      ∗ atPos ER (recvCell c 13) 0 ∅ 0
      ∗ atPos ER (recvCell c 14) 0 ∅ 0
      ∗ atPos ER (recvCell c 15) 0 ∅ 0
      ∗ dutyTok ER (barCell (peer c)) 0 ()
      ∗ dutyTok ER (recvCell (peer c) 0) 0 ()
      ∗ dutyTok ER (recvCell (peer c) 1) 0 ()
      ∗ dutyTok ER (recvCell (peer c) 2) 0 ()
      ∗ dutyTok ER (recvCell (peer c) 3) 0 ()
      ∗ dutyTok ER (recvCell (peer c) 4) 0 ()
      ∗ dutyTok ER (recvCell (peer c) 5) 0 ()
      ∗ dutyTok ER (recvCell (peer c) 6) 0 ()
      ∗ dutyTok ER (recvCell (peer c) 7) 0 ()
      ∗ dutyTok ER (recvCell (peer c) 8) 0 ()
      ∗ dutyTok ER (recvCell (peer c) 9) 0 ()
      ∗ dutyTok ER (recvCell (peer c) 10) 0 ()
      ∗ dutyTok ER (recvCell (peer c) 11) 0 ()
      ∗ dutyTok ER (recvCell (peer c) 12) 0 ()
      ∗ dutyTok ER (recvCell (peer c) 13) 0 ()
      ∗ dutyTok ER (recvCell (peer c) 14) 0 ()
      ∗ dutyTok ER (recvCell (peer c) 15) 0 ()
      ∗ dutyTok ER (sendCell c 0) 0 ()
      ∗ dutyTok ER (sendCell c 1) 0 ()
      ∗ dutyTok ER (sendCell c 2) 0 ()
      ∗ dutyTok ER (sendCell c 3) 0 ()
      ∗ dutyTok ER (sendCell c 4) 0 ()
      ∗ dutyTok ER (sendCell c 5) 0 ()
      ∗ dutyTok ER (sendCell c 6) 0 ()
      ∗ dutyTok ER (sendCell c 7) 0 ()
      ∗ dutyTok ER (sendCell c 8) 0 ()
      ∗ dutyTok ER (sendCell c 9) 0 ()
      ∗ dutyTok ER (sendCell c 10) 0 ()
      ∗ dutyTok ER (sendCell c 11) 0 ()
      ∗ dutyTok ER (sendCell c 12) 0 ()
      ∗ dutyTok ER (sendCell c 13) 0 ()
      ∗ dutyTok ER (sendCell c 14) 0 ()
      ∗ dutyTok ER (sendCell c 15) 0 ()
      ∗ cred (tallyAt (barCell c) () 1)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N)
      ∗ cred (tallyAt (recvCell c 7) () N)
      ∗ cred (tallyAt (recvCell c 8) () N)
      ∗ cred (tallyAt (recvCell c 9) () N)
      ∗ cred (tallyAt (recvCell c 10) () N)
      ∗ cred (tallyAt (recvCell c 11) () N)
      ∗ cred (tallyAt (recvCell c 12) () N)
      ∗ cred (tallyAt (recvCell c 13) () N)
      ∗ cred (tallyAt (recvCell c 14) () N)
      ∗ cred (tallyAt (recvCell c 15) () N)
      ∗ owes (c : Thread nD τ) (O₀ c) W
      ∗ ((Memref.whole main_arg0 : Memref sig .tc .hbm S1x8192x2048 .f32).view.loc (c : Thread nD τ) ↦[(Memref.whole main_arg0 : Memref sig .tc .hbm S1x8192x2048 .f32).view.set]{fullShare} m ((c : Thread nD τ).loc main_arg0))
      ∗ ((Memref.whole main_v1_0 : Memref sig .tc .hbm S8192x1024 .bf16).view.loc (c : Thread nD τ) ↦[(Memref.whole main_v1_0 : Memref sig .tc .hbm S8192x1024 .bf16).view.set]{fullShare} m ((c : Thread nD τ).loc main_v1_0))
      ∗ ((Memref.whole main_v1_1 : Memref sig .tc .hbm S8192x1024 .bf16).view.loc (c : Thread nD τ) ↦[(Memref.whole main_v1_1 : Memref sig .tc .hbm S8192x1024 .bf16).view.set]{fullShare} m ((c : Thread nD τ).loc main_v1_1))
      ∗ ((Memref.whole cc0_scratch0 : Memref sig .tc .vmem S2x512x1024 .f32).view.loc (c : Thread nD τ) ↦[(Memref.whole cc0_scratch0 : Memref sig .tc .vmem S2x512x1024 .f32).view.set]{fullShare} f0)
      ∗ ((Memref.whole cc0_scratch1 : Memref sig .tc .vmem S4x512x1024 .bf16).view.loc (c : Thread nD τ) ↦[(Memref.whole cc0_scratch1 : Memref sig .tc .vmem S4x512x1024 .bf16).view.set]{fullShare} f1)
      ∗ ((Memref.whole cc0_scratch2 : Memref sig .tc .vmem S2x512x1024 .f32).view.loc (c : Thread nD τ) ↦[(Memref.whole cc0_scratch2 : Memref sig .tc .vmem S2x512x1024 .f32).view.set]{fullShare} f2)
      ∗ ((Memref.whole cc0_scratch3 : Memref sig .tc .vmem S2x512x1024 .bf16).view.loc (c : Thread nD τ) ↦[(Memref.whole cc0_scratch3 : Memref sig .tc .vmem S2x512x1024 .bf16).view.set]{fullShare} f3)
      ∗ ((Memref.whole cc0_scratch4 : Memref sig .tc .vmem S2x512x1024 .bf16).view.loc (c : Thread nD τ) ↦[(Memref.whole cc0_scratch4 : Memref sig .tc .vmem S2x512x1024 .bf16).view.set]{fullShare} f4)
      ∗ semVal (((c : Thread nD τ), SemLoc.dma (⟨32, by decide⟩ : DmaSem sig)) : GSem nD τ sig) 0
      ∗ semVal (((c : Thread nD τ), SemLoc.dma (⟨33, by decide⟩ : DmaSem sig)) : GSem nD τ sig) 0
      ∗ semVal (((c : Thread nD τ), SemLoc.dma (⟨34, by decide⟩ : DmaSem sig)) : GSem nD τ sig) 0
      ∗ semVal (((c : Thread nD τ), SemLoc.dma (⟨35, by decide⟩ : DmaSem sig)) : GSem nD τ sig) 0
      ∗ semVal (((c : Thread nD τ), SemLoc.dma (⟨36, by decide⟩ : DmaSem sig)) : GSem nD τ sig) 0
      ∗ semVal (((c : Thread nD τ), SemLoc.dma (⟨37, by decide⟩ : DmaSem sig)) : GSem nD τ sig) 0
      ∗ semVal (((c : Thread nD τ), SemLoc.dma (⟨38, by decide⟩ : DmaSem sig)) : GSem nD τ sig) 0
      ∗ semVal (((c : Thread nD τ), SemLoc.dma (⟨39, by decide⟩ : DmaSem sig)) : GSem nD τ sig) 0)

/-- What it ends with: the invariant after the point, owing nothing. -/
def bodyEnd (c : Dev nD) : sProp 𝕄 := iprop(Φ₁ m c ∗ ∃ W' : Waits sig Unit, owes (c : Thread nD τ) 0 W')

end Cert.KernelIdeal.RS

end
-- ==== Proof.KernelIdealBodyWrap.lean ====
import proofs.«901042_g7700000000001043_dist_rs_v7x_xyz2x4x4_x_m8192_n1024_bf16_1_alg».proof.Proof.KernelIdealBodyCtx

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## From the pipeline library's body obligation to the body's own starting context and back -/

omit [FloatOps F] in
/-- Separating conjunction reassociated, as an equation of assertions. -/
theorem sep_assoc_eq (P Q R : sProp 𝕄) : iprop((P ∗ Q) ∗ R) = iprop(P ∗ Q ∗ R) :=
  Idealize.SL.BI.Entails.antisymm Idealize.SL.BI.sep_assoc Idealize.SL.BI.sep_assoc'

omit [FloatOps F] in
/-- A whole buffer held through its whole memref's view is the buffer held. -/
theorem pts_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-! The same for each of the call's eight buffers, spelt as the starting context spells them. -/
omit [FloatOps F] in
theorem pts_arg0 (c : Dev nD) (f : Buf (Elt F) ((c : Thread nD τ).loc main_arg0)) :
    (((Memref.whole main_arg0 : Memref sig .tc .hbm S1x8192x2048 .f32).view.loc (c : Thread nD τ) ↦[(Memref.whole main_arg0 : Memref sig .tc .hbm S1x8192x2048 .f32).view.set]{fullShare} f) : sProp 𝕄) = (((c : Thread nD τ).loc main_arg0) ↦{fullShare} f) := pts_whole c main_arg0 f
omit [FloatOps F] in
theorem pts_v1_0 (c : Dev nD) (f : Buf (Elt F) ((c : Thread nD τ).loc main_v1_0)) :
    (((Memref.whole main_v1_0 : Memref sig .tc .hbm S8192x1024 .bf16).view.loc (c : Thread nD τ) ↦[(Memref.whole main_v1_0 : Memref sig .tc .hbm S8192x1024 .bf16).view.set]{fullShare} f) : sProp 𝕄) = (((c : Thread nD τ).loc main_v1_0) ↦{fullShare} f) := pts_whole c main_v1_0 f
omit [FloatOps F] in
theorem pts_v1_1 (c : Dev nD) (f : Buf (Elt F) ((c : Thread nD τ).loc main_v1_1)) :
    (((Memref.whole main_v1_1 : Memref sig .tc .hbm S8192x1024 .bf16).view.loc (c : Thread nD τ) ↦[(Memref.whole main_v1_1 : Memref sig .tc .hbm S8192x1024 .bf16).view.set]{fullShare} f) : sProp 𝕄) = (((c : Thread nD τ).loc main_v1_1) ↦{fullShare} f) := pts_whole c main_v1_1 f
omit [FloatOps F] in
theorem pts_s0 (c : Dev nD) (f : Buf (Elt F) ((c : Thread nD τ).loc cc0_scratch0)) :
    (((Memref.whole cc0_scratch0 : Memref sig .tc .vmem S2x512x1024 .f32).view.loc (c : Thread nD τ) ↦[(Memref.whole cc0_scratch0 : Memref sig .tc .vmem S2x512x1024 .f32).view.set]{fullShare} f) : sProp 𝕄) = (((c : Thread nD τ).loc cc0_scratch0) ↦{fullShare} f) := pts_whole c cc0_scratch0 f
omit [FloatOps F] in
theorem pts_s1 (c : Dev nD) (f : Buf (Elt F) ((c : Thread nD τ).loc cc0_scratch1)) :
    (((Memref.whole cc0_scratch1 : Memref sig .tc .vmem S4x512x1024 .bf16).view.loc (c : Thread nD τ) ↦[(Memref.whole cc0_scratch1 : Memref sig .tc .vmem S4x512x1024 .bf16).view.set]{fullShare} f) : sProp 𝕄) = (((c : Thread nD τ).loc cc0_scratch1) ↦{fullShare} f) := pts_whole c cc0_scratch1 f
omit [FloatOps F] in
theorem pts_s2 (c : Dev nD) (f : Buf (Elt F) ((c : Thread nD τ).loc cc0_scratch2)) :
    (((Memref.whole cc0_scratch2 : Memref sig .tc .vmem S2x512x1024 .f32).view.loc (c : Thread nD τ) ↦[(Memref.whole cc0_scratch2 : Memref sig .tc .vmem S2x512x1024 .f32).view.set]{fullShare} f) : sProp 𝕄) = (((c : Thread nD τ).loc cc0_scratch2) ↦{fullShare} f) := pts_whole c cc0_scratch2 f
omit [FloatOps F] in
theorem pts_s3 (c : Dev nD) (f : Buf (Elt F) ((c : Thread nD τ).loc cc0_scratch3)) :
    (((Memref.whole cc0_scratch3 : Memref sig .tc .vmem S2x512x1024 .bf16).view.loc (c : Thread nD τ) ↦[(Memref.whole cc0_scratch3 : Memref sig .tc .vmem S2x512x1024 .bf16).view.set]{fullShare} f) : sProp 𝕄) = (((c : Thread nD τ).loc cc0_scratch3) ↦{fullShare} f) := pts_whole c cc0_scratch3 f
omit [FloatOps F] in
theorem pts_s4 (c : Dev nD) (f : Buf (Elt F) ((c : Thread nD τ).loc cc0_scratch4)) :
    (((Memref.whole cc0_scratch4 : Memref sig .tc .vmem S2x512x1024 .bf16).view.loc (c : Thread nD τ) ↦[(Memref.whole cc0_scratch4 : Memref sig .tc .vmem S2x512x1024 .bf16).view.set]{fullShare} f) : sProp 𝕄) = (((c : Thread nD τ).loc cc0_scratch4) ↦{fullShare} f) := pts_whole c cc0_scratch4 f

omit [FloatOps F] in
/-- No staged window: a product over the windows is empty. -/
theorem bigSep_noW (Φ : Fin cfg0.W → sProp 𝕄) : bigSep Finset.univ Φ = iprop(emp) :=
  bigSep_univ_eq_bigSepL [] (by decide) (by decide) Φ

/-- The starting context, from its groups: the same conjuncts with the groups' brackets dropped. -/
theorem ctx_intro (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    iprop(invs m K c ∗ marks c ∗ levAts L lv ∗ positions c ∗ payToks c ∗ creds c ∗ owes (c : Thread nD τ) (O₀ c) W
        ∗ ((Memref.whole main_arg0 : Memref sig .tc .hbm S1x8192x2048 .f32).view.loc (c : Thread nD τ) ↦[(Memref.whole main_arg0 : Memref sig .tc .hbm S1x8192x2048 .f32).view.set]{fullShare} m ((c : Thread nD τ).loc main_arg0))
        ∗ ((Memref.whole main_v1_0 : Memref sig .tc .hbm S8192x1024 .bf16).view.loc (c : Thread nD τ) ↦[(Memref.whole main_v1_0 : Memref sig .tc .hbm S8192x1024 .bf16).view.set]{fullShare} m ((c : Thread nD τ).loc main_v1_0))
        ∗ ((Memref.whole main_v1_1 : Memref sig .tc .hbm S8192x1024 .bf16).view.loc (c : Thread nD τ) ↦[(Memref.whole main_v1_1 : Memref sig .tc .hbm S8192x1024 .bf16).view.set]{fullShare} m ((c : Thread nD τ).loc main_v1_1))
        ∗ ((Memref.whole cc0_scratch0 : Memref sig .tc .vmem S2x512x1024 .f32).view.loc (c : Thread nD τ) ↦[(Memref.whole cc0_scratch0 : Memref sig .tc .vmem S2x512x1024 .f32).view.set]{fullShare} f0)
        ∗ ((Memref.whole cc0_scratch1 : Memref sig .tc .vmem S4x512x1024 .bf16).view.loc (c : Thread nD τ) ↦[(Memref.whole cc0_scratch1 : Memref sig .tc .vmem S4x512x1024 .bf16).view.set]{fullShare} f1)
        ∗ ((Memref.whole cc0_scratch2 : Memref sig .tc .vmem S2x512x1024 .f32).view.loc (c : Thread nD τ) ↦[(Memref.whole cc0_scratch2 : Memref sig .tc .vmem S2x512x1024 .f32).view.set]{fullShare} f2)
        ∗ ((Memref.whole cc0_scratch3 : Memref sig .tc .vmem S2x512x1024 .bf16).view.loc (c : Thread nD τ) ↦[(Memref.whole cc0_scratch3 : Memref sig .tc .vmem S2x512x1024 .bf16).view.set]{fullShare} f3)
        ∗ ((Memref.whole cc0_scratch4 : Memref sig .tc .vmem S2x512x1024 .bf16).view.loc (c : Thread nD τ) ↦[(Memref.whole cc0_scratch4 : Memref sig .tc .vmem S2x512x1024 .bf16).view.set]{fullShare} f4)
        ∗ localSems c)
      ⊢ bodyCtx m K c W f0 f1 f2 f3 f4 := by
  unfold bodyCtx invs marks positions payToks creds localSems
  simp only [sep_assoc_eq]
  all_goals exact .rfl

/-- The body's end is the invariant after the point with nothing owed, as the library states it. -/
theorem end_exit (c : Dev nD) :
    bodyEnd m c ⊢ iprop(Φ₁ m c ∗ (dats (F := F) m 0 c).owesAt () t0_0.succ ∗ emp) := by
  unfold bodyEnd Dat.owesAt Pipeline.owesWithin
  rw [show (dats (F := F) m 0 c).owed t0_0.succ = 0 from rfl]
  iintro ⟨H1, ⟨%W', HO⟩⟩
  isplitl [H1]; · iexact H1
  isplitl [HO]
  · iexists W'
    isplitr; · ipureintro; exact fun _ _ => Or.inl trivial
    iexact HO
  · iempintro

/-- The library's body obligation on every device, from the body's run out of its own starting context. -/
theorem body_obligation_of
    (hsound : ∀ (K : Dev nD × Fin 33 → ℕ) (c : Dev nD) (W : Waits sig Unit)
      (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)),
      bodyCtx m K c W f0 f1 f2 f3 f4
        ⊢ wp frame (wpE (defs₀ (F := F)) 𝒱₀ (c : Thread nD τ) none) Set.univ (bodyAt0 (F := F) t0_0) (fun _ => bodyEnd m c)) :
    ∀ c : Dev nD, BodyObligation (dats (F := F) m 0 c) (defs₀ (F := F)) 𝒱₀ () Set.univ := fun c t => by
  rw [fin_N0 t, bigSep_noW, bigSep_noW]
  show iprop(Φ₀ m c ∗ (dats (F := F) m 0 c).owesAt () t0_0.castSucc ∗ emp)
    ⊢ wp frame (wpE (defs₀ (F := F)) 𝒱₀ (c : Thread nD τ) none) Set.univ (bodyAt0 (F := F) t0_0)
        (fun _ => iprop(Φ₁ m c ∗ (dats (F := F) m 0 c).owesAt () t0_0.succ ∗ emp))
  unfold Φ₀ ghost held scratch Dat.owesAt Pipeline.owesWithin
  rw [show (dats (F := F) m 0 c).owed t0_0.castSucc = O₀ c from rfl]
  iintro ⟨⟨⟨%K, Hinv, Hmk, Hpos, Htok⟩, Hcr, Hlev, ⟨Ha, Hb, Hd⟩, Hloc, ⟨%f0, H0⟩, ⟨%f1, H1⟩, ⟨%f2, H2⟩, ⟨%f3, H3⟩, ⟨%f4, H4⟩⟩, ⟨%W, %hW, HO⟩, -⟩
  iapply (wp_mono frame (wpE (defs₀ (F := F)) 𝒱₀ (c : Thread nD τ) none) Set.univ (fun _ => end_exit m c))
  iapply (hsound K c W f0 f1 f2 f3 f4)
  iapply (ctx_intro m K c W f0 f1 f2 f3 f4)
  isplitl [Hinv]; · iexact Hinv
  isplitl [Hmk]; · iexact Hmk
  isplitl [Hlev]; · iexact Hlev
  isplitl [Hpos]; · iexact Hpos
  isplitl [Htok]; · iexact Htok
  isplitl [Hcr]; · iexact Hcr
  isplitl [HO]; · iexact HO
  isplitl [Ha]; · iapply (Entails.of_eq (pts_arg0 (F := F) c _).symm); iexact Ha
  isplitl [Hb]; · iapply (Entails.of_eq (pts_v1_0 (F := F) c _).symm); iexact Hb
  isplitl [Hd]; · iapply (Entails.of_eq (pts_v1_1 (F := F) c _).symm); iexact Hd
  isplitl [H0]; · iapply (Entails.of_eq (pts_s0 (F := F) c _).symm); iexact H0
  isplitl [H1]; · iapply (Entails.of_eq (pts_s1 (F := F) c _).symm); iexact H1
  isplitl [H2]; · iapply (Entails.of_eq (pts_s2 (F := F) c _).symm); iexact H2
  isplitl [H3]; · iapply (Entails.of_eq (pts_s3 (F := F) c _).symm); iexact H3
  isplitl [H4]; · iapply (Entails.of_eq (pts_s4 (F := F) c _).symm); iexact H4
  iexact Hloc

/-- info: 'Cert.KernelIdeal.RS.body_obligation_of' depends on axioms: [propext, Classical.choice, Quot.sound] -/
#guard_msgs in #print axioms body_obligation_of

end Cert.KernelIdeal.RS

end
-- ==== Proof.KernelIdealBody.lean ====
/-
  The body of one device's program, run from the context of KernelIdealBodyCtx to the invariant after the point.

  Every slotted buffer is held slot by slot and the result array band by band. The sixteen sends to the
  partner are applied through the rounds library's send rule, each with the fact that the staging slot holds
  the narrowed chunk; the partner's landing array, handed over by the entry handshake, is written band by band.
  At the end the device's own semaphore cells are closed, the buffers are joined, and each band of the result
  is read as the sum of the device's own chunk and the chunk its partner sent, narrowed.
-/
import proofs.«901042_g7700000000001043_dist_rs_v7x_xyz2x4x4_x_m8192_n1024_bf16_1_alg».proof.Proof.KernelIdealFacts
import proofs.«901042_g7700000000001043_dist_rs_v7x_xyz2x4x4_x_m8192_n1024_bf16_1_alg».proof.Proof.KernelIdealSplit
import proofs.«901042_g7700000000001043_dist_rs_v7x_xyz2x4x4_x_m8192_n1024_bf16_1_alg».proof.Proof.KernelIdealListed
import proofs.«901042_g7700000000001043_dist_rs_v7x_xyz2x4x4_x_m8192_n1024_bf16_1_alg».proof.Proof.KernelIdealBandGoals
import proofs.«901042_g7700000000001043_dist_rs_v7x_xyz2x4x4_x_m8192_n1024_bf16_1_alg».proof.Proof.KernelIdealOutChunk
import proofs.«901042_g7700000000001043_dist_rs_v7x_xyz2x4x4_x_m8192_n1024_bf16_1_alg».proof.Proof.KernelIdealClose
import proofs.«901042_g7700000000001043_dist_rs_v7x_xyz2x4x4_x_m8192_n1024_bf16_1_alg».proof.Proof.KernelIdealBodyWrap

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- A return bound into a continuation is the continuation at the returned value. -/
theorem wp_ret_bind {Ef : Type → Type} {wpEh : Set ℕ → ⦃β : Type⦄ → Ef β → sWPT 𝕄 β} {α β : Type} (a : α) (f : α → Prog Ef β) (Q' : β → sProp 𝕄) :
    wp Idealize.ShloMosaic.frame wpEh Set.univ (f a) Q' ⊢ wp Idealize.ShloMosaic.frame wpEh Set.univ ((Prog.ret a).bind f) Q' :=
  BI.Entails.refl _

omit [FloatOps F] in
theorem owes_zero_add (t : Thread nD τ) (O : CellTallies nD τ sig Unit) (W' : Waits sig Unit) :
    (owes t O W' : sProp 𝕄) = owes t (0 + O) W' := by rw [zero_add]

omit [FloatOps F] in
/-- A bare return: the postcondition at the returned value. -/
theorem wp_ret_intro {Ef : Type → Type} {wpEh : Set ℕ → ⦃β : Type⦄ → Ef β → sWPT 𝕄 β} {β : Type} (a : β) (Q' : β → sProp 𝕄) :
    Q' a ⊢ wp Idealize.ShloMosaic.frame wpEh Set.univ (Prog.ret a : Prog Ef β) Q' := by
  show Q' a ⊢ iprop(|={Set.univ}[Idealize.ShloMosaic.frame]=> Q' a)
  iintro H; imodintro; iexact H

attribute [local sl_rounds] duties_bar duties_send duties_recv amount_bar amount_send amount_recv expect_bar expect_send expect_recv payload_bar_view
attribute [local sl_canon] dev1_eq dev2_eq dev3_eq dev4_eq dev5_eq dev6_eq dev7_eq dev8_eq dev9_eq dev10_eq dev11_eq dev12_eq dev13_eq dev14_eq dev15_eq dev16_eq dev17_eq

theorem payload_recv_v0 (c : Dev nD) (d : Unit) : (sched (F := F) m).payload (recvCell c 0) 0 d
    = (((Memref.whole main_v1_1 : Memref sig .tc .hbm S8192x1024 .bf16).slice (Rect.unit (s := S8192x1024) ![0, 0] S512x1024.size inb_S8192x1024_S512x1024_0_0) (fun _ => rfl)).view.loc (c : Thread nD τ) ↦[((Memref.whole main_v1_1 : Memref sig .tc .hbm S8192x1024 .bf16).slice (Rect.unit (s := S8192x1024) ![0, 0] S512x1024.size inb_S8192x1024_S512x1024_0_0) (fun _ => rfl)).view.set]{fullShare} recvFull m c : sProp 𝕄) := payload_recv m c 0 d
theorem payload_send_v0 (c : Dev nD) (d : Unit) : (sched (F := F) m).payload (sendCell c 0) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 0 d
theorem payload_recv_v1 (c : Dev nD) (d : Unit) : (sched (F := F) m).payload (recvCell c 1) 0 d
    = (((Memref.whole main_v1_1 : Memref sig .tc .hbm S8192x1024 .bf16).slice (Rect.unit (s := S8192x1024) ![512, 0] S512x1024.size inb_S8192x1024_S512x1024_512_0) (fun _ => rfl)).view.loc (c : Thread nD τ) ↦[((Memref.whole main_v1_1 : Memref sig .tc .hbm S8192x1024 .bf16).slice (Rect.unit (s := S8192x1024) ![512, 0] S512x1024.size inb_S8192x1024_S512x1024_512_0) (fun _ => rfl)).view.set]{fullShare} recvFull m c : sProp 𝕄) := payload_recv m c 1 d
theorem payload_send_v1 (c : Dev nD) (d : Unit) : (sched (F := F) m).payload (sendCell c 1) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 1 d
theorem payload_recv_v2 (c : Dev nD) (d : Unit) : (sched (F := F) m).payload (recvCell c 2) 0 d
    = (((Memref.whole main_v1_1 : Memref sig .tc .hbm S8192x1024 .bf16).slice (Rect.unit (s := S8192x1024) ![1024, 0] S512x1024.size inb_S8192x1024_S512x1024_1024_0) (fun _ => rfl)).view.loc (c : Thread nD τ) ↦[((Memref.whole main_v1_1 : Memref sig .tc .hbm S8192x1024 .bf16).slice (Rect.unit (s := S8192x1024) ![1024, 0] S512x1024.size inb_S8192x1024_S512x1024_1024_0) (fun _ => rfl)).view.set]{fullShare} recvFull m c : sProp 𝕄) := payload_recv m c 2 d
theorem payload_send_v2 (c : Dev nD) (d : Unit) : (sched (F := F) m).payload (sendCell c 2) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 2 d
theorem payload_recv_v3 (c : Dev nD) (d : Unit) : (sched (F := F) m).payload (recvCell c 3) 0 d
    = (((Memref.whole main_v1_1 : Memref sig .tc .hbm S8192x1024 .bf16).slice (Rect.unit (s := S8192x1024) ![1536, 0] S512x1024.size inb_S8192x1024_S512x1024_1536_0) (fun _ => rfl)).view.loc (c : Thread nD τ) ↦[((Memref.whole main_v1_1 : Memref sig .tc .hbm S8192x1024 .bf16).slice (Rect.unit (s := S8192x1024) ![1536, 0] S512x1024.size inb_S8192x1024_S512x1024_1536_0) (fun _ => rfl)).view.set]{fullShare} recvFull m c : sProp 𝕄) := payload_recv m c 3 d
theorem payload_send_v3 (c : Dev nD) (d : Unit) : (sched (F := F) m).payload (sendCell c 3) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 3 d
theorem payload_recv_v4 (c : Dev nD) (d : Unit) : (sched (F := F) m).payload (recvCell c 4) 0 d
    = (((Memref.whole main_v1_1 : Memref sig .tc .hbm S8192x1024 .bf16).slice (Rect.unit (s := S8192x1024) ![2048, 0] S512x1024.size inb_S8192x1024_S512x1024_2048_0) (fun _ => rfl)).view.loc (c : Thread nD τ) ↦[((Memref.whole main_v1_1 : Memref sig .tc .hbm S8192x1024 .bf16).slice (Rect.unit (s := S8192x1024) ![2048, 0] S512x1024.size inb_S8192x1024_S512x1024_2048_0) (fun _ => rfl)).view.set]{fullShare} recvFull m c : sProp 𝕄) := payload_recv m c 4 d
theorem payload_send_v4 (c : Dev nD) (d : Unit) : (sched (F := F) m).payload (sendCell c 4) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 4 d
theorem payload_recv_v5 (c : Dev nD) (d : Unit) : (sched (F := F) m).payload (recvCell c 5) 0 d
    = (((Memref.whole main_v1_1 : Memref sig .tc .hbm S8192x1024 .bf16).slice (Rect.unit (s := S8192x1024) ![2560, 0] S512x1024.size inb_S8192x1024_S512x1024_2560_0) (fun _ => rfl)).view.loc (c : Thread nD τ) ↦[((Memref.whole main_v1_1 : Memref sig .tc .hbm S8192x1024 .bf16).slice (Rect.unit (s := S8192x1024) ![2560, 0] S512x1024.size inb_S8192x1024_S512x1024_2560_0) (fun _ => rfl)).view.set]{fullShare} recvFull m c : sProp 𝕄) := payload_recv m c 5 d
theorem payload_send_v5 (c : Dev nD) (d : Unit) : (sched (F := F) m).payload (sendCell c 5) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 5 d
theorem payload_recv_v6 (c : Dev nD) (d : Unit) : (sched (F := F) m).payload (recvCell c 6) 0 d
    = (((Memref.whole main_v1_1 : Memref sig .tc .hbm S8192x1024 .bf16).slice (Rect.unit (s := S8192x1024) ![3072, 0] S512x1024.size inb_S8192x1024_S512x1024_3072_0) (fun _ => rfl)).view.loc (c : Thread nD τ) ↦[((Memref.whole main_v1_1 : Memref sig .tc .hbm S8192x1024 .bf16).slice (Rect.unit (s := S8192x1024) ![3072, 0] S512x1024.size inb_S8192x1024_S512x1024_3072_0) (fun _ => rfl)).view.set]{fullShare} recvFull m c : sProp 𝕄) := payload_recv m c 6 d
theorem payload_send_v6 (c : Dev nD) (d : Unit) : (sched (F := F) m).payload (sendCell c 6) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 6 d
theorem payload_recv_v7 (c : Dev nD) (d : Unit) : (sched (F := F) m).payload (recvCell c 7) 0 d
    = (((Memref.whole main_v1_1 : Memref sig .tc .hbm S8192x1024 .bf16).slice (Rect.unit (s := S8192x1024) ![3584, 0] S512x1024.size inb_S8192x1024_S512x1024_3584_0) (fun _ => rfl)).view.loc (c : Thread nD τ) ↦[((Memref.whole main_v1_1 : Memref sig .tc .hbm S8192x1024 .bf16).slice (Rect.unit (s := S8192x1024) ![3584, 0] S512x1024.size inb_S8192x1024_S512x1024_3584_0) (fun _ => rfl)).view.set]{fullShare} recvFull m c : sProp 𝕄) := payload_recv m c 7 d
theorem payload_send_v7 (c : Dev nD) (d : Unit) : (sched (F := F) m).payload (sendCell c 7) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 7 d
theorem payload_recv_v8 (c : Dev nD) (d : Unit) : (sched (F := F) m).payload (recvCell c 8) 0 d
    = (((Memref.whole main_v1_1 : Memref sig .tc .hbm S8192x1024 .bf16).slice (Rect.unit (s := S8192x1024) ![4096, 0] S512x1024.size inb_S8192x1024_S512x1024_4096_0) (fun _ => rfl)).view.loc (c : Thread nD τ) ↦[((Memref.whole main_v1_1 : Memref sig .tc .hbm S8192x1024 .bf16).slice (Rect.unit (s := S8192x1024) ![4096, 0] S512x1024.size inb_S8192x1024_S512x1024_4096_0) (fun _ => rfl)).view.set]{fullShare} recvFull m c : sProp 𝕄) := payload_recv m c 8 d
theorem payload_send_v8 (c : Dev nD) (d : Unit) : (sched (F := F) m).payload (sendCell c 8) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 8 d
theorem payload_recv_v9 (c : Dev nD) (d : Unit) : (sched (F := F) m).payload (recvCell c 9) 0 d
    = (((Memref.whole main_v1_1 : Memref sig .tc .hbm S8192x1024 .bf16).slice (Rect.unit (s := S8192x1024) ![4608, 0] S512x1024.size inb_S8192x1024_S512x1024_4608_0) (fun _ => rfl)).view.loc (c : Thread nD τ) ↦[((Memref.whole main_v1_1 : Memref sig .tc .hbm S8192x1024 .bf16).slice (Rect.unit (s := S8192x1024) ![4608, 0] S512x1024.size inb_S8192x1024_S512x1024_4608_0) (fun _ => rfl)).view.set]{fullShare} recvFull m c : sProp 𝕄) := payload_recv m c 9 d
theorem payload_send_v9 (c : Dev nD) (d : Unit) : (sched (F := F) m).payload (sendCell c 9) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 9 d
theorem payload_recv_v10 (c : Dev nD) (d : Unit) : (sched (F := F) m).payload (recvCell c 10) 0 d
    = (((Memref.whole main_v1_1 : Memref sig .tc .hbm S8192x1024 .bf16).slice (Rect.unit (s := S8192x1024) ![5120, 0] S512x1024.size inb_S8192x1024_S512x1024_5120_0) (fun _ => rfl)).view.loc (c : Thread nD τ) ↦[((Memref.whole main_v1_1 : Memref sig .tc .hbm S8192x1024 .bf16).slice (Rect.unit (s := S8192x1024) ![5120, 0] S512x1024.size inb_S8192x1024_S512x1024_5120_0) (fun _ => rfl)).view.set]{fullShare} recvFull m c : sProp 𝕄) := payload_recv m c 10 d
theorem payload_send_v10 (c : Dev nD) (d : Unit) : (sched (F := F) m).payload (sendCell c 10) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 10 d
theorem payload_recv_v11 (c : Dev nD) (d : Unit) : (sched (F := F) m).payload (recvCell c 11) 0 d
    = (((Memref.whole main_v1_1 : Memref sig .tc .hbm S8192x1024 .bf16).slice (Rect.unit (s := S8192x1024) ![5632, 0] S512x1024.size inb_S8192x1024_S512x1024_5632_0) (fun _ => rfl)).view.loc (c : Thread nD τ) ↦[((Memref.whole main_v1_1 : Memref sig .tc .hbm S8192x1024 .bf16).slice (Rect.unit (s := S8192x1024) ![5632, 0] S512x1024.size inb_S8192x1024_S512x1024_5632_0) (fun _ => rfl)).view.set]{fullShare} recvFull m c : sProp 𝕄) := payload_recv m c 11 d
theorem payload_send_v11 (c : Dev nD) (d : Unit) : (sched (F := F) m).payload (sendCell c 11) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 11 d
theorem payload_recv_v12 (c : Dev nD) (d : Unit) : (sched (F := F) m).payload (recvCell c 12) 0 d
    = (((Memref.whole main_v1_1 : Memref sig .tc .hbm S8192x1024 .bf16).slice (Rect.unit (s := S8192x1024) ![6144, 0] S512x1024.size inb_S8192x1024_S512x1024_6144_0) (fun _ => rfl)).view.loc (c : Thread nD τ) ↦[((Memref.whole main_v1_1 : Memref sig .tc .hbm S8192x1024 .bf16).slice (Rect.unit (s := S8192x1024) ![6144, 0] S512x1024.size inb_S8192x1024_S512x1024_6144_0) (fun _ => rfl)).view.set]{fullShare} recvFull m c : sProp 𝕄) := payload_recv m c 12 d
theorem payload_send_v12 (c : Dev nD) (d : Unit) : (sched (F := F) m).payload (sendCell c 12) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 12 d
theorem payload_recv_v13 (c : Dev nD) (d : Unit) : (sched (F := F) m).payload (recvCell c 13) 0 d
    = (((Memref.whole main_v1_1 : Memref sig .tc .hbm S8192x1024 .bf16).slice (Rect.unit (s := S8192x1024) ![6656, 0] S512x1024.size inb_S8192x1024_S512x1024_6656_0) (fun _ => rfl)).view.loc (c : Thread nD τ) ↦[((Memref.whole main_v1_1 : Memref sig .tc .hbm S8192x1024 .bf16).slice (Rect.unit (s := S8192x1024) ![6656, 0] S512x1024.size inb_S8192x1024_S512x1024_6656_0) (fun _ => rfl)).view.set]{fullShare} recvFull m c : sProp 𝕄) := payload_recv m c 13 d
theorem payload_send_v13 (c : Dev nD) (d : Unit) : (sched (F := F) m).payload (sendCell c 13) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 13 d
theorem payload_recv_v14 (c : Dev nD) (d : Unit) : (sched (F := F) m).payload (recvCell c 14) 0 d
    = (((Memref.whole main_v1_1 : Memref sig .tc .hbm S8192x1024 .bf16).slice (Rect.unit (s := S8192x1024) ![7168, 0] S512x1024.size inb_S8192x1024_S512x1024_7168_0) (fun _ => rfl)).view.loc (c : Thread nD τ) ↦[((Memref.whole main_v1_1 : Memref sig .tc .hbm S8192x1024 .bf16).slice (Rect.unit (s := S8192x1024) ![7168, 0] S512x1024.size inb_S8192x1024_S512x1024_7168_0) (fun _ => rfl)).view.set]{fullShare} recvFull m c : sProp 𝕄) := payload_recv m c 14 d
theorem payload_send_v14 (c : Dev nD) (d : Unit) : (sched (F := F) m).payload (sendCell c 14) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 14 d
theorem payload_recv_v15 (c : Dev nD) (d : Unit) : (sched (F := F) m).payload (recvCell c 15) 0 d
    = (((Memref.whole main_v1_1 : Memref sig .tc .hbm S8192x1024 .bf16).slice (Rect.unit (s := S8192x1024) ![7680, 0] S512x1024.size inb_S8192x1024_S512x1024_7680_0) (fun _ => rfl)).view.loc (c : Thread nD τ) ↦[((Memref.whole main_v1_1 : Memref sig .tc .hbm S8192x1024 .bf16).slice (Rect.unit (s := S8192x1024) ![7680, 0] S512x1024.size inb_S8192x1024_S512x1024_7680_0) (fun _ => rfl)).view.set]{fullShare} recvFull m c : sProp 𝕄) := payload_recv m c 15 d
theorem payload_send_v15 (c : Dev nD) (d : Unit) : (sched (F := F) m).payload (sendCell c 15) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 15 d
attribute [local sl_rounds] payload_recv_v0 payload_send_v0 payload_recv_v1 payload_send_v1 payload_recv_v2 payload_send_v2 payload_recv_v3 payload_send_v3 payload_recv_v4 payload_send_v4 payload_recv_v5 payload_send_v5 payload_recv_v6 payload_send_v6 payload_recv_v7 payload_send_v7 payload_recv_v8 payload_send_v8 payload_recv_v9 payload_send_v9 payload_recv_v10 payload_send_v10 payload_recv_v11 payload_send_v11 payload_recv_v12 payload_send_v12 payload_recv_v13 payload_send_v13 payload_recv_v14 payload_send_v14 payload_recv_v15 payload_send_v15

set_option maxHeartbeats 60000000 in
set_option maxRecDepth 65536 in
theorem sound_body (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    bodyCtx m K c W f0 f1 f2 f3 f4
      ⊢ wp frame (wpE (defs₀ (F := F)) 𝒱₀ (c : Thread nD τ) none) Set.univ (bodyAt0 (F := F) t0_0) (fun _ => bodyEnd m c) := by
  unfold bodyAt0
  simp only [cc0_body_eq_skeleton]; unfold cc0_body_skel
  unfold bodyCtx O₀
  iintro ⟨#HIb, #HIs0, #HIs1, #HIs2, #HIs3, #HIs4, #HIs5, #HIs6, #HIs7, #HIs8, #HIs9, #HIs10, #HIs11, #HIs12, #HIs13, #HIs14, #HIs15, #HIr0, #HIr1, #HIr2, #HIr3, #HIr4, #HIr5, #HIr6, #HIr7, #HIr8, #HIr9, #HIr10, #HIr11, #HIr12, #HIr13, #HIr14, #HIr15, #HIpb, #HIpr0, #HIpr1, #HIpr2, #HIpr3, #HIpr4, #HIpr5, #HIpr6, #HIpr7, #HIpr8, #HIpr9, #HIpr10, #HIpr11, #HIpr12, #HIpr13, #HIpr14, #HIpr15, #Rb, #Rs0, #Rs1, #Rs2, #Rs3, #Rs4, #Rs5, #Rs6, #Rs7, #Rs8, #Rs9, #Rs10, #Rs11, #Rs12, #Rs13, #Rs14, #Rs15, #Rr0, #Rr1, #Rr2, #Rr3, #Rr4, #Rr5, #Rr6, #Rr7, #Rr8, #Rr9, #Rr10, #Rr11, #Rr12, #Rr13, #Rr14, #Rr15, #Rpb, #Rpr0, #Rpr1, #Rpr2, #Rpr3, #Rpr4, #Rpr5, #Rpr6, #Rpr7, #Rpr8, #Rpr9, #Rpr10, #Rpr11, #Rpr12, #Rpr13, #Rpr14, #Rpr15, #Hlev, Hab, Has0, Has1, Has2, Has3, Has4, Has5, Has6, Has7, Has8, Has9, Has10, Has11, Has12, Has13, Has14, Has15, Har0, Har1, Har2, Har3, Har4, Har5, Har6, Har7, Har8, Har9, Har10, Har11, Har12, Har13, Har14, Har15, Tpb, Tpr0, Tpr1, Tpr2, Tpr3, Tpr4, Tpr5, Tpr6, Tpr7, Tpr8, Tpr9, Tpr10, Tpr11, Tpr12, Tpr13, Tpr14, Tpr15, Ts0, Ts1, Ts2, Ts3, Ts4, Ts5, Ts6, Ts7, Ts8, Ts9, Ts10, Ts11, Ts12, Ts13, Ts14, Ts15, Cb, Cr0, Cr1, Cr2, Cr3, Cr4, Cr5, Cr6, Cr7, Cr8, Cr9, Cr10, Cr11, Cr12, Cr13, Cr14, Cr15, HO, Hx, Hout, Hrecv, Hs0, Hs1, Hs2, Hs3, Hs4, Hz32, Hz33, Hz34, Hz35, Hz36, Hz37, Hz38, Hz39⟩
  have hc : c.val < 32 := c.isLt
  have dMP0 := dMP0 c
  have dMP0s := dMP0s c
  have dPP0 := dPP0 c
  have dPP0s := dPP0s c
  have dPM0 := dPM0 c
  have dPM0s := dPM0s c
  have dPP1 := dPP1 c
  have dPP1s := dPP1s c
  have dPM1 := dPM1 c
  have dPM1s := dPM1s c
  have dPP2 := dPP2 c
  have dPP2s := dPP2s c
  have dPM2 := dPM2 c
  have dPM2s := dPM2s c
  have dPP3 := dPP3 c
  have dPP3s := dPP3s c
  have dPM3 := dPM3 c
  have dPM3s := dPM3s c
  have dPP4 := dPP4 c
  have dPP4s := dPP4s c
  have dPM4 := dPM4 c
  have dPM4s := dPM4s c
  have dPP5 := dPP5 c
  have dPP5s := dPP5s c
  have dPM5 := dPM5 c
  have dPM5s := dPM5s c
  have dPP6 := dPP6 c
  have dPP6s := dPP6s c
  have dPM6 := dPM6 c
  have dPM6s := dPM6s c
  have dPP7 := dPP7 c
  have dPP7s := dPP7s c
  have dPM7 := dPM7 c
  have dPM7s := dPM7s c
  have dPP8 := dPP8 c
  have dPP8s := dPP8s c
  have dPM8 := dPM8 c
  have dPM8s := dPM8s c
  have dPP9 := dPP9 c
  have dPP9s := dPP9s c
  have dPM9 := dPM9 c
  have dPM9s := dPM9s c
  have dPP10 := dPP10 c
  have dPP10s := dPP10s c
  have dPM10 := dPM10 c
  have dPM10s := dPM10s c
  have dPP11 := dPP11 c
  have dPP11s := dPP11s c
  have dPM11 := dPM11 c
  have dPM11s := dPM11s c
  have dPP12 := dPP12 c
  have dPP12s := dPP12s c
  have dPM12 := dPM12 c
  have dPM12s := dPM12s c
  have dPP13 := dPP13 c
  have dPP13s := dPP13s c
  have dPM13 := dPM13 c
  have dPM13s := dPM13s c
  have dPP14 := dPP14 c
  have dPP14s := dPP14s c
  have dPM14 := dPM14 c
  have dPM14s := dPM14s c
  have dMM0 := dMM0 c
  have dMM0s := dMM0s c
  have dMM1 := dMM1 c
  have dMM1s := dMM1s c
  have dMM2 := dMM2 c
  have dMM2s := dMM2s c
  have dMM3 := dMM3 c
  have dMM3s := dMM3s c
  have dMM4 := dMM4 c
  have dMM4s := dMM4s c
  have dMM5 := dMM5 c
  have dMM5s := dMM5s c
  have dMM6 := dMM6 c
  have dMM6s := dMM6s c
  have dMM7 := dMM7 c
  have dMM7s := dMM7s c
  have dMM8 := dMM8 c
  have dMM8s := dMM8s c
  have dMM9 := dMM9 c
  have dMM9s := dMM9s c
  have dMM10 := dMM10 c
  have dMM10s := dMM10s c
  have dMM11 := dMM11 c
  have dMM11s := dMM11s c
  have dMM12 := dMM12 c
  have dMM12s := dMM12s c
  have dMM13 := dMM13 c
  have dMM13s := dMM13s c
  have dMM14 := dMM14 c
  have dMM14s := dMM14s c
  have mwB := mwB (F := F) c
  ihave Hrecv := (Entails.of_eq (landing_respell m c)) $$ Hrecv
  ihave X := (slots_split c f1) $$ Hs1
  icases X with ⟨Hv0, Hv1, Hv2, Hv3⟩
  ihave X := (pair_split_scratch0 c f0) $$ Hs0
  icases X with ⟨Hc0, Hc1⟩
  ihave X := (pair_split_scratch2 c f2) $$ Hs2
  icases X with ⟨Hm0, Hm1⟩
  ihave X := (pair_split_scratch3 c f3) $$ Hs3
  icases X with ⟨Hr0, Hr1⟩
  ihave X := (pair_split_scratch4 c f4) $$ Hs4
  icases X with ⟨He0, He1⟩
  ihave X := (bands_split_out c _) $$ Hout
  icases X with ⟨Ho0, Ho1, Ho2, Ho3, Ho4, Ho5, Ho6, Ho7, Ho8, Ho9, Ho10, Ho11, Ho12, Ho13, Ho14, Ho15⟩

  -- chunk 0 goes to the partner's band 0
  have mwP0 := mwP0 (F := F) c
  sl_exec_parts
  clear mwP0 mwB
  -- the partner's landing array, band by band
  ihave Hpw := (Entails.of_eq (whole_pts (peer c) main_v1_1 _)) $$ Hab_pay1
  ihave Hbands := (rows_split (peer c) _) $$ Hpw
  icases Hbands with ⟨Hp0, Hp1, Hp2, Hp3, Hp4, Hp5, Hp6, Hp7, Hp8, Hp9, Hp10, Hp11, Hp12, Hp13, Hp14, Hp15⟩
  iapply (send_h_0 m (K (c, 1)) (K (peer c, 17)) c _ ?_ _ (((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N)) _) $$ [Hv0 Hp0 HO Ts0 Tpr0]
  rotate_left
  · isplitr; · iexact HIs0
    isplitr; · iexact HIpr0
    isplitl [Hv0]; · iexact Hv0
    isplitl [Hp0]; · iexact Hp0
    isplitl [HO]; · iexact HO
    isplitl [Ts0]; · iexact Ts0
    isplitr; · iexact Rs0
    isplitl [Tpr0]; · iexact Tpr0
    iexact Rpr0
  rotate_left
  · sl_unfold_words
    exact slot_written_chunk_0 m c 0 _ _ _ (k0_off1 c) (k0_off1_inb c)
      (fun u a b => cvt_apply _ _ _ _ u a b)
      (fun a b => cvt_load_listed 0 _ _ _ _ _ a b)
      (by rw [k0_off1_eq]; rfl) (by rw [k0_off1_eq, col_peer]; rfl)
  iintro ⟨Cs0, HO⟩
  first | iapply (wp_ret_bind _ _ _) | skip
  -- chunk 1 goes to the partner's band 1
  have mwP1 := mwP1 (F := F) c
  sl_exec_parts
  clear mwP1
  iapply (send_h_1 m (K (c, 2)) (K (peer c, 18)) c _ ?_ _ ((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N)) _) $$ [Hv1 Hp1 HO Ts1 Tpr1]
  rotate_left
  · isplitr; · iexact HIs1
    isplitr; · iexact HIpr1
    isplitl [Hv1]; · iexact Hv1
    isplitl [Hp1]; · iexact Hp1
    isplitl [HO]; · iexact HO
    isplitl [Ts1]; · iexact Ts1
    isplitr; · iexact Rs1
    isplitl [Tpr1]; · iexact Tpr1
    iexact Rpr1
  rotate_left
  · sl_unfold_words
    exact slot_written_chunk_1 m c 1 _ _ _ (k0_off3 c) (k0_off3_inb c)
      (fun u a b => cvt_apply _ _ _ _ u a b)
      (fun a b => cvt_load_listed 1 _ _ _ _ _ a b)
      (by rw [k0_off3_eq]; rfl) (by rw [k0_off3_eq, col_peer]; rfl)
  iintro ⟨Cs1, HO⟩
  first | iapply (wp_ret_bind _ _ _) | skip
  -- chunk 2 goes to the partner's band 2
  have mwP2 := mwP2 (F := F) c
  sl_exec_parts
  clear mwP2
  iapply (send_h_2 m (K (c, 3)) (K (peer c, 19)) c _ ?_ _ (((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N)) _) $$ [Hv2 Hp2 HO Ts2 Tpr2]
  rotate_left
  · isplitr; · iexact HIs2
    isplitr; · iexact HIpr2
    isplitl [Hv2]; · iexact Hv2
    isplitl [Hp2]; · iexact Hp2
    isplitl [HO]; · iexact HO
    isplitl [Ts2]; · iexact Ts2
    isplitr; · iexact Rs2
    isplitl [Tpr2]; · iexact Tpr2
    iexact Rpr2
  rotate_left
  · sl_unfold_words
    exact slot_written_chunk_2 m c 2 _ _ _ (k0_off4 c) (k0_off4_inb c)
      (fun u a b => cvt_apply _ _ _ _ u a b)
      (fun a b => cvt_load_listed 0 _ _ _ _ _ a b)
      (by rw [k0_off4_eq]; rfl) (by rw [k0_off4_eq, col_peer]; rfl)
  iintro ⟨Cs2, HO⟩
  first | iapply (wp_ret_bind _ _ _) | skip
  -- chunk 3 goes to the partner's band 3
  have mwP3 := mwP3 (F := F) c
  sl_exec_parts
  clear mwP3
  iapply (send_h_3 m (K (c, 4)) (K (peer c, 20)) c _ ?_ _ ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) _) $$ [Hv3 Hp3 HO Ts3 Tpr3]
  rotate_left
  · isplitr; · iexact HIs3
    isplitr; · iexact HIpr3
    isplitl [Hv3]; · iexact Hv3
    isplitl [Hp3]; · iexact Hp3
    isplitl [HO]; · iexact HO
    isplitl [Ts3]; · iexact Ts3
    isplitr; · iexact Rs3
    isplitl [Tpr3]; · iexact Tpr3
    iexact Rpr3
  rotate_left
  · sl_unfold_words
    exact slot_written_chunk_3 m c 3 _ _ _ (k0_off5 c) (k0_off5_inb c)
      (fun u a b => cvt_apply _ _ _ _ u a b)
      (fun a b => cvt_load_listed 1 _ _ _ _ _ a b)
      (by rw [k0_off5_eq]; rfl) (by rw [k0_off5_eq, col_peer]; rfl)
  iintro ⟨Cs3, HO⟩
  first | iapply (wp_ret_bind _ _ _) | skip
  -- chunk 4 goes to the partner's band 4
  have mwP4 := mwP4 (F := F) c
  have mwS4 := mwS4 (F := F) c
  sl_exec_parts
  clear mwP4 mwS4
  iapply (send_h_4 m (K (c, 5)) (K (peer c, 21)) c _ ?_ _ (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) _) $$ [Has0_pay1 Hp4 HO Ts4 Tpr4]
  rotate_left
  · isplitr; · iexact HIs4
    isplitr; · iexact HIpr4
    isplitl [Has0_pay1]; · iexact Has0_pay1
    isplitl [Hp4]; · iexact Hp4
    isplitl [HO]; · iexact HO
    isplitl [Ts4]; · iexact Ts4
    isplitr; · iexact Rs4
    isplitl [Tpr4]; · iexact Tpr4
    iexact Rpr4
  rotate_left
  · sl_unfold_words
    exact slot_written_chunk_0 m c 4 _ _ _ (k0_off6 c) (k0_off6_inb c)
      (fun u a b => cvt_apply _ _ _ _ u a b)
      (fun a b => cvt_load_listed 0 _ _ _ _ _ a b)
      (by rw [k0_off6_eq]; rfl) (by rw [k0_off6_eq, col_peer]; rfl)
  iintro ⟨Cs4, HO⟩
  first | iapply (wp_ret_bind _ _ _) | skip
  -- chunk 5 goes to the partner's band 5
  have mwP5 := mwP5 (F := F) c
  have mwS5 := mwS5 (F := F) c
  sl_exec_parts
  clear mwP5 mwS5
  iapply (send_h_5 m (K (c, 6)) (K (peer c, 22)) c _ ?_ _ ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) _) $$ [Has1_pay1 Hp5 HO Ts5 Tpr5]
  rotate_left
  · isplitr; · iexact HIs5
    isplitr; · iexact HIpr5
    isplitl [Has1_pay1]; · iexact Has1_pay1
    isplitl [Hp5]; · iexact Hp5
    isplitl [HO]; · iexact HO
    isplitl [Ts5]; · iexact Ts5
    isplitr; · iexact Rs5
    isplitl [Tpr5]; · iexact Tpr5
    iexact Rpr5
  rotate_left
  · sl_unfold_words
    exact slot_written_chunk_1 m c 5 _ _ _ (k0_off7 c) (k0_off7_inb c)
      (fun u a b => cvt_apply _ _ _ _ u a b)
      (fun a b => cvt_load_listed 1 _ _ _ _ _ a b)
      (by rw [k0_off7_eq]; rfl) (by rw [k0_off7_eq, col_peer]; rfl)
  iintro ⟨Cs5, HO⟩
  first | iapply (wp_ret_bind _ _ _) | skip
  -- chunk 6 goes to the partner's band 6
  have mwP6 := mwP6 (F := F) c
  have mwS6 := mwS6 (F := F) c
  sl_exec_parts
  clear mwP6 mwS6
  iapply (send_h_6 m (K (c, 7)) (K (peer c, 23)) c _ ?_ _ (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) _) $$ [Has2_pay1 Hp6 HO Ts6 Tpr6]
  rotate_left
  · isplitr; · iexact HIs6
    isplitr; · iexact HIpr6
    isplitl [Has2_pay1]; · iexact Has2_pay1
    isplitl [Hp6]; · iexact Hp6
    isplitl [HO]; · iexact HO
    isplitl [Ts6]; · iexact Ts6
    isplitr; · iexact Rs6
    isplitl [Tpr6]; · iexact Tpr6
    iexact Rpr6
  rotate_left
  · sl_unfold_words
    exact slot_written_chunk_2 m c 6 _ _ _ (k0_off8 c) (k0_off8_inb c)
      (fun u a b => cvt_apply _ _ _ _ u a b)
      (fun a b => cvt_load_listed 0 _ _ _ _ _ a b)
      (by rw [k0_off8_eq]; rfl) (by rw [k0_off8_eq, col_peer]; rfl)
  iintro ⟨Cs6, HO⟩
  first | iapply (wp_ret_bind _ _ _) | skip
  -- chunk 7 goes to the partner's band 7
  have mwP7 := mwP7 (F := F) c
  have mwS7 := mwS7 (F := F) c
  sl_exec_parts
  clear mwP7 mwS7
  iapply (send_h_7 m (K (c, 8)) (K (peer c, 24)) c _ ?_ _ ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) _) $$ [Has3_pay1 Hp7 HO Ts7 Tpr7]
  rotate_left
  · isplitr; · iexact HIs7
    isplitr; · iexact HIpr7
    isplitl [Has3_pay1]; · iexact Has3_pay1
    isplitl [Hp7]; · iexact Hp7
    isplitl [HO]; · iexact HO
    isplitl [Ts7]; · iexact Ts7
    isplitr; · iexact Rs7
    isplitl [Tpr7]; · iexact Tpr7
    iexact Rpr7
  rotate_left
  · sl_unfold_words
    exact slot_written_chunk_3 m c 7 _ _ _ (k0_off9 c) (k0_off9_inb c)
      (fun u a b => cvt_apply _ _ _ _ u a b)
      (fun a b => cvt_load_listed 1 _ _ _ _ _ a b)
      (by rw [k0_off9_eq]; rfl) (by rw [k0_off9_eq, col_peer]; rfl)
  iintro ⟨Cs7, HO⟩
  first | iapply (wp_ret_bind _ _ _) | skip
  -- chunk 8 goes to the partner's band 8
  have mwP8 := mwP8 (F := F) c
  have mwS8 := mwS8 (F := F) c
  sl_exec_parts
  clear mwP8 mwS8
  iapply (send_h_8 m (K (c, 9)) (K (peer c, 25)) c _ ?_ _ (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) _) $$ [Has4_pay1 Hp8 HO Ts8 Tpr8]
  rotate_left
  · isplitr; · iexact HIs8
    isplitr; · iexact HIpr8
    isplitl [Has4_pay1]; · iexact Has4_pay1
    isplitl [Hp8]; · iexact Hp8
    isplitl [HO]; · iexact HO
    isplitl [Ts8]; · iexact Ts8
    isplitr; · iexact Rs8
    isplitl [Tpr8]; · iexact Tpr8
    iexact Rpr8
  rotate_left
  · sl_unfold_words
    exact slot_written_chunk_0 m c 8 _ _ _ (k0_off10 c) (k0_off10_inb c)
      (fun u a b => cvt_apply _ _ _ _ u a b)
      (fun a b => cvt_load_listed 0 _ _ _ _ _ a b)
      (by rw [k0_off10_eq]; rfl) (by rw [k0_off10_eq, col_peer]; rfl)
  iintro ⟨Cs8, HO⟩
  first | iapply (wp_ret_bind _ _ _) | skip
  -- chunk 9 goes to the partner's band 9
  have mwP9 := mwP9 (F := F) c
  have mwS9 := mwS9 (F := F) c
  sl_exec_parts
  clear mwP9 mwS9
  iapply (send_h_9 m (K (c, 10)) (K (peer c, 26)) c _ ?_ _ ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) _) $$ [Has5_pay1 Hp9 HO Ts9 Tpr9]
  rotate_left
  · isplitr; · iexact HIs9
    isplitr; · iexact HIpr9
    isplitl [Has5_pay1]; · iexact Has5_pay1
    isplitl [Hp9]; · iexact Hp9
    isplitl [HO]; · iexact HO
    isplitl [Ts9]; · iexact Ts9
    isplitr; · iexact Rs9
    isplitl [Tpr9]; · iexact Tpr9
    iexact Rpr9
  rotate_left
  · sl_unfold_words
    exact slot_written_chunk_1 m c 9 _ _ _ (k0_off11 c) (k0_off11_inb c)
      (fun u a b => cvt_apply _ _ _ _ u a b)
      (fun a b => cvt_load_listed 1 _ _ _ _ _ a b)
      (by rw [k0_off11_eq]; rfl) (by rw [k0_off11_eq, col_peer]; rfl)
  iintro ⟨Cs9, HO⟩
  first | iapply (wp_ret_bind _ _ _) | skip
  -- chunk 10 goes to the partner's band 10
  have mwP10 := mwP10 (F := F) c
  have mwS10 := mwS10 (F := F) c
  sl_exec_parts
  clear mwP10 mwS10
  iapply (send_h_10 m (K (c, 11)) (K (peer c, 27)) c _ ?_ _ (((((tallyAt (recvCell (peer c) 15) () N + tallyAt (recvCell (peer c) 14) () N) + tallyAt (recvCell (peer c) 13) () N) + tallyAt (recvCell (peer c) 12) () N) + tallyAt (recvCell (peer c) 11) () N)) _) $$ [Has6_pay1 Hp10 HO Ts10 Tpr10]
  rotate_left
  · isplitr; · iexact HIs10
    isplitr; · iexact HIpr10
    isplitl [Has6_pay1]; · iexact Has6_pay1
    isplitl [Hp10]; · iexact Hp10
    isplitl [HO]; · iexact HO
    isplitl [Ts10]; · iexact Ts10
    isplitr; · iexact Rs10
    isplitl [Tpr10]; · iexact Tpr10
    iexact Rpr10
  rotate_left
  · sl_unfold_words
    exact slot_written_chunk_2 m c 10 _ _ _ (k0_off12 c) (k0_off12_inb c)
      (fun u a b => cvt_apply _ _ _ _ u a b)
      (fun a b => cvt_load_listed 0 _ _ _ _ _ a b)
      (by rw [k0_off12_eq]; rfl) (by rw [k0_off12_eq, col_peer]; rfl)
  iintro ⟨Cs10, HO⟩
  first | iapply (wp_ret_bind _ _ _) | skip
  -- chunk 11 goes to the partner's band 11
  have mwP11 := mwP11 (F := F) c
  have mwS11 := mwS11 (F := F) c
  sl_exec_parts
  clear mwP11 mwS11
  iapply (send_h_11 m (K (c, 12)) (K (peer c, 28)) c _ ?_ _ ((((tallyAt (recvCell (peer c) 15) () N + tallyAt (recvCell (peer c) 14) () N) + tallyAt (recvCell (peer c) 13) () N) + tallyAt (recvCell (peer c) 12) () N)) _) $$ [Has7_pay1 Hp11 HO Ts11 Tpr11]
  rotate_left
  · isplitr; · iexact HIs11
    isplitr; · iexact HIpr11
    isplitl [Has7_pay1]; · iexact Has7_pay1
    isplitl [Hp11]; · iexact Hp11
    isplitl [HO]; · iexact HO
    isplitl [Ts11]; · iexact Ts11
    isplitr; · iexact Rs11
    isplitl [Tpr11]; · iexact Tpr11
    iexact Rpr11
  rotate_left
  · sl_unfold_words
    exact slot_written_chunk_3 m c 11 _ _ _ (k0_off13 c) (k0_off13_inb c)
      (fun u a b => cvt_apply _ _ _ _ u a b)
      (fun a b => cvt_load_listed 1 _ _ _ _ _ a b)
      (by rw [k0_off13_eq]; rfl) (by rw [k0_off13_eq, col_peer]; rfl)
  iintro ⟨Cs11, HO⟩
  first | iapply (wp_ret_bind _ _ _) | skip
  -- chunk 12 goes to the partner's band 12
  have mwP12 := mwP12 (F := F) c
  have mwS12 := mwS12 (F := F) c
  sl_exec_parts
  clear mwP12 mwS12
  iapply (send_h_12 m (K (c, 13)) (K (peer c, 29)) c _ ?_ _ (((tallyAt (recvCell (peer c) 15) () N + tallyAt (recvCell (peer c) 14) () N) + tallyAt (recvCell (peer c) 13) () N)) _) $$ [Has8_pay1 Hp12 HO Ts12 Tpr12]
  rotate_left
  · isplitr; · iexact HIs12
    isplitr; · iexact HIpr12
    isplitl [Has8_pay1]; · iexact Has8_pay1
    isplitl [Hp12]; · iexact Hp12
    isplitl [HO]; · iexact HO
    isplitl [Ts12]; · iexact Ts12
    isplitr; · iexact Rs12
    isplitl [Tpr12]; · iexact Tpr12
    iexact Rpr12
  rotate_left
  · sl_unfold_words
    exact slot_written_chunk_0 m c 12 _ _ _ (k0_off14 c) (k0_off14_inb c)
      (fun u a b => cvt_apply _ _ _ _ u a b)
      (fun a b => cvt_load_listed 0 _ _ _ _ _ a b)
      (by rw [k0_off14_eq]; rfl) (by rw [k0_off14_eq, col_peer]; rfl)
  iintro ⟨Cs12, HO⟩
  first | iapply (wp_ret_bind _ _ _) | skip
  -- chunk 13 goes to the partner's band 13
  have mwP13 := mwP13 (F := F) c
  have mwS13 := mwS13 (F := F) c
  sl_exec_parts
  clear mwP13 mwS13
  iapply (send_h_13 m (K (c, 14)) (K (peer c, 30)) c _ ?_ _ ((tallyAt (recvCell (peer c) 15) () N + tallyAt (recvCell (peer c) 14) () N)) _) $$ [Has9_pay1 Hp13 HO Ts13 Tpr13]
  rotate_left
  · isplitr; · iexact HIs13
    isplitr; · iexact HIpr13
    isplitl [Has9_pay1]; · iexact Has9_pay1
    isplitl [Hp13]; · iexact Hp13
    isplitl [HO]; · iexact HO
    isplitl [Ts13]; · iexact Ts13
    isplitr; · iexact Rs13
    isplitl [Tpr13]; · iexact Tpr13
    iexact Rpr13
  rotate_left
  · sl_unfold_words
    exact slot_written_chunk_1 m c 13 _ _ _ (k0_off15 c) (k0_off15_inb c)
      (fun u a b => cvt_apply _ _ _ _ u a b)
      (fun a b => cvt_load_listed 1 _ _ _ _ _ a b)
      (by rw [k0_off15_eq]; rfl) (by rw [k0_off15_eq, col_peer]; rfl)
  iintro ⟨Cs13, HO⟩
  first | iapply (wp_ret_bind _ _ _) | skip
  -- chunk 14 goes to the partner's band 14
  have mwP14 := mwP14 (F := F) c
  have mwS14 := mwS14 (F := F) c
  sl_exec_parts
  clear mwP14 mwS14
  iapply (send_h_14 m (K (c, 15)) (K (peer c, 31)) c _ ?_ _ (tallyAt (recvCell (peer c) 15) () N) _) $$ [Has10_pay1 Hp14 HO Ts14 Tpr14]
  rotate_left
  · isplitr; · iexact HIs14
    isplitr; · iexact HIpr14
    isplitl [Has10_pay1]; · iexact Has10_pay1
    isplitl [Hp14]; · iexact Hp14
    isplitl [HO]; · iexact HO
    isplitl [Ts14]; · iexact Ts14
    isplitr; · iexact Rs14
    isplitl [Tpr14]; · iexact Tpr14
    iexact Rpr14
  rotate_left
  · sl_unfold_words
    exact slot_written_chunk_2 m c 14 _ _ _ (k0_off16 c) (k0_off16_inb c)
      (fun u a b => cvt_apply _ _ _ _ u a b)
      (fun a b => cvt_load_listed 0 _ _ _ _ _ a b)
      (by rw [k0_off16_eq]; rfl) (by rw [k0_off16_eq, col_peer]; rfl)
  iintro ⟨Cs14, HO⟩
  first | iapply (wp_ret_bind _ _ _) | skip
  -- chunk 15 goes to the partner's band 15
  have mwP15 := mwP15 (F := F) c
  have mwS15 := mwS15 (F := F) c
  sl_exec_parts
  clear mwP15 mwS15
  ihave HO := (Entails.of_eq (owes_zero_add (c : Thread nD τ) _ _)) $$ HO
  iapply (send_h_15 m (K (c, 16)) (K (peer c, 32)) c _ ?_ _ (0) _) $$ [Has11_pay1 Hp15 HO Ts15 Tpr15]
  rotate_left
  · isplitr; · iexact HIs15
    isplitr; · iexact HIpr15
    isplitl [Has11_pay1]; · iexact Has11_pay1
    isplitl [Hp15]; · iexact Hp15
    isplitl [HO]; · iexact HO
    isplitl [Ts15]; · iexact Ts15
    isplitr; · iexact Rs15
    isplitl [Tpr15]; · iexact Tpr15
    iexact Rpr15
  rotate_left
  · sl_unfold_words
    exact slot_written_chunk_3 m c 15 _ _ _ (k0_off17 c) (k0_off17_inb c)
      (fun u a b => cvt_apply _ _ _ _ u a b)
      (fun a b => cvt_load_listed 1 _ _ _ _ _ a b)
      (by rw [k0_off17_eq]; rfl) (by rw [k0_off17_eq, col_peer]; rfl)
  iintro ⟨Cs15, HO⟩
  first | iapply (wp_ret_bind _ _ _) | skip
  sl_exec_parts

  -- the end: the own cells are closed; the buffers are put back together
  imod (close_own m K c 1 le_rfl) $$ [Has0 Has1 Has2 Has3 Has4 Has5 Has6 Has7 Has8 Has9 Has10 Has11 Has12 Has13 Has14 Has15 Har0 Har1 Har2 Har3 Har4 Har5 Har6 Har7 Har8 Har9 Har10 Har11 Har12 Har13 Har14 Har15] with Hown
  · isplitr
    · isplitr; · iexact HIs0
      isplitr; · iexact HIs1
      isplitr; · iexact HIs2
      isplitr; · iexact HIs3
      isplitr; · iexact HIs4
      isplitr; · iexact HIs5
      isplitr; · iexact HIs6
      isplitr; · iexact HIs7
      isplitr; · iexact HIs8
      isplitr; · iexact HIs9
      isplitr; · iexact HIs10
      isplitr; · iexact HIs11
      isplitr; · iexact HIs12
      isplitr; · iexact HIs13
      isplitr; · iexact HIs14
      isplitr; · iexact HIs15
      isplitr; · iexact HIr0
      isplitr; · iexact HIr1
      isplitr; · iexact HIr2
      isplitr; · iexact HIr3
      isplitr; · iexact HIr4
      isplitr; · iexact HIr5
      isplitr; · iexact HIr6
      isplitr; · iexact HIr7
      isplitr; · iexact HIr8
      isplitr; · iexact HIr9
      isplitr; · iexact HIr10
      isplitr; · iexact HIr11
      isplitr; · iexact HIr12
      isplitr; · iexact HIr13
      isplitr; · iexact HIr14
      iexact HIr15
    · isplitl [Has0]; · iexact Has0
      isplitl [Has1]; · iexact Has1
      isplitl [Has2]; · iexact Has2
      isplitl [Has3]; · iexact Has3
      isplitl [Has4]; · iexact Has4
      isplitl [Has5]; · iexact Has5
      isplitl [Has6]; · iexact Has6
      isplitl [Has7]; · iexact Has7
      isplitl [Has8]; · iexact Has8
      isplitl [Has9]; · iexact Has9
      isplitl [Has10]; · iexact Has10
      isplitl [Has11]; · iexact Has11
      isplitl [Has12]; · iexact Has12
      isplitl [Has13]; · iexact Has13
      isplitl [Has14]; · iexact Has14
      isplitl [Has15]; · iexact Has15
      isplitl [Har0]; · iexact Har0
      isplitl [Har1]; · iexact Har1
      isplitl [Har2]; · iexact Har2
      isplitl [Har3]; · iexact Har3
      isplitl [Har4]; · iexact Har4
      isplitl [Har5]; · iexact Har5
      isplitl [Har6]; · iexact Har6
      isplitl [Har7]; · iexact Har7
      isplitl [Har8]; · iexact Har8
      isplitl [Har9]; · iexact Har9
      isplitl [Har10]; · iexact Har10
      isplitl [Har11]; · iexact Har11
      isplitl [Har12]; · iexact Har12
      isplitl [Har13]; · iexact Har13
      isplitl [Har14]; · iexact Har14
      iexact Har15
  iapply (wp_ret_intro _ _)
  unfold bodyEnd Φ₁ scratch
  isplitr [HO]
  · isplitl [Hx]
    · iapply (Entails.of_eq (whole_pts c main_arg0 _)); iexact Hx
    isplitl [Ho0 Ho1 Ho2 Ho3 Ho4 Ho5 Ho6 Ho7 Ho8 Ho9 Ho10 Ho11 Ho12 Ho13 Ho14 Ho15]
    · iapply (bands_join_out m c _ _ _ _ _ _ _ _ _ _ _ _ _ _ _ _ ?_ ?_ ?_ ?_ ?_ ?_ ?_ ?_ ?_ ?_ ?_ ?_ ?_ ?_ ?_ ?_)
      rotate_left 16
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [Ho9]; · iexact Ho9
        isplitl [Ho10]; · iexact Ho10
        isplitl [Ho11]; · iexact Ho11
        isplitl [Ho12]; · iexact Ho12
        isplitl [Ho13]; · iexact Ho13
        isplitl [Ho14]; · iexact Ho14
        iexact Ho15
      · sl_unfold_words
        exact band_goal_0 m c _ _ _ _ _ _ _ _ (by show (k0_off2 c) 1 = _; rw [k0_off2_eq]; rfl) (by show (k0_off2 c) 2 = _; rw [k0_off2_eq]; rfl)
      · sl_unfold_words
        exact band_goal_1 m c _ _ _ _ _ _ _ _ (by show (k0_off18 c) 1 = _; rw [k0_off18_eq]; rfl) (by show (k0_off18 c) 2 = _; rw [k0_off18_eq]; rfl)
      · sl_unfold_words
        exact band_goal_2 m c _ _ _ _ _ _ _ _ (by show (k0_off19 c) 1 = _; rw [k0_off19_eq]; rfl) (by show (k0_off19 c) 2 = _; rw [k0_off19_eq]; rfl)
      · sl_unfold_words
        exact band_goal_3 m c _ _ _ _ _ _ _ _ (by show (k0_off20 c) 1 = _; rw [k0_off20_eq]; rfl) (by show (k0_off20 c) 2 = _; rw [k0_off20_eq]; rfl)
      · sl_unfold_words
        exact band_goal_4 m c _ _ _ _ _ _ _ _ (by show (k0_off21 c) 1 = _; rw [k0_off21_eq]; rfl) (by show (k0_off21 c) 2 = _; rw [k0_off21_eq]; rfl)
      · sl_unfold_words
        exact band_goal_5 m c _ _ _ _ _ _ _ _ (by show (k0_off22 c) 1 = _; rw [k0_off22_eq]; rfl) (by show (k0_off22 c) 2 = _; rw [k0_off22_eq]; rfl)
      · sl_unfold_words
        exact band_goal_6 m c _ _ _ _ _ _ _ _ (by show (k0_off23 c) 1 = _; rw [k0_off23_eq]; rfl) (by show (k0_off23 c) 2 = _; rw [k0_off23_eq]; rfl)
      · sl_unfold_words
        exact band_goal_7 m c _ _ _ _ _ _ _ _ (by show (k0_off24 c) 1 = _; rw [k0_off24_eq]; rfl) (by show (k0_off24 c) 2 = _; rw [k0_off24_eq]; rfl)
      · sl_unfold_words
        exact band_goal_8 m c _ _ _ _ _ _ _ _ (by show (k0_off25 c) 1 = _; rw [k0_off25_eq]; rfl) (by show (k0_off25 c) 2 = _; rw [k0_off25_eq]; rfl)
      · sl_unfold_words
        exact band_goal_9 m c _ _ _ _ _ _ _ _ (by show (k0_off26 c) 1 = _; rw [k0_off26_eq]; rfl) (by show (k0_off26 c) 2 = _; rw [k0_off26_eq]; rfl)
      · sl_unfold_words
        exact band_goal_10 m c _ _ _ _ _ _ _ _ (by show (k0_off27 c) 1 = _; rw [k0_off27_eq]; rfl) (by show (k0_off27 c) 2 = _; rw [k0_off27_eq]; rfl)
      · sl_unfold_words
        exact band_goal_11 m c _ _ _ _ _ _ _ _ (by show (k0_off28 c) 1 = _; rw [k0_off28_eq]; rfl) (by show (k0_off28 c) 2 = _; rw [k0_off28_eq]; rfl)
      · sl_unfold_words
        exact band_goal_12 m c _ _ _ _ _ _ _ _ (by show (k0_off29 c) 1 = _; rw [k0_off29_eq]; rfl) (by show (k0_off29 c) 2 = _; rw [k0_off29_eq]; rfl)
      · sl_unfold_words
        exact band_goal_13 m c _ _ _ _ _ _ _ _ (by show (k0_off30 c) 1 = _; rw [k0_off30_eq]; rfl) (by show (k0_off30 c) 2 = _; rw [k0_off30_eq]; rfl)
      · sl_unfold_words
        exact band_goal_14 m c _ _ _ _ _ _ _ _ (by show (k0_off31 c) 1 = _; rw [k0_off31_eq]; rfl) (by show (k0_off31 c) 2 = _; rw [k0_off31_eq]; rfl)
      · sl_unfold_words
        exact band_goal_15 m c _ _ _ _ _ _ _ _ (by show (k0_off32 c) 1 = _; rw [k0_off32_eq]; rfl) (by show (k0_off32 c) 2 = _; rw [k0_off32_eq]; rfl)
    isplitl [Hown Hz32 Hz33 Hz34 Hz35 Hz36 Hz37 Hz38 Hz39]
    · iapply (allSems_of c)
      isplitl [Hown]; · iexact Hown
      unfold localSems
      isplitl [Hz32]; · iexact Hz32
      isplitl [Hz33]; · iexact Hz33
      isplitl [Hz34]; · iexact Hz34
      isplitl [Hz35]; · iexact Hz35
      isplitl [Hz36]; · iexact Hz36
      isplitl [Hz37]; · iexact Hz37
      isplitl [Hz38]; · iexact Hz38
      iexact Hz39
    isplitl [Hc0 Hc1]
    · iapply (pair_join_scratch0 c _ _); isplitl [Hc0]; · iexact Hc0
      iexact Hc1
    isplitl [Has12_pay1 Has13_pay1 Has14_pay1 Has15_pay1]
    · iapply (slots_join_h c _ _ _ _)
      isplitl [Has12_pay1]; · iexact Has12_pay1
      isplitl [Has13_pay1]; · iexact Has13_pay1
      isplitl [Has14_pay1]; · iexact Has14_pay1
      iexact Has15_pay1
    isplitl [Hm0 Hm1]
    · iapply (pair_join_scratch2 c _ _); isplitl [Hm0]; · iexact Hm0
      iexact Hm1
    isplitl [Hr0 Hr1]
    · iapply (pair_join_scratch3 c _ _); isplitl [Hr0]; · iexact Hr0
      iexact Hr1
    iapply (pair_join_scratch4 c _ _); isplitl [He0]; · iexact He0
    iexact He1
  · iexists _; iexact HO

/-- The body obligation of the launch theorem, at every device. -/
theorem body_obligation (c : Dev nD) : BodyObligation (dats (F := F) m 0 c) (defs₀ (F := F)) 𝒱₀ () Set.univ :=
  body_obligation_of m (fun K c W f0 f1 f2 f3 f4 => sound_body m K c W f0 f1 f2 f3 f4) c

/-- info: 'Cert.KernelIdeal.RS.body_obligation' depends on axioms: [propext, Classical.choice, Quot.sound] -/
#guard_msgs in #print axioms body_obligation

end Cert.KernelIdeal.RS

end
-- ==== Proof.KernelLevels.lean ====
import proofs.«901042_g7700000000001043_dist_rs_v7x_xyz2x4x4_x_m8192_n1024_bf16_1_alg».proof.Proof.KernelState

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Waiting while owing: what a device owes sits on its partner's arrival cells, above every other cell -/

/-- A tally that is positive only on arrival cells of the partner of `c`. -/
def P (c : Dev nD) (O : CellTallies nD τ sig Unit) : Prop :=
  ∀ (g : GSem nD τ sig) (u : Unit), 0 < O g u → ∃ k : Fin 16, g = recvCell (peer c) k

theorem pos_tally (c : Dev nD) (k : Fin 16) : P c (tallyAt (recvCell (peer c) k) () N) :=
  fun g u h => ⟨k, (Pipeline.tallyAt_pos h).1⟩

theorem pos_add {c : Dev nD} {O₁ O₂ : CellTallies nD τ sig Unit} (h₁ : P c O₁) (h₂ : P c O₂) : P c (O₁ + O₂) :=
  fun g u h => (Pipeline.add_pos_cases h).elim (h₁ g u) (h₂ g u)

theorem pos_zero (c : Dev nD) : P c 0 := fun g u h => by
  rw [Pi.zero_apply, Finsupp.zero_apply] at h; exact absurd h (Nat.lt_irrefl 0)

/-- The barrier cells sit at level 1, -/
theorem lv_reg (c : Dev nD) (s : Sem sig) : lv ((c : Thread nD τ), SemLoc.reg s) () < 2 := by
  show (1 : ℕ) < 2; decide
/-- every DMA cell that is no arrival cell at level 0, -/
theorem lv_dma_lt (c : Dev nD) (i : DmaSem sig) (h : ¬ (16 ≤ i.val ∧ i.val < 32)) : lv ((c : Thread nD τ), SemLoc.dma i) () < 2 := by
  show (if 16 ≤ i.val ∧ i.val < 32 then 2 else 0) < 2
  rw [if_neg h]; decide
/-- and the arrival cells at level 2. -/
theorem lv_recv (c : Dev nD) (k : Fin 16) (u : Unit) : lv (recvCell c k) u = 2 := by
  have := k.isLt
  show (if 16 ≤ 16 + k.val ∧ 16 + k.val < 32 then 2 else 0) = 2
  rw [if_pos ⟨by omega, by omega⟩]

/-- A device that owes only on its partner's arrival cells may wait on any of its own cells below level 2. -/
theorem mayWait_low (c : Dev nD) (sm : SemLoc sig) (hsm : lv ((c : Thread nD τ), sm) () < 2) (O : CellTallies nD τ sig Unit) (hO : P c O) :
    (levAts L lv : sProp 𝕄) ⊢ MayWait (c : Thread nD τ) sm () O :=
  Pipeline.mayWait_of_levAts (by rw [L_tc]; exact Finset.mem_singleton_self ()) fun g i hg => by
    obtain ⟨k, rfl⟩ := hO g i hg
    refine ⟨by rw [L_tc]; exact Finset.mem_singleton_self _, ?_⟩
    rw [lv_recv]; exact hsm

end Cert.Kernel.RS

end
-- ==== Proof.KernelFacts.lean ====
import proofs.«901042_g7700000000001043_dist_rs_v7x_xyz2x4x4_x_m8192_n1024_bf16_1_alg».proof.Proof.KernelLevels

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Windows of the input slab -/

/-- Two chunk windows of the input slab, each seen as a 512 × 1024 array, whose row ranges or column ranges do not meet hold no common element. -/
theorem xwin_disjoint_sq (o1 o2 : Fin 3 → Nat) (h1 : ∀ a, o1 a + S1x512x1024.size a ≤ S1x8192x2048.size a)
    (h2 : ∀ a, o2 a + S1x512x1024.size a ≤ S1x8192x2048.size a)
    (hsep : o1 1 + 512 ≤ o2 1 ∨ o2 1 + 512 ≤ o1 1 ∨ o1 2 + 1024 ≤ o2 2 ∨ o2 2 + 1024 ≤ o1 2) :
    Disjoint ((((Memref.whole main_arg0 : Memref sig .tc .hbm S1x8192x2048 .f32).slice (Rect.unit (s := S1x8192x2048) o1 S1x512x1024.size h1) (fun _ => rfl)).squeeze S512x1024 squeezes_S1x512x1024_S512x1024).view.set)
      ((((Memref.whole main_arg0 : Memref sig .tc .hbm S1x8192x2048 .f32).slice (Rect.unit (s := S1x8192x2048) o2 S1x512x1024.size h2) (fun _ => rfl)).squeeze S512x1024 squeezes_S1x512x1024_S512x1024).view.set) := by
  have e (o : Fin 3 → Nat) (h : ∀ a, o a + S1x512x1024.size a ≤ S1x8192x2048.size a) : ((((Memref.whole main_arg0 : Memref sig .tc .hbm S1x8192x2048 .f32).slice (Rect.unit (s := S1x8192x2048) o S1x512x1024.size h) (fun _ => rfl)).squeeze S512x1024 squeezes_S1x512x1024_S512x1024).view.set)
      = (Rect.unit (s := S1x8192x2048) o S1x512x1024.size h).set :=
    (View.set_reshape (v := (View.whole main_arg0).slice (Rect.unit (s := S1x8192x2048) o S1x512x1024.size h)) _).trans (View.set_slice_whole main_arg0 _)
  rw [e o1 h1, e o2 h2]
  rcases hsep with h | h | h | h
  · exact Rect.disjoint_of_separated _ _ 1 (Or.inl (Or.inr (by show o1 1 + 1 * (512 - 1) < o2 1; omega)))
  · exact Rect.disjoint_of_separated _ _ 1 (Or.inr (Or.inr (by show o2 1 + 1 * (512 - 1) < o1 1; omega)))
  · exact Rect.disjoint_of_separated _ _ 2 (Or.inl (Or.inr (by show o1 2 + 1 * (1024 - 1) < o2 2; omega)))
  · exact Rect.disjoint_of_separated _ _ 2 (Or.inr (Or.inr (by show o2 2 + 1 * (1024 - 1) < o1 2; omega)))

/-! ## The partner, as the kernel computes it; the landing array -/

theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))
theorem dev11_eq (c : Dev nD) : (⟨k0_dev11 c, k0_dev11_lt c⟩ : Dev nD) = peer c := Fin.ext ((k0_dev11_eq c).trans (dev_closed c))
theorem dev12_eq (c : Dev nD) : (⟨k0_dev12 c, k0_dev12_lt c⟩ : Dev nD) = peer c := Fin.ext ((k0_dev12_eq c).trans (dev_closed c))
theorem dev13_eq (c : Dev nD) : (⟨k0_dev13 c, k0_dev13_lt c⟩ : Dev nD) = peer c := Fin.ext ((k0_dev13_eq c).trans (dev_closed c))
theorem dev14_eq (c : Dev nD) : (⟨k0_dev14 c, k0_dev14_lt c⟩ : Dev nD) = peer c := Fin.ext ((k0_dev14_eq c).trans (dev_closed c))
theorem dev15_eq (c : Dev nD) : (⟨k0_dev15 c, k0_dev15_lt c⟩ : Dev nD) = peer c := Fin.ext ((k0_dev15_eq c).trans (dev_closed c))
theorem dev16_eq (c : Dev nD) : (⟨k0_dev16 c, k0_dev16_lt c⟩ : Dev nD) = peer c := Fin.ext ((k0_dev16_eq c).trans (dev_closed c))
theorem dev17_eq (c : Dev nD) : (⟨k0_dev17 c, k0_dev17_lt c⟩ : Dev nD) = peer c := Fin.ext ((k0_dev17_eq c).trans (dev_closed c))

omit [FloatOps F] in
/-- A whole buffer's points-to, spelt through its whole memref's view. -/
theorem whole_pts (d : Dev nD) (b : Ref sig .tc) (f : Buf (Elt F) ((d : Thread nD τ).loc b)) :
    ((Memref.whole b).view.loc (d : Thread nD τ) ↦[(Memref.whole b).view.set]{fullShare} f : sProp 𝕄) = (((d : Thread nD τ).loc b) ↦{fullShare} f) := by
  show ((View.whole b).loc (d : Thread nD τ) ↦[(View.whole b).set]{fullShare} f : sProp 𝕄) = _
  rw [View.set_whole]

/-- The landing array of device `d`, whole, as launched. -/
abbrev landing (d : Dev nD) : sProp 𝕄 :=
  (Memref.whole main_v1_1 : Memref sig .tc .hbm S8192x1024 .bf16).view.loc ((d : Dev nD) : Thread nD τ) ↦[(Memref.whole main_v1_1 : Memref sig .tc .hbm S8192x1024 .bf16).view.set]{fullShare} m (((d : Dev nD) : Thread nD τ).loc main_v1_1)

theorem payload_bar_view (c : Dev nD) (d : Unit) : (sched (F := F) m).payload (barCell c) 0 d
    = ((Memref.whole main_v1_1 : Memref sig .tc .hbm S8192x1024 .bf16).view.loc ((peer c : Dev nD) : Thread nD τ) ↦[(Memref.whole main_v1_1 : Memref sig .tc .hbm S8192x1024 .bf16).view.set]{fullShare} m (((peer c : Dev nD) : Thread nD τ).loc main_v1_1) : sProp 𝕄) := by
  rw [whole_pts]; rfl
omit [FloatOps F] in
theorem landing_respell (c : Dev nD) : landing (F := F) m c = landing m (peer (peer c)) := by rw [peer_peer]

/-! ## The chunk windows in flight together are pairwise disjoint, in both orders -/

theorem dMP0 (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set) :=
  xwin_disjoint_sq (k0_off2 c) (k0_off1 c) (k0_off2_inb c) (k0_off1_inb c) (by rw [k0_off2_eq, k0_off1_eq]; simp only [Matrix.cons_val_one, Matrix.cons_val_zero, Matrix.cons_val_two, Matrix.head_cons, Matrix.tail_cons]; omega)
theorem dMP0s (c : Dev nD) : Disjoint ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) := (dMP0 c).symm
theorem dPP0 (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set) :=
  xwin_disjoint_sq (k0_off3 c) (k0_off1 c) (k0_off3_inb c) (k0_off1_inb c) (by rw [k0_off3_eq, k0_off1_eq]; simp only [Matrix.cons_val_one, Matrix.cons_val_zero, Matrix.cons_val_two, Matrix.head_cons, Matrix.tail_cons]; omega)
theorem dPP0s (c : Dev nD) : Disjoint ((((Memref.whole main_arg0 : Memref sig .tc .hbm S1x8192x2048 .f32).slice (Rect.unit (s := S1x8192x2048) (k0_off1 c) S1x512x1024.size (k0_off1_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) := (dPP0 c).symm
theorem dPM0 (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off3 c) (k0_off2 c) (k0_off3_inb c) (k0_off2_inb c) (by rw [k0_off3_eq, k0_off2_eq]; simp only [Matrix.cons_val_one, Matrix.cons_val_zero, Matrix.cons_val_two, Matrix.head_cons, Matrix.tail_cons]; omega)
theorem dPM0s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) := (dPM0 c).symm
theorem dPP1 (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set) :=
  xwin_disjoint_sq (k0_off4 c) (k0_off3 c) (k0_off4_inb c) (k0_off3_inb c) (by rw [k0_off4_eq, k0_off3_eq]; simp only [Matrix.cons_val_one, Matrix.cons_val_zero, Matrix.cons_val_two, Matrix.head_cons, Matrix.tail_cons]; omega)
theorem dPP1s (c : Dev nD) : Disjoint ((((Memref.whole main_arg0 : Memref sig .tc .hbm S1x8192x2048 .f32).slice (Rect.unit (s := S1x8192x2048) (k0_off3 c) S1x512x1024.size (k0_off3_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) := (dPP1 c).symm
theorem dPM1 (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off4 c) (k0_off2 c) (k0_off4_inb c) (k0_off2_inb c) (by rw [k0_off4_eq, k0_off2_eq]; simp only [Matrix.cons_val_one, Matrix.cons_val_zero, Matrix.cons_val_two, Matrix.head_cons, Matrix.tail_cons]; omega)
theorem dPM1s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) := (dPM1 c).symm
theorem dPP2 (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set) :=
  xwin_disjoint_sq (k0_off5 c) (k0_off4 c) (k0_off5_inb c) (k0_off4_inb c) (by rw [k0_off5_eq, k0_off4_eq]; simp only [Matrix.cons_val_one, Matrix.cons_val_zero, Matrix.cons_val_two, Matrix.head_cons, Matrix.tail_cons]; omega)
theorem dPP2s (c : Dev nD) : Disjoint ((((Memref.whole main_arg0 : Memref sig .tc .hbm S1x8192x2048 .f32).slice (Rect.unit (s := S1x8192x2048) (k0_off4 c) S1x512x1024.size (k0_off4_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) := (dPP2 c).symm
theorem dPM2 (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off5 c) (k0_off2 c) (k0_off5_inb c) (k0_off2_inb c) (by rw [k0_off5_eq, k0_off2_eq]; simp only [Matrix.cons_val_one, Matrix.cons_val_zero, Matrix.cons_val_two, Matrix.head_cons, Matrix.tail_cons]; omega)
theorem dPM2s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) := (dPM2 c).symm
theorem dPP3 (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set) :=
  xwin_disjoint_sq (k0_off6 c) (k0_off5 c) (k0_off6_inb c) (k0_off5_inb c) (by rw [k0_off6_eq, k0_off5_eq]; simp only [Matrix.cons_val_one, Matrix.cons_val_zero, Matrix.cons_val_two, Matrix.head_cons, Matrix.tail_cons]; omega)
theorem dPP3s (c : Dev nD) : Disjoint ((((Memref.whole main_arg0 : Memref sig .tc .hbm S1x8192x2048 .f32).slice (Rect.unit (s := S1x8192x2048) (k0_off5 c) S1x512x1024.size (k0_off5_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) := (dPP3 c).symm
theorem dPM3 (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off6 c) (k0_off2 c) (k0_off6_inb c) (k0_off2_inb c) (by rw [k0_off6_eq, k0_off2_eq]; simp only [Matrix.cons_val_one, Matrix.cons_val_zero, Matrix.cons_val_two, Matrix.head_cons, Matrix.tail_cons]; omega)
theorem dPM3s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) := (dPM3 c).symm
theorem dPP4 (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set) :=
  xwin_disjoint_sq (k0_off7 c) (k0_off6 c) (k0_off7_inb c) (k0_off6_inb c) (by rw [k0_off7_eq, k0_off6_eq]; simp only [Matrix.cons_val_one, Matrix.cons_val_zero, Matrix.cons_val_two, Matrix.head_cons, Matrix.tail_cons]; omega)
theorem dPP4s (c : Dev nD) : Disjoint ((((Memref.whole main_arg0 : Memref sig .tc .hbm S1x8192x2048 .f32).slice (Rect.unit (s := S1x8192x2048) (k0_off6 c) S1x512x1024.size (k0_off6_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) := (dPP4 c).symm
theorem dPM4 (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off7 c) (k0_off2 c) (k0_off7_inb c) (k0_off2_inb c) (by rw [k0_off7_eq, k0_off2_eq]; simp only [Matrix.cons_val_one, Matrix.cons_val_zero, Matrix.cons_val_two, Matrix.head_cons, Matrix.tail_cons]; omega)
theorem dPM4s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) := (dPM4 c).symm
theorem dPP5 (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set) :=
  xwin_disjoint_sq (k0_off8 c) (k0_off7 c) (k0_off8_inb c) (k0_off7_inb c) (by rw [k0_off8_eq, k0_off7_eq]; simp only [Matrix.cons_val_one, Matrix.cons_val_zero, Matrix.cons_val_two, Matrix.head_cons, Matrix.tail_cons]; omega)
theorem dPP5s (c : Dev nD) : Disjoint ((((Memref.whole main_arg0 : Memref sig .tc .hbm S1x8192x2048 .f32).slice (Rect.unit (s := S1x8192x2048) (k0_off7 c) S1x512x1024.size (k0_off7_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) := (dPP5 c).symm
theorem dPM5 (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off8 c) (k0_off2 c) (k0_off8_inb c) (k0_off2_inb c) (by rw [k0_off8_eq, k0_off2_eq]; simp only [Matrix.cons_val_one, Matrix.cons_val_zero, Matrix.cons_val_two, Matrix.head_cons, Matrix.tail_cons]; omega)
theorem dPM5s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) := (dPM5 c).symm
theorem dPP6 (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set) :=
  xwin_disjoint_sq (k0_off9 c) (k0_off8 c) (k0_off9_inb c) (k0_off8_inb c) (by rw [k0_off9_eq, k0_off8_eq]; simp only [Matrix.cons_val_one, Matrix.cons_val_zero, Matrix.cons_val_two, Matrix.head_cons, Matrix.tail_cons]; omega)
theorem dPP6s (c : Dev nD) : Disjoint ((((Memref.whole main_arg0 : Memref sig .tc .hbm S1x8192x2048 .f32).slice (Rect.unit (s := S1x8192x2048) (k0_off8 c) S1x512x1024.size (k0_off8_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) := (dPP6 c).symm
theorem dPM6 (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off9 c) (k0_off2 c) (k0_off9_inb c) (k0_off2_inb c) (by rw [k0_off9_eq, k0_off2_eq]; simp only [Matrix.cons_val_one, Matrix.cons_val_zero, Matrix.cons_val_two, Matrix.head_cons, Matrix.tail_cons]; omega)
theorem dPM6s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) := (dPM6 c).symm
theorem dPP7 (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set) :=
  xwin_disjoint_sq (k0_off10 c) (k0_off9 c) (k0_off10_inb c) (k0_off9_inb c) (by rw [k0_off10_eq, k0_off9_eq]; simp only [Matrix.cons_val_one, Matrix.cons_val_zero, Matrix.cons_val_two, Matrix.head_cons, Matrix.tail_cons]; omega)
theorem dPP7s (c : Dev nD) : Disjoint ((((Memref.whole main_arg0 : Memref sig .tc .hbm S1x8192x2048 .f32).slice (Rect.unit (s := S1x8192x2048) (k0_off9 c) S1x512x1024.size (k0_off9_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) := (dPP7 c).symm
theorem dPM7 (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off10 c) (k0_off2 c) (k0_off10_inb c) (k0_off2_inb c) (by rw [k0_off10_eq, k0_off2_eq]; simp only [Matrix.cons_val_one, Matrix.cons_val_zero, Matrix.cons_val_two, Matrix.head_cons, Matrix.tail_cons]; omega)
theorem dPM7s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) := (dPM7 c).symm
theorem dPP8 (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set) :=
  xwin_disjoint_sq (k0_off11 c) (k0_off10 c) (k0_off11_inb c) (k0_off10_inb c) (by rw [k0_off11_eq, k0_off10_eq]; simp only [Matrix.cons_val_one, Matrix.cons_val_zero, Matrix.cons_val_two, Matrix.head_cons, Matrix.tail_cons]; omega)
theorem dPP8s (c : Dev nD) : Disjoint ((((Memref.whole main_arg0 : Memref sig .tc .hbm S1x8192x2048 .f32).slice (Rect.unit (s := S1x8192x2048) (k0_off10 c) S1x512x1024.size (k0_off10_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) := (dPP8 c).symm
theorem dPM8 (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off11 c) (k0_off2 c) (k0_off11_inb c) (k0_off2_inb c) (by rw [k0_off11_eq, k0_off2_eq]; simp only [Matrix.cons_val_one, Matrix.cons_val_zero, Matrix.cons_val_two, Matrix.head_cons, Matrix.tail_cons]; omega)
theorem dPM8s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) := (dPM8 c).symm
theorem dPP9 (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set) :=
  xwin_disjoint_sq (k0_off12 c) (k0_off11 c) (k0_off12_inb c) (k0_off11_inb c) (by rw [k0_off12_eq, k0_off11_eq]; simp only [Matrix.cons_val_one, Matrix.cons_val_zero, Matrix.cons_val_two, Matrix.head_cons, Matrix.tail_cons]; omega)
theorem dPP9s (c : Dev nD) : Disjoint ((((Memref.whole main_arg0 : Memref sig .tc .hbm S1x8192x2048 .f32).slice (Rect.unit (s := S1x8192x2048) (k0_off11 c) S1x512x1024.size (k0_off11_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) := (dPP9 c).symm
theorem dPM9 (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off12 c) (k0_off2 c) (k0_off12_inb c) (k0_off2_inb c) (by rw [k0_off12_eq, k0_off2_eq]; simp only [Matrix.cons_val_one, Matrix.cons_val_zero, Matrix.cons_val_two, Matrix.head_cons, Matrix.tail_cons]; omega)
theorem dPM9s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) := (dPM9 c).symm
theorem dPP10 (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set) :=
  xwin_disjoint_sq (k0_off13 c) (k0_off12 c) (k0_off13_inb c) (k0_off12_inb c) (by rw [k0_off13_eq, k0_off12_eq]; simp only [Matrix.cons_val_one, Matrix.cons_val_zero, Matrix.cons_val_two, Matrix.head_cons, Matrix.tail_cons]; omega)
theorem dPP10s (c : Dev nD) : Disjoint ((((Memref.whole main_arg0 : Memref sig .tc .hbm S1x8192x2048 .f32).slice (Rect.unit (s := S1x8192x2048) (k0_off12 c) S1x512x1024.size (k0_off12_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) := (dPP10 c).symm
theorem dPM10 (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off13 c) (k0_off2 c) (k0_off13_inb c) (k0_off2_inb c) (by rw [k0_off13_eq, k0_off2_eq]; simp only [Matrix.cons_val_one, Matrix.cons_val_zero, Matrix.cons_val_two, Matrix.head_cons, Matrix.tail_cons]; omega)
theorem dPM10s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) := (dPM10 c).symm
theorem dPP11 (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set) :=
  xwin_disjoint_sq (k0_off14 c) (k0_off13 c) (k0_off14_inb c) (k0_off13_inb c) (by rw [k0_off14_eq, k0_off13_eq]; simp only [Matrix.cons_val_one, Matrix.cons_val_zero, Matrix.cons_val_two, Matrix.head_cons, Matrix.tail_cons]; omega)
theorem dPP11s (c : Dev nD) : Disjoint ((((Memref.whole main_arg0 : Memref sig .tc .hbm S1x8192x2048 .f32).slice (Rect.unit (s := S1x8192x2048) (k0_off13 c) S1x512x1024.size (k0_off13_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) := (dPP11 c).symm
theorem dPM11 (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off14 c) (k0_off2 c) (k0_off14_inb c) (k0_off2_inb c) (by rw [k0_off14_eq, k0_off2_eq]; simp only [Matrix.cons_val_one, Matrix.cons_val_zero, Matrix.cons_val_two, Matrix.head_cons, Matrix.tail_cons]; omega)
theorem dPM11s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) := (dPM11 c).symm
theorem dPP12 (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set) :=
  xwin_disjoint_sq (k0_off15 c) (k0_off14 c) (k0_off15_inb c) (k0_off14_inb c) (by rw [k0_off15_eq, k0_off14_eq]; simp only [Matrix.cons_val_one, Matrix.cons_val_zero, Matrix.cons_val_two, Matrix.head_cons, Matrix.tail_cons]; omega)
theorem dPP12s (c : Dev nD) : Disjoint ((((Memref.whole main_arg0 : Memref sig .tc .hbm S1x8192x2048 .f32).slice (Rect.unit (s := S1x8192x2048) (k0_off14 c) S1x512x1024.size (k0_off14_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) := (dPP12 c).symm
theorem dPM12 (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off15 c) (k0_off2 c) (k0_off15_inb c) (k0_off2_inb c) (by rw [k0_off15_eq, k0_off2_eq]; simp only [Matrix.cons_val_one, Matrix.cons_val_zero, Matrix.cons_val_two, Matrix.head_cons, Matrix.tail_cons]; omega)
theorem dPM12s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) := (dPM12 c).symm
theorem dPP13 (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set) :=
  xwin_disjoint_sq (k0_off16 c) (k0_off15 c) (k0_off16_inb c) (k0_off15_inb c) (by rw [k0_off16_eq, k0_off15_eq]; simp only [Matrix.cons_val_one, Matrix.cons_val_zero, Matrix.cons_val_two, Matrix.head_cons, Matrix.tail_cons]; omega)
theorem dPP13s (c : Dev nD) : Disjoint ((((Memref.whole main_arg0 : Memref sig .tc .hbm S1x8192x2048 .f32).slice (Rect.unit (s := S1x8192x2048) (k0_off15 c) S1x512x1024.size (k0_off15_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) := (dPP13 c).symm
theorem dPM13 (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off16 c) (k0_off2 c) (k0_off16_inb c) (k0_off2_inb c) (by rw [k0_off16_eq, k0_off2_eq]; simp only [Matrix.cons_val_one, Matrix.cons_val_zero, Matrix.cons_val_two, Matrix.head_cons, Matrix.tail_cons]; omega)
theorem dPM13s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) := (dPM13 c).symm
theorem dPP14 (c : Dev nD) : Disjoint ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set)
    ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set) :=
  xwin_disjoint_sq (k0_off17 c) (k0_off16 c) (k0_off17_inb c) (k0_off16_inb c) (by rw [k0_off17_eq, k0_off16_eq]; simp only [Matrix.cons_val_one, Matrix.cons_val_zero, Matrix.cons_val_two, Matrix.head_cons, Matrix.tail_cons]; omega)
theorem dPP14s (c : Dev nD) : Disjoint ((((Memref.whole main_arg0 : Memref sig .tc .hbm S1x8192x2048 .f32).slice (Rect.unit (s := S1x8192x2048) (k0_off16 c) S1x512x1024.size (k0_off16_inb c)) (fun _ => rfl)).squeeze S512x1024 squeezes_S1x512x1024_S512x1024).view.set)
    ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set) := (dPP14 c).symm
theorem dPM14 (c : Dev nD) : Disjoint ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off17 c) (k0_off2 c) (k0_off17_inb c) (k0_off2_inb c) (by rw [k0_off17_eq, k0_off2_eq]; simp only [Matrix.cons_val_one, Matrix.cons_val_zero, Matrix.cons_val_two, Matrix.head_cons, Matrix.tail_cons]; omega)
theorem dPM14s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off17 c) S1x512x1024.size (k0_off17_inb c)) (fun _ => rfl)).squeeze S512x1024 squeezes_S1x512x1024_S512x1024).view.set) := (dPM14 c).symm
theorem dMM0 (c : Dev nD) : Disjoint ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set)
    ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set) :=
  xwin_disjoint_sq (k0_off18 c) (k0_off2 c) (k0_off18_inb c) (k0_off2_inb c) (by rw [k0_off18_eq, k0_off2_eq]; simp only [Matrix.cons_val_one, Matrix.cons_val_zero, Matrix.cons_val_two, Matrix.head_cons, Matrix.tail_cons]; omega)
theorem dMM0s (c : Dev nD) : Disjoint ((((Memref.whole main_arg0 : Memref sig .tc .hbm S1x8192x2048 .f32).slice (Rect.unit (s := S1x8192x2048) (k0_off2 c) S1x512x1024.size (k0_off2_inb c)) (fun _ => rfl)).squeeze S512x1024 squeezes_S1x512x1024_S512x1024).view.set)
    ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set) := (dMM0 c).symm
theorem dMM1 (c : Dev nD) : Disjoint ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set)
    ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set) :=
  xwin_disjoint_sq (k0_off19 c) (k0_off18 c) (k0_off19_inb c) (k0_off18_inb c) (by rw [k0_off19_eq, k0_off18_eq]; simp only [Matrix.cons_val_one, Matrix.cons_val_zero, Matrix.cons_val_two, Matrix.head_cons, Matrix.tail_cons]; omega)
theorem dMM1s (c : Dev nD) : Disjoint ((((Memref.whole main_arg0 : Memref sig .tc .hbm S1x8192x2048 .f32).slice (Rect.unit (s := S1x8192x2048) (k0_off18 c) S1x512x1024.size (k0_off18_inb c)) (fun _ => rfl)).squeeze S512x1024 squeezes_S1x512x1024_S512x1024).view.set)
    ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set) := (dMM1 c).symm
theorem dMM2 (c : Dev nD) : Disjoint ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set)
    ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set) :=
  xwin_disjoint_sq (k0_off20 c) (k0_off19 c) (k0_off20_inb c) (k0_off19_inb c) (by rw [k0_off20_eq, k0_off19_eq]; simp only [Matrix.cons_val_one, Matrix.cons_val_zero, Matrix.cons_val_two, Matrix.head_cons, Matrix.tail_cons]; omega)
theorem dMM2s (c : Dev nD) : Disjoint ((((Memref.whole main_arg0 : Memref sig .tc .hbm S1x8192x2048 .f32).slice (Rect.unit (s := S1x8192x2048) (k0_off19 c) S1x512x1024.size (k0_off19_inb c)) (fun _ => rfl)).squeeze S512x1024 squeezes_S1x512x1024_S512x1024).view.set)
    ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set) := (dMM2 c).symm
theorem dMM3 (c : Dev nD) : Disjoint ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set)
    ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set) :=
  xwin_disjoint_sq (k0_off21 c) (k0_off20 c) (k0_off21_inb c) (k0_off20_inb c) (by rw [k0_off21_eq, k0_off20_eq]; simp only [Matrix.cons_val_one, Matrix.cons_val_zero, Matrix.cons_val_two, Matrix.head_cons, Matrix.tail_cons]; omega)
theorem dMM3s (c : Dev nD) : Disjoint ((((Memref.whole main_arg0 : Memref sig .tc .hbm S1x8192x2048 .f32).slice (Rect.unit (s := S1x8192x2048) (k0_off20 c) S1x512x1024.size (k0_off20_inb c)) (fun _ => rfl)).squeeze S512x1024 squeezes_S1x512x1024_S512x1024).view.set)
    ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set) := (dMM3 c).symm
theorem dMM4 (c : Dev nD) : Disjoint ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set)
    ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set) :=
  xwin_disjoint_sq (k0_off22 c) (k0_off21 c) (k0_off22_inb c) (k0_off21_inb c) (by rw [k0_off22_eq, k0_off21_eq]; simp only [Matrix.cons_val_one, Matrix.cons_val_zero, Matrix.cons_val_two, Matrix.head_cons, Matrix.tail_cons]; omega)
theorem dMM4s (c : Dev nD) : Disjoint ((((Memref.whole main_arg0 : Memref sig .tc .hbm S1x8192x2048 .f32).slice (Rect.unit (s := S1x8192x2048) (k0_off21 c) S1x512x1024.size (k0_off21_inb c)) (fun _ => rfl)).squeeze S512x1024 squeezes_S1x512x1024_S512x1024).view.set)
    ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set) := (dMM4 c).symm
theorem dMM5 (c : Dev nD) : Disjoint ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set)
    ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set) :=
  xwin_disjoint_sq (k0_off23 c) (k0_off22 c) (k0_off23_inb c) (k0_off22_inb c) (by rw [k0_off23_eq, k0_off22_eq]; simp only [Matrix.cons_val_one, Matrix.cons_val_zero, Matrix.cons_val_two, Matrix.head_cons, Matrix.tail_cons]; omega)
theorem dMM5s (c : Dev nD) : Disjoint ((((Memref.whole main_arg0 : Memref sig .tc .hbm S1x8192x2048 .f32).slice (Rect.unit (s := S1x8192x2048) (k0_off22 c) S1x512x1024.size (k0_off22_inb c)) (fun _ => rfl)).squeeze S512x1024 squeezes_S1x512x1024_S512x1024).view.set)
    ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set) := (dMM5 c).symm
theorem dMM6 (c : Dev nD) : Disjoint ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set)
    ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set) :=
  xwin_disjoint_sq (k0_off24 c) (k0_off23 c) (k0_off24_inb c) (k0_off23_inb c) (by rw [k0_off24_eq, k0_off23_eq]; simp only [Matrix.cons_val_one, Matrix.cons_val_zero, Matrix.cons_val_two, Matrix.head_cons, Matrix.tail_cons]; omega)
theorem dMM6s (c : Dev nD) : Disjoint ((((Memref.whole main_arg0 : Memref sig .tc .hbm S1x8192x2048 .f32).slice (Rect.unit (s := S1x8192x2048) (k0_off23 c) S1x512x1024.size (k0_off23_inb c)) (fun _ => rfl)).squeeze S512x1024 squeezes_S1x512x1024_S512x1024).view.set)
    ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set) := (dMM6 c).symm
theorem dMM7 (c : Dev nD) : Disjoint ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set)
    ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set) :=
  xwin_disjoint_sq (k0_off25 c) (k0_off24 c) (k0_off25_inb c) (k0_off24_inb c) (by rw [k0_off25_eq, k0_off24_eq]; simp only [Matrix.cons_val_one, Matrix.cons_val_zero, Matrix.cons_val_two, Matrix.head_cons, Matrix.tail_cons]; omega)
theorem dMM7s (c : Dev nD) : Disjoint ((((Memref.whole main_arg0 : Memref sig .tc .hbm S1x8192x2048 .f32).slice (Rect.unit (s := S1x8192x2048) (k0_off24 c) S1x512x1024.size (k0_off24_inb c)) (fun _ => rfl)).squeeze S512x1024 squeezes_S1x512x1024_S512x1024).view.set)
    ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set) := (dMM7 c).symm
theorem dMM8 (c : Dev nD) : Disjoint ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set)
    ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set) :=
  xwin_disjoint_sq (k0_off26 c) (k0_off25 c) (k0_off26_inb c) (k0_off25_inb c) (by rw [k0_off26_eq, k0_off25_eq]; simp only [Matrix.cons_val_one, Matrix.cons_val_zero, Matrix.cons_val_two, Matrix.head_cons, Matrix.tail_cons]; omega)
theorem dMM8s (c : Dev nD) : Disjoint ((((Memref.whole main_arg0 : Memref sig .tc .hbm S1x8192x2048 .f32).slice (Rect.unit (s := S1x8192x2048) (k0_off25 c) S1x512x1024.size (k0_off25_inb c)) (fun _ => rfl)).squeeze S512x1024 squeezes_S1x512x1024_S512x1024).view.set)
    ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set) := (dMM8 c).symm
theorem dMM9 (c : Dev nD) : Disjoint ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set)
    ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set) :=
  xwin_disjoint_sq (k0_off27 c) (k0_off26 c) (k0_off27_inb c) (k0_off26_inb c) (by rw [k0_off27_eq, k0_off26_eq]; simp only [Matrix.cons_val_one, Matrix.cons_val_zero, Matrix.cons_val_two, Matrix.head_cons, Matrix.tail_cons]; omega)
theorem dMM9s (c : Dev nD) : Disjoint ((((Memref.whole main_arg0 : Memref sig .tc .hbm S1x8192x2048 .f32).slice (Rect.unit (s := S1x8192x2048) (k0_off26 c) S1x512x1024.size (k0_off26_inb c)) (fun _ => rfl)).squeeze S512x1024 squeezes_S1x512x1024_S512x1024).view.set)
    ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set) := (dMM9 c).symm
theorem dMM10 (c : Dev nD) : Disjoint ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set)
    ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set) :=
  xwin_disjoint_sq (k0_off28 c) (k0_off27 c) (k0_off28_inb c) (k0_off27_inb c) (by rw [k0_off28_eq, k0_off27_eq]; simp only [Matrix.cons_val_one, Matrix.cons_val_zero, Matrix.cons_val_two, Matrix.head_cons, Matrix.tail_cons]; omega)
theorem dMM10s (c : Dev nD) : Disjoint ((((Memref.whole main_arg0 : Memref sig .tc .hbm S1x8192x2048 .f32).slice (Rect.unit (s := S1x8192x2048) (k0_off27 c) S1x512x1024.size (k0_off27_inb c)) (fun _ => rfl)).squeeze S512x1024 squeezes_S1x512x1024_S512x1024).view.set)
    ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set) := (dMM10 c).symm
theorem dMM11 (c : Dev nD) : Disjoint ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set)
    ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set) :=
  xwin_disjoint_sq (k0_off29 c) (k0_off28 c) (k0_off29_inb c) (k0_off28_inb c) (by rw [k0_off29_eq, k0_off28_eq]; simp only [Matrix.cons_val_one, Matrix.cons_val_zero, Matrix.cons_val_two, Matrix.head_cons, Matrix.tail_cons]; omega)
theorem dMM11s (c : Dev nD) : Disjoint ((((Memref.whole main_arg0 : Memref sig .tc .hbm S1x8192x2048 .f32).slice (Rect.unit (s := S1x8192x2048) (k0_off28 c) S1x512x1024.size (k0_off28_inb c)) (fun _ => rfl)).squeeze S512x1024 squeezes_S1x512x1024_S512x1024).view.set)
    ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set) := (dMM11 c).symm
theorem dMM12 (c : Dev nD) : Disjoint ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set)
    ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set) :=
  xwin_disjoint_sq (k0_off30 c) (k0_off29 c) (k0_off30_inb c) (k0_off29_inb c) (by rw [k0_off30_eq, k0_off29_eq]; simp only [Matrix.cons_val_one, Matrix.cons_val_zero, Matrix.cons_val_two, Matrix.head_cons, Matrix.tail_cons]; omega)
theorem dMM12s (c : Dev nD) : Disjoint ((((Memref.whole main_arg0 : Memref sig .tc .hbm S1x8192x2048 .f32).slice (Rect.unit (s := S1x8192x2048) (k0_off29 c) S1x512x1024.size (k0_off29_inb c)) (fun _ => rfl)).squeeze S512x1024 squeezes_S1x512x1024_S512x1024).view.set)
    ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set) := (dMM12 c).symm
theorem dMM13 (c : Dev nD) : Disjoint ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set)
    ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set) :=
  xwin_disjoint_sq (k0_off31 c) (k0_off30 c) (k0_off31_inb c) (k0_off30_inb c) (by rw [k0_off31_eq, k0_off30_eq]; simp only [Matrix.cons_val_one, Matrix.cons_val_zero, Matrix.cons_val_two, Matrix.head_cons, Matrix.tail_cons]; omega)
theorem dMM13s (c : Dev nD) : Disjoint ((((Memref.whole main_arg0 : Memref sig .tc .hbm S1x8192x2048 .f32).slice (Rect.unit (s := S1x8192x2048) (k0_off30 c) S1x512x1024.size (k0_off30_inb c)) (fun _ => rfl)).squeeze S512x1024 squeezes_S1x512x1024_S512x1024).view.set)
    ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set) := (dMM13 c).symm
theorem dMM14 (c : Dev nD) : Disjoint ((((Memref.whole main_arg0 : Memref sig .tc .hbm S1x8192x2048 .f32).slice (Rect.unit (s := S1x8192x2048) (k0_off32 c) S1x512x1024.size (k0_off32_inb c)) (fun _ => rfl)).squeeze S512x1024 squeezes_S1x512x1024_S512x1024).view.set)
    ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set) :=
  xwin_disjoint_sq (k0_off32 c) (k0_off31 c) (k0_off32_inb c) (k0_off31_inb c) (by rw [k0_off32_eq, k0_off31_eq]; simp only [Matrix.cons_val_one, Matrix.cons_val_zero, Matrix.cons_val_two, Matrix.head_cons, Matrix.tail_cons]; omega)
theorem dMM14s (c : Dev nD) : Disjoint ((((Memref.whole main_arg0 : Memref sig .tc .hbm S1x8192x2048 .f32).slice (Rect.unit (s := S1x8192x2048) (k0_off31 c) S1x512x1024.size (k0_off31_inb c)) (fun _ => rfl)).squeeze S512x1024 squeezes_S1x512x1024_S512x1024).view.set)
    ((((Memref.whole main_arg0 : Memref sig .tc .hbm S1x8192x2048 .f32).slice (Rect.unit (s := S1x8192x2048) (k0_off32 c) S1x512x1024.size (k0_off32_inb c)) (fun _ => rfl)).squeeze S512x1024 squeezes_S1x512x1024_S512x1024).view.set) := (dMM14 c).symm

/-! ## A device may wait on its barrier, local-copy and departure cells whatever it still owes its partner's arrival cells -/

theorem mwB (c : Dev nD) : (levAts L lv : sProp 𝕄) ⊢ MayWait (c : Thread nD τ) (.reg barS) () ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N)) :=
  mayWait_low c _ (lv_reg c barS) _ (pos_add (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1)) (pos_tally c 0))
theorem mwP0 (c : Dev nD) : (levAts L lv : sProp 𝕄) ⊢ MayWait (c : Thread nD τ) (.dma (⟨32, by decide⟩ : DmaSem sig)) () ((((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N) + tallyAt (recvCell (peer c) 0) () N)) :=
  mayWait_low c _ (lv_dma_lt c _ (by decide)) _ (pos_add (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1)) (pos_tally c 0))
theorem mwP1 (c : Dev nD) : (levAts L lv : sProp 𝕄) ⊢ MayWait (c : Thread nD τ) (.dma (⟨33, by decide⟩ : DmaSem sig)) () (((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N)) :=
  mayWait_low c _ (lv_dma_lt c _ (by decide)) _ (pos_add (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2)) (pos_tally c 1))
theorem mwP2 (c : Dev nD) : (levAts L lv : sProp 𝕄) ⊢ MayWait (c : Thread nD τ) (.dma (⟨32, by decide⟩ : DmaSem sig)) () ((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N)) :=
  mayWait_low c _ (lv_dma_lt c _ (by decide)) _ (pos_add (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3)) (pos_tally c 2))
theorem mwP3 (c : Dev nD) : (levAts L lv : sProp 𝕄) ⊢ MayWait (c : Thread nD τ) (.dma (⟨33, by decide⟩ : DmaSem sig)) () (((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N)) :=
  mayWait_low c _ (lv_dma_lt c _ (by decide)) _ (pos_add (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4)) (pos_tally c 3))
theorem mwP4 (c : Dev nD) : (levAts L lv : sProp 𝕄) ⊢ MayWait (c : Thread nD τ) (.dma (⟨32, by decide⟩ : DmaSem sig)) () ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) :=
  mayWait_low c _ (lv_dma_lt c _ (by decide)) _ (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4))
theorem mwS4 (c : Dev nD) : (levAts L lv : sProp 𝕄) ⊢ MayWait (c : Thread nD τ) (.dma (sendS 0)) () ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) :=
  mayWait_low c _ (lv_dma_lt c _ (by decide)) _ (pos_add (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5)) (pos_tally c 4))
theorem mwP5 (c : Dev nD) : (levAts L lv : sProp 𝕄) ⊢ MayWait (c : Thread nD τ) (.dma (⟨33, by decide⟩ : DmaSem sig)) () (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) :=
  mayWait_low c _ (lv_dma_lt c _ (by decide)) _ (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5))
theorem mwS5 (c : Dev nD) : (levAts L lv : sProp 𝕄) ⊢ MayWait (c : Thread nD τ) (.dma (sendS 1)) () (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) :=
  mayWait_low c _ (lv_dma_lt c _ (by decide)) _ (pos_add (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6)) (pos_tally c 5))
theorem mwP6 (c : Dev nD) : (levAts L lv : sProp 𝕄) ⊢ MayWait (c : Thread nD τ) (.dma (⟨32, by decide⟩ : DmaSem sig)) () ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) :=
  mayWait_low c _ (lv_dma_lt c _ (by decide)) _ (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6))
theorem mwS6 (c : Dev nD) : (levAts L lv : sProp 𝕄) ⊢ MayWait (c : Thread nD τ) (.dma (sendS 2)) () ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) :=
  mayWait_low c _ (lv_dma_lt c _ (by decide)) _ (pos_add (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7)) (pos_tally c 6))
theorem mwP7 (c : Dev nD) : (levAts L lv : sProp 𝕄) ⊢ MayWait (c : Thread nD τ) (.dma (⟨33, by decide⟩ : DmaSem sig)) () (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) :=
  mayWait_low c _ (lv_dma_lt c _ (by decide)) _ (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7))
theorem mwS7 (c : Dev nD) : (levAts L lv : sProp 𝕄) ⊢ MayWait (c : Thread nD τ) (.dma (sendS 3)) () (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) :=
  mayWait_low c _ (lv_dma_lt c _ (by decide)) _ (pos_add (pos_add (pos_add (pos_add (pos_add (pos_add (pos_add (pos_add (pos_tally c 15) (pos_tally c 14)) (pos_tally c 13)) (pos_tally c 12)) (pos_tally c 11)) (pos_tally c 10)) (pos_tally c 9)) (pos_tally c 8)) (pos_tally c 7))
theorem mwP8 (c : Dev nD) : (levAts L lv : sProp 𝕄) ⊢ MayWait (c : Thread nD τ) (.dma (⟨32, by decide⟩ : DmaSem sig)) () ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) :=
  mayWait_low c _ (lv_dma_lt c _ (by decide)) _ (pos_add (pos_add (pos_add (pos_add (pos_add (pos_add (pos_add (pos_tally c 15) (pos_tally c 14)) (pos_tally c 13)) (pos_tally c 12)) (pos_tally c 11)) (pos_tally c 10)) (pos_tally c 9)) (pos_tally c 8))
theorem mwS8 (c : Dev nD) : (levAts L lv : sProp 𝕄) ⊢ MayWait (c : Thread nD τ) (.dma (sendS 4)) () ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) :=
  mayWait_low c _ (lv_dma_lt c _ (by decide)) _ (pos_add (pos_add (pos_add (pos_add (pos_add (pos_add (pos_add (pos_tally c 15) (pos_tally c 14)) (pos_tally c 13)) (pos_tally c 12)) (pos_tally c 11)) (pos_tally c 10)) (pos_tally c 9)) (pos_tally c 8))
theorem mwP9 (c : Dev nD) : (levAts L lv : sProp 𝕄) ⊢ MayWait (c : Thread nD τ) (.dma (⟨33, by decide⟩ : DmaSem sig)) () (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) :=
  mayWait_low c _ (lv_dma_lt c _ (by decide)) _ (pos_add (pos_add (pos_add (pos_add (pos_add (pos_add (pos_tally c 15) (pos_tally c 14)) (pos_tally c 13)) (pos_tally c 12)) (pos_tally c 11)) (pos_tally c 10)) (pos_tally c 9))
theorem mwS9 (c : Dev nD) : (levAts L lv : sProp 𝕄) ⊢ MayWait (c : Thread nD τ) (.dma (sendS 5)) () (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) :=
  mayWait_low c _ (lv_dma_lt c _ (by decide)) _ (pos_add (pos_add (pos_add (pos_add (pos_add (pos_add (pos_tally c 15) (pos_tally c 14)) (pos_tally c 13)) (pos_tally c 12)) (pos_tally c 11)) (pos_tally c 10)) (pos_tally c 9))
theorem mwP10 (c : Dev nD) : (levAts L lv : sProp 𝕄) ⊢ MayWait (c : Thread nD τ) (.dma (⟨32, by decide⟩ : DmaSem sig)) () ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) :=
  mayWait_low c _ (lv_dma_lt c _ (by decide)) _ (pos_add (pos_add (pos_add (pos_add (pos_add (pos_tally c 15) (pos_tally c 14)) (pos_tally c 13)) (pos_tally c 12)) (pos_tally c 11)) (pos_tally c 10))
theorem mwS10 (c : Dev nD) : (levAts L lv : sProp 𝕄) ⊢ MayWait (c : Thread nD τ) (.dma (sendS 6)) () ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) :=
  mayWait_low c _ (lv_dma_lt c _ (by decide)) _ (pos_add (pos_add (pos_add (pos_add (pos_add (pos_tally c 15) (pos_tally c 14)) (pos_tally c 13)) (pos_tally c 12)) (pos_tally c 11)) (pos_tally c 10))
theorem mwP11 (c : Dev nD) : (levAts L lv : sProp 𝕄) ⊢ MayWait (c : Thread nD τ) (.dma (⟨33, by decide⟩ : DmaSem sig)) () (((((tallyAt (recvCell (peer c) 15) () N + tallyAt (recvCell (peer c) 14) () N) + tallyAt (recvCell (peer c) 13) () N) + tallyAt (recvCell (peer c) 12) () N) + tallyAt (recvCell (peer c) 11) () N)) :=
  mayWait_low c _ (lv_dma_lt c _ (by decide)) _ (pos_add (pos_add (pos_add (pos_add (pos_tally c 15) (pos_tally c 14)) (pos_tally c 13)) (pos_tally c 12)) (pos_tally c 11))
theorem mwS11 (c : Dev nD) : (levAts L lv : sProp 𝕄) ⊢ MayWait (c : Thread nD τ) (.dma (sendS 7)) () (((((tallyAt (recvCell (peer c) 15) () N + tallyAt (recvCell (peer c) 14) () N) + tallyAt (recvCell (peer c) 13) () N) + tallyAt (recvCell (peer c) 12) () N) + tallyAt (recvCell (peer c) 11) () N)) :=
  mayWait_low c _ (lv_dma_lt c _ (by decide)) _ (pos_add (pos_add (pos_add (pos_add (pos_tally c 15) (pos_tally c 14)) (pos_tally c 13)) (pos_tally c 12)) (pos_tally c 11))
theorem mwP12 (c : Dev nD) : (levAts L lv : sProp 𝕄) ⊢ MayWait (c : Thread nD τ) (.dma (⟨32, by decide⟩ : DmaSem sig)) () ((((tallyAt (recvCell (peer c) 15) () N + tallyAt (recvCell (peer c) 14) () N) + tallyAt (recvCell (peer c) 13) () N) + tallyAt (recvCell (peer c) 12) () N)) :=
  mayWait_low c _ (lv_dma_lt c _ (by decide)) _ (pos_add (pos_add (pos_add (pos_tally c 15) (pos_tally c 14)) (pos_tally c 13)) (pos_tally c 12))
theorem mwS12 (c : Dev nD) : (levAts L lv : sProp 𝕄) ⊢ MayWait (c : Thread nD τ) (.dma (sendS 8)) () ((((tallyAt (recvCell (peer c) 15) () N + tallyAt (recvCell (peer c) 14) () N) + tallyAt (recvCell (peer c) 13) () N) + tallyAt (recvCell (peer c) 12) () N)) :=
  mayWait_low c _ (lv_dma_lt c _ (by decide)) _ (pos_add (pos_add (pos_add (pos_tally c 15) (pos_tally c 14)) (pos_tally c 13)) (pos_tally c 12))
theorem mwP13 (c : Dev nD) : (levAts L lv : sProp 𝕄) ⊢ MayWait (c : Thread nD τ) (.dma (⟨33, by decide⟩ : DmaSem sig)) () (((tallyAt (recvCell (peer c) 15) () N + tallyAt (recvCell (peer c) 14) () N) + tallyAt (recvCell (peer c) 13) () N)) :=
  mayWait_low c _ (lv_dma_lt c _ (by decide)) _ (pos_add (pos_add (pos_tally c 15) (pos_tally c 14)) (pos_tally c 13))
theorem mwS13 (c : Dev nD) : (levAts L lv : sProp 𝕄) ⊢ MayWait (c : Thread nD τ) (.dma (sendS 9)) () (((tallyAt (recvCell (peer c) 15) () N + tallyAt (recvCell (peer c) 14) () N) + tallyAt (recvCell (peer c) 13) () N)) :=
  mayWait_low c _ (lv_dma_lt c _ (by decide)) _ (pos_add (pos_add (pos_tally c 15) (pos_tally c 14)) (pos_tally c 13))
theorem mwP14 (c : Dev nD) : (levAts L lv : sProp 𝕄) ⊢ MayWait (c : Thread nD τ) (.dma (⟨32, by decide⟩ : DmaSem sig)) () ((tallyAt (recvCell (peer c) 15) () N + tallyAt (recvCell (peer c) 14) () N)) :=
  mayWait_low c _ (lv_dma_lt c _ (by decide)) _ (pos_add (pos_tally c 15) (pos_tally c 14))
theorem mwS14 (c : Dev nD) : (levAts L lv : sProp 𝕄) ⊢ MayWait (c : Thread nD τ) (.dma (sendS 10)) () ((tallyAt (recvCell (peer c) 15) () N + tallyAt (recvCell (peer c) 14) () N)) :=
  mayWait_low c _ (lv_dma_lt c _ (by decide)) _ (pos_add (pos_tally c 15) (pos_tally c 14))
theorem mwP15 (c : Dev nD) : (levAts L lv : sProp 𝕄) ⊢ MayWait (c : Thread nD τ) (.dma (⟨33, by decide⟩ : DmaSem sig)) () (tallyAt (recvCell (peer c) 15) () N) :=
  mayWait_low c _ (lv_dma_lt c _ (by decide)) _ (pos_tally c 15)
theorem mwS15 (c : Dev nD) : (levAts L lv : sProp 𝕄) ⊢ MayWait (c : Thread nD τ) (.dma (sendS 11)) () (tallyAt (recvCell (peer c) 15) () N) :=
  mayWait_low c _ (lv_dma_lt c _ (by decide)) _ (pos_tally c 15)

end Cert.Kernel.RS

end
-- ==== Proof.KernelSteps.lean ====
import proofs.«901042_g7700000000001043_dist_rs_v7x_xyz2x4x4_x_m8192_n1024_bf16_1_alg».proof.Proof.KernelState
import Idealize.ShloMosaic.Lib.Pipeline.Value

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## What a chunk's transfer carries, and what it lands as -/

theorem chunk_row_lt (k : Fin 16) (y : S512x1024.Idx) : 512 * k.val + (y 0).val < 8192 := by
  have : (y 0).val < 512 := (y 0).isLt
  have := k.isLt
  omega
theorem chunk_col_lt (c : Dev nD) (y : S512x1024.Idx) : col c + (y 1).val < 2048 := by
  have : (y 1).val < 1024 := (y 1).isLt
  have := col_le c
  omega

/-- Chunk `k` of what device `c` sends its partner: rows `512 k …` of its slab on the partner's half of the columns, rounded. -/
def sentChunk (c : Dev nD) (k : Fin 16) : S512x1024.Idx → F .bf16 := fun y =>
  tr (xarr m c (ValueIdx.ix3 (⟨0, by decide⟩ : Fin 1) (⟨512 * k.val + (y 0).val, chunk_row_lt k y⟩ : Fin 8192)
    (⟨col (peer c) + (y 1).val, chunk_col_lt (peer c) y⟩ : Fin 2048)))

/-- Equal coordinates, equal index. -/
theorem ix3_congr {n0 n1 n2 : ℕ} {a a' : Fin n0} {b b' : Fin n1} {d d' : Fin n2}
    (ha : a.val = a'.val) (hb : b.val = b'.val) (hd : d.val = d'.val) : ValueIdx.ix3 a b d = ValueIdx.ix3 a' b' d' := by
  obtain rfl := Fin.ext ha; obtain rfl := Fin.ext hb; obtain rfl := Fin.ext hd; rfl

/-- Chunk `k` of `c`'s slab, written over band `k` of the partner's landing array, is there what the partner is to receive. -/
theorem landing_value (c : Dev nD) (k : Fin 16) (fd : Buf (Elt F) ((rowsM k).view.loc ((peer c : Dev nD) : Thread nD τ))) :
    ∀ i ∈ (rowsM k).view.set, ((rowsM k).view.write (Elt F) fd (sentChunk m c k) Finset.univ) i = recvFull m (peer c) i := by
  intro i hi
  obtain ⟨y, rfl⟩ := View.exists_emb_of_mem_set _ hi
  rw [View.write_emb_of_mem _ _ (Finset.mem_univ y)]
  show sentChunk m c k y = recvFull m (peer c) ((rowsM k).view.emb y)
  unfold sentChunk recvFull
  rw [peer_peer]
  refine congrArg tr (congrArg (xarr m c) (ix3_congr rfl ?_ ?_))
  · show 512 * k.val + (y 0).val = 512 * k.val + 1 * (y 0).val
    omega
  · show col (peer c) + (y 1).val = col (peer c) + (0 + 1 * (y 1).val)
    omega

/-! ## One chunk's transfer to the partner -/

/-- The transfer of chunk `k` from staging slot `k % 4` into band `k` of the partner's landing array: it pays the sender's departure duty
    (the slot comes back) and the partner's arrival duty (the band, holding what the partner is to receive there). -/
theorem wp_send_chunk (κ₁ κ₂ : ℕ) (c n : Dev nD) (hn : n = peer c) (k : Fin 16) (j : Fin 4) (hj : j.val = k.val % 4)
    {hsc : ((rowsM k : Memref sig (Dev.tc n : Thread nD τ).2.kind .hbm S512x1024 .bf16)).view.ref.isScScratch = false}
    {hsrc : (slotM j).view.WordExact} {hdst : (rowsM k).view.WordExact}
    {hsem : DmaTarget.Typed .vmem (.dma (recvS k)) (.remote (Dev.tc n : Thread nD τ) (rowsM k) (.dma (sendS k)) hsc)}
    {α : Type} {Q : α → sProp 𝕄} {kont : PUnit → Prog (TpuEff nD τ sig (Elt F) Λ₀ .tc) α}
    (fs : Buf (Elt F) ((slotM j).view.loc (c : Thread nD τ))) (hfs : (slotM j).view.read (Elt F) fs = sentChunk m c k)
    (fd : Buf (Elt F) ((rowsM k).view.loc ((peer c : Dev nD) : Thread nD τ)))
    (O : CellTallies nD τ sig Unit) (W' : Waits sig Unit) :
    iprop(cellInv ER (sched m) κ₁ (sendCell c k) ∗ cellInv ER (sched m) κ₂ (recvCell (peer c) k)
        ∗ ((slotM j).view.loc (c : Thread nD τ) ↦[(slotM j).view.set]{fullShare} fs)
        ∗ ((rowsM k).view.loc ((peer c : Dev nD) : Thread nD τ) ↦[(rowsM k).view.set]{fullShare} fd)
        ∗ owes (c : Thread nD τ) (O + tallyAt (recvCell (peer c) k) () N) W'
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W') -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM j) (.remote (Dev.tc n : Thread nD τ) (rowsM k) (.dma (sendS k)) hsc) (.dma (recvS k)) hsrc hdst hsem) kont) Q) := by
  subst hn
  obtain rfl : j = ⟨k.val % 4, Nat.mod_lt _ (by decide)⟩ := Fin.ext hj
  exact Rounds.wp_send_pointsTo 𝒱₀ ER (sched m) (c : Thread nD τ) none (κ₁ := κ₁) (κ₂ := κ₂)
    (r₁ := 0) (r₂ := 0) (d₁ := ()) (d₂ := ()) (fs := fs) (fd := fd)
    (by rw [duties_send]; exact Finset.mem_singleton_self _) (by rw [duties_recv]; exact Finset.mem_singleton_self _)
    () () N rfl (amount_send m c k ()) (amount_recv m (peer c) k ()) O rfl (W := W')
    (by rw [payload_send]; unfold sendPay; iintro H; iexists fs; iexact H)
    (by rw [payload_recv]; unfold recvPay; rw [hfs]; exact Entails.of_eq (pointsTo_congr (landing_value m c k fd)))

/-! ## The landing array in sixteen bands -/

/-- The elements of band `k` of the landing array. -/
abbrev band (k : Fin 16) : Finset S8192x1024.Idx := (rowsM k).view.set

theorem band_eq (k : Fin 16) :
    band k = (Rect.unit (s := S8192x1024) ![512 * k.val, 0] S512x1024.size (rows_inb k)).set :=
  View.set_slice_whole main_v1_1 _

/-- Two different bands share no row. -/
theorem rows_disjoint (i j : Fin 16) (h : i ≠ j) : Disjoint (band i) (band j) := by
  rw [band_eq, band_eq]
  refine Rect.unit_disjoint (0 : Fin 2) ?_
  show 512 * i.val + 512 ≤ 512 * j.val ∨ 512 * j.val + 512 ≤ 512 * i.val
  have : i.val ≠ j.val := fun e => h (Fin.ext e)
  omega

theorem row_div_lt (i : S8192x1024.Idx) : (i 0).val / 512 < 16 := by
  have : (i 0).val < 8192 := (i 0).isLt
  omega

/-- Every element of the landing array lies in the band of its row. -/
theorem rows_cover (i : S8192x1024.Idx) : i ∈ band ⟨(i 0).val / 512, row_div_lt i⟩ := by
  rw [band_eq, Rect.mem_set_unit]
  intro a
  match a with
  | ⟨0, _⟩ =>
    show 512 * ((i 0).val / 512) ≤ (i 0).val ∧ (i 0).val < 512 * ((i 0).val / 512) + 512
    omega
  | ⟨1, _⟩ =>
    show 0 ≤ (i 1).val ∧ (i 1).val < 0 + 1024
    have : (i 1).val < 1024 := (i 1).isLt
    omega

/-- The sixteen bands are the whole array. -/
theorem rows_union : (Finset.univ : Finset (Fin 16)).biUnion band = Finset.univ := by
  ext i
  simp only [Finset.mem_biUnion, Finset.mem_univ, true_and, iff_true]
  exact ⟨_, rows_cover i⟩

/-- The whole landing array, held band by band. -/
theorem rows_split (d : Dev nD) (f : Buf (Elt F) ((d : Thread nD τ).loc main_v1_1)) :
    (((d : Thread nD τ).loc main_v1_1) ↦{fullShare} f : sProp 𝕄)
      ⊢ iprop(((rowsM 0).view.loc (d : Thread nD τ) ↦[(rowsM 0).view.set]{fullShare} f)
        ∗ ((rowsM 1).view.loc (d : Thread nD τ) ↦[(rowsM 1).view.set]{fullShare} f)
        ∗ ((rowsM 2).view.loc (d : Thread nD τ) ↦[(rowsM 2).view.set]{fullShare} f)
        ∗ ((rowsM 3).view.loc (d : Thread nD τ) ↦[(rowsM 3).view.set]{fullShare} f)
        ∗ ((rowsM 4).view.loc (d : Thread nD τ) ↦[(rowsM 4).view.set]{fullShare} f)
        ∗ ((rowsM 5).view.loc (d : Thread nD τ) ↦[(rowsM 5).view.set]{fullShare} f)
        ∗ ((rowsM 6).view.loc (d : Thread nD τ) ↦[(rowsM 6).view.set]{fullShare} f)
        ∗ ((rowsM 7).view.loc (d : Thread nD τ) ↦[(rowsM 7).view.set]{fullShare} f)
        ∗ ((rowsM 8).view.loc (d : Thread nD τ) ↦[(rowsM 8).view.set]{fullShare} f)
        ∗ ((rowsM 9).view.loc (d : Thread nD τ) ↦[(rowsM 9).view.set]{fullShare} f)
        ∗ ((rowsM 10).view.loc (d : Thread nD τ) ↦[(rowsM 10).view.set]{fullShare} f)
        ∗ ((rowsM 11).view.loc (d : Thread nD τ) ↦[(rowsM 11).view.set]{fullShare} f)
        ∗ ((rowsM 12).view.loc (d : Thread nD τ) ↦[(rowsM 12).view.set]{fullShare} f)
        ∗ ((rowsM 13).view.loc (d : Thread nD τ) ↦[(rowsM 13).view.set]{fullShare} f)
        ∗ ((rowsM 14).view.loc (d : Thread nD τ) ↦[(rowsM 14).view.set]{fullShare} f)
        ∗ ((rowsM 15).view.loc (d : Thread nD τ) ↦[(rowsM 15).view.set]{fullShare} f)) := by
  have h2 := pointsTo_biUnion (U := UU) (Lvl := ℕ) (Name := ℕ) (Ix := Unit) (ℓ := (d : Thread nD τ).loc main_v1_1) (q := fullShare) (f := f)
    (Finset.univ : Finset (Fin 16)) band (fun t _ t' _ h => rows_disjoint t t' h)
  rw [rows_union] at h2
  have h3 := bigSep_univ_eq_bigSepL [(0 : Fin 16), 1, 2, 3, 4, 5, 6, 7, 8, 9, 10, 11, 12, 13, 14, 15] (by decide) (by decide)
    (fun t : Fin 16 => (((d : Thread nD τ).loc main_v1_1) ↦[band t]{fullShare} f : sProp 𝕄))
  exact Entails.of_eq (h2.trans h3)

/-! ## The staging buffer in four slots -/

/-- The outgoing staging buffer, whole. -/
abbrev stageW : Memref sig .tc .vmem S4x512x1024 .bf16 := Memref.whole cc0_scratch1

theorem slot_loc (j : Fin 4) (c : Dev nD) : (slotM j).view.loc (c : Thread nD τ) = stageW.view.loc (c : Thread nD τ) := rfl

theorem slot_set (j : Fin 4) :
    ((slotM j).view.set : Finset stageW.view.ty.Idx) = (Rect.unit (s := S4x512x1024) ![j.val, 0, 0] S1x512x1024.size (slot_inb j)).set := by
  show (((View.whole cc0_scratch1).slice _).reshape _ _).set = _
  rw [View.set_reshape, View.set_slice_whole]

theorem slot_sub (j : Fin 4) : (slotM j).view.set ⊆ stageW.view.set := by
  rw [show stageW.view.set = Finset.univ from View.set_whole _]
  exact Finset.subset_univ _

theorem slot_disjoint (i j : Fin 4) (h : i ≠ j) : Disjoint (slotM i).view.set (slotM j).view.set := by
  rw [slot_set, slot_set]
  refine Rect.unit_disjoint (0 : Fin 3) ?_
  show i.val + 1 ≤ j.val ∨ j.val + 1 ≤ i.val
  have : i.val ≠ j.val := fun e => h (Fin.ext e)
  omega

/-- A slot goes back beside other elements of the staging buffer. -/
theorem slot_rejoin (c : Dev nD) (j : Fin 4) (S : Finset (Idx (stageW.view.loc (c : Thread nD τ))))
    (hS : Disjoint (slotM j).view.set S) (f g : Buf (Elt F) (stageW.view.loc (c : Thread nD τ))) :
    iprop(((slotM j).view.loc (c : Thread nD τ) ↦[(slotM j).view.set]{fullShare} f) ∗ (stageW.view.loc (c : Thread nD τ) ↦[S]{fullShare} g))
      ⊢ (stageW.view.loc (c : Thread nD τ) ↦[(slotM j).view.set ∪ S]{fullShare} (S.piecewise g f) : sProp 𝕄) :=
  pointsTo_join hS

/-- A slot and everything else of the staging buffer make it whole again. -/
theorem slot_rejoin_whole (c : Dev nD) (j : Fin 4) (f g : Buf (Elt F) (stageW.view.loc (c : Thread nD τ))) :
    iprop(((slotM j).view.loc (c : Thread nD τ) ↦[(slotM j).view.set]{fullShare} f)
        ∗ (stageW.view.loc (c : Thread nD τ) ↦[stageW.view.set \ (slotM j).view.set]{fullShare} g))
      ⊢ (stageW.view.loc (c : Thread nD τ) ↦[stageW.view.set]{fullShare} ((slotM j).view.set.piecewise f g) : sProp 𝕄) :=
  pointsTo_join_subset (slot_sub j)

/-- info: 'Cert.Kernel.RS.landing_value' depends on axioms: [propext, Classical.choice, Quot.sound] -/
#guard_msgs in #print axioms landing_value

/-- info: 'Cert.Kernel.RS.wp_send_chunk' depends on axioms: [propext, Classical.choice, Quot.sound] -/
#guard_msgs in #print axioms wp_send_chunk

/-- info: 'Cert.Kernel.RS.rows_split' depends on axioms: [propext, Classical.choice, Quot.sound] -/
#guard_msgs in #print axioms rows_split

/-- info: 'Cert.Kernel.RS.slot_rejoin_whole' depends on axioms: [propext, Classical.choice, Quot.sound] -/
#guard_msgs in #print axioms slot_rejoin_whole

end Cert.Kernel.RS

end
-- ==== Proof.KernelChunk.lean ====
import proofs.«901042_g7700000000001043_dist_rs_v7x_xyz2x4x4_x_m8192_n1024_bf16_1_alg».proof.Proof.KernelSteps
import Idealize.ShloMosaic.Lib.ValueLayout
import Idealize.ShloMosaic.Lib.Writes

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Views of a 1 × 512 × 1024 block seen as 512 × 1024 -/

section Generic
variable {sg : RefSig} {κ : Kind} {sp : Space} {e : EltTy} {Val : EltTy → Type}

/-- Reading a reshaped view is reading the view at the matching index. -/
theorem read_reshape_apply {s s' : Shape} (v : View sg κ sp s e) (h : s'.numel = s.numel) (f : v.ty.Contents Val) (y : s'.Idx) :
    (v.reshape s' h).read Val f y = v.read Val f (Shape.reshapeEquiv h y) := rfl

/-- What was written through the block seen as 512 × 1024 is read back through the block itself, at (u, a, b), as the payload at (a, b). -/
theorem read_write_squeezed (u : View sg κ sp S1x512x1024 e) (h : S512x1024.numel = S1x512x1024.numel) (g : u.ty.Contents Val)
    (d : S512x1024.Idx → Val e) (u0 : Fin 1) (a : Fin 512) (b : Fin 1024) :
    u.read Val ((u.reshape S512x1024 h).write Val g d Finset.univ) (ix3 u0 a b) = d (ix2 a b) := by
  rw [View.write_reshape_univ, View.read_write_univ]
  show d ((Shape.reshapeEquiv h).symm (ix3 u0 a b)) = d (ix2 a b)
  refine congrArg d ?_
  rw [Equiv.symm_apply_eq, reshapeEquiv_ix2_1ab]
  exact ix3_congr (by have := u0.isLt; show u0.val = 0; omega) rfl rfl

/-- A write through another, disjoint block of the same buffer is not seen. -/
theorem read_write_other {s s' : Shape} (v : View sg κ sp s e) (r r' : Rect s) (h : s'.numel = r'.shape.numel) (g : v.ty.Contents Val)
    (d : s'.Idx → Val e) (hd : Disjoint r.set r'.set) :
    (v.slice r).read Val (((v.slice r').reshape s' h).write Val g d Finset.univ) = (v.slice r).read Val g := by
  rw [View.write_reshape_univ]
  refine View.read_slice_write_slice_of_disjoint r r' g _ Finset.univ ?_
  rw [View.setOn_univ, View.set_slice, View.set_slice]
  exact (Finset.disjoint_map _).mpr hd

end Generic

/-! ## A chunk's window of the input slab -/

/-- The 512 × 1024 window of device `c`'s slab at offsets `o`, as a transfer out of it reads it. -/
def xwin (c : Dev nD) (o : Fin 3 → ℕ) (ho : ∀ a, o a + S1x512x1024.size a ≤ S1x8192x2048.size a) : S512x1024.Idx → F .f32 :=
  View.read (Elt F)
    (((Memref.whole main_arg0 : Memref sig .tc .hbm S1x8192x2048 .f32).slice (Rect.unit (s := S1x8192x2048) o S1x512x1024.size ho) (fun _ => rfl)).squeeze S512x1024 squeezes_S1x512x1024_S512x1024).view
    (m ((c : Thread nD τ).loc main_arg0))

theorem win_row_lt (o : Fin 3 → ℕ) (ho : ∀ a, o a + S1x512x1024.size a ≤ S1x8192x2048.size a) (a : Fin 512) : o 1 + a.val < 8192 := by
  have : o 1 + 512 ≤ 8192 := ho 1
  omega
theorem win_col_lt (o : Fin 3 → ℕ) (ho : ∀ a, o a + S1x512x1024.size a ≤ S1x8192x2048.size a) (b : Fin 1024) : o 2 + b.val < 2048 := by
  have : o 2 + 1024 ≤ 2048 := ho 2
  omega

/-- Entry (a, b) of the window is entry (0, o₁ + a, o₂ + b) of the slab. -/
theorem xwin_apply (c : Dev nD) (o : Fin 3 → ℕ) (ho : ∀ a, o a + S1x512x1024.size a ≤ S1x8192x2048.size a) (a : Fin 512) (b : Fin 1024) :
    xwin m c o ho (ix2 a b)
      = xarr m c (ix3 (⟨0, by decide⟩ : Fin 1) (⟨o 1 + a.val, win_row_lt o ho a⟩ : Fin 8192) (⟨o 2 + b.val, win_col_lt o ho b⟩ : Fin 2048)) := by
  unfold xwin xarr
  refine (read_reshape_apply ((Memref.whole main_arg0 : Memref sig .tc .hbm S1x8192x2048 .f32).view.slice (Rect.unit (s := S1x8192x2048) o S1x512x1024.size ho))
    squeezes_S1x512x1024_S512x1024.numel_eq (m ((c : Thread nD τ).loc main_arg0)) (ix2 a b)).trans ?_
  rw [reshapeEquiv_ix2_1ab]
  show m ((c : Thread nD τ).loc main_arg0) ((Rect.unit (s := S1x8192x2048) o S1x512x1024.size ho).emb (ix3 (⟨0, Nat.one_pos⟩ : Fin 1) a b)) = _
  refine congrArg (m ((c : Thread nD τ).loc main_arg0)) (funext fun d => Fin.ext ?_)
  match d with
  | ⟨0, _⟩ =>
    show o 0 + 1 * 0 = 0
    have : o 0 + 1 ≤ 1 := ho 0
    omega
  | ⟨1, _⟩ =>
    show o 1 + 1 * a.val = o 1 + a.val
    omega
  | ⟨2, _⟩ =>
    show o 2 + 1 * b.val = o 2 + b.val
    omega

/-- The window at rows `512 k …` on the partner's half of the columns, rounded, is chunk `k` of what is sent. -/
theorem sent_of_window (c : Dev nD) (k : Fin 16) (o : Fin 3 → ℕ) (ho : ∀ a, o a + S1x512x1024.size a ≤ S1x8192x2048.size a)
    (ho1 : o 1 = 512 * k.val) (ho2 : o 2 = col (peer c)) (a : Fin 512) (b : Fin 1024) :
    tr (xwin m c o ho (ix2 a b)) = sentChunk m c k (ix2 a b) := by
  rw [xwin_apply]
  unfold sentChunk
  refine congrArg tr (congrArg (xarr m c) (ix3_congr rfl ?_ ?_))
  · show o 1 + a.val = 512 * k.val + a.val
    rw [ho1]
  · show o 2 + b.val = col (peer c) + b.val
    rw [ho2]

/-- The partner's half of the columns starts where the device's own does not. -/
theorem col_peer (c : Dev nD) : col (peer c) = 1024 - 1024 * (c.val / 16) := by revert c; decide

/-! ## The conversion: a block narrowed element by element -/

/-- The stored block — the loaded block seen as 512 × 1024, narrowed, seen as 1 × 512 × 1024 again — at (u, a, b) is the loaded block's entry (0, a, b), narrowed. -/
theorem cvt_apply (v : Vec F S1x512x1024 .f32) (h1 : S1x512x1024.ShapeCasts S512x1024) (hb : FTy.bits .bf16 < FTy.bits .f32)
    (h2 : S512x1024.ShapeCasts S1x512x1024) (u : Fin 1) (a : Fin 512) (b : Fin 1024) :
    shapeCast S1x512x1024 (truncf .bf16 (shapeCast S512x1024 v h1) hb) h2 (ix3 u a b) = tr (v (ix3 (⟨0, by decide⟩ : Fin 1) a b)) := by
  rw [shapeCast_ab_1ab_apply]
  show FloatOps.truncf .bf16 hb (shapeCast S512x1024 v h1 (ix2 a b)) = _
  rw [shapeCast_1ab_ab_apply]
  rfl

/-! ## The two conversion slots and the four staging slots -/

theorem cvt_inb (i : Fin 2) : ∀ a, (![i.val, 0, 0] : Fin 3 → Nat) a + S1x512x1024.size a ≤ S2x512x1024.size a := by revert i; decide

/-- Slot `i` of the conversion buffer, as a rectangle of it. -/
abbrev cvtR (i : Fin 2) : Rect S2x512x1024 := Rect.unit (s := S2x512x1024) ![i.val, 0, 0] S1x512x1024.size (cvt_inb i)

theorem cvt_disjoint (i j : Fin 2) (h : i ≠ j) : Disjoint (cvtR i).set (cvtR j).set := by
  refine Rect.unit_disjoint (0 : Fin 3) ?_
  show i.val + 1 ≤ j.val ∨ j.val + 1 ≤ i.val
  have : i.val ≠ j.val := fun e => h (Fin.ext e)
  omega

/-- A load of conversion slot `i` just after a transfer into it landed: the transfer's values. -/
theorem cvt_load_same (i : Fin 2) (h : S512x1024.numel = S1x512x1024.numel) (g : Buf (Elt F) (((0 : Dev nD) : Thread nD τ).loc cc0_scratch0))
    (d : S512x1024.Idx → F .f32) (u0 : Fin 1) (a : Fin 512) (b : Fin 1024) :
    View.readAt (Elt F) (Memref.whole cc0_scratch0).view (cvtR i).toLoadRect
        (View.write (Elt F) (((Memref.whole cc0_scratch0).view.slice (cvtR i)).reshape S512x1024 h) g d Finset.univ) (ix3 u0 a b)
      = d (ix2 a b) :=
  read_write_squeezed ((Memref.whole cc0_scratch0).view.slice (cvtR i)) h g d u0 a b

/-- A transfer landed in the other slot is not seen. -/
theorem cvt_load_other (i j : Fin 2) (hij : i ≠ j) (h : S512x1024.numel = S1x512x1024.numel) (g : Buf (Elt F) (((0 : Dev nD) : Thread nD τ).loc cc0_scratch0))
    (d : S512x1024.Idx → F .f32) :
    View.readAt (Elt F) (Memref.whole cc0_scratch0).view (cvtR i).toLoadRect
        (View.write (Elt F) (((Memref.whole cc0_scratch0).view.slice (cvtR j)).reshape S512x1024 h) g d Finset.univ)
      = View.readAt (Elt F) (Memref.whole cc0_scratch0).view (cvtR i).toLoadRect g :=
  read_write_other (Memref.whole cc0_scratch0).view (cvtR i) (cvtR j) h g d (cvt_disjoint i j hij)

/-- THE VALUE OF A SEND: staging slot `j`, last stored with the narrowed load `p` of a conversion slot `v` that held the window at rows
    `512 k …` on the partner's columns, reads chunk `k` of what is sent. -/
theorem slot_holds_chunk (c : Dev nD) (k : Fin 16) (j : Fin 4) (f1 : Buf (Elt F) ((c : Thread nD τ).loc cc0_scratch1))
    (L : List (View.Piece (Elt F) S4x512x1024 .bf16)) (inb : ∀ a, (![j.val, 0, 0] : Fin 3 → Nat) a + S1x512x1024.size a ≤ S4x512x1024.size a)
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (slotM j).view.read (Elt F) (stageW.view.writes (Elt F) f1 (⟨Rect.unit (s := S4x512x1024) ![j.val, 0, 0] S1x512x1024.size inb, p⟩ :: L))
      = sentChunk m c k := by
  funext y
  obtain ⟨a, b, rfl⟩ : ∃ (a : Fin 512) (b : Fin 1024), y = ix2 a b := ⟨y 0, y 1, eq_ix2 y⟩
  refine (read_reshape_apply (stageW.view.slice (Rect.unit (s := S4x512x1024) ![j.val, 0, 0] S1x512x1024.size inb))
    squeezes_S1x512x1024_S512x1024.numel_eq _ (ix2 a b)).trans ?_
  rw [reshapeEquiv_ix2_1ab, View.writes_cons]
  show (stageW.view.slice (Rect.unit (s := S4x512x1024) ![j.val, 0, 0] S1x512x1024.size inb)).read (Elt F)
      ((stageW.view.slice (Rect.unit (s := S4x512x1024) ![j.val, 0, 0] S1x512x1024.size inb)).write (Elt F) (stageW.view.writes (Elt F) f1 L) p Finset.univ)
      (ix3 (⟨0, Nat.one_pos⟩ : Fin 1) a b) = _
  rw [View.read_write_univ, hp, hv]
  exact sent_of_window m c k o ho ho1 ho2 a b

/-! ## The staging buffer held slot by slot -/

/-- The elements of staging slot `j`. -/
abbrev slotSet (j : Fin 4) : Finset S4x512x1024.Idx := (slotM j).view.set

theorem slotSet_eq (j : Fin 4) : slotSet j = (Rect.unit (s := S4x512x1024) ![j.val, 0, 0] S1x512x1024.size (slot_inb j)).set := slot_set j

theorem slotSet_disjoint (i j : Fin 4) (h : i ≠ j) : Disjoint (slotSet i) (slotSet j) := slot_disjoint i j h

/-- Every element of the staging buffer lies in the slot its leading coordinate names. -/
theorem slots_cover (i : S4x512x1024.Idx) : i ∈ slotSet ⟨(i 0).val, (i 0).isLt⟩ := by
  rw [slotSet_eq, Rect.mem_set_unit]
  intro a
  match a with
  | ⟨0, _⟩ =>
    show (i 0).val ≤ (i 0).val ∧ (i 0).val < (i 0).val + 1
    omega
  | ⟨1, _⟩ =>
    show 0 ≤ (i 1).val ∧ (i 1).val < 0 + 512
    have : (i 1).val < 512 := (i 1).isLt
    omega
  | ⟨2, _⟩ =>
    show 0 ≤ (i 2).val ∧ (i 2).val < 0 + 1024
    have : (i 2).val < 1024 := (i 2).isLt
    omega

/-- The four slots are the whole staging buffer. -/
theorem slots_union : (Finset.univ : Finset (Fin 4)).biUnion slotSet = Finset.univ := by
  ext i
  simp only [Finset.mem_biUnion, Finset.mem_univ, true_and, iff_true]
  exact ⟨_, slots_cover i⟩

/-- The whole staging buffer, held slot by slot, each slot spelt as the program spells it. -/
theorem slots_split (c : Dev nD) (f : Buf (Elt F) ((c : Thread nD τ).loc cc0_scratch1)) :
    ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      ⊢ iprop(((((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)
        ∗ ((((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) := by
  have h1 : ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      = (((c : Thread nD τ).loc cc0_scratch1) ↦{fullShare} f) := by
    show ((View.whole cc0_scratch1).loc (c : Thread nD τ) ↦[(View.whole cc0_scratch1).set]{fullShare} f : sProp 𝕄) = _
    rw [View.set_whole]
  have h2 := pointsTo_biUnion (U := UU) (Lvl := ℕ) (Name := ℕ) (Ix := Unit) (ℓ := (c : Thread nD τ).loc cc0_scratch1) (q := fullShare) (f := f)
    (Finset.univ : Finset (Fin 4)) slotSet (fun t _ t' _ h => slotSet_disjoint t t' h)
  rw [slots_union] at h2
  have h3 := bigSep_univ_eq_bigSepL [(0 : Fin 4), 1, 2, 3] (by decide) (by decide)
    (fun t : Fin 4 => (((c : Thread nD τ).loc cc0_scratch1) ↦[slotSet t]{fullShare} f : sProp 𝕄))
  exact Entails.of_eq (h1.trans (h2.trans h3))

/-- info: 'Cert.Kernel.RS.slot_holds_chunk' depends on axioms: [propext, Classical.choice, Quot.sound] -/
#guard_msgs in #print axioms slot_holds_chunk

/-- info: 'Cert.Kernel.RS.slots_split' depends on axioms: [propext, Classical.choice, Quot.sound] -/
#guard_msgs in #print axioms slots_split

end Cert.Kernel.RS

end
-- ==== Proof.KernelSlots.lean ====
import proofs.«901042_g7700000000001043_dist_rs_v7x_xyz2x4x4_x_m8192_n1024_bf16_1_alg».proof.Proof.KernelChunk

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The staging buffer held as four slots, each on the whole buffer's location -/

/-- The whole staging buffer, as the body's context spells it, slot by slot. -/
theorem slots_split_h (c : Dev nD) (f : Buf (Elt F) ((c : Thread nD τ).loc cc0_scratch1)) :
    ((Memref.whole cc0_scratch1 : Memref sig .tc .vmem S4x512x1024 .bf16).view.loc (c : Thread nD τ) ↦[(Memref.whole cc0_scratch1 : Memref sig .tc .vmem S4x512x1024 .bf16).view.set]{fullShare} f : sProp 𝕄)
      ⊢ iprop(((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) :=
  slots_split c f

/-- The four slots, at whatever contents, are the whole staging buffer at some contents. -/
theorem slots_join_h (c : Dev nD) (g0 g1 g2 g3 : Buf (Elt F) ((c : Thread nD τ).loc cc0_scratch1)) :
    iprop(((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} g0)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} g1)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} g2)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} g3))
      ⊢ (iprop(∃ f : Buf (Elt F) ((c : Thread nD τ).loc cc0_scratch1), ((c : Thread nD τ).loc cc0_scratch1) ↦{fullShare} f) : sProp 𝕄) := by
  have hj := pointsTo_biUnion_join (U := UU) (Lvl := ℕ) (Name := ℕ) (Ix := Unit) (ℓ := (c : Thread nD τ).loc cc0_scratch1) (q := fullShare)
    (Finset.univ : Finset (Fin 4)) slotSet (fun t : Fin 4 => (![g0, g1, g2, g3] : Fin 4 → Buf (Elt F) ((c : Thread nD τ).loc cc0_scratch1)) t) g0
    (fun t _ t' _ h => slotSet_disjoint t t' h)
  have h3 := bigSep_univ_eq_bigSepL [(0 : Fin 4), 1, 2, 3] (by decide) (by decide)
    (fun t : Fin 4 => (((c : Thread nD τ).loc cc0_scratch1) ↦[slotSet t]{fullShare} (![g0, g1, g2, g3] : Fin 4 → Buf (Elt F) ((c : Thread nD τ).loc cc0_scratch1)) t : sProp 𝕄))
  refine (Entails.of_eq h3.symm).trans (hj.trans ?_)
  rw [slots_union]
  iintro ⟨%f, -, H⟩
  iexists f
  iexact H

/-! ## Loads and stores through the whole buffer, on one slot -/

/-- What a load of slot `j` through the whole buffer reads lies in the slot. -/
theorem slot_load_sub (j : Fin 4) :
    (Memref.whole cc0_scratch1 : Memref sig .tc .vmem S4x512x1024 .bf16).view.setOn (Rect.unit (s := S4x512x1024) ![j.val, 0, 0] S1x512x1024.size (slot_inb j)).toLoadRect.set ⊆ (slotM j).view.set := by
  rw [slot_set]
  show Finset.map (Function.Embedding.refl _) _ ⊆ _
  rw [Finset.map_refl]

/-- What a store into slot 0 through the whole buffer writes is the slot. -/
theorem slot_store_sub_0 : ((Memref.whole cc0_scratch1 : Memref sig .tc .vmem S4x512x1024 .bf16).access (Rect.unit (s := S4x512x1024) ![0, 0, 0] S1x512x1024.size inb_S4x512x1024_S1x512x1024_0_0_0)).setOn Finset.univ ⊆ (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set := by
  rw [View.setOn_univ]
  show ((View.whole cc0_scratch1).slice (Rect.unit (s := S4x512x1024) ![0, 0, 0] S1x512x1024.size inb_S4x512x1024_S1x512x1024_0_0_0)).set ⊆ (((View.whole cc0_scratch1).slice (Rect.unit (s := S4x512x1024) ![0, 0, 0] S1x512x1024.size inb_S4x512x1024_S1x512x1024_0_0_0)).reshape S512x1024 squeezes_S1x512x1024_S512x1024.numel_eq).set
  rw [View.set_reshape]

/-- What a store into slot 1 through the whole buffer writes is the slot. -/
theorem slot_store_sub_1 : ((Memref.whole cc0_scratch1 : Memref sig .tc .vmem S4x512x1024 .bf16).access (Rect.unit (s := S4x512x1024) ![1, 0, 0] S1x512x1024.size inb_S4x512x1024_S1x512x1024_1_0_0)).setOn Finset.univ ⊆ (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set := by
  rw [View.setOn_univ]
  show ((View.whole cc0_scratch1).slice (Rect.unit (s := S4x512x1024) ![1, 0, 0] S1x512x1024.size inb_S4x512x1024_S1x512x1024_1_0_0)).set ⊆ (((View.whole cc0_scratch1).slice (Rect.unit (s := S4x512x1024) ![1, 0, 0] S1x512x1024.size inb_S4x512x1024_S1x512x1024_1_0_0)).reshape S512x1024 squeezes_S1x512x1024_S512x1024.numel_eq).set
  rw [View.set_reshape]

/-- What a store into slot 2 through the whole buffer writes is the slot. -/
theorem slot_store_sub_2 : ((Memref.whole cc0_scratch1 : Memref sig .tc .vmem S4x512x1024 .bf16).access (Rect.unit (s := S4x512x1024) ![2, 0, 0] S1x512x1024.size inb_S4x512x1024_S1x512x1024_2_0_0)).setOn Finset.univ ⊆ (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set := by
  rw [View.setOn_univ]
  show ((View.whole cc0_scratch1).slice (Rect.unit (s := S4x512x1024) ![2, 0, 0] S1x512x1024.size inb_S4x512x1024_S1x512x1024_2_0_0)).set ⊆ (((View.whole cc0_scratch1).slice (Rect.unit (s := S4x512x1024) ![2, 0, 0] S1x512x1024.size inb_S4x512x1024_S1x512x1024_2_0_0)).reshape S512x1024 squeezes_S1x512x1024_S512x1024.numel_eq).set
  rw [View.set_reshape]

/-- What a store into slot 3 through the whole buffer writes is the slot. -/
theorem slot_store_sub_3 : ((Memref.whole cc0_scratch1 : Memref sig .tc .vmem S4x512x1024 .bf16).access (Rect.unit (s := S4x512x1024) ![3, 0, 0] S1x512x1024.size inb_S4x512x1024_S1x512x1024_3_0_0)).setOn Finset.univ ⊆ (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set := by
  rw [View.setOn_univ]
  show ((View.whole cc0_scratch1).slice (Rect.unit (s := S4x512x1024) ![3, 0, 0] S1x512x1024.size inb_S4x512x1024_S1x512x1024_3_0_0)).set ⊆ (((View.whole cc0_scratch1).slice (Rect.unit (s := S4x512x1024) ![3, 0, 0] S1x512x1024.size inb_S4x512x1024_S1x512x1024_3_0_0)).reshape S512x1024 squeezes_S1x512x1024_S512x1024.numel_eq).set
  rw [View.set_reshape]

/-- A load of slot 0 through the whole buffer, holding the slot alone. -/
theorem slot_load_0 (c : Dev nD) (f : Buf (Elt F) ((c : Thread nD τ).loc cc0_scratch1))
    {hl : (Memref.whole cc0_scratch1 : Memref sig .tc .vmem S4x512x1024 .bf16).view.LoadsAt (Rect.unit (s := S4x512x1024) ![0, 0, 0] S1x512x1024.size inb_S4x512x1024_S1x512x1024_0_0_0).toLoadRect}
    {α : Type} {Q' : α → sProp 𝕄} {kont : ((Rect.unit (s := S4x512x1024) ![0, 0, 0] S1x512x1024.size inb_S4x512x1024_S1x512x1024_0_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![0, 0, 0] S1x512x1024.size inb_S4x512x1024_S1x512x1024_0_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![0, 0, 0] S1x512x1024.size inb_S4x512x1024_S1x512x1024_0_0_0).toLoadRect hl) kont) Q') :=
  wp_load 𝒱₀ (c : Thread nD τ) none Set.univ (m := (Memref.whole cc0_scratch1 : Memref sig .tc .vmem S4x512x1024 .bf16)) (slot_load_sub 0)

/-- A store into slot 0 through the whole buffer, holding the slot alone. -/
theorem slot_store_0 (c : Dev nD) (f : Buf (Elt F) ((c : Thread nD τ).loc cc0_scratch1)) (w : (Rect.unit (s := S4x512x1024) ![0, 0, 0] S1x512x1024.size inb_S4x512x1024_S1x512x1024_0_0_0).shape.Idx → Elt F .bf16)
    {hx : ((Memref.whole cc0_scratch1 : Memref sig .tc .vmem S4x512x1024 .bf16).access (Rect.unit (s := S4x512x1024) ![0, 0, 0] S1x512x1024.size inb_S4x512x1024_S1x512x1024_0_0_0)).Stores Finset.univ} {hm : (Finset.univ : Finset (Rect.unit (s := S4x512x1024) ![0, 0, 0] S1x512x1024.size inb_S4x512x1024_S1x512x1024_0_0_0).shape.Idx) = Finset.univ ∨ ∀ a, (Rect.unit (s := S4x512x1024) ![0, 0, 0] S1x512x1024.size inb_S4x512x1024_S1x512x1024_0_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} (((Memref.whole cc0_scratch1 : Memref sig .tc .vmem S4x512x1024 .bf16).access (Rect.unit (s := S4x512x1024) ![0, 0, 0] S1x512x1024.size inb_S4x512x1024_S1x512x1024_0_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![0, 0, 0] S1x512x1024.size inb_S4x512x1024_S1x512x1024_0_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![0, 0, 0] S1x512x1024.size inb_S4x512x1024_S1x512x1024_0_0_0)) (w := w) (Mk := Finset.univ) slot_store_sub_0

/-- A load of slot 1 through the whole buffer, holding the slot alone. -/
theorem slot_load_1 (c : Dev nD) (f : Buf (Elt F) ((c : Thread nD τ).loc cc0_scratch1))
    {hl : (Memref.whole cc0_scratch1 : Memref sig .tc .vmem S4x512x1024 .bf16).view.LoadsAt (Rect.unit (s := S4x512x1024) ![1, 0, 0] S1x512x1024.size inb_S4x512x1024_S1x512x1024_1_0_0).toLoadRect}
    {α : Type} {Q' : α → sProp 𝕄} {kont : ((Rect.unit (s := S4x512x1024) ![1, 0, 0] S1x512x1024.size inb_S4x512x1024_S1x512x1024_1_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![1, 0, 0] S1x512x1024.size inb_S4x512x1024_S1x512x1024_1_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![1, 0, 0] S1x512x1024.size inb_S4x512x1024_S1x512x1024_1_0_0).toLoadRect hl) kont) Q') :=
  wp_load 𝒱₀ (c : Thread nD τ) none Set.univ (m := (Memref.whole cc0_scratch1 : Memref sig .tc .vmem S4x512x1024 .bf16)) (slot_load_sub 1)

/-- A store into slot 1 through the whole buffer, holding the slot alone. -/
theorem slot_store_1 (c : Dev nD) (f : Buf (Elt F) ((c : Thread nD τ).loc cc0_scratch1)) (w : (Rect.unit (s := S4x512x1024) ![1, 0, 0] S1x512x1024.size inb_S4x512x1024_S1x512x1024_1_0_0).shape.Idx → Elt F .bf16)
    {hx : ((Memref.whole cc0_scratch1 : Memref sig .tc .vmem S4x512x1024 .bf16).access (Rect.unit (s := S4x512x1024) ![1, 0, 0] S1x512x1024.size inb_S4x512x1024_S1x512x1024_1_0_0)).Stores Finset.univ} {hm : (Finset.univ : Finset (Rect.unit (s := S4x512x1024) ![1, 0, 0] S1x512x1024.size inb_S4x512x1024_S1x512x1024_1_0_0).shape.Idx) = Finset.univ ∨ ∀ a, (Rect.unit (s := S4x512x1024) ![1, 0, 0] S1x512x1024.size inb_S4x512x1024_S1x512x1024_1_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} (((Memref.whole cc0_scratch1 : Memref sig .tc .vmem S4x512x1024 .bf16).access (Rect.unit (s := S4x512x1024) ![1, 0, 0] S1x512x1024.size inb_S4x512x1024_S1x512x1024_1_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![1, 0, 0] S1x512x1024.size inb_S4x512x1024_S1x512x1024_1_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![1, 0, 0] S1x512x1024.size inb_S4x512x1024_S1x512x1024_1_0_0)) (w := w) (Mk := Finset.univ) slot_store_sub_1

/-- A load of slot 2 through the whole buffer, holding the slot alone. -/
theorem slot_load_2 (c : Dev nD) (f : Buf (Elt F) ((c : Thread nD τ).loc cc0_scratch1))
    {hl : (Memref.whole cc0_scratch1 : Memref sig .tc .vmem S4x512x1024 .bf16).view.LoadsAt (Rect.unit (s := S4x512x1024) ![2, 0, 0] S1x512x1024.size inb_S4x512x1024_S1x512x1024_2_0_0).toLoadRect}
    {α : Type} {Q' : α → sProp 𝕄} {kont : ((Rect.unit (s := S4x512x1024) ![2, 0, 0] S1x512x1024.size inb_S4x512x1024_S1x512x1024_2_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![2, 0, 0] S1x512x1024.size inb_S4x512x1024_S1x512x1024_2_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![2, 0, 0] S1x512x1024.size inb_S4x512x1024_S1x512x1024_2_0_0).toLoadRect hl) kont) Q') :=
  wp_load 𝒱₀ (c : Thread nD τ) none Set.univ (m := (Memref.whole cc0_scratch1 : Memref sig .tc .vmem S4x512x1024 .bf16)) (slot_load_sub 2)

/-- A store into slot 2 through the whole buffer, holding the slot alone. -/
theorem slot_store_2 (c : Dev nD) (f : Buf (Elt F) ((c : Thread nD τ).loc cc0_scratch1)) (w : (Rect.unit (s := S4x512x1024) ![2, 0, 0] S1x512x1024.size inb_S4x512x1024_S1x512x1024_2_0_0).shape.Idx → Elt F .bf16)
    {hx : ((Memref.whole cc0_scratch1 : Memref sig .tc .vmem S4x512x1024 .bf16).access (Rect.unit (s := S4x512x1024) ![2, 0, 0] S1x512x1024.size inb_S4x512x1024_S1x512x1024_2_0_0)).Stores Finset.univ} {hm : (Finset.univ : Finset (Rect.unit (s := S4x512x1024) ![2, 0, 0] S1x512x1024.size inb_S4x512x1024_S1x512x1024_2_0_0).shape.Idx) = Finset.univ ∨ ∀ a, (Rect.unit (s := S4x512x1024) ![2, 0, 0] S1x512x1024.size inb_S4x512x1024_S1x512x1024_2_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} (((Memref.whole cc0_scratch1 : Memref sig .tc .vmem S4x512x1024 .bf16).access (Rect.unit (s := S4x512x1024) ![2, 0, 0] S1x512x1024.size inb_S4x512x1024_S1x512x1024_2_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![2, 0, 0] S1x512x1024.size inb_S4x512x1024_S1x512x1024_2_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![2, 0, 0] S1x512x1024.size inb_S4x512x1024_S1x512x1024_2_0_0)) (w := w) (Mk := Finset.univ) slot_store_sub_2

/-- A load of slot 3 through the whole buffer, holding the slot alone. -/
theorem slot_load_3 (c : Dev nD) (f : Buf (Elt F) ((c : Thread nD τ).loc cc0_scratch1))
    {hl : (Memref.whole cc0_scratch1 : Memref sig .tc .vmem S4x512x1024 .bf16).view.LoadsAt (Rect.unit (s := S4x512x1024) ![3, 0, 0] S1x512x1024.size inb_S4x512x1024_S1x512x1024_3_0_0).toLoadRect}
    {α : Type} {Q' : α → sProp 𝕄} {kont : ((Rect.unit (s := S4x512x1024) ![3, 0, 0] S1x512x1024.size inb_S4x512x1024_S1x512x1024_3_0_0).toLoadRect.shape.Idx → Elt F .bf16) → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) -∗ wp frame (wpE (defs₀ (F := F)) 𝒱₀ (c : Thread nD τ) none) Set.univ (kont ((Memref.whole cc0_scratch1 : Memref sig .tc .vmem S4x512x1024 .bf16).view.readAt (Elt F) (Rect.unit (s := S4x512x1024) ![3, 0, 0] S1x512x1024.size inb_S4x512x1024_S1x512x1024_3_0_0).toLoadRect f)) Q')
          -∗ wp frame (wpE (defs₀ (F := F)) 𝒱₀ (c : Thread nD τ) none) Set.univ (.op (.load (Memref.whole cc0_scratch1 : Memref sig .tc .vmem S4x512x1024 .bf16) (Rect.unit (s := S4x512x1024) ![3, 0, 0] S1x512x1024.size inb_S4x512x1024_S1x512x1024_3_0_0).toLoadRect hl) kont) Q') :=
  wp_load 𝒱₀ (c : Thread nD τ) none Set.univ (m := (Memref.whole cc0_scratch1 : Memref sig .tc .vmem S4x512x1024 .bf16)) (slot_load_sub 3)

/-- A store into slot 3 through the whole buffer, holding the slot alone. -/
theorem slot_store_3 (c : Dev nD) (f : Buf (Elt F) ((c : Thread nD τ).loc cc0_scratch1)) (w : (Rect.unit (s := S4x512x1024) ![3, 0, 0] S1x512x1024.size inb_S4x512x1024_S1x512x1024_3_0_0).shape.Idx → Elt F .bf16)
    {hx : ((Memref.whole cc0_scratch1 : Memref sig .tc .vmem S4x512x1024 .bf16).access (Rect.unit (s := S4x512x1024) ![3, 0, 0] S1x512x1024.size inb_S4x512x1024_S1x512x1024_3_0_0)).Stores Finset.univ} {hm : (Finset.univ : Finset (Rect.unit (s := S4x512x1024) ![3, 0, 0] S1x512x1024.size inb_S4x512x1024_S1x512x1024_3_0_0).shape.Idx) = Finset.univ ∨ ∀ a, (Rect.unit (s := S4x512x1024) ![3, 0, 0] S1x512x1024.size inb_S4x512x1024_S1x512x1024_3_0_0).stride a = 1}
    {α : Type} {Q' : α → sProp 𝕄} {kont : PUnit → Prog (TpuEff nD τ sig (Elt F) Λ₀ .tc) α} :
    (((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄)
      ⊢ iprop((((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} (((Memref.whole cc0_scratch1 : Memref sig .tc .vmem S4x512x1024 .bf16).access (Rect.unit (s := S4x512x1024) ![3, 0, 0] S1x512x1024.size inb_S4x512x1024_S1x512x1024_3_0_0)).write (Elt F) f w Finset.univ)) -∗ wp frame (wpE (defs₀ (F := F)) 𝒱₀ (c : Thread nD τ) none) Set.univ (kont ⟨⟩) Q')
          -∗ wp frame (wpE (defs₀ (F := F)) 𝒱₀ (c : Thread nD τ) none) Set.univ (.op (.store (Memref.whole cc0_scratch1 : Memref sig .tc .vmem S4x512x1024 .bf16) (Rect.unit (s := S4x512x1024) ![3, 0, 0] S1x512x1024.size inb_S4x512x1024_S1x512x1024_3_0_0) w Finset.univ hx hm) kont) Q') :=
  wp_store 𝒱₀ (c : Thread nD τ) none Set.univ (m := (Memref.whole cc0_scratch1 : Memref sig .tc .vmem S4x512x1024 .bf16)) (r := (Rect.unit (s := S4x512x1024) ![3, 0, 0] S1x512x1024.size inb_S4x512x1024_S1x512x1024_3_0_0)) (w := w) (Mk := Finset.univ) slot_store_sub_3

/-! ## What a stored slot holds -/

/-- `slot_holds_chunk` for a slot whose contents are one store through its rectangle of the whole buffer, over whatever it held. -/
theorem slot_holds_chunk_write (c : Dev nD) (k : Fin 16) (j : Fin 4) (g : Buf (Elt F) ((c : Thread nD τ).loc cc0_scratch1))
    (inb : ∀ a, (![j.val, 0, 0] : Fin 3 → Nat) a + S1x512x1024.size a ≤ S4x512x1024.size a)
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (slotM j).view.read (Elt F)
        ((stageW.view.slice (Rect.unit (s := S4x512x1024) ![j.val, 0, 0] S1x512x1024.size inb)).write (Elt F) g p Finset.univ)
      = sentChunk m c k :=
  slot_holds_chunk m c k j g [] inb p v o ho hp hv ho1 ho2

/-- Slot 0, just stored with the narrowed load of a conversion slot that held the window at rows `512 k …` on the partner's columns, reads chunk `k` of what is sent. -/
theorem slot_written_chunk_0 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) (((Memref.whole cc0_scratch1 : Memref sig .tc .vmem S4x512x1024 .bf16).access (Rect.unit (s := S4x512x1024) ![0, 0, 0] S1x512x1024.size inb_S4x512x1024_S1x512x1024_0_0_0)).write (Elt F) f p Finset.univ) = sentChunk m c k :=
  slot_holds_chunk_write m c k 0 f _ p v o ho hp hv ho1 ho2

/-- Slot 1, just stored with the narrowed load of a conversion slot that held the window at rows `512 k …` on the partner's columns, reads chunk `k` of what is sent. -/
theorem slot_written_chunk_1 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) (((Memref.whole cc0_scratch1 : Memref sig .tc .vmem S4x512x1024 .bf16).access (Rect.unit (s := S4x512x1024) ![1, 0, 0] S1x512x1024.size inb_S4x512x1024_S1x512x1024_1_0_0)).write (Elt F) f p Finset.univ) = sentChunk m c k :=
  slot_holds_chunk_write m c k 1 f _ p v o ho hp hv ho1 ho2

/-- Slot 2, just stored with the narrowed load of a conversion slot that held the window at rows `512 k …` on the partner's columns, reads chunk `k` of what is sent. -/
theorem slot_written_chunk_2 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) (((Memref.whole cc0_scratch1 : Memref sig .tc .vmem S4x512x1024 .bf16).access (Rect.unit (s := S4x512x1024) ![2, 0, 0] S1x512x1024.size inb_S4x512x1024_S1x512x1024_2_0_0)).write (Elt F) f p Finset.univ) = sentChunk m c k :=
  slot_holds_chunk_write m c k 2 f _ p v o ho hp hv ho1 ho2

/-- Slot 3, just stored with the narrowed load of a conversion slot that held the window at rows `512 k …` on the partner's columns, reads chunk `k` of what is sent. -/
theorem slot_written_chunk_3 (c : Dev nD) (k : Fin 16) (f : Buf (Elt F) ((c : Thread nD τ).loc cc0_scratch1))
    (p : S1x512x1024.Idx → F .bf16) (v : S1x512x1024.Idx → F .f32)
    (o : Fin 3 → ℕ) (ho : ∀ a, o a + S1x512x1024.size a ≤ S1x8192x2048.size a)
    (hp : ∀ (u : Fin 1) (a : Fin 512) (b : Fin 1024), p (ix3 u a b) = tr (v (ix3 (⟨0, by decide⟩ : Fin 1) a b)))
    (hv : ∀ (a : Fin 512) (b : Fin 1024), v (ix3 (⟨0, by decide⟩ : Fin 1) a b) = xwin m c o ho (ix2 a b))
    (ho1 : o 1 = 512 * k.val) (ho2 : o 2 = col (peer c)) :
    (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) (((Memref.whole cc0_scratch1 : Memref sig .tc .vmem S4x512x1024 .bf16).access (Rect.unit (s := S4x512x1024) ![3, 0, 0] S1x512x1024.size inb_S4x512x1024_S1x512x1024_3_0_0)).write (Elt F) f p Finset.univ) = sentChunk m c k :=
  slot_holds_chunk_write m c k 3 f _ p v o ho hp hv ho1 ho2

/-! ## The sixteen transfers, spelt as the program spells them, each out of a slot held on the whole buffer's location -/

theorem k0_dev2_peer (c : Dev nD) : (⟨k0_dev2 c, k0_dev2_lt c⟩ : Dev nD) = peer c := Fin.ext ((k0_dev2_eq c).trans (dev_closed c))
theorem k0_dev3_peer (c : Dev nD) : (⟨k0_dev3 c, k0_dev3_lt c⟩ : Dev nD) = peer c := Fin.ext ((k0_dev3_eq c).trans (dev_closed c))
theorem k0_dev4_peer (c : Dev nD) : (⟨k0_dev4 c, k0_dev4_lt c⟩ : Dev nD) = peer c := Fin.ext ((k0_dev4_eq c).trans (dev_closed c))
theorem k0_dev5_peer (c : Dev nD) : (⟨k0_dev5 c, k0_dev5_lt c⟩ : Dev nD) = peer c := Fin.ext ((k0_dev5_eq c).trans (dev_closed c))
theorem k0_dev6_peer (c : Dev nD) : (⟨k0_dev6 c, k0_dev6_lt c⟩ : Dev nD) = peer c := Fin.ext ((k0_dev6_eq c).trans (dev_closed c))
theorem k0_dev7_peer (c : Dev nD) : (⟨k0_dev7 c, k0_dev7_lt c⟩ : Dev nD) = peer c := Fin.ext ((k0_dev7_eq c).trans (dev_closed c))
theorem k0_dev8_peer (c : Dev nD) : (⟨k0_dev8 c, k0_dev8_lt c⟩ : Dev nD) = peer c := Fin.ext ((k0_dev8_eq c).trans (dev_closed c))
theorem k0_dev9_peer (c : Dev nD) : (⟨k0_dev9 c, k0_dev9_lt c⟩ : Dev nD) = peer c := Fin.ext ((k0_dev9_eq c).trans (dev_closed c))
theorem k0_dev10_peer (c : Dev nD) : (⟨k0_dev10 c, k0_dev10_lt c⟩ : Dev nD) = peer c := Fin.ext ((k0_dev10_eq c).trans (dev_closed c))
theorem k0_dev11_peer (c : Dev nD) : (⟨k0_dev11 c, k0_dev11_lt c⟩ : Dev nD) = peer c := Fin.ext ((k0_dev11_eq c).trans (dev_closed c))
theorem k0_dev12_peer (c : Dev nD) : (⟨k0_dev12 c, k0_dev12_lt c⟩ : Dev nD) = peer c := Fin.ext ((k0_dev12_eq c).trans (dev_closed c))
theorem k0_dev13_peer (c : Dev nD) : (⟨k0_dev13 c, k0_dev13_lt c⟩ : Dev nD) = peer c := Fin.ext ((k0_dev13_eq c).trans (dev_closed c))
theorem k0_dev14_peer (c : Dev nD) : (⟨k0_dev14 c, k0_dev14_lt c⟩ : Dev nD) = peer c := Fin.ext ((k0_dev14_eq c).trans (dev_closed c))
theorem k0_dev15_peer (c : Dev nD) : (⟨k0_dev15 c, k0_dev15_lt c⟩ : Dev nD) = peer c := Fin.ext ((k0_dev15_eq c).trans (dev_closed c))
theorem k0_dev16_peer (c : Dev nD) : (⟨k0_dev16 c, k0_dev16_lt c⟩ : Dev nD) = peer c := Fin.ext ((k0_dev16_eq c).trans (dev_closed c))
theorem k0_dev17_peer (c : Dev nD) : (⟨k0_dev17 c, k0_dev17_lt c⟩ : Dev nD) = peer c := Fin.ext ((k0_dev17_eq c).trans (dev_closed c))

/-- Chunk 0's transfer out of slot 0, the slot held on the whole buffer's location, spelt as the program spells it. -/
theorem send_h_0 (κ₁ κ₂ : ℕ) (c : Dev nD)
    {hsc : (((Memref.whole main_v1_1 : Memref sig .tc .hbm S8192x1024 .bf16).slice (Rect.unit (s := S8192x1024) ![0, 0] S512x1024.size inb_S8192x1024_S512x1024_0_0) (fun _ => rfl)) : Memref sig (Dev.tc (⟨k0_dev2 c, k0_dev2_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![0, 0] S512x1024.size inb_S8192x1024_S512x1024_0_0) (fun _ => rfl)).view.WordExact}
    {hsem : DmaTarget.Typed .vmem (.dma ((cc0_scratch6.slice (Rect.unit (s := S16) ![0] S1.size inb_S16_S1_0)).squeeze S_ squeezes_S1_S_).sem) (.remote (Dev.tc (⟨k0_dev2 c, k0_dev2_lt c⟩ : Dev nD) : Thread nD τ) ((Memref.whole main_v1_1 : Memref sig .tc .hbm S8192x1024 .bf16).slice (Rect.unit (s := S8192x1024) ![0, 0] S512x1024.size inb_S8192x1024_S512x1024_0_0) (fun _ => rfl)) (.dma ((cc0_scratch5.slice (Rect.unit (s := S16) ![0] S1.size inb_S16_S1_0)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 0)
    (fd : Buf (Elt F) ((rowsM 0).view.loc ((peer c : Dev nD) : Thread nD τ)))
    (O : CellTallies nD τ sig Unit) (W' : Waits sig Unit) :
    iprop(cellInv ER (sched m) κ₁ (sendCell c 0) ∗ cellInv ER (sched m) κ₂ (recvCell (peer c) 0)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 0).view.loc ((peer c : Dev nD) : Thread nD τ) ↦[(rowsM 0).view.set]{fullShare} fd)
        ∗ owes (c : Thread nD τ) (O + tallyAt (recvCell (peer c) 0) () N) W'
        ∗ dutyTok ER (sendCell c 0) 0 () ∗ reached ER (sendCell c 0) 0
        ∗ dutyTok ER (recvCell (peer c) 0) 0 () ∗ reached ER (recvCell (peer c) 0) 0)
      ⊢ iprop(((cred (tallyAt (sendCell c 0) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev2 c, k0_dev2_lt c⟩ : Dev nD) : Thread nD τ) ((Memref.whole main_v1_1 : Memref sig .tc .hbm S8192x1024 .bf16).slice (Rect.unit (s := S8192x1024) ![0, 0] S512x1024.size inb_S8192x1024_S512x1024_0_0) (fun _ => rfl)) (.dma ((cc0_scratch5.slice (Rect.unit (s := S16) ![0] S1.size inb_S16_S1_0)).squeeze S_ squeezes_S1_S_).sem) hsc) (.dma ((cc0_scratch6.slice (Rect.unit (s := S16) ![0] S1.size inb_S16_S1_0)).squeeze S_ squeezes_S1_S_).sem) hsrc hdst hsem) kont) Q') :=
  wp_send_chunk m κ₁ κ₂ c _ (k0_dev2_peer c) 0 0 rfl fs hfs fd O W'

/-- Chunk 1's transfer out of slot 1, the slot held on the whole buffer's location, spelt as the program spells it. -/
theorem send_h_1 (κ₁ κ₂ : ℕ) (c : Dev nD)
    {hsc : (((Memref.whole main_v1_1 : Memref sig .tc .hbm S8192x1024 .bf16).slice (Rect.unit (s := S8192x1024) ![512, 0] S512x1024.size inb_S8192x1024_S512x1024_512_0) (fun _ => rfl)) : Memref sig (Dev.tc (⟨k0_dev3 c, k0_dev3_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![512, 0] S512x1024.size inb_S8192x1024_S512x1024_512_0) (fun _ => rfl)).view.WordExact}
    {hsem : DmaTarget.Typed .vmem (.dma ((cc0_scratch6.slice (Rect.unit (s := S16) ![1] S1.size inb_S16_S1_1)).squeeze S_ squeezes_S1_S_).sem) (.remote (Dev.tc (⟨k0_dev3 c, k0_dev3_lt c⟩ : Dev nD) : Thread nD τ) ((Memref.whole main_v1_1 : Memref sig .tc .hbm S8192x1024 .bf16).slice (Rect.unit (s := S8192x1024) ![512, 0] S512x1024.size inb_S8192x1024_S512x1024_512_0) (fun _ => rfl)) (.dma ((cc0_scratch5.slice (Rect.unit (s := S16) ![1] S1.size inb_S16_S1_1)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 1)
    (fd : Buf (Elt F) ((rowsM 1).view.loc ((peer c : Dev nD) : Thread nD τ)))
    (O : CellTallies nD τ sig Unit) (W' : Waits sig Unit) :
    iprop(cellInv ER (sched m) κ₁ (sendCell c 1) ∗ cellInv ER (sched m) κ₂ (recvCell (peer c) 1)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 1).view.loc ((peer c : Dev nD) : Thread nD τ) ↦[(rowsM 1).view.set]{fullShare} fd)
        ∗ owes (c : Thread nD τ) (O + tallyAt (recvCell (peer c) 1) () N) W'
        ∗ dutyTok ER (sendCell c 1) 0 () ∗ reached ER (sendCell c 1) 0
        ∗ dutyTok ER (recvCell (peer c) 1) 0 () ∗ reached ER (recvCell (peer c) 1) 0)
      ⊢ iprop(((cred (tallyAt (sendCell c 1) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev3 c, k0_dev3_lt c⟩ : Dev nD) : Thread nD τ) ((Memref.whole main_v1_1 : Memref sig .tc .hbm S8192x1024 .bf16).slice (Rect.unit (s := S8192x1024) ![512, 0] S512x1024.size inb_S8192x1024_S512x1024_512_0) (fun _ => rfl)) (.dma ((cc0_scratch5.slice (Rect.unit (s := S16) ![1] S1.size inb_S16_S1_1)).squeeze S_ squeezes_S1_S_).sem) hsc) (.dma ((cc0_scratch6.slice (Rect.unit (s := S16) ![1] S1.size inb_S16_S1_1)).squeeze S_ squeezes_S1_S_).sem) hsrc hdst hsem) kont) Q') :=
  wp_send_chunk m κ₁ κ₂ c _ (k0_dev3_peer c) 1 1 rfl fs hfs fd O W'

/-- Chunk 2's transfer out of slot 2, the slot held on the whole buffer's location, spelt as the program spells it. -/
theorem send_h_2 (κ₁ κ₂ : ℕ) (c : Dev nD)
    {hsc : (((Memref.whole main_v1_1 : Memref sig .tc .hbm S8192x1024 .bf16).slice (Rect.unit (s := S8192x1024) ![1024, 0] S512x1024.size inb_S8192x1024_S512x1024_1024_0) (fun _ => rfl)) : Memref sig (Dev.tc (⟨k0_dev4 c, k0_dev4_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![1024, 0] S512x1024.size inb_S8192x1024_S512x1024_1024_0) (fun _ => rfl)).view.WordExact}
    {hsem : DmaTarget.Typed .vmem (.dma ((cc0_scratch6.slice (Rect.unit (s := S16) ![2] S1.size inb_S16_S1_2)).squeeze S_ squeezes_S1_S_).sem) (.remote (Dev.tc (⟨k0_dev4 c, k0_dev4_lt c⟩ : Dev nD) : Thread nD τ) ((Memref.whole main_v1_1 : Memref sig .tc .hbm S8192x1024 .bf16).slice (Rect.unit (s := S8192x1024) ![1024, 0] S512x1024.size inb_S8192x1024_S512x1024_1024_0) (fun _ => rfl)) (.dma ((cc0_scratch5.slice (Rect.unit (s := S16) ![2] S1.size inb_S16_S1_2)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 2)
    (fd : Buf (Elt F) ((rowsM 2).view.loc ((peer c : Dev nD) : Thread nD τ)))
    (O : CellTallies nD τ sig Unit) (W' : Waits sig Unit) :
    iprop(cellInv ER (sched m) κ₁ (sendCell c 2) ∗ cellInv ER (sched m) κ₂ (recvCell (peer c) 2)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 2).view.loc ((peer c : Dev nD) : Thread nD τ) ↦[(rowsM 2).view.set]{fullShare} fd)
        ∗ owes (c : Thread nD τ) (O + tallyAt (recvCell (peer c) 2) () N) W'
        ∗ dutyTok ER (sendCell c 2) 0 () ∗ reached ER (sendCell c 2) 0
        ∗ dutyTok ER (recvCell (peer c) 2) 0 () ∗ reached ER (recvCell (peer c) 2) 0)
      ⊢ iprop(((cred (tallyAt (sendCell c 2) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev4 c, k0_dev4_lt c⟩ : Dev nD) : Thread nD τ) ((Memref.whole main_v1_1 : Memref sig .tc .hbm S8192x1024 .bf16).slice (Rect.unit (s := S8192x1024) ![1024, 0] S512x1024.size inb_S8192x1024_S512x1024_1024_0) (fun _ => rfl)) (.dma ((cc0_scratch5.slice (Rect.unit (s := S16) ![2] S1.size inb_S16_S1_2)).squeeze S_ squeezes_S1_S_).sem) hsc) (.dma ((cc0_scratch6.slice (Rect.unit (s := S16) ![2] S1.size inb_S16_S1_2)).squeeze S_ squeezes_S1_S_).sem) hsrc hdst hsem) kont) Q') :=
  wp_send_chunk m κ₁ κ₂ c _ (k0_dev4_peer c) 2 2 rfl fs hfs fd O W'

/-- Chunk 3's transfer out of slot 3, the slot held on the whole buffer's location, spelt as the program spells it. -/
theorem send_h_3 (κ₁ κ₂ : ℕ) (c : Dev nD)
    {hsc : (((Memref.whole main_v1_1 : Memref sig .tc .hbm S8192x1024 .bf16).slice (Rect.unit (s := S8192x1024) ![1536, 0] S512x1024.size inb_S8192x1024_S512x1024_1536_0) (fun _ => rfl)) : Memref sig (Dev.tc (⟨k0_dev5 c, k0_dev5_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![1536, 0] S512x1024.size inb_S8192x1024_S512x1024_1536_0) (fun _ => rfl)).view.WordExact}
    {hsem : DmaTarget.Typed .vmem (.dma ((cc0_scratch6.slice (Rect.unit (s := S16) ![3] S1.size inb_S16_S1_3)).squeeze S_ squeezes_S1_S_).sem) (.remote (Dev.tc (⟨k0_dev5 c, k0_dev5_lt c⟩ : Dev nD) : Thread nD τ) ((Memref.whole main_v1_1 : Memref sig .tc .hbm S8192x1024 .bf16).slice (Rect.unit (s := S8192x1024) ![1536, 0] S512x1024.size inb_S8192x1024_S512x1024_1536_0) (fun _ => rfl)) (.dma ((cc0_scratch5.slice (Rect.unit (s := S16) ![3] S1.size inb_S16_S1_3)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 3)
    (fd : Buf (Elt F) ((rowsM 3).view.loc ((peer c : Dev nD) : Thread nD τ)))
    (O : CellTallies nD τ sig Unit) (W' : Waits sig Unit) :
    iprop(cellInv ER (sched m) κ₁ (sendCell c 3) ∗ cellInv ER (sched m) κ₂ (recvCell (peer c) 3)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 3).view.loc ((peer c : Dev nD) : Thread nD τ) ↦[(rowsM 3).view.set]{fullShare} fd)
        ∗ owes (c : Thread nD τ) (O + tallyAt (recvCell (peer c) 3) () N) W'
        ∗ dutyTok ER (sendCell c 3) 0 () ∗ reached ER (sendCell c 3) 0
        ∗ dutyTok ER (recvCell (peer c) 3) 0 () ∗ reached ER (recvCell (peer c) 3) 0)
      ⊢ iprop(((cred (tallyAt (sendCell c 3) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev5 c, k0_dev5_lt c⟩ : Dev nD) : Thread nD τ) ((Memref.whole main_v1_1 : Memref sig .tc .hbm S8192x1024 .bf16).slice (Rect.unit (s := S8192x1024) ![1536, 0] S512x1024.size inb_S8192x1024_S512x1024_1536_0) (fun _ => rfl)) (.dma ((cc0_scratch5.slice (Rect.unit (s := S16) ![3] S1.size inb_S16_S1_3)).squeeze S_ squeezes_S1_S_).sem) hsc) (.dma ((cc0_scratch6.slice (Rect.unit (s := S16) ![3] S1.size inb_S16_S1_3)).squeeze S_ squeezes_S1_S_).sem) hsrc hdst hsem) kont) Q') :=
  wp_send_chunk m κ₁ κ₂ c _ (k0_dev5_peer c) 3 3 rfl fs hfs fd O W'

/-- Chunk 4's transfer out of slot 0, the slot held on the whole buffer's location, spelt as the program spells it. -/
theorem send_h_4 (κ₁ κ₂ : ℕ) (c : Dev nD)
    {hsc : (((Memref.whole main_v1_1 : Memref sig .tc .hbm S8192x1024 .bf16).slice (Rect.unit (s := S8192x1024) ![2048, 0] S512x1024.size inb_S8192x1024_S512x1024_2048_0) (fun _ => rfl)) : Memref sig (Dev.tc (⟨k0_dev6 c, k0_dev6_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![2048, 0] S512x1024.size inb_S8192x1024_S512x1024_2048_0) (fun _ => rfl)).view.WordExact}
    {hsem : DmaTarget.Typed .vmem (.dma ((cc0_scratch6.slice (Rect.unit (s := S16) ![4] S1.size inb_S16_S1_4)).squeeze S_ squeezes_S1_S_).sem) (.remote (Dev.tc (⟨k0_dev6 c, k0_dev6_lt c⟩ : Dev nD) : Thread nD τ) ((Memref.whole main_v1_1 : Memref sig .tc .hbm S8192x1024 .bf16).slice (Rect.unit (s := S8192x1024) ![2048, 0] S512x1024.size inb_S8192x1024_S512x1024_2048_0) (fun _ => rfl)) (.dma ((cc0_scratch5.slice (Rect.unit (s := S16) ![4] S1.size inb_S16_S1_4)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 4)
    (fd : Buf (Elt F) ((rowsM 4).view.loc ((peer c : Dev nD) : Thread nD τ)))
    (O : CellTallies nD τ sig Unit) (W' : Waits sig Unit) :
    iprop(cellInv ER (sched m) κ₁ (sendCell c 4) ∗ cellInv ER (sched m) κ₂ (recvCell (peer c) 4)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 4).view.loc ((peer c : Dev nD) : Thread nD τ) ↦[(rowsM 4).view.set]{fullShare} fd)
        ∗ owes (c : Thread nD τ) (O + tallyAt (recvCell (peer c) 4) () N) W'
        ∗ dutyTok ER (sendCell c 4) 0 () ∗ reached ER (sendCell c 4) 0
        ∗ dutyTok ER (recvCell (peer c) 4) 0 () ∗ reached ER (recvCell (peer c) 4) 0)
      ⊢ iprop(((cred (tallyAt (sendCell c 4) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev6 c, k0_dev6_lt c⟩ : Dev nD) : Thread nD τ) ((Memref.whole main_v1_1 : Memref sig .tc .hbm S8192x1024 .bf16).slice (Rect.unit (s := S8192x1024) ![2048, 0] S512x1024.size inb_S8192x1024_S512x1024_2048_0) (fun _ => rfl)) (.dma ((cc0_scratch5.slice (Rect.unit (s := S16) ![4] S1.size inb_S16_S1_4)).squeeze S_ squeezes_S1_S_).sem) hsc) (.dma ((cc0_scratch6.slice (Rect.unit (s := S16) ![4] S1.size inb_S16_S1_4)).squeeze S_ squeezes_S1_S_).sem) hsrc hdst hsem) kont) Q') :=
  wp_send_chunk m κ₁ κ₂ c _ (k0_dev6_peer c) 4 0 rfl fs hfs fd O W'

/-- Chunk 5's transfer out of slot 1, the slot held on the whole buffer's location, spelt as the program spells it. -/
theorem send_h_5 (κ₁ κ₂ : ℕ) (c : Dev nD)
    {hsc : (((Memref.whole main_v1_1 : Memref sig .tc .hbm S8192x1024 .bf16).slice (Rect.unit (s := S8192x1024) ![2560, 0] S512x1024.size inb_S8192x1024_S512x1024_2560_0) (fun _ => rfl)) : Memref sig (Dev.tc (⟨k0_dev7 c, k0_dev7_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![2560, 0] S512x1024.size inb_S8192x1024_S512x1024_2560_0) (fun _ => rfl)).view.WordExact}
    {hsem : DmaTarget.Typed .vmem (.dma ((cc0_scratch6.slice (Rect.unit (s := S16) ![5] S1.size inb_S16_S1_5)).squeeze S_ squeezes_S1_S_).sem) (.remote (Dev.tc (⟨k0_dev7 c, k0_dev7_lt c⟩ : Dev nD) : Thread nD τ) ((Memref.whole main_v1_1 : Memref sig .tc .hbm S8192x1024 .bf16).slice (Rect.unit (s := S8192x1024) ![2560, 0] S512x1024.size inb_S8192x1024_S512x1024_2560_0) (fun _ => rfl)) (.dma ((cc0_scratch5.slice (Rect.unit (s := S16) ![5] S1.size inb_S16_S1_5)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 5)
    (fd : Buf (Elt F) ((rowsM 5).view.loc ((peer c : Dev nD) : Thread nD τ)))
    (O : CellTallies nD τ sig Unit) (W' : Waits sig Unit) :
    iprop(cellInv ER (sched m) κ₁ (sendCell c 5) ∗ cellInv ER (sched m) κ₂ (recvCell (peer c) 5)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 5).view.loc ((peer c : Dev nD) : Thread nD τ) ↦[(rowsM 5).view.set]{fullShare} fd)
        ∗ owes (c : Thread nD τ) (O + tallyAt (recvCell (peer c) 5) () N) W'
        ∗ dutyTok ER (sendCell c 5) 0 () ∗ reached ER (sendCell c 5) 0
        ∗ dutyTok ER (recvCell (peer c) 5) 0 () ∗ reached ER (recvCell (peer c) 5) 0)
      ⊢ iprop(((cred (tallyAt (sendCell c 5) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev7 c, k0_dev7_lt c⟩ : Dev nD) : Thread nD τ) ((Memref.whole main_v1_1 : Memref sig .tc .hbm S8192x1024 .bf16).slice (Rect.unit (s := S8192x1024) ![2560, 0] S512x1024.size inb_S8192x1024_S512x1024_2560_0) (fun _ => rfl)) (.dma ((cc0_scratch5.slice (Rect.unit (s := S16) ![5] S1.size inb_S16_S1_5)).squeeze S_ squeezes_S1_S_).sem) hsc) (.dma ((cc0_scratch6.slice (Rect.unit (s := S16) ![5] S1.size inb_S16_S1_5)).squeeze S_ squeezes_S1_S_).sem) hsrc hdst hsem) kont) Q') :=
  wp_send_chunk m κ₁ κ₂ c _ (k0_dev7_peer c) 5 1 rfl fs hfs fd O W'

/-- Chunk 6's transfer out of slot 2, the slot held on the whole buffer's location, spelt as the program spells it. -/
theorem send_h_6 (κ₁ κ₂ : ℕ) (c : Dev nD)
    {hsc : (((Memref.whole main_v1_1 : Memref sig .tc .hbm S8192x1024 .bf16).slice (Rect.unit (s := S8192x1024) ![3072, 0] S512x1024.size inb_S8192x1024_S512x1024_3072_0) (fun _ => rfl)) : Memref sig (Dev.tc (⟨k0_dev8 c, k0_dev8_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![3072, 0] S512x1024.size inb_S8192x1024_S512x1024_3072_0) (fun _ => rfl)).view.WordExact}
    {hsem : DmaTarget.Typed .vmem (.dma ((cc0_scratch6.slice (Rect.unit (s := S16) ![6] S1.size inb_S16_S1_6)).squeeze S_ squeezes_S1_S_).sem) (.remote (Dev.tc (⟨k0_dev8 c, k0_dev8_lt c⟩ : Dev nD) : Thread nD τ) ((Memref.whole main_v1_1 : Memref sig .tc .hbm S8192x1024 .bf16).slice (Rect.unit (s := S8192x1024) ![3072, 0] S512x1024.size inb_S8192x1024_S512x1024_3072_0) (fun _ => rfl)) (.dma ((cc0_scratch5.slice (Rect.unit (s := S16) ![6] S1.size inb_S16_S1_6)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 6)
    (fd : Buf (Elt F) ((rowsM 6).view.loc ((peer c : Dev nD) : Thread nD τ)))
    (O : CellTallies nD τ sig Unit) (W' : Waits sig Unit) :
    iprop(cellInv ER (sched m) κ₁ (sendCell c 6) ∗ cellInv ER (sched m) κ₂ (recvCell (peer c) 6)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 6).view.loc ((peer c : Dev nD) : Thread nD τ) ↦[(rowsM 6).view.set]{fullShare} fd)
        ∗ owes (c : Thread nD τ) (O + tallyAt (recvCell (peer c) 6) () N) W'
        ∗ dutyTok ER (sendCell c 6) 0 () ∗ reached ER (sendCell c 6) 0
        ∗ dutyTok ER (recvCell (peer c) 6) 0 () ∗ reached ER (recvCell (peer c) 6) 0)
      ⊢ iprop(((cred (tallyAt (sendCell c 6) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev8 c, k0_dev8_lt c⟩ : Dev nD) : Thread nD τ) ((Memref.whole main_v1_1 : Memref sig .tc .hbm S8192x1024 .bf16).slice (Rect.unit (s := S8192x1024) ![3072, 0] S512x1024.size inb_S8192x1024_S512x1024_3072_0) (fun _ => rfl)) (.dma ((cc0_scratch5.slice (Rect.unit (s := S16) ![6] S1.size inb_S16_S1_6)).squeeze S_ squeezes_S1_S_).sem) hsc) (.dma ((cc0_scratch6.slice (Rect.unit (s := S16) ![6] S1.size inb_S16_S1_6)).squeeze S_ squeezes_S1_S_).sem) hsrc hdst hsem) kont) Q') :=
  wp_send_chunk m κ₁ κ₂ c _ (k0_dev8_peer c) 6 2 rfl fs hfs fd O W'

/-- Chunk 7's transfer out of slot 3, the slot held on the whole buffer's location, spelt as the program spells it. -/
theorem send_h_7 (κ₁ κ₂ : ℕ) (c : Dev nD)
    {hsc : (((Memref.whole main_v1_1 : Memref sig .tc .hbm S8192x1024 .bf16).slice (Rect.unit (s := S8192x1024) ![3584, 0] S512x1024.size inb_S8192x1024_S512x1024_3584_0) (fun _ => rfl)) : Memref sig (Dev.tc (⟨k0_dev9 c, k0_dev9_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![3584, 0] S512x1024.size inb_S8192x1024_S512x1024_3584_0) (fun _ => rfl)).view.WordExact}
    {hsem : DmaTarget.Typed .vmem (.dma ((cc0_scratch6.slice (Rect.unit (s := S16) ![7] S1.size inb_S16_S1_7)).squeeze S_ squeezes_S1_S_).sem) (.remote (Dev.tc (⟨k0_dev9 c, k0_dev9_lt c⟩ : Dev nD) : Thread nD τ) ((Memref.whole main_v1_1 : Memref sig .tc .hbm S8192x1024 .bf16).slice (Rect.unit (s := S8192x1024) ![3584, 0] S512x1024.size inb_S8192x1024_S512x1024_3584_0) (fun _ => rfl)) (.dma ((cc0_scratch5.slice (Rect.unit (s := S16) ![7] S1.size inb_S16_S1_7)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 7)
    (fd : Buf (Elt F) ((rowsM 7).view.loc ((peer c : Dev nD) : Thread nD τ)))
    (O : CellTallies nD τ sig Unit) (W' : Waits sig Unit) :
    iprop(cellInv ER (sched m) κ₁ (sendCell c 7) ∗ cellInv ER (sched m) κ₂ (recvCell (peer c) 7)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 7).view.loc ((peer c : Dev nD) : Thread nD τ) ↦[(rowsM 7).view.set]{fullShare} fd)
        ∗ owes (c : Thread nD τ) (O + tallyAt (recvCell (peer c) 7) () N) W'
        ∗ dutyTok ER (sendCell c 7) 0 () ∗ reached ER (sendCell c 7) 0
        ∗ dutyTok ER (recvCell (peer c) 7) 0 () ∗ reached ER (recvCell (peer c) 7) 0)
      ⊢ iprop(((cred (tallyAt (sendCell c 7) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev9 c, k0_dev9_lt c⟩ : Dev nD) : Thread nD τ) ((Memref.whole main_v1_1 : Memref sig .tc .hbm S8192x1024 .bf16).slice (Rect.unit (s := S8192x1024) ![3584, 0] S512x1024.size inb_S8192x1024_S512x1024_3584_0) (fun _ => rfl)) (.dma ((cc0_scratch5.slice (Rect.unit (s := S16) ![7] S1.size inb_S16_S1_7)).squeeze S_ squeezes_S1_S_).sem) hsc) (.dma ((cc0_scratch6.slice (Rect.unit (s := S16) ![7] S1.size inb_S16_S1_7)).squeeze S_ squeezes_S1_S_).sem) hsrc hdst hsem) kont) Q') :=
  wp_send_chunk m κ₁ κ₂ c _ (k0_dev9_peer c) 7 3 rfl fs hfs fd O W'

/-- Chunk 8's transfer out of slot 0, the slot held on the whole buffer's location, spelt as the program spells it. -/
theorem send_h_8 (κ₁ κ₂ : ℕ) (c : Dev nD)
    {hsc : (((Memref.whole main_v1_1 : Memref sig .tc .hbm S8192x1024 .bf16).slice (Rect.unit (s := S8192x1024) ![4096, 0] S512x1024.size inb_S8192x1024_S512x1024_4096_0) (fun _ => rfl)) : Memref sig (Dev.tc (⟨k0_dev10 c, k0_dev10_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![4096, 0] S512x1024.size inb_S8192x1024_S512x1024_4096_0) (fun _ => rfl)).view.WordExact}
    {hsem : DmaTarget.Typed .vmem (.dma ((cc0_scratch6.slice (Rect.unit (s := S16) ![8] S1.size inb_S16_S1_8)).squeeze S_ squeezes_S1_S_).sem) (.remote (Dev.tc (⟨k0_dev10 c, k0_dev10_lt c⟩ : Dev nD) : Thread nD τ) ((Memref.whole main_v1_1 : Memref sig .tc .hbm S8192x1024 .bf16).slice (Rect.unit (s := S8192x1024) ![4096, 0] S512x1024.size inb_S8192x1024_S512x1024_4096_0) (fun _ => rfl)) (.dma ((cc0_scratch5.slice (Rect.unit (s := S16) ![8] S1.size inb_S16_S1_8)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 8)
    (fd : Buf (Elt F) ((rowsM 8).view.loc ((peer c : Dev nD) : Thread nD τ)))
    (O : CellTallies nD τ sig Unit) (W' : Waits sig Unit) :
    iprop(cellInv ER (sched m) κ₁ (sendCell c 8) ∗ cellInv ER (sched m) κ₂ (recvCell (peer c) 8)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 8).view.loc ((peer c : Dev nD) : Thread nD τ) ↦[(rowsM 8).view.set]{fullShare} fd)
        ∗ owes (c : Thread nD τ) (O + tallyAt (recvCell (peer c) 8) () N) W'
        ∗ dutyTok ER (sendCell c 8) 0 () ∗ reached ER (sendCell c 8) 0
        ∗ dutyTok ER (recvCell (peer c) 8) 0 () ∗ reached ER (recvCell (peer c) 8) 0)
      ⊢ iprop(((cred (tallyAt (sendCell c 8) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev10 c, k0_dev10_lt c⟩ : Dev nD) : Thread nD τ) ((Memref.whole main_v1_1 : Memref sig .tc .hbm S8192x1024 .bf16).slice (Rect.unit (s := S8192x1024) ![4096, 0] S512x1024.size inb_S8192x1024_S512x1024_4096_0) (fun _ => rfl)) (.dma ((cc0_scratch5.slice (Rect.unit (s := S16) ![8] S1.size inb_S16_S1_8)).squeeze S_ squeezes_S1_S_).sem) hsc) (.dma ((cc0_scratch6.slice (Rect.unit (s := S16) ![8] S1.size inb_S16_S1_8)).squeeze S_ squeezes_S1_S_).sem) hsrc hdst hsem) kont) Q') :=
  wp_send_chunk m κ₁ κ₂ c _ (k0_dev10_peer c) 8 0 rfl fs hfs fd O W'

/-- Chunk 9's transfer out of slot 1, the slot held on the whole buffer's location, spelt as the program spells it. -/
theorem send_h_9 (κ₁ κ₂ : ℕ) (c : Dev nD)
    {hsc : (((Memref.whole main_v1_1 : Memref sig .tc .hbm S8192x1024 .bf16).slice (Rect.unit (s := S8192x1024) ![4608, 0] S512x1024.size inb_S8192x1024_S512x1024_4608_0) (fun _ => rfl)) : Memref sig (Dev.tc (⟨k0_dev11 c, k0_dev11_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![4608, 0] S512x1024.size inb_S8192x1024_S512x1024_4608_0) (fun _ => rfl)).view.WordExact}
    {hsem : DmaTarget.Typed .vmem (.dma ((cc0_scratch6.slice (Rect.unit (s := S16) ![9] S1.size inb_S16_S1_9)).squeeze S_ squeezes_S1_S_).sem) (.remote (Dev.tc (⟨k0_dev11 c, k0_dev11_lt c⟩ : Dev nD) : Thread nD τ) ((Memref.whole main_v1_1 : Memref sig .tc .hbm S8192x1024 .bf16).slice (Rect.unit (s := S8192x1024) ![4608, 0] S512x1024.size inb_S8192x1024_S512x1024_4608_0) (fun _ => rfl)) (.dma ((cc0_scratch5.slice (Rect.unit (s := S16) ![9] S1.size inb_S16_S1_9)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 9)
    (fd : Buf (Elt F) ((rowsM 9).view.loc ((peer c : Dev nD) : Thread nD τ)))
    (O : CellTallies nD τ sig Unit) (W' : Waits sig Unit) :
    iprop(cellInv ER (sched m) κ₁ (sendCell c 9) ∗ cellInv ER (sched m) κ₂ (recvCell (peer c) 9)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 9).view.loc ((peer c : Dev nD) : Thread nD τ) ↦[(rowsM 9).view.set]{fullShare} fd)
        ∗ owes (c : Thread nD τ) (O + tallyAt (recvCell (peer c) 9) () N) W'
        ∗ dutyTok ER (sendCell c 9) 0 () ∗ reached ER (sendCell c 9) 0
        ∗ dutyTok ER (recvCell (peer c) 9) 0 () ∗ reached ER (recvCell (peer c) 9) 0)
      ⊢ iprop(((cred (tallyAt (sendCell c 9) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev11 c, k0_dev11_lt c⟩ : Dev nD) : Thread nD τ) ((Memref.whole main_v1_1 : Memref sig .tc .hbm S8192x1024 .bf16).slice (Rect.unit (s := S8192x1024) ![4608, 0] S512x1024.size inb_S8192x1024_S512x1024_4608_0) (fun _ => rfl)) (.dma ((cc0_scratch5.slice (Rect.unit (s := S16) ![9] S1.size inb_S16_S1_9)).squeeze S_ squeezes_S1_S_).sem) hsc) (.dma ((cc0_scratch6.slice (Rect.unit (s := S16) ![9] S1.size inb_S16_S1_9)).squeeze S_ squeezes_S1_S_).sem) hsrc hdst hsem) kont) Q') :=
  wp_send_chunk m κ₁ κ₂ c _ (k0_dev11_peer c) 9 1 rfl fs hfs fd O W'

/-- Chunk 10's transfer out of slot 2, the slot held on the whole buffer's location, spelt as the program spells it. -/
theorem send_h_10 (κ₁ κ₂ : ℕ) (c : Dev nD)
    {hsc : (((Memref.whole main_v1_1 : Memref sig .tc .hbm S8192x1024 .bf16).slice (Rect.unit (s := S8192x1024) ![5120, 0] S512x1024.size inb_S8192x1024_S512x1024_5120_0) (fun _ => rfl)) : Memref sig (Dev.tc (⟨k0_dev12 c, k0_dev12_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![5120, 0] S512x1024.size inb_S8192x1024_S512x1024_5120_0) (fun _ => rfl)).view.WordExact}
    {hsem : DmaTarget.Typed .vmem (.dma ((cc0_scratch6.slice (Rect.unit (s := S16) ![10] S1.size inb_S16_S1_10)).squeeze S_ squeezes_S1_S_).sem) (.remote (Dev.tc (⟨k0_dev12 c, k0_dev12_lt c⟩ : Dev nD) : Thread nD τ) ((Memref.whole main_v1_1 : Memref sig .tc .hbm S8192x1024 .bf16).slice (Rect.unit (s := S8192x1024) ![5120, 0] S512x1024.size inb_S8192x1024_S512x1024_5120_0) (fun _ => rfl)) (.dma ((cc0_scratch5.slice (Rect.unit (s := S16) ![10] S1.size inb_S16_S1_10)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 10)
    (fd : Buf (Elt F) ((rowsM 10).view.loc ((peer c : Dev nD) : Thread nD τ)))
    (O : CellTallies nD τ sig Unit) (W' : Waits sig Unit) :
    iprop(cellInv ER (sched m) κ₁ (sendCell c 10) ∗ cellInv ER (sched m) κ₂ (recvCell (peer c) 10)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 10).view.loc ((peer c : Dev nD) : Thread nD τ) ↦[(rowsM 10).view.set]{fullShare} fd)
        ∗ owes (c : Thread nD τ) (O + tallyAt (recvCell (peer c) 10) () N) W'
        ∗ dutyTok ER (sendCell c 10) 0 () ∗ reached ER (sendCell c 10) 0
        ∗ dutyTok ER (recvCell (peer c) 10) 0 () ∗ reached ER (recvCell (peer c) 10) 0)
      ⊢ iprop(((cred (tallyAt (sendCell c 10) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev12 c, k0_dev12_lt c⟩ : Dev nD) : Thread nD τ) ((Memref.whole main_v1_1 : Memref sig .tc .hbm S8192x1024 .bf16).slice (Rect.unit (s := S8192x1024) ![5120, 0] S512x1024.size inb_S8192x1024_S512x1024_5120_0) (fun _ => rfl)) (.dma ((cc0_scratch5.slice (Rect.unit (s := S16) ![10] S1.size inb_S16_S1_10)).squeeze S_ squeezes_S1_S_).sem) hsc) (.dma ((cc0_scratch6.slice (Rect.unit (s := S16) ![10] S1.size inb_S16_S1_10)).squeeze S_ squeezes_S1_S_).sem) hsrc hdst hsem) kont) Q') :=
  wp_send_chunk m κ₁ κ₂ c _ (k0_dev12_peer c) 10 2 rfl fs hfs fd O W'

/-- Chunk 11's transfer out of slot 3, the slot held on the whole buffer's location, spelt as the program spells it. -/
theorem send_h_11 (κ₁ κ₂ : ℕ) (c : Dev nD)
    {hsc : (((Memref.whole main_v1_1 : Memref sig .tc .hbm S8192x1024 .bf16).slice (Rect.unit (s := S8192x1024) ![5632, 0] S512x1024.size inb_S8192x1024_S512x1024_5632_0) (fun _ => rfl)) : Memref sig (Dev.tc (⟨k0_dev13 c, k0_dev13_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![5632, 0] S512x1024.size inb_S8192x1024_S512x1024_5632_0) (fun _ => rfl)).view.WordExact}
    {hsem : DmaTarget.Typed .vmem (.dma ((cc0_scratch6.slice (Rect.unit (s := S16) ![11] S1.size inb_S16_S1_11)).squeeze S_ squeezes_S1_S_).sem) (.remote (Dev.tc (⟨k0_dev13 c, k0_dev13_lt c⟩ : Dev nD) : Thread nD τ) ((Memref.whole main_v1_1 : Memref sig .tc .hbm S8192x1024 .bf16).slice (Rect.unit (s := S8192x1024) ![5632, 0] S512x1024.size inb_S8192x1024_S512x1024_5632_0) (fun _ => rfl)) (.dma ((cc0_scratch5.slice (Rect.unit (s := S16) ![11] S1.size inb_S16_S1_11)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 11)
    (fd : Buf (Elt F) ((rowsM 11).view.loc ((peer c : Dev nD) : Thread nD τ)))
    (O : CellTallies nD τ sig Unit) (W' : Waits sig Unit) :
    iprop(cellInv ER (sched m) κ₁ (sendCell c 11) ∗ cellInv ER (sched m) κ₂ (recvCell (peer c) 11)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 11).view.loc ((peer c : Dev nD) : Thread nD τ) ↦[(rowsM 11).view.set]{fullShare} fd)
        ∗ owes (c : Thread nD τ) (O + tallyAt (recvCell (peer c) 11) () N) W'
        ∗ dutyTok ER (sendCell c 11) 0 () ∗ reached ER (sendCell c 11) 0
        ∗ dutyTok ER (recvCell (peer c) 11) 0 () ∗ reached ER (recvCell (peer c) 11) 0)
      ⊢ iprop(((cred (tallyAt (sendCell c 11) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev13 c, k0_dev13_lt c⟩ : Dev nD) : Thread nD τ) ((Memref.whole main_v1_1 : Memref sig .tc .hbm S8192x1024 .bf16).slice (Rect.unit (s := S8192x1024) ![5632, 0] S512x1024.size inb_S8192x1024_S512x1024_5632_0) (fun _ => rfl)) (.dma ((cc0_scratch5.slice (Rect.unit (s := S16) ![11] S1.size inb_S16_S1_11)).squeeze S_ squeezes_S1_S_).sem) hsc) (.dma ((cc0_scratch6.slice (Rect.unit (s := S16) ![11] S1.size inb_S16_S1_11)).squeeze S_ squeezes_S1_S_).sem) hsrc hdst hsem) kont) Q') :=
  wp_send_chunk m κ₁ κ₂ c _ (k0_dev13_peer c) 11 3 rfl fs hfs fd O W'

/-- Chunk 12's transfer out of slot 0, the slot held on the whole buffer's location, spelt as the program spells it. -/
theorem send_h_12 (κ₁ κ₂ : ℕ) (c : Dev nD)
    {hsc : (((Memref.whole main_v1_1 : Memref sig .tc .hbm S8192x1024 .bf16).slice (Rect.unit (s := S8192x1024) ![6144, 0] S512x1024.size inb_S8192x1024_S512x1024_6144_0) (fun _ => rfl)) : Memref sig (Dev.tc (⟨k0_dev14 c, k0_dev14_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.WordExact} {hdst : ((Memref.whole main_v1_1 : Memref sig .tc .hbm S8192x1024 .bf16).slice (Rect.unit (s := S8192x1024) ![6144, 0] S512x1024.size inb_S8192x1024_S512x1024_6144_0) (fun _ => rfl)).view.WordExact}
    {hsem : DmaTarget.Typed .vmem (.dma ((cc0_scratch6.slice (Rect.unit (s := S16) ![12] S1.size inb_S16_S1_12)).squeeze S_ squeezes_S1_S_).sem) (.remote (Dev.tc (⟨k0_dev14 c, k0_dev14_lt c⟩ : Dev nD) : Thread nD τ) ((Memref.whole main_v1_1 : Memref sig .tc .hbm S8192x1024 .bf16).slice (Rect.unit (s := S8192x1024) ![6144, 0] S512x1024.size inb_S8192x1024_S512x1024_6144_0) (fun _ => rfl)) (.dma ((cc0_scratch5.slice (Rect.unit (s := S16) ![12] S1.size inb_S16_S1_12)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.read (Elt F) fs = sentChunk m c 12)
    (fd : Buf (Elt F) ((rowsM 12).view.loc ((peer c : Dev nD) : Thread nD τ)))
    (O : CellTallies nD τ sig Unit) (W' : Waits sig Unit) :
    iprop(cellInv ER (sched m) κ₁ (sendCell c 12) ∗ cellInv ER (sched m) κ₂ (recvCell (peer c) 12)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} fs)
        ∗ ((rowsM 12).view.loc ((peer c : Dev nD) : Thread nD τ) ↦[(rowsM 12).view.set]{fullShare} fd)
        ∗ owes (c : Thread nD τ) (O + tallyAt (recvCell (peer c) 12) () N) W'
        ∗ dutyTok ER (sendCell c 12) 0 () ∗ reached ER (sendCell c 12) 0
        ∗ dutyTok ER (recvCell (peer c) 12) 0 () ∗ reached ER (recvCell (peer c) 12) 0)
      ⊢ iprop(((cred (tallyAt (sendCell c 12) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024) (.remote (Dev.tc (⟨k0_dev14 c, k0_dev14_lt c⟩ : Dev nD) : Thread nD τ) ((Memref.whole main_v1_1 : Memref sig .tc .hbm S8192x1024 .bf16).slice (Rect.unit (s := S8192x1024) ![6144, 0] S512x1024.size inb_S8192x1024_S512x1024_6144_0) (fun _ => rfl)) (.dma ((cc0_scratch5.slice (Rect.unit (s := S16) ![12] S1.size inb_S16_S1_12)).squeeze S_ squeezes_S1_S_).sem) hsc) (.dma ((cc0_scratch6.slice (Rect.unit (s := S16) ![12] S1.size inb_S16_S1_12)).squeeze S_ squeezes_S1_S_).sem) hsrc hdst hsem) kont) Q') :=
  wp_send_chunk m κ₁ κ₂ c _ (k0_dev14_peer c) 12 0 rfl fs hfs fd O W'

/-- Chunk 13's transfer out of slot 1, the slot held on the whole buffer's location, spelt as the program spells it. -/
theorem send_h_13 (κ₁ κ₂ : ℕ) (c : Dev nD)
    {hsc : (((Memref.whole main_v1_1 : Memref sig .tc .hbm S8192x1024 .bf16).slice (Rect.unit (s := S8192x1024) ![6656, 0] S512x1024.size inb_S8192x1024_S512x1024_6656_0) (fun _ => rfl)) : Memref sig (Dev.tc (⟨k0_dev15 c, k0_dev15_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.WordExact} {hdst : ((Memref.whole main_v1_1 : Memref sig .tc .hbm S8192x1024 .bf16).slice (Rect.unit (s := S8192x1024) ![6656, 0] S512x1024.size inb_S8192x1024_S512x1024_6656_0) (fun _ => rfl)).view.WordExact}
    {hsem : DmaTarget.Typed .vmem (.dma ((cc0_scratch6.slice (Rect.unit (s := S16) ![13] S1.size inb_S16_S1_13)).squeeze S_ squeezes_S1_S_).sem) (.remote (Dev.tc (⟨k0_dev15 c, k0_dev15_lt c⟩ : Dev nD) : Thread nD τ) ((Memref.whole main_v1_1 : Memref sig .tc .hbm S8192x1024 .bf16).slice (Rect.unit (s := S8192x1024) ![6656, 0] S512x1024.size inb_S8192x1024_S512x1024_6656_0) (fun _ => rfl)) (.dma ((cc0_scratch5.slice (Rect.unit (s := S16) ![13] S1.size inb_S16_S1_13)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.read (Elt F) fs = sentChunk m c 13)
    (fd : Buf (Elt F) ((rowsM 13).view.loc ((peer c : Dev nD) : Thread nD τ)))
    (O : CellTallies nD τ sig Unit) (W' : Waits sig Unit) :
    iprop(cellInv ER (sched m) κ₁ (sendCell c 13) ∗ cellInv ER (sched m) κ₂ (recvCell (peer c) 13)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} fs)
        ∗ ((rowsM 13).view.loc ((peer c : Dev nD) : Thread nD τ) ↦[(rowsM 13).view.set]{fullShare} fd)
        ∗ owes (c : Thread nD τ) (O + tallyAt (recvCell (peer c) 13) () N) W'
        ∗ dutyTok ER (sendCell c 13) 0 () ∗ reached ER (sendCell c 13) 0
        ∗ dutyTok ER (recvCell (peer c) 13) 0 () ∗ reached ER (recvCell (peer c) 13) 0)
      ⊢ iprop(((cred (tallyAt (sendCell c 13) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024) (.remote (Dev.tc (⟨k0_dev15 c, k0_dev15_lt c⟩ : Dev nD) : Thread nD τ) ((Memref.whole main_v1_1 : Memref sig .tc .hbm S8192x1024 .bf16).slice (Rect.unit (s := S8192x1024) ![6656, 0] S512x1024.size inb_S8192x1024_S512x1024_6656_0) (fun _ => rfl)) (.dma ((cc0_scratch5.slice (Rect.unit (s := S16) ![13] S1.size inb_S16_S1_13)).squeeze S_ squeezes_S1_S_).sem) hsc) (.dma ((cc0_scratch6.slice (Rect.unit (s := S16) ![13] S1.size inb_S16_S1_13)).squeeze S_ squeezes_S1_S_).sem) hsrc hdst hsem) kont) Q') :=
  wp_send_chunk m κ₁ κ₂ c _ (k0_dev15_peer c) 13 1 rfl fs hfs fd O W'

/-- Chunk 14's transfer out of slot 2, the slot held on the whole buffer's location, spelt as the program spells it. -/
theorem send_h_14 (κ₁ κ₂ : ℕ) (c : Dev nD)
    {hsc : (((Memref.whole main_v1_1 : Memref sig .tc .hbm S8192x1024 .bf16).slice (Rect.unit (s := S8192x1024) ![7168, 0] S512x1024.size inb_S8192x1024_S512x1024_7168_0) (fun _ => rfl)) : Memref sig (Dev.tc (⟨k0_dev16 c, k0_dev16_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.WordExact} {hdst : ((Memref.whole main_v1_1 : Memref sig .tc .hbm S8192x1024 .bf16).slice (Rect.unit (s := S8192x1024) ![7168, 0] S512x1024.size inb_S8192x1024_S512x1024_7168_0) (fun _ => rfl)).view.WordExact}
    {hsem : DmaTarget.Typed .vmem (.dma ((cc0_scratch6.slice (Rect.unit (s := S16) ![14] S1.size inb_S16_S1_14)).squeeze S_ squeezes_S1_S_).sem) (.remote (Dev.tc (⟨k0_dev16 c, k0_dev16_lt c⟩ : Dev nD) : Thread nD τ) ((Memref.whole main_v1_1 : Memref sig .tc .hbm S8192x1024 .bf16).slice (Rect.unit (s := S8192x1024) ![7168, 0] S512x1024.size inb_S8192x1024_S512x1024_7168_0) (fun _ => rfl)) (.dma ((cc0_scratch5.slice (Rect.unit (s := S16) ![14] S1.size inb_S16_S1_14)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.read (Elt F) fs = sentChunk m c 14)
    (fd : Buf (Elt F) ((rowsM 14).view.loc ((peer c : Dev nD) : Thread nD τ)))
    (O : CellTallies nD τ sig Unit) (W' : Waits sig Unit) :
    iprop(cellInv ER (sched m) κ₁ (sendCell c 14) ∗ cellInv ER (sched m) κ₂ (recvCell (peer c) 14)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} fs)
        ∗ ((rowsM 14).view.loc ((peer c : Dev nD) : Thread nD τ) ↦[(rowsM 14).view.set]{fullShare} fd)
        ∗ owes (c : Thread nD τ) (O + tallyAt (recvCell (peer c) 14) () N) W'
        ∗ dutyTok ER (sendCell c 14) 0 () ∗ reached ER (sendCell c 14) 0
        ∗ dutyTok ER (recvCell (peer c) 14) 0 () ∗ reached ER (recvCell (peer c) 14) 0)
      ⊢ iprop(((cred (tallyAt (sendCell c 14) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024) (.remote (Dev.tc (⟨k0_dev16 c, k0_dev16_lt c⟩ : Dev nD) : Thread nD τ) ((Memref.whole main_v1_1 : Memref sig .tc .hbm S8192x1024 .bf16).slice (Rect.unit (s := S8192x1024) ![7168, 0] S512x1024.size inb_S8192x1024_S512x1024_7168_0) (fun _ => rfl)) (.dma ((cc0_scratch5.slice (Rect.unit (s := S16) ![14] S1.size inb_S16_S1_14)).squeeze S_ squeezes_S1_S_).sem) hsc) (.dma ((cc0_scratch6.slice (Rect.unit (s := S16) ![14] S1.size inb_S16_S1_14)).squeeze S_ squeezes_S1_S_).sem) hsrc hdst hsem) kont) Q') :=
  wp_send_chunk m κ₁ κ₂ c _ (k0_dev16_peer c) 14 2 rfl fs hfs fd O W'

/-- Chunk 15's transfer out of slot 3, the slot held on the whole buffer's location, spelt as the program spells it. -/
theorem send_h_15 (κ₁ κ₂ : ℕ) (c : Dev nD)
    {hsc : (((Memref.whole main_v1_1 : Memref sig .tc .hbm S8192x1024 .bf16).slice (Rect.unit (s := S8192x1024) ![7680, 0] S512x1024.size inb_S8192x1024_S512x1024_7680_0) (fun _ => rfl)) : Memref sig (Dev.tc (⟨k0_dev17 c, k0_dev17_lt c⟩ : Dev nD) : Thread nD τ).2.kind .hbm S512x1024 .bf16).view.ref.isScScratch = false}
    {hsrc : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.WordExact} {hdst : ((Memref.whole main_v1_1 : Memref sig .tc .hbm S8192x1024 .bf16).slice (Rect.unit (s := S8192x1024) ![7680, 0] S512x1024.size inb_S8192x1024_S512x1024_7680_0) (fun _ => rfl)).view.WordExact}
    {hsem : DmaTarget.Typed .vmem (.dma ((cc0_scratch6.slice (Rect.unit (s := S16) ![15] S1.size inb_S16_S1_15)).squeeze S_ squeezes_S1_S_).sem) (.remote (Dev.tc (⟨k0_dev17 c, k0_dev17_lt c⟩ : Dev nD) : Thread nD τ) ((Memref.whole main_v1_1 : Memref sig .tc .hbm S8192x1024 .bf16).slice (Rect.unit (s := S8192x1024) ![7680, 0] S512x1024.size inb_S8192x1024_S512x1024_7680_0) (fun _ => rfl)) (.dma ((cc0_scratch5.slice (Rect.unit (s := S16) ![15] S1.size inb_S16_S1_15)).squeeze S_ squeezes_S1_S_).sem) hsc)}
    {α : Type} {Q' : α → sProp 𝕄} {kont : PUnit → Prog (TpuEff nD τ sig (Elt F) Λ₀ .tc) α}
    (fs : Buf (Elt F) ((c : Thread nD τ).loc cc0_scratch1)) (hfs : (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.read (Elt F) fs = sentChunk m c 15)
    (fd : Buf (Elt F) ((rowsM 15).view.loc ((peer c : Dev nD) : Thread nD τ)))
    (O : CellTallies nD τ sig Unit) (W' : Waits sig Unit) :
    iprop(cellInv ER (sched m) κ₁ (sendCell c 15) ∗ cellInv ER (sched m) κ₂ (recvCell (peer c) 15)
        ∗ ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} fs)
        ∗ ((rowsM 15).view.loc ((peer c : Dev nD) : Thread nD τ) ↦[(rowsM 15).view.set]{fullShare} fd)
        ∗ owes (c : Thread nD τ) (O + tallyAt (recvCell (peer c) 15) () N) W'
        ∗ dutyTok ER (sendCell c 15) 0 () ∗ reached ER (sendCell c 15) 0
        ∗ dutyTok ER (recvCell (peer c) 15) 0 () ∗ reached ER (recvCell (peer c) 15) 0)
      ⊢ iprop(((cred (tallyAt (sendCell c 15) () N) ∗ owes (c : Thread nD τ) O W') -∗ wp frame (wpE (defs₀ (F := F)) 𝒱₀ (c : Thread nD τ) none) Set.univ (kont ⟨⟩) Q')
          -∗ wp frame (wpE (defs₀ (F := F)) 𝒱₀ (c : Thread nD τ) none) Set.univ
              (.op (.enqueueDma (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024) (.remote (Dev.tc (⟨k0_dev17 c, k0_dev17_lt c⟩ : Dev nD) : Thread nD τ) ((Memref.whole main_v1_1 : Memref sig .tc .hbm S8192x1024 .bf16).slice (Rect.unit (s := S8192x1024) ![7680, 0] S512x1024.size inb_S8192x1024_S512x1024_7680_0) (fun _ => rfl)) (.dma ((cc0_scratch5.slice (Rect.unit (s := S16) ![15] S1.size inb_S16_S1_15)).squeeze S_ squeezes_S1_S_).sem) hsc) (.dma ((cc0_scratch6.slice (Rect.unit (s := S16) ![15] S1.size inb_S16_S1_15)).squeeze S_ squeezes_S1_S_).sem) hsrc hdst hsem) kont) Q') :=
  wp_send_chunk m κ₁ κ₂ c _ (k0_dev17_peer c) 15 3 rfl fs hfs fd O W'

/-! ## The departure cells' payloads, spelt with the slots so held -/

theorem payload_send_h_0 (c : Dev nD) (d : Unit) :
    (sched (F := F) m).payload (sendCell c 0) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 0 d

theorem payload_send_h_1 (c : Dev nD) (d : Unit) :
    (sched (F := F) m).payload (sendCell c 1) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 1 d

theorem payload_send_h_2 (c : Dev nD) (d : Unit) :
    (sched (F := F) m).payload (sendCell c 2) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 2 d

theorem payload_send_h_3 (c : Dev nD) (d : Unit) :
    (sched (F := F) m).payload (sendCell c 3) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 3 d

theorem payload_send_h_4 (c : Dev nD) (d : Unit) :
    (sched (F := F) m).payload (sendCell c 4) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 4 d

theorem payload_send_h_5 (c : Dev nD) (d : Unit) :
    (sched (F := F) m).payload (sendCell c 5) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 5 d

theorem payload_send_h_6 (c : Dev nD) (d : Unit) :
    (sched (F := F) m).payload (sendCell c 6) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 6 d

theorem payload_send_h_7 (c : Dev nD) (d : Unit) :
    (sched (F := F) m).payload (sendCell c 7) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 7 d

theorem payload_send_h_8 (c : Dev nD) (d : Unit) :
    (sched (F := F) m).payload (sendCell c 8) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 8 d

theorem payload_send_h_9 (c : Dev nD) (d : Unit) :
    (sched (F := F) m).payload (sendCell c 9) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 9 d

theorem payload_send_h_10 (c : Dev nD) (d : Unit) :
    (sched (F := F) m).payload (sendCell c 10) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 10 d

theorem payload_send_h_11 (c : Dev nD) (d : Unit) :
    (sched (F := F) m).payload (sendCell c 11) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 11 d

theorem payload_send_h_12 (c : Dev nD) (d : Unit) :
    (sched (F := F) m).payload (sendCell c 12) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f)) : sProp 𝕄) :=
  payload_send m c 12 d

theorem payload_send_h_13 (c : Dev nD) (d : Unit) :
    (sched (F := F) m).payload (sendCell c 13) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f)) : sProp 𝕄) :=
  payload_send m c 13 d

theorem payload_send_h_14 (c : Dev nD) (d : Unit) :
    (sched (F := F) m).payload (sendCell c 14) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f)) : sProp 𝕄) :=
  payload_send m c 14 d

theorem payload_send_h_15 (c : Dev nD) (d : Unit) :
    (sched (F := F) m).payload (sendCell c 15) 0 d
      = (iprop(∃ f : Buf (Elt F) ((c : Thread nD τ).loc cc0_scratch1), ((View.whole cc0_scratch1 : View sig .tc .vmem S4x512x1024 .bf16).loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f)) : sProp 𝕄) :=
  payload_send m c 15 d

/-- info: 'Cert.Kernel.RS.slots_split_h' depends on axioms: [propext, Classical.choice, Quot.sound] -/
#guard_msgs in #print axioms slots_split_h

/-- info: 'Cert.Kernel.RS.slots_join_h' depends on axioms: [propext, Classical.choice, Quot.sound] -/
#guard_msgs in #print axioms slots_join_h

/-- info: 'Cert.Kernel.RS.slot_store_3' depends on axioms: [propext, Classical.choice, Quot.sound] -/
#guard_msgs in #print axioms slot_store_3

/-- info: 'Cert.Kernel.RS.send_h_15' depends on axioms: [propext, Classical.choice, Quot.sound] -/
#guard_msgs in #print axioms send_h_15

/-- info: 'Cert.Kernel.RS.slot_written_chunk_3' depends on axioms: [propext, Classical.choice, Quot.sound] -/
#guard_msgs in #print axioms slot_written_chunk_3

end Cert.Kernel.RS

end
-- ==== Proof.KernelSplit.lean ====
import proofs.«901042_g7700000000001043_dist_rs_v7x_xyz2x4x4_x_m8192_n1024_bf16_1_alg».proof.Proof.KernelSlots

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A double buffer's two slots cover it -/

/-- Every element of a two-slot buffer lies in the slot its leading coordinate names. -/
theorem pair_cover (x : S2x512x1024.Idx) : x ∈ (cvtR ⟨(x 0).val, (x 0).isLt⟩).set := by
  rw [Rect.mem_set_unit]
  intro a
  match a with
  | ⟨0, _⟩ =>
    show (x 0).val ≤ (x 0).val ∧ (x 0).val < (x 0).val + 1
    omega
  | ⟨1, _⟩ =>
    show 0 ≤ (x 1).val ∧ (x 1).val < 0 + 512
    have : (x 1).val < 512 := (x 1).isLt
    omega
  | ⟨2, _⟩ =>
    show 0 ≤ (x 2).val ∧ (x 2).val < 0 + 1024
    have : (x 2).val < 1024 := (x 2).isLt
    omega

/-! ## `cc0_scratch0` held slot by slot -/

/-- The elements of slot `i` of `cc0_scratch0`. -/
abbrev pairSet_scratch0 (i : Fin 2) : Finset S2x512x1024.Idx := (((Memref.whole cc0_scratch0 : Memref sig .tc .vmem S2x512x1024 .f32).slice (Rect.unit (s := S2x512x1024) ![i.val, 0, 0] S1x512x1024.size (cvt_inb i)) (fun _ => rfl)).squeeze S512x1024 squeezes_S1x512x1024_S512x1024).view.set

theorem pairSet_scratch0_eq (i : Fin 2) : pairSet_scratch0 i = (cvtR i).set := by
  show (((View.whole cc0_scratch0).slice (cvtR i)).reshape S512x1024 squeezes_S1x512x1024_S512x1024.numel_eq).set = _
  rw [View.set_reshape, View.set_slice_whole]

theorem pairSet_scratch0_disjoint (i j : Fin 2) (h : i ≠ j) : Disjoint (pairSet_scratch0 i) (pairSet_scratch0 j) := by
  rw [pairSet_scratch0_eq, pairSet_scratch0_eq]
  exact cvt_disjoint i j h

theorem pair_union_scratch0 : (Finset.univ : Finset (Fin 2)).biUnion pairSet_scratch0 = Finset.univ := by
  ext x
  simp only [Finset.mem_biUnion, Finset.mem_univ, true_and, iff_true]
  exact ⟨⟨(x 0).val, (x 0).isLt⟩, by rw [pairSet_scratch0_eq]; exact pair_cover x⟩

/-- `cc0_scratch0`, whole, as its two slots. -/
theorem pair_split_scratch0 (c : Dev nD) (f : Buf (Elt F) ((c : Thread nD τ).loc cc0_scratch0)) :
    ((Memref.whole cc0_scratch0 : Memref sig .tc .vmem S2x512x1024 .f32).view.loc (c : Thread nD τ) ↦[(Memref.whole cc0_scratch0 : Memref sig .tc .vmem S2x512x1024 .f32).view.set]{fullShare} f : sProp 𝕄)
      ⊢ iprop(((((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch0 : Memref sig .tc .vmem S2x512x1024 .f32).view.loc (c : Thread nD τ) ↦[(Memref.whole cc0_scratch0 : Memref sig .tc .vmem S2x512x1024 .f32).view.set]{fullShare} f : sProp 𝕄)
      = (((c : Thread nD τ).loc cc0_scratch0) ↦{fullShare} f) := by
    show ((View.whole cc0_scratch0).loc (c : Thread nD τ) ↦[(View.whole cc0_scratch0).set]{fullShare} f : sProp 𝕄) = _
    rw [View.set_whole]
  have h2 := pointsTo_biUnion (U := UU) (Lvl := ℕ) (Name := ℕ) (Ix := Unit) (ℓ := (c : Thread nD τ).loc cc0_scratch0) (q := fullShare) (f := f)
    (Finset.univ : Finset (Fin 2)) pairSet_scratch0 (fun t _ t' _ h => pairSet_scratch0_disjoint t t' h)
  rw [pair_union_scratch0] at h2
  have h3 := bigSep_univ_eq_bigSepL [(0 : Fin 2), 1] (by decide) (by decide)
    (fun t : Fin 2 => (((c : Thread nD τ).loc cc0_scratch0) ↦[pairSet_scratch0 t]{fullShare} f : sProp 𝕄))
  exact Entails.of_eq (h1.trans (h2.trans h3))

/-- The two slots of `cc0_scratch0`, at whatever contents, are the buffer at some contents. -/
theorem pair_join_scratch0 (c : Dev nD) (g0 g1 : Buf (Elt F) ((c : Thread nD τ).loc cc0_scratch0)) :
    iprop(((((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch0 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch0), ((c : Thread nD τ).loc cc0_scratch0) ↦{fullShare} f) : sProp 𝕄) := by
  have hj := pointsTo_biUnion_join (U := UU) (Lvl := ℕ) (Name := ℕ) (Ix := Unit) (ℓ := (c : Thread nD τ).loc cc0_scratch0) (q := fullShare)
    (Finset.univ : Finset (Fin 2)) pairSet_scratch0 (fun t : Fin 2 => (![g0, g1] : Fin 2 → Buf (Elt F) ((c : Thread nD τ).loc cc0_scratch0)) t) g0
    (fun t _ t' _ h => pairSet_scratch0_disjoint t t' h)
  have h3 := bigSep_univ_eq_bigSepL [(0 : Fin 2), 1] (by decide) (by decide)
    (fun t : Fin 2 => (((c : Thread nD τ).loc cc0_scratch0) ↦[pairSet_scratch0 t]{fullShare} (![g0, g1] : Fin 2 → Buf (Elt F) ((c : Thread nD τ).loc cc0_scratch0)) t : sProp 𝕄))
  refine (Entails.of_eq h3.symm).trans (hj.trans ?_)
  rw [pair_union_scratch0]
  iintro ⟨%f, -, H⟩
  iexists f
  iexact H

/-! ## `cc0_scratch2` held slot by slot -/

/-- The elements of slot `i` of `cc0_scratch2`. -/
abbrev pairSet_scratch2 (i : Fin 2) : Finset S2x512x1024.Idx := (((Memref.whole cc0_scratch2 : Memref sig .tc .vmem S2x512x1024 .f32).slice (Rect.unit (s := S2x512x1024) ![i.val, 0, 0] S1x512x1024.size (cvt_inb i)) (fun _ => rfl)).squeeze S512x1024 squeezes_S1x512x1024_S512x1024).view.set

theorem pairSet_scratch2_eq (i : Fin 2) : pairSet_scratch2 i = (cvtR i).set := by
  show (((View.whole cc0_scratch2).slice (cvtR i)).reshape S512x1024 squeezes_S1x512x1024_S512x1024.numel_eq).set = _
  rw [View.set_reshape, View.set_slice_whole]

theorem pairSet_scratch2_disjoint (i j : Fin 2) (h : i ≠ j) : Disjoint (pairSet_scratch2 i) (pairSet_scratch2 j) := by
  rw [pairSet_scratch2_eq, pairSet_scratch2_eq]
  exact cvt_disjoint i j h

theorem pair_union_scratch2 : (Finset.univ : Finset (Fin 2)).biUnion pairSet_scratch2 = Finset.univ := by
  ext x
  simp only [Finset.mem_biUnion, Finset.mem_univ, true_and, iff_true]
  exact ⟨⟨(x 0).val, (x 0).isLt⟩, by rw [pairSet_scratch2_eq]; exact pair_cover x⟩

/-- `cc0_scratch2`, whole, as its two slots. -/
theorem pair_split_scratch2 (c : Dev nD) (f : Buf (Elt F) ((c : Thread nD τ).loc cc0_scratch2)) :
    ((Memref.whole cc0_scratch2 : Memref sig .tc .vmem S2x512x1024 .f32).view.loc (c : Thread nD τ) ↦[(Memref.whole cc0_scratch2 : Memref sig .tc .vmem S2x512x1024 .f32).view.set]{fullShare} f : sProp 𝕄)
      ⊢ iprop(((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch2 : Memref sig .tc .vmem S2x512x1024 .f32).view.loc (c : Thread nD τ) ↦[(Memref.whole cc0_scratch2 : Memref sig .tc .vmem S2x512x1024 .f32).view.set]{fullShare} f : sProp 𝕄)
      = (((c : Thread nD τ).loc cc0_scratch2) ↦{fullShare} f) := by
    show ((View.whole cc0_scratch2).loc (c : Thread nD τ) ↦[(View.whole cc0_scratch2).set]{fullShare} f : sProp 𝕄) = _
    rw [View.set_whole]
  have h2 := pointsTo_biUnion (U := UU) (Lvl := ℕ) (Name := ℕ) (Ix := Unit) (ℓ := (c : Thread nD τ).loc cc0_scratch2) (q := fullShare) (f := f)
    (Finset.univ : Finset (Fin 2)) pairSet_scratch2 (fun t _ t' _ h => pairSet_scratch2_disjoint t t' h)
  rw [pair_union_scratch2] at h2
  have h3 := bigSep_univ_eq_bigSepL [(0 : Fin 2), 1] (by decide) (by decide)
    (fun t : Fin 2 => (((c : Thread nD τ).loc cc0_scratch2) ↦[pairSet_scratch2 t]{fullShare} f : sProp 𝕄))
  exact Entails.of_eq (h1.trans (h2.trans h3))

/-- The two slots of `cc0_scratch2`, at whatever contents, are the buffer at some contents. -/
theorem pair_join_scratch2 (c : Dev nD) (g0 g1 : Buf (Elt F) ((c : Thread nD τ).loc cc0_scratch2)) :
    iprop(((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch2), ((c : Thread nD τ).loc cc0_scratch2) ↦{fullShare} f) : sProp 𝕄) := by
  have hj := pointsTo_biUnion_join (U := UU) (Lvl := ℕ) (Name := ℕ) (Ix := Unit) (ℓ := (c : Thread nD τ).loc cc0_scratch2) (q := fullShare)
    (Finset.univ : Finset (Fin 2)) pairSet_scratch2 (fun t : Fin 2 => (![g0, g1] : Fin 2 → Buf (Elt F) ((c : Thread nD τ).loc cc0_scratch2)) t) g0
    (fun t _ t' _ h => pairSet_scratch2_disjoint t t' h)
  have h3 := bigSep_univ_eq_bigSepL [(0 : Fin 2), 1] (by decide) (by decide)
    (fun t : Fin 2 => (((c : Thread nD τ).loc cc0_scratch2) ↦[pairSet_scratch2 t]{fullShare} (![g0, g1] : Fin 2 → Buf (Elt F) ((c : Thread nD τ).loc cc0_scratch2)) t : sProp 𝕄))
  refine (Entails.of_eq h3.symm).trans (hj.trans ?_)
  rw [pair_union_scratch2]
  iintro ⟨%f, -, H⟩
  iexists f
  iexact H

/-! ## `cc0_scratch3` held slot by slot -/

/-- The elements of slot `i` of `cc0_scratch3`. -/
abbrev pairSet_scratch3 (i : Fin 2) : Finset S2x512x1024.Idx := (((Memref.whole cc0_scratch3 : Memref sig .tc .vmem S2x512x1024 .bf16).slice (Rect.unit (s := S2x512x1024) ![i.val, 0, 0] S1x512x1024.size (cvt_inb i)) (fun _ => rfl)).squeeze S512x1024 squeezes_S1x512x1024_S512x1024).view.set

theorem pairSet_scratch3_eq (i : Fin 2) : pairSet_scratch3 i = (cvtR i).set := by
  show (((View.whole cc0_scratch3).slice (cvtR i)).reshape S512x1024 squeezes_S1x512x1024_S512x1024.numel_eq).set = _
  rw [View.set_reshape, View.set_slice_whole]

theorem pairSet_scratch3_disjoint (i j : Fin 2) (h : i ≠ j) : Disjoint (pairSet_scratch3 i) (pairSet_scratch3 j) := by
  rw [pairSet_scratch3_eq, pairSet_scratch3_eq]
  exact cvt_disjoint i j h

theorem pair_union_scratch3 : (Finset.univ : Finset (Fin 2)).biUnion pairSet_scratch3 = Finset.univ := by
  ext x
  simp only [Finset.mem_biUnion, Finset.mem_univ, true_and, iff_true]
  exact ⟨⟨(x 0).val, (x 0).isLt⟩, by rw [pairSet_scratch3_eq]; exact pair_cover x⟩

/-- `cc0_scratch3`, whole, as its two slots. -/
theorem pair_split_scratch3 (c : Dev nD) (f : Buf (Elt F) ((c : Thread nD τ).loc cc0_scratch3)) :
    ((Memref.whole cc0_scratch3 : Memref sig .tc .vmem S2x512x1024 .bf16).view.loc (c : Thread nD τ) ↦[(Memref.whole cc0_scratch3 : Memref sig .tc .vmem S2x512x1024 .bf16).view.set]{fullShare} f : sProp 𝕄)
      ⊢ iprop(((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch3 : Memref sig .tc .vmem S2x512x1024 .bf16).view.loc (c : Thread nD τ) ↦[(Memref.whole cc0_scratch3 : Memref sig .tc .vmem S2x512x1024 .bf16).view.set]{fullShare} f : sProp 𝕄)
      = (((c : Thread nD τ).loc cc0_scratch3) ↦{fullShare} f) := by
    show ((View.whole cc0_scratch3).loc (c : Thread nD τ) ↦[(View.whole cc0_scratch3).set]{fullShare} f : sProp 𝕄) = _
    rw [View.set_whole]
  have h2 := pointsTo_biUnion (U := UU) (Lvl := ℕ) (Name := ℕ) (Ix := Unit) (ℓ := (c : Thread nD τ).loc cc0_scratch3) (q := fullShare) (f := f)
    (Finset.univ : Finset (Fin 2)) pairSet_scratch3 (fun t _ t' _ h => pairSet_scratch3_disjoint t t' h)
  rw [pair_union_scratch3] at h2
  have h3 := bigSep_univ_eq_bigSepL [(0 : Fin 2), 1] (by decide) (by decide)
    (fun t : Fin 2 => (((c : Thread nD τ).loc cc0_scratch3) ↦[pairSet_scratch3 t]{fullShare} f : sProp 𝕄))
  exact Entails.of_eq (h1.trans (h2.trans h3))

/-- The two slots of `cc0_scratch3`, at whatever contents, are the buffer at some contents. -/
theorem pair_join_scratch3 (c : Dev nD) (g0 g1 : Buf (Elt F) ((c : Thread nD τ).loc cc0_scratch3)) :
    iprop(((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch3), ((c : Thread nD τ).loc cc0_scratch3) ↦{fullShare} f) : sProp 𝕄) := by
  have hj := pointsTo_biUnion_join (U := UU) (Lvl := ℕ) (Name := ℕ) (Ix := Unit) (ℓ := (c : Thread nD τ).loc cc0_scratch3) (q := fullShare)
    (Finset.univ : Finset (Fin 2)) pairSet_scratch3 (fun t : Fin 2 => (![g0, g1] : Fin 2 → Buf (Elt F) ((c : Thread nD τ).loc cc0_scratch3)) t) g0
    (fun t _ t' _ h => pairSet_scratch3_disjoint t t' h)
  have h3 := bigSep_univ_eq_bigSepL [(0 : Fin 2), 1] (by decide) (by decide)
    (fun t : Fin 2 => (((c : Thread nD τ).loc cc0_scratch3) ↦[pairSet_scratch3 t]{fullShare} (![g0, g1] : Fin 2 → Buf (Elt F) ((c : Thread nD τ).loc cc0_scratch3)) t : sProp 𝕄))
  refine (Entails.of_eq h3.symm).trans (hj.trans ?_)
  rw [pair_union_scratch3]
  iintro ⟨%f, -, H⟩
  iexists f
  iexact H

/-! ## `cc0_scratch4` held slot by slot -/

/-- The elements of slot `i` of `cc0_scratch4`. -/
abbrev pairSet_scratch4 (i : Fin 2) : Finset S2x512x1024.Idx := (((Memref.whole cc0_scratch4 : Memref sig .tc .vmem S2x512x1024 .bf16).slice (Rect.unit (s := S2x512x1024) ![i.val, 0, 0] S1x512x1024.size (cvt_inb i)) (fun _ => rfl)).squeeze S512x1024 squeezes_S1x512x1024_S512x1024).view.set

theorem pairSet_scratch4_eq (i : Fin 2) : pairSet_scratch4 i = (cvtR i).set := by
  show (((View.whole cc0_scratch4).slice (cvtR i)).reshape S512x1024 squeezes_S1x512x1024_S512x1024.numel_eq).set = _
  rw [View.set_reshape, View.set_slice_whole]

theorem pairSet_scratch4_disjoint (i j : Fin 2) (h : i ≠ j) : Disjoint (pairSet_scratch4 i) (pairSet_scratch4 j) := by
  rw [pairSet_scratch4_eq, pairSet_scratch4_eq]
  exact cvt_disjoint i j h

theorem pair_union_scratch4 : (Finset.univ : Finset (Fin 2)).biUnion pairSet_scratch4 = Finset.univ := by
  ext x
  simp only [Finset.mem_biUnion, Finset.mem_univ, true_and, iff_true]
  exact ⟨⟨(x 0).val, (x 0).isLt⟩, by rw [pairSet_scratch4_eq]; exact pair_cover x⟩

/-- `cc0_scratch4`, whole, as its two slots. -/
theorem pair_split_scratch4 (c : Dev nD) (f : Buf (Elt F) ((c : Thread nD τ).loc cc0_scratch4)) :
    ((Memref.whole cc0_scratch4 : Memref sig .tc .vmem S2x512x1024 .bf16).view.loc (c : Thread nD τ) ↦[(Memref.whole cc0_scratch4 : Memref sig .tc .vmem S2x512x1024 .bf16).view.set]{fullShare} f : sProp 𝕄)
      ⊢ iprop(((((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} f)
        ∗ ((((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} f)) := by
  have h1 : ((Memref.whole cc0_scratch4 : Memref sig .tc .vmem S2x512x1024 .bf16).view.loc (c : Thread nD τ) ↦[(Memref.whole cc0_scratch4 : Memref sig .tc .vmem S2x512x1024 .bf16).view.set]{fullShare} f : sProp 𝕄)
      = (((c : Thread nD τ).loc cc0_scratch4) ↦{fullShare} f) := by
    show ((View.whole cc0_scratch4).loc (c : Thread nD τ) ↦[(View.whole cc0_scratch4).set]{fullShare} f : sProp 𝕄) = _
    rw [View.set_whole]
  have h2 := pointsTo_biUnion (U := UU) (Lvl := ℕ) (Name := ℕ) (Ix := Unit) (ℓ := (c : Thread nD τ).loc cc0_scratch4) (q := fullShare) (f := f)
    (Finset.univ : Finset (Fin 2)) pairSet_scratch4 (fun t _ t' _ h => pairSet_scratch4_disjoint t t' h)
  rw [pair_union_scratch4] at h2
  have h3 := bigSep_univ_eq_bigSepL [(0 : Fin 2), 1] (by decide) (by decide)
    (fun t : Fin 2 => (((c : Thread nD τ).loc cc0_scratch4) ↦[pairSet_scratch4 t]{fullShare} f : sProp 𝕄))
  exact Entails.of_eq (h1.trans (h2.trans h3))

/-- The two slots of `cc0_scratch4`, at whatever contents, are the buffer at some contents. -/
theorem pair_join_scratch4 (c : Dev nD) (g0 g1 : Buf (Elt F) ((c : Thread nD τ).loc cc0_scratch4)) :
    iprop(((((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.set]{fullShare} g0)
        ∗ ((((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.loc (c : Thread nD τ) ↦[(((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.set]{fullShare} g1))
      ⊢ (iprop(∃ f : Buf (Elt F) ((c : Thread nD τ).loc cc0_scratch4), ((c : Thread nD τ).loc cc0_scratch4) ↦{fullShare} f) : sProp 𝕄) := by
  have hj := pointsTo_biUnion_join (U := UU) (Lvl := ℕ) (Name := ℕ) (Ix := Unit) (ℓ := (c : Thread nD τ).loc cc0_scratch4) (q := fullShare)
    (Finset.univ : Finset (Fin 2)) pairSet_scratch4 (fun t : Fin 2 => (![g0, g1] : Fin 2 → Buf (Elt F) ((c : Thread nD τ).loc cc0_scratch4)) t) g0
    (fun t _ t' _ h => pairSet_scratch4_disjoint t t' h)
  have h3 := bigSep_univ_eq_bigSepL [(0 : Fin 2), 1] (by decide) (by decide)
    (fun t : Fin 2 => (((c : Thread nD τ).loc cc0_scratch4) ↦[pairSet_scratch4 t]{fullShare} (![g0, g1] : Fin 2 → Buf (Elt F) ((c : Thread nD τ).loc cc0_scratch4)) t : sProp 𝕄))
  refine (Entails.of_eq h3.symm).trans (hj.trans ?_)
  rw [pair_union_scratch4]
  iintro ⟨%f, -, H⟩
  iexists f
  iexact H

/-! ## The result array in sixteen bands -/

/-- The elements of band `k` of the result array. -/
abbrev outSet (k : Fin 16) : Finset S8192x1024.Idx := ((Memref.whole main_v1_0 : Memref sig .tc .hbm S8192x1024 .bf16).slice (Rect.unit (s := S8192x1024) ![512 * k.val, 0] S512x1024.size (rows_inb k)) (fun _ => rfl)).view.set

theorem outSet_eq_band (k : Fin 16) : outSet k = band k :=
  (View.set_slice_whole main_v1_0 _).trans (band_eq k).symm

theorem outSet_disjoint (i j : Fin 16) (h : i ≠ j) : Disjoint (outSet i) (outSet j) := by
  rw [outSet_eq_band, outSet_eq_band]
  exact rows_disjoint i j h

theorem outSet_union : (Finset.univ : Finset (Fin 16)).biUnion outSet = Finset.univ := by
  ext x
  simp only [Finset.mem_biUnion, Finset.mem_univ, true_and, iff_true]
  exact ⟨⟨(x 0).val / 512, row_div_lt x⟩, by rw [outSet_eq_band]; exact rows_cover x⟩

/-- The whole result array, held band by band, each band spelt as the program spells it. -/
theorem bands_split_out (c : Dev nD) (f : Buf (Elt F) ((c : Thread nD τ).loc main_v1_0)) :
    ((Memref.whole main_v1_0 : Memref sig .tc .hbm S8192x1024 .bf16).view.loc (c : Thread nD τ) ↦[(Memref.whole main_v1_0 : Memref sig .tc .hbm S8192x1024 .bf16).view.set]{fullShare} f : sProp 𝕄)
      ⊢ iprop((((Memref.whole main_v1_0 : Memref sig .tc .hbm S8192x1024 .bf16).slice (Rect.unit (s := S8192x1024) ![0, 0] S512x1024.size inb_S8192x1024_S512x1024_0_0) (fun _ => rfl)).view.loc (c : Thread nD τ) ↦[((Memref.whole main_v1_0 : Memref sig .tc .hbm S8192x1024 .bf16).slice (Rect.unit (s := S8192x1024) ![0, 0] S512x1024.size inb_S8192x1024_S512x1024_0_0) (fun _ => rfl)).view.set]{fullShare} f)
        ∗ (((Memref.whole main_v1_0 : Memref sig .tc .hbm S8192x1024 .bf16).slice (Rect.unit (s := S8192x1024) ![512, 0] S512x1024.size inb_S8192x1024_S512x1024_512_0) (fun _ => rfl)).view.loc (c : Thread nD τ) ↦[((Memref.whole main_v1_0 : Memref sig .tc .hbm S8192x1024 .bf16).slice (Rect.unit (s := S8192x1024) ![512, 0] S512x1024.size inb_S8192x1024_S512x1024_512_0) (fun _ => rfl)).view.set]{fullShare} f)
        ∗ (((Memref.whole main_v1_0 : Memref sig .tc .hbm S8192x1024 .bf16).slice (Rect.unit (s := S8192x1024) ![1024, 0] S512x1024.size inb_S8192x1024_S512x1024_1024_0) (fun _ => rfl)).view.loc (c : Thread nD τ) ↦[((Memref.whole main_v1_0 : Memref sig .tc .hbm S8192x1024 .bf16).slice (Rect.unit (s := S8192x1024) ![1024, 0] S512x1024.size inb_S8192x1024_S512x1024_1024_0) (fun _ => rfl)).view.set]{fullShare} f)
        ∗ (((Memref.whole main_v1_0 : Memref sig .tc .hbm S8192x1024 .bf16).slice (Rect.unit (s := S8192x1024) ![1536, 0] S512x1024.size inb_S8192x1024_S512x1024_1536_0) (fun _ => rfl)).view.loc (c : Thread nD τ) ↦[((Memref.whole main_v1_0 : Memref sig .tc .hbm S8192x1024 .bf16).slice (Rect.unit (s := S8192x1024) ![1536, 0] S512x1024.size inb_S8192x1024_S512x1024_1536_0) (fun _ => rfl)).view.set]{fullShare} f)
        ∗ (((Memref.whole main_v1_0 : Memref sig .tc .hbm S8192x1024 .bf16).slice (Rect.unit (s := S8192x1024) ![2048, 0] S512x1024.size inb_S8192x1024_S512x1024_2048_0) (fun _ => rfl)).view.loc (c : Thread nD τ) ↦[((Memref.whole main_v1_0 : Memref sig .tc .hbm S8192x1024 .bf16).slice (Rect.unit (s := S8192x1024) ![2048, 0] S512x1024.size inb_S8192x1024_S512x1024_2048_0) (fun _ => rfl)).view.set]{fullShare} f)
        ∗ (((Memref.whole main_v1_0 : Memref sig .tc .hbm S8192x1024 .bf16).slice (Rect.unit (s := S8192x1024) ![2560, 0] S512x1024.size inb_S8192x1024_S512x1024_2560_0) (fun _ => rfl)).view.loc (c : Thread nD τ) ↦[((Memref.whole main_v1_0 : Memref sig .tc .hbm S8192x1024 .bf16).slice (Rect.unit (s := S8192x1024) ![2560, 0] S512x1024.size inb_S8192x1024_S512x1024_2560_0) (fun _ => rfl)).view.set]{fullShare} f)
        ∗ (((Memref.whole main_v1_0 : Memref sig .tc .hbm S8192x1024 .bf16).slice (Rect.unit (s := S8192x1024) ![3072, 0] S512x1024.size inb_S8192x1024_S512x1024_3072_0) (fun _ => rfl)).view.loc (c : Thread nD τ) ↦[((Memref.whole main_v1_0 : Memref sig .tc .hbm S8192x1024 .bf16).slice (Rect.unit (s := S8192x1024) ![3072, 0] S512x1024.size inb_S8192x1024_S512x1024_3072_0) (fun _ => rfl)).view.set]{fullShare} f)
        ∗ (((Memref.whole main_v1_0 : Memref sig .tc .hbm S8192x1024 .bf16).slice (Rect.unit (s := S8192x1024) ![3584, 0] S512x1024.size inb_S8192x1024_S512x1024_3584_0) (fun _ => rfl)).view.loc (c : Thread nD τ) ↦[((Memref.whole main_v1_0 : Memref sig .tc .hbm S8192x1024 .bf16).slice (Rect.unit (s := S8192x1024) ![3584, 0] S512x1024.size inb_S8192x1024_S512x1024_3584_0) (fun _ => rfl)).view.set]{fullShare} f)
        ∗ (((Memref.whole main_v1_0 : Memref sig .tc .hbm S8192x1024 .bf16).slice (Rect.unit (s := S8192x1024) ![4096, 0] S512x1024.size inb_S8192x1024_S512x1024_4096_0) (fun _ => rfl)).view.loc (c : Thread nD τ) ↦[((Memref.whole main_v1_0 : Memref sig .tc .hbm S8192x1024 .bf16).slice (Rect.unit (s := S8192x1024) ![4096, 0] S512x1024.size inb_S8192x1024_S512x1024_4096_0) (fun _ => rfl)).view.set]{fullShare} f)
        ∗ (((Memref.whole main_v1_0 : Memref sig .tc .hbm S8192x1024 .bf16).slice (Rect.unit (s := S8192x1024) ![4608, 0] S512x1024.size inb_S8192x1024_S512x1024_4608_0) (fun _ => rfl)).view.loc (c : Thread nD τ) ↦[((Memref.whole main_v1_0 : Memref sig .tc .hbm S8192x1024 .bf16).slice (Rect.unit (s := S8192x1024) ![4608, 0] S512x1024.size inb_S8192x1024_S512x1024_4608_0) (fun _ => rfl)).view.set]{fullShare} f)
        ∗ (((Memref.whole main_v1_0 : Memref sig .tc .hbm S8192x1024 .bf16).slice (Rect.unit (s := S8192x1024) ![5120, 0] S512x1024.size inb_S8192x1024_S512x1024_5120_0) (fun _ => rfl)).view.loc (c : Thread nD τ) ↦[((Memref.whole main_v1_0 : Memref sig .tc .hbm S8192x1024 .bf16).slice (Rect.unit (s := S8192x1024) ![5120, 0] S512x1024.size inb_S8192x1024_S512x1024_5120_0) (fun _ => rfl)).view.set]{fullShare} f)
        ∗ (((Memref.whole main_v1_0 : Memref sig .tc .hbm S8192x1024 .bf16).slice (Rect.unit (s := S8192x1024) ![5632, 0] S512x1024.size inb_S8192x1024_S512x1024_5632_0) (fun _ => rfl)).view.loc (c : Thread nD τ) ↦[((Memref.whole main_v1_0 : Memref sig .tc .hbm S8192x1024 .bf16).slice (Rect.unit (s := S8192x1024) ![5632, 0] S512x1024.size inb_S8192x1024_S512x1024_5632_0) (fun _ => rfl)).view.set]{fullShare} f)
        ∗ (((Memref.whole main_v1_0 : Memref sig .tc .hbm S8192x1024 .bf16).slice (Rect.unit (s := S8192x1024) ![6144, 0] S512x1024.size inb_S8192x1024_S512x1024_6144_0) (fun _ => rfl)).view.loc (c : Thread nD τ) ↦[((Memref.whole main_v1_0 : Memref sig .tc .hbm S8192x1024 .bf16).slice (Rect.unit (s := S8192x1024) ![6144, 0] S512x1024.size inb_S8192x1024_S512x1024_6144_0) (fun _ => rfl)).view.set]{fullShare} f)
        ∗ (((Memref.whole main_v1_0 : Memref sig .tc .hbm S8192x1024 .bf16).slice (Rect.unit (s := S8192x1024) ![6656, 0] S512x1024.size inb_S8192x1024_S512x1024_6656_0) (fun _ => rfl)).view.loc (c : Thread nD τ) ↦[((Memref.whole main_v1_0 : Memref sig .tc .hbm S8192x1024 .bf16).slice (Rect.unit (s := S8192x1024) ![6656, 0] S512x1024.size inb_S8192x1024_S512x1024_6656_0) (fun _ => rfl)).view.set]{fullShare} f)
        ∗ (((Memref.whole main_v1_0 : Memref sig .tc .hbm S8192x1024 .bf16).slice (Rect.unit (s := S8192x1024) ![7168, 0] S512x1024.size inb_S8192x1024_S512x1024_7168_0) (fun _ => rfl)).view.loc (c : Thread nD τ) ↦[((Memref.whole main_v1_0 : Memref sig .tc .hbm S8192x1024 .bf16).slice (Rect.unit (s := S8192x1024) ![7168, 0] S512x1024.size inb_S8192x1024_S512x1024_7168_0) (fun _ => rfl)).view.set]{fullShare} f)
        ∗ (((Memref.whole main_v1_0 : Memref sig .tc .hbm S8192x1024 .bf16).slice (Rect.unit (s := S8192x1024) ![7680, 0] S512x1024.size inb_S8192x1024_S512x1024_7680_0) (fun _ => rfl)).view.loc (c : Thread nD τ) ↦[((Memref.whole main_v1_0 : Memref sig .tc .hbm S8192x1024 .bf16).slice (Rect.unit (s := S8192x1024) ![7680, 0] S512x1024.size inb_S8192x1024_S512x1024_7680_0) (fun _ => rfl)).view.set]{fullShare} f)) := by
  have h1 : ((Memref.whole main_v1_0 : Memref sig .tc .hbm S8192x1024 .bf16).view.loc (c : Thread nD τ) ↦[(Memref.whole main_v1_0 : Memref sig .tc .hbm S8192x1024 .bf16).view.set]{fullShare} f : sProp 𝕄)
      = (((c : Thread nD τ).loc main_v1_0) ↦{fullShare} f) := by
    show ((View.whole main_v1_0).loc (c : Thread nD τ) ↦[(View.whole main_v1_0).set]{fullShare} f : sProp 𝕄) = _
    rw [View.set_whole]
  have h2 := pointsTo_biUnion (U := UU) (Lvl := ℕ) (Name := ℕ) (Ix := Unit) (ℓ := (c : Thread nD τ).loc main_v1_0) (q := fullShare) (f := f)
    (Finset.univ : Finset (Fin 16)) outSet (fun t _ t' _ h => outSet_disjoint t t' h)
  rw [outSet_union] at h2
  have h3 := bigSep_univ_eq_bigSepL [(0 : Fin 16), 1, 2, 3, 4, 5, 6, 7, 8, 9, 10, 11, 12, 13, 14, 15] (by decide) (by decide)
    (fun t : Fin 16 => (((c : Thread nD τ).loc main_v1_0) ↦[outSet t]{fullShare} f : sProp 𝕄))
  exact Entails.of_eq (h1.trans (h2.trans h3))

/-- The sixteen bands, each holding the result's closed form on its rows, are the whole result array at that form. -/
theorem bands_join_out (c : Dev nD) (g0 g1 g2 g3 g4 g5 g6 g7 g8 g9 g10 g11 g12 g13 g14 g15 : Buf (Elt F) ((c : Thread nD τ).loc main_v1_0))
    (h0 : ∀ i ∈ ((Memref.whole main_v1_0 : Memref sig .tc .hbm S8192x1024 .bf16).slice (Rect.unit (s := S8192x1024) ![0, 0] S512x1024.size inb_S8192x1024_S512x1024_0_0) (fun _ => rfl)).view.set, g0 i = outFull m c i)
    (h1 : ∀ i ∈ ((Memref.whole main_v1_0 : Memref sig .tc .hbm S8192x1024 .bf16).slice (Rect.unit (s := S8192x1024) ![512, 0] S512x1024.size inb_S8192x1024_S512x1024_512_0) (fun _ => rfl)).view.set, g1 i = outFull m c i)
    (h2 : ∀ i ∈ ((Memref.whole main_v1_0 : Memref sig .tc .hbm S8192x1024 .bf16).slice (Rect.unit (s := S8192x1024) ![1024, 0] S512x1024.size inb_S8192x1024_S512x1024_1024_0) (fun _ => rfl)).view.set, g2 i = outFull m c i)
    (h3 : ∀ i ∈ ((Memref.whole main_v1_0 : Memref sig .tc .hbm S8192x1024 .bf16).slice (Rect.unit (s := S8192x1024) ![1536, 0] S512x1024.size inb_S8192x1024_S512x1024_1536_0) (fun _ => rfl)).view.set, g3 i = outFull m c i)
    (h4 : ∀ i ∈ ((Memref.whole main_v1_0 : Memref sig .tc .hbm S8192x1024 .bf16).slice (Rect.unit (s := S8192x1024) ![2048, 0] S512x1024.size inb_S8192x1024_S512x1024_2048_0) (fun _ => rfl)).view.set, g4 i = outFull m c i)
    (h5 : ∀ i ∈ ((Memref.whole main_v1_0 : Memref sig .tc .hbm S8192x1024 .bf16).slice (Rect.unit (s := S8192x1024) ![2560, 0] S512x1024.size inb_S8192x1024_S512x1024_2560_0) (fun _ => rfl)).view.set, g5 i = outFull m c i)
    (h6 : ∀ i ∈ ((Memref.whole main_v1_0 : Memref sig .tc .hbm S8192x1024 .bf16).slice (Rect.unit (s := S8192x1024) ![3072, 0] S512x1024.size inb_S8192x1024_S512x1024_3072_0) (fun _ => rfl)).view.set, g6 i = outFull m c i)
    (h7 : ∀ i ∈ ((Memref.whole main_v1_0 : Memref sig .tc .hbm S8192x1024 .bf16).slice (Rect.unit (s := S8192x1024) ![3584, 0] S512x1024.size inb_S8192x1024_S512x1024_3584_0) (fun _ => rfl)).view.set, g7 i = outFull m c i)
    (h8 : ∀ i ∈ ((Memref.whole main_v1_0 : Memref sig .tc .hbm S8192x1024 .bf16).slice (Rect.unit (s := S8192x1024) ![4096, 0] S512x1024.size inb_S8192x1024_S512x1024_4096_0) (fun _ => rfl)).view.set, g8 i = outFull m c i)
    (h9 : ∀ i ∈ ((Memref.whole main_v1_0 : Memref sig .tc .hbm S8192x1024 .bf16).slice (Rect.unit (s := S8192x1024) ![4608, 0] S512x1024.size inb_S8192x1024_S512x1024_4608_0) (fun _ => rfl)).view.set, g9 i = outFull m c i)
    (h10 : ∀ i ∈ ((Memref.whole main_v1_0 : Memref sig .tc .hbm S8192x1024 .bf16).slice (Rect.unit (s := S8192x1024) ![5120, 0] S512x1024.size inb_S8192x1024_S512x1024_5120_0) (fun _ => rfl)).view.set, g10 i = outFull m c i)
    (h11 : ∀ i ∈ ((Memref.whole main_v1_0 : Memref sig .tc .hbm S8192x1024 .bf16).slice (Rect.unit (s := S8192x1024) ![5632, 0] S512x1024.size inb_S8192x1024_S512x1024_5632_0) (fun _ => rfl)).view.set, g11 i = outFull m c i)
    (h12 : ∀ i ∈ ((Memref.whole main_v1_0 : Memref sig .tc .hbm S8192x1024 .bf16).slice (Rect.unit (s := S8192x1024) ![6144, 0] S512x1024.size inb_S8192x1024_S512x1024_6144_0) (fun _ => rfl)).view.set, g12 i = outFull m c i)
    (h13 : ∀ i ∈ ((Memref.whole main_v1_0 : Memref sig .tc .hbm S8192x1024 .bf16).slice (Rect.unit (s := S8192x1024) ![6656, 0] S512x1024.size inb_S8192x1024_S512x1024_6656_0) (fun _ => rfl)).view.set, g13 i = outFull m c i)
    (h14 : ∀ i ∈ ((Memref.whole main_v1_0 : Memref sig .tc .hbm S8192x1024 .bf16).slice (Rect.unit (s := S8192x1024) ![7168, 0] S512x1024.size inb_S8192x1024_S512x1024_7168_0) (fun _ => rfl)).view.set, g14 i = outFull m c i)
    (h15 : ∀ i ∈ ((Memref.whole main_v1_0 : Memref sig .tc .hbm S8192x1024 .bf16).slice (Rect.unit (s := S8192x1024) ![7680, 0] S512x1024.size inb_S8192x1024_S512x1024_7680_0) (fun _ => rfl)).view.set, g15 i = outFull m c i) :
    iprop((((Memref.whole main_v1_0 : Memref sig .tc .hbm S8192x1024 .bf16).slice (Rect.unit (s := S8192x1024) ![0, 0] S512x1024.size inb_S8192x1024_S512x1024_0_0) (fun _ => rfl)).view.loc (c : Thread nD τ) ↦[((Memref.whole main_v1_0 : Memref sig .tc .hbm S8192x1024 .bf16).slice (Rect.unit (s := S8192x1024) ![0, 0] S512x1024.size inb_S8192x1024_S512x1024_0_0) (fun _ => rfl)).view.set]{fullShare} g0)
        ∗ (((Memref.whole main_v1_0 : Memref sig .tc .hbm S8192x1024 .bf16).slice (Rect.unit (s := S8192x1024) ![512, 0] S512x1024.size inb_S8192x1024_S512x1024_512_0) (fun _ => rfl)).view.loc (c : Thread nD τ) ↦[((Memref.whole main_v1_0 : Memref sig .tc .hbm S8192x1024 .bf16).slice (Rect.unit (s := S8192x1024) ![512, 0] S512x1024.size inb_S8192x1024_S512x1024_512_0) (fun _ => rfl)).view.set]{fullShare} g1)
        ∗ (((Memref.whole main_v1_0 : Memref sig .tc .hbm S8192x1024 .bf16).slice (Rect.unit (s := S8192x1024) ![1024, 0] S512x1024.size inb_S8192x1024_S512x1024_1024_0) (fun _ => rfl)).view.loc (c : Thread nD τ) ↦[((Memref.whole main_v1_0 : Memref sig .tc .hbm S8192x1024 .bf16).slice (Rect.unit (s := S8192x1024) ![1024, 0] S512x1024.size inb_S8192x1024_S512x1024_1024_0) (fun _ => rfl)).view.set]{fullShare} g2)
        ∗ (((Memref.whole main_v1_0 : Memref sig .tc .hbm S8192x1024 .bf16).slice (Rect.unit (s := S8192x1024) ![1536, 0] S512x1024.size inb_S8192x1024_S512x1024_1536_0) (fun _ => rfl)).view.loc (c : Thread nD τ) ↦[((Memref.whole main_v1_0 : Memref sig .tc .hbm S8192x1024 .bf16).slice (Rect.unit (s := S8192x1024) ![1536, 0] S512x1024.size inb_S8192x1024_S512x1024_1536_0) (fun _ => rfl)).view.set]{fullShare} g3)
        ∗ (((Memref.whole main_v1_0 : Memref sig .tc .hbm S8192x1024 .bf16).slice (Rect.unit (s := S8192x1024) ![2048, 0] S512x1024.size inb_S8192x1024_S512x1024_2048_0) (fun _ => rfl)).view.loc (c : Thread nD τ) ↦[((Memref.whole main_v1_0 : Memref sig .tc .hbm S8192x1024 .bf16).slice (Rect.unit (s := S8192x1024) ![2048, 0] S512x1024.size inb_S8192x1024_S512x1024_2048_0) (fun _ => rfl)).view.set]{fullShare} g4)
        ∗ (((Memref.whole main_v1_0 : Memref sig .tc .hbm S8192x1024 .bf16).slice (Rect.unit (s := S8192x1024) ![2560, 0] S512x1024.size inb_S8192x1024_S512x1024_2560_0) (fun _ => rfl)).view.loc (c : Thread nD τ) ↦[((Memref.whole main_v1_0 : Memref sig .tc .hbm S8192x1024 .bf16).slice (Rect.unit (s := S8192x1024) ![2560, 0] S512x1024.size inb_S8192x1024_S512x1024_2560_0) (fun _ => rfl)).view.set]{fullShare} g5)
        ∗ (((Memref.whole main_v1_0 : Memref sig .tc .hbm S8192x1024 .bf16).slice (Rect.unit (s := S8192x1024) ![3072, 0] S512x1024.size inb_S8192x1024_S512x1024_3072_0) (fun _ => rfl)).view.loc (c : Thread nD τ) ↦[((Memref.whole main_v1_0 : Memref sig .tc .hbm S8192x1024 .bf16).slice (Rect.unit (s := S8192x1024) ![3072, 0] S512x1024.size inb_S8192x1024_S512x1024_3072_0) (fun _ => rfl)).view.set]{fullShare} g6)
        ∗ (((Memref.whole main_v1_0 : Memref sig .tc .hbm S8192x1024 .bf16).slice (Rect.unit (s := S8192x1024) ![3584, 0] S512x1024.size inb_S8192x1024_S512x1024_3584_0) (fun _ => rfl)).view.loc (c : Thread nD τ) ↦[((Memref.whole main_v1_0 : Memref sig .tc .hbm S8192x1024 .bf16).slice (Rect.unit (s := S8192x1024) ![3584, 0] S512x1024.size inb_S8192x1024_S512x1024_3584_0) (fun _ => rfl)).view.set]{fullShare} g7)
        ∗ (((Memref.whole main_v1_0 : Memref sig .tc .hbm S8192x1024 .bf16).slice (Rect.unit (s := S8192x1024) ![4096, 0] S512x1024.size inb_S8192x1024_S512x1024_4096_0) (fun _ => rfl)).view.loc (c : Thread nD τ) ↦[((Memref.whole main_v1_0 : Memref sig .tc .hbm S8192x1024 .bf16).slice (Rect.unit (s := S8192x1024) ![4096, 0] S512x1024.size inb_S8192x1024_S512x1024_4096_0) (fun _ => rfl)).view.set]{fullShare} g8)
        ∗ (((Memref.whole main_v1_0 : Memref sig .tc .hbm S8192x1024 .bf16).slice (Rect.unit (s := S8192x1024) ![4608, 0] S512x1024.size inb_S8192x1024_S512x1024_4608_0) (fun _ => rfl)).view.loc (c : Thread nD τ) ↦[((Memref.whole main_v1_0 : Memref sig .tc .hbm S8192x1024 .bf16).slice (Rect.unit (s := S8192x1024) ![4608, 0] S512x1024.size inb_S8192x1024_S512x1024_4608_0) (fun _ => rfl)).view.set]{fullShare} g9)
        ∗ (((Memref.whole main_v1_0 : Memref sig .tc .hbm S8192x1024 .bf16).slice (Rect.unit (s := S8192x1024) ![5120, 0] S512x1024.size inb_S8192x1024_S512x1024_5120_0) (fun _ => rfl)).view.loc (c : Thread nD τ) ↦[((Memref.whole main_v1_0 : Memref sig .tc .hbm S8192x1024 .bf16).slice (Rect.unit (s := S8192x1024) ![5120, 0] S512x1024.size inb_S8192x1024_S512x1024_5120_0) (fun _ => rfl)).view.set]{fullShare} g10)
        ∗ (((Memref.whole main_v1_0 : Memref sig .tc .hbm S8192x1024 .bf16).slice (Rect.unit (s := S8192x1024) ![5632, 0] S512x1024.size inb_S8192x1024_S512x1024_5632_0) (fun _ => rfl)).view.loc (c : Thread nD τ) ↦[((Memref.whole main_v1_0 : Memref sig .tc .hbm S8192x1024 .bf16).slice (Rect.unit (s := S8192x1024) ![5632, 0] S512x1024.size inb_S8192x1024_S512x1024_5632_0) (fun _ => rfl)).view.set]{fullShare} g11)
        ∗ (((Memref.whole main_v1_0 : Memref sig .tc .hbm S8192x1024 .bf16).slice (Rect.unit (s := S8192x1024) ![6144, 0] S512x1024.size inb_S8192x1024_S512x1024_6144_0) (fun _ => rfl)).view.loc (c : Thread nD τ) ↦[((Memref.whole main_v1_0 : Memref sig .tc .hbm S8192x1024 .bf16).slice (Rect.unit (s := S8192x1024) ![6144, 0] S512x1024.size inb_S8192x1024_S512x1024_6144_0) (fun _ => rfl)).view.set]{fullShare} g12)
        ∗ (((Memref.whole main_v1_0 : Memref sig .tc .hbm S8192x1024 .bf16).slice (Rect.unit (s := S8192x1024) ![6656, 0] S512x1024.size inb_S8192x1024_S512x1024_6656_0) (fun _ => rfl)).view.loc (c : Thread nD τ) ↦[((Memref.whole main_v1_0 : Memref sig .tc .hbm S8192x1024 .bf16).slice (Rect.unit (s := S8192x1024) ![6656, 0] S512x1024.size inb_S8192x1024_S512x1024_6656_0) (fun _ => rfl)).view.set]{fullShare} g13)
        ∗ (((Memref.whole main_v1_0 : Memref sig .tc .hbm S8192x1024 .bf16).slice (Rect.unit (s := S8192x1024) ![7168, 0] S512x1024.size inb_S8192x1024_S512x1024_7168_0) (fun _ => rfl)).view.loc (c : Thread nD τ) ↦[((Memref.whole main_v1_0 : Memref sig .tc .hbm S8192x1024 .bf16).slice (Rect.unit (s := S8192x1024) ![7168, 0] S512x1024.size inb_S8192x1024_S512x1024_7168_0) (fun _ => rfl)).view.set]{fullShare} g14)
        ∗ (((Memref.whole main_v1_0 : Memref sig .tc .hbm S8192x1024 .bf16).slice (Rect.unit (s := S8192x1024) ![7680, 0] S512x1024.size inb_S8192x1024_S512x1024_7680_0) (fun _ => rfl)).view.loc (c : Thread nD τ) ↦[((Memref.whole main_v1_0 : Memref sig .tc .hbm S8192x1024 .bf16).slice (Rect.unit (s := S8192x1024) ![7680, 0] S512x1024.size inb_S8192x1024_S512x1024_7680_0) (fun _ => rfl)).view.set]{fullShare} g15))
      ⊢ ((((c : Thread nD τ).loc main_v1_0) ↦{fullShare} outFull m c) : sProp 𝕄) := by
  rw [pointsTo_congr (ℓ := ((Memref.whole main_v1_0 : Memref sig .tc .hbm S8192x1024 .bf16).slice (Rect.unit (s := S8192x1024) ![0, 0] S512x1024.size inb_S8192x1024_S512x1024_0_0) (fun _ => rfl)).view.loc (c : Thread nD τ)) (q := fullShare) h0,
    pointsTo_congr (ℓ := ((Memref.whole main_v1_0 : Memref sig .tc .hbm S8192x1024 .bf16).slice (Rect.unit (s := S8192x1024) ![512, 0] S512x1024.size inb_S8192x1024_S512x1024_512_0) (fun _ => rfl)).view.loc (c : Thread nD τ)) (q := fullShare) h1,
    pointsTo_congr (ℓ := ((Memref.whole main_v1_0 : Memref sig .tc .hbm S8192x1024 .bf16).slice (Rect.unit (s := S8192x1024) ![1024, 0] S512x1024.size inb_S8192x1024_S512x1024_1024_0) (fun _ => rfl)).view.loc (c : Thread nD τ)) (q := fullShare) h2,
    pointsTo_congr (ℓ := ((Memref.whole main_v1_0 : Memref sig .tc .hbm S8192x1024 .bf16).slice (Rect.unit (s := S8192x1024) ![1536, 0] S512x1024.size inb_S8192x1024_S512x1024_1536_0) (fun _ => rfl)).view.loc (c : Thread nD τ)) (q := fullShare) h3,
    pointsTo_congr (ℓ := ((Memref.whole main_v1_0 : Memref sig .tc .hbm S8192x1024 .bf16).slice (Rect.unit (s := S8192x1024) ![2048, 0] S512x1024.size inb_S8192x1024_S512x1024_2048_0) (fun _ => rfl)).view.loc (c : Thread nD τ)) (q := fullShare) h4,
    pointsTo_congr (ℓ := ((Memref.whole main_v1_0 : Memref sig .tc .hbm S8192x1024 .bf16).slice (Rect.unit (s := S8192x1024) ![2560, 0] S512x1024.size inb_S8192x1024_S512x1024_2560_0) (fun _ => rfl)).view.loc (c : Thread nD τ)) (q := fullShare) h5,
    pointsTo_congr (ℓ := ((Memref.whole main_v1_0 : Memref sig .tc .hbm S8192x1024 .bf16).slice (Rect.unit (s := S8192x1024) ![3072, 0] S512x1024.size inb_S8192x1024_S512x1024_3072_0) (fun _ => rfl)).view.loc (c : Thread nD τ)) (q := fullShare) h6,
    pointsTo_congr (ℓ := ((Memref.whole main_v1_0 : Memref sig .tc .hbm S8192x1024 .bf16).slice (Rect.unit (s := S8192x1024) ![3584, 0] S512x1024.size inb_S8192x1024_S512x1024_3584_0) (fun _ => rfl)).view.loc (c : Thread nD τ)) (q := fullShare) h7,
    pointsTo_congr (ℓ := ((Memref.whole main_v1_0 : Memref sig .tc .hbm S8192x1024 .bf16).slice (Rect.unit (s := S8192x1024) ![4096, 0] S512x1024.size inb_S8192x1024_S512x1024_4096_0) (fun _ => rfl)).view.loc (c : Thread nD τ)) (q := fullShare) h8,
    pointsTo_congr (ℓ := ((Memref.whole main_v1_0 : Memref sig .tc .hbm S8192x1024 .bf16).slice (Rect.unit (s := S8192x1024) ![4608, 0] S512x1024.size inb_S8192x1024_S512x1024_4608_0) (fun _ => rfl)).view.loc (c : Thread nD τ)) (q := fullShare) h9,
    pointsTo_congr (ℓ := ((Memref.whole main_v1_0 : Memref sig .tc .hbm S8192x1024 .bf16).slice (Rect.unit (s := S8192x1024) ![5120, 0] S512x1024.size inb_S8192x1024_S512x1024_5120_0) (fun _ => rfl)).view.loc (c : Thread nD τ)) (q := fullShare) h10,
    pointsTo_congr (ℓ := ((Memref.whole main_v1_0 : Memref sig .tc .hbm S8192x1024 .bf16).slice (Rect.unit (s := S8192x1024) ![5632, 0] S512x1024.size inb_S8192x1024_S512x1024_5632_0) (fun _ => rfl)).view.loc (c : Thread nD τ)) (q := fullShare) h11,
    pointsTo_congr (ℓ := ((Memref.whole main_v1_0 : Memref sig .tc .hbm S8192x1024 .bf16).slice (Rect.unit (s := S8192x1024) ![6144, 0] S512x1024.size inb_S8192x1024_S512x1024_6144_0) (fun _ => rfl)).view.loc (c : Thread nD τ)) (q := fullShare) h12,
    pointsTo_congr (ℓ := ((Memref.whole main_v1_0 : Memref sig .tc .hbm S8192x1024 .bf16).slice (Rect.unit (s := S8192x1024) ![6656, 0] S512x1024.size inb_S8192x1024_S512x1024_6656_0) (fun _ => rfl)).view.loc (c : Thread nD τ)) (q := fullShare) h13,
    pointsTo_congr (ℓ := ((Memref.whole main_v1_0 : Memref sig .tc .hbm S8192x1024 .bf16).slice (Rect.unit (s := S8192x1024) ![7168, 0] S512x1024.size inb_S8192x1024_S512x1024_7168_0) (fun _ => rfl)).view.loc (c : Thread nD τ)) (q := fullShare) h14,
    pointsTo_congr (ℓ := ((Memref.whole main_v1_0 : Memref sig .tc .hbm S8192x1024 .bf16).slice (Rect.unit (s := S8192x1024) ![7680, 0] S512x1024.size inb_S8192x1024_S512x1024_7680_0) (fun _ => rfl)).view.loc (c : Thread nD τ)) (q := fullShare) h15]
  have h2 := pointsTo_biUnion (U := UU) (Lvl := ℕ) (Name := ℕ) (Ix := Unit) (ℓ := (c : Thread nD τ).loc main_v1_0) (q := fullShare) (f := outFull m c)
    (Finset.univ : Finset (Fin 16)) outSet (fun t _ t' _ h => outSet_disjoint t t' h)
  rw [outSet_union] at h2
  have h3 := bigSep_univ_eq_bigSepL [(0 : Fin 16), 1, 2, 3, 4, 5, 6, 7, 8, 9, 10, 11, 12, 13, 14, 15] (by decide) (by decide)
    (fun t : Fin 16 => (((c : Thread nD τ).loc main_v1_0) ↦[outSet t]{fullShare} outFull m c : sProp 𝕄))
  exact Entails.of_eq (h2.trans h3).symm

/-- info: 'Cert.Kernel.RS.pair_split_scratch0' depends on axioms: [propext, Classical.choice, Quot.sound] -/
#guard_msgs in #print axioms pair_split_scratch0

/-- info: 'Cert.Kernel.RS.pair_join_scratch4' depends on axioms: [propext, Classical.choice, Quot.sound] -/
#guard_msgs in #print axioms pair_join_scratch4

/-- info: 'Cert.Kernel.RS.bands_split_out' depends on axioms: [propext, Classical.choice, Quot.sound] -/
#guard_msgs in #print axioms bands_split_out

/-- info: 'Cert.Kernel.RS.bands_join_out' depends on axioms: [propext, Classical.choice, Quot.sound] -/
#guard_msgs in #print axioms bands_join_out

end Cert.Kernel.RS

end
-- ==== Proof.KernelListed.lean ====
import proofs.«901042_g7700000000001043_dist_rs_v7x_xyz2x4x4_x_m8192_n1024_bf16_1_alg».proof.Proof.KernelChunk
import Idealize.ShloMosaic.Lib.Exec.Geometry

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A conversion slot held on its own, filled by a listed whole-slot write -/

section Generic
variable {sg : RefSig} {κ : Kind} {sp : Space} {e : EltTy} {Val : EltTy → Type}

/-- A block whose 512 × 1024 view was last filled whole, read through the block itself at (u, a, b): the filling's entry (a, b), whatever was written before. -/
theorem read_listed_squeezed (u : View sg κ sp S1x512x1024 e) (h : S512x1024.numel = S1x512x1024.numel) (g : u.ty.Contents Val)
    (L : List (View.Piece Val S512x1024 e)) (d : S512x1024.Idx → Val e) (u0 : Fin 1) (a : Fin 512) (b : Fin 1024) :
    u.read Val ((u.reshape S512x1024 h).writes Val g (⟨Rect.whole S512x1024, d⟩ :: L)) (ix3 u0 a b) = d (ix2 a b) := by
  rw [← View.write_univ_eq_writes_whole]
  exact read_write_squeezed u h _ d u0 a b

end Generic

/-- A load of conversion slot `i` through the whole buffer, the slot last filled whole by a transfer: the transfer's values. -/
theorem cvt_load_listed (i : Fin 2) (h : S512x1024.numel = S1x512x1024.numel) (g : Buf (Elt F) (((0 : Dev nD) : Thread nD τ).loc cc0_scratch0))
    (L : List (View.Piece (Elt F) S512x1024 .f32)) (d : S512x1024.Idx → F .f32) (u0 : Fin 1) (a : Fin 512) (b : Fin 1024) :
    View.readAt (Elt F) (Memref.whole cc0_scratch0).view (cvtR i).toLoadRect
        ((((Memref.whole cc0_scratch0).view.slice (cvtR i)).reshape S512x1024 h).writes (Elt F) g (⟨Rect.whole S512x1024, d⟩ :: L)) (ix3 u0 a b)
      = d (ix2 a b) :=
  read_listed_squeezed ((Memref.whole cc0_scratch0).view.slice (cvtR i)) h g L d u0 a b

/-- info: 'Cert.Kernel.RS.cvt_load_listed' depends on axioms: [propext, Classical.choice, Quot.sound] -/
#guard_msgs in #print axioms cvt_load_listed

end Cert.Kernel.RS

end
-- ==== Proof.KernelOut.lean ====
import proofs.«901042_g7700000000001043_dist_rs_v7x_xyz2x4x4_x_m8192_n1024_bf16_1_alg».proof.Proof.KernelChunk

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The result array in sixteen bands of 512 rows -/

/-- Band `k` of the result array: rows `512 k …`, all columns. -/
abbrev outM (k : Fin 16) : Memref sig .tc .hbm S512x1024 .bf16 :=
  (Memref.whole main_v1_0).slice (Rect.unit (s := S8192x1024) ![512 * k.val, 0] S512x1024.size (rows_inb k)) (fun _ => rfl)

theorem outBand_eq (k : Fin 16) :
    (outM k).view.set = (Rect.unit (s := S8192x1024) ![512 * k.val, 0] S512x1024.size (rows_inb k)).set :=
  View.set_slice_whole main_v1_0 _

/-- Two different bands share no row. -/
theorem out_disjoint (i j : Fin 16) (h : i ≠ j) : Disjoint (outM i).view.set (outM j).view.set := by
  rw [outBand_eq, outBand_eq]
  refine Rect.unit_disjoint (0 : Fin 2) ?_
  show 512 * i.val + 512 ≤ 512 * j.val ∨ 512 * j.val + 512 ≤ 512 * i.val
  have : i.val ≠ j.val := fun e => h (Fin.ext e)
  omega

/-- Every element of the result array is an element of the band of its row. -/
theorem out_cover (i : S8192x1024.Idx) : ∃ (k : Fin 16) (y : S512x1024.Idx), (outM k).view.emb y = i := by
  have h0 : (i 0).val < 8192 := (i 0).isLt
  have h1 : (i 1).val < 1024 := (i 1).isLt
  refine ⟨⟨(i 0).val / 512, by omega⟩, ix2 (⟨(i 0).val - 512 * ((i 0).val / 512), by omega⟩ : Fin 512) (⟨(i 1).val, h1⟩ : Fin 1024), ?_⟩
  funext d
  refine Fin.ext ?_
  match d with
  | ⟨0, _⟩ =>
    show 512 * ((i 0).val / 512) + 1 * ((i 0).val - 512 * ((i 0).val / 512)) = (i 0).val
    omega
  | ⟨1, _⟩ =>
    show 0 + 1 * (i 1).val = (i 1).val
    omega

/-! ## What the result array is to hold, band by band -/

/-- Band `k` of device `c`'s result: rows `512 k …` of its own slab plus what it received there, on its half of the columns, rounded. -/
def outChunk (c : Dev nD) (k : Fin 16) : S512x1024.Idx → F .bf16 := fun y =>
  outFull m c (ix2 (⟨512 * k.val + (y 0).val, chunk_row_lt k y⟩ : Fin 8192) (⟨(y 1).val, (y 1).isLt⟩ : Fin 1024))

/-- Entry `y` of band `k`, spelt out. -/
theorem outChunk_apply (c : Dev nD) (k : Fin 16) (y : S512x1024.Idx) :
    outChunk m c k y
      = tr (FloatOps.addf (xarr m c (ix3 (⟨0, by decide⟩ : Fin 1) (⟨512 * k.val + (y 0).val, chunk_row_lt k y⟩ : Fin 8192) (⟨col c + (y 1).val, chunk_col_lt c y⟩ : Fin 2048)))
          (ex (recvFull m c (ix2 (⟨512 * k.val + (y 0).val, chunk_row_lt k y⟩ : Fin 8192) (⟨(y 1).val, (y 1).isLt⟩ : Fin 1024))))) := rfl

/-- The same at row `a` and column `b` of the band. -/
theorem outChunk_ix2 (c : Dev nD) (k : Fin 16) (a : Fin 512) (b : Fin 1024) :
    outChunk m c k (ix2 a b)
      = tr (FloatOps.addf (xarr m c (ix3 (⟨0, by decide⟩ : Fin 1) (⟨512 * k.val + a.val, chunk_row_lt k (ix2 a b)⟩ : Fin 8192) (⟨col c + b.val, chunk_col_lt c (ix2 a b)⟩ : Fin 2048)))
          (ex (recvFull m c (ix2 (⟨512 * k.val + a.val, chunk_row_lt k (ix2 a b)⟩ : Fin 8192) (⟨b.val, b.isLt⟩ : Fin 1024))))) := rfl

/-- Band `k`'s contents are the result's at the band's elements. -/
theorem outChunk_emb (c : Dev nD) (k : Fin 16) (y : S512x1024.Idx) : outChunk m c k y = outFull m c ((outM k).view.emb y) := by
  unfold outChunk
  refine congrArg (outFull m c) (funext fun d => Fin.ext ?_)
  match d with
  | ⟨0, _⟩ =>
    show 512 * k.val + (y 0).val = 512 * k.val + 1 * (y 0).val
    omega
  | ⟨1, _⟩ =>
    show (y 1).val = 0 + 1 * (y 1).val
    omega

/-! ## Sixteen writes, one a band -/

/-- The array after the bands listed in `l` were written over `f`, the head of the list last, band `k` with `P k`. -/
def bandWrites (c : Dev nD) (f : Buf (Elt F) ((c : Thread nD τ).loc main_v1_0)) (P : Fin 16 → S512x1024.Idx → F .bf16) :
    List (Fin 16) → Buf (Elt F) ((c : Thread nD τ).loc main_v1_0)
  | [] => f
  | k :: l => (outM k).view.write (Elt F) (bandWrites c f P l) (P k) Finset.univ

/-- At an element of a band that was written once, the array holds that band's payload: the later writes go to other bands. -/
theorem bandWrites_at (c : Dev nD) (f : Buf (Elt F) ((c : Thread nD τ).loc main_v1_0)) (P : Fin 16 → S512x1024.Idx → F .bf16) :
    ∀ l : List (Fin 16), l.Nodup → ∀ k ∈ l, ∀ y : S512x1024.Idx, bandWrites c f P l ((outM k).view.emb y) = P k y := by
  intro l
  induction l with
  | nil => intro _ k hk; exact absurd hk (List.not_mem_nil)
  | cons j l ih =>
    intro hnd k hk y
    rw [List.nodup_cons] at hnd
    show (outM j).view.write (Elt F) (bandWrites c f P l) (P j) Finset.univ ((outM k).view.emb y) = P k y
    rcases List.mem_cons.mp hk with hkj | hk'
    · subst hkj
      rw [View.write_emb_of_mem _ _ (Finset.mem_univ y)]
      rfl
    · have hne : k ≠ j := fun e => hnd.1 (e ▸ hk')
      rw [View.write_of_not_mem _ _ _ (by
        rw [View.setOn_univ]
        exact fun hmem => Finset.disjoint_left.mp (out_disjoint k j hne) (View.emb_mem_set _ y) hmem)]
      exact ih hnd.2 k hk' y

/-- THE RESULT ARRAY: the launch contents written over band by band, band `k` with the result's band `k`, is the result. -/
theorem out_nested (c : Dev nD) (f : Buf (Elt F) ((c : Thread nD τ).loc main_v1_0))
    (p0 p1 p2 p3 p4 p5 p6 p7 p8 p9 p10 p11 p12 p13 p14 p15 : S512x1024.Idx → F .bf16)
    (h0 : p0 = outChunk m c 0) (h1 : p1 = outChunk m c 1) (h2 : p2 = outChunk m c 2) (h3 : p3 = outChunk m c 3) (h4 : p4 = outChunk m c 4) (h5 : p5 = outChunk m c 5) (h6 : p6 = outChunk m c 6) (h7 : p7 = outChunk m c 7) (h8 : p8 = outChunk m c 8) (h9 : p9 = outChunk m c 9) (h10 : p10 = outChunk m c 10) (h11 : p11 = outChunk m c 11) (h12 : p12 = outChunk m c 12) (h13 : p13 = outChunk m c 13) (h14 : p14 = outChunk m c 14) (h15 : p15 = outChunk m c 15) :
    ((((Memref.whole main_v1_0 : Memref sig .tc .hbm S8192x1024 .bf16).slice (Rect.unit (s := S8192x1024) ![7680, 0] S512x1024.size inb_S8192x1024_S512x1024_7680_0) (fun _ => rfl)).view.write (Elt F) (((Memref.whole main_v1_0 : Memref sig .tc .hbm S8192x1024 .bf16).slice (Rect.unit (s := S8192x1024) ![7168, 0] S512x1024.size inb_S8192x1024_S512x1024_7168_0) (fun _ => rfl)).view.write (Elt F) (((Memref.whole main_v1_0 : Memref sig .tc .hbm S8192x1024 .bf16).slice (Rect.unit (s := S8192x1024) ![6656, 0] S512x1024.size inb_S8192x1024_S512x1024_6656_0) (fun _ => rfl)).view.write (Elt F) (((Memref.whole main_v1_0 : Memref sig .tc .hbm S8192x1024 .bf16).slice (Rect.unit (s := S8192x1024) ![6144, 0] S512x1024.size inb_S8192x1024_S512x1024_6144_0) (fun _ => rfl)).view.write (Elt F) (((Memref.whole main_v1_0 : Memref sig .tc .hbm S8192x1024 .bf16).slice (Rect.unit (s := S8192x1024) ![5632, 0] S512x1024.size inb_S8192x1024_S512x1024_5632_0) (fun _ => rfl)).view.write (Elt F) (((Memref.whole main_v1_0 : Memref sig .tc .hbm S8192x1024 .bf16).slice (Rect.unit (s := S8192x1024) ![5120, 0] S512x1024.size inb_S8192x1024_S512x1024_5120_0) (fun _ => rfl)).view.write (Elt F) (((Memref.whole main_v1_0 : Memref sig .tc .hbm S8192x1024 .bf16).slice (Rect.unit (s := S8192x1024) ![4608, 0] S512x1024.size inb_S8192x1024_S512x1024_4608_0) (fun _ => rfl)).view.write (Elt F) (((Memref.whole main_v1_0 : Memref sig .tc .hbm S8192x1024 .bf16).slice (Rect.unit (s := S8192x1024) ![4096, 0] S512x1024.size inb_S8192x1024_S512x1024_4096_0) (fun _ => rfl)).view.write (Elt F) (((Memref.whole main_v1_0 : Memref sig .tc .hbm S8192x1024 .bf16).slice (Rect.unit (s := S8192x1024) ![3584, 0] S512x1024.size inb_S8192x1024_S512x1024_3584_0) (fun _ => rfl)).view.write (Elt F) (((Memref.whole main_v1_0 : Memref sig .tc .hbm S8192x1024 .bf16).slice (Rect.unit (s := S8192x1024) ![3072, 0] S512x1024.size inb_S8192x1024_S512x1024_3072_0) (fun _ => rfl)).view.write (Elt F) (((Memref.whole main_v1_0 : Memref sig .tc .hbm S8192x1024 .bf16).slice (Rect.unit (s := S8192x1024) ![2560, 0] S512x1024.size inb_S8192x1024_S512x1024_2560_0) (fun _ => rfl)).view.write (Elt F) (((Memref.whole main_v1_0 : Memref sig .tc .hbm S8192x1024 .bf16).slice (Rect.unit (s := S8192x1024) ![2048, 0] S512x1024.size inb_S8192x1024_S512x1024_2048_0) (fun _ => rfl)).view.write (Elt F) (((Memref.whole main_v1_0 : Memref sig .tc .hbm S8192x1024 .bf16).slice (Rect.unit (s := S8192x1024) ![1536, 0] S512x1024.size inb_S8192x1024_S512x1024_1536_0) (fun _ => rfl)).view.write (Elt F) (((Memref.whole main_v1_0 : Memref sig .tc .hbm S8192x1024 .bf16).slice (Rect.unit (s := S8192x1024) ![1024, 0] S512x1024.size inb_S8192x1024_S512x1024_1024_0) (fun _ => rfl)).view.write (Elt F) (((Memref.whole main_v1_0 : Memref sig .tc .hbm S8192x1024 .bf16).slice (Rect.unit (s := S8192x1024) ![512, 0] S512x1024.size inb_S8192x1024_S512x1024_512_0) (fun _ => rfl)).view.write (Elt F) (((Memref.whole main_v1_0 : Memref sig .tc .hbm S8192x1024 .bf16).slice (Rect.unit (s := S8192x1024) ![0, 0] S512x1024.size inb_S8192x1024_S512x1024_0_0) (fun _ => rfl)).view.write (Elt F) f p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) : Buf (Elt F) ((c : Thread nD τ).loc main_v1_0)) = outFull m c := by
  subst h0 h1 h2 h3 h4 h5 h6 h7 h8 h9 h10 h11 h12 h13 h14 h15
  show bandWrites c f (outChunk m c) [15, 14, 13, 12, 11, 10, 9, 8, 7, 6, 5, 4, 3, 2, 1, 0] = outFull m c
  funext i
  obtain ⟨k, y, rfl⟩ := out_cover i
  rw [bandWrites_at c f (outChunk m c) [15, 14, 13, 12, 11, 10, 9, 8, 7, 6, 5, 4, 3, 2, 1, 0] (by decide) k ((by decide : ∀ k : Fin 16, k ∈ ([15, 14, 13, 12, 11, 10, 9, 8, 7, 6, 5, 4, 3, 2, 1, 0] : List (Fin 16))) k) y]
  exact outChunk_emb m c k y

end Cert.Kernel.RS

end
-- ==== Proof.KernelOutChunk.lean ====
import proofs.«901042_g7700000000001043_dist_rs_v7x_xyz2x4x4_x_m8192_n1024_bf16_1_alg».proof.Proof.KernelOut

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The value a band's write-back carries: the own rows plus the received rows, rounded -/

/-- The stored block — the own block and the received block each seen as 512 × 1024, the received one widened, added, narrowed, seen as
    1 × 512 × 1024 again — holds band `k` of the result, when the own block holds rows `512 k …` of the slab on the device's own half of the
    columns and the received block band `k` of what the device received. -/
theorem out_payload (c : Dev nD) (k : Fin 16) (vmy : Vec F S1x512x1024 .f32) (vrb : Vec F S1x512x1024 .bf16)
    (hmy : ∀ (a : Fin 512) (b : Fin 1024), vmy (ix3 (⟨0, by decide⟩ : Fin 1) a b)
      = xarr m c (ix3 (⟨0, by decide⟩ : Fin 1) (⟨512 * k.val + a.val, chunk_row_lt k (ix2 a b)⟩ : Fin 8192) (⟨col c + b.val, chunk_col_lt c (ix2 a b)⟩ : Fin 2048)))
    (hrb : ∀ (a : Fin 512) (b : Fin 1024), vrb (ix3 (⟨0, by decide⟩ : Fin 1) a b)
      = recvFull m c (ix2 (⟨512 * k.val + a.val, chunk_row_lt k (ix2 a b)⟩ : Fin 8192) (⟨b.val, b.isLt⟩ : Fin 1024)))
    (h1 : S1x512x1024.ShapeCasts S512x1024) (hb : FTy.bits .bf16 < FTy.bits .f32) (h2 : S512x1024.ShapeCasts S1x512x1024)
    (u : Fin 1) (a : Fin 512) (b : Fin 1024) :
    shapeCast S1x512x1024 (truncf .bf16 (addf (shapeCast S512x1024 vmy h1) (extf .f32 (shapeCast S512x1024 vrb h1) hb)) hb) h2 (ix3 u a b) = outChunk m c k (ix2 a b) := by
  rw [shapeCast_ab_1ab_apply]
  show FloatOps.truncf .bf16 hb (FloatOps.addf (shapeCast S512x1024 vmy h1 (ix2 a b)) (FloatOps.extf .f32 hb (shapeCast S512x1024 vrb h1 (ix2 a b)))) = _
  rw [shapeCast_1ab_ab_apply, shapeCast_1ab_ab_apply, outChunk_ix2]
  rw [show vmy (ix3 (0 : Fin 1) a b) = _ from hmy a b, show vrb (ix3 (0 : Fin 1) a b) = _ from hrb a b]
  rfl

/-- The program's payload of a band's write-back is that block: in one piece, -/
theorem pay19_eq (vmy : Vec F S1x512x1024 .f32) (vrb : Vec F S1x512x1024 .bf16) :
    k0_pay19 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
/-- and with the own block's reshaping done a step earlier. -/
theorem pay21_eq (vmy : Vec F S1x512x1024 .f32) (vrb : Vec F S1x512x1024 .bf16) :
    k0_pay21 (k0_pay20 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl

/-! ## A buffer of two 512 × 1024 slots -/

section Generic
variable {sg : RefSig} {κ : Kind} {sp : Space} {e : EltTy} {Val : EltTy → Type}

/-- Loading slot `i` just after a transfer into it landed: the transfer's values. -/
theorem slot_load_same (v : View sg κ sp S2x512x1024 e) (i : Fin 2) (h : S512x1024.numel = S1x512x1024.numel) (g : v.ty.Contents Val)
    (d : S512x1024.Idx → Val e) (u0 : Fin 1) (a : Fin 512) (b : Fin 1024) :
    View.readAt Val v (cvtR i).toLoadRect (View.write Val ((v.slice (cvtR i)).reshape S512x1024 h) g d Finset.univ) (ix3 u0 a b) = d (ix2 a b) :=
  read_write_squeezed (v.slice (cvtR i)) h g d u0 a b

/-- A transfer landed in the other slot is not seen by a load. -/
theorem slot_load_other (v : View sg κ sp S2x512x1024 e) (i j : Fin 2) (hij : i ≠ j) (h : S512x1024.numel = S1x512x1024.numel) (g : v.ty.Contents Val)
    (d : S512x1024.Idx → Val e) :
    View.readAt Val v (cvtR i).toLoadRect (View.write Val ((v.slice (cvtR j)).reshape S512x1024 h) g d Finset.univ)
      = View.readAt Val v (cvtR i).toLoadRect g :=
  read_write_other v (cvtR i) (cvtR j) h g d (cvt_disjoint i j hij)

/-- A store into the other slot is not seen by a load. -/
theorem slot_load_store_other (v : View sg κ sp S2x512x1024 e) (i j : Fin 2) (hij : i ≠ j) (g : v.ty.Contents Val) (p : S1x512x1024.Idx → Val e) :
    View.readAt Val v (cvtR i).toLoadRect (View.write Val (v.slice (cvtR j)) g p Finset.univ) = View.readAt Val v (cvtR i).toLoadRect g := by
  refine View.read_slice_write_slice_of_disjoint (cvtR i) (cvtR j) g p Finset.univ ?_
  rw [View.setOn_univ, View.set_slice, View.set_slice]
  exact (Finset.disjoint_map _).mpr (cvt_disjoint i j hij)

/-- Slot `i` seen as 512 × 1024, read just after a store into it: the stored block at (0, a, b). -/
theorem slot_read_store_same (v : View sg κ sp S2x512x1024 e) (i : Fin 2) (h : S512x1024.numel = S1x512x1024.numel) (g : v.ty.Contents Val)
    (p : S1x512x1024.Idx → Val e) (a : Fin 512) (b : Fin 1024) :
    ((v.slice (cvtR i)).reshape S512x1024 h).read Val (View.write Val (v.slice (cvtR i)) g p Finset.univ) (ix2 a b) = p (ix3 (⟨0, Nat.one_pos⟩ : Fin 1) a b) := by
  rw [read_reshape_apply, reshapeEquiv_ix2_1ab, View.read_write_univ]

/-- A store into the other slot is not seen through slot `i` seen as 512 × 1024. -/
theorem slot_read_store_other (v : View sg κ sp S2x512x1024 e) (i j : Fin 2) (hij : i ≠ j) (h : S512x1024.numel = S1x512x1024.numel) (g : v.ty.Contents Val)
    (p : S1x512x1024.Idx → Val e) :
    ((v.slice (cvtR i)).reshape S512x1024 h).read Val (View.write Val (v.slice (cvtR j)) g p Finset.univ)
      = ((v.slice (cvtR i)).reshape S512x1024 h).read Val g := by
  funext y
  rw [read_reshape_apply, read_reshape_apply]
  refine congrFun (View.read_slice_write_slice_of_disjoint (cvtR i) (cvtR j) g p Finset.univ ?_) _
  rw [View.setOn_univ, View.set_slice, View.set_slice]
  exact (Finset.disjoint_map _).mpr (cvt_disjoint i j hij)

/-- A transfer landed in the other slot is not seen through slot `i` seen as 512 × 1024. -/
theorem slot_read_write_other (v : View sg κ sp S2x512x1024 e) (i j : Fin 2) (hij : i ≠ j) (h h' : S512x1024.numel = S1x512x1024.numel) (g : v.ty.Contents Val)
    (d : S512x1024.Idx → Val e) :
    ((v.slice (cvtR i)).reshape S512x1024 h).read Val (View.write Val ((v.slice (cvtR j)).reshape S512x1024 h') g d Finset.univ)
      = ((v.slice (cvtR i)).reshape S512x1024 h).read Val g := by
  funext y
  rw [read_reshape_apply, read_reshape_apply]
  exact congrFun (read_write_other v (cvtR i) (cvtR j) h' g d (cvt_disjoint i j hij)) _

end Generic

/-! ## The write-back's source: a slot of the result's staging buffer, just stored -/

/-- THE VALUE OF A WRITE-BACK: slot `i` of the staging buffer, seen as 512 × 1024 just after the block `p` was stored into it, reads band `k` of
    the result when `p` holds it. -/
theorem slot_holds_out (c : Dev nD) (k : Fin 16) (i : Fin 2) (g : Buf (Elt F) ((c : Thread nD τ).loc cc0_scratch4))
    (p : S1x512x1024.Idx → F .bf16) (hp : ∀ (u : Fin 1) (a : Fin 512) (b : Fin 1024), p (ix3 u a b) = outChunk m c k (ix2 a b)) :
    (((Memref.whole cc0_scratch4 : Memref sig .tc .vmem S2x512x1024 .bf16).view.slice (cvtR i)).reshape S512x1024 squeezes_S1x512x1024_S512x1024.numel_eq).read (Elt F)
        (View.write (Elt F) ((Memref.whole cc0_scratch4 : Memref sig .tc .vmem S2x512x1024 .bf16).view.slice (cvtR i)) g p Finset.univ)
      = outChunk m c k := by
  funext y
  obtain ⟨a, b, rfl⟩ : ∃ (a : Fin 512) (b : Fin 1024), y = ix2 a b := ⟨y 0, y 1, eq_ix2 y⟩
  rw [slot_read_store_same, hp]

/-! ## One band, one slot at a time -/

/-- The program's payload of band `k`'s write-back, for each of the sixteen bands, is the block of `out_payload`. -/
theorem bandpay0_eq (vmy : Vec F S1x512x1024 .f32) (vrb : Vec F S1x512x1024 .bf16) :
    k0_pay19 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay1_eq (vmy : Vec F S1x512x1024 .f32) (vrb : Vec F S1x512x1024 .bf16) :
    k0_pay21 (k0_pay20 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay2_eq (vmy : Vec F S1x512x1024 .f32) (vrb : Vec F S1x512x1024 .bf16) :
    k0_pay23 (k0_pay22 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay3_eq (vmy : Vec F S1x512x1024 .f32) (vrb : Vec F S1x512x1024 .bf16) :
    k0_pay25 (k0_pay24 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay4_eq (vmy : Vec F S1x512x1024 .f32) (vrb : Vec F S1x512x1024 .bf16) :
    k0_pay27 (k0_pay26 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay5_eq (vmy : Vec F S1x512x1024 .f32) (vrb : Vec F S1x512x1024 .bf16) :
    k0_pay29 (k0_pay28 vmy) vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay6_eq (vmy : Vec F S1x512x1024 .f32) (vrb : Vec F S1x512x1024 .bf16) :
    k0_pay30 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay7_eq (vmy : Vec F S1x512x1024 .f32) (vrb : Vec F S1x512x1024 .bf16) :
    k0_pay31 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay8_eq (vmy : Vec F S1x512x1024 .f32) (vrb : Vec F S1x512x1024 .bf16) :
    k0_pay32 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay9_eq (vmy : Vec F S1x512x1024 .f32) (vrb : Vec F S1x512x1024 .bf16) :
    k0_pay33 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay10_eq (vmy : Vec F S1x512x1024 .f32) (vrb : Vec F S1x512x1024 .bf16) :
    k0_pay34 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay11_eq (vmy : Vec F S1x512x1024 .f32) (vrb : Vec F S1x512x1024 .bf16) :
    k0_pay35 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay12_eq (vmy : Vec F S1x512x1024 .f32) (vrb : Vec F S1x512x1024 .bf16) :
    k0_pay36 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay13_eq (vmy : Vec F S1x512x1024 .f32) (vrb : Vec F S1x512x1024 .bf16) :
    k0_pay37 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay14_eq (vmy : Vec F S1x512x1024 .f32) (vrb : Vec F S1x512x1024 .bf16) :
    k0_pay38 vmy vrb = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl
theorem bandpay15_eq (vmy : Vec F S1x512x1024 .f32) (vrb : Vec F S1x512x1024 .bf16) :
    k0_pay41 (k0_pay39 vmy) (k0_pay40 vrb) = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024 := rfl

section Generic
variable {sg : RefSig} {κ : Kind} {sp : Space} {e : EltTy} {Val : EltTy → Type}

/-- Slot `i` of a two-slot buffer, seen as 512 × 1024. -/
abbrev slotSq (v : View sg κ sp S2x512x1024 e) (i : Fin 2) : View sg κ sp S512x1024 e :=
  (v.slice (cvtR i)).reshape S512x1024 squeezes_S1x512x1024_S512x1024.numel_eq

/-- A slot read just after a transfer filled it: the transfer's values. -/
theorem slot_read_write_same (v : View sg κ sp S2x512x1024 e) (i : Fin 2) (g : v.ty.Contents Val) (d : S512x1024.Idx → Val e) :
    (slotSq v i).read Val (View.write Val (slotSq v i) g d Finset.univ) = d :=
  View.read_write_univ (v := slotSq v i) g d

end Generic

/-- The own block: slot `i` of the first staging buffer, loaded just after the window at rows `512 k …` on the device's own half of the
    columns was copied into it, holds those entries of the slab. -/
theorem my_block (c : Dev nD) (k : Fin 16) (i : Fin 2) (g : Buf (Elt F) ((c : Thread nD τ).loc cc0_scratch2))
    (o : Fin 3 → ℕ) (ho : ∀ a, o a + S1x512x1024.size a ≤ S1x8192x2048.size a) (ho1 : o 1 = 512 * k.val) (ho2 : o 2 = col c)
    (u : Fin 1) (a : Fin 512) (b : Fin 1024) :
    View.readAt (Elt F) (Memref.whole cc0_scratch2 : Memref sig .tc .vmem S2x512x1024 .f32).view (cvtR i).toLoadRect
        (View.write (Elt F) (slotSq (Memref.whole cc0_scratch2 : Memref sig .tc .vmem S2x512x1024 .f32).view i) g (xwin m c o ho) Finset.univ) (ix3 u a b)
      = xarr m c (ix3 (⟨0, by decide⟩ : Fin 1) (⟨512 * k.val + a.val, chunk_row_lt k (ix2 a b)⟩ : Fin 8192) (⟨col c + b.val, chunk_col_lt c (ix2 a b)⟩ : Fin 2048)) := by
  refine (slot_load_same (Memref.whole cc0_scratch2 : Memref sig .tc .vmem S2x512x1024 .f32).view i _ g (xwin m c o ho) u a b).trans ?_
  rw [xwin_apply]
  refine congrArg (xarr m c) (ix3_congr rfl ?_ ?_)
  · show o 1 + a.val = 512 * k.val + a.val
    rw [ho1]
  · show o 2 + b.val = col c + b.val
    rw [ho2]

/-- The received block: slot `i` of the second staging buffer, loaded just after band `k` of the landing array — holding what the device
    received — was copied into it, holds those entries. -/
theorem rb_block (c : Dev nD) (k : Fin 16) (i : Fin 2) (g : Buf (Elt F) ((c : Thread nD τ).loc cc0_scratch3))
    (u : Fin 1) (a : Fin 512) (b : Fin 1024) :
    View.readAt (Elt F) (Memref.whole cc0_scratch3 : Memref sig .tc .vmem S2x512x1024 .bf16).view (cvtR i).toLoadRect
        (View.write (Elt F) (slotSq (Memref.whole cc0_scratch3 : Memref sig .tc .vmem S2x512x1024 .bf16).view i) g ((rowsM k).view.read (Elt F) (recvFull m c)) Finset.univ) (ix3 u a b)
      = recvFull m c (ix2 (⟨512 * k.val + a.val, chunk_row_lt k (ix2 a b)⟩ : Fin 8192) (⟨b.val, b.isLt⟩ : Fin 1024)) := by
  refine (slot_load_same (Memref.whole cc0_scratch3 : Memref sig .tc .vmem S2x512x1024 .bf16).view i _ g ((rowsM k).view.read (Elt F) (recvFull m c)) u a b).trans ?_
  show recvFull m c ((rowsM k).view.emb (ix2 a b)) = _
  refine congrArg (recvFull m c) (funext fun d => Fin.ext ?_)
  match d with
  | ⟨0, _⟩ =>
    show 512 * k.val + 1 * a.val = 512 * k.val + a.val
    omega
  | ⟨1, _⟩ =>
    show 0 + 1 * b.val = b.val
    omega

/-- THE VALUE OF A WRITE-BACK, from its two blocks: slot `i` of the result's staging buffer, just stored with the payload made of an own
    block and a received block for band `k`, reads band `k` of the result. -/
theorem writeback_value (c : Dev nD) (k : Fin 16) (i : Fin 2) (g : Buf (Elt F) ((c : Thread nD τ).loc cc0_scratch4))
    (vmy : Vec F S1x512x1024 .f32) (vrb : Vec F S1x512x1024 .bf16)
    (hmy : ∀ (a : Fin 512) (b : Fin 1024), vmy (ix3 (⟨0, by decide⟩ : Fin 1) a b)
      = xarr m c (ix3 (⟨0, by decide⟩ : Fin 1) (⟨512 * k.val + a.val, chunk_row_lt k (ix2 a b)⟩ : Fin 8192) (⟨col c + b.val, chunk_col_lt c (ix2 a b)⟩ : Fin 2048)))
    (hrb : ∀ (a : Fin 512) (b : Fin 1024), vrb (ix3 (⟨0, by decide⟩ : Fin 1) a b)
      = recvFull m c (ix2 (⟨512 * k.val + a.val, chunk_row_lt k (ix2 a b)⟩ : Fin 8192) (⟨b.val, b.isLt⟩ : Fin 1024)))
    (pay : S1x512x1024.Idx → F .bf16)
    (hpay : pay = shapeCast S1x512x1024 (truncf .bf16 (addf (shapeCast S512x1024 vmy shapeCasts_S1x512x1024_S512x1024) (extf .f32 (shapeCast S512x1024 vrb shapeCasts_S1x512x1024_S512x1024) bitsLt_bf16_f32)) bitsLt_bf16_f32) shapeCasts_S512x1024_S1x512x1024) :
    (slotSq (Memref.whole cc0_scratch4 : Memref sig .tc .vmem S2x512x1024 .bf16).view i).read (Elt F) (View.write (Elt F) ((Memref.whole cc0_scratch4 : Memref sig .tc .vmem S2x512x1024 .bf16).view.slice (cvtR i)) g pay Finset.univ) = outChunk m c k := by
  subst hpay
  exact slot_holds_out m c k i g _ fun u a b => out_payload m c k vmy vrb hmy hrb _ _ _ u a b

/-! ## A band of the result array written whole -/

/-- Band `k` written whole with the result's band `k` holds the result on the band. -/
theorem band_written (c : Dev nD) (k : Fin 16) (f : Buf (Elt F) ((c : Thread nD τ).loc main_v1_0)) (p : S512x1024.Idx → F .bf16)
    (hp : p = outChunk m c k) :
    ∀ i ∈ (outM k).view.set, ((outM k).view.write (Elt F) f p Finset.univ) i = outFull m c i := by
  subst hp
  intro i hi
  obtain ⟨y, rfl⟩ := View.exists_emb_of_mem_set _ hi
  rw [View.write_emb_of_mem _ _ (Finset.mem_univ y)]
  exact outChunk_emb m c k y

/-- The same, each band at its numerals. -/
theorem band_written_0 (c : Dev nD) (f : Buf (Elt F) ((c : Thread nD τ).loc main_v1_0)) (p : S512x1024.Idx → F .bf16) (hp : p = outChunk m c 0) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.write (Elt F) f p Finset.univ) i = outFull m c i :=
  band_written m c 0 f p hp
theorem band_written_1 (c : Dev nD) (f : Buf (Elt F) ((c : Thread nD τ).loc main_v1_0)) (p : S512x1024.Idx → F .bf16) (hp : p = outChunk m c 1) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.write (Elt F) f p Finset.univ) i = outFull m c i :=
  band_written m c 1 f p hp
theorem band_written_2 (c : Dev nD) (f : Buf (Elt F) ((c : Thread nD τ).loc main_v1_0)) (p : S512x1024.Idx → F .bf16) (hp : p = outChunk m c 2) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.write (Elt F) f p Finset.univ) i = outFull m c i :=
  band_written m c 2 f p hp
theorem band_written_3 (c : Dev nD) (f : Buf (Elt F) ((c : Thread nD τ).loc main_v1_0)) (p : S512x1024.Idx → F .bf16) (hp : p = outChunk m c 3) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.write (Elt F) f p Finset.univ) i = outFull m c i :=
  band_written m c 3 f p hp
theorem band_written_4 (c : Dev nD) (f : Buf (Elt F) ((c : Thread nD τ).loc main_v1_0)) (p : S512x1024.Idx → F .bf16) (hp : p = outChunk m c 4) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.write (Elt F) f p Finset.univ) i = outFull m c i :=
  band_written m c 4 f p hp
theorem band_written_5 (c : Dev nD) (f : Buf (Elt F) ((c : Thread nD τ).loc main_v1_0)) (p : S512x1024.Idx → F .bf16) (hp : p = outChunk m c 5) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.write (Elt F) f p Finset.univ) i = outFull m c i :=
  band_written m c 5 f p hp
theorem band_written_6 (c : Dev nD) (f : Buf (Elt F) ((c : Thread nD τ).loc main_v1_0)) (p : S512x1024.Idx → F .bf16) (hp : p = outChunk m c 6) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.write (Elt F) f p Finset.univ) i = outFull m c i :=
  band_written m c 6 f p hp
theorem band_written_7 (c : Dev nD) (f : Buf (Elt F) ((c : Thread nD τ).loc main_v1_0)) (p : S512x1024.Idx → F .bf16) (hp : p = outChunk m c 7) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.write (Elt F) f p Finset.univ) i = outFull m c i :=
  band_written m c 7 f p hp
theorem band_written_8 (c : Dev nD) (f : Buf (Elt F) ((c : Thread nD τ).loc main_v1_0)) (p : S512x1024.Idx → F .bf16) (hp : p = outChunk m c 8) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.write (Elt F) f p Finset.univ) i = outFull m c i :=
  band_written m c 8 f p hp
theorem band_written_9 (c : Dev nD) (f : Buf (Elt F) ((c : Thread nD τ).loc main_v1_0)) (p : S512x1024.Idx → F .bf16) (hp : p = outChunk m c 9) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.write (Elt F) f p Finset.univ) i = outFull m c i :=
  band_written m c 9 f p hp
theorem band_written_10 (c : Dev nD) (f : Buf (Elt F) ((c : Thread nD τ).loc main_v1_0)) (p : S512x1024.Idx → F .bf16) (hp : p = outChunk m c 10) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.write (Elt F) f p Finset.univ) i = outFull m c i :=
  band_written m c 10 f p hp
theorem band_written_11 (c : Dev nD) (f : Buf (Elt F) ((c : Thread nD τ).loc main_v1_0)) (p : S512x1024.Idx → F .bf16) (hp : p = outChunk m c 11) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.write (Elt F) f p Finset.univ) i = outFull m c i :=
  band_written m c 11 f p hp
theorem band_written_12 (c : Dev nD) (f : Buf (Elt F) ((c : Thread nD τ).loc main_v1_0)) (p : S512x1024.Idx → F .bf16) (hp : p = outChunk m c 12) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.write (Elt F) f p Finset.univ) i = outFull m c i :=
  band_written m c 12 f p hp
theorem band_written_13 (c : Dev nD) (f : Buf (Elt F) ((c : Thread nD τ).loc main_v1_0)) (p : S512x1024.Idx → F .bf16) (hp : p = outChunk m c 13) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.write (Elt F) f p Finset.univ) i = outFull m c i :=
  band_written m c 13 f p hp
theorem band_written_14 (c : Dev nD) (f : Buf (Elt F) ((c : Thread nD τ).loc main_v1_0)) (p : S512x1024.Idx → F .bf16) (hp : p = outChunk m c 14) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.write (Elt F) f p Finset.univ) i = outFull m c i :=
  band_written m c 14 f p hp
theorem band_written_15 (c : Dev nD) (f : Buf (Elt F) ((c : Thread nD τ).loc main_v1_0)) (p : S512x1024.Idx → F .bf16) (hp : p = outChunk m c 15) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.write (Elt F) f p Finset.univ) i = outFull m c i :=
  band_written m c 15 f p hp

end Cert.Kernel.RS

end
-- ==== Proof.KernelBandFacts.lean ====
import proofs.«901042_g7700000000001043_dist_rs_v7x_xyz2x4x4_x_m8192_n1024_bf16_1_alg».proof.Proof.KernelListed
import proofs.«901042_g7700000000001043_dist_rs_v7x_xyz2x4x4_x_m8192_n1024_bf16_1_alg».proof.Proof.KernelOutChunk

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## A band's payload, entry by entry -/

/-- Entry (u, a, b) of the stored block: the own block's entry (0, a, b) plus the received block's there, widened, the sum rounded. -/
theorem pay_apply (vmy : Vec F S1x512x1024 .f32) (vrb : Vec F S1x512x1024 .bf16)
    (h1 : S1x512x1024.ShapeCasts S512x1024) (hb : FTy.bits .bf16 < FTy.bits .f32) (h2 : S512x1024.ShapeCasts S1x512x1024)
    (u : Fin 1) (a : Fin 512) (b : Fin 1024) :
    shapeCast S1x512x1024 (truncf .bf16 (addf (shapeCast S512x1024 vmy h1) (extf .f32 (shapeCast S512x1024 vrb h1) hb)) hb) h2 (ix3 u a b)
      = tr (FloatOps.addf (vmy (ix3 (⟨0, by decide⟩ : Fin 1) a b)) (ex (vrb (ix3 (⟨0, by decide⟩ : Fin 1) a b)))) := by
  rw [shapeCast_ab_1ab_apply]
  show FloatOps.truncf .bf16 hb (FloatOps.addf (shapeCast S512x1024 vmy h1 (ix2 a b)) (FloatOps.extf .f32 hb (shapeCast S512x1024 vrb h1 (ix2 a b)))) = _
  rw [shapeCast_1ab_ab_apply, shapeCast_1ab_ab_apply]
  rfl

theorem bandpay0_apply (vmy : Vec F S1x512x1024 .f32) (vrb : Vec F S1x512x1024 .bf16) (u : Fin 1) (a : Fin 512) (b : Fin 1024) :
    (k0_pay19 vmy vrb) (ix3 u a b) = tr (FloatOps.addf (vmy (ix3 (⟨0, by decide⟩ : Fin 1) a b)) (ex (vrb (ix3 (⟨0, by decide⟩ : Fin 1) a b)))) :=
  (congrFun (bandpay0_eq vmy vrb) _).trans (pay_apply vmy vrb _ _ _ u a b)
theorem bandpay1_apply (vmy : Vec F S1x512x1024 .f32) (vrb : Vec F S1x512x1024 .bf16) (u : Fin 1) (a : Fin 512) (b : Fin 1024) :
    (k0_pay21 (k0_pay20 vmy) vrb) (ix3 u a b) = tr (FloatOps.addf (vmy (ix3 (⟨0, by decide⟩ : Fin 1) a b)) (ex (vrb (ix3 (⟨0, by decide⟩ : Fin 1) a b)))) :=
  (congrFun (bandpay1_eq vmy vrb) _).trans (pay_apply vmy vrb _ _ _ u a b)
theorem bandpay2_apply (vmy : Vec F S1x512x1024 .f32) (vrb : Vec F S1x512x1024 .bf16) (u : Fin 1) (a : Fin 512) (b : Fin 1024) :
    (k0_pay23 (k0_pay22 vmy) vrb) (ix3 u a b) = tr (FloatOps.addf (vmy (ix3 (⟨0, by decide⟩ : Fin 1) a b)) (ex (vrb (ix3 (⟨0, by decide⟩ : Fin 1) a b)))) :=
  (congrFun (bandpay2_eq vmy vrb) _).trans (pay_apply vmy vrb _ _ _ u a b)
theorem bandpay3_apply (vmy : Vec F S1x512x1024 .f32) (vrb : Vec F S1x512x1024 .bf16) (u : Fin 1) (a : Fin 512) (b : Fin 1024) :
    (k0_pay25 (k0_pay24 vmy) vrb) (ix3 u a b) = tr (FloatOps.addf (vmy (ix3 (⟨0, by decide⟩ : Fin 1) a b)) (ex (vrb (ix3 (⟨0, by decide⟩ : Fin 1) a b)))) :=
  (congrFun (bandpay3_eq vmy vrb) _).trans (pay_apply vmy vrb _ _ _ u a b)
theorem bandpay4_apply (vmy : Vec F S1x512x1024 .f32) (vrb : Vec F S1x512x1024 .bf16) (u : Fin 1) (a : Fin 512) (b : Fin 1024) :
    (k0_pay27 (k0_pay26 vmy) vrb) (ix3 u a b) = tr (FloatOps.addf (vmy (ix3 (⟨0, by decide⟩ : Fin 1) a b)) (ex (vrb (ix3 (⟨0, by decide⟩ : Fin 1) a b)))) :=
  (congrFun (bandpay4_eq vmy vrb) _).trans (pay_apply vmy vrb _ _ _ u a b)
theorem bandpay5_apply (vmy : Vec F S1x512x1024 .f32) (vrb : Vec F S1x512x1024 .bf16) (u : Fin 1) (a : Fin 512) (b : Fin 1024) :
    (k0_pay29 (k0_pay28 vmy) vrb) (ix3 u a b) = tr (FloatOps.addf (vmy (ix3 (⟨0, by decide⟩ : Fin 1) a b)) (ex (vrb (ix3 (⟨0, by decide⟩ : Fin 1) a b)))) :=
  (congrFun (bandpay5_eq vmy vrb) _).trans (pay_apply vmy vrb _ _ _ u a b)
theorem bandpay6_apply (vmy : Vec F S1x512x1024 .f32) (vrb : Vec F S1x512x1024 .bf16) (u : Fin 1) (a : Fin 512) (b : Fin 1024) :
    (k0_pay30 vmy vrb) (ix3 u a b) = tr (FloatOps.addf (vmy (ix3 (⟨0, by decide⟩ : Fin 1) a b)) (ex (vrb (ix3 (⟨0, by decide⟩ : Fin 1) a b)))) :=
  (congrFun (bandpay6_eq vmy vrb) _).trans (pay_apply vmy vrb _ _ _ u a b)
theorem bandpay7_apply (vmy : Vec F S1x512x1024 .f32) (vrb : Vec F S1x512x1024 .bf16) (u : Fin 1) (a : Fin 512) (b : Fin 1024) :
    (k0_pay31 vmy vrb) (ix3 u a b) = tr (FloatOps.addf (vmy (ix3 (⟨0, by decide⟩ : Fin 1) a b)) (ex (vrb (ix3 (⟨0, by decide⟩ : Fin 1) a b)))) :=
  (congrFun (bandpay7_eq vmy vrb) _).trans (pay_apply vmy vrb _ _ _ u a b)
theorem bandpay8_apply (vmy : Vec F S1x512x1024 .f32) (vrb : Vec F S1x512x1024 .bf16) (u : Fin 1) (a : Fin 512) (b : Fin 1024) :
    (k0_pay32 vmy vrb) (ix3 u a b) = tr (FloatOps.addf (vmy (ix3 (⟨0, by decide⟩ : Fin 1) a b)) (ex (vrb (ix3 (⟨0, by decide⟩ : Fin 1) a b)))) :=
  (congrFun (bandpay8_eq vmy vrb) _).trans (pay_apply vmy vrb _ _ _ u a b)
theorem bandpay9_apply (vmy : Vec F S1x512x1024 .f32) (vrb : Vec F S1x512x1024 .bf16) (u : Fin 1) (a : Fin 512) (b : Fin 1024) :
    (k0_pay33 vmy vrb) (ix3 u a b) = tr (FloatOps.addf (vmy (ix3 (⟨0, by decide⟩ : Fin 1) a b)) (ex (vrb (ix3 (⟨0, by decide⟩ : Fin 1) a b)))) :=
  (congrFun (bandpay9_eq vmy vrb) _).trans (pay_apply vmy vrb _ _ _ u a b)
theorem bandpay10_apply (vmy : Vec F S1x512x1024 .f32) (vrb : Vec F S1x512x1024 .bf16) (u : Fin 1) (a : Fin 512) (b : Fin 1024) :
    (k0_pay34 vmy vrb) (ix3 u a b) = tr (FloatOps.addf (vmy (ix3 (⟨0, by decide⟩ : Fin 1) a b)) (ex (vrb (ix3 (⟨0, by decide⟩ : Fin 1) a b)))) :=
  (congrFun (bandpay10_eq vmy vrb) _).trans (pay_apply vmy vrb _ _ _ u a b)
theorem bandpay11_apply (vmy : Vec F S1x512x1024 .f32) (vrb : Vec F S1x512x1024 .bf16) (u : Fin 1) (a : Fin 512) (b : Fin 1024) :
    (k0_pay35 vmy vrb) (ix3 u a b) = tr (FloatOps.addf (vmy (ix3 (⟨0, by decide⟩ : Fin 1) a b)) (ex (vrb (ix3 (⟨0, by decide⟩ : Fin 1) a b)))) :=
  (congrFun (bandpay11_eq vmy vrb) _).trans (pay_apply vmy vrb _ _ _ u a b)
theorem bandpay12_apply (vmy : Vec F S1x512x1024 .f32) (vrb : Vec F S1x512x1024 .bf16) (u : Fin 1) (a : Fin 512) (b : Fin 1024) :
    (k0_pay36 vmy vrb) (ix3 u a b) = tr (FloatOps.addf (vmy (ix3 (⟨0, by decide⟩ : Fin 1) a b)) (ex (vrb (ix3 (⟨0, by decide⟩ : Fin 1) a b)))) :=
  (congrFun (bandpay12_eq vmy vrb) _).trans (pay_apply vmy vrb _ _ _ u a b)
theorem bandpay13_apply (vmy : Vec F S1x512x1024 .f32) (vrb : Vec F S1x512x1024 .bf16) (u : Fin 1) (a : Fin 512) (b : Fin 1024) :
    (k0_pay37 vmy vrb) (ix3 u a b) = tr (FloatOps.addf (vmy (ix3 (⟨0, by decide⟩ : Fin 1) a b)) (ex (vrb (ix3 (⟨0, by decide⟩ : Fin 1) a b)))) :=
  (congrFun (bandpay13_eq vmy vrb) _).trans (pay_apply vmy vrb _ _ _ u a b)
theorem bandpay14_apply (vmy : Vec F S1x512x1024 .f32) (vrb : Vec F S1x512x1024 .bf16) (u : Fin 1) (a : Fin 512) (b : Fin 1024) :
    (k0_pay38 vmy vrb) (ix3 u a b) = tr (FloatOps.addf (vmy (ix3 (⟨0, by decide⟩ : Fin 1) a b)) (ex (vrb (ix3 (⟨0, by decide⟩ : Fin 1) a b)))) :=
  (congrFun (bandpay14_eq vmy vrb) _).trans (pay_apply vmy vrb _ _ _ u a b)
theorem bandpay15_apply (vmy : Vec F S1x512x1024 .f32) (vrb : Vec F S1x512x1024 .bf16) (u : Fin 1) (a : Fin 512) (b : Fin 1024) :
    (k0_pay41 (k0_pay39 vmy) (k0_pay40 vrb)) (ix3 u a b) = tr (FloatOps.addf (vmy (ix3 (⟨0, by decide⟩ : Fin 1) a b)) (ex (vrb (ix3 (⟨0, by decide⟩ : Fin 1) a b)))) :=
  (congrFun (bandpay15_eq vmy vrb) _).trans (pay_apply vmy vrb _ _ _ u a b)

/-! ## Loading a slot that was last filled whole -/

section Generic
variable {sg : RefSig} {κ : Kind} {sp : Space} {e : EltTy} {Val : EltTy → Type}

/-- A load of slot `i` through the whole buffer, the slot last filled whole by a transfer: the transfer's values, whatever was written before. -/
theorem load_listed (v : View sg κ sp S2x512x1024 e) (i : Fin 2) (h : S512x1024.numel = S1x512x1024.numel) (g : v.ty.Contents Val)
    (L : List (View.Piece Val S512x1024 e)) (d : S512x1024.Idx → Val e) (u0 : Fin 1) (a : Fin 512) (b : Fin 1024) :
    View.readAt Val v (cvtR i).toLoadRect (((v.slice (cvtR i)).reshape S512x1024 h).writes Val g (⟨Rect.whole S512x1024, d⟩ :: L)) (ix3 u0 a b)
      = d (ix2 a b) :=
  read_listed_squeezed (v.slice (cvtR i)) h g L d u0 a b

end Generic

/-- Band `k` of the landing array, holding what the device received, read as a 512 × 1024 block: entry (a, b) is the received entry (512 k + a, b). -/
theorem rb_read (c : Dev nD) (k : Fin 16) (a : Fin 512) (b : Fin 1024) :
    (rowsM k).view.read (Elt F) (recvFull m c) (ix2 a b)
      = recvFull m c (ix2 (⟨512 * k.val + a.val, chunk_row_lt k (ix2 a b)⟩ : Fin 8192) (⟨b.val, b.isLt⟩ : Fin 1024)) := by
  show recvFull m c ((rowsM k).view.emb (ix2 a b)) = _
  refine congrArg (recvFull m c) (funext fun d => Fin.ext ?_)
  match d with
  | ⟨0, _⟩ =>
    show 512 * k.val + 1 * a.val = 512 * k.val + a.val
    omega
  | ⟨1, _⟩ =>
    show 0 + 1 * b.val = b.val
    omega

/-! ## The write-back's source slot, just stored -/

/-- Slot 0 of the result's staging buffer, seen as 512 × 1024 just after a block was stored into it, reads band `k` of the result when the block is
    the rounded sum of an own block holding the window at rows `512 k …` on the device's own columns and a received block holding band `k` of what was received. -/
theorem out_chunk_of_0 (c : Dev nD) (k : Fin 16) (g : Buf (Elt F) ((c : Thread nD τ).loc cc0_scratch4))
    (p : S1x512x1024.Idx → F .bf16) (vmy : S1x512x1024.Idx → F .f32) (vrb : S1x512x1024.Idx → F .bf16)
    (o : Fin 3 → ℕ) (ho : ∀ a, o a + S1x512x1024.size a ≤ S1x8192x2048.size a)
    (hp : ∀ (u : Fin 1) (a : Fin 512) (b : Fin 1024), p (ix3 u a b) = tr (FloatOps.addf (vmy (ix3 (⟨0, by decide⟩ : Fin 1) a b)) (ex (vrb (ix3 (⟨0, by decide⟩ : Fin 1) a b)))))
    (hmy : ∀ (a : Fin 512) (b : Fin 1024), vmy (ix3 (⟨0, by decide⟩ : Fin 1) a b) = xwin m c o ho (ix2 a b))
    (hrb : ∀ (a : Fin 512) (b : Fin 1024), vrb (ix3 (⟨0, by decide⟩ : Fin 1) a b) = recvFull m c (ix2 (⟨512 * k.val + a.val, chunk_row_lt k (ix2 a b)⟩ : Fin 8192) (⟨b.val, b.isLt⟩ : Fin 1024)))
    (ho1 : o 1 = 512 * k.val) (ho2 : o 2 = col c) :
    (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.read (Elt F)
        (View.write (Elt F) ((Memref.whole cc0_scratch4 : Memref sig .tc .vmem S2x512x1024 .bf16).access (Rect.unit (s := S2x512x1024) ![0, 0, 0] S1x512x1024.size inb_S2x512x1024_S1x512x1024_0_0_0)) g p Finset.univ)
      = outChunk m c k := by
  refine slot_holds_out m c k 0 g p fun u a b => ?_
  rw [hp, hmy, hrb, xwin_apply, outChunk_ix2]
  refine congrArg tr (congrArg (fun x => FloatOps.addf x _) (congrArg (xarr m c) (ix3_congr rfl ?_ ?_)))
  · show o 1 + a.val = 512 * k.val + a.val
    rw [ho1]
  · show o 2 + b.val = col c + b.val
    rw [ho2]

/-- Slot 1 of the result's staging buffer, seen as 512 × 1024 just after a block was stored into it, reads band `k` of the result when the block is
    the rounded sum of an own block holding the window at rows `512 k …` on the device's own columns and a received block holding band `k` of what was received. -/
theorem out_chunk_of_1 (c : Dev nD) (k : Fin 16) (g : Buf (Elt F) ((c : Thread nD τ).loc cc0_scratch4))
    (p : S1x512x1024.Idx → F .bf16) (vmy : S1x512x1024.Idx → F .f32) (vrb : S1x512x1024.Idx → F .bf16)
    (o : Fin 3 → ℕ) (ho : ∀ a, o a + S1x512x1024.size a ≤ S1x8192x2048.size a)
    (hp : ∀ (u : Fin 1) (a : Fin 512) (b : Fin 1024), p (ix3 u a b) = tr (FloatOps.addf (vmy (ix3 (⟨0, by decide⟩ : Fin 1) a b)) (ex (vrb (ix3 (⟨0, by decide⟩ : Fin 1) a b)))))
    (hmy : ∀ (a : Fin 512) (b : Fin 1024), vmy (ix3 (⟨0, by decide⟩ : Fin 1) a b) = xwin m c o ho (ix2 a b))
    (hrb : ∀ (a : Fin 512) (b : Fin 1024), vrb (ix3 (⟨0, by decide⟩ : Fin 1) a b) = recvFull m c (ix2 (⟨512 * k.val + a.val, chunk_row_lt k (ix2 a b)⟩ : Fin 8192) (⟨b.val, b.isLt⟩ : Fin 1024)))
    (ho1 : o 1 = 512 * k.val) (ho2 : o 2 = col c) :
    (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.read (Elt F)
        (View.write (Elt F) ((Memref.whole cc0_scratch4 : Memref sig .tc .vmem S2x512x1024 .bf16).access (Rect.unit (s := S2x512x1024) ![1, 0, 0] S1x512x1024.size inb_S2x512x1024_S1x512x1024_1_0_0)) g p Finset.univ)
      = outChunk m c k := by
  refine slot_holds_out m c k 1 g p fun u a b => ?_
  rw [hp, hmy, hrb, xwin_apply, outChunk_ix2]
  refine congrArg tr (congrArg (fun x => FloatOps.addf x _) (congrArg (xarr m c) (ix3_congr rfl ?_ ?_)))
  · show o 1 + a.val = 512 * k.val + a.val
    rw [ho1]
  · show o 2 + b.val = col c + b.val
    rw [ho2]

/-! ## A band of the result array, last written whole -/

theorem band_final_0 (c : Dev nD) (V : Buf (Elt F) ((c : Thread nD τ).loc main_v1_0)) (D : S512x1024.Idx → F .bf16) (hD : D = outChunk m c 0) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, D⟩]) i = outFull m c i := by
  intro i hi
  have e : ((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, D⟩]
      = ((Memref.whole main_v1_0 : Memref sig .tc .hbm S8192x1024 .bf16).slice (Rect.unit (s := S8192x1024) ![0, 0] S512x1024.size inb_S8192x1024_S512x1024_0_0) (fun _ => rfl)).view.write (Elt F) V D Finset.univ :=
    (View.write_univ_eq_writes_whole ((Memref.whole main_v1_0 : Memref sig .tc .hbm S8192x1024 .bf16).slice (Rect.unit (s := S8192x1024) ![0, 0] S512x1024.size inb_S8192x1024_S512x1024_0_0) (fun _ => rfl)).view V [] D).symm
  rw [e]
  exact band_written_0 m c V D hD i hi
theorem band_final_1 (c : Dev nD) (V : Buf (Elt F) ((c : Thread nD τ).loc main_v1_0)) (D : S512x1024.Idx → F .bf16) (hD : D = outChunk m c 1) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, D⟩]) i = outFull m c i := by
  intro i hi
  have e : ((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, D⟩]
      = ((Memref.whole main_v1_0 : Memref sig .tc .hbm S8192x1024 .bf16).slice (Rect.unit (s := S8192x1024) ![512, 0] S512x1024.size inb_S8192x1024_S512x1024_512_0) (fun _ => rfl)).view.write (Elt F) V D Finset.univ :=
    (View.write_univ_eq_writes_whole ((Memref.whole main_v1_0 : Memref sig .tc .hbm S8192x1024 .bf16).slice (Rect.unit (s := S8192x1024) ![512, 0] S512x1024.size inb_S8192x1024_S512x1024_512_0) (fun _ => rfl)).view V [] D).symm
  rw [e]
  exact band_written_1 m c V D hD i hi
theorem band_final_2 (c : Dev nD) (V : Buf (Elt F) ((c : Thread nD τ).loc main_v1_0)) (D : S512x1024.Idx → F .bf16) (hD : D = outChunk m c 2) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, D⟩]) i = outFull m c i := by
  intro i hi
  have e : ((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, D⟩]
      = ((Memref.whole main_v1_0 : Memref sig .tc .hbm S8192x1024 .bf16).slice (Rect.unit (s := S8192x1024) ![1024, 0] S512x1024.size inb_S8192x1024_S512x1024_1024_0) (fun _ => rfl)).view.write (Elt F) V D Finset.univ :=
    (View.write_univ_eq_writes_whole ((Memref.whole main_v1_0 : Memref sig .tc .hbm S8192x1024 .bf16).slice (Rect.unit (s := S8192x1024) ![1024, 0] S512x1024.size inb_S8192x1024_S512x1024_1024_0) (fun _ => rfl)).view V [] D).symm
  rw [e]
  exact band_written_2 m c V D hD i hi
theorem band_final_3 (c : Dev nD) (V : Buf (Elt F) ((c : Thread nD τ).loc main_v1_0)) (D : S512x1024.Idx → F .bf16) (hD : D = outChunk m c 3) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, D⟩]) i = outFull m c i := by
  intro i hi
  have e : ((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, D⟩]
      = ((Memref.whole main_v1_0 : Memref sig .tc .hbm S8192x1024 .bf16).slice (Rect.unit (s := S8192x1024) ![1536, 0] S512x1024.size inb_S8192x1024_S512x1024_1536_0) (fun _ => rfl)).view.write (Elt F) V D Finset.univ :=
    (View.write_univ_eq_writes_whole ((Memref.whole main_v1_0 : Memref sig .tc .hbm S8192x1024 .bf16).slice (Rect.unit (s := S8192x1024) ![1536, 0] S512x1024.size inb_S8192x1024_S512x1024_1536_0) (fun _ => rfl)).view V [] D).symm
  rw [e]
  exact band_written_3 m c V D hD i hi
theorem band_final_4 (c : Dev nD) (V : Buf (Elt F) ((c : Thread nD τ).loc main_v1_0)) (D : S512x1024.Idx → F .bf16) (hD : D = outChunk m c 4) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, D⟩]) i = outFull m c i := by
  intro i hi
  have e : ((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, D⟩]
      = ((Memref.whole main_v1_0 : Memref sig .tc .hbm S8192x1024 .bf16).slice (Rect.unit (s := S8192x1024) ![2048, 0] S512x1024.size inb_S8192x1024_S512x1024_2048_0) (fun _ => rfl)).view.write (Elt F) V D Finset.univ :=
    (View.write_univ_eq_writes_whole ((Memref.whole main_v1_0 : Memref sig .tc .hbm S8192x1024 .bf16).slice (Rect.unit (s := S8192x1024) ![2048, 0] S512x1024.size inb_S8192x1024_S512x1024_2048_0) (fun _ => rfl)).view V [] D).symm
  rw [e]
  exact band_written_4 m c V D hD i hi
theorem band_final_5 (c : Dev nD) (V : Buf (Elt F) ((c : Thread nD τ).loc main_v1_0)) (D : S512x1024.Idx → F .bf16) (hD : D = outChunk m c 5) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, D⟩]) i = outFull m c i := by
  intro i hi
  have e : ((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, D⟩]
      = ((Memref.whole main_v1_0 : Memref sig .tc .hbm S8192x1024 .bf16).slice (Rect.unit (s := S8192x1024) ![2560, 0] S512x1024.size inb_S8192x1024_S512x1024_2560_0) (fun _ => rfl)).view.write (Elt F) V D Finset.univ :=
    (View.write_univ_eq_writes_whole ((Memref.whole main_v1_0 : Memref sig .tc .hbm S8192x1024 .bf16).slice (Rect.unit (s := S8192x1024) ![2560, 0] S512x1024.size inb_S8192x1024_S512x1024_2560_0) (fun _ => rfl)).view V [] D).symm
  rw [e]
  exact band_written_5 m c V D hD i hi
theorem band_final_6 (c : Dev nD) (V : Buf (Elt F) ((c : Thread nD τ).loc main_v1_0)) (D : S512x1024.Idx → F .bf16) (hD : D = outChunk m c 6) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, D⟩]) i = outFull m c i := by
  intro i hi
  have e : ((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, D⟩]
      = ((Memref.whole main_v1_0 : Memref sig .tc .hbm S8192x1024 .bf16).slice (Rect.unit (s := S8192x1024) ![3072, 0] S512x1024.size inb_S8192x1024_S512x1024_3072_0) (fun _ => rfl)).view.write (Elt F) V D Finset.univ :=
    (View.write_univ_eq_writes_whole ((Memref.whole main_v1_0 : Memref sig .tc .hbm S8192x1024 .bf16).slice (Rect.unit (s := S8192x1024) ![3072, 0] S512x1024.size inb_S8192x1024_S512x1024_3072_0) (fun _ => rfl)).view V [] D).symm
  rw [e]
  exact band_written_6 m c V D hD i hi
theorem band_final_7 (c : Dev nD) (V : Buf (Elt F) ((c : Thread nD τ).loc main_v1_0)) (D : S512x1024.Idx → F .bf16) (hD : D = outChunk m c 7) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, D⟩]) i = outFull m c i := by
  intro i hi
  have e : ((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, D⟩]
      = ((Memref.whole main_v1_0 : Memref sig .tc .hbm S8192x1024 .bf16).slice (Rect.unit (s := S8192x1024) ![3584, 0] S512x1024.size inb_S8192x1024_S512x1024_3584_0) (fun _ => rfl)).view.write (Elt F) V D Finset.univ :=
    (View.write_univ_eq_writes_whole ((Memref.whole main_v1_0 : Memref sig .tc .hbm S8192x1024 .bf16).slice (Rect.unit (s := S8192x1024) ![3584, 0] S512x1024.size inb_S8192x1024_S512x1024_3584_0) (fun _ => rfl)).view V [] D).symm
  rw [e]
  exact band_written_7 m c V D hD i hi
theorem band_final_8 (c : Dev nD) (V : Buf (Elt F) ((c : Thread nD τ).loc main_v1_0)) (D : S512x1024.Idx → F .bf16) (hD : D = outChunk m c 8) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, D⟩]) i = outFull m c i := by
  intro i hi
  have e : ((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, D⟩]
      = ((Memref.whole main_v1_0 : Memref sig .tc .hbm S8192x1024 .bf16).slice (Rect.unit (s := S8192x1024) ![4096, 0] S512x1024.size inb_S8192x1024_S512x1024_4096_0) (fun _ => rfl)).view.write (Elt F) V D Finset.univ :=
    (View.write_univ_eq_writes_whole ((Memref.whole main_v1_0 : Memref sig .tc .hbm S8192x1024 .bf16).slice (Rect.unit (s := S8192x1024) ![4096, 0] S512x1024.size inb_S8192x1024_S512x1024_4096_0) (fun _ => rfl)).view V [] D).symm
  rw [e]
  exact band_written_8 m c V D hD i hi
theorem band_final_9 (c : Dev nD) (V : Buf (Elt F) ((c : Thread nD τ).loc main_v1_0)) (D : S512x1024.Idx → F .bf16) (hD : D = outChunk m c 9) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, D⟩]) i = outFull m c i := by
  intro i hi
  have e : ((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, D⟩]
      = ((Memref.whole main_v1_0 : Memref sig .tc .hbm S8192x1024 .bf16).slice (Rect.unit (s := S8192x1024) ![4608, 0] S512x1024.size inb_S8192x1024_S512x1024_4608_0) (fun _ => rfl)).view.write (Elt F) V D Finset.univ :=
    (View.write_univ_eq_writes_whole ((Memref.whole main_v1_0 : Memref sig .tc .hbm S8192x1024 .bf16).slice (Rect.unit (s := S8192x1024) ![4608, 0] S512x1024.size inb_S8192x1024_S512x1024_4608_0) (fun _ => rfl)).view V [] D).symm
  rw [e]
  exact band_written_9 m c V D hD i hi
theorem band_final_10 (c : Dev nD) (V : Buf (Elt F) ((c : Thread nD τ).loc main_v1_0)) (D : S512x1024.Idx → F .bf16) (hD : D = outChunk m c 10) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, D⟩]) i = outFull m c i := by
  intro i hi
  have e : ((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, D⟩]
      = ((Memref.whole main_v1_0 : Memref sig .tc .hbm S8192x1024 .bf16).slice (Rect.unit (s := S8192x1024) ![5120, 0] S512x1024.size inb_S8192x1024_S512x1024_5120_0) (fun _ => rfl)).view.write (Elt F) V D Finset.univ :=
    (View.write_univ_eq_writes_whole ((Memref.whole main_v1_0 : Memref sig .tc .hbm S8192x1024 .bf16).slice (Rect.unit (s := S8192x1024) ![5120, 0] S512x1024.size inb_S8192x1024_S512x1024_5120_0) (fun _ => rfl)).view V [] D).symm
  rw [e]
  exact band_written_10 m c V D hD i hi
theorem band_final_11 (c : Dev nD) (V : Buf (Elt F) ((c : Thread nD τ).loc main_v1_0)) (D : S512x1024.Idx → F .bf16) (hD : D = outChunk m c 11) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, D⟩]) i = outFull m c i := by
  intro i hi
  have e : ((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, D⟩]
      = ((Memref.whole main_v1_0 : Memref sig .tc .hbm S8192x1024 .bf16).slice (Rect.unit (s := S8192x1024) ![5632, 0] S512x1024.size inb_S8192x1024_S512x1024_5632_0) (fun _ => rfl)).view.write (Elt F) V D Finset.univ :=
    (View.write_univ_eq_writes_whole ((Memref.whole main_v1_0 : Memref sig .tc .hbm S8192x1024 .bf16).slice (Rect.unit (s := S8192x1024) ![5632, 0] S512x1024.size inb_S8192x1024_S512x1024_5632_0) (fun _ => rfl)).view V [] D).symm
  rw [e]
  exact band_written_11 m c V D hD i hi
theorem band_final_12 (c : Dev nD) (V : Buf (Elt F) ((c : Thread nD τ).loc main_v1_0)) (D : S512x1024.Idx → F .bf16) (hD : D = outChunk m c 12) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, D⟩]) i = outFull m c i := by
  intro i hi
  have e : ((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, D⟩]
      = ((Memref.whole main_v1_0 : Memref sig .tc .hbm S8192x1024 .bf16).slice (Rect.unit (s := S8192x1024) ![6144, 0] S512x1024.size inb_S8192x1024_S512x1024_6144_0) (fun _ => rfl)).view.write (Elt F) V D Finset.univ :=
    (View.write_univ_eq_writes_whole ((Memref.whole main_v1_0 : Memref sig .tc .hbm S8192x1024 .bf16).slice (Rect.unit (s := S8192x1024) ![6144, 0] S512x1024.size inb_S8192x1024_S512x1024_6144_0) (fun _ => rfl)).view V [] D).symm
  rw [e]
  exact band_written_12 m c V D hD i hi
theorem band_final_13 (c : Dev nD) (V : Buf (Elt F) ((c : Thread nD τ).loc main_v1_0)) (D : S512x1024.Idx → F .bf16) (hD : D = outChunk m c 13) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, D⟩]) i = outFull m c i := by
  intro i hi
  have e : ((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, D⟩]
      = ((Memref.whole main_v1_0 : Memref sig .tc .hbm S8192x1024 .bf16).slice (Rect.unit (s := S8192x1024) ![6656, 0] S512x1024.size inb_S8192x1024_S512x1024_6656_0) (fun _ => rfl)).view.write (Elt F) V D Finset.univ :=
    (View.write_univ_eq_writes_whole ((Memref.whole main_v1_0 : Memref sig .tc .hbm S8192x1024 .bf16).slice (Rect.unit (s := S8192x1024) ![6656, 0] S512x1024.size inb_S8192x1024_S512x1024_6656_0) (fun _ => rfl)).view V [] D).symm
  rw [e]
  exact band_written_13 m c V D hD i hi
theorem band_final_14 (c : Dev nD) (V : Buf (Elt F) ((c : Thread nD τ).loc main_v1_0)) (D : S512x1024.Idx → F .bf16) (hD : D = outChunk m c 14) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, D⟩]) i = outFull m c i := by
  intro i hi
  have e : ((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, D⟩]
      = ((Memref.whole main_v1_0 : Memref sig .tc .hbm S8192x1024 .bf16).slice (Rect.unit (s := S8192x1024) ![7168, 0] S512x1024.size inb_S8192x1024_S512x1024_7168_0) (fun _ => rfl)).view.write (Elt F) V D Finset.univ :=
    (View.write_univ_eq_writes_whole ((Memref.whole main_v1_0 : Memref sig .tc .hbm S8192x1024 .bf16).slice (Rect.unit (s := S8192x1024) ![7168, 0] S512x1024.size inb_S8192x1024_S512x1024_7168_0) (fun _ => rfl)).view V [] D).symm
  rw [e]
  exact band_written_14 m c V D hD i hi
theorem band_final_15 (c : Dev nD) (V : Buf (Elt F) ((c : Thread nD τ).loc main_v1_0)) (D : S512x1024.Idx → F .bf16) (hD : D = outChunk m c 15) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, D⟩]) i = outFull m c i := by
  intro i hi
  have e : ((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, D⟩]
      = ((Memref.whole main_v1_0 : Memref sig .tc .hbm S8192x1024 .bf16).slice (Rect.unit (s := S8192x1024) ![7680, 0] S512x1024.size inb_S8192x1024_S512x1024_7680_0) (fun _ => rfl)).view.write (Elt F) V D Finset.univ :=
    (View.write_univ_eq_writes_whole ((Memref.whole main_v1_0 : Memref sig .tc .hbm S8192x1024 .bf16).slice (Rect.unit (s := S8192x1024) ![7680, 0] S512x1024.size inb_S8192x1024_S512x1024_7680_0) (fun _ => rfl)).view V [] D).symm
  rw [e]
  exact band_written_15 m c V D hD i hi

end Cert.Kernel.RS

end
-- ==== Proof.KernelBandGoals.lean ====
import proofs.«901042_g7700000000001043_dist_rs_v7x_xyz2x4x4_x_m8192_n1024_bf16_1_alg».proof.Proof.KernelBandFacts

noncomputable section

namespace Cert.Kernel.RS

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Each band of the result array as the body leaves it: last written whole with the value read off its staging slot -/

theorem band_goal_0 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (0 : Fin 16).val) (ho2 : o 2 = col c) :
    ∀ i ∈ ((Memref.whole main_v1_0 : Memref sig .tc .hbm S8192x1024 .bf16).slice (Rect.unit (s := S8192x1024) ![0, 0] S512x1024.size inb_S8192x1024_S512x1024_0_0) (fun _ => rfl)).view.set,
      (((Memref.whole main_v1_0 : Memref sig .tc .hbm S8192x1024 .bf16).slice (Rect.unit (s := S8192x1024) ![0, 0] S512x1024.size inb_S8192x1024_S512x1024_0_0) (fun _ => rfl)).view.writes (Elt F) V
        [⟨Rect.whole (Rect.unit (s := S8192x1024) ![0, 0] S512x1024.size inb_S8192x1024_S512x1024_0_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) Finset.univ)))⟩]) i = outFull m c i :=
  band_final_0 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) Finset.univ)))
    (out_chunk_of_0 m c 0 g4 (k0_pay19 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3))) o ho
      (fun u a b => bandpay0_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![0, 0] S512x1024.size inb_S8192x1024_S512x1024_0_0) (fun _ => rfl)).view (recvFull m c))) (⟨0, by decide⟩ : Fin 1) a b).trans (rb_read m c 0 a b))
      ho1 ho2)

theorem band_goal_1 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (1 : Fin 16).val) (ho2 : o 2 = col c) :
    ∀ i ∈ ((Memref.whole main_v1_0 : Memref sig .tc .hbm S8192x1024 .bf16).slice (Rect.unit (s := S8192x1024) ![512, 0] S512x1024.size inb_S8192x1024_S512x1024_512_0) (fun _ => rfl)).view.set,
      (((Memref.whole main_v1_0 : Memref sig .tc .hbm S8192x1024 .bf16).slice (Rect.unit (s := S8192x1024) ![512, 0] S512x1024.size inb_S8192x1024_S512x1024_512_0) (fun _ => rfl)).view.writes (Elt F) V
        [⟨Rect.whole (Rect.unit (s := S8192x1024) ![512, 0] S512x1024.size inb_S8192x1024_S512x1024_512_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) Finset.univ)))⟩]) i = outFull m c i :=
  band_final_1 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) Finset.univ)))
    (out_chunk_of_1 m c 1 g4 (k0_pay21 (k0_pay20 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3))) o ho
      (fun u a b => bandpay1_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![512, 0] S512x1024.size inb_S8192x1024_S512x1024_512_0) (fun _ => rfl)).view (recvFull m c))) (⟨0, by decide⟩ : Fin 1) a b).trans (rb_read m c 1 a b))
      ho1 ho2)

theorem band_goal_2 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (2 : Fin 16).val) (ho2 : o 2 = col c) :
    ∀ i ∈ ((Memref.whole main_v1_0 : Memref sig .tc .hbm S8192x1024 .bf16).slice (Rect.unit (s := S8192x1024) ![1024, 0] S512x1024.size inb_S8192x1024_S512x1024_1024_0) (fun _ => rfl)).view.set,
      (((Memref.whole main_v1_0 : Memref sig .tc .hbm S8192x1024 .bf16).slice (Rect.unit (s := S8192x1024) ![1024, 0] S512x1024.size inb_S8192x1024_S512x1024_1024_0) (fun _ => rfl)).view.writes (Elt F) V
        [⟨Rect.whole (Rect.unit (s := S8192x1024) ![1024, 0] S512x1024.size inb_S8192x1024_S512x1024_1024_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) Finset.univ)))⟩]) i = outFull m c i :=
  band_final_2 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) Finset.univ)))
    (out_chunk_of_0 m c 2 g4 (k0_pay23 (k0_pay22 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3))) o ho
      (fun u a b => bandpay2_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![1024, 0] S512x1024.size inb_S8192x1024_S512x1024_1024_0) (fun _ => rfl)).view (recvFull m c))) (⟨0, by decide⟩ : Fin 1) a b).trans (rb_read m c 2 a b))
      ho1 ho2)

theorem band_goal_3 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (3 : Fin 16).val) (ho2 : o 2 = col c) :
    ∀ i ∈ ((Memref.whole main_v1_0 : Memref sig .tc .hbm S8192x1024 .bf16).slice (Rect.unit (s := S8192x1024) ![1536, 0] S512x1024.size inb_S8192x1024_S512x1024_1536_0) (fun _ => rfl)).view.set,
      (((Memref.whole main_v1_0 : Memref sig .tc .hbm S8192x1024 .bf16).slice (Rect.unit (s := S8192x1024) ![1536, 0] S512x1024.size inb_S8192x1024_S512x1024_1536_0) (fun _ => rfl)).view.writes (Elt F) V
        [⟨Rect.whole (Rect.unit (s := S8192x1024) ![1536, 0] S512x1024.size inb_S8192x1024_S512x1024_1536_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) Finset.univ)))⟩]) i = outFull m c i :=
  band_final_3 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) Finset.univ)))
    (out_chunk_of_1 m c 3 g4 (k0_pay25 (k0_pay24 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3))) o ho
      (fun u a b => bandpay3_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![1536, 0] S512x1024.size inb_S8192x1024_S512x1024_1536_0) (fun _ => rfl)).view (recvFull m c))) (⟨0, by decide⟩ : Fin 1) a b).trans (rb_read m c 3 a b))
      ho1 ho2)

theorem band_goal_4 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (4 : Fin 16).val) (ho2 : o 2 = col c) :
    ∀ i ∈ ((Memref.whole main_v1_0 : Memref sig .tc .hbm S8192x1024 .bf16).slice (Rect.unit (s := S8192x1024) ![2048, 0] S512x1024.size inb_S8192x1024_S512x1024_2048_0) (fun _ => rfl)).view.set,
      (((Memref.whole main_v1_0 : Memref sig .tc .hbm S8192x1024 .bf16).slice (Rect.unit (s := S8192x1024) ![2048, 0] S512x1024.size inb_S8192x1024_S512x1024_2048_0) (fun _ => rfl)).view.writes (Elt F) V
        [⟨Rect.whole (Rect.unit (s := S8192x1024) ![2048, 0] S512x1024.size inb_S8192x1024_S512x1024_2048_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) Finset.univ)))⟩]) i = outFull m c i :=
  band_final_4 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) Finset.univ)))
    (out_chunk_of_0 m c 4 g4 (k0_pay27 (k0_pay26 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3))) o ho
      (fun u a b => bandpay4_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![2048, 0] S512x1024.size inb_S8192x1024_S512x1024_2048_0) (fun _ => rfl)).view (recvFull m c))) (⟨0, by decide⟩ : Fin 1) a b).trans (rb_read m c 4 a b))
      ho1 ho2)

theorem band_goal_5 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (5 : Fin 16).val) (ho2 : o 2 = col c) :
    ∀ i ∈ ((Memref.whole main_v1_0 : Memref sig .tc .hbm S8192x1024 .bf16).slice (Rect.unit (s := S8192x1024) ![2560, 0] S512x1024.size inb_S8192x1024_S512x1024_2560_0) (fun _ => rfl)).view.set,
      (((Memref.whole main_v1_0 : Memref sig .tc .hbm S8192x1024 .bf16).slice (Rect.unit (s := S8192x1024) ![2560, 0] S512x1024.size inb_S8192x1024_S512x1024_2560_0) (fun _ => rfl)).view.writes (Elt F) V
        [⟨Rect.whole (Rect.unit (s := S8192x1024) ![2560, 0] S512x1024.size inb_S8192x1024_S512x1024_2560_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) Finset.univ)))⟩]) i = outFull m c i :=
  band_final_5 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) Finset.univ)))
    (out_chunk_of_1 m c 5 g4 (k0_pay29 (k0_pay28 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3))) o ho
      (fun u a b => bandpay5_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![2560, 0] S512x1024.size inb_S8192x1024_S512x1024_2560_0) (fun _ => rfl)).view (recvFull m c))) (⟨0, by decide⟩ : Fin 1) a b).trans (rb_read m c 5 a b))
      ho1 ho2)

theorem band_goal_6 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (6 : Fin 16).val) (ho2 : o 2 = col c) :
    ∀ i ∈ ((Memref.whole main_v1_0 : Memref sig .tc .hbm S8192x1024 .bf16).slice (Rect.unit (s := S8192x1024) ![3072, 0] S512x1024.size inb_S8192x1024_S512x1024_3072_0) (fun _ => rfl)).view.set,
      (((Memref.whole main_v1_0 : Memref sig .tc .hbm S8192x1024 .bf16).slice (Rect.unit (s := S8192x1024) ![3072, 0] S512x1024.size inb_S8192x1024_S512x1024_3072_0) (fun _ => rfl)).view.writes (Elt F) V
        [⟨Rect.whole (Rect.unit (s := S8192x1024) ![3072, 0] S512x1024.size inb_S8192x1024_S512x1024_3072_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) Finset.univ)))⟩]) i = outFull m c i :=
  band_final_6 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) Finset.univ)))
    (out_chunk_of_0 m c 6 g4 (k0_pay30 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3))) o ho
      (fun u a b => bandpay6_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![3072, 0] S512x1024.size inb_S8192x1024_S512x1024_3072_0) (fun _ => rfl)).view (recvFull m c))) (⟨0, by decide⟩ : Fin 1) a b).trans (rb_read m c 6 a b))
      ho1 ho2)

theorem band_goal_7 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (7 : Fin 16).val) (ho2 : o 2 = col c) :
    ∀ i ∈ ((Memref.whole main_v1_0 : Memref sig .tc .hbm S8192x1024 .bf16).slice (Rect.unit (s := S8192x1024) ![3584, 0] S512x1024.size inb_S8192x1024_S512x1024_3584_0) (fun _ => rfl)).view.set,
      (((Memref.whole main_v1_0 : Memref sig .tc .hbm S8192x1024 .bf16).slice (Rect.unit (s := S8192x1024) ![3584, 0] S512x1024.size inb_S8192x1024_S512x1024_3584_0) (fun _ => rfl)).view.writes (Elt F) V
        [⟨Rect.whole (Rect.unit (s := S8192x1024) ![3584, 0] S512x1024.size inb_S8192x1024_S512x1024_3584_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) Finset.univ)))⟩]) i = outFull m c i :=
  band_final_7 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) Finset.univ)))
    (out_chunk_of_1 m c 7 g4 (k0_pay31 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3))) o ho
      (fun u a b => bandpay7_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![3584, 0] S512x1024.size inb_S8192x1024_S512x1024_3584_0) (fun _ => rfl)).view (recvFull m c))) (⟨0, by decide⟩ : Fin 1) a b).trans (rb_read m c 7 a b))
      ho1 ho2)

theorem band_goal_8 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (8 : Fin 16).val) (ho2 : o 2 = col c) :
    ∀ i ∈ ((Memref.whole main_v1_0 : Memref sig .tc .hbm S8192x1024 .bf16).slice (Rect.unit (s := S8192x1024) ![4096, 0] S512x1024.size inb_S8192x1024_S512x1024_4096_0) (fun _ => rfl)).view.set,
      (((Memref.whole main_v1_0 : Memref sig .tc .hbm S8192x1024 .bf16).slice (Rect.unit (s := S8192x1024) ![4096, 0] S512x1024.size inb_S8192x1024_S512x1024_4096_0) (fun _ => rfl)).view.writes (Elt F) V
        [⟨Rect.whole (Rect.unit (s := S8192x1024) ![4096, 0] S512x1024.size inb_S8192x1024_S512x1024_4096_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) Finset.univ)))⟩]) i = outFull m c i :=
  band_final_8 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) Finset.univ)))
    (out_chunk_of_0 m c 8 g4 (k0_pay32 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3))) o ho
      (fun u a b => bandpay8_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![4096, 0] S512x1024.size inb_S8192x1024_S512x1024_4096_0) (fun _ => rfl)).view (recvFull m c))) (⟨0, by decide⟩ : Fin 1) a b).trans (rb_read m c 8 a b))
      ho1 ho2)

theorem band_goal_9 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (9 : Fin 16).val) (ho2 : o 2 = col c) :
    ∀ i ∈ ((Memref.whole main_v1_0 : Memref sig .tc .hbm S8192x1024 .bf16).slice (Rect.unit (s := S8192x1024) ![4608, 0] S512x1024.size inb_S8192x1024_S512x1024_4608_0) (fun _ => rfl)).view.set,
      (((Memref.whole main_v1_0 : Memref sig .tc .hbm S8192x1024 .bf16).slice (Rect.unit (s := S8192x1024) ![4608, 0] S512x1024.size inb_S8192x1024_S512x1024_4608_0) (fun _ => rfl)).view.writes (Elt F) V
        [⟨Rect.whole (Rect.unit (s := S8192x1024) ![4608, 0] S512x1024.size inb_S8192x1024_S512x1024_4608_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) Finset.univ)))⟩]) i = outFull m c i :=
  band_final_9 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) Finset.univ)))
    (out_chunk_of_1 m c 9 g4 (k0_pay33 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3))) o ho
      (fun u a b => bandpay9_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![4608, 0] S512x1024.size inb_S8192x1024_S512x1024_4608_0) (fun _ => rfl)).view (recvFull m c))) (⟨0, by decide⟩ : Fin 1) a b).trans (rb_read m c 9 a b))
      ho1 ho2)

theorem band_goal_10 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (10 : Fin 16).val) (ho2 : o 2 = col c) :
    ∀ i ∈ ((Memref.whole main_v1_0 : Memref sig .tc .hbm S8192x1024 .bf16).slice (Rect.unit (s := S8192x1024) ![5120, 0] S512x1024.size inb_S8192x1024_S512x1024_5120_0) (fun _ => rfl)).view.set,
      (((Memref.whole main_v1_0 : Memref sig .tc .hbm S8192x1024 .bf16).slice (Rect.unit (s := S8192x1024) ![5120, 0] S512x1024.size inb_S8192x1024_S512x1024_5120_0) (fun _ => rfl)).view.writes (Elt F) V
        [⟨Rect.whole (Rect.unit (s := S8192x1024) ![5120, 0] S512x1024.size inb_S8192x1024_S512x1024_5120_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) Finset.univ)))⟩]) i = outFull m c i :=
  band_final_10 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) Finset.univ)))
    (out_chunk_of_0 m c 10 g4 (k0_pay34 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3))) o ho
      (fun u a b => bandpay10_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![5120, 0] S512x1024.size inb_S8192x1024_S512x1024_5120_0) (fun _ => rfl)).view (recvFull m c))) (⟨0, by decide⟩ : Fin 1) a b).trans (rb_read m c 10 a b))
      ho1 ho2)

theorem band_goal_11 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (11 : Fin 16).val) (ho2 : o 2 = col c) :
    ∀ i ∈ ((Memref.whole main_v1_0 : Memref sig .tc .hbm S8192x1024 .bf16).slice (Rect.unit (s := S8192x1024) ![5632, 0] S512x1024.size inb_S8192x1024_S512x1024_5632_0) (fun _ => rfl)).view.set,
      (((Memref.whole main_v1_0 : Memref sig .tc .hbm S8192x1024 .bf16).slice (Rect.unit (s := S8192x1024) ![5632, 0] S512x1024.size inb_S8192x1024_S512x1024_5632_0) (fun _ => rfl)).view.writes (Elt F) V
        [⟨Rect.whole (Rect.unit (s := S8192x1024) ![5632, 0] S512x1024.size inb_S8192x1024_S512x1024_5632_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) Finset.univ)))⟩]) i = outFull m c i :=
  band_final_11 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) Finset.univ)))
    (out_chunk_of_1 m c 11 g4 (k0_pay35 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3))) o ho
      (fun u a b => bandpay11_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![5632, 0] S512x1024.size inb_S8192x1024_S512x1024_5632_0) (fun _ => rfl)).view (recvFull m c))) (⟨0, by decide⟩ : Fin 1) a b).trans (rb_read m c 11 a b))
      ho1 ho2)

theorem band_goal_12 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (12 : Fin 16).val) (ho2 : o 2 = col c) :
    ∀ i ∈ ((Memref.whole main_v1_0 : Memref sig .tc .hbm S8192x1024 .bf16).slice (Rect.unit (s := S8192x1024) ![6144, 0] S512x1024.size inb_S8192x1024_S512x1024_6144_0) (fun _ => rfl)).view.set,
      (((Memref.whole main_v1_0 : Memref sig .tc .hbm S8192x1024 .bf16).slice (Rect.unit (s := S8192x1024) ![6144, 0] S512x1024.size inb_S8192x1024_S512x1024_6144_0) (fun _ => rfl)).view.writes (Elt F) V
        [⟨Rect.whole (Rect.unit (s := S8192x1024) ![6144, 0] S512x1024.size inb_S8192x1024_S512x1024_6144_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) Finset.univ)))⟩]) i = outFull m c i :=
  band_final_12 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) Finset.univ)))
    (out_chunk_of_0 m c 12 g4 (k0_pay36 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3))) o ho
      (fun u a b => bandpay12_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![6144, 0] S512x1024.size inb_S8192x1024_S512x1024_6144_0) (fun _ => rfl)).view (recvFull m c))) (⟨0, by decide⟩ : Fin 1) a b).trans (rb_read m c 12 a b))
      ho1 ho2)

theorem band_goal_13 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (13 : Fin 16).val) (ho2 : o 2 = col c) :
    ∀ i ∈ ((Memref.whole main_v1_0 : Memref sig .tc .hbm S8192x1024 .bf16).slice (Rect.unit (s := S8192x1024) ![6656, 0] S512x1024.size inb_S8192x1024_S512x1024_6656_0) (fun _ => rfl)).view.set,
      (((Memref.whole main_v1_0 : Memref sig .tc .hbm S8192x1024 .bf16).slice (Rect.unit (s := S8192x1024) ![6656, 0] S512x1024.size inb_S8192x1024_S512x1024_6656_0) (fun _ => rfl)).view.writes (Elt F) V
        [⟨Rect.whole (Rect.unit (s := S8192x1024) ![6656, 0] S512x1024.size inb_S8192x1024_S512x1024_6656_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) Finset.univ)))⟩]) i = outFull m c i :=
  band_final_13 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) Finset.univ)))
    (out_chunk_of_1 m c 13 g4 (k0_pay37 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3)))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3))) o ho
      (fun u a b => bandpay13_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![6656, 0] S512x1024.size inb_S8192x1024_S512x1024_6656_0) (fun _ => rfl)).view (recvFull m c))) (⟨0, by decide⟩ : Fin 1) a b).trans (rb_read m c 13 a b))
      ho1 ho2)

theorem band_goal_14 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (14 : Fin 16).val) (ho2 : o 2 = col c) :
    ∀ i ∈ ((Memref.whole main_v1_0 : Memref sig .tc .hbm S8192x1024 .bf16).slice (Rect.unit (s := S8192x1024) ![7168, 0] S512x1024.size inb_S8192x1024_S512x1024_7168_0) (fun _ => rfl)).view.set,
      (((Memref.whole main_v1_0 : Memref sig .tc .hbm S8192x1024 .bf16).slice (Rect.unit (s := S8192x1024) ![7168, 0] S512x1024.size inb_S8192x1024_S512x1024_7168_0) (fun _ => rfl)).view.writes (Elt F) V
        [⟨Rect.whole (Rect.unit (s := S8192x1024) ![7168, 0] S512x1024.size inb_S8192x1024_S512x1024_7168_0).shape, (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) Finset.univ)))⟩]) i = outFull m c i :=
  band_final_14 m c V (ReadAs.same.apply (View.read (Elt F) (((Memref.whole cc0_scratch4 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view (View.write (Elt F) ((Memref.whole cc0_scratch4 : Memref sig .tc .vmem S2x512x1024 .bf16).access (Rect.unit (s := S2x512x1024) ![0, 0, 0] S1x512x1024.size inb_S2x512x1024_S1x512x1024_0_0_0)) g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) Finset.univ)))
    (out_chunk_of_0 m c 14 g4 (k0_pay38 (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3)))) (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3))) o ho
      (fun u a b => bandpay14_apply (View.readAt (Elt F) (Memref.whole cc0_scratch2 : Memref sig .tc .vmem S2x512x1024 .f32).view (Rect.unit (s := S2x512x1024) ![0, 0, 0] S1x512x1024.size inb_S2x512x1024_S1x512x1024_0_0_0).toLoadRect ((((Memref.whole cc0_scratch2 : Memref sig .tc .vmem S2x512x1024 .f32).slice (Rect.unit (s := S2x512x1024) ![0, 0, 0] S1x512x1024.size inb_S2x512x1024_S1x512x1024_0_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![0, 0, 0] S1x512x1024.size inb_S2x512x1024_S1x512x1024_0_0_0).toLoadRect ((((Memref.whole cc0_scratch3 : Memref sig .tc .vmem S2x512x1024 .bf16).slice (Rect.unit (s := S2x512x1024) ![0, 0, 0] S1x512x1024.size inb_S2x512x1024_S1x512x1024_0_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c)))⟩ :: L3))) u a b)
      (fun a b => load_listed (Memref.whole cc0_scratch2 : Memref sig .tc .vmem S2x512x1024 .f32).view 0 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 0 squeezes_S1x512x1024_S512x1024.numel_eq g3 L3 (ReadAs.same.apply (View.read (Elt F) ((Memref.whole main_v1_1 : Memref sig .tc .hbm S8192x1024 .bf16).slice (Rect.unit (s := S8192x1024) ![7168, 0] S512x1024.size inb_S8192x1024_S512x1024_7168_0) (fun _ => rfl)).view (recvFull m c))) (⟨0, by decide⟩ : Fin 1) a b).trans (rb_read m c 14 a b))
      ho1 ho2)

theorem band_goal_15 (c : Dev nD) (V : Buf (Elt F) ((c : Thread nD τ).loc main_v1_0)) (g4 : Buf (Elt F) ((c : Thread nD τ).loc cc0_scratch4))
    (g2 : Buf (Elt F) ((c : Thread nD τ).loc cc0_scratch2)) (g3 : Buf (Elt F) ((c : Thread nD τ).loc cc0_scratch3))
    (L2 : List (View.Piece (Elt F) S512x1024 .f32)) (L3 : List (View.Piece (Elt F) S512x1024 .bf16))
    (o : Fin 3 → ℕ) (ho : ∀ a, o a + S1x512x1024.size a ≤ S1x8192x2048.size a) (ho1 : o 1 = 512 * (15 : Fin 16).val) (ho2 : o 2 = col c) :
    ∀ i ∈ ((Memref.whole main_v1_0 : Memref sig .tc .hbm S8192x1024 .bf16).slice (Rect.unit (s := S8192x1024) ![7680, 0] S512x1024.size inb_S8192x1024_S512x1024_7680_0) (fun _ => rfl)).view.set,
      (((Memref.whole main_v1_0 : Memref sig .tc .hbm S8192x1024 .bf16).slice (Rect.unit (s := S8192x1024) ![7680, 0] S512x1024.size inb_S8192x1024_S512x1024_7680_0) (fun _ => rfl)).view.writes (Elt F) V
        [⟨Rect.whole (Rect.unit (s := S8192x1024) ![7680, 0] S512x1024.size inb_S8192x1024_S512x1024_7680_0).shape, (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) Finset.univ)))⟩]) i = outFull m c i :=
  band_final_15 m c V (ReadAs.same.apply (View.read (Elt F) (((Memref.whole cc0_scratch4 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view (View.write (Elt F) ((Memref.whole cc0_scratch4 : Memref sig .tc .vmem S2x512x1024 .bf16).access (Rect.unit (s := S2x512x1024) ![1, 0, 0] S1x512x1024.size inb_S2x512x1024_S1x512x1024_1_0_0)) g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) Finset.univ)))
    (out_chunk_of_1 m c 15 g4 (k0_pay41 (k0_pay39 (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2)))) (k0_pay40 (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))))) (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))) o ho
      (fun u a b => bandpay15_apply (View.readAt (Elt F) (Memref.whole cc0_scratch2 : Memref sig .tc .vmem S2x512x1024 .f32).view (Rect.unit (s := S2x512x1024) ![1, 0, 0] S1x512x1024.size inb_S2x512x1024_S1x512x1024_1_0_0).toLoadRect ((((Memref.whole cc0_scratch2 : Memref sig .tc .vmem S2x512x1024 .f32).slice (Rect.unit (s := S2x512x1024) ![1, 0, 0] S1x512x1024.size inb_S2x512x1024_S1x512x1024_1_0_0) (fun _ => rfl)).squeeze S512x1024 squeezes_S1x512x1024_S512x1024).view.writes (Elt F) g2 (⟨Rect.whole S512x1024, (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0))))⟩ :: L2))) (View.readAt (Elt F) (Memref.whole cc0_scratch3 : Memref sig .tc .vmem S2x512x1024 .bf16).view (Rect.unit (s := S2x512x1024) ![1, 0, 0] S1x512x1024.size inb_S2x512x1024_S1x512x1024_1_0_0).toLoadRect ((((Memref.whole cc0_scratch3 : Memref sig .tc .vmem S2x512x1024 .bf16).slice (Rect.unit (s := S2x512x1024) ![1, 0, 0] S1x512x1024.size inb_S2x512x1024_S1x512x1024_1_0_0) (fun _ => rfl)).squeeze S512x1024 squeezes_S1x512x1024_S512x1024).view.writes (Elt F) g3 (⟨Rect.whole S512x1024, (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c)))⟩ :: L3))) u a b)
      (fun a b => load_listed (Memref.whole cc0_scratch2 : Memref sig .tc .vmem S2x512x1024 .f32).view 1 squeezes_S1x512x1024_S512x1024.numel_eq g2 L2 (ReadAs.same.apply (View.read (Elt F) (((Memref.whole main_arg0 : Memref sig .tc .hbm S1x8192x2048 .f32).slice (Rect.unit (s := S1x8192x2048) o S1x512x1024.size ho) (fun _ => rfl)).squeeze S512x1024 squeezes_S1x512x1024_S512x1024).view (m ((c : Thread nD τ).loc main_arg0)))) (⟨0, by decide⟩ : Fin 1) a b)
      (fun a b => (load_listed (Memref.whole cc0_scratch3 : Memref sig .tc .vmem S2x512x1024 .bf16).view 1 squeezes_S1x512x1024_S512x1024.numel_eq g3 L3 (ReadAs.same.apply (View.read (Elt F) ((Memref.whole main_v1_1 : Memref sig .tc .hbm S8192x1024 .bf16).slice (Rect.unit (s := S8192x1024) ![7680, 0] S512x1024.size inb_S8192x1024_S512x1024_7680_0) (fun _ => rfl)).view (recvFull m c))) (⟨0, by decide⟩ : Fin 1) a b).trans (rb_read m c 15 a b))
      ho1 ho2)

end Cert.Kernel.RS

end
-- ==== Proof.KernelClose.lean ====
import proofs.«901042_g7700000000001043_dist_rs_v7x_xyz2x4x4_x_m8192_n1024_bf16_1_alg».proof.Proof.KernelState

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Closing a device's own transfer cells -/

/-- A cell of the schedule whose owner stands at a round from which no round has a duty, nothing taken of it, closes: its counter reads zero. -/
theorem close_cell (κ : ℕ) (g : GSem nD τ sig) (R : ℕ) (hR : 1 ≤ R) :
    iprop(cellInv ER (sched m) κ g ∗ atPos ER g R ∅ 0) ⊢ (iprop(|={Set.univ}=> semVal g 0) : sProp 𝕄) :=
  Rounds.cell_close ER (sched m) (Set.mem_univ κ) (fun h => h) (R := R) (fun r hr => duties_later m g r (le_trans hR hr))

/-- A departure cell after its one round. -/
theorem close_send (κ : ℕ) (c : Dev nD) (k : Fin 16) (R : ℕ := 1) (hR : 1 ≤ R := by omega) :
    iprop(cellInv ER (sched m) κ (sendCell c k) ∗ atPos ER (sendCell c k) R ∅ 0) ⊢ (iprop(|={Set.univ}=> semVal (sendCell c k) 0) : sProp 𝕄) :=
  close_cell m κ (sendCell c k) R hR

/-- An arrival cell after its one round. -/
theorem close_recv (κ : ℕ) (c : Dev nD) (k : Fin 16) (R : ℕ := 1) (hR : 1 ≤ R := by omega) :
    iprop(cellInv ER (sched m) κ (recvCell c k) ∗ atPos ER (recvCell c k) R ∅ 0) ⊢ (iprop(|={Set.univ}=> semVal (recvCell c k) 0) : sProp 𝕄) :=
  close_cell m κ (recvCell c k) R hR

/-- Two closings side by side: the first of each chain, then the rest. -/
theorem close_step {P A Ps As Z Zs : sProp 𝕄} (h1 : iprop(P ∗ A) ⊢ iprop(|={Set.univ}=> Z)) (h2 : iprop(Ps ∗ As) ⊢ iprop(|={Set.univ}=> Zs)) :
    iprop((P ∗ Ps) ∗ (A ∗ As)) ⊢ iprop(|={Set.univ}=> (Z ∗ Zs)) := by
  iintro ⟨⟨HP, HPs⟩, ⟨HA, HAs⟩⟩
  imod h1 $$ [HP HA] with HZ
  · isplitl [HP] <;> iassumption
  imod h2 $$ [HPs HAs] with HZs
  · isplitl [HPs] <;> iassumption
  imodintro
  isplitl [HZ] <;> iassumption

/-- The thirty-two semaphores of the exchange at zero, in index order: sixteen departures, then sixteen arrivals. -/
def ownSems (c : Dev nD) : sProp 𝕄 :=
  iprop(semVal (((c : Thread nD τ), SemLoc.dma (⟨0, by decide⟩ : DmaSem sig)) : GSem nD τ sig) 0
    ∗ semVal (((c : Thread nD τ), SemLoc.dma (⟨1, by decide⟩ : DmaSem sig)) : GSem nD τ sig) 0
    ∗ semVal (((c : Thread nD τ), SemLoc.dma (⟨2, by decide⟩ : DmaSem sig)) : GSem nD τ sig) 0
    ∗ semVal (((c : Thread nD τ), SemLoc.dma (⟨3, by decide⟩ : DmaSem sig)) : GSem nD τ sig) 0
    ∗ semVal (((c : Thread nD τ), SemLoc.dma (⟨4, by decide⟩ : DmaSem sig)) : GSem nD τ sig) 0
    ∗ semVal (((c : Thread nD τ), SemLoc.dma (⟨5, by decide⟩ : DmaSem sig)) : GSem nD τ sig) 0
    ∗ semVal (((c : Thread nD τ), SemLoc.dma (⟨6, by decide⟩ : DmaSem sig)) : GSem nD τ sig) 0
    ∗ semVal (((c : Thread nD τ), SemLoc.dma (⟨7, by decide⟩ : DmaSem sig)) : GSem nD τ sig) 0
    ∗ semVal (((c : Thread nD τ), SemLoc.dma (⟨8, by decide⟩ : DmaSem sig)) : GSem nD τ sig) 0
    ∗ semVal (((c : Thread nD τ), SemLoc.dma (⟨9, by decide⟩ : DmaSem sig)) : GSem nD τ sig) 0
    ∗ semVal (((c : Thread nD τ), SemLoc.dma (⟨10, by decide⟩ : DmaSem sig)) : GSem nD τ sig) 0
    ∗ semVal (((c : Thread nD τ), SemLoc.dma (⟨11, by decide⟩ : DmaSem sig)) : GSem nD τ sig) 0
    ∗ semVal (((c : Thread nD τ), SemLoc.dma (⟨12, by decide⟩ : DmaSem sig)) : GSem nD τ sig) 0
    ∗ semVal (((c : Thread nD τ), SemLoc.dma (⟨13, by decide⟩ : DmaSem sig)) : GSem nD τ sig) 0
    ∗ semVal (((c : Thread nD τ), SemLoc.dma (⟨14, by decide⟩ : DmaSem sig)) : GSem nD τ sig) 0
    ∗ semVal (((c : Thread nD τ), SemLoc.dma (⟨15, by decide⟩ : DmaSem sig)) : GSem nD τ sig) 0
    ∗ semVal (((c : Thread nD τ), SemLoc.dma (⟨16, by decide⟩ : DmaSem sig)) : GSem nD τ sig) 0
    ∗ semVal (((c : Thread nD τ), SemLoc.dma (⟨17, by decide⟩ : DmaSem sig)) : GSem nD τ sig) 0
    ∗ semVal (((c : Thread nD τ), SemLoc.dma (⟨18, by decide⟩ : DmaSem sig)) : GSem nD τ sig) 0
    ∗ semVal (((c : Thread nD τ), SemLoc.dma (⟨19, by decide⟩ : DmaSem sig)) : GSem nD τ sig) 0
    ∗ semVal (((c : Thread nD τ), SemLoc.dma (⟨20, by decide⟩ : DmaSem sig)) : GSem nD τ sig) 0
    ∗ semVal (((c : Thread nD τ), SemLoc.dma (⟨21, by decide⟩ : DmaSem sig)) : GSem nD τ sig) 0
    ∗ semVal (((c : Thread nD τ), SemLoc.dma (⟨22, by decide⟩ : DmaSem sig)) : GSem nD τ sig) 0
    ∗ semVal (((c : Thread nD τ), SemLoc.dma (⟨23, by decide⟩ : DmaSem sig)) : GSem nD τ sig) 0
    ∗ semVal (((c : Thread nD τ), SemLoc.dma (⟨24, by decide⟩ : DmaSem sig)) : GSem nD τ sig) 0
    ∗ semVal (((c : Thread nD τ), SemLoc.dma (⟨25, by decide⟩ : DmaSem sig)) : GSem nD τ sig) 0
    ∗ semVal (((c : Thread nD τ), SemLoc.dma (⟨26, by decide⟩ : DmaSem sig)) : GSem nD τ sig) 0
    ∗ semVal (((c : Thread nD τ), SemLoc.dma (⟨27, by decide⟩ : DmaSem sig)) : GSem nD τ sig) 0
    ∗ semVal (((c : Thread nD τ), SemLoc.dma (⟨28, by decide⟩ : DmaSem sig)) : GSem nD τ sig) 0
    ∗ semVal (((c : Thread nD τ), SemLoc.dma (⟨29, by decide⟩ : DmaSem sig)) : GSem nD τ sig) 0
    ∗ semVal (((c : Thread nD τ), SemLoc.dma (⟨30, by decide⟩ : DmaSem sig)) : GSem nD τ sig) 0
    ∗ semVal (((c : Thread nD τ), SemLoc.dma (⟨31, by decide⟩ : DmaSem sig)) : GSem nD τ sig) 0)

/-- All thirty-two of a device's own transfer cells close, each invariant with its position. -/
theorem close_own (K : Dev nD × Fin 33 → ℕ) (c : Dev nD) (R : ℕ) (hR : 1 ≤ R) :
    iprop((cellInv ER (sched m) (K (c, 1)) (sendCell c 0)
        ∗ cellInv ER (sched m) (K (c, 2)) (sendCell c 1)
        ∗ cellInv ER (sched m) (K (c, 3)) (sendCell c 2)
        ∗ cellInv ER (sched m) (K (c, 4)) (sendCell c 3)
        ∗ cellInv ER (sched m) (K (c, 5)) (sendCell c 4)
        ∗ cellInv ER (sched m) (K (c, 6)) (sendCell c 5)
        ∗ cellInv ER (sched m) (K (c, 7)) (sendCell c 6)
        ∗ cellInv ER (sched m) (K (c, 8)) (sendCell c 7)
        ∗ cellInv ER (sched m) (K (c, 9)) (sendCell c 8)
        ∗ cellInv ER (sched m) (K (c, 10)) (sendCell c 9)
        ∗ cellInv ER (sched m) (K (c, 11)) (sendCell c 10)
        ∗ cellInv ER (sched m) (K (c, 12)) (sendCell c 11)
        ∗ cellInv ER (sched m) (K (c, 13)) (sendCell c 12)
        ∗ cellInv ER (sched m) (K (c, 14)) (sendCell c 13)
        ∗ cellInv ER (sched m) (K (c, 15)) (sendCell c 14)
        ∗ cellInv ER (sched m) (K (c, 16)) (sendCell c 15)
        ∗ cellInv ER (sched m) (K (c, 17)) (recvCell c 0)
        ∗ cellInv ER (sched m) (K (c, 18)) (recvCell c 1)
        ∗ cellInv ER (sched m) (K (c, 19)) (recvCell c 2)
        ∗ cellInv ER (sched m) (K (c, 20)) (recvCell c 3)
        ∗ cellInv ER (sched m) (K (c, 21)) (recvCell c 4)
        ∗ cellInv ER (sched m) (K (c, 22)) (recvCell c 5)
        ∗ cellInv ER (sched m) (K (c, 23)) (recvCell c 6)
        ∗ cellInv ER (sched m) (K (c, 24)) (recvCell c 7)
        ∗ cellInv ER (sched m) (K (c, 25)) (recvCell c 8)
        ∗ cellInv ER (sched m) (K (c, 26)) (recvCell c 9)
        ∗ cellInv ER (sched m) (K (c, 27)) (recvCell c 10)
        ∗ cellInv ER (sched m) (K (c, 28)) (recvCell c 11)
        ∗ cellInv ER (sched m) (K (c, 29)) (recvCell c 12)
        ∗ cellInv ER (sched m) (K (c, 30)) (recvCell c 13)
        ∗ cellInv ER (sched m) (K (c, 31)) (recvCell c 14)
        ∗ cellInv ER (sched m) (K (c, 32)) (recvCell c 15))
      ∗ (atPos ER (sendCell c 0) R ∅ 0
        ∗ atPos ER (sendCell c 1) R ∅ 0
        ∗ atPos ER (sendCell c 2) R ∅ 0
        ∗ atPos ER (sendCell c 3) R ∅ 0
        ∗ atPos ER (sendCell c 4) R ∅ 0
        ∗ atPos ER (sendCell c 5) R ∅ 0
        ∗ atPos ER (sendCell c 6) R ∅ 0
        ∗ atPos ER (sendCell c 7) R ∅ 0
        ∗ atPos ER (sendCell c 8) R ∅ 0
        ∗ atPos ER (sendCell c 9) R ∅ 0
        ∗ atPos ER (sendCell c 10) R ∅ 0
        ∗ atPos ER (sendCell c 11) R ∅ 0
        ∗ atPos ER (sendCell c 12) R ∅ 0
        ∗ atPos ER (sendCell c 13) R ∅ 0
        ∗ atPos ER (sendCell c 14) R ∅ 0
        ∗ atPos ER (sendCell c 15) R ∅ 0
        ∗ atPos ER (recvCell c 0) R ∅ 0
        ∗ atPos ER (recvCell c 1) R ∅ 0
        ∗ atPos ER (recvCell c 2) R ∅ 0
        ∗ atPos ER (recvCell c 3) R ∅ 0
        ∗ atPos ER (recvCell c 4) R ∅ 0
        ∗ atPos ER (recvCell c 5) R ∅ 0
        ∗ atPos ER (recvCell c 6) R ∅ 0
        ∗ atPos ER (recvCell c 7) R ∅ 0
        ∗ atPos ER (recvCell c 8) R ∅ 0
        ∗ atPos ER (recvCell c 9) R ∅ 0
        ∗ atPos ER (recvCell c 10) R ∅ 0
        ∗ atPos ER (recvCell c 11) R ∅ 0
        ∗ atPos ER (recvCell c 12) R ∅ 0
        ∗ atPos ER (recvCell c 13) R ∅ 0
        ∗ atPos ER (recvCell c 14) R ∅ 0
        ∗ atPos ER (recvCell c 15) R ∅ 0))
      ⊢ (iprop(|={Set.univ}=> ownSems c) : sProp 𝕄) := by
  unfold ownSems
  exact (close_step (close_send m _ c 0 R hR)
    (close_step (close_send m _ c 1 R hR)
    (close_step (close_send m _ c 2 R hR)
    (close_step (close_send m _ c 3 R hR)
    (close_step (close_send m _ c 4 R hR)
    (close_step (close_send m _ c 5 R hR)
    (close_step (close_send m _ c 6 R hR)
    (close_step (close_send m _ c 7 R hR)
    (close_step (close_send m _ c 8 R hR)
    (close_step (close_send m _ c 9 R hR)
    (close_step (close_send m _ c 10 R hR)
    (close_step (close_send m _ c 11 R hR)
    (close_step (close_send m _ c 12 R hR)
    (close_step (close_send m _ c 13 R hR)
    (close_step (close_send m _ c 14 R hR)
    (close_step (close_send m _ c 15 R hR)
    (close_step (close_recv m _ c 0 R hR)
    (close_step (close_recv m _ c 1 R hR)
    (close_step (close_recv m _ c 2 R hR)
    (close_step (close_recv m _ c 3 R hR)
    (close_step (close_recv m _ c 4 R hR)
    (close_step (close_recv m _ c 5 R hR)
    (close_step (close_recv m _ c 6 R hR)
    (close_step (close_recv m _ c 7 R hR)
    (close_step (close_recv m _ c 8 R hR)
    (close_step (close_recv m _ c 9 R hR)
    (close_step (close_recv m _ c 10 R hR)
    (close_step (close_recv m _ c 11 R hR)
    (close_step (close_recv m _ c 12 R hR)
    (close_step (close_recv m _ c 13 R hR)
    (close_step (close_recv m _ c 14 R hR)
    (close_recv m _ c 15 R hR))))))))))))))))))))))))))))))))

/-- Moving the head of a chain across a bracket. -/
theorem chain_step {a X Lc Y : sProp 𝕄} (h : iprop(X ∗ Lc) ⊢ Y) : iprop((a ∗ X) ∗ Lc) ⊢ iprop(a ∗ Y) := by
  iintro ⟨⟨Ha, HX⟩, HL⟩
  isplitl [Ha]; · iexact Ha
  iapply h
  isplitl [HX] <;> iassumption

/-- The exchange's thirty-two semaphores and the local copies' eight are all forty. -/
theorem allSems_of (c : Dev nD) : iprop(ownSems c ∗ localSems c) ⊢ (allSems c : sProp 𝕄) := by
  unfold ownSems localSems allSems
  exact (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step (chain_step Entails.rfl)))))))))))))))))))))))))))))))

/-- info: 'Cert.Kernel.RS.close_own' depends on axioms: [propext, Classical.choice, Quot.sound] -/
#guard_msgs in #print axioms close_own

/-- info: 'Cert.Kernel.RS.allSems_of' depends on axioms: [propext, Classical.choice, Quot.sound] -/
#guard_msgs in #print axioms allSems_of

end Cert.Kernel.RS

end
-- ==== Proof.KernelBodyCtx.lean ====
import proofs.«901042_g7700000000001043_dist_rs_v7x_xyz2x4x4_x_m8192_n1024_bf16_1_alg».proof.Proof.KernelState

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- What the body's run starts from, every piece spelt out: the cells' invariants and reached rounds, the positions, the duty tokens
    to pay, the launch credit, the debt, the three arrays and the five scratch buffers (each through its whole memref's view),
    and the eight local-copy semaphores at zero. -/
def bodyCtx (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) : sProp 𝕄 :=
    iprop(cellInv ER (sched m) (K (c, 0)) (barCell c)
      ∗ cellInv ER (sched m) (K (c, 1)) (sendCell c 0)
      ∗ cellInv ER (sched m) (K (c, 2)) (sendCell c 1)
      ∗ cellInv ER (sched m) (K (c, 3)) (sendCell c 2)
      ∗ cellInv ER (sched m) (K (c, 4)) (sendCell c 3)
      ∗ cellInv ER (sched m) (K (c, 5)) (sendCell c 4)
      ∗ cellInv ER (sched m) (K (c, 6)) (sendCell c 5)
      ∗ cellInv ER (sched m) (K (c, 7)) (sendCell c 6)
      ∗ cellInv ER (sched m) (K (c, 8)) (sendCell c 7)
      ∗ cellInv ER (sched m) (K (c, 9)) (sendCell c 8)
      ∗ cellInv ER (sched m) (K (c, 10)) (sendCell c 9)
      ∗ cellInv ER (sched m) (K (c, 11)) (sendCell c 10)
      ∗ cellInv ER (sched m) (K (c, 12)) (sendCell c 11)
      ∗ cellInv ER (sched m) (K (c, 13)) (sendCell c 12)
      ∗ cellInv ER (sched m) (K (c, 14)) (sendCell c 13)
      ∗ cellInv ER (sched m) (K (c, 15)) (sendCell c 14)
      ∗ cellInv ER (sched m) (K (c, 16)) (sendCell c 15)
      ∗ cellInv ER (sched m) (K (c, 17)) (recvCell c 0)
      ∗ cellInv ER (sched m) (K (c, 18)) (recvCell c 1)
      ∗ cellInv ER (sched m) (K (c, 19)) (recvCell c 2)
      ∗ cellInv ER (sched m) (K (c, 20)) (recvCell c 3)
      ∗ cellInv ER (sched m) (K (c, 21)) (recvCell c 4)
      ∗ cellInv ER (sched m) (K (c, 22)) (recvCell c 5)
      ∗ cellInv ER (sched m) (K (c, 23)) (recvCell c 6)
      ∗ cellInv ER (sched m) (K (c, 24)) (recvCell c 7)
      ∗ cellInv ER (sched m) (K (c, 25)) (recvCell c 8)
      ∗ cellInv ER (sched m) (K (c, 26)) (recvCell c 9)
      ∗ cellInv ER (sched m) (K (c, 27)) (recvCell c 10)
      ∗ cellInv ER (sched m) (K (c, 28)) (recvCell c 11)
      ∗ cellInv ER (sched m) (K (c, 29)) (recvCell c 12)
      ∗ cellInv ER (sched m) (K (c, 30)) (recvCell c 13)
      ∗ cellInv ER (sched m) (K (c, 31)) (recvCell c 14)
      ∗ cellInv ER (sched m) (K (c, 32)) (recvCell c 15)
      ∗ cellInv ER (sched m) (K (peer c, 0)) (barCell (peer c))
      ∗ cellInv ER (sched m) (K (peer c, 17)) (recvCell (peer c) 0)
      ∗ cellInv ER (sched m) (K (peer c, 18)) (recvCell (peer c) 1)
      ∗ cellInv ER (sched m) (K (peer c, 19)) (recvCell (peer c) 2)
      ∗ cellInv ER (sched m) (K (peer c, 20)) (recvCell (peer c) 3)
      ∗ cellInv ER (sched m) (K (peer c, 21)) (recvCell (peer c) 4)
      ∗ cellInv ER (sched m) (K (peer c, 22)) (recvCell (peer c) 5)
      ∗ cellInv ER (sched m) (K (peer c, 23)) (recvCell (peer c) 6)
      ∗ cellInv ER (sched m) (K (peer c, 24)) (recvCell (peer c) 7)
      ∗ cellInv ER (sched m) (K (peer c, 25)) (recvCell (peer c) 8)
      ∗ cellInv ER (sched m) (K (peer c, 26)) (recvCell (peer c) 9)
      ∗ cellInv ER (sched m) (K (peer c, 27)) (recvCell (peer c) 10)
      ∗ cellInv ER (sched m) (K (peer c, 28)) (recvCell (peer c) 11)
      ∗ cellInv ER (sched m) (K (peer c, 29)) (recvCell (peer c) 12)
      ∗ cellInv ER (sched m) (K (peer c, 30)) (recvCell (peer c) 13)
      ∗ cellInv ER (sched m) (K (peer c, 31)) (recvCell (peer c) 14)
      ∗ cellInv ER (sched m) (K (peer c, 32)) (recvCell (peer c) 15)
      ∗ reached ER (barCell c) 0
      ∗ reached ER (sendCell c 0) 0
      ∗ reached ER (sendCell c 1) 0
      ∗ reached ER (sendCell c 2) 0
      ∗ reached ER (sendCell c 3) 0
      ∗ reached ER (sendCell c 4) 0
      ∗ reached ER (sendCell c 5) 0
      ∗ reached ER (sendCell c 6) 0
      ∗ reached ER (sendCell c 7) 0
      ∗ reached ER (sendCell c 8) 0
      ∗ reached ER (sendCell c 9) 0
      ∗ reached ER (sendCell c 10) 0
      ∗ reached ER (sendCell c 11) 0
      ∗ reached ER (sendCell c 12) 0
      ∗ reached ER (sendCell c 13) 0
      ∗ reached ER (sendCell c 14) 0
      ∗ reached ER (sendCell c 15) 0
      ∗ reached ER (recvCell c 0) 0
      ∗ reached ER (recvCell c 1) 0
      ∗ reached ER (recvCell c 2) 0
      ∗ reached ER (recvCell c 3) 0
      ∗ reached ER (recvCell c 4) 0
      ∗ reached ER (recvCell c 5) 0
      ∗ reached ER (recvCell c 6) 0
      ∗ reached ER (recvCell c 7) 0
      ∗ reached ER (recvCell c 8) 0
      ∗ reached ER (recvCell c 9) 0
      ∗ reached ER (recvCell c 10) 0
      ∗ reached ER (recvCell c 11) 0
      ∗ reached ER (recvCell c 12) 0
      ∗ reached ER (recvCell c 13) 0
      ∗ reached ER (recvCell c 14) 0
      ∗ reached ER (recvCell c 15) 0
      ∗ reached ER (barCell (peer c)) 0
      ∗ reached ER (recvCell (peer c) 0) 0
      ∗ reached ER (recvCell (peer c) 1) 0
      ∗ reached ER (recvCell (peer c) 2) 0
      ∗ reached ER (recvCell (peer c) 3) 0
      ∗ reached ER (recvCell (peer c) 4) 0
      ∗ reached ER (recvCell (peer c) 5) 0
      ∗ reached ER (recvCell (peer c) 6) 0
      ∗ reached ER (recvCell (peer c) 7) 0
      ∗ reached ER (recvCell (peer c) 8) 0
      ∗ reached ER (recvCell (peer c) 9) 0
      ∗ reached ER (recvCell (peer c) 10) 0
      ∗ reached ER (recvCell (peer c) 11) 0
      ∗ reached ER (recvCell (peer c) 12) 0
      ∗ reached ER (recvCell (peer c) 13) 0
      ∗ reached ER (recvCell (peer c) 14) 0
      ∗ reached ER (recvCell (peer c) 15) 0
      ∗ levAts L lv
      ∗ atPos ER (barCell c) 0 ∅ 0
      ∗ atPos ER (sendCell c 0) 0 ∅ 0
      ∗ atPos ER (sendCell c 1) 0 ∅ 0
      ∗ atPos ER (sendCell c 2) 0 ∅ 0
      ∗ atPos ER (sendCell c 3) 0 ∅ 0
      ∗ atPos ER (sendCell c 4) 0 ∅ 0
      ∗ atPos ER (sendCell c 5) 0 ∅ 0
      ∗ atPos ER (sendCell c 6) 0 ∅ 0
      ∗ atPos ER (sendCell c 7) 0 ∅ 0
      ∗ atPos ER (sendCell c 8) 0 ∅ 0
      ∗ atPos ER (sendCell c 9) 0 ∅ 0
      ∗ atPos ER (sendCell c 10) 0 ∅ 0
      ∗ atPos ER (sendCell c 11) 0 ∅ 0
      ∗ atPos ER (sendCell c 12) 0 ∅ 0
      ∗ atPos ER (sendCell c 13) 0 ∅ 0
      ∗ atPos ER (sendCell c 14) 0 ∅ 0
      ∗ atPos ER (sendCell c 15) 0 ∅ 0
      ∗ atPos ER (recvCell c 0) 0 ∅ 0
      ∗ atPos ER (recvCell c 1) 0 ∅ 0
      ∗ atPos ER (recvCell c 2) 0 ∅ 0
      ∗ atPos ER (recvCell c 3) 0 ∅ 0
      ∗ atPos ER (recvCell c 4) 0 ∅ 0
      ∗ atPos ER (recvCell c 5) 0 ∅ 0
      ∗ atPos ER (recvCell c 6) 0 ∅ 0
      ∗ atPos ER (recvCell c 7) 0 ∅ 0
      ∗ atPos ER (recvCell c 8) 0 ∅ 0
      ∗ atPos ER (recvCell c 9) 0 ∅ 0
      ∗ atPos ER (recvCell c 10) 0 ∅ 0
      ∗ atPos ER (recvCell c 11) 0 ∅ 0
      ∗ atPos ER (recvCell c 12) 0 ∅ 0
      ∗ atPos ER (recvCell c 13) 0 ∅ 0
      ∗ atPos ER (recvCell c 14) 0 ∅ 0
      ∗ atPos ER (recvCell c 15) 0 ∅ 0
      ∗ dutyTok ER (barCell (peer c)) 0 ()
      ∗ dutyTok ER (recvCell (peer c) 0) 0 ()
      ∗ dutyTok ER (recvCell (peer c) 1) 0 ()
      ∗ dutyTok ER (recvCell (peer c) 2) 0 ()
      ∗ dutyTok ER (recvCell (peer c) 3) 0 ()
      ∗ dutyTok ER (recvCell (peer c) 4) 0 ()
      ∗ dutyTok ER (recvCell (peer c) 5) 0 ()
      ∗ dutyTok ER (recvCell (peer c) 6) 0 ()
      ∗ dutyTok ER (recvCell (peer c) 7) 0 ()
      ∗ dutyTok ER (recvCell (peer c) 8) 0 ()
      ∗ dutyTok ER (recvCell (peer c) 9) 0 ()
      ∗ dutyTok ER (recvCell (peer c) 10) 0 ()
      ∗ dutyTok ER (recvCell (peer c) 11) 0 ()
      ∗ dutyTok ER (recvCell (peer c) 12) 0 ()
      ∗ dutyTok ER (recvCell (peer c) 13) 0 ()
      ∗ dutyTok ER (recvCell (peer c) 14) 0 ()
      ∗ dutyTok ER (recvCell (peer c) 15) 0 ()
      ∗ dutyTok ER (sendCell c 0) 0 ()
      ∗ dutyTok ER (sendCell c 1) 0 ()
      ∗ dutyTok ER (sendCell c 2) 0 ()
      ∗ dutyTok ER (sendCell c 3) 0 ()
      ∗ dutyTok ER (sendCell c 4) 0 ()
      ∗ dutyTok ER (sendCell c 5) 0 ()
      ∗ dutyTok ER (sendCell c 6) 0 ()
      ∗ dutyTok ER (sendCell c 7) 0 ()
      ∗ dutyTok ER (sendCell c 8) 0 ()
      ∗ dutyTok ER (sendCell c 9) 0 ()
      ∗ dutyTok ER (sendCell c 10) 0 ()
      ∗ dutyTok ER (sendCell c 11) 0 ()
      ∗ dutyTok ER (sendCell c 12) 0 ()
      ∗ dutyTok ER (sendCell c 13) 0 ()
      ∗ dutyTok ER (sendCell c 14) 0 ()
      ∗ dutyTok ER (sendCell c 15) 0 ()
      ∗ cred (tallyAt (barCell c) () 1)
      ∗ cred (tallyAt (recvCell c 0) () N)
      ∗ cred (tallyAt (recvCell c 1) () N)
      ∗ cred (tallyAt (recvCell c 2) () N)
      ∗ cred (tallyAt (recvCell c 3) () N)
      ∗ cred (tallyAt (recvCell c 4) () N)
      ∗ cred (tallyAt (recvCell c 5) () N)
      ∗ cred (tallyAt (recvCell c 6) () N)
      ∗ cred (tallyAt (recvCell c 7) () N)
      ∗ cred (tallyAt (recvCell c 8) () N)
      ∗ cred (tallyAt (recvCell c 9) () N)
      ∗ cred (tallyAt (recvCell c 10) () N)
      ∗ cred (tallyAt (recvCell c 11) () N)
      ∗ cred (tallyAt (recvCell c 12) () N)
      ∗ cred (tallyAt (recvCell c 13) () N)
      ∗ cred (tallyAt (recvCell c 14) () N)
      ∗ cred (tallyAt (recvCell c 15) () N)
      ∗ owes (c : Thread nD τ) (O₀ c) W
      ∗ ((Memref.whole main_arg0 : Memref sig .tc .hbm S1x8192x2048 .f32).view.loc (c : Thread nD τ) ↦[(Memref.whole main_arg0 : Memref sig .tc .hbm S1x8192x2048 .f32).view.set]{fullShare} m ((c : Thread nD τ).loc main_arg0))
      ∗ ((Memref.whole main_v1_0 : Memref sig .tc .hbm S8192x1024 .bf16).view.loc (c : Thread nD τ) ↦[(Memref.whole main_v1_0 : Memref sig .tc .hbm S8192x1024 .bf16).view.set]{fullShare} m ((c : Thread nD τ).loc main_v1_0))
      ∗ ((Memref.whole main_v1_1 : Memref sig .tc .hbm S8192x1024 .bf16).view.loc (c : Thread nD τ) ↦[(Memref.whole main_v1_1 : Memref sig .tc .hbm S8192x1024 .bf16).view.set]{fullShare} m ((c : Thread nD τ).loc main_v1_1))
      ∗ ((Memref.whole cc0_scratch0 : Memref sig .tc .vmem S2x512x1024 .f32).view.loc (c : Thread nD τ) ↦[(Memref.whole cc0_scratch0 : Memref sig .tc .vmem S2x512x1024 .f32).view.set]{fullShare} f0)
      ∗ ((Memref.whole cc0_scratch1 : Memref sig .tc .vmem S4x512x1024 .bf16).view.loc (c : Thread nD τ) ↦[(Memref.whole cc0_scratch1 : Memref sig .tc .vmem S4x512x1024 .bf16).view.set]{fullShare} f1)
      ∗ ((Memref.whole cc0_scratch2 : Memref sig .tc .vmem S2x512x1024 .f32).view.loc (c : Thread nD τ) ↦[(Memref.whole cc0_scratch2 : Memref sig .tc .vmem S2x512x1024 .f32).view.set]{fullShare} f2)
      ∗ ((Memref.whole cc0_scratch3 : Memref sig .tc .vmem S2x512x1024 .bf16).view.loc (c : Thread nD τ) ↦[(Memref.whole cc0_scratch3 : Memref sig .tc .vmem S2x512x1024 .bf16).view.set]{fullShare} f3)
      ∗ ((Memref.whole cc0_scratch4 : Memref sig .tc .vmem S2x512x1024 .bf16).view.loc (c : Thread nD τ) ↦[(Memref.whole cc0_scratch4 : Memref sig .tc .vmem S2x512x1024 .bf16).view.set]{fullShare} f4)
      ∗ semVal (((c : Thread nD τ), SemLoc.dma (⟨32, by decide⟩ : DmaSem sig)) : GSem nD τ sig) 0
      ∗ semVal (((c : Thread nD τ), SemLoc.dma (⟨33, by decide⟩ : DmaSem sig)) : GSem nD τ sig) 0
      ∗ semVal (((c : Thread nD τ), SemLoc.dma (⟨34, by decide⟩ : DmaSem sig)) : GSem nD τ sig) 0
      ∗ semVal (((c : Thread nD τ), SemLoc.dma (⟨35, by decide⟩ : DmaSem sig)) : GSem nD τ sig) 0
      ∗ semVal (((c : Thread nD τ), SemLoc.dma (⟨36, by decide⟩ : DmaSem sig)) : GSem nD τ sig) 0
      ∗ semVal (((c : Thread nD τ), SemLoc.dma (⟨37, by decide⟩ : DmaSem sig)) : GSem nD τ sig) 0
      ∗ semVal (((c : Thread nD τ), SemLoc.dma (⟨38, by decide⟩ : DmaSem sig)) : GSem nD τ sig) 0
      ∗ semVal (((c : Thread nD τ), SemLoc.dma (⟨39, by decide⟩ : DmaSem sig)) : GSem nD τ sig) 0)

/-- What it ends with: the invariant after the point, owing nothing. -/
def bodyEnd (c : Dev nD) : sProp 𝕄 := iprop(Φ₁ m c ∗ ∃ W' : Waits sig Unit, owes (c : Thread nD τ) 0 W')

end Cert.Kernel.RS

end
-- ==== Proof.KernelBodyWrap.lean ====
import proofs.«901042_g7700000000001043_dist_rs_v7x_xyz2x4x4_x_m8192_n1024_bf16_1_alg».proof.Proof.KernelBodyCtx

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## From the pipeline library's body obligation to the body's own starting context and back -/

omit [FloatOps F] in
/-- Separating conjunction reassociated, as an equation of assertions. -/
theorem sep_assoc_eq (P Q R : sProp 𝕄) : iprop((P ∗ Q) ∗ R) = iprop(P ∗ Q ∗ R) :=
  Idealize.SL.BI.Entails.antisymm Idealize.SL.BI.sep_assoc Idealize.SL.BI.sep_assoc'

omit [FloatOps F] in
/-- A whole buffer held through its whole memref's view is the buffer held. -/
theorem pts_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-! The same for each of the call's eight buffers, spelt as the starting context spells them. -/
omit [FloatOps F] in
theorem pts_arg0 (c : Dev nD) (f : Buf (Elt F) ((c : Thread nD τ).loc main_arg0)) :
    (((Memref.whole main_arg0 : Memref sig .tc .hbm S1x8192x2048 .f32).view.loc (c : Thread nD τ) ↦[(Memref.whole main_arg0 : Memref sig .tc .hbm S1x8192x2048 .f32).view.set]{fullShare} f) : sProp 𝕄) = (((c : Thread nD τ).loc main_arg0) ↦{fullShare} f) := pts_whole c main_arg0 f
omit [FloatOps F] in
theorem pts_v1_0 (c : Dev nD) (f : Buf (Elt F) ((c : Thread nD τ).loc main_v1_0)) :
    (((Memref.whole main_v1_0 : Memref sig .tc .hbm S8192x1024 .bf16).view.loc (c : Thread nD τ) ↦[(Memref.whole main_v1_0 : Memref sig .tc .hbm S8192x1024 .bf16).view.set]{fullShare} f) : sProp 𝕄) = (((c : Thread nD τ).loc main_v1_0) ↦{fullShare} f) := pts_whole c main_v1_0 f
omit [FloatOps F] in
theorem pts_v1_1 (c : Dev nD) (f : Buf (Elt F) ((c : Thread nD τ).loc main_v1_1)) :
    (((Memref.whole main_v1_1 : Memref sig .tc .hbm S8192x1024 .bf16).view.loc (c : Thread nD τ) ↦[(Memref.whole main_v1_1 : Memref sig .tc .hbm S8192x1024 .bf16).view.set]{fullShare} f) : sProp 𝕄) = (((c : Thread nD τ).loc main_v1_1) ↦{fullShare} f) := pts_whole c main_v1_1 f
omit [FloatOps F] in
theorem pts_s0 (c : Dev nD) (f : Buf (Elt F) ((c : Thread nD τ).loc cc0_scratch0)) :
    (((Memref.whole cc0_scratch0 : Memref sig .tc .vmem S2x512x1024 .f32).view.loc (c : Thread nD τ) ↦[(Memref.whole cc0_scratch0 : Memref sig .tc .vmem S2x512x1024 .f32).view.set]{fullShare} f) : sProp 𝕄) = (((c : Thread nD τ).loc cc0_scratch0) ↦{fullShare} f) := pts_whole c cc0_scratch0 f
omit [FloatOps F] in
theorem pts_s1 (c : Dev nD) (f : Buf (Elt F) ((c : Thread nD τ).loc cc0_scratch1)) :
    (((Memref.whole cc0_scratch1 : Memref sig .tc .vmem S4x512x1024 .bf16).view.loc (c : Thread nD τ) ↦[(Memref.whole cc0_scratch1 : Memref sig .tc .vmem S4x512x1024 .bf16).view.set]{fullShare} f) : sProp 𝕄) = (((c : Thread nD τ).loc cc0_scratch1) ↦{fullShare} f) := pts_whole c cc0_scratch1 f
omit [FloatOps F] in
theorem pts_s2 (c : Dev nD) (f : Buf (Elt F) ((c : Thread nD τ).loc cc0_scratch2)) :
    (((Memref.whole cc0_scratch2 : Memref sig .tc .vmem S2x512x1024 .f32).view.loc (c : Thread nD τ) ↦[(Memref.whole cc0_scratch2 : Memref sig .tc .vmem S2x512x1024 .f32).view.set]{fullShare} f) : sProp 𝕄) = (((c : Thread nD τ).loc cc0_scratch2) ↦{fullShare} f) := pts_whole c cc0_scratch2 f
omit [FloatOps F] in
theorem pts_s3 (c : Dev nD) (f : Buf (Elt F) ((c : Thread nD τ).loc cc0_scratch3)) :
    (((Memref.whole cc0_scratch3 : Memref sig .tc .vmem S2x512x1024 .bf16).view.loc (c : Thread nD τ) ↦[(Memref.whole cc0_scratch3 : Memref sig .tc .vmem S2x512x1024 .bf16).view.set]{fullShare} f) : sProp 𝕄) = (((c : Thread nD τ).loc cc0_scratch3) ↦{fullShare} f) := pts_whole c cc0_scratch3 f
omit [FloatOps F] in
theorem pts_s4 (c : Dev nD) (f : Buf (Elt F) ((c : Thread nD τ).loc cc0_scratch4)) :
    (((Memref.whole cc0_scratch4 : Memref sig .tc .vmem S2x512x1024 .bf16).view.loc (c : Thread nD τ) ↦[(Memref.whole cc0_scratch4 : Memref sig .tc .vmem S2x512x1024 .bf16).view.set]{fullShare} f) : sProp 𝕄) = (((c : Thread nD τ).loc cc0_scratch4) ↦{fullShare} f) := pts_whole c cc0_scratch4 f

omit [FloatOps F] in
/-- No staged window: a product over the windows is empty. -/
theorem bigSep_noW (Φ : Fin cfg0.W → sProp 𝕄) : bigSep Finset.univ Φ = iprop(emp) :=
  bigSep_univ_eq_bigSepL [] (by decide) (by decide) Φ

/-- The starting context, from its groups: the same conjuncts with the groups' brackets dropped. -/
theorem ctx_intro (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    iprop(invs m K c ∗ marks c ∗ levAts L lv ∗ positions c ∗ payToks c ∗ creds c ∗ owes (c : Thread nD τ) (O₀ c) W
        ∗ ((Memref.whole main_arg0 : Memref sig .tc .hbm S1x8192x2048 .f32).view.loc (c : Thread nD τ) ↦[(Memref.whole main_arg0 : Memref sig .tc .hbm S1x8192x2048 .f32).view.set]{fullShare} m ((c : Thread nD τ).loc main_arg0))
        ∗ ((Memref.whole main_v1_0 : Memref sig .tc .hbm S8192x1024 .bf16).view.loc (c : Thread nD τ) ↦[(Memref.whole main_v1_0 : Memref sig .tc .hbm S8192x1024 .bf16).view.set]{fullShare} m ((c : Thread nD τ).loc main_v1_0))
        ∗ ((Memref.whole main_v1_1 : Memref sig .tc .hbm S8192x1024 .bf16).view.loc (c : Thread nD τ) ↦[(Memref.whole main_v1_1 : Memref sig .tc .hbm S8192x1024 .bf16).view.set]{fullShare} m ((c : Thread nD τ).loc main_v1_1))
        ∗ ((Memref.whole cc0_scratch0 : Memref sig .tc .vmem S2x512x1024 .f32).view.loc (c : Thread nD τ) ↦[(Memref.whole cc0_scratch0 : Memref sig .tc .vmem S2x512x1024 .f32).view.set]{fullShare} f0)
        ∗ ((Memref.whole cc0_scratch1 : Memref sig .tc .vmem S4x512x1024 .bf16).view.loc (c : Thread nD τ) ↦[(Memref.whole cc0_scratch1 : Memref sig .tc .vmem S4x512x1024 .bf16).view.set]{fullShare} f1)
        ∗ ((Memref.whole cc0_scratch2 : Memref sig .tc .vmem S2x512x1024 .f32).view.loc (c : Thread nD τ) ↦[(Memref.whole cc0_scratch2 : Memref sig .tc .vmem S2x512x1024 .f32).view.set]{fullShare} f2)
        ∗ ((Memref.whole cc0_scratch3 : Memref sig .tc .vmem S2x512x1024 .bf16).view.loc (c : Thread nD τ) ↦[(Memref.whole cc0_scratch3 : Memref sig .tc .vmem S2x512x1024 .bf16).view.set]{fullShare} f3)
        ∗ ((Memref.whole cc0_scratch4 : Memref sig .tc .vmem S2x512x1024 .bf16).view.loc (c : Thread nD τ) ↦[(Memref.whole cc0_scratch4 : Memref sig .tc .vmem S2x512x1024 .bf16).view.set]{fullShare} f4)
        ∗ localSems c)
      ⊢ bodyCtx m K c W f0 f1 f2 f3 f4 := by
  unfold bodyCtx invs marks positions payToks creds localSems
  simp only [sep_assoc_eq]
  all_goals exact .rfl

/-- The body's end is the invariant after the point with nothing owed, as the library states it. -/
theorem end_exit (c : Dev nD) :
    bodyEnd m c ⊢ iprop(Φ₁ m c ∗ (dats (F := F) m 0 c).owesAt () t0_0.succ ∗ emp) := by
  unfold bodyEnd Dat.owesAt Pipeline.owesWithin
  rw [show (dats (F := F) m 0 c).owed t0_0.succ = 0 from rfl]
  iintro ⟨H1, ⟨%W', HO⟩⟩
  isplitl [H1]; · iexact H1
  isplitl [HO]
  · iexists W'
    isplitr; · ipureintro; exact fun _ _ => Or.inl trivial
    iexact HO
  · iempintro

/-- The library's body obligation on every device, from the body's run out of its own starting context. -/
theorem body_obligation_of
    (hsound : ∀ (K : Dev nD × Fin 33 → ℕ) (c : Dev nD) (W : Waits sig Unit)
      (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)),
      bodyCtx m K c W f0 f1 f2 f3 f4
        ⊢ wp frame (wpE (defs₀ (F := F)) 𝒱₀ (c : Thread nD τ) none) Set.univ (bodyAt0 (F := F) t0_0) (fun _ => bodyEnd m c)) :
    ∀ c : Dev nD, BodyObligation (dats (F := F) m 0 c) (defs₀ (F := F)) 𝒱₀ () Set.univ := fun c t => by
  rw [fin_N0 t, bigSep_noW, bigSep_noW]
  show iprop(Φ₀ m c ∗ (dats (F := F) m 0 c).owesAt () t0_0.castSucc ∗ emp)
    ⊢ wp frame (wpE (defs₀ (F := F)) 𝒱₀ (c : Thread nD τ) none) Set.univ (bodyAt0 (F := F) t0_0)
        (fun _ => iprop(Φ₁ m c ∗ (dats (F := F) m 0 c).owesAt () t0_0.succ ∗ emp))
  unfold Φ₀ ghost held scratch Dat.owesAt Pipeline.owesWithin
  rw [show (dats (F := F) m 0 c).owed t0_0.castSucc = O₀ c from rfl]
  iintro ⟨⟨⟨%K, Hinv, Hmk, Hpos, Htok⟩, Hcr, Hlev, ⟨Ha, Hb, Hd⟩, Hloc, ⟨%f0, H0⟩, ⟨%f1, H1⟩, ⟨%f2, H2⟩, ⟨%f3, H3⟩, ⟨%f4, H4⟩⟩, ⟨%W, %hW, HO⟩, -⟩
  iapply (wp_mono frame (wpE (defs₀ (F := F)) 𝒱₀ (c : Thread nD τ) none) Set.univ (fun _ => end_exit m c))
  iapply (hsound K c W f0 f1 f2 f3 f4)
  iapply (ctx_intro m K c W f0 f1 f2 f3 f4)
  isplitl [Hinv]; · iexact Hinv
  isplitl [Hmk]; · iexact Hmk
  isplitl [Hlev]; · iexact Hlev
  isplitl [Hpos]; · iexact Hpos
  isplitl [Htok]; · iexact Htok
  isplitl [Hcr]; · iexact Hcr
  isplitl [HO]; · iexact HO
  isplitl [Ha]; · iapply (Entails.of_eq (pts_arg0 (F := F) c _).symm); iexact Ha
  isplitl [Hb]; · iapply (Entails.of_eq (pts_v1_0 (F := F) c _).symm); iexact Hb
  isplitl [Hd]; · iapply (Entails.of_eq (pts_v1_1 (F := F) c _).symm); iexact Hd
  isplitl [H0]; · iapply (Entails.of_eq (pts_s0 (F := F) c _).symm); iexact H0
  isplitl [H1]; · iapply (Entails.of_eq (pts_s1 (F := F) c _).symm); iexact H1
  isplitl [H2]; · iapply (Entails.of_eq (pts_s2 (F := F) c _).symm); iexact H2
  isplitl [H3]; · iapply (Entails.of_eq (pts_s3 (F := F) c _).symm); iexact H3
  isplitl [H4]; · iapply (Entails.of_eq (pts_s4 (F := F) c _).symm); iexact H4
  iexact Hloc

/-- info: 'Cert.Kernel.RS.body_obligation_of' depends on axioms: [propext, Classical.choice, Quot.sound] -/
#guard_msgs in #print axioms body_obligation_of

end Cert.Kernel.RS

end
-- ==== Proof.KernelBody.lean ====
/-
  The body of one device's program, run from the context of KernelBodyCtx to the invariant after the point.

  Every slotted buffer is held slot by slot and the result array band by band. The sixteen sends to the
  partner are applied through the rounds library's send rule, each with the fact that the staging slot holds
  the narrowed chunk; the partner's landing array, handed over by the entry handshake, is written band by band.
  At the end the device's own semaphore cells are closed, the buffers are joined, and each band of the result
  is read as the sum of the device's own chunk and the chunk its partner sent, narrowed.
-/
import proofs.«901042_g7700000000001043_dist_rs_v7x_xyz2x4x4_x_m8192_n1024_bf16_1_alg».proof.Proof.KernelFacts
import proofs.«901042_g7700000000001043_dist_rs_v7x_xyz2x4x4_x_m8192_n1024_bf16_1_alg».proof.Proof.KernelSplit
import proofs.«901042_g7700000000001043_dist_rs_v7x_xyz2x4x4_x_m8192_n1024_bf16_1_alg».proof.Proof.KernelListed
import proofs.«901042_g7700000000001043_dist_rs_v7x_xyz2x4x4_x_m8192_n1024_bf16_1_alg».proof.Proof.KernelBandGoals
import proofs.«901042_g7700000000001043_dist_rs_v7x_xyz2x4x4_x_m8192_n1024_bf16_1_alg».proof.Proof.KernelOutChunk
import proofs.«901042_g7700000000001043_dist_rs_v7x_xyz2x4x4_x_m8192_n1024_bf16_1_alg».proof.Proof.KernelClose
import proofs.«901042_g7700000000001043_dist_rs_v7x_xyz2x4x4_x_m8192_n1024_bf16_1_alg».proof.Proof.KernelBodyWrap

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- A return bound into a continuation is the continuation at the returned value. -/
theorem wp_ret_bind {Ef : Type → Type} {wpEh : Set ℕ → ⦃β : Type⦄ → Ef β → sWPT 𝕄 β} {α β : Type} (a : α) (f : α → Prog Ef β) (Q' : β → sProp 𝕄) :
    wp Idealize.ShloMosaic.frame wpEh Set.univ (f a) Q' ⊢ wp Idealize.ShloMosaic.frame wpEh Set.univ ((Prog.ret a).bind f) Q' :=
  BI.Entails.refl _

omit [FloatOps F] in
theorem owes_zero_add (t : Thread nD τ) (O : CellTallies nD τ sig Unit) (W' : Waits sig Unit) :
    (owes t O W' : sProp 𝕄) = owes t (0 + O) W' := by rw [zero_add]

omit [FloatOps F] in
/-- A bare return: the postcondition at the returned value. -/
theorem wp_ret_intro {Ef : Type → Type} {wpEh : Set ℕ → ⦃β : Type⦄ → Ef β → sWPT 𝕄 β} {β : Type} (a : β) (Q' : β → sProp 𝕄) :
    Q' a ⊢ wp Idealize.ShloMosaic.frame wpEh Set.univ (Prog.ret a : Prog Ef β) Q' := by
  show Q' a ⊢ iprop(|={Set.univ}[Idealize.ShloMosaic.frame]=> Q' a)
  iintro H; imodintro; iexact H

attribute [local sl_rounds] duties_bar duties_send duties_recv amount_bar amount_send amount_recv expect_bar expect_send expect_recv payload_bar_view
attribute [local sl_canon] dev1_eq dev2_eq dev3_eq dev4_eq dev5_eq dev6_eq dev7_eq dev8_eq dev9_eq dev10_eq dev11_eq dev12_eq dev13_eq dev14_eq dev15_eq dev16_eq dev17_eq

theorem payload_recv_v0 (c : Dev nD) (d : Unit) : (sched (F := F) m).payload (recvCell c 0) 0 d
    = (((Memref.whole main_v1_1 : Memref sig .tc .hbm S8192x1024 .bf16).slice (Rect.unit (s := S8192x1024) ![0, 0] S512x1024.size inb_S8192x1024_S512x1024_0_0) (fun _ => rfl)).view.loc (c : Thread nD τ) ↦[((Memref.whole main_v1_1 : Memref sig .tc .hbm S8192x1024 .bf16).slice (Rect.unit (s := S8192x1024) ![0, 0] S512x1024.size inb_S8192x1024_S512x1024_0_0) (fun _ => rfl)).view.set]{fullShare} recvFull m c : sProp 𝕄) := payload_recv m c 0 d
theorem payload_send_v0 (c : Dev nD) (d : Unit) : (sched (F := F) m).payload (sendCell c 0) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 0 d
theorem payload_recv_v1 (c : Dev nD) (d : Unit) : (sched (F := F) m).payload (recvCell c 1) 0 d
    = (((Memref.whole main_v1_1 : Memref sig .tc .hbm S8192x1024 .bf16).slice (Rect.unit (s := S8192x1024) ![512, 0] S512x1024.size inb_S8192x1024_S512x1024_512_0) (fun _ => rfl)).view.loc (c : Thread nD τ) ↦[((Memref.whole main_v1_1 : Memref sig .tc .hbm S8192x1024 .bf16).slice (Rect.unit (s := S8192x1024) ![512, 0] S512x1024.size inb_S8192x1024_S512x1024_512_0) (fun _ => rfl)).view.set]{fullShare} recvFull m c : sProp 𝕄) := payload_recv m c 1 d
theorem payload_send_v1 (c : Dev nD) (d : Unit) : (sched (F := F) m).payload (sendCell c 1) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 1 d
theorem payload_recv_v2 (c : Dev nD) (d : Unit) : (sched (F := F) m).payload (recvCell c 2) 0 d
    = (((Memref.whole main_v1_1 : Memref sig .tc .hbm S8192x1024 .bf16).slice (Rect.unit (s := S8192x1024) ![1024, 0] S512x1024.size inb_S8192x1024_S512x1024_1024_0) (fun _ => rfl)).view.loc (c : Thread nD τ) ↦[((Memref.whole main_v1_1 : Memref sig .tc .hbm S8192x1024 .bf16).slice (Rect.unit (s := S8192x1024) ![1024, 0] S512x1024.size inb_S8192x1024_S512x1024_1024_0) (fun _ => rfl)).view.set]{fullShare} recvFull m c : sProp 𝕄) := payload_recv m c 2 d
theorem payload_send_v2 (c : Dev nD) (d : Unit) : (sched (F := F) m).payload (sendCell c 2) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 2 d
theorem payload_recv_v3 (c : Dev nD) (d : Unit) : (sched (F := F) m).payload (recvCell c 3) 0 d
    = (((Memref.whole main_v1_1 : Memref sig .tc .hbm S8192x1024 .bf16).slice (Rect.unit (s := S8192x1024) ![1536, 0] S512x1024.size inb_S8192x1024_S512x1024_1536_0) (fun _ => rfl)).view.loc (c : Thread nD τ) ↦[((Memref.whole main_v1_1 : Memref sig .tc .hbm S8192x1024 .bf16).slice (Rect.unit (s := S8192x1024) ![1536, 0] S512x1024.size inb_S8192x1024_S512x1024_1536_0) (fun _ => rfl)).view.set]{fullShare} recvFull m c : sProp 𝕄) := payload_recv m c 3 d
theorem payload_send_v3 (c : Dev nD) (d : Unit) : (sched (F := F) m).payload (sendCell c 3) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 3 d
theorem payload_recv_v4 (c : Dev nD) (d : Unit) : (sched (F := F) m).payload (recvCell c 4) 0 d
    = (((Memref.whole main_v1_1 : Memref sig .tc .hbm S8192x1024 .bf16).slice (Rect.unit (s := S8192x1024) ![2048, 0] S512x1024.size inb_S8192x1024_S512x1024_2048_0) (fun _ => rfl)).view.loc (c : Thread nD τ) ↦[((Memref.whole main_v1_1 : Memref sig .tc .hbm S8192x1024 .bf16).slice (Rect.unit (s := S8192x1024) ![2048, 0] S512x1024.size inb_S8192x1024_S512x1024_2048_0) (fun _ => rfl)).view.set]{fullShare} recvFull m c : sProp 𝕄) := payload_recv m c 4 d
theorem payload_send_v4 (c : Dev nD) (d : Unit) : (sched (F := F) m).payload (sendCell c 4) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 4 d
theorem payload_recv_v5 (c : Dev nD) (d : Unit) : (sched (F := F) m).payload (recvCell c 5) 0 d
    = (((Memref.whole main_v1_1 : Memref sig .tc .hbm S8192x1024 .bf16).slice (Rect.unit (s := S8192x1024) ![2560, 0] S512x1024.size inb_S8192x1024_S512x1024_2560_0) (fun _ => rfl)).view.loc (c : Thread nD τ) ↦[((Memref.whole main_v1_1 : Memref sig .tc .hbm S8192x1024 .bf16).slice (Rect.unit (s := S8192x1024) ![2560, 0] S512x1024.size inb_S8192x1024_S512x1024_2560_0) (fun _ => rfl)).view.set]{fullShare} recvFull m c : sProp 𝕄) := payload_recv m c 5 d
theorem payload_send_v5 (c : Dev nD) (d : Unit) : (sched (F := F) m).payload (sendCell c 5) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 5 d
theorem payload_recv_v6 (c : Dev nD) (d : Unit) : (sched (F := F) m).payload (recvCell c 6) 0 d
    = (((Memref.whole main_v1_1 : Memref sig .tc .hbm S8192x1024 .bf16).slice (Rect.unit (s := S8192x1024) ![3072, 0] S512x1024.size inb_S8192x1024_S512x1024_3072_0) (fun _ => rfl)).view.loc (c : Thread nD τ) ↦[((Memref.whole main_v1_1 : Memref sig .tc .hbm S8192x1024 .bf16).slice (Rect.unit (s := S8192x1024) ![3072, 0] S512x1024.size inb_S8192x1024_S512x1024_3072_0) (fun _ => rfl)).view.set]{fullShare} recvFull m c : sProp 𝕄) := payload_recv m c 6 d
theorem payload_send_v6 (c : Dev nD) (d : Unit) : (sched (F := F) m).payload (sendCell c 6) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 6 d
theorem payload_recv_v7 (c : Dev nD) (d : Unit) : (sched (F := F) m).payload (recvCell c 7) 0 d
    = (((Memref.whole main_v1_1 : Memref sig .tc .hbm S8192x1024 .bf16).slice (Rect.unit (s := S8192x1024) ![3584, 0] S512x1024.size inb_S8192x1024_S512x1024_3584_0) (fun _ => rfl)).view.loc (c : Thread nD τ) ↦[((Memref.whole main_v1_1 : Memref sig .tc .hbm S8192x1024 .bf16).slice (Rect.unit (s := S8192x1024) ![3584, 0] S512x1024.size inb_S8192x1024_S512x1024_3584_0) (fun _ => rfl)).view.set]{fullShare} recvFull m c : sProp 𝕄) := payload_recv m c 7 d
theorem payload_send_v7 (c : Dev nD) (d : Unit) : (sched (F := F) m).payload (sendCell c 7) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 7 d
theorem payload_recv_v8 (c : Dev nD) (d : Unit) : (sched (F := F) m).payload (recvCell c 8) 0 d
    = (((Memref.whole main_v1_1 : Memref sig .tc .hbm S8192x1024 .bf16).slice (Rect.unit (s := S8192x1024) ![4096, 0] S512x1024.size inb_S8192x1024_S512x1024_4096_0) (fun _ => rfl)).view.loc (c : Thread nD τ) ↦[((Memref.whole main_v1_1 : Memref sig .tc .hbm S8192x1024 .bf16).slice (Rect.unit (s := S8192x1024) ![4096, 0] S512x1024.size inb_S8192x1024_S512x1024_4096_0) (fun _ => rfl)).view.set]{fullShare} recvFull m c : sProp 𝕄) := payload_recv m c 8 d
theorem payload_send_v8 (c : Dev nD) (d : Unit) : (sched (F := F) m).payload (sendCell c 8) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 8 d
theorem payload_recv_v9 (c : Dev nD) (d : Unit) : (sched (F := F) m).payload (recvCell c 9) 0 d
    = (((Memref.whole main_v1_1 : Memref sig .tc .hbm S8192x1024 .bf16).slice (Rect.unit (s := S8192x1024) ![4608, 0] S512x1024.size inb_S8192x1024_S512x1024_4608_0) (fun _ => rfl)).view.loc (c : Thread nD τ) ↦[((Memref.whole main_v1_1 : Memref sig .tc .hbm S8192x1024 .bf16).slice (Rect.unit (s := S8192x1024) ![4608, 0] S512x1024.size inb_S8192x1024_S512x1024_4608_0) (fun _ => rfl)).view.set]{fullShare} recvFull m c : sProp 𝕄) := payload_recv m c 9 d
theorem payload_send_v9 (c : Dev nD) (d : Unit) : (sched (F := F) m).payload (sendCell c 9) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 9 d
theorem payload_recv_v10 (c : Dev nD) (d : Unit) : (sched (F := F) m).payload (recvCell c 10) 0 d
    = (((Memref.whole main_v1_1 : Memref sig .tc .hbm S8192x1024 .bf16).slice (Rect.unit (s := S8192x1024) ![5120, 0] S512x1024.size inb_S8192x1024_S512x1024_5120_0) (fun _ => rfl)).view.loc (c : Thread nD τ) ↦[((Memref.whole main_v1_1 : Memref sig .tc .hbm S8192x1024 .bf16).slice (Rect.unit (s := S8192x1024) ![5120, 0] S512x1024.size inb_S8192x1024_S512x1024_5120_0) (fun _ => rfl)).view.set]{fullShare} recvFull m c : sProp 𝕄) := payload_recv m c 10 d
theorem payload_send_v10 (c : Dev nD) (d : Unit) : (sched (F := F) m).payload (sendCell c 10) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 10 d
theorem payload_recv_v11 (c : Dev nD) (d : Unit) : (sched (F := F) m).payload (recvCell c 11) 0 d
    = (((Memref.whole main_v1_1 : Memref sig .tc .hbm S8192x1024 .bf16).slice (Rect.unit (s := S8192x1024) ![5632, 0] S512x1024.size inb_S8192x1024_S512x1024_5632_0) (fun _ => rfl)).view.loc (c : Thread nD τ) ↦[((Memref.whole main_v1_1 : Memref sig .tc .hbm S8192x1024 .bf16).slice (Rect.unit (s := S8192x1024) ![5632, 0] S512x1024.size inb_S8192x1024_S512x1024_5632_0) (fun _ => rfl)).view.set]{fullShare} recvFull m c : sProp 𝕄) := payload_recv m c 11 d
theorem payload_send_v11 (c : Dev nD) (d : Unit) : (sched (F := F) m).payload (sendCell c 11) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 11 d
theorem payload_recv_v12 (c : Dev nD) (d : Unit) : (sched (F := F) m).payload (recvCell c 12) 0 d
    = (((Memref.whole main_v1_1 : Memref sig .tc .hbm S8192x1024 .bf16).slice (Rect.unit (s := S8192x1024) ![6144, 0] S512x1024.size inb_S8192x1024_S512x1024_6144_0) (fun _ => rfl)).view.loc (c : Thread nD τ) ↦[((Memref.whole main_v1_1 : Memref sig .tc .hbm S8192x1024 .bf16).slice (Rect.unit (s := S8192x1024) ![6144, 0] S512x1024.size inb_S8192x1024_S512x1024_6144_0) (fun _ => rfl)).view.set]{fullShare} recvFull m c : sProp 𝕄) := payload_recv m c 12 d
theorem payload_send_v12 (c : Dev nD) (d : Unit) : (sched (F := F) m).payload (sendCell c 12) 0 d
    = (iprop(∃ f, (((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![0, 0, 0] S1x512x1024.size inb_S4x512x1024_S1x512x1024_0_0_0) (fun _ => rfl)).squeeze S512x1024 squeezes_S1x512x1024_S512x1024).view.set]{fullShare} f) : sProp 𝕄) := payload_send m c 12 d
theorem payload_recv_v13 (c : Dev nD) (d : Unit) : (sched (F := F) m).payload (recvCell c 13) 0 d
    = (((Memref.whole main_v1_1 : Memref sig .tc .hbm S8192x1024 .bf16).slice (Rect.unit (s := S8192x1024) ![6656, 0] S512x1024.size inb_S8192x1024_S512x1024_6656_0) (fun _ => rfl)).view.loc (c : Thread nD τ) ↦[((Memref.whole main_v1_1 : Memref sig .tc .hbm S8192x1024 .bf16).slice (Rect.unit (s := S8192x1024) ![6656, 0] S512x1024.size inb_S8192x1024_S512x1024_6656_0) (fun _ => rfl)).view.set]{fullShare} recvFull m c : sProp 𝕄) := payload_recv m c 13 d
theorem payload_send_v13 (c : Dev nD) (d : Unit) : (sched (F := F) m).payload (sendCell c 13) 0 d
    = (iprop(∃ f, (((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![1, 0, 0] S1x512x1024.size inb_S4x512x1024_S1x512x1024_1_0_0) (fun _ => rfl)).squeeze S512x1024 squeezes_S1x512x1024_S512x1024).view.set]{fullShare} f) : sProp 𝕄) := payload_send m c 13 d
theorem payload_recv_v14 (c : Dev nD) (d : Unit) : (sched (F := F) m).payload (recvCell c 14) 0 d
    = (((Memref.whole main_v1_1 : Memref sig .tc .hbm S8192x1024 .bf16).slice (Rect.unit (s := S8192x1024) ![7168, 0] S512x1024.size inb_S8192x1024_S512x1024_7168_0) (fun _ => rfl)).view.loc (c : Thread nD τ) ↦[((Memref.whole main_v1_1 : Memref sig .tc .hbm S8192x1024 .bf16).slice (Rect.unit (s := S8192x1024) ![7168, 0] S512x1024.size inb_S8192x1024_S512x1024_7168_0) (fun _ => rfl)).view.set]{fullShare} recvFull m c : sProp 𝕄) := payload_recv m c 14 d
theorem payload_send_v14 (c : Dev nD) (d : Unit) : (sched (F := F) m).payload (sendCell c 14) 0 d
    = (iprop(∃ f, (((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![2, 0, 0] S1x512x1024.size inb_S4x512x1024_S1x512x1024_2_0_0) (fun _ => rfl)).squeeze S512x1024 squeezes_S1x512x1024_S512x1024).view.set]{fullShare} f) : sProp 𝕄) := payload_send m c 14 d
theorem payload_recv_v15 (c : Dev nD) (d : Unit) : (sched (F := F) m).payload (recvCell c 15) 0 d
    = (((Memref.whole main_v1_1 : Memref sig .tc .hbm S8192x1024 .bf16).slice (Rect.unit (s := S8192x1024) ![7680, 0] S512x1024.size inb_S8192x1024_S512x1024_7680_0) (fun _ => rfl)).view.loc (c : Thread nD τ) ↦[((Memref.whole main_v1_1 : Memref sig .tc .hbm S8192x1024 .bf16).slice (Rect.unit (s := S8192x1024) ![7680, 0] S512x1024.size inb_S8192x1024_S512x1024_7680_0) (fun _ => rfl)).view.set]{fullShare} recvFull m c : sProp 𝕄) := payload_recv m c 15 d
theorem payload_send_v15 (c : Dev nD) (d : Unit) : (sched (F := F) m).payload (sendCell c 15) 0 d
    = (iprop(∃ f, (((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.loc (c : Thread nD τ) ↦[(((Memref.whole cc0_scratch1 : Memref sig .tc .vmem S4x512x1024 .bf16).slice (Rect.unit (s := S4x512x1024) ![3, 0, 0] S1x512x1024.size inb_S4x512x1024_S1x512x1024_3_0_0) (fun _ => rfl)).squeeze S512x1024 squeezes_S1x512x1024_S512x1024).view.set]{fullShare} f) : sProp 𝕄) := payload_send m c 15 d
attribute [local sl_rounds] payload_recv_v0 payload_send_v0 payload_recv_v1 payload_send_v1 payload_recv_v2 payload_send_v2 payload_recv_v3 payload_send_v3 payload_recv_v4 payload_send_v4 payload_recv_v5 payload_send_v5 payload_recv_v6 payload_send_v6 payload_recv_v7 payload_send_v7 payload_recv_v8 payload_send_v8 payload_recv_v9 payload_send_v9 payload_recv_v10 payload_send_v10 payload_recv_v11 payload_send_v11 payload_recv_v12 payload_send_v12 payload_recv_v13 payload_send_v13 payload_recv_v14 payload_send_v14 payload_recv_v15 payload_send_v15

set_option maxHeartbeats 60000000 in
set_option maxRecDepth 65536 in
theorem sound_body (K : Dev nD × Fin 33 → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    bodyCtx m K c W f0 f1 f2 f3 f4
      ⊢ wp frame (wpE (defs₀ (F := F)) 𝒱₀ (c : Thread nD τ) none) Set.univ (bodyAt0 (F := F) t0_0) (fun _ => bodyEnd m c) := by
  unfold bodyAt0
  simp only [cc0_body_eq_skeleton]; unfold cc0_body_skel
  unfold bodyCtx O₀
  iintro ⟨#HIb, #HIs0, #HIs1, #HIs2, #HIs3, #HIs4, #HIs5, #HIs6, #HIs7, #HIs8, #HIs9, #HIs10, #HIs11, #HIs12, #HIs13, #HIs14, #HIs15, #HIr0, #HIr1, #HIr2, #HIr3, #HIr4, #HIr5, #HIr6, #HIr7, #HIr8, #HIr9, #HIr10, #HIr11, #HIr12, #HIr13, #HIr14, #HIr15, #HIpb, #HIpr0, #HIpr1, #HIpr2, #HIpr3, #HIpr4, #HIpr5, #HIpr6, #HIpr7, #HIpr8, #HIpr9, #HIpr10, #HIpr11, #HIpr12, #HIpr13, #HIpr14, #HIpr15, #Rb, #Rs0, #Rs1, #Rs2, #Rs3, #Rs4, #Rs5, #Rs6, #Rs7, #Rs8, #Rs9, #Rs10, #Rs11, #Rs12, #Rs13, #Rs14, #Rs15, #Rr0, #Rr1, #Rr2, #Rr3, #Rr4, #Rr5, #Rr6, #Rr7, #Rr8, #Rr9, #Rr10, #Rr11, #Rr12, #Rr13, #Rr14, #Rr15, #Rpb, #Rpr0, #Rpr1, #Rpr2, #Rpr3, #Rpr4, #Rpr5, #Rpr6, #Rpr7, #Rpr8, #Rpr9, #Rpr10, #Rpr11, #Rpr12, #Rpr13, #Rpr14, #Rpr15, #Hlev, Hab, Has0, Has1, Has2, Has3, Has4, Has5, Has6, Has7, Has8, Has9, Has10, Has11, Has12, Has13, Has14, Has15, Har0, Har1, Har2, Har3, Har4, Har5, Har6, Har7, Har8, Har9, Har10, Har11, Har12, Har13, Har14, Har15, Tpb, Tpr0, Tpr1, Tpr2, Tpr3, Tpr4, Tpr5, Tpr6, Tpr7, Tpr8, Tpr9, Tpr10, Tpr11, Tpr12, Tpr13, Tpr14, Tpr15, Ts0, Ts1, Ts2, Ts3, Ts4, Ts5, Ts6, Ts7, Ts8, Ts9, Ts10, Ts11, Ts12, Ts13, Ts14, Ts15, Cb, Cr0, Cr1, Cr2, Cr3, Cr4, Cr5, Cr6, Cr7, Cr8, Cr9, Cr10, Cr11, Cr12, Cr13, Cr14, Cr15, HO, Hx, Hout, Hrecv, Hs0, Hs1, Hs2, Hs3, Hs4, Hz32, Hz33, Hz34, Hz35, Hz36, Hz37, Hz38, Hz39⟩
  have hc : c.val < 32 := c.isLt
  have dMP0 := dMP0 c
  have dMP0s := dMP0s c
  have dPP0 := dPP0 c
  have dPP0s := dPP0s c
  have dPM0 := dPM0 c
  have dPM0s := dPM0s c
  have dPP1 := dPP1 c
  have dPP1s := dPP1s c
  have dPM1 := dPM1 c
  have dPM1s := dPM1s c
  have dPP2 := dPP2 c
  have dPP2s := dPP2s c
  have dPM2 := dPM2 c
  have dPM2s := dPM2s c
  have dPP3 := dPP3 c
  have dPP3s := dPP3s c
  have dPM3 := dPM3 c
  have dPM3s := dPM3s c
  have dPP4 := dPP4 c
  have dPP4s := dPP4s c
  have dPM4 := dPM4 c
  have dPM4s := dPM4s c
  have dPP5 := dPP5 c
  have dPP5s := dPP5s c
  have dPM5 := dPM5 c
  have dPM5s := dPM5s c
  have dPP6 := dPP6 c
  have dPP6s := dPP6s c
  have dPM6 := dPM6 c
  have dPM6s := dPM6s c
  have dPP7 := dPP7 c
  have dPP7s := dPP7s c
  have dPM7 := dPM7 c
  have dPM7s := dPM7s c
  have dPP8 := dPP8 c
  have dPP8s := dPP8s c
  have dPM8 := dPM8 c
  have dPM8s := dPM8s c
  have dPP9 := dPP9 c
  have dPP9s := dPP9s c
  have dPM9 := dPM9 c
  have dPM9s := dPM9s c
  have dPP10 := dPP10 c
  have dPP10s := dPP10s c
  have dPM10 := dPM10 c
  have dPM10s := dPM10s c
  have dPP11 := dPP11 c
  have dPP11s := dPP11s c
  have dPM11 := dPM11 c
  have dPM11s := dPM11s c
  have dPP12 := dPP12 c
  have dPP12s := dPP12s c
  have dPM12 := dPM12 c
  have dPM12s := dPM12s c
  have dPP13 := dPP13 c
  have dPP13s := dPP13s c
  have dPM13 := dPM13 c
  have dPM13s := dPM13s c
  have dPP14 := dPP14 c
  have dPP14s := dPP14s c
  have dPM14 := dPM14 c
  have dPM14s := dPM14s c
  have dMM0 := dMM0 c
  have dMM0s := dMM0s c
  have dMM1 := dMM1 c
  have dMM1s := dMM1s c
  have dMM2 := dMM2 c
  have dMM2s := dMM2s c
  have dMM3 := dMM3 c
  have dMM3s := dMM3s c
  have dMM4 := dMM4 c
  have dMM4s := dMM4s c
  have dMM5 := dMM5 c
  have dMM5s := dMM5s c
  have dMM6 := dMM6 c
  have dMM6s := dMM6s c
  have dMM7 := dMM7 c
  have dMM7s := dMM7s c
  have dMM8 := dMM8 c
  have dMM8s := dMM8s c
  have dMM9 := dMM9 c
  have dMM9s := dMM9s c
  have dMM10 := dMM10 c
  have dMM10s := dMM10s c
  have dMM11 := dMM11 c
  have dMM11s := dMM11s c
  have dMM12 := dMM12 c
  have dMM12s := dMM12s c
  have dMM13 := dMM13 c
  have dMM13s := dMM13s c
  have dMM14 := dMM14 c
  have dMM14s := dMM14s c
  have mwB := mwB (F := F) c
  ihave Hrecv := (Entails.of_eq (landing_respell m c)) $$ Hrecv
  ihave X := (slots_split c f1) $$ Hs1
  icases X with ⟨Hv0, Hv1, Hv2, Hv3⟩
  ihave X := (pair_split_scratch0 c f0) $$ Hs0
  icases X with ⟨Hc0, Hc1⟩
  ihave X := (pair_split_scratch2 c f2) $$ Hs2
  icases X with ⟨Hm0, Hm1⟩
  ihave X := (pair_split_scratch3 c f3) $$ Hs3
  icases X with ⟨Hr0, Hr1⟩
  ihave X := (pair_split_scratch4 c f4) $$ Hs4
  icases X with ⟨He0, He1⟩
  ihave X := (bands_split_out c _) $$ Hout
  icases X with ⟨Ho0, Ho1, Ho2, Ho3, Ho4, Ho5, Ho6, Ho7, Ho8, Ho9, Ho10, Ho11, Ho12, Ho13, Ho14, Ho15⟩

  -- chunk 0 goes to the partner's band 0
  have mwP0 := mwP0 (F := F) c
  sl_exec_parts
  clear mwP0 mwB
  -- the partner's landing array, band by band
  ihave Hpw := (Entails.of_eq (whole_pts (peer c) main_v1_1 _)) $$ Hab_pay1
  ihave Hbands := (rows_split (peer c) _) $$ Hpw
  icases Hbands with ⟨Hp0, Hp1, Hp2, Hp3, Hp4, Hp5, Hp6, Hp7, Hp8, Hp9, Hp10, Hp11, Hp12, Hp13, Hp14, Hp15⟩
  iapply (send_h_0 m (K (c, 1)) (K (peer c, 17)) c _ ?_ _ (((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N) + tallyAt (recvCell (peer c) 1) () N)) _) $$ [Hv0 Hp0 HO Ts0 Tpr0]
  rotate_left
  · isplitr; · iexact HIs0
    isplitr; · iexact HIpr0
    isplitl [Hv0]; · iexact Hv0
    isplitl [Hp0]; · iexact Hp0
    isplitl [HO]; · iexact HO
    isplitl [Ts0]; · iexact Ts0
    isplitr; · iexact Rs0
    isplitl [Tpr0]; · iexact Tpr0
    iexact Rpr0
  rotate_left
  · sl_unfold_words
    exact slot_written_chunk_0 m c 0 _ _ _ (k0_off1 c) (k0_off1_inb c)
      (fun u a b => cvt_apply _ _ _ _ u a b)
      (fun a b => cvt_load_listed 0 _ _ _ _ _ a b)
      (by rw [k0_off1_eq]; rfl) (by rw [k0_off1_eq, col_peer]; rfl)
  iintro ⟨Cs0, HO⟩
  first | iapply (wp_ret_bind _ _ _) | skip
  -- chunk 1 goes to the partner's band 1
  have mwP1 := mwP1 (F := F) c
  sl_exec_parts
  clear mwP1
  iapply (send_h_1 m (K (c, 2)) (K (peer c, 18)) c _ ?_ _ ((((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N) + tallyAt (recvCell (peer c) 2) () N)) _) $$ [Hv1 Hp1 HO Ts1 Tpr1]
  rotate_left
  · isplitr; · iexact HIs1
    isplitr; · iexact HIpr1
    isplitl [Hv1]; · iexact Hv1
    isplitl [Hp1]; · iexact Hp1
    isplitl [HO]; · iexact HO
    isplitl [Ts1]; · iexact Ts1
    isplitr; · iexact Rs1
    isplitl [Tpr1]; · iexact Tpr1
    iexact Rpr1
  rotate_left
  · sl_unfold_words
    exact slot_written_chunk_1 m c 1 _ _ _ (k0_off3 c) (k0_off3_inb c)
      (fun u a b => cvt_apply _ _ _ _ u a b)
      (fun a b => cvt_load_listed 1 _ _ _ _ _ a b)
      (by rw [k0_off3_eq]; rfl) (by rw [k0_off3_eq, col_peer]; rfl)
  iintro ⟨Cs1, HO⟩
  first | iapply (wp_ret_bind _ _ _) | skip
  -- chunk 2 goes to the partner's band 2
  have mwP2 := mwP2 (F := F) c
  sl_exec_parts
  clear mwP2
  iapply (send_h_2 m (K (c, 3)) (K (peer c, 19)) c _ ?_ _ (((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N) + tallyAt (recvCell (peer c) 3) () N)) _) $$ [Hv2 Hp2 HO Ts2 Tpr2]
  rotate_left
  · isplitr; · iexact HIs2
    isplitr; · iexact HIpr2
    isplitl [Hv2]; · iexact Hv2
    isplitl [Hp2]; · iexact Hp2
    isplitl [HO]; · iexact HO
    isplitl [Ts2]; · iexact Ts2
    isplitr; · iexact Rs2
    isplitl [Tpr2]; · iexact Tpr2
    iexact Rpr2
  rotate_left
  · sl_unfold_words
    exact slot_written_chunk_2 m c 2 _ _ _ (k0_off4 c) (k0_off4_inb c)
      (fun u a b => cvt_apply _ _ _ _ u a b)
      (fun a b => cvt_load_listed 0 _ _ _ _ _ a b)
      (by rw [k0_off4_eq]; rfl) (by rw [k0_off4_eq, col_peer]; rfl)
  iintro ⟨Cs2, HO⟩
  first | iapply (wp_ret_bind _ _ _) | skip
  -- chunk 3 goes to the partner's band 3
  have mwP3 := mwP3 (F := F) c
  sl_exec_parts
  clear mwP3
  iapply (send_h_3 m (K (c, 4)) (K (peer c, 20)) c _ ?_ _ ((((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N) + tallyAt (recvCell (peer c) 4) () N)) _) $$ [Hv3 Hp3 HO Ts3 Tpr3]
  rotate_left
  · isplitr; · iexact HIs3
    isplitr; · iexact HIpr3
    isplitl [Hv3]; · iexact Hv3
    isplitl [Hp3]; · iexact Hp3
    isplitl [HO]; · iexact HO
    isplitl [Ts3]; · iexact Ts3
    isplitr; · iexact Rs3
    isplitl [Tpr3]; · iexact Tpr3
    iexact Rpr3
  rotate_left
  · sl_unfold_words
    exact slot_written_chunk_3 m c 3 _ _ _ (k0_off5 c) (k0_off5_inb c)
      (fun u a b => cvt_apply _ _ _ _ u a b)
      (fun a b => cvt_load_listed 1 _ _ _ _ _ a b)
      (by rw [k0_off5_eq]; rfl) (by rw [k0_off5_eq, col_peer]; rfl)
  iintro ⟨Cs3, HO⟩
  first | iapply (wp_ret_bind _ _ _) | skip
  -- chunk 4 goes to the partner's band 4
  have mwP4 := mwP4 (F := F) c
  have mwS4 := mwS4 (F := F) c
  sl_exec_parts
  clear mwP4 mwS4
  iapply (send_h_4 m (K (c, 5)) (K (peer c, 21)) c _ ?_ _ (((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N) + tallyAt (recvCell (peer c) 5) () N)) _) $$ [Has0_pay1 Hp4 HO Ts4 Tpr4]
  rotate_left
  · isplitr; · iexact HIs4
    isplitr; · iexact HIpr4
    isplitl [Has0_pay1]; · iexact Has0_pay1
    isplitl [Hp4]; · iexact Hp4
    isplitl [HO]; · iexact HO
    isplitl [Ts4]; · iexact Ts4
    isplitr; · iexact Rs4
    isplitl [Tpr4]; · iexact Tpr4
    iexact Rpr4
  rotate_left
  · sl_unfold_words
    exact slot_written_chunk_0 m c 4 _ _ _ (k0_off6 c) (k0_off6_inb c)
      (fun u a b => cvt_apply _ _ _ _ u a b)
      (fun a b => cvt_load_listed 0 _ _ _ _ _ a b)
      (by rw [k0_off6_eq]; rfl) (by rw [k0_off6_eq, col_peer]; rfl)
  iintro ⟨Cs4, HO⟩
  first | iapply (wp_ret_bind _ _ _) | skip
  -- chunk 5 goes to the partner's band 5
  have mwP5 := mwP5 (F := F) c
  have mwS5 := mwS5 (F := F) c
  sl_exec_parts
  clear mwP5 mwS5
  iapply (send_h_5 m (K (c, 6)) (K (peer c, 22)) c _ ?_ _ ((((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N) + tallyAt (recvCell (peer c) 6) () N)) _) $$ [Has1_pay1 Hp5 HO Ts5 Tpr5]
  rotate_left
  · isplitr; · iexact HIs5
    isplitr; · iexact HIpr5
    isplitl [Has1_pay1]; · iexact Has1_pay1
    isplitl [Hp5]; · iexact Hp5
    isplitl [HO]; · iexact HO
    isplitl [Ts5]; · iexact Ts5
    isplitr; · iexact Rs5
    isplitl [Tpr5]; · iexact Tpr5
    iexact Rpr5
  rotate_left
  · sl_unfold_words
    exact slot_written_chunk_1 m c 5 _ _ _ (k0_off7 c) (k0_off7_inb c)
      (fun u a b => cvt_apply _ _ _ _ u a b)
      (fun a b => cvt_load_listed 1 _ _ _ _ _ a b)
      (by rw [k0_off7_eq]; rfl) (by rw [k0_off7_eq, col_peer]; rfl)
  iintro ⟨Cs5, HO⟩
  first | iapply (wp_ret_bind _ _ _) | skip
  -- chunk 6 goes to the partner's band 6
  have mwP6 := mwP6 (F := F) c
  have mwS6 := mwS6 (F := F) c
  sl_exec_parts
  clear mwP6 mwS6
  iapply (send_h_6 m (K (c, 7)) (K (peer c, 23)) c _ ?_ _ (((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N) + tallyAt (recvCell (peer c) 7) () N)) _) $$ [Has2_pay1 Hp6 HO Ts6 Tpr6]
  rotate_left
  · isplitr; · iexact HIs6
    isplitr; · iexact HIpr6
    isplitl [Has2_pay1]; · iexact Has2_pay1
    isplitl [Hp6]; · iexact Hp6
    isplitl [HO]; · iexact HO
    isplitl [Ts6]; · iexact Ts6
    isplitr; · iexact Rs6
    isplitl [Tpr6]; · iexact Tpr6
    iexact Rpr6
  rotate_left
  · sl_unfold_words
    exact slot_written_chunk_2 m c 6 _ _ _ (k0_off8 c) (k0_off8_inb c)
      (fun u a b => cvt_apply _ _ _ _ u a b)
      (fun a b => cvt_load_listed 0 _ _ _ _ _ a b)
      (by rw [k0_off8_eq]; rfl) (by rw [k0_off8_eq, col_peer]; rfl)
  iintro ⟨Cs6, HO⟩
  first | iapply (wp_ret_bind _ _ _) | skip
  -- chunk 7 goes to the partner's band 7
  have mwP7 := mwP7 (F := F) c
  have mwS7 := mwS7 (F := F) c
  sl_exec_parts
  clear mwP7 mwS7
  iapply (send_h_7 m (K (c, 8)) (K (peer c, 24)) c _ ?_ _ ((((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N) + tallyAt (recvCell (peer c) 8) () N)) _) $$ [Has3_pay1 Hp7 HO Ts7 Tpr7]
  rotate_left
  · isplitr; · iexact HIs7
    isplitr; · iexact HIpr7
    isplitl [Has3_pay1]; · iexact Has3_pay1
    isplitl [Hp7]; · iexact Hp7
    isplitl [HO]; · iexact HO
    isplitl [Ts7]; · iexact Ts7
    isplitr; · iexact Rs7
    isplitl [Tpr7]; · iexact Tpr7
    iexact Rpr7
  rotate_left
  · sl_unfold_words
    exact slot_written_chunk_3 m c 7 _ _ _ (k0_off9 c) (k0_off9_inb c)
      (fun u a b => cvt_apply _ _ _ _ u a b)
      (fun a b => cvt_load_listed 1 _ _ _ _ _ a b)
      (by rw [k0_off9_eq]; rfl) (by rw [k0_off9_eq, col_peer]; rfl)
  iintro ⟨Cs7, HO⟩
  first | iapply (wp_ret_bind _ _ _) | skip
  -- chunk 8 goes to the partner's band 8
  have mwP8 := mwP8 (F := F) c
  have mwS8 := mwS8 (F := F) c
  sl_exec_parts
  clear mwP8 mwS8
  iapply (send_h_8 m (K (c, 9)) (K (peer c, 25)) c _ ?_ _ (((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N) + tallyAt (recvCell (peer c) 9) () N)) _) $$ [Has4_pay1 Hp8 HO Ts8 Tpr8]
  rotate_left
  · isplitr; · iexact HIs8
    isplitr; · iexact HIpr8
    isplitl [Has4_pay1]; · iexact Has4_pay1
    isplitl [Hp8]; · iexact Hp8
    isplitl [HO]; · iexact HO
    isplitl [Ts8]; · iexact Ts8
    isplitr; · iexact Rs8
    isplitl [Tpr8]; · iexact Tpr8
    iexact Rpr8
  rotate_left
  · sl_unfold_words
    exact slot_written_chunk_0 m c 8 _ _ _ (k0_off10 c) (k0_off10_inb c)
      (fun u a b => cvt_apply _ _ _ _ u a b)
      (fun a b => cvt_load_listed 0 _ _ _ _ _ a b)
      (by rw [k0_off10_eq]; rfl) (by rw [k0_off10_eq, col_peer]; rfl)
  iintro ⟨Cs8, HO⟩
  first | iapply (wp_ret_bind _ _ _) | skip
  -- chunk 9 goes to the partner's band 9
  have mwP9 := mwP9 (F := F) c
  have mwS9 := mwS9 (F := F) c
  sl_exec_parts
  clear mwP9 mwS9
  iapply (send_h_9 m (K (c, 10)) (K (peer c, 26)) c _ ?_ _ ((((((tallyAt (recvCell (peer c) 15) () N + tallyAt (recvCell (peer c) 14) () N) + tallyAt (recvCell (peer c) 13) () N) + tallyAt (recvCell (peer c) 12) () N) + tallyAt (recvCell (peer c) 11) () N) + tallyAt (recvCell (peer c) 10) () N)) _) $$ [Has5_pay1 Hp9 HO Ts9 Tpr9]
  rotate_left
  · isplitr; · iexact HIs9
    isplitr; · iexact HIpr9
    isplitl [Has5_pay1]; · iexact Has5_pay1
    isplitl [Hp9]; · iexact Hp9
    isplitl [HO]; · iexact HO
    isplitl [Ts9]; · iexact Ts9
    isplitr; · iexact Rs9
    isplitl [Tpr9]; · iexact Tpr9
    iexact Rpr9
  rotate_left
  · sl_unfold_words
    exact slot_written_chunk_1 m c 9 _ _ _ (k0_off11 c) (k0_off11_inb c)
      (fun u a b => cvt_apply _ _ _ _ u a b)
      (fun a b => cvt_load_listed 1 _ _ _ _ _ a b)
      (by rw [k0_off11_eq]; rfl) (by rw [k0_off11_eq, col_peer]; rfl)
  iintro ⟨Cs9, HO⟩
  first | iapply (wp_ret_bind _ _ _) | skip
  -- chunk 10 goes to the partner's band 10
  have mwP10 := mwP10 (F := F) c
  have mwS10 := mwS10 (F := F) c
  sl_exec_parts
  clear mwP10 mwS10
  iapply (send_h_10 m (K (c, 11)) (K (peer c, 27)) c _ ?_ _ (((((tallyAt (recvCell (peer c) 15) () N + tallyAt (recvCell (peer c) 14) () N) + tallyAt (recvCell (peer c) 13) () N) + tallyAt (recvCell (peer c) 12) () N) + tallyAt (recvCell (peer c) 11) () N)) _) $$ [Has6_pay1 Hp10 HO Ts10 Tpr10]
  rotate_left
  · isplitr; · iexact HIs10
    isplitr; · iexact HIpr10
    isplitl [Has6_pay1]; · iexact Has6_pay1
    isplitl [Hp10]; · iexact Hp10
    isplitl [HO]; · iexact HO
    isplitl [Ts10]; · iexact Ts10
    isplitr; · iexact Rs10
    isplitl [Tpr10]; · iexact Tpr10
    iexact Rpr10
  rotate_left
  · sl_unfold_words
    exact slot_written_chunk_2 m c 10 _ _ _ (k0_off12 c) (k0_off12_inb c)
      (fun u a b => cvt_apply _ _ _ _ u a b)
      (fun a b => cvt_load_listed 0 _ _ _ _ _ a b)
      (by rw [k0_off12_eq]; rfl) (by rw [k0_off12_eq, col_peer]; rfl)
  iintro ⟨Cs10, HO⟩
  first | iapply (wp_ret_bind _ _ _) | skip
  -- chunk 11 goes to the partner's band 11
  have mwP11 := mwP11 (F := F) c
  have mwS11 := mwS11 (F := F) c
  sl_exec_parts
  clear mwP11 mwS11
  iapply (send_h_11 m (K (c, 12)) (K (peer c, 28)) c _ ?_ _ ((((tallyAt (recvCell (peer c) 15) () N + tallyAt (recvCell (peer c) 14) () N) + tallyAt (recvCell (peer c) 13) () N) + tallyAt (recvCell (peer c) 12) () N)) _) $$ [Has7_pay1 Hp11 HO Ts11 Tpr11]
  rotate_left
  · isplitr; · iexact HIs11
    isplitr; · iexact HIpr11
    isplitl [Has7_pay1]; · iexact Has7_pay1
    isplitl [Hp11]; · iexact Hp11
    isplitl [HO]; · iexact HO
    isplitl [Ts11]; · iexact Ts11
    isplitr; · iexact Rs11
    isplitl [Tpr11]; · iexact Tpr11
    iexact Rpr11
  rotate_left
  · sl_unfold_words
    exact slot_written_chunk_3 m c 11 _ _ _ (k0_off13 c) (k0_off13_inb c)
      (fun u a b => cvt_apply _ _ _ _ u a b)
      (fun a b => cvt_load_listed 1 _ _ _ _ _ a b)
      (by rw [k0_off13_eq]; rfl) (by rw [k0_off13_eq, col_peer]; rfl)
  iintro ⟨Cs11, HO⟩
  first | iapply (wp_ret_bind _ _ _) | skip
  -- chunk 12 goes to the partner's band 12
  have mwP12 := mwP12 (F := F) c
  have mwS12 := mwS12 (F := F) c
  sl_exec_parts
  clear mwP12 mwS12
  iapply (send_h_12 m (K (c, 13)) (K (peer c, 29)) c _ ?_ _ (((tallyAt (recvCell (peer c) 15) () N + tallyAt (recvCell (peer c) 14) () N) + tallyAt (recvCell (peer c) 13) () N)) _) $$ [Has8_pay1 Hp12 HO Ts12 Tpr12]
  rotate_left
  · isplitr; · iexact HIs12
    isplitr; · iexact HIpr12
    isplitl [Has8_pay1]; · iexact Has8_pay1
    isplitl [Hp12]; · iexact Hp12
    isplitl [HO]; · iexact HO
    isplitl [Ts12]; · iexact Ts12
    isplitr; · iexact Rs12
    isplitl [Tpr12]; · iexact Tpr12
    iexact Rpr12
  rotate_left
  · sl_unfold_words
    exact slot_written_chunk_0 m c 12 _ _ _ (k0_off14 c) (k0_off14_inb c)
      (fun u a b => cvt_apply _ _ _ _ u a b)
      (fun a b => cvt_load_listed 0 _ _ _ _ _ a b)
      (by rw [k0_off14_eq]; rfl) (by rw [k0_off14_eq, col_peer]; rfl)
  iintro ⟨Cs12, HO⟩
  first | iapply (wp_ret_bind _ _ _) | skip
  -- chunk 13 goes to the partner's band 13
  have mwP13 := mwP13 (F := F) c
  have mwS13 := mwS13 (F := F) c
  sl_exec_parts
  clear mwP13 mwS13
  iapply (send_h_13 m (K (c, 14)) (K (peer c, 30)) c _ ?_ _ ((tallyAt (recvCell (peer c) 15) () N + tallyAt (recvCell (peer c) 14) () N)) _) $$ [Has9_pay1 Hp13 HO Ts13 Tpr13]
  rotate_left
  · isplitr; · iexact HIs13
    isplitr; · iexact HIpr13
    isplitl [Has9_pay1]; · iexact Has9_pay1
    isplitl [Hp13]; · iexact Hp13
    isplitl [HO]; · iexact HO
    isplitl [Ts13]; · iexact Ts13
    isplitr; · iexact Rs13
    isplitl [Tpr13]; · iexact Tpr13
    iexact Rpr13
  rotate_left
  · sl_unfold_words
    exact slot_written_chunk_1 m c 13 _ _ _ (k0_off15 c) (k0_off15_inb c)
      (fun u a b => cvt_apply _ _ _ _ u a b)
      (fun a b => cvt_load_listed 1 _ _ _ _ _ a b)
      (by rw [k0_off15_eq]; rfl) (by rw [k0_off15_eq, col_peer]; rfl)
  iintro ⟨Cs13, HO⟩
  first | iapply (wp_ret_bind _ _ _) | skip
  -- chunk 14 goes to the partner's band 14
  have mwP14 := mwP14 (F := F) c
  have mwS14 := mwS14 (F := F) c
  sl_exec_parts
  clear mwP14 mwS14
  iapply (send_h_14 m (K (c, 15)) (K (peer c, 31)) c _ ?_ _ (tallyAt (recvCell (peer c) 15) () N) _) $$ [Has10_pay1 Hp14 HO Ts14 Tpr14]
  rotate_left
  · isplitr; · iexact HIs14
    isplitr; · iexact HIpr14
    isplitl [Has10_pay1]; · iexact Has10_pay1
    isplitl [Hp14]; · iexact Hp14
    isplitl [HO]; · iexact HO
    isplitl [Ts14]; · iexact Ts14
    isplitr; · iexact Rs14
    isplitl [Tpr14]; · iexact Tpr14
    iexact Rpr14
  rotate_left
  · sl_unfold_words
    exact slot_written_chunk_2 m c 14 _ _ _ (k0_off16 c) (k0_off16_inb c)
      (fun u a b => cvt_apply _ _ _ _ u a b)
      (fun a b => cvt_load_listed 0 _ _ _ _ _ a b)
      (by rw [k0_off16_eq]; rfl) (by rw [k0_off16_eq, col_peer]; rfl)
  iintro ⟨Cs14, HO⟩
  first | iapply (wp_ret_bind _ _ _) | skip
  -- chunk 15 goes to the partner's band 15
  have mwP15 := mwP15 (F := F) c
  have mwS15 := mwS15 (F := F) c
  sl_exec_parts
  clear mwP15 mwS15
  ihave HO := (Entails.of_eq (owes_zero_add (c : Thread nD τ) _ _)) $$ HO
  iapply (send_h_15 m (K (c, 16)) (K (peer c, 32)) c _ ?_ _ (0) _) $$ [Has11_pay1 Hp15 HO Ts15 Tpr15]
  rotate_left
  · isplitr; · iexact HIs15
    isplitr; · iexact HIpr15
    isplitl [Has11_pay1]; · iexact Has11_pay1
    isplitl [Hp15]; · iexact Hp15
    isplitl [HO]; · iexact HO
    isplitl [Ts15]; · iexact Ts15
    isplitr; · iexact Rs15
    isplitl [Tpr15]; · iexact Tpr15
    iexact Rpr15
  rotate_left
  · sl_unfold_words
    exact slot_written_chunk_3 m c 15 _ _ _ (k0_off17 c) (k0_off17_inb c)
      (fun u a b => cvt_apply _ _ _ _ u a b)
      (fun a b => cvt_load_listed 1 _ _ _ _ _ a b)
      (by rw [k0_off17_eq]; rfl) (by rw [k0_off17_eq, col_peer]; rfl)
  iintro ⟨Cs15, HO⟩
  first | iapply (wp_ret_bind _ _ _) | skip
  sl_exec_parts

  -- the end: the own cells are closed; the buffers are put back together
  imod (close_own m K c 1 le_rfl) $$ [Has0 Has1 Has2 Has3 Has4 Has5 Has6 Has7 Has8 Has9 Has10 Has11 Has12 Has13 Has14 Has15 Har0 Har1 Har2 Har3 Har4 Har5 Har6 Har7 Har8 Har9 Har10 Har11 Har12 Har13 Har14 Har15] with Hown
  · isplitr
    · isplitr; · iexact HIs0
      isplitr; · iexact HIs1
      isplitr; · iexact HIs2
      isplitr; · iexact HIs3
      isplitr; · iexact HIs4
      isplitr; · iexact HIs5
      isplitr; · iexact HIs6
      isplitr; · iexact HIs7
      isplitr; · iexact HIs8
      isplitr; · iexact HIs9
      isplitr; · iexact HIs10
      isplitr; · iexact HIs11
      isplitr; · iexact HIs12
      isplitr; · iexact HIs13
      isplitr; · iexact HIs14
      isplitr; · iexact HIs15
      isplitr; · iexact HIr0
      isplitr; · iexact HIr1
      isplitr; · iexact HIr2
      isplitr; · iexact HIr3
      isplitr; · iexact HIr4
      isplitr; · iexact HIr5
      isplitr; · iexact HIr6
      isplitr; · iexact HIr7
      isplitr; · iexact HIr8
      isplitr; · iexact HIr9
      isplitr; · iexact HIr10
      isplitr; · iexact HIr11
      isplitr; · iexact HIr12
      isplitr; · iexact HIr13
      isplitr; · iexact HIr14
      iexact HIr15
    · isplitl [Has0]; · iexact Has0
      isplitl [Has1]; · iexact Has1
      isplitl [Has2]; · iexact Has2
      isplitl [Has3]; · iexact Has3
      isplitl [Has4]; · iexact Has4
      isplitl [Has5]; · iexact Has5
      isplitl [Has6]; · iexact Has6
      isplitl [Has7]; · iexact Has7
      isplitl [Has8]; · iexact Has8
      isplitl [Has9]; · iexact Has9
      isplitl [Has10]; · iexact Has10
      isplitl [Has11]; · iexact Has11
      isplitl [Has12]; · iexact Has12
      isplitl [Has13]; · iexact Has13
      isplitl [Has14]; · iexact Has14
      isplitl [Has15]; · iexact Has15
      isplitl [Har0]; · iexact Har0
      isplitl [Har1]; · iexact Har1
      isplitl [Har2]; · iexact Har2
      isplitl [Har3]; · iexact Har3
      isplitl [Har4]; · iexact Har4
      isplitl [Har5]; · iexact Har5
      isplitl [Har6]; · iexact Har6
      isplitl [Har7]; · iexact Har7
      isplitl [Har8]; · iexact Har8
      isplitl [Har9]; · iexact Har9
      isplitl [Har10]; · iexact Har10
      isplitl [Har11]; · iexact Har11
      isplitl [Har12]; · iexact Har12
      isplitl [Har13]; · iexact Har13
      isplitl [Har14]; · iexact Har14
      iexact Har15
  iapply (wp_ret_intro _ _)
  unfold bodyEnd Φ₁ scratch
  isplitr [HO]
  · isplitl [Hx]
    · iapply (Entails.of_eq (whole_pts c main_arg0 _)); iexact Hx
    isplitl [Ho0 Ho1 Ho2 Ho3 Ho4 Ho5 Ho6 Ho7 Ho8 Ho9 Ho10 Ho11 Ho12 Ho13 Ho14 Ho15]
    · iapply (bands_join_out m c _ _ _ _ _ _ _ _ _ _ _ _ _ _ _ _ ?_ ?_ ?_ ?_ ?_ ?_ ?_ ?_ ?_ ?_ ?_ ?_ ?_ ?_ ?_ ?_)
      rotate_left 16
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [Ho9]; · iexact Ho9
        isplitl [Ho10]; · iexact Ho10
        isplitl [Ho11]; · iexact Ho11
        isplitl [Ho12]; · iexact Ho12
        isplitl [Ho13]; · iexact Ho13
        isplitl [Ho14]; · iexact Ho14
        iexact Ho15
      · sl_unfold_words
        exact band_goal_0 m c _ _ _ _ _ _ _ _ (by show (k0_off2 c) 1 = _; rw [k0_off2_eq]; rfl) (by show (k0_off2 c) 2 = _; rw [k0_off2_eq]; rfl)
      · sl_unfold_words
        exact band_goal_1 m c _ _ _ _ _ _ _ _ (by show (k0_off18 c) 1 = _; rw [k0_off18_eq]; rfl) (by show (k0_off18 c) 2 = _; rw [k0_off18_eq]; rfl)
      · sl_unfold_words
        exact band_goal_2 m c _ _ _ _ _ _ _ _ (by show (k0_off19 c) 1 = _; rw [k0_off19_eq]; rfl) (by show (k0_off19 c) 2 = _; rw [k0_off19_eq]; rfl)
      · sl_unfold_words
        exact band_goal_3 m c _ _ _ _ _ _ _ _ (by show (k0_off20 c) 1 = _; rw [k0_off20_eq]; rfl) (by show (k0_off20 c) 2 = _; rw [k0_off20_eq]; rfl)
      · sl_unfold_words
        exact band_goal_4 m c _ _ _ _ _ _ _ _ (by show (k0_off21 c) 1 = _; rw [k0_off21_eq]; rfl) (by show (k0_off21 c) 2 = _; rw [k0_off21_eq]; rfl)
      · sl_unfold_words
        exact band_goal_5 m c _ _ _ _ _ _ _ _ (by show (k0_off22 c) 1 = _; rw [k0_off22_eq]; rfl) (by show (k0_off22 c) 2 = _; rw [k0_off22_eq]; rfl)
      · sl_unfold_words
        exact band_goal_6 m c _ _ _ _ _ _ _ _ (by show (k0_off23 c) 1 = _; rw [k0_off23_eq]; rfl) (by show (k0_off23 c) 2 = _; rw [k0_off23_eq]; rfl)
      · sl_unfold_words
        exact band_goal_7 m c _ _ _ _ _ _ _ _ (by show (k0_off24 c) 1 = _; rw [k0_off24_eq]; rfl) (by show (k0_off24 c) 2 = _; rw [k0_off24_eq]; rfl)
      · sl_unfold_words
        exact band_goal_8 m c _ _ _ _ _ _ _ _ (by show (k0_off25 c) 1 = _; rw [k0_off25_eq]; rfl) (by show (k0_off25 c) 2 = _; rw [k0_off25_eq]; rfl)
      · sl_unfold_words
        exact band_goal_9 m c _ _ _ _ _ _ _ _ (by show (k0_off26 c) 1 = _; rw [k0_off26_eq]; rfl) (by show (k0_off26 c) 2 = _; rw [k0_off26_eq]; rfl)
      · sl_unfold_words
        exact band_goal_10 m c _ _ _ _ _ _ _ _ (by show (k0_off27 c) 1 = _; rw [k0_off27_eq]; rfl) (by show (k0_off27 c) 2 = _; rw [k0_off27_eq]; rfl)
      · sl_unfold_words
        exact band_goal_11 m c _ _ _ _ _ _ _ _ (by show (k0_off28 c) 1 = _; rw [k0_off28_eq]; rfl) (by show (k0_off28 c) 2 = _; rw [k0_off28_eq]; rfl)
      · sl_unfold_words
        exact band_goal_12 m c _ _ _ _ _ _ _ _ (by show (k0_off29 c) 1 = _; rw [k0_off29_eq]; rfl) (by show (k0_off29 c) 2 = _; rw [k0_off29_eq]; rfl)
      · sl_unfold_words
        exact band_goal_13 m c _ _ _ _ _ _ _ _ (by show (k0_off30 c) 1 = _; rw [k0_off30_eq]; rfl) (by show (k0_off30 c) 2 = _; rw [k0_off30_eq]; rfl)
      · sl_unfold_words
        exact band_goal_14 m c _ _ _ _ _ _ _ _ (by show (k0_off31 c) 1 = _; rw [k0_off31_eq]; rfl) (by show (k0_off31 c) 2 = _; rw [k0_off31_eq]; rfl)
      · sl_unfold_words
        exact band_goal_15 m c _ _ _ _ _ _ _ _ (by show (k0_off32 c) 1 = _; rw [k0_off32_eq]; rfl) (by show (k0_off32 c) 2 = _; rw [k0_off32_eq]; rfl)
    isplitl [Hown Hz32 Hz33 Hz34 Hz35 Hz36 Hz37 Hz38 Hz39]
    · iapply (allSems_of c)
      isplitl [Hown]; · iexact Hown
      unfold localSems
      isplitl [Hz32]; · iexact Hz32
      isplitl [Hz33]; · iexact Hz33
      isplitl [Hz34]; · iexact Hz34
      isplitl [Hz35]; · iexact Hz35
      isplitl [Hz36]; · iexact Hz36
      isplitl [Hz37]; · iexact Hz37
      isplitl [Hz38]; · iexact Hz38
      iexact Hz39
    isplitl [Hc0 Hc1]
    · iapply (pair_join_scratch0 c _ _); isplitl [Hc0]; · iexact Hc0
      iexact Hc1
    isplitl [Has12_pay1 Has13_pay1 Has14_pay1 Has15_pay1]
    · iapply (slots_join_h c _ _ _ _)
      isplitl [Has12_pay1]; · iexact Has12_pay1
      isplitl [Has13_pay1]; · iexact Has13_pay1
      isplitl [Has14_pay1]; · iexact Has14_pay1
      iexact Has15_pay1
    isplitl [Hm0 Hm1]
    · iapply (pair_join_scratch2 c _ _); isplitl [Hm0]; · iexact Hm0
      iexact Hm1
    isplitl [Hr0 Hr1]
    · iapply (pair_join_scratch3 c _ _); isplitl [Hr0]; · iexact Hr0
      iexact Hr1
    iapply (pair_join_scratch4 c _ _); isplitl [He0]; · iexact He0
    iexact He1
  · iexists _; iexact HO

/-- The body obligation of the launch theorem, at every device. -/
theorem body_obligation (c : Dev nD) : BodyObligation (dats (F := F) m 0 c) (defs₀ (F := F)) 𝒱₀ () Set.univ :=
  body_obligation_of m (fun K c W f0 f1 f2 f3 f4 => sound_body m K c W f0 f1 f2 f3 f4) c

/-- info: 'Cert.Kernel.RS.body_obligation' depends on axioms: [propext, Classical.choice, Quot.sound] -/
#guard_msgs in #print axioms body_obligation

end Cert.Kernel.RS

end
-- ==== Proof.lean ====
/- The certificate's claim. Each kernel's run — at the extended reals and at the machine's words — is the launch theorem applied to
   the body obligation of every device; the two frames are that run with the value dropped; the reference's run and frame are read
   off its own run; the algebraic claim joins each device's closed-form result to its block of the reference's sum (Proof/Claims.lean).
   Here the body obligation, proved once for any float instance, is read at the two instances. -/
import proofs.«901042_g7700000000001043_dist_rs_v7x_xyz2x4x4_x_m8192_n1024_bf16_1_alg».proof.Defs
import proofs.«901042_g7700000000001043_dist_rs_v7x_xyz2x4x4_x_m8192_n1024_bf16_1_alg».proof.Proof.Claims
import proofs.«901042_g7700000000001043_dist_rs_v7x_xyz2x4x4_x_m8192_n1024_bf16_1_alg».proof.Proof.KernelIdealBody
import proofs.«901042_g7700000000001043_dist_rs_v7x_xyz2x4x4_x_m8192_n1024_bf16_1_alg».proof.Proof.KernelBody

noncomputable section

namespace Cert.Proof

theorem claim : Cert.Claim :=
  claim_of_bodies (fun m c => Cert.KernelIdeal.RS.body_obligation m c) (fun m c => Cert.Kernel.RS.body_obligation m c)

end Cert.Proof

end
